-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v373)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v373) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v456) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x385 : Shape := ⟨2, ![50000, 385]⟩
abbrev S5x1600000 : Shape := ⟨2, ![5, 1600000]⟩
abbrev S4x385x128 : Shape := ⟨3, ![4, 385, 128]⟩
abbrev S4x128 : Shape := ⟨2, ![4, 128]⟩
abbrev S5x128x128 : Shape := ⟨3, ![5, 128, 128]⟩
abbrev S5x128 : Shape := ⟨2, ![5, 128]⟩
abbrev S_ : Shape := ⟨0, ![]⟩

class Facts : Prop where
  bcast_S_S50000x385 : S_.BroadcastsInDim S50000x385 (![] : Fin 0 → Fin S50000x385.rank)
  reducesTo_S50000x385_S_d0_1 : S50000x385.ReducesTo [0, 1] S_
  h_S_ : 0 < S_.numel
  bcast_S_S4x385x128 : S_.BroadcastsInDim S4x385x128 (![] : Fin 0 → Fin S4x385x128.rank)
  reducesTo_S4x385x128_S_d0_1_2 : S4x385x128.ReducesTo [0, 1, 2] S_
  bcast_S_S4x128 : S_.BroadcastsInDim S4x128 (![] : Fin 0 → Fin S4x128.rank)
  reducesTo_S4x128_S_d0_1 : S4x128.ReducesTo [0, 1] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part2 {F : FTy → Type} [FloatOps F] (main_arg9 : FVec F S5x128 .f32) (main_arg10 : FVec F S5x128x128 .f32) (main_arg11 : FVec F S5x128 .f32) (main_v33 : IVec S_ 1) : IVec S_ 1 :=
  let main_v34 : FVec F S5x128 .f32 := Host.absf main_arg9
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S5x128x128 .f32 := Host.absf main_arg10
  let main_cst_14 : FVec F S_ .f32 := constant S_ .f32 0x7F800000#32
  let main_v40 : FVec F S5x128x128 .f32 := broadcastInDim S5x128x128 ![] bcast_S_S5x128x128 main_cst_14
  let main_v41 : IVec S5x128x128 1 := cmpf .olt main_v39 main_v40
  let main_c_15 : IVec S_ 1 := constantI S_ 1 1#1
  let main_v42 : IVec S_ 1 := (fun x v => Host.reduce IntOp.andi x v reducesTo_S5x128x128_S_d0_1_2 h_S_) main_v41 main_c_15
  let main_v43 : IVec S_ 1 := andi main_v38 main_v42
  let main_v44 : FVec F S5x128 .f32 := Host.absf main_arg11
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  main_v48

def fn_part1 {F : FTy → Type} [FloatOps F] (main_arg6 : FVec F S4x385x128 .f32) (main_arg7 : FVec F S4x128 .f32) (main_arg8 : FVec F S5x128x128 .f32) (main_arg9 : FVec F S5x128 .f32) (main_arg10 : FVec F S5x128x128 .f32) (main_arg11 : FVec F S5x128 .f32) (main_v13 : IVec S_ 1) (main_v16 : IVec S50000x385 1) : IVec S_ 1 :=
  let main_c_5 : IVec S_ 1 := constantI S_ 1 1#1
  let main_v17 : IVec S_ 1 := (fun x v => Host.reduce IntOp.andi x v reducesTo_S50000x385_S_d0_1 h_S_) main_v16 main_c_5
  let main_v18 : IVec S_ 1 := andi main_v13 main_v17
  let main_v19 : FVec F S4x385x128 .f32 := Host.absf main_arg6
  let main_cst_6 : FVec F S_ .f32 := constant S_ .f32 0x7F800000#32
  let main_v20 : FVec F S4x385x128 .f32 := broadcastInDim S4x385x128 ![] bcast_S_S4x385x128 main_cst_6
  let main_v21 : IVec S4x385x128 1 := cmpf .olt main_v19 main_v20
  let main_c_7 : IVec S_ 1 := constantI S_ 1 1#1
  let main_v22 : IVec S_ 1 := (fun x v => Host.reduce IntOp.andi x v reducesTo_S4x385x128_S_d0_1_2 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S5x128x128 .f32 := Host.absf main_arg8
  let main_cst_10 : FVec F S_ .f32 := constant S_ .f32 0x7F800000#32
  let main_v30 : FVec F S5x128x128 .f32 := broadcastInDim S5x128x128 ![] bcast_S_S5x128x128 main_cst_10
  let main_v31 : IVec S5x128x128 1 := cmpf .olt main_v29 main_v30
  let main_c_11 : IVec S_ 1 := constantI S_ 1 1#1
  let main_v32 : IVec S_ 1 := (fun x v => Host.reduce IntOp.andi x v reducesTo_S5x128x128_S_d0_1_2 h_S_) main_v31 main_c_11
  let main_v33 : IVec S_ 1 := andi main_v28 main_v32
  fn_part2 (F := F) main_arg9 main_arg10 main_arg11 main_v33

def fn {F : FTy → Type} [FloatOps F] (main_arg0 : FVec F S50000x385 .f32) (main_arg1 : FVec F S50000x385 .f32) (main_arg2 : FVec F S50000x385 .f32) (main_arg3 : FVec F S50000x385 .f32) (main_arg4 : IVec S5x1600000 32) (main_arg5 : IVec S5x1600000 32) (main_arg6 : FVec F S4x385x128 .f32) (main_arg7 : FVec F S4x128 .f32) (main_arg8 : FVec F S5x128x128 .f32) (main_arg9 : FVec F S5x128 .f32) (main_arg10 : FVec F S5x128x128 .f32) (main_arg11 : FVec F S5x128 .f32) : IVec S_ 1 :=
  let main_v0 : FVec F S50000x385 .f32 := Host.absf main_arg0
  let main_cst : FVec F S_ .f32 := constant S_ .f32 0x7F800000#32
  let main_v1 : FVec F S50000x385 .f32 := broadcastInDim S50000x385 ![] bcast_S_S50000x385 main_cst
  let main_v2 : IVec S50000x385 1 := cmpf .olt main_v0 main_v1
  let main_c : IVec S_ 1 := constantI S_ 1 1#1
  let main_v3 : IVec S_ 1 := (fun x v => Host.reduce IntOp.andi x v reducesTo_S50000x385_S_d0_1 h_S_) main_v2 main_c
  let main_v4 : FVec F S50000x385 .f32 := Host.absf main_arg1
  let main_cst_0 : FVec F S_ .f32 := constant S_ .f32 0x7F800000#32
  let main_v5 : FVec F S50000x385 .f32 := broadcastInDim S50000x385 ![] bcast_S_S50000x385 main_cst_0
  let main_v6 : IVec S50000x385 1 := cmpf .olt main_v4 main_v5
  let main_c_1 : IVec S_ 1 := constantI S_ 1 1#1
  let main_v7 : IVec S_ 1 := (fun x v => Host.reduce IntOp.andi x v reducesTo_S50000x385_S_d0_1 h_S_) main_v6 main_c_1
  let main_v8 : IVec S_ 1 := andi main_v3 main_v7
  let main_v9 : FVec F S50000x385 .f32 := Host.absf main_arg2
  let main_cst_2 : FVec F S_ .f32 := constant S_ .f32 0x7F800000#32
  let main_v10 : FVec F S50000x385 .f32 := broadcastInDim S50000x385 ![] bcast_S_S50000x385 main_cst_2
  let main_v11 : IVec S50000x385 1 := cmpf .olt main_v9 main_v10
  let main_c_3 : IVec S_ 1 := constantI S_ 1 1#1
  let main_v12 : IVec S_ 1 := (fun x v => Host.reduce IntOp.andi x v reducesTo_S50000x385_S_d0_1 h_S_) main_v11 main_c_3
  let main_v13 : IVec S_ 1 := andi main_v8 main_v12
  let main_v14 : FVec F S50000x385 .f32 := Host.absf main_arg3
  let main_cst_4 : FVec F S_ .f32 := constant S_ .f32 0x7F800000#32
  let main_v15 : FVec F S50000x385 .f32 := broadcastInDim S50000x385 ![] bcast_S_S50000x385 main_cst_4
  let main_v16 : IVec S50000x385 1 := cmpf .olt main_v14 main_v15
  fn_part1 (F := F) main_arg6 main_arg7 main_arg8 main_arg9 main_arg10 main_arg11 main_v13 main_v16
-- ==== Kernel.lean ====
abbrev S50000x385 : Shape := ⟨2, ![50000, 385]⟩
abbrev S5x1600000 : Shape := ⟨2, ![5, 1600000]⟩
abbrev S4x385x128 : Shape := ⟨3, ![4, 385, 128]⟩
abbrev S4x128 : Shape := ⟨2, ![4, 128]⟩
abbrev S5x128x128 : Shape := ⟨3, ![5, 128, 128]⟩
abbrev S5x128 : Shape := ⟨2, ![5, 128]⟩
abbrev S1x385x128 : Shape := ⟨3, ![1, 385, 128]⟩
abbrev S385x128 : Shape := ⟨2, ![385, 128]⟩
abbrev S1x128 : Shape := ⟨2, ![1, 128]⟩
abbrev S128 : Shape := ⟨1, ![128]⟩
abbrev S50000x128 : Shape := ⟨2, ![50000, 128]⟩
abbrev S2000x385 : Shape := ⟨2, ![2000, 385]⟩
abbrev S2000x128 : Shape := ⟨2, ![2000, 128]⟩
abbrev S_ : Shape := ⟨0, ![]⟩
abbrev S1600000 : Shape := ⟨1, ![1600000]⟩
abbrev S1x1600000 : Shape := ⟨2, ![1, 1600000]⟩
abbrev S50000 : Shape := ⟨1, ![50000]⟩
abbrev S1600000x1 : Shape := ⟨2, ![1600000, 1]⟩
abbrev S1x128x128 : Shape := ⟨3, ![1, 128, 128]⟩
abbrev S128x128 : Shape := ⟨2, ![128, 128]⟩
abbrev S50000x1 : Shape := ⟨2, ![50000, 1]⟩
abbrev S1600000x128 : Shape := ⟨2, ![1600000, 128]⟩
abbrev S2000x1 : Shape := ⟨2, ![2000, 1]⟩
abbrev S1x50000x128 : Shape := ⟨3, ![1, 50000, 128]⟩
abbrev S4x50000x128 : Shape := ⟨3, ![4, 50000, 128]⟩

abbrev nBuf : Space → Nat
  | .hbm => 473
  | .vmem => 104
  | .smem => 0
  | _ => 0

abbrev hbmTy0_0 (i : Nat) : BufTy := match i % 128 with
  | 0 => ⟨S50000x385, .f32⟩
  | 1 => ⟨S50000x385, .f32⟩
  | 2 => ⟨S50000x385, .f32⟩
  | 3 => ⟨S50000x385, .f32⟩
  | 4 => ⟨S5x1600000, .i32⟩
  | 5 => ⟨S5x1600000, .i32⟩
  | 6 => ⟨S4x385x128, .f32⟩
  | 7 => ⟨S4x128, .f32⟩
  | 8 => ⟨S5x128x128, .f32⟩
  | 9 => ⟨S5x128, .f32⟩
  | 10 => ⟨S5x128x128, .f32⟩
  | 11 => ⟨S5x128, .f32⟩
  | 12 => ⟨S1x385x128, .f32⟩
  | 13 => ⟨S385x128, .f32⟩
  | 14 => ⟨S1x128, .f32⟩
  | 15 => ⟨S128, .f32⟩
  | 16 => ⟨S1x128, .f32⟩
  | 17 => ⟨S50000x128, .f32⟩
  | 18 => ⟨S1x385x128, .f32⟩
  | 19 => ⟨S385x128, .f32⟩
  | 20 => ⟨S1x128, .f32⟩
  | 21 => ⟨S128, .f32⟩
  | 22 => ⟨S1x128, .f32⟩
  | 23 => ⟨S50000x128, .f32⟩
  | 24 => ⟨S1x385x128, .f32⟩
  | 25 => ⟨S385x128, .f32⟩
  | 26 => ⟨S1x128, .f32⟩
  | 27 => ⟨S128, .f32⟩
  | 28 => ⟨S1x128, .f32⟩
  | 29 => ⟨S50000x128, .f32⟩
  | 30 => ⟨S1x385x128, .f32⟩
  | 31 => ⟨S385x128, .f32⟩
  | 32 => ⟨S1x128, .f32⟩
  | 33 => ⟨S128, .f32⟩
  | 34 => ⟨S1x128, .f32⟩
  | 35 => ⟨S50000x128, .f32⟩
  | 36 => ⟨S_, .f32⟩
  | 37 => ⟨S1600000, .f32⟩
  | 38 => ⟨S1x1600000, .i32⟩
  | 39 => ⟨S1600000, .i32⟩
  | 40 => ⟨S1x1600000, .i32⟩
  | 41 => ⟨S1600000, .i32⟩
  | 42 => ⟨S_, .f32⟩
  | 43 => ⟨S50000, .f32⟩
  | 44 => ⟨S1600000x1, .i32⟩
  | 45 => ⟨S50000, .f32⟩
  | 46 => ⟨S_, .f32⟩
  | 47 => ⟨S_, .f32⟩
  | 48 => ⟨S50000, .f32⟩
  | 49 => ⟨S50000, .f32⟩
  | 50 => ⟨S_, .f32⟩
  | 51 => ⟨S50000, .f32⟩
  | 52 => ⟨S1600000x1, .i32⟩
  | 53 => ⟨S50000, .f32⟩
  | 54 => ⟨S_, .f32⟩
  | 55 => ⟨S_, .f32⟩
  | 56 => ⟨S50000, .f32⟩
  | 57 => ⟨S50000, .f32⟩
  | 58 => ⟨S50000, .f32⟩
  | 59 => ⟨S50000, .f32⟩
  | 60 => ⟨S1x1600000, .i32⟩
  | 61 => ⟨S1600000, .i32⟩
  | 62 => ⟨S1x1600000, .i32⟩
  | 63 => ⟨S1600000, .i32⟩
  | 64 => ⟨S_, .f32⟩
  | 65 => ⟨S50000, .f32⟩
  | 66 => ⟨S1600000x1, .i32⟩
  | 67 => ⟨S50000, .f32⟩
  | 68 => ⟨S_, .f32⟩
  | 69 => ⟨S_, .f32⟩
  | 70 => ⟨S50000, .f32⟩
  | 71 => ⟨S50000, .f32⟩
  | 72 => ⟨S_, .f32⟩
  | 73 => ⟨S50000, .f32⟩
  | 74 => ⟨S1600000x1, .i32⟩
  | 75 => ⟨S50000, .f32⟩
  | 76 => ⟨S_, .f32⟩
  | 77 => ⟨S_, .f32⟩
  | 78 => ⟨S50000, .f32⟩
  | 79 => ⟨S50000, .f32⟩
  | 80 => ⟨S50000, .f32⟩
  | 81 => ⟨S50000, .f32⟩
  | 82 => ⟨S1x1600000, .i32⟩
  | 83 => ⟨S1600000, .i32⟩
  | 84 => ⟨S1x1600000, .i32⟩
  | 85 => ⟨S1600000, .i32⟩
  | 86 => ⟨S_, .f32⟩
  | 87 => ⟨S50000, .f32⟩
  | 88 => ⟨S1600000x1, .i32⟩
  | 89 => ⟨S50000, .f32⟩
  | 90 => ⟨S_, .f32⟩
  | 91 => ⟨S_, .f32⟩
  | 92 => ⟨S50000, .f32⟩
  | 93 => ⟨S50000, .f32⟩
  | 94 => ⟨S_, .f32⟩
  | 95 => ⟨S50000, .f32⟩
  | 96 => ⟨S1600000x1, .i32⟩
  | 97 => ⟨S50000, .f32⟩
  | 98 => ⟨S_, .f32⟩
  | 99 => ⟨S_, .f32⟩
  | 100 => ⟨S50000, .f32⟩
  | 101 => ⟨S50000, .f32⟩
  | 102 => ⟨S50000, .f32⟩
  | 103 => ⟨S50000, .f32⟩
  | 104 => ⟨S1x1600000, .i32⟩
  | 105 => ⟨S1600000, .i32⟩
  | 106 => ⟨S1x1600000, .i32⟩
  | 107 => ⟨S1600000, .i32⟩
  | 108 => ⟨S_, .f32⟩
  | 109 => ⟨S50000, .f32⟩
  | 110 => ⟨S1600000x1, .i32⟩
  | 111 => ⟨S50000, .f32⟩
  | 112 => ⟨S_, .f32⟩
  | 113 => ⟨S_, .f32⟩
  | 114 => ⟨S50000, .f32⟩
  | 115 => ⟨S50000, .f32⟩
  | 116 => ⟨S_, .f32⟩
  | 117 => ⟨S50000, .f32⟩
  | 118 => ⟨S1600000x1, .i32⟩
  | 119 => ⟨S50000, .f32⟩
  | 120 => ⟨S_, .f32⟩
  | 121 => ⟨S_, .f32⟩
  | 122 => ⟨S50000, .f32⟩
  | 123 => ⟨S50000, .f32⟩
  | 124 => ⟨S50000, .f32⟩
  | 125 => ⟨S50000, .f32⟩
  | 126 => ⟨S1x1600000, .i32⟩
  | 127 => ⟨S1600000, .i32⟩
  | _ => ⟨S50000x385, .f32⟩

abbrev hbmTy0_1 (i : Nat) : BufTy := match i % 128 with
  | 0 => ⟨S1x1600000, .i32⟩
  | 1 => ⟨S1600000, .i32⟩
  | 2 => ⟨S_, .f32⟩
  | 3 => ⟨S50000, .f32⟩
  | 4 => ⟨S1600000x1, .i32⟩
  | 5 => ⟨S50000, .f32⟩
  | 6 => ⟨S_, .f32⟩
  | 7 => ⟨S_, .f32⟩
  | 8 => ⟨S50000, .f32⟩
  | 9 => ⟨S50000, .f32⟩
  | 10 => ⟨S_, .f32⟩
  | 11 => ⟨S50000, .f32⟩
  | 12 => ⟨S1600000x1, .i32⟩
  | 13 => ⟨S50000, .f32⟩
  | 14 => ⟨S_, .f32⟩
  | 15 => ⟨S_, .f32⟩
  | 16 => ⟨S50000, .f32⟩
  | 17 => ⟨S50000, .f32⟩
  | 18 => ⟨S50000, .f32⟩
  | 19 => ⟨S50000, .f32⟩
  | 20 => ⟨S_, .f32⟩
  | 21 => ⟨S50000x128, .f32⟩
  | 22 => ⟨S_, .f32⟩
  | 23 => ⟨S50000x128, .f32⟩
  | 24 => ⟨S_, .f32⟩
  | 25 => ⟨S50000x128, .f32⟩
  | 26 => ⟨S_, .f32⟩
  | 27 => ⟨S50000x128, .f32⟩
  | 28 => ⟨S1x1600000, .i32⟩
  | 29 => ⟨S1600000, .i32⟩
  | 30 => ⟨S1x1600000, .i32⟩
  | 31 => ⟨S1600000, .i32⟩
  | 32 => ⟨S1x128x128, .f32⟩
  | 33 => ⟨S128x128, .f32⟩
  | 34 => ⟨S1x128, .f32⟩
  | 35 => ⟨S128, .f32⟩
  | 36 => ⟨S50000x1, .f32⟩
  | 37 => ⟨S50000x128, .f32⟩
  | 38 => ⟨S50000x128, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x128, .f32⟩
  | 48 => ⟨S_, .f32⟩
  | 49 => ⟨S50000x128, .f32⟩
  | 50 => ⟨S1600000x1, .i32⟩
  | 51 => ⟨S50000x128, .f32⟩
  | 52 => ⟨S50000x1, .f32⟩
  | 53 => ⟨S1x128, .f32⟩
  | 54 => ⟨S50000x128, .f32⟩
  | 55 => ⟨S50000x128, .f32⟩
  | 56 => ⟨S1x1600000, .i32⟩
  | 57 => ⟨S1600000, .i32⟩
  | 58 => ⟨S1x1600000, .i32⟩
  | 59 => ⟨S1600000, .i32⟩
  | 60 => ⟨S1x128x128, .f32⟩
  | 61 => ⟨S128x128, .f32⟩
  | 62 => ⟨S1x128, .f32⟩
  | 63 => ⟨S128, .f32⟩
  | 64 => ⟨S50000x1, .f32⟩
  | 65 => ⟨S50000x128, .f32⟩
  | 66 => ⟨S50000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S50000x128, .f32⟩
  | 78 => ⟨S1600000x1, .i32⟩
  | 79 => ⟨S50000x128, .f32⟩
  | 80 => ⟨S50000x1, .f32⟩
  | 81 => ⟨S1x128, .f32⟩
  | 82 => ⟨S50000x128, .f32⟩
  | 83 => ⟨S50000x128, .f32⟩
  | 84 => ⟨S1x1600000, .i32⟩
  | 85 => ⟨S1600000, .i32⟩
  | 86 => ⟨S1x1600000, .i32⟩
  | 87 => ⟨S1600000, .i32⟩
  | 88 => ⟨S1x128x128, .f32⟩
  | 89 => ⟨S128x128, .f32⟩
  | 90 => ⟨S1x128, .f32⟩
  | 91 => ⟨S128, .f32⟩
  | 92 => ⟨S50000x1, .f32⟩
  | 93 => ⟨S50000x128, .f32⟩
  | 94 => ⟨S50000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S_, .f32⟩
  | 105 => ⟨S50000x128, .f32⟩
  | 106 => ⟨S1600000x1, .i32⟩
  | 107 => ⟨S50000x128, .f32⟩
  | 108 => ⟨S50000x1, .f32⟩
  | 109 => ⟨S1x128, .f32⟩
  | 110 => ⟨S50000x128, .f32⟩
  | 111 => ⟨S50000x128, .f32⟩
  | 112 => ⟨S1x1600000, .i32⟩
  | 113 => ⟨S1600000, .i32⟩
  | 114 => ⟨S1x1600000, .i32⟩
  | 115 => ⟨S1600000, .i32⟩
  | 116 => ⟨S1x128x128, .f32⟩
  | 117 => ⟨S128x128, .f32⟩
  | 118 => ⟨S1x128, .f32⟩
  | 119 => ⟨S128, .f32⟩
  | 120 => ⟨S50000x1, .f32⟩
  | 121 => ⟨S50000x128, .f32⟩
  | 122 => ⟨S50000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S50000x385, .f32⟩

abbrev hbmTy0_2 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S_, .f32⟩
  | 5 => ⟨S50000x128, .f32⟩
  | 6 => ⟨S1600000x1, .i32⟩
  | 7 => ⟨S50000x128, .f32⟩
  | 8 => ⟨S50000x1, .f32⟩
  | 9 => ⟨S1x128, .f32⟩
  | 10 => ⟨S50000x128, .f32⟩
  | 11 => ⟨S50000x128, .f32⟩
  | 12 => ⟨S1x1600000, .i32⟩
  | 13 => ⟨S1600000, .i32⟩
  | 14 => ⟨S1x1600000, .i32⟩
  | 15 => ⟨S1600000, .i32⟩
  | 16 => ⟨S1x128x128, .f32⟩
  | 17 => ⟨S128x128, .f32⟩
  | 18 => ⟨S1x128, .f32⟩
  | 19 => ⟨S128, .f32⟩
  | 20 => ⟨S50000x1, .f32⟩
  | 21 => ⟨S50000x128, .f32⟩
  | 22 => ⟨S50000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S50000x128, .f32⟩
  | 34 => ⟨S1600000x1, .i32⟩
  | 35 => ⟨S50000x128, .f32⟩
  | 36 => ⟨S50000x1, .f32⟩
  | 37 => ⟨S1x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .f32⟩
  | 53 => ⟨S50000x128, .f32⟩
  | 54 => ⟨S_, .f32⟩
  | 55 => ⟨S50000x128, .f32⟩
  | 56 => ⟨S_, .f32⟩
  | 57 => ⟨S50000x128, .f32⟩
  | 58 => ⟨S_, .f32⟩
  | 59 => ⟨S50000x128, .f32⟩
  | 60 => ⟨S1x1600000, .i32⟩
  | 61 => ⟨S1600000, .i32⟩
  | 62 => ⟨S1x1600000, .i32⟩
  | 63 => ⟨S1600000, .i32⟩
  | 64 => ⟨S1x128x128, .f32⟩
  | 65 => ⟨S128x128, .f32⟩
  | 66 => ⟨S1x128, .f32⟩
  | 67 => ⟨S128, .f32⟩
  | 68 => ⟨S50000x1, .f32⟩
  | 69 => ⟨S50000x128, .f32⟩
  | 70 => ⟨S50000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S50000x128, .f32⟩
  | 82 => ⟨S1600000x1, .i32⟩
  | 83 => ⟨S50000x128, .f32⟩
  | 84 => ⟨S50000x1, .f32⟩
  | 85 => ⟨S1x128, .f32⟩
  | 86 => ⟨S50000x128, .f32⟩
  | 87 => ⟨S50000x128, .f32⟩
  | 88 => ⟨S1x1600000, .i32⟩
  | 89 => ⟨S1600000, .i32⟩
  | 90 => ⟨S1x1600000, .i32⟩
  | 91 => ⟨S1600000, .i32⟩
  | 92 => ⟨S1x128x128, .f32⟩
  | 93 => ⟨S128x128, .f32⟩
  | 94 => ⟨S1x128, .f32⟩
  | 95 => ⟨S128, .f32⟩
  | 96 => ⟨S50000x1, .f32⟩
  | 97 => ⟨S50000x128, .f32⟩
  | 98 => ⟨S50000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S50000x128, .f32⟩
  | 110 => ⟨S1600000x1, .i32⟩
  | 111 => ⟨S50000x128, .f32⟩
  | 112 => ⟨S50000x1, .f32⟩
  | 113 => ⟨S1x128, .f32⟩
  | 114 => ⟨S50000x128, .f32⟩
  | 115 => ⟨S50000x128, .f32⟩
  | 116 => ⟨S1x1600000, .i32⟩
  | 117 => ⟨S1600000, .i32⟩
  | 118 => ⟨S1x1600000, .i32⟩
  | 119 => ⟨S1600000, .i32⟩
  | 120 => ⟨S1x128x128, .f32⟩
  | 121 => ⟨S128x128, .f32⟩
  | 122 => ⟨S1x128, .f32⟩
  | 123 => ⟨S128, .f32⟩
  | 124 => ⟨S50000x1, .f32⟩
  | 125 => ⟨S50000x128, .f32⟩
  | 126 => ⟨S50000x128, .f32⟩
  | 127 => ⟨S_, .i32⟩
  | _ => ⟨S50000x385, .f32⟩

abbrev hbmTy0_3 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x128, .f32⟩
  | 8 => ⟨S_, .f32⟩
  | 9 => ⟨S50000x128, .f32⟩
  | 10 => ⟨S1600000x1, .i32⟩
  | 11 => ⟨S50000x128, .f32⟩
  | 12 => ⟨S50000x1, .f32⟩
  | 13 => ⟨S1x128, .f32⟩
  | 14 => ⟨S50000x128, .f32⟩
  | 15 => ⟨S50000x128, .f32⟩
  | 16 => ⟨S1x1600000, .i32⟩
  | 17 => ⟨S1600000, .i32⟩
  | 18 => ⟨S1x1600000, .i32⟩
  | 19 => ⟨S1600000, .i32⟩
  | 20 => ⟨S1x128x128, .f32⟩
  | 21 => ⟨S128x128, .f32⟩
  | 22 => ⟨S1x128, .f32⟩
  | 23 => ⟨S128, .f32⟩
  | 24 => ⟨S50000x1, .f32⟩
  | 25 => ⟨S50000x128, .f32⟩
  | 26 => ⟨S50000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S_, .f32⟩
  | 37 => ⟨S50000x128, .f32⟩
  | 38 => ⟨S1600000x1, .i32⟩
  | 39 => ⟨S50000x128, .f32⟩
  | 40 => ⟨S50000x1, .f32⟩
  | 41 => ⟨S1x128, .f32⟩
  | 42 => ⟨S50000x128, .f32⟩
  | 43 => ⟨S50000x128, .f32⟩
  | 44 => ⟨S1x1600000, .i32⟩
  | 45 => ⟨S1600000, .i32⟩
  | 46 => ⟨S1x1600000, .i32⟩
  | 47 => ⟨S1600000, .i32⟩
  | 48 => ⟨S1x128x128, .f32⟩
  | 49 => ⟨S128x128, .f32⟩
  | 50 => ⟨S1x128, .f32⟩
  | 51 => ⟨S128, .f32⟩
  | 52 => ⟨S50000x1, .f32⟩
  | 53 => ⟨S50000x128, .f32⟩
  | 54 => ⟨S50000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S50000x128, .f32⟩
  | 66 => ⟨S1600000x1, .i32⟩
  | 67 => ⟨S50000x128, .f32⟩
  | 68 => ⟨S50000x1, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S1x50000x128, .f32⟩
  | 85 => ⟨S1x50000x128, .f32⟩
  | 86 => ⟨S1x50000x128, .f32⟩
  | 87 => ⟨S1x50000x128, .f32⟩
  | 88 => ⟨S4x50000x128, .f32⟩
  | _ => ⟨S50000x385, .f32⟩

abbrev hbmTy (i : Nat) : BufTy := match i / 128 with
  | 0 => hbmTy0_0 i
  | 1 => hbmTy0_1 i
  | 2 => hbmTy0_2 i
  | 3 => hbmTy0_3 i
  | _ => ⟨S50000x385, .f32⟩

abbrev bufTy : (tb : Table) → Fin (tcTables nBuf tb) → BufTy
  | .hbm, ⟨i, _⟩ => hbmTy i
  | .local _ .vmem, ⟨0, _⟩ => ⟨S2000x385, .f32⟩
  | .local _ .vmem, ⟨1, _⟩ => ⟨S2000x385, .f32⟩
  | .local _ .vmem, ⟨2, _⟩ => ⟨S385x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x385, .f32⟩
  | .local _ .vmem, ⟨7, _⟩ => ⟨S2000x385, .f32⟩
  | .local _ .vmem, ⟨8, _⟩ => ⟨S385x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x385, .f32⟩
  | .local _ .vmem, ⟨13, _⟩ => ⟨S2000x385, .f32⟩
  | .local _ .vmem, ⟨14, _⟩ => ⟨S385x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x385, .f32⟩
  | .local _ .vmem, ⟨19, _⟩ => ⟨S2000x385, .f32⟩
  | .local _ .vmem, ⟨20, _⟩ => ⟨S385x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x1, .f32⟩
  | .local _ .vmem, ⟨35, _⟩ => ⟨S2000x1, .f32⟩
  | .local _ .vmem, ⟨36, _⟩ => ⟨S128x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x1, .f32⟩
  | .local _ .vmem, ⟨43, _⟩ => ⟨S2000x1, .f32⟩
  | .local _ .vmem, ⟨44, _⟩ => ⟨S128x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x1, .f32⟩
  | .local _ .vmem, ⟨51, _⟩ => ⟨S2000x1, .f32⟩
  | .local _ .vmem, ⟨52, _⟩ => ⟨S128x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x1, .f32⟩
  | .local _ .vmem, ⟨59, _⟩ => ⟨S2000x1, .f32⟩
  | .local _ .vmem, ⟨60, _⟩ => ⟨S128x128, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x1, .f32⟩
  | .local _ .vmem, ⟨67, _⟩ => ⟨S2000x1, .f32⟩
  | .local _ .vmem, ⟨68, _⟩ => ⟨S128x128, .f32⟩
  | .local _ .vmem, ⟨69, _⟩ => ⟨S1x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S2000x1, .f32⟩
  | .local _ .vmem, ⟨75, _⟩ => ⟨S2000x1, .f32⟩
  | .local _ .vmem, ⟨76, _⟩ => ⟨S128x128, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S2000x128, .f32⟩
  | .local _ .vmem, ⟨82, _⟩ => ⟨S2000x1, .f32⟩
  | .local _ .vmem, ⟨83, _⟩ => ⟨S2000x1, .f32⟩
  | .local _ .vmem, ⟨84, _⟩ => ⟨S128x128, .f32⟩
  | .local _ .vmem, ⟨85, _⟩ => ⟨S1x128, .f32⟩
  | .local _ .vmem, ⟨86, _⟩ => ⟨S2000x128, .f32⟩
  | .local _ .vmem, ⟨87, _⟩ => ⟨S2000x128, .f32⟩
  | .local _ .vmem, ⟨88, _⟩ => ⟨S2000x128, .f32⟩
  | .local _ .vmem, ⟨89, _⟩ => ⟨S2000x128, .f32⟩
  | .local _ .vmem, ⟨90, _⟩ => ⟨S2000x1, .f32⟩
  | .local _ .vmem, ⟨91, _⟩ => ⟨S2000x1, .f32⟩
  | .local _ .vmem, ⟨92, _⟩ => ⟨S128x128, .f32⟩
  | .local _ .vmem, ⟨93, _⟩ => ⟨S1x128, .f32⟩
  | .local _ .vmem, ⟨94, _⟩ => ⟨S2000x128, .f32⟩
  | .local _ .vmem, ⟨95, _⟩ => ⟨S2000x128, .f32⟩
  | .local _ .vmem, ⟨96, _⟩ => ⟨S2000x128, .f32⟩
  | .local _ .vmem, ⟨97, _⟩ => ⟨S2000x128, .f32⟩
  | .local _ .vmem, ⟨98, _⟩ => ⟨S2000x1, .f32⟩
  | .local _ .vmem, ⟨99, _⟩ => ⟨S2000x1, .f32⟩
  | .local _ .vmem, ⟨100, _⟩ => ⟨S128x128, .f32⟩
  | .local _ .vmem, ⟨101, _⟩ => ⟨S1x128, .f32⟩
  | .local _ .vmem, ⟨102, _⟩ => ⟨S2000x128, .f32⟩
  | .local _ .vmem, ⟨103, _⟩ => ⟨S2000x128, .f32⟩
  | _, _ => ⟨S50000x385, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | _, _ => false

abbrev semScoped : Fin 0 → Bool
  | ⟨_, h⟩ => absurd h (Nat.not_lt_zero _)

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTc nBuf bufTy 0 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_call0_v0 : Ref sig .tc := ⟨.hbm, 47, rfl⟩
abbrev main_call0_v1 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_call2_v0 : Ref sig .tc := ⟨.hbm, 69, rfl⟩
abbrev main_call2_v1 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_call3_v0 : Ref sig .tc := ⟨.hbm, 77, rfl⟩
abbrev main_call3_v1 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_9 : Ref sig .tc := ⟨.hbm, 90, rfl⟩
abbrev main_call4_v0 : Ref sig .tc := ⟨.hbm, 91, rfl⟩
abbrev main_call4_v1 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_11 : Ref sig .tc := ⟨.hbm, 98, rfl⟩
abbrev main_call5_v0 : Ref sig .tc := ⟨.hbm, 99, rfl⟩
abbrev main_call5_v1 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_12 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_13 : Ref sig .tc := ⟨.hbm, 112, rfl⟩
abbrev main_call6_v0 : Ref sig .tc := ⟨.hbm, 113, rfl⟩
abbrev main_call6_v1 : Ref sig .tc := ⟨.hbm, 114, rfl⟩
abbrev main_v74 : Ref sig .tc := ⟨.hbm, 115, rfl⟩
abbrev main_cst_14 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_15 : Ref sig .tc := ⟨.hbm, 120, rfl⟩
abbrev main_call7_v0 : Ref sig .tc := ⟨.hbm, 121, rfl⟩
abbrev main_call7_v1 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_16 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_17 : Ref sig .tc := ⟨.hbm, 134, rfl⟩
abbrev main_call8_v0 : Ref sig .tc := ⟨.hbm, 135, rfl⟩
abbrev main_call8_v1 : Ref sig .tc := ⟨.hbm, 136, rfl⟩
abbrev main_v88 : Ref sig .tc := ⟨.hbm, 137, rfl⟩
abbrev main_cst_18 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_19 : Ref sig .tc := ⟨.hbm, 142, rfl⟩
abbrev main_call9_v0 : Ref sig .tc := ⟨.hbm, 143, rfl⟩
abbrev main_call9_v1 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_20 : Ref sig .tc := ⟨.hbm, 148, rfl⟩
abbrev main_v95 : Ref sig .tc := ⟨.hbm, 149, rfl⟩
abbrev main_cst_21 : Ref sig .tc := ⟨.hbm, 150, rfl⟩
abbrev main_v96 : Ref sig .tc := ⟨.hbm, 151, rfl⟩
abbrev main_cst_22 : Ref sig .tc := ⟨.hbm, 152, rfl⟩
abbrev main_v97 : Ref sig .tc := ⟨.hbm, 153, rfl⟩
abbrev main_cst_23 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_c : Ref sig .tc := ⟨.hbm, 167, rfl⟩
abbrev main_v110 : Ref sig .tc := ⟨.hbm, 168, rfl⟩
abbrev main_v111 : Ref sig .tc := ⟨.hbm, 169, rfl⟩
abbrev main_c_24 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_cst_25 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_c_26 : Ref sig .tc := ⟨.hbm, 195, rfl⟩
abbrev main_v135 : Ref sig .tc := ⟨.hbm, 196, rfl⟩
abbrev main_v136 : Ref sig .tc := ⟨.hbm, 197, rfl⟩
abbrev main_c_27 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_cst_28 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_c_29 : Ref sig .tc := ⟨.hbm, 223, rfl⟩
abbrev main_v160 : Ref sig .tc := ⟨.hbm, 224, rfl⟩
abbrev main_v161 : Ref sig .tc := ⟨.hbm, 225, rfl⟩
abbrev main_c_30 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_cst_31 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_c_32 : Ref sig .tc := ⟨.hbm, 251, rfl⟩
abbrev main_v185 : Ref sig .tc := ⟨.hbm, 252, rfl⟩
abbrev main_v186 : Ref sig .tc := ⟨.hbm, 253, rfl⟩
abbrev main_c_33 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_cst_34 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_c_35 : Ref sig .tc := ⟨.hbm, 279, rfl⟩
abbrev main_v210 : Ref sig .tc := ⟨.hbm, 280, rfl⟩
abbrev main_v211 : Ref sig .tc := ⟨.hbm, 281, rfl⟩
abbrev main_c_36 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_cst_37 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_cst_38 : Ref sig .tc := ⟨.hbm, 296, rfl⟩
abbrev main_v224 : Ref sig .tc := ⟨.hbm, 297, rfl⟩
abbrev main_v225 : Ref sig .tc := ⟨.hbm, 298, rfl⟩
abbrev main_cst_39 : Ref sig .tc := ⟨.hbm, 299, rfl⟩
abbrev main_v226 : Ref sig .tc := ⟨.hbm, 300, rfl⟩
abbrev main_v227 : Ref sig .tc := ⟨.hbm, 301, rfl⟩
abbrev main_cst_40 : Ref sig .tc := ⟨.hbm, 302, rfl⟩
abbrev main_v228 : Ref sig .tc := ⟨.hbm, 303, rfl⟩
abbrev main_v229 : Ref sig .tc := ⟨.hbm, 304, rfl⟩
abbrev main_cst_41 : Ref sig .tc := ⟨.hbm, 305, rfl⟩
abbrev main_v230 : Ref sig .tc := ⟨.hbm, 306, rfl⟩
abbrev main_v231 : Ref sig .tc := ⟨.hbm, 307, rfl⟩
abbrev main_cst_42 : Ref sig .tc := ⟨.hbm, 308, rfl⟩
abbrev main_v232 : Ref sig .tc := ⟨.hbm, 309, rfl⟩
abbrev main_cst_43 : Ref sig .tc := ⟨.hbm, 310, rfl⟩
abbrev main_v233 : Ref sig .tc := ⟨.hbm, 311, rfl⟩
abbrev main_cst_44 : Ref sig .tc := ⟨.hbm, 312, rfl⟩
abbrev main_v234 : Ref sig .tc := ⟨.hbm, 313, rfl⟩
abbrev main_cst_45 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_v246 : Ref sig .tc := ⟨.hbm, 326, rfl⟩
abbrev main_c_46 : Ref sig .tc := ⟨.hbm, 327, rfl⟩
abbrev main_v247 : Ref sig .tc := ⟨.hbm, 328, rfl⟩
abbrev main_v248 : Ref sig .tc := ⟨.hbm, 329, rfl⟩
abbrev main_c_47 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_cst_48 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_c_49 : Ref sig .tc := ⟨.hbm, 355, rfl⟩
abbrev main_v272 : Ref sig .tc := ⟨.hbm, 356, rfl⟩
abbrev main_v273 : Ref sig .tc := ⟨.hbm, 357, rfl⟩
abbrev main_c_50 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_cst_51 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_v291 : Ref sig .tc := ⟨.hbm, 377, rfl⟩
abbrev main_v292 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_c_52 : Ref sig .tc := ⟨.hbm, 383, rfl⟩
abbrev main_v297 : Ref sig .tc := ⟨.hbm, 384, rfl⟩
abbrev main_v298 : Ref sig .tc := ⟨.hbm, 385, rfl⟩
abbrev main_c_53 : Ref sig .tc := ⟨.hbm, 386, rfl⟩
abbrev main_v299 : Ref sig .tc := ⟨.hbm, 387, rfl⟩
abbrev main_v300 : Ref sig .tc := ⟨.hbm, 388, rfl⟩
abbrev main_v301 : Ref sig .tc := ⟨.hbm, 389, rfl⟩
abbrev main_v302 : Ref sig .tc := ⟨.hbm, 390, rfl⟩
abbrev main_v303 : Ref sig .tc := ⟨.hbm, 391, rfl⟩
abbrev main_cst_54 : Ref sig .tc := ⟨.hbm, 392, rfl⟩
abbrev main_v304 : Ref sig .tc := ⟨.hbm, 393, rfl⟩
abbrev main_v305 : Ref sig .tc := ⟨.hbm, 394, rfl⟩
abbrev main_v306 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev main_v310 : Ref sig .tc := ⟨.hbm, 399, rfl⟩
abbrev main_v311 : Ref sig .tc := ⟨.hbm, 400, rfl⟩
abbrev main_v312 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_c_55 : Ref sig .tc := ⟨.hbm, 411, rfl⟩
abbrev main_v322 : Ref sig .tc := ⟨.hbm, 412, rfl⟩
abbrev main_v323 : Ref sig .tc := ⟨.hbm, 413, rfl⟩
abbrev main_c_56 : Ref sig .tc := ⟨.hbm, 414, rfl⟩
abbrev main_v324 : Ref sig .tc := ⟨.hbm, 415, rfl⟩
abbrev main_v325 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_cst_57 : Ref sig .tc := ⟨.hbm, 420, rfl⟩
abbrev main_v329 : Ref sig .tc := ⟨.hbm, 421, rfl⟩
abbrev main_v330 : Ref sig .tc := ⟨.hbm, 422, rfl⟩
abbrev main_v331 : Ref sig .tc := ⟨.hbm, 423, rfl⟩
abbrev main_v332 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_v345 : Ref sig .tc := ⟨.hbm, 437, rfl⟩
abbrev main_v346 : Ref sig .tc := ⟨.hbm, 438, rfl⟩
abbrev main_c_58 : Ref sig .tc := ⟨.hbm, 439, rfl⟩
abbrev main_v347 : Ref sig .tc := ⟨.hbm, 440, rfl⟩
abbrev main_v348 : Ref sig .tc := ⟨.hbm, 441, rfl⟩
abbrev main_c_59 : Ref sig .tc := ⟨.hbm, 442, rfl⟩
abbrev main_v349 : Ref sig .tc := ⟨.hbm, 443, rfl⟩
abbrev main_v350 : Ref sig .tc := ⟨.hbm, 444, rfl⟩
abbrev main_v351 : Ref sig .tc := ⟨.hbm, 445, rfl⟩
abbrev main_v352 : Ref sig .tc := ⟨.hbm, 446, rfl⟩
abbrev main_v353 : Ref sig .tc := ⟨.hbm, 447, rfl⟩
abbrev main_cst_60 : Ref sig .tc := ⟨.hbm, 448, rfl⟩
abbrev main_v354 : Ref sig .tc := ⟨.hbm, 449, rfl⟩
abbrev main_v355 : Ref sig .tc := ⟨.hbm, 450, rfl⟩
abbrev main_v356 : Ref sig .tc := ⟨.hbm, 451, rfl⟩
abbrev main_v357 : Ref sig .tc := ⟨.hbm, 452, rfl⟩
abbrev main_v358 : Ref sig .tc := ⟨.hbm, 453, rfl⟩
abbrev main_v359 : Ref sig .tc := ⟨.hbm, 454, rfl⟩
abbrev main_v360 : Ref sig .tc := ⟨.hbm, 455, rfl⟩
abbrev main_cst_61 : Ref sig .tc := ⟨.hbm, 456, rfl⟩
abbrev main_v361 : Ref sig .tc := ⟨.hbm, 457, rfl⟩
abbrev main_v362 : Ref sig .tc := ⟨.hbm, 458, rfl⟩
abbrev main_cst_62 : Ref sig .tc := ⟨.hbm, 459, rfl⟩
abbrev main_v363 : Ref sig .tc := ⟨.hbm, 460, rfl⟩
abbrev main_v364 : Ref sig .tc := ⟨.hbm, 461, rfl⟩
abbrev main_cst_63 : Ref sig .tc := ⟨.hbm, 462, rfl⟩
abbrev main_v365 : Ref sig .tc := ⟨.hbm, 463, rfl⟩
abbrev main_v366 : Ref sig .tc := ⟨.hbm, 464, rfl⟩
abbrev main_cst_64 : Ref sig .tc := ⟨.hbm, 465, rfl⟩
abbrev main_v367 : Ref sig .tc := ⟨.hbm, 466, rfl⟩
abbrev main_v368 : Ref sig .tc := ⟨.hbm, 467, rfl⟩
abbrev main_v369 : Ref sig .tc := ⟨.hbm, 468, rfl⟩
abbrev main_v370 : Ref sig .tc := ⟨.hbm, 469, rfl⟩
abbrev main_v371 : Ref sig .tc := ⟨.hbm, 470, rfl⟩
abbrev main_v372 : Ref sig .tc := ⟨.hbm, 471, rfl⟩
abbrev main_v373 : Ref sig .tc := ⟨.hbm, 472, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg4_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg4_0 : Ref sig .tc := ⟨.vmem, 62, rfl⟩
abbrev cc8_stg4_1 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg1_1 : Ref sig .tc := ⟨.vmem, 67, rfl⟩
abbrev cc9_stg2_0 : Ref sig .tc := ⟨.vmem, 68, rfl⟩
abbrev cc9_stg3_0 : Ref sig .tc := ⟨.vmem, 69, rfl⟩
abbrev cc9_stg4_0 : Ref sig .tc := ⟨.vmem, 70, rfl⟩
abbrev cc9_stg4_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg1_1 : Ref sig .tc := ⟨.vmem, 75, rfl⟩
abbrev cc10_stg2_0 : Ref sig .tc := ⟨.vmem, 76, rfl⟩
abbrev cc10_stg3_0 : Ref sig .tc := ⟨.vmem, 77, rfl⟩
abbrev cc10_stg4_0 : Ref sig .tc := ⟨.vmem, 78, rfl⟩
abbrev cc10_stg4_1 : Ref sig .tc := ⟨.vmem, 79, rfl⟩
abbrev cc11_stg0_0 : Ref sig .tc := ⟨.vmem, 80, rfl⟩
abbrev cc11_stg0_1 : Ref sig .tc := ⟨.vmem, 81, rfl⟩
abbrev cc11_stg1_0 : Ref sig .tc := ⟨.vmem, 82, rfl⟩
abbrev cc11_stg1_1 : Ref sig .tc := ⟨.vmem, 83, rfl⟩
abbrev cc11_stg2_0 : Ref sig .tc := ⟨.vmem, 84, rfl⟩
abbrev cc11_stg3_0 : Ref sig .tc := ⟨.vmem, 85, rfl⟩
abbrev cc11_stg4_0 : Ref sig .tc := ⟨.vmem, 86, rfl⟩
abbrev cc11_stg4_1 : Ref sig .tc := ⟨.vmem, 87, rfl⟩
abbrev cc12_stg0_0 : Ref sig .tc := ⟨.vmem, 88, rfl⟩
abbrev cc12_stg0_1 : Ref sig .tc := ⟨.vmem, 89, rfl⟩
abbrev cc12_stg1_0 : Ref sig .tc := ⟨.vmem, 90, rfl⟩
abbrev cc12_stg1_1 : Ref sig .tc := ⟨.vmem, 91, rfl⟩
abbrev cc12_stg2_0 : Ref sig .tc := ⟨.vmem, 92, rfl⟩
abbrev cc12_stg3_0 : Ref sig .tc := ⟨.vmem, 93, rfl⟩
abbrev cc12_stg4_0 : Ref sig .tc := ⟨.vmem, 94, rfl⟩
abbrev cc12_stg4_1 : Ref sig .tc := ⟨.vmem, 95, rfl⟩
abbrev cc13_stg0_0 : Ref sig .tc := ⟨.vmem, 96, rfl⟩
abbrev cc13_stg0_1 : Ref sig .tc := ⟨.vmem, 97, rfl⟩
abbrev cc13_stg1_0 : Ref sig .tc := ⟨.vmem, 98, rfl⟩
abbrev cc13_stg1_1 : Ref sig .tc := ⟨.vmem, 99, rfl⟩
abbrev cc13_stg2_0 : Ref sig .tc := ⟨.vmem, 100, rfl⟩
abbrev cc13_stg3_0 : Ref sig .tc := ⟨.vmem, 101, rfl⟩
abbrev cc13_stg4_0 : Ref sig .tc := ⟨.vmem, 102, rfl⟩
abbrev cc13_stg4_1 : Ref sig .tc := ⟨.vmem, 103, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem4_0 : DmaSem sig := 30
abbrev cc4_sem4_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem4_0 : DmaSem sig := 46
abbrev cc6_sem4_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem4_0 : DmaSem sig := 62
abbrev cc8_sem4_1 : DmaSem sig := 63
abbrev cc9_sem0_0 : DmaSem sig := 64
abbrev cc9_sem0_1 : DmaSem sig := 65
abbrev cc9_sem1_0 : DmaSem sig := 66
abbrev cc9_sem1_1 : DmaSem sig := 67
abbrev cc9_sem2_0 : DmaSem sig := 68
abbrev cc9_sem3_0 : DmaSem sig := 69
abbrev cc9_sem4_0 : DmaSem sig := 70
abbrev cc9_sem4_1 : DmaSem sig := 71
abbrev cc10_sem0_0 : DmaSem sig := 72
abbrev cc10_sem0_1 : DmaSem sig := 73
abbrev cc10_sem1_0 : DmaSem sig := 74
abbrev cc10_sem1_1 : DmaSem sig := 75
abbrev cc10_sem2_0 : DmaSem sig := 76
abbrev cc10_sem3_0 : DmaSem sig := 77
abbrev cc10_sem4_0 : DmaSem sig := 78
abbrev cc10_sem4_1 : DmaSem sig := 79
abbrev cc11_sem0_0 : DmaSem sig := 80
abbrev cc11_sem0_1 : DmaSem sig := 81
abbrev cc11_sem1_0 : DmaSem sig := 82
abbrev cc11_sem1_1 : DmaSem sig := 83
abbrev cc11_sem2_0 : DmaSem sig := 84
abbrev cc11_sem3_0 : DmaSem sig := 85
abbrev cc11_sem4_0 : DmaSem sig := 86
abbrev cc11_sem4_1 : DmaSem sig := 87
abbrev cc12_sem0_0 : DmaSem sig := 88
abbrev cc12_sem0_1 : DmaSem sig := 89
abbrev cc12_sem1_0 : DmaSem sig := 90
abbrev cc12_sem1_1 : DmaSem sig := 91
abbrev cc12_sem2_0 : DmaSem sig := 92
abbrev cc12_sem3_0 : DmaSem sig := 93
abbrev cc12_sem4_0 : DmaSem sig := 94
abbrev cc12_sem4_1 : DmaSem sig := 95
abbrev cc13_sem0_0 : DmaSem sig := 96
abbrev cc13_sem0_1 : DmaSem sig := 97
abbrev cc13_sem1_0 : DmaSem sig := 98
abbrev cc13_sem1_1 : DmaSem sig := 99
abbrev cc13_sem2_0 : DmaSem sig := 100
abbrev cc13_sem3_0 : DmaSem sig := 101
abbrev cc13_sem4_0 : DmaSem sig := 102
abbrev cc13_sem4_1 : DmaSem sig := 103

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x385 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S385x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x385 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S385x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x385 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S385x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x385 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S385x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S2000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S2000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S2000x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x1 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S2000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S128x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S2000x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

class Facts₀ : Prop where
  slices_S4x385x128_S1x385x128_0_0_0 : S4x385x128.Slices ![0, 0, 0] S1x385x128
  shapeCasts_S1x385x128_S385x128 : S1x385x128.ShapeCasts S385x128
  slices_S4x128_S1x128_0_0 : S4x128.Slices ![0, 0] S1x128
  shapeCasts_S1x128_S128 : S1x128.ShapeCasts S128
  shapeCasts_S128_S1x128 : S128.ShapeCasts S1x128
  inb_S2000x385_S2000x385_0_0 : ∀ a, (![0, 0] : Fin 2 → Nat) a + S2000x385.size a ≤ S2000x385.size a
  h_S2000x385 : 0 < S2000x385.numel
  inb_S385x128_S385x128_0_0 : ∀ a, (![0, 0] : Fin 2 → Nat) a + S385x128.size a ≤ S385x128.size a
  h_S385x128 : 0 < S385x128.numel
  shapeCasts_S385x128_S385x128 : S385x128.ShapeCasts S385x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S4x385x128_S1x385x128_1_0_0 : S4x385x128.Slices ![1, 0, 0] S1x385x128
  slices_S4x128_S1x128_1_0 : S4x128.Slices ![1, 0] S1x128
  slices_S4x385x128_S1x385x128_2_0_0 : S4x385x128.Slices ![2, 0, 0] S1x385x128
  slices_S4x128_S1x128_2_0 : S4x128.Slices ![2, 0] S1x128
  slices_S4x385x128_S1x385x128_3_0_0 : S4x385x128.Slices ![3, 0, 0] S1x385x128
  slices_S4x128_S1x128_3_0 : S4x128.Slices ![3, 0] S1x128
  bcast_S_S1600000 : S_.BroadcastsInDim S1600000 (![] : Fin 0 → Fin S1600000.rank)
  slices_S5x1600000_S1x1600000_0_0 : S5x1600000.Slices ![0, 0] S1x1600000
  shapeCasts_S1x1600000_S1600000 : S1x1600000.ShapeCasts S1600000
  bcast_S_S50000 : S_.BroadcastsInDim S50000 (![] : Fin 0 → Fin S50000.rank)
  bcast_S1600000_S1600000x1_0 : S1600000.BroadcastsInDim S1600000x1 (![0] : Fin 1 → Fin S1600000x1.rank)
  slices_S5x1600000_S1x1600000_1_0 : S5x1600000.Slices ![1, 0] S1x1600000
  slices_S5x1600000_S1x1600000_2_0 : S5x1600000.Slices ![2, 0] S1x1600000
  slices_S5x1600000_S1x1600000_3_0 : S5x1600000.Slices ![3, 0] S1x1600000
  slices_S5x1600000_S1x1600000_4_0 : S5x1600000.Slices ![4, 0] S1x1600000
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S50000_S50000x1 : S50000.ShapeCasts S50000x1
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S50000x128_S1x50000x128_1_2 : S50000x128.BroadcastsInDim S1x50000x128 (![1, 2] : Fin 2 → Fin S1x50000x128.rank)
  concatenates_S1x50000x128_S1x50000x128_S1x50000x128_S1x50000x128_S4x50000x128_d0 : Shape.Concatenates [S1x50000x128, S1x50000x128, S1x50000x128, S1x50000x128] S4x50000x128 0
  dot_S2000x385_S385x128_S2000x128_1_0_0_1_n_n_wf : DotDims.WF S2000x385 S385x128 S2000x128 [1] [0] [0] [1] [] []
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x385.size a ≤ S50000x385.size a
  hwx0_0 : ∀ i : grid0.Coords, EltTy.bits .f32 = 32 ∨ (Rect.block (s := S50000x385) S2000x385.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S385x128.size a ≤ S385x128.size a
  hwx0_1 : ∀ i : grid0.Coords, EltTy.bits .f32 = 32 ∨ (Rect.block (s := S385x128) S385x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x385.size a ≤ S50000x385.size a
  hwx1_0 : ∀ i : grid1.Coords, EltTy.bits .f32 = 32 ∨ (Rect.block (s := S50000x385) S2000x385.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S385x128.size a ≤ S385x128.size a
  hwx1_1 : ∀ i : grid1.Coords, EltTy.bits .f32 = 32 ∨ (Rect.block (s := S385x128) S385x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x385.size a ≤ S50000x385.size a
  hwx2_0 : ∀ i : grid2.Coords, EltTy.bits .f32 = 32 ∨ (Rect.block (s := S50000x385) S2000x385.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S385x128.size a ≤ S385x128.size a
  hwx2_1 : ∀ i : grid2.Coords, EltTy.bits .f32 = 32 ∨ (Rect.block (s := S385x128) S385x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x385.size a ≤ S50000x385.size a
  hwx3_0 : ∀ i : grid3.Coords, EltTy.bits .f32 = 32 ∨ (Rect.block (s := S50000x385) S2000x385.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S385x128.size a ≤ S385x128.size a
  hwx3_1 : ∀ i : grid3.Coords, EltTy.bits .f32 = 32 ∨ (Rect.block (s := S385x128) S385x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S50000x1.size a
  hwx6_1 : ∀ i : grid6.Coords, EltTy.bits .f32 = 32 ∨ (Rect.block (s := S50000x1) S2000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S50000x128.size a
  hwx6_4 : ∀ i : grid6.Coords, EltTy.bits .f32 = 32 ∨ (Rect.block (s := S50000x128) S2000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S50000x1.size a
  hwx7_1 : ∀ i : grid7.Coords, EltTy.bits .f32 = 32 ∨ (Rect.block (s := S50000x1) S2000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x128.size a ≤ S50000x128.size a
  hwx7_4 : ∀ i : grid7.Coords, EltTy.bits .f32 = 32 ∨ (Rect.block (s := S50000x128) S2000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S50000x1.size a
  hwx8_1 : ∀ i : grid8.Coords, EltTy.bits .f32 = 32 ∨ (Rect.block (s := S50000x1) S2000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x128.size a ≤ S50000x128.size a
  hwx8_4 : ∀ i : grid8.Coords, EltTy.bits .f32 = 32 ∨ (Rect.block (s := S50000x128) S2000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x1.size a ≤ S50000x1.size a
  hwx9_1 : ∀ i : grid9.Coords, EltTy.bits .f32 = 32 ∨ (Rect.block (s := S50000x1) S2000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x128.size a ≤ S50000x128.size a
  hwx9_4 : ∀ i : grid9.Coords, EltTy.bits .f32 = 32 ∨ (Rect.block (s := S50000x128) S2000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x1.size a ≤ S50000x1.size a
  hwx10_1 : ∀ i : grid10.Coords, EltTy.bits .f32 = 32 ∨ (Rect.block (s := S50000x1) S2000x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S2000x128.size a ≤ S50000x128.size a
  hwx10_4 : ∀ i : grid10.Coords, EltTy.bits .f32 = 32 ∨ (Rect.block (s := S50000x128) S2000x128.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x1.size a ≤ S50000x1.size a
  hwx11_1 : ∀ i : grid11.Coords, EltTy.bits .f32 = 32 ∨ (Rect.block (s := S50000x1) S2000x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S2000x128.size a ≤ S50000x128.size a
  hwx11_4 : ∀ i : grid11.Coords, EltTy.bits .f32 = 32 ∨ (Rect.block (s := S50000x128) S2000x128.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x1.size a ≤ S50000x1.size a
  hwx12_1 : ∀ i : grid12.Coords, EltTy.bits .f32 = 32 ∨ (Rect.block (s := S50000x1) S2000x1.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S2000x128.size a ≤ S50000x128.size a
  hwx12_4 : ∀ i : grid12.Coords, EltTy.bits .f32 = 32 ∨ (Rect.block (s := S50000x128) S2000x128.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S50000x128.size a
  hwx13_0 : ∀ i : grid13.Coords, EltTy.bits .f32 = 32 ∨ (Rect.block (s := S50000x128) S2000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x1.size a ≤ S50000x1.size a
  hwx13_1 : ∀ i : grid13.Coords, EltTy.bits .f32 = 32 ∨ (Rect.block (s := S50000x1) S2000x1.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128x128.size a ≤ S128x128.size a
  hwx13_2 : ∀ i : grid13.Coords, EltTy.bits .f32 = 32 ∨ (Rect.block (s := S128x128) S128x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S2000x128.size a ≤ S50000x128.size a
  hwx13_4 : ∀ i : grid13.Coords, EltTy.bits .f32 = 32 ∨ (Rect.block (s := S50000x128) S2000x128.size (cc13_transform_4 i) (hinb13_4 i)).WholeWords (EltTy.packing .f32)

variable [Facts₀]

def dot_S2000x385_S385x128_S2000x128_1_0_0_1_n_n : DotDims S2000x385 S385x128 S2000x128 where
  lhsContracting := [1]
  rhsContracting := [0]
  lhsNonContracting := [0]
  rhsNonContracting := [1]
  lhsBatch := []
  rhsBatch := []
  wf := dot_S2000x385_S385x128_S2000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x385.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S385x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x385.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S385x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S2000x385.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S385x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg3) S2000x385.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S385x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v119) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v120) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v104) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v121) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v122) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v144) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v145) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v129) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v146) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v147) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v169) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v170) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v154) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v171) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v172) S2000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v194) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v195) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v179) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v196) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v197) S2000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v219) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v220) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v204) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v221) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v222) S2000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v256) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v257) S2000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v241) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v258) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v259) S2000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v281) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v282) S2000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v266) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v283) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v284) S2000x128.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v306) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v307) S2000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v291) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v308) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v309) S2000x128.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v331) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v332) S2000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v316) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v333) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v334) S2000x128.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v356) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v357) S2000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v341) S128x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v358) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v359) S2000x128.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

class Facts : Prop extends Facts₀ where

variable [Facts]
-- ==== ReferenceIdeal.lean ====
abbrev S50000x385 : Shape := ⟨2, ![50000, 385]⟩
abbrev S5x1600000 : Shape := ⟨2, ![5, 1600000]⟩
abbrev S4x385x128 : Shape := ⟨3, ![4, 385, 128]⟩
abbrev S4x128 : Shape := ⟨2, ![4, 128]⟩
abbrev S5x128x128 : Shape := ⟨3, ![5, 128, 128]⟩
abbrev S5x128 : Shape := ⟨2, ![5, 128]⟩
abbrev S1x385x128 : Shape := ⟨3, ![1, 385, 128]⟩
abbrev S385x128 : Shape := ⟨2, ![385, 128]⟩
abbrev S50000x128 : Shape := ⟨2, ![50000, 128]⟩
abbrev S1x128 : Shape := ⟨2, ![1, 128]⟩
abbrev S128 : Shape := ⟨1, ![128]⟩
abbrev S_ : Shape := ⟨0, ![]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x50000x128 : Shape := ⟨3, ![1, 50000, 128]⟩
abbrev S4x50000x128 : Shape := ⟨3, ![4, 50000, 128]⟩

abbrev nBuf : Space → Nat
  | .hbm => 621
  | .vmem => 0
  | .smem => 0
  | _ => 0

abbrev hbmTy0_0 (i : Nat) : BufTy := match i % 128 with
  | 0 => ⟨S50000x385, .f32⟩
  | 1 => ⟨S50000x385, .f32⟩
  | 2 => ⟨S50000x385, .f32⟩
  | 3 => ⟨S50000x385, .f32⟩
  | 4 => ⟨S5x1600000, .i32⟩
  | 5 => ⟨S5x1600000, .i32⟩
  | 6 => ⟨S4x385x128, .f32⟩
  | 7 => ⟨S4x128, .f32⟩
  | 8 => ⟨S5x128x128, .f32⟩
  | 9 => ⟨S5x128, .f32⟩
  | 10 => ⟨S5x128x128, .f32⟩
  | 11 => ⟨S5x128, .f32⟩
  | 12 => ⟨S1x385x128, .f32⟩
  | 13 => ⟨S385x128, .f32⟩
  | 14 => ⟨S50000x128, .f32⟩
  | 15 => ⟨S1x128, .f32⟩
  | 16 => ⟨S128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S1x385x128, .f32⟩
  | 24 => ⟨S385x128, .f32⟩
  | 25 => ⟨S50000x128, .f32⟩
  | 26 => ⟨S1x128, .f32⟩
  | 27 => ⟨S128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S1x385x128, .f32⟩
  | 35 => ⟨S385x128, .f32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S1x385x128, .f32⟩
  | 46 => ⟨S385x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .f32⟩
  | 57 => ⟨S50000x128, .f32⟩
  | 58 => ⟨S_, .f32⟩
  | 59 => ⟨S50000x128, .f32⟩
  | 60 => ⟨S_, .f32⟩
  | 61 => ⟨S50000x128, .f32⟩
  | 62 => ⟨S_, .f32⟩
  | 63 => ⟨S50000x128, .f32⟩
  | 64 => ⟨S1x1600000, .i32⟩
  | 65 => ⟨S1600000, .i32⟩
  | 66 => ⟨S1x1600000, .i32⟩
  | 67 => ⟨S1600000, .i32⟩
  | 68 => ⟨S1x128x128, .f32⟩
  | 69 => ⟨S128x128, .f32⟩
  | 70 => ⟨S1x128, .f32⟩
  | 71 => ⟨S128, .f32⟩
  | 72 => ⟨S_, .f32⟩
  | 73 => ⟨S1600000, .f32⟩
  | 74 => ⟨S_, .f32⟩
  | 75 => ⟨S50000, .f32⟩
  | 76 => ⟨S1600000x1, .i32⟩
  | 77 => ⟨S50000, .f32⟩
  | 78 => ⟨S_, .f32⟩
  | 79 => ⟨S_, .f32⟩
  | 80 => ⟨S50000, .f32⟩
  | 81 => ⟨S50000, .f32⟩
  | 82 => ⟨S_, .f32⟩
  | 83 => ⟨S50000, .f32⟩
  | 84 => ⟨S1600000x1, .i32⟩
  | 85 => ⟨S50000, .f32⟩
  | 86 => ⟨S_, .f32⟩
  | 87 => ⟨S_, .f32⟩
  | 88 => ⟨S50000, .f32⟩
  | 89 => ⟨S50000, .f32⟩
  | 90 => ⟨S50000, .f32⟩
  | 91 => ⟨S50000x1, .f32⟩
  | 92 => ⟨S50000x128, .f32⟩
  | 93 => ⟨S50000x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S_, .f32⟩
  | 104 => ⟨S50000x128, .f32⟩
  | 105 => ⟨S1600000x1, .i32⟩
  | 106 => ⟨S50000x128, .f32⟩
  | 107 => ⟨S50000, .f32⟩
  | 108 => ⟨S50000x1, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S50000x128, .f32⟩
  | 116 => ⟨S1x1600000, .i32⟩
  | 117 => ⟨S1600000, .i32⟩
  | 118 => ⟨S1x1600000, .i32⟩
  | 119 => ⟨S1600000, .i32⟩
  | 120 => ⟨S1x128x128, .f32⟩
  | 121 => ⟨S128x128, .f32⟩
  | 122 => ⟨S1x128, .f32⟩
  | 123 => ⟨S128, .f32⟩
  | 124 => ⟨S_, .f32⟩
  | 125 => ⟨S1600000, .f32⟩
  | 126 => ⟨S_, .f32⟩
  | 127 => ⟨S50000, .f32⟩
  | _ => ⟨S50000x385, .f32⟩

abbrev hbmTy0_1 (i : Nat) : BufTy := match i % 128 with
  | 0 => ⟨S1600000x1, .i32⟩
  | 1 => ⟨S50000, .f32⟩
  | 2 => ⟨S_, .f32⟩
  | 3 => ⟨S_, .f32⟩
  | 4 => ⟨S50000, .f32⟩
  | 5 => ⟨S50000, .f32⟩
  | 6 => ⟨S_, .f32⟩
  | 7 => ⟨S50000, .f32⟩
  | 8 => ⟨S1600000x1, .i32⟩
  | 9 => ⟨S50000, .f32⟩
  | 10 => ⟨S_, .f32⟩
  | 11 => ⟨S_, .f32⟩
  | 12 => ⟨S50000, .f32⟩
  | 13 => ⟨S50000, .f32⟩
  | 14 => ⟨S50000, .f32⟩
  | 15 => ⟨S50000x1, .f32⟩
  | 16 => ⟨S50000x128, .f32⟩
  | 17 => ⟨S50000x128, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S50000x128, .f32⟩
  | 29 => ⟨S1600000x1, .i32⟩
  | 30 => ⟨S50000x128, .f32⟩
  | 31 => ⟨S50000, .f32⟩
  | 32 => ⟨S50000x1, .f32⟩
  | 33 => ⟨S50000x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S50000x128, .f32⟩
  | 40 => ⟨S1x1600000, .i32⟩
  | 41 => ⟨S1600000, .i32⟩
  | 42 => ⟨S1x1600000, .i32⟩
  | 43 => ⟨S1600000, .i32⟩
  | 44 => ⟨S1x128x128, .f32⟩
  | 45 => ⟨S128x128, .f32⟩
  | 46 => ⟨S1x128, .f32⟩
  | 47 => ⟨S128, .f32⟩
  | 48 => ⟨S_, .f32⟩
  | 49 => ⟨S1600000, .f32⟩
  | 50 => ⟨S_, .f32⟩
  | 51 => ⟨S50000, .f32⟩
  | 52 => ⟨S1600000x1, .i32⟩
  | 53 => ⟨S50000, .f32⟩
  | 54 => ⟨S_, .f32⟩
  | 55 => ⟨S_, .f32⟩
  | 56 => ⟨S50000, .f32⟩
  | 57 => ⟨S50000, .f32⟩
  | 58 => ⟨S_, .f32⟩
  | 59 => ⟨S50000, .f32⟩
  | 60 => ⟨S1600000x1, .i32⟩
  | 61 => ⟨S50000, .f32⟩
  | 62 => ⟨S_, .f32⟩
  | 63 => ⟨S_, .f32⟩
  | 64 => ⟨S50000, .f32⟩
  | 65 => ⟨S50000, .f32⟩
  | 66 => ⟨S50000, .f32⟩
  | 67 => ⟨S50000x1, .f32⟩
  | 68 => ⟨S50000x128, .f32⟩
  | 69 => ⟨S50000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S50000x128, .f32⟩
  | 81 => ⟨S1600000x1, .i32⟩
  | 82 => ⟨S50000x128, .f32⟩
  | 83 => ⟨S50000, .f32⟩
  | 84 => ⟨S50000x1, .f32⟩
  | 85 => ⟨S50000x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S50000x128, .f32⟩
  | 92 => ⟨S1x1600000, .i32⟩
  | 93 => ⟨S1600000, .i32⟩
  | 94 => ⟨S1x1600000, .i32⟩
  | 95 => ⟨S1600000, .i32⟩
  | 96 => ⟨S1x128x128, .f32⟩
  | 97 => ⟨S128x128, .f32⟩
  | 98 => ⟨S1x128, .f32⟩
  | 99 => ⟨S128, .f32⟩
  | 100 => ⟨S_, .f32⟩
  | 101 => ⟨S1600000, .f32⟩
  | 102 => ⟨S_, .f32⟩
  | 103 => ⟨S50000, .f32⟩
  | 104 => ⟨S1600000x1, .i32⟩
  | 105 => ⟨S50000, .f32⟩
  | 106 => ⟨S_, .f32⟩
  | 107 => ⟨S_, .f32⟩
  | 108 => ⟨S50000, .f32⟩
  | 109 => ⟨S50000, .f32⟩
  | 110 => ⟨S_, .f32⟩
  | 111 => ⟨S50000, .f32⟩
  | 112 => ⟨S1600000x1, .i32⟩
  | 113 => ⟨S50000, .f32⟩
  | 114 => ⟨S_, .f32⟩
  | 115 => ⟨S_, .f32⟩
  | 116 => ⟨S50000, .f32⟩
  | 117 => ⟨S50000, .f32⟩
  | 118 => ⟨S50000, .f32⟩
  | 119 => ⟨S50000x1, .f32⟩
  | 120 => ⟨S50000x128, .f32⟩
  | 121 => ⟨S50000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S50000x385, .f32⟩

abbrev hbmTy0_2 (i : Nat) : BufTy := match i % 128 with
  | 0 => ⟨S1600000, .i32⟩
  | 1 => ⟨S1600000x1, .i32⟩
  | 2 => ⟨S1600000x128, .f32⟩
  | 3 => ⟨S_, .f32⟩
  | 4 => ⟨S50000x128, .f32⟩
  | 5 => ⟨S1600000x1, .i32⟩
  | 6 => ⟨S50000x128, .f32⟩
  | 7 => ⟨S50000, .f32⟩
  | 8 => ⟨S50000x1, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S50000x128, .f32⟩
  | 16 => ⟨S1x1600000, .i32⟩
  | 17 => ⟨S1600000, .i32⟩
  | 18 => ⟨S1x1600000, .i32⟩
  | 19 => ⟨S1600000, .i32⟩
  | 20 => ⟨S1x128x128, .f32⟩
  | 21 => ⟨S128x128, .f32⟩
  | 22 => ⟨S1x128, .f32⟩
  | 23 => ⟨S128, .f32⟩
  | 24 => ⟨S_, .f32⟩
  | 25 => ⟨S1600000, .f32⟩
  | 26 => ⟨S_, .f32⟩
  | 27 => ⟨S50000, .f32⟩
  | 28 => ⟨S1600000x1, .i32⟩
  | 29 => ⟨S50000, .f32⟩
  | 30 => ⟨S_, .f32⟩
  | 31 => ⟨S_, .f32⟩
  | 32 => ⟨S50000, .f32⟩
  | 33 => ⟨S50000, .f32⟩
  | 34 => ⟨S_, .f32⟩
  | 35 => ⟨S50000, .f32⟩
  | 36 => ⟨S1600000x1, .i32⟩
  | 37 => ⟨S50000, .f32⟩
  | 38 => ⟨S_, .f32⟩
  | 39 => ⟨S_, .f32⟩
  | 40 => ⟨S50000, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S_, .f32⟩
  | 56 => ⟨S50000x128, .f32⟩
  | 57 => ⟨S1600000x1, .i32⟩
  | 58 => ⟨S50000x128, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S_, .f32⟩
  | 81 => ⟨S50000x128, .f32⟩
  | 82 => ⟨S_, .f32⟩
  | 83 => ⟨S50000x128, .f32⟩
  | 84 => ⟨S_, .f32⟩
  | 85 => ⟨S50000x128, .f32⟩
  | 86 => ⟨S_, .f32⟩
  | 87 => ⟨S50000x128, .f32⟩
  | 88 => ⟨S1x1600000, .i32⟩
  | 89 => ⟨S1600000, .i32⟩
  | 90 => ⟨S1x1600000, .i32⟩
  | 91 => ⟨S1600000, .i32⟩
  | 92 => ⟨S1x128x128, .f32⟩
  | 93 => ⟨S128x128, .f32⟩
  | 94 => ⟨S1x128, .f32⟩
  | 95 => ⟨S128, .f32⟩
  | 96 => ⟨S_, .f32⟩
  | 97 => ⟨S1600000, .f32⟩
  | 98 => ⟨S_, .f32⟩
  | 99 => ⟨S50000, .f32⟩
  | 100 => ⟨S1600000x1, .i32⟩
  | 101 => ⟨S50000, .f32⟩
  | 102 => ⟨S_, .f32⟩
  | 103 => ⟨S_, .f32⟩
  | 104 => ⟨S50000, .f32⟩
  | 105 => ⟨S50000, .f32⟩
  | 106 => ⟨S_, .f32⟩
  | 107 => ⟨S50000, .f32⟩
  | 108 => ⟨S1600000x1, .i32⟩
  | 109 => ⟨S50000, .f32⟩
  | 110 => ⟨S_, .f32⟩
  | 111 => ⟨S_, .f32⟩
  | 112 => ⟨S50000, .f32⟩
  | 113 => ⟨S50000, .f32⟩
  | 114 => ⟨S50000, .f32⟩
  | 115 => ⟨S50000x1, .f32⟩
  | 116 => ⟨S50000x128, .f32⟩
  | 117 => ⟨S50000x128, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x128, .f32⟩
  | 127 => ⟨S_, .f32⟩
  | _ => ⟨S50000x385, .f32⟩

abbrev hbmTy0_3 (i : Nat) : BufTy := match i % 128 with
  | 0 => ⟨S50000x128, .f32⟩
  | 1 => ⟨S1600000x1, .i32⟩
  | 2 => ⟨S50000x128, .f32⟩
  | 3 => ⟨S50000, .f32⟩
  | 4 => ⟨S50000x1, .f32⟩
  | 5 => ⟨S50000x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S50000x128, .f32⟩
  | 12 => ⟨S1x1600000, .i32⟩
  | 13 => ⟨S1600000, .i32⟩
  | 14 => ⟨S1x1600000, .i32⟩
  | 15 => ⟨S1600000, .i32⟩
  | 16 => ⟨S1x128x128, .f32⟩
  | 17 => ⟨S128x128, .f32⟩
  | 18 => ⟨S1x128, .f32⟩
  | 19 => ⟨S128, .f32⟩
  | 20 => ⟨S_, .f32⟩
  | 21 => ⟨S1600000, .f32⟩
  | 22 => ⟨S_, .f32⟩
  | 23 => ⟨S50000, .f32⟩
  | 24 => ⟨S1600000x1, .i32⟩
  | 25 => ⟨S50000, .f32⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S1600000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S_, .f32⟩
  | 52 => ⟨S50000x128, .f32⟩
  | 53 => ⟨S1600000x1, .i32⟩
  | 54 => ⟨S50000x128, .f32⟩
  | 55 => ⟨S50000, .f32⟩
  | 56 => ⟨S50000x1, .f32⟩
  | 57 => ⟨S50000x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S50000x128, .f32⟩
  | 64 => ⟨S1x1600000, .i32⟩
  | 65 => ⟨S1600000, .i32⟩
  | 66 => ⟨S1x1600000, .i32⟩
  | 67 => ⟨S1600000, .i32⟩
  | 68 => ⟨S1x128x128, .f32⟩
  | 69 => ⟨S128x128, .f32⟩
  | 70 => ⟨S1x128, .f32⟩
  | 71 => ⟨S128, .f32⟩
  | 72 => ⟨S_, .f32⟩
  | 73 => ⟨S1600000, .f32⟩
  | 74 => ⟨S_, .f32⟩
  | 75 => ⟨S50000, .f32⟩
  | 76 => ⟨S1600000x1, .i32⟩
  | 77 => ⟨S50000, .f32⟩
  | 78 => ⟨S_, .f32⟩
  | 79 => ⟨S_, .f32⟩
  | 80 => ⟨S50000, .f32⟩
  | 81 => ⟨S50000, .f32⟩
  | 82 => ⟨S_, .f32⟩
  | 83 => ⟨S50000, .f32⟩
  | 84 => ⟨S1600000x1, .i32⟩
  | 85 => ⟨S50000, .f32⟩
  | 86 => ⟨S_, .f32⟩
  | 87 => ⟨S_, .f32⟩
  | 88 => ⟨S50000, .f32⟩
  | 89 => ⟨S50000, .f32⟩
  | 90 => ⟨S50000, .f32⟩
  | 91 => ⟨S50000x1, .f32⟩
  | 92 => ⟨S50000x128, .f32⟩
  | 93 => ⟨S50000x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S_, .f32⟩
  | 104 => ⟨S50000x128, .f32⟩
  | 105 => ⟨S1600000x1, .i32⟩
  | 106 => ⟨S50000x128, .f32⟩
  | 107 => ⟨S50000, .f32⟩
  | 108 => ⟨S50000x1, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S50000x128, .f32⟩
  | 116 => ⟨S1x1600000, .i32⟩
  | 117 => ⟨S1600000, .i32⟩
  | 118 => ⟨S1x1600000, .i32⟩
  | 119 => ⟨S1600000, .i32⟩
  | 120 => ⟨S1x128x128, .f32⟩
  | 121 => ⟨S128x128, .f32⟩
  | 122 => ⟨S1x128, .f32⟩
  | 123 => ⟨S128, .f32⟩
  | 124 => ⟨S_, .f32⟩
  | 125 => ⟨S1600000, .f32⟩
  | 126 => ⟨S_, .f32⟩
  | 127 => ⟨S50000, .f32⟩
  | _ => ⟨S50000x385, .f32⟩

abbrev hbmTy0_4 (i : Nat) : BufTy := match i % 128 with
  | 0 => ⟨S1600000x1, .i32⟩
  | 1 => ⟨S50000, .f32⟩
  | 2 => ⟨S_, .f32⟩
  | 3 => ⟨S_, .f32⟩
  | 4 => ⟨S50000, .f32⟩
  | 5 => ⟨S50000, .f32⟩
  | 6 => ⟨S_, .f32⟩
  | 7 => ⟨S50000, .f32⟩
  | 8 => ⟨S1600000x1, .i32⟩
  | 9 => ⟨S50000, .f32⟩
  | 10 => ⟨S_, .f32⟩
  | 11 => ⟨S_, .f32⟩
  | 12 => ⟨S50000, .f32⟩
  | 13 => ⟨S50000, .f32⟩
  | 14 => ⟨S50000, .f32⟩
  | 15 => ⟨S50000x1, .f32⟩
  | 16 => ⟨S50000x128, .f32⟩
  | 17 => ⟨S50000x128, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S50000x128, .f32⟩
  | 29 => ⟨S1600000x1, .i32⟩
  | 30 => ⟨S50000x128, .f32⟩
  | 31 => ⟨S50000, .f32⟩
  | 32 => ⟨S50000x1, .f32⟩
  | 33 => ⟨S50000x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S50000x128, .f32⟩
  | 40 => ⟨S1x1600000, .i32⟩
  | 41 => ⟨S1600000, .i32⟩
  | 42 => ⟨S1x1600000, .i32⟩
  | 43 => ⟨S1600000, .i32⟩
  | 44 => ⟨S1x128x128, .f32⟩
  | 45 => ⟨S128x128, .f32⟩
  | 46 => ⟨S1x128, .f32⟩
  | 47 => ⟨S128, .f32⟩
  | 48 => ⟨S_, .f32⟩
  | 49 => ⟨S1600000, .f32⟩
  | 50 => ⟨S_, .f32⟩
  | 51 => ⟨S50000, .f32⟩
  | 52 => ⟨S1600000x1, .i32⟩
  | 53 => ⟨S50000, .f32⟩
  | 54 => ⟨S_, .f32⟩
  | 55 => ⟨S_, .f32⟩
  | 56 => ⟨S50000, .f32⟩
  | 57 => ⟨S50000, .f32⟩
  | 58 => ⟨S_, .f32⟩
  | 59 => ⟨S50000, .f32⟩
  | 60 => ⟨S1600000x1, .i32⟩
  | 61 => ⟨S50000, .f32⟩
  | 62 => ⟨S_, .f32⟩
  | 63 => ⟨S_, .f32⟩
  | 64 => ⟨S50000, .f32⟩
  | 65 => ⟨S50000, .f32⟩
  | 66 => ⟨S50000, .f32⟩
  | 67 => ⟨S50000x1, .f32⟩
  | 68 => ⟨S50000x128, .f32⟩
  | 69 => ⟨S50000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S50000x128, .f32⟩
  | 81 => ⟨S1600000x1, .i32⟩
  | 82 => ⟨S50000x128, .f32⟩
  | 83 => ⟨S50000, .f32⟩
  | 84 => ⟨S50000x1, .f32⟩
  | 85 => ⟨S50000x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S1x50000x128, .f32⟩
  | 105 => ⟨S1x50000x128, .f32⟩
  | 106 => ⟨S1x50000x128, .f32⟩
  | 107 => ⟨S1x50000x128, .f32⟩
  | 108 => ⟨S4x50000x128, .f32⟩
  | _ => ⟨S50000x385, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x385, .f32⟩

abbrev bufTy : (tb : Table) → Fin (tcTables nBuf tb) → BufTy
  | .hbm, ⟨i, _⟩ => hbmTy i
  | _, _ => ⟨S50000x385, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_cst : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call2_cst : Ref sig .tc := ⟨.hbm, 42, rfl⟩
abbrev main_call2_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call3_cst : Ref sig .tc := ⟨.hbm, 53, rfl⟩
abbrev main_call3_v0 : Ref sig .tc := ⟨.hbm, 54, rfl⟩
abbrev main_v35 : Ref sig .tc := ⟨.hbm, 55, rfl⟩
abbrev main_cst : Ref sig .tc := ⟨.hbm, 56, rfl⟩
abbrev main_v36 : Ref sig .tc := ⟨.hbm, 57, rfl⟩
abbrev main_cst_0 : Ref sig .tc := ⟨.hbm, 58, rfl⟩
abbrev main_v37 : Ref sig .tc := ⟨.hbm, 59, rfl⟩
abbrev main_cst_1 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_3 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_call4_v0 : Ref sig .tc := ⟨.hbm, 79, rfl⟩
abbrev main_call4_v1 : Ref sig .tc := ⟨.hbm, 80, rfl⟩
abbrev main_v52 : Ref sig .tc := ⟨.hbm, 81, rfl⟩
abbrev main_cst_6 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_7 : Ref sig .tc := ⟨.hbm, 86, rfl⟩
abbrev main_call5_v0 : Ref sig .tc := ⟨.hbm, 87, rfl⟩
abbrev main_call5_v1 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c : Ref sig .tc := ⟨.hbm, 94, rfl⟩
abbrev main_v61 : Ref sig .tc := ⟨.hbm, 95, rfl⟩
abbrev main_v62 : Ref sig .tc := ⟨.hbm, 96, rfl⟩
abbrev main_c_8 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_9 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_10 : Ref sig .tc := ⟨.hbm, 124, rfl⟩
abbrev main_v88 : Ref sig .tc := ⟨.hbm, 125, rfl⟩
abbrev main_cst_11 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_12 : Ref sig .tc := ⟨.hbm, 130, rfl⟩
abbrev main_call6_v0 : Ref sig .tc := ⟨.hbm, 131, rfl⟩
abbrev main_call6_v1 : Ref sig .tc := ⟨.hbm, 132, rfl⟩
abbrev main_v92 : Ref sig .tc := ⟨.hbm, 133, rfl⟩
abbrev main_cst_13 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_14 : Ref sig .tc := ⟨.hbm, 138, rfl⟩
abbrev main_call7_v0 : Ref sig .tc := ⟨.hbm, 139, rfl⟩
abbrev main_call7_v1 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_c_15 : Ref sig .tc := ⟨.hbm, 146, rfl⟩
abbrev main_v101 : Ref sig .tc := ⟨.hbm, 147, rfl⟩
abbrev main_v102 : Ref sig .tc := ⟨.hbm, 148, rfl⟩
abbrev main_c_16 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_17 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_18 : Ref sig .tc := ⟨.hbm, 176, rfl⟩
abbrev main_v128 : Ref sig .tc := ⟨.hbm, 177, rfl⟩
abbrev main_cst_19 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_20 : Ref sig .tc := ⟨.hbm, 182, rfl⟩
abbrev main_call8_v0 : Ref sig .tc := ⟨.hbm, 183, rfl⟩
abbrev main_call8_v1 : Ref sig .tc := ⟨.hbm, 184, rfl⟩
abbrev main_v132 : Ref sig .tc := ⟨.hbm, 185, rfl⟩
abbrev main_cst_21 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_22 : Ref sig .tc := ⟨.hbm, 190, rfl⟩
abbrev main_call9_v0 : Ref sig .tc := ⟨.hbm, 191, rfl⟩
abbrev main_call9_v1 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_c_23 : Ref sig .tc := ⟨.hbm, 198, rfl⟩
abbrev main_v141 : Ref sig .tc := ⟨.hbm, 199, rfl⟩
abbrev main_v142 : Ref sig .tc := ⟨.hbm, 200, rfl⟩
abbrev main_c_24 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_25 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_cst_26 : Ref sig .tc := ⟨.hbm, 228, rfl⟩
abbrev main_v168 : Ref sig .tc := ⟨.hbm, 229, rfl⟩
abbrev main_cst_27 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_cst_28 : Ref sig .tc := ⟨.hbm, 234, rfl⟩
abbrev main_call10_v0 : Ref sig .tc := ⟨.hbm, 235, rfl⟩
abbrev main_call10_v1 : Ref sig .tc := ⟨.hbm, 236, rfl⟩
abbrev main_v172 : Ref sig .tc := ⟨.hbm, 237, rfl⟩
abbrev main_cst_29 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_cst_30 : Ref sig .tc := ⟨.hbm, 242, rfl⟩
abbrev main_call11_v0 : Ref sig .tc := ⟨.hbm, 243, rfl⟩
abbrev main_call11_v1 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_c_31 : Ref sig .tc := ⟨.hbm, 250, rfl⟩
abbrev main_v181 : Ref sig .tc := ⟨.hbm, 251, rfl⟩
abbrev main_v182 : Ref sig .tc := ⟨.hbm, 252, rfl⟩
abbrev main_c_32 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_cst_33 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_cst_34 : Ref sig .tc := ⟨.hbm, 280, rfl⟩
abbrev main_v208 : Ref sig .tc := ⟨.hbm, 281, rfl⟩
abbrev main_cst_35 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_cst_36 : Ref sig .tc := ⟨.hbm, 286, rfl⟩
abbrev main_call12_v0 : Ref sig .tc := ⟨.hbm, 287, rfl⟩
abbrev main_call12_v1 : Ref sig .tc := ⟨.hbm, 288, rfl⟩
abbrev main_v212 : Ref sig .tc := ⟨.hbm, 289, rfl⟩
abbrev main_cst_37 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_cst_38 : Ref sig .tc := ⟨.hbm, 294, rfl⟩
abbrev main_call13_v0 : Ref sig .tc := ⟨.hbm, 295, rfl⟩
abbrev main_call13_v1 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_c_39 : Ref sig .tc := ⟨.hbm, 302, rfl⟩
abbrev main_v221 : Ref sig .tc := ⟨.hbm, 303, rfl⟩
abbrev main_v222 : Ref sig .tc := ⟨.hbm, 304, rfl⟩
abbrev main_c_40 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_cst_41 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_call14_cst : Ref sig .tc := ⟨.hbm, 324, rfl⟩
abbrev main_call14_v0 : Ref sig .tc := ⟨.hbm, 325, rfl⟩
abbrev main_v240 : Ref sig .tc := ⟨.hbm, 326, rfl⟩
abbrev main_call15_cst : Ref sig .tc := ⟨.hbm, 327, rfl⟩
abbrev main_call15_v0 : Ref sig .tc := ⟨.hbm, 328, rfl⟩
abbrev main_v241 : Ref sig .tc := ⟨.hbm, 329, rfl⟩
abbrev main_call16_cst : Ref sig .tc := ⟨.hbm, 330, rfl⟩
abbrev main_call16_v0 : Ref sig .tc := ⟨.hbm, 331, rfl⟩
abbrev main_v242 : Ref sig .tc := ⟨.hbm, 332, rfl⟩
abbrev main_call17_cst : Ref sig .tc := ⟨.hbm, 333, rfl⟩
abbrev main_call17_v0 : Ref sig .tc := ⟨.hbm, 334, rfl⟩
abbrev main_v243 : Ref sig .tc := ⟨.hbm, 335, rfl⟩
abbrev main_cst_42 : Ref sig .tc := ⟨.hbm, 336, rfl⟩
abbrev main_v244 : Ref sig .tc := ⟨.hbm, 337, rfl⟩
abbrev main_cst_43 : Ref sig .tc := ⟨.hbm, 338, rfl⟩
abbrev main_v245 : Ref sig .tc := ⟨.hbm, 339, rfl⟩
abbrev main_cst_44 : Ref sig .tc := ⟨.hbm, 340, rfl⟩
abbrev main_v246 : Ref sig .tc := ⟨.hbm, 341, rfl⟩
abbrev main_cst_45 : Ref sig .tc := ⟨.hbm, 342, rfl⟩
abbrev main_v247 : Ref sig .tc := ⟨.hbm, 343, rfl⟩
abbrev main_v248 : Ref sig .tc := ⟨.hbm, 344, rfl⟩
abbrev main_v249 : Ref sig .tc := ⟨.hbm, 345, rfl⟩
abbrev main_v250 : Ref sig .tc := ⟨.hbm, 346, rfl⟩
abbrev main_v251 : Ref sig .tc := ⟨.hbm, 347, rfl⟩
abbrev main_v252 : Ref sig .tc := ⟨.hbm, 348, rfl⟩
abbrev main_v253 : Ref sig .tc := ⟨.hbm, 349, rfl⟩
abbrev main_v254 : Ref sig .tc := ⟨.hbm, 350, rfl⟩
abbrev main_v255 : Ref sig .tc := ⟨.hbm, 351, rfl⟩
abbrev main_cst_46 : Ref sig .tc := ⟨.hbm, 352, rfl⟩
abbrev main_v256 : Ref sig .tc := ⟨.hbm, 353, rfl⟩
abbrev main_cst_47 : Ref sig .tc := ⟨.hbm, 354, rfl⟩
abbrev main_v257 : Ref sig .tc := ⟨.hbm, 355, rfl⟩
abbrev main_v258 : Ref sig .tc := ⟨.hbm, 356, rfl⟩
abbrev main_v259 : Ref sig .tc := ⟨.hbm, 357, rfl⟩
abbrev main_cst_48 : Ref sig .tc := ⟨.hbm, 358, rfl⟩
abbrev main_call18_v0 : Ref sig .tc := ⟨.hbm, 359, rfl⟩
abbrev main_call18_v1 : Ref sig .tc := ⟨.hbm, 360, rfl⟩
abbrev main_v260 : Ref sig .tc := ⟨.hbm, 361, rfl⟩
abbrev main_cst_49 : Ref sig .tc := ⟨.hbm, 362, rfl⟩
abbrev main_v261 : Ref sig .tc := ⟨.hbm, 363, rfl⟩
abbrev main_v262 : Ref sig .tc := ⟨.hbm, 364, rfl⟩
abbrev main_v263 : Ref sig .tc := ⟨.hbm, 365, rfl⟩
abbrev main_cst_50 : Ref sig .tc := ⟨.hbm, 366, rfl⟩
abbrev main_call19_v0 : Ref sig .tc := ⟨.hbm, 367, rfl⟩
abbrev main_call19_v1 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_v268 : Ref sig .tc := ⟨.hbm, 373, rfl⟩
abbrev main_c_51 : Ref sig .tc := ⟨.hbm, 374, rfl⟩
abbrev main_v269 : Ref sig .tc := ⟨.hbm, 375, rfl⟩
abbrev main_v270 : Ref sig .tc := ⟨.hbm, 376, rfl⟩
abbrev main_c_52 : Ref sig .tc := ⟨.hbm, 377, rfl⟩
abbrev main_v271 : Ref sig .tc := ⟨.hbm, 378, rfl⟩
abbrev main_v272 : Ref sig .tc := ⟨.hbm, 379, rfl⟩
abbrev main_v273 : Ref sig .tc := ⟨.hbm, 380, rfl⟩
abbrev main_v274 : Ref sig .tc := ⟨.hbm, 381, rfl⟩
abbrev main_v275 : Ref sig .tc := ⟨.hbm, 382, rfl⟩
abbrev main_cst_53 : Ref sig .tc := ⟨.hbm, 383, rfl⟩
abbrev main_v276 : Ref sig .tc := ⟨.hbm, 384, rfl⟩
abbrev main_v277 : Ref sig .tc := ⟨.hbm, 385, rfl⟩
abbrev main_v278 : Ref sig .tc := ⟨.hbm, 386, rfl⟩
abbrev main_v279 : Ref sig .tc := ⟨.hbm, 387, rfl⟩
abbrev main_v280 : Ref sig .tc := ⟨.hbm, 388, rfl⟩
abbrev main_v281 : Ref sig .tc := ⟨.hbm, 389, rfl⟩
abbrev main_v282 : Ref sig .tc := ⟨.hbm, 390, rfl⟩
abbrev main_v283 : Ref sig .tc := ⟨.hbm, 391, rfl⟩
abbrev main_v284 : Ref sig .tc := ⟨.hbm, 392, rfl⟩
abbrev main_v285 : Ref sig .tc := ⟨.hbm, 393, rfl⟩
abbrev main_v286 : Ref sig .tc := ⟨.hbm, 394, rfl⟩
abbrev main_v287 : Ref sig .tc := ⟨.hbm, 395, rfl⟩
abbrev main_v288 : Ref sig .tc := ⟨.hbm, 396, rfl⟩
abbrev main_v289 : Ref sig .tc := ⟨.hbm, 397, rfl⟩
abbrev main_v290 : Ref sig .tc := ⟨.hbm, 398, rfl⟩
abbrev main_v291 : Ref sig .tc := ⟨.hbm, 399, rfl⟩
abbrev main_v292 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_cst_54 : Ref sig .tc := ⟨.hbm, 404, rfl⟩
abbrev main_v296 : Ref sig .tc := ⟨.hbm, 405, rfl⟩
abbrev main_cst_55 : Ref sig .tc := ⟨.hbm, 406, rfl⟩
abbrev main_v297 : Ref sig .tc := ⟨.hbm, 407, rfl⟩
abbrev main_v298 : Ref sig .tc := ⟨.hbm, 408, rfl⟩
abbrev main_v299 : Ref sig .tc := ⟨.hbm, 409, rfl⟩
abbrev main_cst_56 : Ref sig .tc := ⟨.hbm, 410, rfl⟩
abbrev main_call20_v0 : Ref sig .tc := ⟨.hbm, 411, rfl⟩
abbrev main_call20_v1 : Ref sig .tc := ⟨.hbm, 412, rfl⟩
abbrev main_v300 : Ref sig .tc := ⟨.hbm, 413, rfl⟩
abbrev main_cst_57 : Ref sig .tc := ⟨.hbm, 414, rfl⟩
abbrev main_v301 : Ref sig .tc := ⟨.hbm, 415, rfl⟩
abbrev main_v302 : Ref sig .tc := ⟨.hbm, 416, rfl⟩
abbrev main_v303 : Ref sig .tc := ⟨.hbm, 417, rfl⟩
abbrev main_cst_58 : Ref sig .tc := ⟨.hbm, 418, rfl⟩
abbrev main_call21_v0 : Ref sig .tc := ⟨.hbm, 419, rfl⟩
abbrev main_call21_v1 : Ref sig .tc := ⟨.hbm, 420, rfl⟩
abbrev main_v304 : Ref sig .tc := ⟨.hbm, 421, rfl⟩
abbrev main_v305 : Ref sig .tc := ⟨.hbm, 422, rfl⟩
abbrev main_v306 : Ref sig .tc := ⟨.hbm, 423, rfl⟩
abbrev main_v307 : Ref sig .tc := ⟨.hbm, 424, rfl⟩
abbrev main_v308 : Ref sig .tc := ⟨.hbm, 425, rfl⟩
abbrev main_c_59 : Ref sig .tc := ⟨.hbm, 426, rfl⟩
abbrev main_v309 : Ref sig .tc := ⟨.hbm, 427, rfl⟩
abbrev main_v310 : Ref sig .tc := ⟨.hbm, 428, rfl⟩
abbrev main_c_60 : Ref sig .tc := ⟨.hbm, 429, rfl⟩
abbrev main_v311 : Ref sig .tc := ⟨.hbm, 430, rfl⟩
abbrev main_v312 : Ref sig .tc := ⟨.hbm, 431, rfl⟩
abbrev main_v313 : Ref sig .tc := ⟨.hbm, 432, rfl⟩
abbrev main_v314 : Ref sig .tc := ⟨.hbm, 433, rfl⟩
abbrev main_v315 : Ref sig .tc := ⟨.hbm, 434, rfl⟩
abbrev main_cst_61 : Ref sig .tc := ⟨.hbm, 435, rfl⟩
abbrev main_v316 : Ref sig .tc := ⟨.hbm, 436, rfl⟩
abbrev main_v317 : Ref sig .tc := ⟨.hbm, 437, rfl⟩
abbrev main_v318 : Ref sig .tc := ⟨.hbm, 438, rfl⟩
abbrev main_v319 : Ref sig .tc := ⟨.hbm, 439, rfl⟩
abbrev main_v320 : Ref sig .tc := ⟨.hbm, 440, rfl⟩
abbrev main_v321 : Ref sig .tc := ⟨.hbm, 441, rfl⟩
abbrev main_v322 : Ref sig .tc := ⟨.hbm, 442, rfl⟩
abbrev main_v323 : Ref sig .tc := ⟨.hbm, 443, rfl⟩
abbrev main_v324 : Ref sig .tc := ⟨.hbm, 444, rfl⟩
abbrev main_v325 : Ref sig .tc := ⟨.hbm, 445, rfl⟩
abbrev main_v326 : Ref sig .tc := ⟨.hbm, 446, rfl⟩
abbrev main_v327 : Ref sig .tc := ⟨.hbm, 447, rfl⟩
abbrev main_v328 : Ref sig .tc := ⟨.hbm, 448, rfl⟩
abbrev main_v329 : Ref sig .tc := ⟨.hbm, 449, rfl⟩
abbrev main_v330 : Ref sig .tc := ⟨.hbm, 450, rfl⟩
abbrev main_v331 : Ref sig .tc := ⟨.hbm, 451, rfl⟩
abbrev main_v332 : Ref sig .tc := ⟨.hbm, 452, rfl⟩
abbrev main_v333 : Ref sig .tc := ⟨.hbm, 453, rfl⟩
abbrev main_v334 : Ref sig .tc := ⟨.hbm, 454, rfl⟩
abbrev main_v335 : Ref sig .tc := ⟨.hbm, 455, rfl⟩
abbrev main_cst_62 : Ref sig .tc := ⟨.hbm, 456, rfl⟩
abbrev main_v336 : Ref sig .tc := ⟨.hbm, 457, rfl⟩
abbrev main_cst_63 : Ref sig .tc := ⟨.hbm, 458, rfl⟩
abbrev main_v337 : Ref sig .tc := ⟨.hbm, 459, rfl⟩
abbrev main_v338 : Ref sig .tc := ⟨.hbm, 460, rfl⟩
abbrev main_v339 : Ref sig .tc := ⟨.hbm, 461, rfl⟩
abbrev main_cst_64 : Ref sig .tc := ⟨.hbm, 462, rfl⟩
abbrev main_call22_v0 : Ref sig .tc := ⟨.hbm, 463, rfl⟩
abbrev main_call22_v1 : Ref sig .tc := ⟨.hbm, 464, rfl⟩
abbrev main_v340 : Ref sig .tc := ⟨.hbm, 465, rfl⟩
abbrev main_cst_65 : Ref sig .tc := ⟨.hbm, 466, rfl⟩
abbrev main_v341 : Ref sig .tc := ⟨.hbm, 467, rfl⟩
abbrev main_v342 : Ref sig .tc := ⟨.hbm, 468, rfl⟩
abbrev main_v343 : Ref sig .tc := ⟨.hbm, 469, rfl⟩
abbrev main_cst_66 : Ref sig .tc := ⟨.hbm, 470, rfl⟩
abbrev main_call23_v0 : Ref sig .tc := ⟨.hbm, 471, rfl⟩
abbrev main_call23_v1 : Ref sig .tc := ⟨.hbm, 472, rfl⟩
abbrev main_v344 : Ref sig .tc := ⟨.hbm, 473, rfl⟩
abbrev main_v345 : Ref sig .tc := ⟨.hbm, 474, rfl⟩
abbrev main_v346 : Ref sig .tc := ⟨.hbm, 475, rfl⟩
abbrev main_v347 : Ref sig .tc := ⟨.hbm, 476, rfl⟩
abbrev main_v348 : Ref sig .tc := ⟨.hbm, 477, rfl⟩
abbrev main_c_67 : Ref sig .tc := ⟨.hbm, 478, rfl⟩
abbrev main_v349 : Ref sig .tc := ⟨.hbm, 479, rfl⟩
abbrev main_v350 : Ref sig .tc := ⟨.hbm, 480, rfl⟩
abbrev main_c_68 : Ref sig .tc := ⟨.hbm, 481, rfl⟩
abbrev main_v351 : Ref sig .tc := ⟨.hbm, 482, rfl⟩
abbrev main_v352 : Ref sig .tc := ⟨.hbm, 483, rfl⟩
abbrev main_v353 : Ref sig .tc := ⟨.hbm, 484, rfl⟩
abbrev main_v354 : Ref sig .tc := ⟨.hbm, 485, rfl⟩
abbrev main_v355 : Ref sig .tc := ⟨.hbm, 486, rfl⟩
abbrev main_cst_69 : Ref sig .tc := ⟨.hbm, 487, rfl⟩
abbrev main_v356 : Ref sig .tc := ⟨.hbm, 488, rfl⟩
abbrev main_v357 : Ref sig .tc := ⟨.hbm, 489, rfl⟩
abbrev main_v358 : Ref sig .tc := ⟨.hbm, 490, rfl⟩
abbrev main_v359 : Ref sig .tc := ⟨.hbm, 491, rfl⟩
abbrev main_v360 : Ref sig .tc := ⟨.hbm, 492, rfl⟩
abbrev main_v361 : Ref sig .tc := ⟨.hbm, 493, rfl⟩
abbrev main_v362 : Ref sig .tc := ⟨.hbm, 494, rfl⟩
abbrev main_v363 : Ref sig .tc := ⟨.hbm, 495, rfl⟩
abbrev main_v364 : Ref sig .tc := ⟨.hbm, 496, rfl⟩
abbrev main_v365 : Ref sig .tc := ⟨.hbm, 497, rfl⟩
abbrev main_v366 : Ref sig .tc := ⟨.hbm, 498, rfl⟩
abbrev main_v367 : Ref sig .tc := ⟨.hbm, 499, rfl⟩
abbrev main_v368 : Ref sig .tc := ⟨.hbm, 500, rfl⟩
abbrev main_v369 : Ref sig .tc := ⟨.hbm, 501, rfl⟩
abbrev main_v370 : Ref sig .tc := ⟨.hbm, 502, rfl⟩
abbrev main_v371 : Ref sig .tc := ⟨.hbm, 503, rfl⟩
abbrev main_v372 : Ref sig .tc := ⟨.hbm, 504, rfl⟩
abbrev main_v373 : Ref sig .tc := ⟨.hbm, 505, rfl⟩
abbrev main_v374 : Ref sig .tc := ⟨.hbm, 506, rfl⟩
abbrev main_v375 : Ref sig .tc := ⟨.hbm, 507, rfl⟩
abbrev main_cst_70 : Ref sig .tc := ⟨.hbm, 508, rfl⟩
abbrev main_v376 : Ref sig .tc := ⟨.hbm, 509, rfl⟩
abbrev main_cst_71 : Ref sig .tc := ⟨.hbm, 510, rfl⟩
abbrev main_v377 : Ref sig .tc := ⟨.hbm, 511, rfl⟩
abbrev main_v378 : Ref sig .tc := ⟨.hbm, 512, rfl⟩
abbrev main_v379 : Ref sig .tc := ⟨.hbm, 513, rfl⟩
abbrev main_cst_72 : Ref sig .tc := ⟨.hbm, 514, rfl⟩
abbrev main_call24_v0 : Ref sig .tc := ⟨.hbm, 515, rfl⟩
abbrev main_call24_v1 : Ref sig .tc := ⟨.hbm, 516, rfl⟩
abbrev main_v380 : Ref sig .tc := ⟨.hbm, 517, rfl⟩
abbrev main_cst_73 : Ref sig .tc := ⟨.hbm, 518, rfl⟩
abbrev main_v381 : Ref sig .tc := ⟨.hbm, 519, rfl⟩
abbrev main_v382 : Ref sig .tc := ⟨.hbm, 520, rfl⟩
abbrev main_v383 : Ref sig .tc := ⟨.hbm, 521, rfl⟩
abbrev main_cst_74 : Ref sig .tc := ⟨.hbm, 522, rfl⟩
abbrev main_call25_v0 : Ref sig .tc := ⟨.hbm, 523, rfl⟩
abbrev main_call25_v1 : Ref sig .tc := ⟨.hbm, 524, rfl⟩
abbrev main_v384 : Ref sig .tc := ⟨.hbm, 525, rfl⟩
abbrev main_v385 : Ref sig .tc := ⟨.hbm, 526, rfl⟩
abbrev main_v386 : Ref sig .tc := ⟨.hbm, 527, rfl⟩
abbrev main_v387 : Ref sig .tc := ⟨.hbm, 528, rfl⟩
abbrev main_v388 : Ref sig .tc := ⟨.hbm, 529, rfl⟩
abbrev main_c_75 : Ref sig .tc := ⟨.hbm, 530, rfl⟩
abbrev main_v389 : Ref sig .tc := ⟨.hbm, 531, rfl⟩
abbrev main_v390 : Ref sig .tc := ⟨.hbm, 532, rfl⟩
abbrev main_c_76 : Ref sig .tc := ⟨.hbm, 533, rfl⟩
abbrev main_v391 : Ref sig .tc := ⟨.hbm, 534, rfl⟩
abbrev main_v392 : Ref sig .tc := ⟨.hbm, 535, rfl⟩
abbrev main_v393 : Ref sig .tc := ⟨.hbm, 536, rfl⟩
abbrev main_v394 : Ref sig .tc := ⟨.hbm, 537, rfl⟩
abbrev main_v395 : Ref sig .tc := ⟨.hbm, 538, rfl⟩
abbrev main_cst_77 : Ref sig .tc := ⟨.hbm, 539, rfl⟩
abbrev main_v396 : Ref sig .tc := ⟨.hbm, 540, rfl⟩
abbrev main_v397 : Ref sig .tc := ⟨.hbm, 541, rfl⟩
abbrev main_v398 : Ref sig .tc := ⟨.hbm, 542, rfl⟩
abbrev main_v399 : Ref sig .tc := ⟨.hbm, 543, rfl⟩
abbrev main_v400 : Ref sig .tc := ⟨.hbm, 544, rfl⟩
abbrev main_v401 : Ref sig .tc := ⟨.hbm, 545, rfl⟩
abbrev main_v402 : Ref sig .tc := ⟨.hbm, 546, rfl⟩
abbrev main_v403 : Ref sig .tc := ⟨.hbm, 547, rfl⟩
abbrev main_v404 : Ref sig .tc := ⟨.hbm, 548, rfl⟩
abbrev main_v405 : Ref sig .tc := ⟨.hbm, 549, rfl⟩
abbrev main_v406 : Ref sig .tc := ⟨.hbm, 550, rfl⟩
abbrev main_v407 : Ref sig .tc := ⟨.hbm, 551, rfl⟩
abbrev main_v408 : Ref sig .tc := ⟨.hbm, 552, rfl⟩
abbrev main_v409 : Ref sig .tc := ⟨.hbm, 553, rfl⟩
abbrev main_v410 : Ref sig .tc := ⟨.hbm, 554, rfl⟩
abbrev main_v411 : Ref sig .tc := ⟨.hbm, 555, rfl⟩
abbrev main_v412 : Ref sig .tc := ⟨.hbm, 556, rfl⟩
abbrev main_v413 : Ref sig .tc := ⟨.hbm, 557, rfl⟩
abbrev main_v414 : Ref sig .tc := ⟨.hbm, 558, rfl⟩
abbrev main_v415 : Ref sig .tc := ⟨.hbm, 559, rfl⟩
abbrev main_cst_78 : Ref sig .tc := ⟨.hbm, 560, rfl⟩
abbrev main_v416 : Ref sig .tc := ⟨.hbm, 561, rfl⟩
abbrev main_cst_79 : Ref sig .tc := ⟨.hbm, 562, rfl⟩
abbrev main_v417 : Ref sig .tc := ⟨.hbm, 563, rfl⟩
abbrev main_v418 : Ref sig .tc := ⟨.hbm, 564, rfl⟩
abbrev main_v419 : Ref sig .tc := ⟨.hbm, 565, rfl⟩
abbrev main_cst_80 : Ref sig .tc := ⟨.hbm, 566, rfl⟩
abbrev main_call26_v0 : Ref sig .tc := ⟨.hbm, 567, rfl⟩
abbrev main_call26_v1 : Ref sig .tc := ⟨.hbm, 568, rfl⟩
abbrev main_v420 : Ref sig .tc := ⟨.hbm, 569, rfl⟩
abbrev main_cst_81 : Ref sig .tc := ⟨.hbm, 570, rfl⟩
abbrev main_v421 : Ref sig .tc := ⟨.hbm, 571, rfl⟩
abbrev main_v422 : Ref sig .tc := ⟨.hbm, 572, rfl⟩
abbrev main_v423 : Ref sig .tc := ⟨.hbm, 573, rfl⟩
abbrev main_cst_82 : Ref sig .tc := ⟨.hbm, 574, rfl⟩
abbrev main_call27_v0 : Ref sig .tc := ⟨.hbm, 575, rfl⟩
abbrev main_call27_v1 : Ref sig .tc := ⟨.hbm, 576, rfl⟩
abbrev main_v424 : Ref sig .tc := ⟨.hbm, 577, rfl⟩
abbrev main_v425 : Ref sig .tc := ⟨.hbm, 578, rfl⟩
abbrev main_v426 : Ref sig .tc := ⟨.hbm, 579, rfl⟩
abbrev main_v427 : Ref sig .tc := ⟨.hbm, 580, rfl⟩
abbrev main_v428 : Ref sig .tc := ⟨.hbm, 581, rfl⟩
abbrev main_c_83 : Ref sig .tc := ⟨.hbm, 582, rfl⟩
abbrev main_v429 : Ref sig .tc := ⟨.hbm, 583, rfl⟩
abbrev main_v430 : Ref sig .tc := ⟨.hbm, 584, rfl⟩
abbrev main_c_84 : Ref sig .tc := ⟨.hbm, 585, rfl⟩
abbrev main_v431 : Ref sig .tc := ⟨.hbm, 586, rfl⟩
abbrev main_v432 : Ref sig .tc := ⟨.hbm, 587, rfl⟩
abbrev main_v433 : Ref sig .tc := ⟨.hbm, 588, rfl⟩
abbrev main_v434 : Ref sig .tc := ⟨.hbm, 589, rfl⟩
abbrev main_v435 : Ref sig .tc := ⟨.hbm, 590, rfl⟩
abbrev main_cst_85 : Ref sig .tc := ⟨.hbm, 591, rfl⟩
abbrev main_v436 : Ref sig .tc := ⟨.hbm, 592, rfl⟩
abbrev main_v437 : Ref sig .tc := ⟨.hbm, 593, rfl⟩
abbrev main_v438 : Ref sig .tc := ⟨.hbm, 594, rfl⟩
abbrev main_v439 : Ref sig .tc := ⟨.hbm, 595, rfl⟩
abbrev main_v440 : Ref sig .tc := ⟨.hbm, 596, rfl⟩
abbrev main_v441 : Ref sig .tc := ⟨.hbm, 597, rfl⟩
abbrev main_v442 : Ref sig .tc := ⟨.hbm, 598, rfl⟩
abbrev main_v443 : Ref sig .tc := ⟨.hbm, 599, rfl⟩
abbrev main_v444 : Ref sig .tc := ⟨.hbm, 600, rfl⟩
abbrev main_v445 : Ref sig .tc := ⟨.hbm, 601, rfl⟩
abbrev main_v446 : Ref sig .tc := ⟨.hbm, 602, rfl⟩
abbrev main_v447 : Ref sig .tc := ⟨.hbm, 603, rfl⟩
abbrev main_call28_cst : Ref sig .tc := ⟨.hbm, 604, rfl⟩
abbrev main_call28_v0 : Ref sig .tc := ⟨.hbm, 605, rfl⟩
abbrev main_v448 : Ref sig .tc := ⟨.hbm, 606, rfl⟩
abbrev main_call29_cst : Ref sig .tc := ⟨.hbm, 607, rfl⟩
abbrev main_call29_v0 : Ref sig .tc := ⟨.hbm, 608, rfl⟩
abbrev main_v449 : Ref sig .tc := ⟨.hbm, 609, rfl⟩
abbrev main_call30_cst : Ref sig .tc := ⟨.hbm, 610, rfl⟩
abbrev main_call30_v0 : Ref sig .tc := ⟨.hbm, 611, rfl⟩
abbrev main_v450 : Ref sig .tc := ⟨.hbm, 612, rfl⟩
abbrev main_call31_cst : Ref sig .tc := ⟨.hbm, 613, rfl⟩
abbrev main_call31_v0 : Ref sig .tc := ⟨.hbm, 614, rfl⟩
abbrev main_v451 : Ref sig .tc := ⟨.hbm, 615, rfl⟩
abbrev main_v452 : Ref sig .tc := ⟨.hbm, 616, rfl⟩
abbrev main_v453 : Ref sig .tc := ⟨.hbm, 617, rfl⟩
abbrev main_v454 : Ref sig .tc := ⟨.hbm, 618, rfl⟩
abbrev main_v455 : Ref sig .tc := ⟨.hbm, 619, rfl⟩
abbrev main_v456 : Ref sig .tc := ⟨.hbm, 620, rfl⟩

abbrev nD : Nat := 1
abbrev τ : Topo := Topo.v7x

variable {F : FTy → Type} [FloatOps F]

class Facts₀ : Prop where
  slices_S4x385x128_S1x385x128_0_0_0 : S4x385x128.Slices ![0, 0, 0] S1x385x128
  shapeCasts_S1x385x128_S385x128 : S1x385x128.ShapeCasts S385x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S4x385x128_S1x385x128_1_0_0 : S4x385x128.Slices ![1, 0, 0] S1x385x128
  slices_S4x128_S1x128_1_0 : S4x128.Slices ![1, 0] S1x128
  slices_S4x385x128_S1x385x128_2_0_0 : S4x385x128.Slices ![2, 0, 0] S1x385x128
  slices_S4x128_S1x128_2_0 : S4x128.Slices ![2, 0] S1x128
  slices_S4x385x128_S1x385x128_3_0_0 : S4x385x128.Slices ![3, 0, 0] S1x385x128
  slices_S4x128_S1x128_3_0 : S4x128.Slices ![3, 0] S1x128
  slices_S5x1600000_S1x1600000_0_0 : S5x1600000.Slices ![0, 0] S1x1600000
  shapeCasts_S1x1600000_S1600000 : S1x1600000.ShapeCasts S1600000
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S5x1600000_S1x1600000_1_0 : S5x1600000.Slices ![1, 0] S1x1600000
  slices_S5x128x128_S1x128x128_1_0_0 : S5x128x128.Slices ![1, 0, 0] S1x128x128
  slices_S5x128_S1x128_1_0 : S5x128.Slices ![1, 0] S1x128
  slices_S5x1600000_S1x1600000_2_0 : S5x1600000.Slices ![2, 0] S1x1600000
  slices_S5x128x128_S1x128x128_2_0_0 : S5x128x128.Slices ![2, 0, 0] S1x128x128
  slices_S5x128_S1x128_2_0 : S5x128.Slices ![2, 0] S1x128
  slices_S5x1600000_S1x1600000_3_0 : S5x1600000.Slices ![3, 0] S1x1600000
  slices_S5x128x128_S1x128x128_3_0_0 : S5x128x128.Slices ![3, 0, 0] S1x128x128
  slices_S5x128_S1x128_3_0 : S5x128.Slices ![3, 0] S1x128
  slices_S5x1600000_S1x1600000_4_0 : S5x1600000.Slices ![4, 0] S1x1600000
  slices_S5x128x128_S1x128x128_4_0_0 : S5x128x128.Slices ![4, 0, 0] S1x128x128
  slices_S5x128_S1x128_4_0 : S5x128.Slices ![4, 0] S1x128
  bcast_S50000x128_S1x50000x128_1_2 : S50000x128.BroadcastsInDim S1x50000x128 (![1, 2] : Fin 2 → Fin S1x50000x128.rank)
  concatenates_S1x50000x128_S1x50000x128_S1x50000x128_S1x50000x128_S4x50000x128_d0 : Shape.Concatenates [S1x50000x128, S1x50000x128, S1x50000x128, S1x50000x128] S4x50000x128 0
  dot_S50000x385_S385x128_S50000x128_1_0_0_1_n_n_wf : DotDims.WF S50000x385 S385x128 S50000x128 [1] [0] [0] [1] [] []
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def dot_S50000x385_S385x128_S50000x128_1_0_0_1_n_n : DotDims S50000x385 S385x128 S50000x128 where
  lhsContracting := [1]
  rhsContracting := [0]
  lhsNonContracting := [0]
  rhsNonContracting := [1]
  lhsBatch := []
  rhsBatch := []
  wf := dot_S50000x385_S385x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Kernel.Proj0.lean ====
/-
  Input projection, launch 0 of the program: one grid of 25 points over row tiles of 2000. At each point the body
  loads a 2000×385 tile of the features, the whole 385×128 weight and the 1×128 bias, and stores
  max(tile · weight + bias, 0) to the 2000×128 output tile. This module runs the body once on arbitrary
  staging memrefs, names what it leaves in the output buffer as a function of the three loaded blocks, and packages
  that as the pipeline's proof data at an arbitrary entry valuation `V` of the core's buffers, with the body obligation
  at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the point fetches it or
    not (an unfetched window's block index has not moved), for any proof data over `V` whose body leaves inputs in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S2000x385 := Rect.unit (s := S2000x385) ![0, 0] S2000x385.size inb_S2000x385_S2000x385_0_0
abbrev rw0 : Rect S385x128 := Rect.unit (s := S385x128) ![0, 0] S385x128.size inb_S385x128_S385x128_0_0
abbrev rb0 : Rect S1x128 := Rect.unit (s := S1x128) ![0, 0] S1x128.size inb_S1x128_S1x128_0_0
abbrev ro0 : Rect S2000x128 := Rect.unit (s := S2000x128) ![0, 0] S2000x128.size inb_S2000x128_S2000x128_0_0

/-- What the body leaves in the output tile's buffer, from the three loaded blocks: its one store. -/
def out0_3 (x0 : Vec F S2000x385 .f32) (x1 : Vec F S385x128 .f32) (x2 : Vec F S1x128 .f32) : Vec F S2000x128 .f32 :=
  View.canon [⟨ro0, k0_pay1 (View.ld x0 rx0) (View.ld x1 rw0) (View.ld x2 rb0)⟩]

/-- The one store covers the output buffer. -/
theorem cover0_3 (p0 : Vec F S2000x128 .f32) (y : S2000x128.Idx) :
    ∃ pc ∈ ([⟨ro0, p0⟩] : List (View.Piece (Elt F) S2000x128 .f32)), y ∈ pc.1.set :=
  View.cover_of_tiled [⟨ro0, p0⟩] S2000x128.size (by rfl) y

set_option maxHeartbeats 1000000 in
/-- The body on whole staging memrefs: with the inputs held at `x0 x1 x2` and the output at anything, it runs to its
    return leaving the inputs as they were and the output at `out0_3 x0 x1 x2`. -/
theorem sound_kernel0 (c : Dev nD) (E : Set ℕ) (i : grid0.Coords)
    (arg1 : Memref sig .tc .vmem S2000x385 .f32) (harg1 : arg1.IsWhole) (arg2 : Memref sig .tc .vmem S385x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x385 .f32) (x1 : Vec F S385x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the launch finds them; after the body at point `t` each input's
    buffer at its block and the output's at the body's result on the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging memrefs hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Proj1.lean ====
/-
  Input projection, launch 1 of the program: one grid of 25 points over row tiles of 2000. At each point the body
  loads a 2000×385 tile of the features, the whole 385×128 weight and the 1×128 bias, and stores
  max(tile · weight + bias, 0) to the 2000×128 output tile. This module runs the body once on arbitrary
  staging memrefs, names what it leaves in the output buffer as a function of the three loaded blocks, and packages
  that as the pipeline's proof data at an arbitrary entry valuation `V` of the core's buffers, with the body obligation
  at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the point fetches it or
    not (an unfetched window's block index has not moved), for any proof data over `V` whose body leaves inputs in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rx1 : Rect S2000x385 := Rect.unit (s := S2000x385) ![0, 0] S2000x385.size inb_S2000x385_S2000x385_0_0
abbrev rw1 : Rect S385x128 := Rect.unit (s := S385x128) ![0, 0] S385x128.size inb_S385x128_S385x128_0_0
abbrev rb1 : Rect S1x128 := Rect.unit (s := S1x128) ![0, 0] S1x128.size inb_S1x128_S1x128_0_0
abbrev ro1 : Rect S2000x128 := Rect.unit (s := S2000x128) ![0, 0] S2000x128.size inb_S2000x128_S2000x128_0_0

/-- What the body leaves in the output tile's buffer, from the three loaded blocks: its one store. -/
def out1_3 (x0 : Vec F S2000x385 .f32) (x1 : Vec F S385x128 .f32) (x2 : Vec F S1x128 .f32) : Vec F S2000x128 .f32 :=
  View.canon [⟨ro1, k1_pay1 (View.ld x0 rx1) (View.ld x1 rw1) (View.ld x2 rb1)⟩]

/-- The one store covers the output buffer. -/
theorem cover1_3 (p0 : Vec F S2000x128 .f32) (y : S2000x128.Idx) :
    ∃ pc ∈ ([⟨ro1, p0⟩] : List (View.Piece (Elt F) S2000x128 .f32)), y ∈ pc.1.set :=
  View.cover_of_tiled [⟨ro1, p0⟩] S2000x128.size (by rfl) y

set_option maxHeartbeats 1000000 in
/-- The body on whole staging memrefs: with the inputs held at `x0 x1 x2` and the output at anything, it runs to its
    return leaving the inputs as they were and the output at `out1_3 x0 x1 x2`. -/
theorem sound_kernel1 (c : Dev nD) (E : Set ℕ) (i : grid1.Coords)
    (arg1 : Memref sig .tc .vmem S2000x385 .f32) (harg1 : arg1.IsWhole) (arg2 : Memref sig .tc .vmem S385x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x385 .f32) (x1 : Vec F S385x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the launch finds them; after the body at point `t` each input's
    buffer at its block and the output's at the body's result on the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' staging memrefs hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Proj2.lean ====
/-
  Input projection, launch 2 of the program: one grid of 25 points over row tiles of 2000. At each point the body
  loads a 2000×385 tile of the features, the whole 385×128 weight and the 1×128 bias, and stores
  max(tile · weight + bias, 0) to the 2000×128 output tile. This module runs the body once on arbitrary
  staging memrefs, names what it leaves in the output buffer as a function of the three loaded blocks, and packages
  that as the pipeline's proof data at an arbitrary entry valuation `V` of the core's buffers, with the body obligation
  at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, whether the point fetches it or
    not (an unfetched window's block index has not moved), for any proof data over `V` whose body leaves inputs in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rx2 : Rect S2000x385 := Rect.unit (s := S2000x385) ![0, 0] S2000x385.size inb_S2000x385_S2000x385_0_0
abbrev rw2 : Rect S385x128 := Rect.unit (s := S385x128) ![0, 0] S385x128.size inb_S385x128_S385x128_0_0
abbrev rb2 : Rect S1x128 := Rect.unit (s := S1x128) ![0, 0] S1x128.size inb_S1x128_S1x128_0_0
abbrev ro2 : Rect S2000x128 := Rect.unit (s := S2000x128) ![0, 0] S2000x128.size inb_S2000x128_S2000x128_0_0

/-- What the body leaves in the output tile's buffer, from the three loaded blocks: its one store. -/
def out2_3 (x0 : Vec F S2000x385 .f32) (x1 : Vec F S385x128 .f32) (x2 : Vec F S1x128 .f32) : Vec F S2000x128 .f32 :=
  View.canon [⟨ro2, k2_pay1 (View.ld x0 rx2) (View.ld x1 rw2) (View.ld x2 rb2)⟩]

/-- The one store covers the output buffer. -/
theorem cover2_3 (p0 : Vec F S2000x128 .f32) (y : S2000x128.Idx) :
    ∃ pc ∈ ([⟨ro2, p0⟩] : List (View.Piece (Elt F) S2000x128 .f32)), y ∈ pc.1.set :=
  View.cover_of_tiled [⟨ro2, p0⟩] S2000x128.size (by rfl) y

set_option maxHeartbeats 1000000 in
/-- The body on whole staging memrefs: with the inputs held at `x0 x1 x2` and the output at anything, it runs to its
    return leaving the inputs as they were and the output at `out2_3 x0 x1 x2`. -/
theorem sound_kernel2 (c : Dev nD) (E : Set ℕ) (i : grid2.Coords)
    (arg1 : Memref sig .tc .vmem S2000x385 .f32) (harg1 : arg1.IsWhole) (arg2 : Memref sig .tc .vmem S385x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x385 .f32) (x1 : Vec F S385x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the launch finds them; after the body at point `t` each input's
    buffer at its block and the output's at the body's result on the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' staging memrefs hold their blocks, so the body's run applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Proj3.lean ====
/-
  Input projection, launch 3 of the program: one grid of 25 points over row tiles of 2000. At each point the body
  loads a 2000×385 tile of the features, the whole 385×128 weight and the 1×128 bias, and stores
  max(tile · weight + bias, 0) to the 2000×128 output tile. This module runs the body once on arbitrary
  staging memrefs, names what it leaves in the output buffer as a function of the three loaded blocks, and packages
  that as the pipeline's proof data at an arbitrary entry valuation `V` of the core's buffers, with the body obligation
  at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds the window's block at every point, whether the point fetches it or
    not (an unfetched window's block index has not moved), for any proof data over `V` whose body leaves inputs in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rx3 : Rect S2000x385 := Rect.unit (s := S2000x385) ![0, 0] S2000x385.size inb_S2000x385_S2000x385_0_0
abbrev rw3 : Rect S385x128 := Rect.unit (s := S385x128) ![0, 0] S385x128.size inb_S385x128_S385x128_0_0
abbrev rb3 : Rect S1x128 := Rect.unit (s := S1x128) ![0, 0] S1x128.size inb_S1x128_S1x128_0_0
abbrev ro3 : Rect S2000x128 := Rect.unit (s := S2000x128) ![0, 0] S2000x128.size inb_S2000x128_S2000x128_0_0

/-- What the body leaves in the output tile's buffer, from the three loaded blocks: its one store. -/
def out3_3 (x0 : Vec F S2000x385 .f32) (x1 : Vec F S385x128 .f32) (x2 : Vec F S1x128 .f32) : Vec F S2000x128 .f32 :=
  View.canon [⟨ro3, k3_pay1 (View.ld x0 rx3) (View.ld x1 rw3) (View.ld x2 rb3)⟩]

/-- The one store covers the output buffer. -/
theorem cover3_3 (p0 : Vec F S2000x128 .f32) (y : S2000x128.Idx) :
    ∃ pc ∈ ([⟨ro3, p0⟩] : List (View.Piece (Elt F) S2000x128 .f32)), y ∈ pc.1.set :=
  View.cover_of_tiled [⟨ro3, p0⟩] S2000x128.size (by rfl) y

set_option maxHeartbeats 1000000 in
/-- The body on whole staging memrefs: with the inputs held at `x0 x1 x2` and the output at anything, it runs to its
    return leaving the inputs as they were and the output at `out3_3 x0 x1 x2`. -/
theorem sound_kernel3 (c : Dev nD) (E : Set ℕ) (i : grid3.Coords)
    (arg1 : Memref sig .tc .vmem S2000x385 .f32) (harg1 : arg1.IsWhole) (arg2 : Memref sig .tc .vmem S385x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x385 .f32) (x1 : Vec F S385x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data on core `c`: the arrays as the launch finds them; after the body at point `t` each input's
    buffer at its block and the output's at the body's result on the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' staging memrefs hold their blocks, so the body's run applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Kernel.Conv4.lean ====
/-
  Graph-convolution epilogue, launch 4 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds the window's block at every point, whether the point fetches it or
    not (an unfetched window's block index has not moved), for any proof data over `V` whose body leaves inputs in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev ra4 : Rect S2000x128 := Rect.unit (s := S2000x128) ![0, 0] S2000x128.size inb_S2000x128_S2000x128_0_0
abbrev rs4 : Rect S2000x1 := Rect.unit (s := S2000x1) ![0, 0] S2000x1.size inb_S2000x1_S2000x1_0_0
abbrev rw4 : Rect S128x128 := Rect.unit (s := S128x128) ![0, 0] S128x128.size inb_S128x128_S128x128_0_0
abbrev rb4 : Rect S1x128 := Rect.unit (s := S1x128) ![0, 0] S1x128.size inb_S1x128_S1x128_0_0

/-- What the body leaves in the output tile's buffer, from the four loaded blocks: its one store. -/
def out4_4 (x0 : Vec F S2000x128 .f32) (x1 : Vec F S2000x1 .f32) (x2 : Vec F S128x128 .f32) (x3 : Vec F S1x128 .f32) : Vec F S2000x128 .f32 :=
  View.canon [⟨ra4, k4_pay1 (View.ld x0 ra4) (View.ld x1 rs4) (View.ld x2 rw4) (View.ld x3 rb4)⟩]

/-- The one store covers the output buffer. -/
theorem cover4_4 (p0 : Vec F S2000x128 .f32) (y : S2000x128.Idx) :
    ∃ pc ∈ ([⟨ra4, p0⟩] : List (View.Piece (Elt F) S2000x128 .f32)), y ∈ pc.1.set :=
  View.cover_of_tiled [⟨ra4, p0⟩] S2000x128.size (by rfl) y

set_option maxHeartbeats 1000000 in
/-- The body on whole staging memrefs: with the inputs held at `x0 x1 x2 x3` and the output at anything, it runs to its
    return leaving the inputs as they were and the output at `out4_4 x0 x1 x2 x3`. -/
theorem sound_kernel4 (c : Dev nD) (E : Set ℕ) (i : grid4.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__gc_kernel i arg1 harg1 arg2 harg2 arg3 harg3 arg4 harg4 arg5 harg5) K := by
  simp only [cc4__gc_kernel_eq_skeleton]; unfold cc4__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The pipeline's proof data on core `c`: the arrays as the launch finds them; after the body at point `t` each input's
    buffer at its block and the output's at the body's result on the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' staging memrefs hold their blocks, so the body's run applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Kernel.Conv5.lean ====
/-
  Graph-convolution epilogue, launch 5 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds the window's block at every point, whether the point fetches it or
    not (an unfetched window's block index has not moved), for any proof data over `V` whose body leaves inputs in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev ra5 : Rect S2000x128 := Rect.unit (s := S2000x128) ![0, 0] S2000x128.size inb_S2000x128_S2000x128_0_0
abbrev rs5 : Rect S2000x1 := Rect.unit (s := S2000x1) ![0, 0] S2000x1.size inb_S2000x1_S2000x1_0_0
abbrev rw5 : Rect S128x128 := Rect.unit (s := S128x128) ![0, 0] S128x128.size inb_S128x128_S128x128_0_0
abbrev rb5 : Rect S1x128 := Rect.unit (s := S1x128) ![0, 0] S1x128.size inb_S1x128_S1x128_0_0

/-- What the body leaves in the output tile's buffer, from the four loaded blocks: its one store. -/
def out5_4 (x0 : Vec F S2000x128 .f32) (x1 : Vec F S2000x1 .f32) (x2 : Vec F S128x128 .f32) (x3 : Vec F S1x128 .f32) : Vec F S2000x128 .f32 :=
  View.canon [⟨ra5, k5_pay1 (View.ld x0 ra5) (View.ld x1 rs5) (View.ld x2 rw5) (View.ld x3 rb5)⟩]

/-- The one store covers the output buffer. -/
theorem cover5_4 (p0 : Vec F S2000x128 .f32) (y : S2000x128.Idx) :
    ∃ pc ∈ ([⟨ra5, p0⟩] : List (View.Piece (Elt F) S2000x128 .f32)), y ∈ pc.1.set :=
  View.cover_of_tiled [⟨ra5, p0⟩] S2000x128.size (by rfl) y

set_option maxHeartbeats 1000000 in
/-- The body on whole staging memrefs: with the inputs held at `x0 x1 x2 x3` and the output at anything, it runs to its
    return leaving the inputs as they were and the output at `out5_4 x0 x1 x2 x3`. -/
theorem sound_kernel5 (c : Dev nD) (E : Set ℕ) (i : grid5.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__gc_kernel i arg1 harg1 arg2 harg2 arg3 harg3 arg4 harg4 arg5 harg5) K := by
  simp only [cc5__gc_kernel_eq_skeleton]; unfold cc5__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The pipeline's proof data on core `c`: the arrays as the launch finds them; after the body at point `t` each input's
    buffer at its block and the output's at the body's result on the input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' staging memrefs hold their blocks, so the body's run applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.Kernel.Conv6.lean ====
/-
  Graph-convolution epilogue, launch 6 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds the window's block at every point, whether the point fetches it or
    not (an unfetched window's block index has not moved), for any proof data over `V` whose body leaves inputs in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev ra6 : Rect S2000x128 := Rect.unit (s := S2000x128) ![0, 0] S2000x128.size inb_S2000x128_S2000x128_0_0
abbrev rs6 : Rect S2000x1 := Rect.unit (s := S2000x1) ![0, 0] S2000x1.size inb_S2000x1_S2000x1_0_0
abbrev rw6 : Rect S128x128 := Rect.unit (s := S128x128) ![0, 0] S128x128.size inb_S128x128_S128x128_0_0
abbrev rb6 : Rect S1x128 := Rect.unit (s := S1x128) ![0, 0] S1x128.size inb_S1x128_S1x128_0_0

/-- What the body leaves in the output tile's buffer, from the four loaded blocks: its one store. -/
def out6_4 (x0 : Vec F S2000x128 .f32) (x1 : Vec F S2000x1 .f32) (x2 : Vec F S128x128 .f32) (x3 : Vec F S1x128 .f32) : Vec F S2000x128 .f32 :=
  View.canon [⟨ra6, k6_pay1 (View.ld x0 ra6) (View.ld x1 rs6) (View.ld x2 rw6) (View.ld x3 rb6)⟩]

/-- The one store covers the output buffer. -/
theorem cover6_4 (p0 : Vec F S2000x128 .f32) (y : S2000x128.Idx) :
    ∃ pc ∈ ([⟨ra6, p0⟩] : List (View.Piece (Elt F) S2000x128 .f32)), y ∈ pc.1.set :=
  View.cover_of_tiled [⟨ra6, p0⟩] S2000x128.size (by rfl) y

set_option maxHeartbeats 1000000 in
/-- The body on whole staging memrefs: with the inputs held at `x0 x1 x2 x3` and the output at anything, it runs to its
    return leaving the inputs as they were and the output at `out6_4 x0 x1 x2 x3`. -/
theorem sound_kernel6 (c : Dev nD) (E : Set ℕ) (i : grid6.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__gc_kernel i arg1 harg1 arg2 harg2 arg3 harg3 arg4 harg4 arg5 harg5) K := by
  simp only [cc6__gc_kernel_eq_skeleton]; unfold cc6__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-- The pipeline's proof data on core `c`: the arrays as the launch finds them; after the body at point `t` each input's
    buffer at its block and the output's at the body's result on the input blocks; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' staging memrefs hold their blocks, so the body's run applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.Kernel.Conv7.lean ====
/-
  Graph-convolution epilogue, launch 7 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds the window's block at every point, whether the point fetches it or
    not (an unfetched window's block index has not moved), for any proof data over `V` whose body leaves inputs in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body loads and stores through. -/
abbrev ra7 : Rect S2000x128 := Rect.unit (s := S2000x128) ![0, 0] S2000x128.size inb_S2000x128_S2000x128_0_0
abbrev rs7 : Rect S2000x1 := Rect.unit (s := S2000x1) ![0, 0] S2000x1.size inb_S2000x1_S2000x1_0_0
abbrev rw7 : Rect S128x128 := Rect.unit (s := S128x128) ![0, 0] S128x128.size inb_S128x128_S128x128_0_0
abbrev rb7 : Rect S1x128 := Rect.unit (s := S1x128) ![0, 0] S1x128.size inb_S1x128_S1x128_0_0

/-- What the body leaves in the output tile's buffer, from the four loaded blocks: its one store. -/
def out7_4 (x0 : Vec F S2000x128 .f32) (x1 : Vec F S2000x1 .f32) (x2 : Vec F S128x128 .f32) (x3 : Vec F S1x128 .f32) : Vec F S2000x128 .f32 :=
  View.canon [⟨ra7, k7_pay1 (View.ld x0 ra7) (View.ld x1 rs7) (View.ld x2 rw7) (View.ld x3 rb7)⟩]

/-- The one store covers the output buffer. -/
theorem cover7_4 (p0 : Vec F S2000x128 .f32) (y : S2000x128.Idx) :
    ∃ pc ∈ ([⟨ra7, p0⟩] : List (View.Piece (Elt F) S2000x128 .f32)), y ∈ pc.1.set :=
  View.cover_of_tiled [⟨ra7, p0⟩] S2000x128.size (by rfl) y

set_option maxHeartbeats 1000000 in
/-- The body on whole staging memrefs: with the inputs held at `x0 x1 x2 x3` and the output at anything, it runs to its
    return leaving the inputs as they were and the output at `out7_4 x0 x1 x2 x3`. -/
theorem sound_kernel7 (c : Dev nD) (E : Set ℕ) (i : grid7.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7_4 x0 x1 x2 x3)) -∗ K ⟨⟩))
      ⊢ wp frame (wpE (defs₀ (F := F)) Variants.none c none) E (cc7__gc_kernel i arg1 harg1 arg2 harg2 arg3 harg3 arg4 harg4 arg5 harg5) K := by
  simp only [cc7__gc_kernel_eq_skeleton]; unfold cc7__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-- The pipeline's proof data on core `c`: the arrays as the launch finds them; after the body at point `t` each input's
    buffer at its block and the output's at the body's result on the input blocks; the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' staging memrefs hold their blocks, so the body's run applies; the invariant and what
    the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.Kernel.Conv8.lean ====
/-
  Graph-convolution epilogue, launch 8 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds the window's block at every point, whether the point fetches it or
    not (an unfetched window's block index has not moved), for any proof data over `V` whose body leaves inputs in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The whole-buffer rectangles the body loads and stores through. -/
abbrev ra8 : Rect S2000x128 := Rect.unit (s := S2000x128) ![0, 0] S2000x128.size inb_S2000x128_S2000x128_0_0
abbrev rs8 : Rect S2000x1 := Rect.unit (s := S2000x1) ![0, 0] S2000x1.size inb_S2000x1_S2000x1_0_0
abbrev rw8 : Rect S128x128 := Rect.unit (s := S128x128) ![0, 0] S128x128.size inb_S128x128_S128x128_0_0
abbrev rb8 : Rect S1x128 := Rect.unit (s := S1x128) ![0, 0] S1x128.size inb_S1x128_S1x128_0_0

/-- What the body leaves in the output tile's buffer, from the four loaded blocks: its one store. -/
def out8_4 (x0 : Vec F S2000x128 .f32) (x1 : Vec F S2000x1 .f32) (x2 : Vec F S128x128 .f32) (x3 : Vec F S1x128 .f32) : Vec F S2000x128 .f32 :=
  View.canon [⟨ra8, k8_pay1 (View.ld x0 ra8) (View.ld x1 rs8) (View.ld x2 rw8) (View.ld x3 rb8)⟩]

/-- The one store covers the output buffer. -/
theorem cover8_4 (p0 : Vec F S2000x128 .f32) (y : S2000x128.Idx) :
    ∃ pc ∈ ([⟨ra8, p0⟩] : List (View.Piece (Elt F) S2000x128 .f32)), y ∈ pc.1.set :=
  View.cover_of_tiled [⟨ra8, p0⟩] S2000x128.size (by rfl) y

set_option maxHeartbeats 1000000 in
/-- The body on whole staging memrefs: with the inputs held at `x0 x1 x2 x3` and the output at anything, it runs to its
    return leaving the inputs as they were and the output at `out8_4 x0 x1 x2 x3`. -/
theorem sound_kernel8 (c : Dev nD) (E : Set ℕ) (i : grid8.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out8_4 x0 x1 x2 x3)) -∗ K ⟨⟩))
      ⊢ wp frame (wpE (defs₀ (F := F)) Variants.none c none) E (cc8__gc_kernel i arg1 harg1 arg2 harg2 arg3 harg3 arg4 harg4 arg5 harg5) K := by
  simp only [cc8__gc_kernel_eq_skeleton]; unfold cc8__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-- The pipeline's proof data on core `c`: the arrays as the launch finds them; after the body at point `t` each input's
    buffer at its block and the output's at the body's result on the input blocks; the scoped rest and the generator
    register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) :
    (dat8 V c).after 4 t = out8_4 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-- What the body is called with at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' staging memrefs hold their blocks, so the body's run applies; the invariant and what
    the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.Kernel.Conv9.lean ====
/-
  Graph-convolution epilogue, launch 9 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds the window's block at every point, whether the point fetches it or
    not (an unfetched window's block index has not moved), for any proof data over `V` whose body leaves inputs in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- The whole-buffer rectangles the body loads and stores through. -/
abbrev ra9 : Rect S2000x128 := Rect.unit (s := S2000x128) ![0, 0] S2000x128.size inb_S2000x128_S2000x128_0_0
abbrev rs9 : Rect S2000x1 := Rect.unit (s := S2000x1) ![0, 0] S2000x1.size inb_S2000x1_S2000x1_0_0
abbrev rw9 : Rect S128x128 := Rect.unit (s := S128x128) ![0, 0] S128x128.size inb_S128x128_S128x128_0_0
abbrev rb9 : Rect S1x128 := Rect.unit (s := S1x128) ![0, 0] S1x128.size inb_S1x128_S1x128_0_0

/-- What the body leaves in the output tile's buffer, from the four loaded blocks: its one store. -/
def out9_4 (x0 : Vec F S2000x128 .f32) (x1 : Vec F S2000x1 .f32) (x2 : Vec F S128x128 .f32) (x3 : Vec F S1x128 .f32) : Vec F S2000x128 .f32 :=
  View.canon [⟨ra9, k9_pay1 (View.ld x0 ra9) (View.ld x1 rs9) (View.ld x2 rw9) (View.ld x3 rb9)⟩]

/-- The one store covers the output buffer. -/
theorem cover9_4 (p0 : Vec F S2000x128 .f32) (y : S2000x128.Idx) :
    ∃ pc ∈ ([⟨ra9, p0⟩] : List (View.Piece (Elt F) S2000x128 .f32)), y ∈ pc.1.set :=
  View.cover_of_tiled [⟨ra9, p0⟩] S2000x128.size (by rfl) y

set_option maxHeartbeats 1000000 in
/-- The body on whole staging memrefs: with the inputs held at `x0 x1 x2 x3` and the output at anything, it runs to its
    return leaving the inputs as they were and the output at `out9_4 x0 x1 x2 x3`. -/
theorem sound_kernel9 (c : Dev nD) (E : Set ℕ) (i : grid9.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out9_4 x0 x1 x2 x3)) -∗ K ⟨⟩))
      ⊢ wp frame (wpE (defs₀ (F := F)) Variants.none c none) E (cc9__gc_kernel i arg1 harg1 arg2 harg2 arg3 harg3 arg4 harg4 arg5 harg5) K := by
  simp only [cc9__gc_kernel_eq_skeleton]; unfold cc9__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-- The pipeline's proof data on core `c`: the arrays as the launch finds them; after the body at point `t` each input's
    buffer at its block and the output's at the body's result on the input blocks; the scoped rest and the generator
    register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is called with at point `t`, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' staging memrefs hold their blocks, so the body's run applies; the invariant and what
    the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.Kernel.Conv10.lean ====
/-
  Graph-convolution epilogue, launch 10 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds the window's block at every point, whether the point fetches it or
    not (an unfetched window's block index has not moved), for any proof data over `V` whose body leaves inputs in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- The whole-buffer rectangles the body loads and stores through. -/
abbrev ra10 : Rect S2000x128 := Rect.unit (s := S2000x128) ![0, 0] S2000x128.size inb_S2000x128_S2000x128_0_0
abbrev rs10 : Rect S2000x1 := Rect.unit (s := S2000x1) ![0, 0] S2000x1.size inb_S2000x1_S2000x1_0_0
abbrev rw10 : Rect S128x128 := Rect.unit (s := S128x128) ![0, 0] S128x128.size inb_S128x128_S128x128_0_0
abbrev rb10 : Rect S1x128 := Rect.unit (s := S1x128) ![0, 0] S1x128.size inb_S1x128_S1x128_0_0

/-- What the body leaves in the output tile's buffer, from the four loaded blocks: its one store. -/
def out10_4 (x0 : Vec F S2000x128 .f32) (x1 : Vec F S2000x1 .f32) (x2 : Vec F S128x128 .f32) (x3 : Vec F S1x128 .f32) : Vec F S2000x128 .f32 :=
  View.canon [⟨ra10, k10_pay1 (View.ld x0 ra10) (View.ld x1 rs10) (View.ld x2 rw10) (View.ld x3 rb10)⟩]

/-- The one store covers the output buffer. -/
theorem cover10_4 (p0 : Vec F S2000x128 .f32) (y : S2000x128.Idx) :
    ∃ pc ∈ ([⟨ra10, p0⟩] : List (View.Piece (Elt F) S2000x128 .f32)), y ∈ pc.1.set :=
  View.cover_of_tiled [⟨ra10, p0⟩] S2000x128.size (by rfl) y

set_option maxHeartbeats 1000000 in
/-- The body on whole staging memrefs: with the inputs held at `x0 x1 x2 x3` and the output at anything, it runs to its
    return leaving the inputs as they were and the output at `out10_4 x0 x1 x2 x3`. -/
theorem sound_kernel10 (c : Dev nD) (E : Set ℕ) (i : grid10.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out10_4 x0 x1 x2 x3)) -∗ K ⟨⟩))
      ⊢ wp frame (wpE (defs₀ (F := F)) Variants.none c none) E (cc10__gc_kernel i arg1 harg1 arg2 harg2 arg3 harg3 arg4 harg4 arg5 harg5) K := by
  simp only [cc10__gc_kernel_eq_skeleton]; unfold cc10__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover10_4 _)

/-- The pipeline's proof data on core `c`: the arrays as the launch finds them; after the body at point `t` each input's
    buffer at its block and the output's at the body's result on the input blocks; the scoped rest and the generator
    register untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t) (iblk10 V c 3 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = out10_4 (iblk10 V c 0 t) (iblk10 V c 1 t) (iblk10 V c 2 t) (iblk10 V c 3 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-- What the body is called with at point `t`, window by window, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

/-- The body at any point: the inputs' staging memrefs hold their blocks, so the body's run applies; the invariant and what
    the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ _ _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.Kernel.Conv11.lean ====
/-
  Graph-convolution epilogue, launch 11 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds the window's block at every point, whether the point fetches it or
    not (an unfetched window's block index has not moved), for any proof data over `V` whose body leaves inputs in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- The whole-buffer rectangles the body loads and stores through. -/
abbrev ra11 : Rect S2000x128 := Rect.unit (s := S2000x128) ![0, 0] S2000x128.size inb_S2000x128_S2000x128_0_0
abbrev rs11 : Rect S2000x1 := Rect.unit (s := S2000x1) ![0, 0] S2000x1.size inb_S2000x1_S2000x1_0_0
abbrev rw11 : Rect S128x128 := Rect.unit (s := S128x128) ![0, 0] S128x128.size inb_S128x128_S128x128_0_0
abbrev rb11 : Rect S1x128 := Rect.unit (s := S1x128) ![0, 0] S1x128.size inb_S1x128_S1x128_0_0

/-- What the body leaves in the output tile's buffer, from the four loaded blocks: its one store. -/
def out11_4 (x0 : Vec F S2000x128 .f32) (x1 : Vec F S2000x1 .f32) (x2 : Vec F S128x128 .f32) (x3 : Vec F S1x128 .f32) : Vec F S2000x128 .f32 :=
  View.canon [⟨ra11, k11_pay1 (View.ld x0 ra11) (View.ld x1 rs11) (View.ld x2 rw11) (View.ld x3 rb11)⟩]

/-- The one store covers the output buffer. -/
theorem cover11_4 (p0 : Vec F S2000x128 .f32) (y : S2000x128.Idx) :
    ∃ pc ∈ ([⟨ra11, p0⟩] : List (View.Piece (Elt F) S2000x128 .f32)), y ∈ pc.1.set :=
  View.cover_of_tiled [⟨ra11, p0⟩] S2000x128.size (by rfl) y

set_option maxHeartbeats 1000000 in
/-- The body on whole staging memrefs: with the inputs held at `x0 x1 x2 x3` and the output at anything, it runs to its
    return leaving the inputs as they were and the output at `out11_4 x0 x1 x2 x3`. -/
theorem sound_kernel11 (c : Dev nD) (E : Set ℕ) (i : grid11.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out11_4 x0 x1 x2 x3)) -∗ K ⟨⟩))
      ⊢ wp frame (wpE (defs₀ (F := F)) Variants.none c none) E (cc11__gc_kernel i arg1 harg1 arg2 harg2 arg3 harg3 arg4 harg4 arg5 harg5) K := by
  simp only [cc11__gc_kernel_eq_skeleton]; unfold cc11__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11_4 _)

/-- The pipeline's proof data on core `c`: the arrays as the launch finds them; after the body at point `t` each input's
    buffer at its block and the output's at the body's result on the input blocks; the scoped rest and the generator
    register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) :
    (dat11 V c).after 4 t = out11_4 (iblk11 V c 0 t) (iblk11 V c 1 t) (iblk11 V c 2 t) (iblk11 V c 3 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-- What the body is called with at point `t`, window by window, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the inputs' staging memrefs hold their blocks, so the body's run applies; the invariant and what
    the core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.Kernel.Conv12.lean ====
/-
  Graph-convolution epilogue, launch 12 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds the window's block at every point, whether the point fetches it or
    not (an unfetched window's block index has not moved), for any proof data over `V` whose body leaves inputs in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- The whole-buffer rectangles the body loads and stores through. -/
abbrev ra12 : Rect S2000x128 := Rect.unit (s := S2000x128) ![0, 0] S2000x128.size inb_S2000x128_S2000x128_0_0
abbrev rs12 : Rect S2000x1 := Rect.unit (s := S2000x1) ![0, 0] S2000x1.size inb_S2000x1_S2000x1_0_0
abbrev rw12 : Rect S128x128 := Rect.unit (s := S128x128) ![0, 0] S128x128.size inb_S128x128_S128x128_0_0
abbrev rb12 : Rect S1x128 := Rect.unit (s := S1x128) ![0, 0] S1x128.size inb_S1x128_S1x128_0_0

/-- What the body leaves in the output tile's buffer, from the four loaded blocks: its one store. -/
def out12_4 (x0 : Vec F S2000x128 .f32) (x1 : Vec F S2000x1 .f32) (x2 : Vec F S128x128 .f32) (x3 : Vec F S1x128 .f32) : Vec F S2000x128 .f32 :=
  View.canon [⟨ra12, k12_pay1 (View.ld x0 ra12) (View.ld x1 rs12) (View.ld x2 rw12) (View.ld x3 rb12)⟩]

/-- The one store covers the output buffer. -/
theorem cover12_4 (p0 : Vec F S2000x128 .f32) (y : S2000x128.Idx) :
    ∃ pc ∈ ([⟨ra12, p0⟩] : List (View.Piece (Elt F) S2000x128 .f32)), y ∈ pc.1.set :=
  View.cover_of_tiled [⟨ra12, p0⟩] S2000x128.size (by rfl) y

set_option maxHeartbeats 1000000 in
/-- The body on whole staging memrefs: with the inputs held at `x0 x1 x2 x3` and the output at anything, it runs to its
    return leaving the inputs as they were and the output at `out12_4 x0 x1 x2 x3`. -/
theorem sound_kernel12 (c : Dev nD) (E : Set ℕ) (i : grid12.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out12_4 x0 x1 x2 x3)) -∗ K ⟨⟩))
      ⊢ wp frame (wpE (defs₀ (F := F)) Variants.none c none) E (cc12__gc_kernel i arg1 harg1 arg2 harg2 arg3 harg3 arg4 harg4 arg5 harg5) K := by
  simp only [cc12__gc_kernel_eq_skeleton]; unfold cc12__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover12_4 _)

/-- The pipeline's proof data on core `c`: the arrays as the launch finds them; after the body at point `t` each input's
    buffer at its block and the output's at the body's result on the input blocks; the scoped rest and the generator
    register untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t) (iblk12 V c 3 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) :
    (dat12 V c).after 4 t = out12_4 (iblk12 V c 0 t) (iblk12 V c 1 t) (iblk12 V c 2 t) (iblk12 V c 3 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

/-- What the body is called with at point `t`, window by window, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

/-- The body at any point: the inputs' staging memrefs hold their blocks, so the body's run applies; the invariant and what
    the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.Kernel.Conv13.lean ====
/-
  Graph-convolution epilogue, launch 13 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.Kernel.Launch
import proofs.«418080_j49366354100286_4_alg».proof.Proof.Gen.Kernel.Skeleton
import proofs.«418080_j49366354100286_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds the window's block at every point, whether the point fetches it or
    not (an unfetched window's block index has not moved), for any proof data over `V` whose body leaves inputs in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- The whole-buffer rectangles the body loads and stores through. -/
abbrev ra13 : Rect S2000x128 := Rect.unit (s := S2000x128) ![0, 0] S2000x128.size inb_S2000x128_S2000x128_0_0
abbrev rs13 : Rect S2000x1 := Rect.unit (s := S2000x1) ![0, 0] S2000x1.size inb_S2000x1_S2000x1_0_0
abbrev rw13 : Rect S128x128 := Rect.unit (s := S128x128) ![0, 0] S128x128.size inb_S128x128_S128x128_0_0
abbrev rb13 : Rect S1x128 := Rect.unit (s := S1x128) ![0, 0] S1x128.size inb_S1x128_S1x128_0_0

/-- What the body leaves in the output tile's buffer, from the four loaded blocks: its one store. -/
def out13_4 (x0 : Vec F S2000x128 .f32) (x1 : Vec F S2000x1 .f32) (x2 : Vec F S128x128 .f32) (x3 : Vec F S1x128 .f32) : Vec F S2000x128 .f32 :=
  View.canon [⟨ra13, k13_pay1 (View.ld x0 ra13) (View.ld x1 rs13) (View.ld x2 rw13) (View.ld x3 rb13)⟩]

/-- The one store covers the output buffer. -/
theorem cover13_4 (p0 : Vec F S2000x128 .f32) (y : S2000x128.Idx) :
    ∃ pc ∈ ([⟨ra13, p0⟩] : List (View.Piece (Elt F) S2000x128 .f32)), y ∈ pc.1.set :=
  View.cover_of_tiled [⟨ra13, p0⟩] S2000x128.size (by rfl) y

set_option maxHeartbeats 1000000 in
/-- The body on whole staging memrefs: with the inputs held at `x0 x1 x2 x3` and the output at anything, it runs to its
    return leaving the inputs as they were and the output at `out13_4 x0 x1 x2 x3`. -/
theorem sound_kernel13 (c : Dev nD) (E : Set ℕ) (i : grid13.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out13_4 x0 x1 x2 x3)) -∗ K ⟨⟩))
      ⊢ wp frame (wpE (defs₀ (F := F)) Variants.none c none) E (cc13__gc_kernel i arg1 harg1 arg2 harg2 arg3 harg3 arg4 harg4 arg5 harg5) K := by
  simp only [cc13__gc_kernel_eq_skeleton]; unfold cc13__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover13_4 _)

/-- The pipeline's proof data on core `c`: the arrays as the launch finds them; after the body at point `t` each input's
    buffer at its block and the output's at the body's result on the input blocks; the scoped rest and the generator
    register untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 (iblk13 V c 0 t) (iblk13 V c 1 t) (iblk13 V c 2 t) (iblk13 V c 3 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) :
    (dat13 V c).after 4 t = out13_4 (iblk13 V c 0 t) (iblk13 V c 1 t) (iblk13 V c 2 t) (iblk13 V c 3 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d

/-- What the body is called with at point `t`, window by window, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t))

/-- The body at any point: the inputs' staging memrefs hold their blocks, so the body's run applies; the invariant and what
    the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).Φ t.succ = (dat13 V c).Φ t.castSucc from rfl,
    show (dat13 V c).owesAt () t.succ = (dat13 V c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ _ _ _ _ _ _ _ _ _ _ _ (iblk13 V c 0 t) (iblk13 V c 1 t) (iblk13 V c 2 t) (iblk13 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.Kernel.Chain.lean ====
/-
  The contents of the core's buffers between the items of the program, from the launch memory to the return: after a host
  stretch they are the stretch's operations applied to what was there; after a launch the launch's output array holds what
  the launch's write-backs leave (the pipeline's fold over its grid of the body's result on the input blocks) and every other
  buffer is unchanged. These are the values the conditional frame's unknown contents are instantiated with; the lemmas
  `V<j>_eq` say that, so instantiated, the valuations between items are the ones defined here. The proof data of
  all fourteen launches, each at the contents found at its entry, is collected in `pdats`.
-/
import proofs.«418080_j49366354100286_4_alg».proof.Proof.Kernel.RegionsP
import proofs.«418080_j49366354100286_4_alg».proof.Proof.Kernel.Proj0
import proofs.«418080_j49366354100286_4_alg».proof.Proof.Kernel.Proj1
import proofs.«418080_j49366354100286_4_alg».proof.Proof.Kernel.Proj2
import proofs.«418080_j49366354100286_4_alg».proof.Proof.Kernel.Proj3
import proofs.«418080_j49366354100286_4_alg».proof.Proof.Kernel.Conv4
import proofs.«418080_j49366354100286_4_alg».proof.Proof.Kernel.Conv5
import proofs.«418080_j49366354100286_4_alg».proof.Proof.Kernel.Conv6
import proofs.«418080_j49366354100286_4_alg».proof.Proof.Kernel.Conv7
import proofs.«418080_j49366354100286_4_alg».proof.Proof.Kernel.Conv8
import proofs.«418080_j49366354100286_4_alg».proof.Proof.Kernel.Conv9
import proofs.«418080_j49366354100286_4_alg».proof.Proof.Kernel.Conv10
import proofs.«418080_j49366354100286_4_alg».proof.Proof.Kernel.Conv11
import proofs.«418080_j49366354100286_4_alg».proof.Proof.Kernel.Conv12
import proofs.«418080_j49366354100286_4_alg».proof.Proof.Kernel.Conv13

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

/-- Core `c`'s buffers at launch. -/
def X0 (c : Dev nD) : Valuation τ sig (Elt F) := V0 m c
/-- The same contents read at the TensorCore's references (what a launch's proof data take). -/
abbrev E0 : (c : Dev nD) → (b : Ref sig .tc) → Buf (Elt F) ((c : Thread nD τ).loc b) := fun c b => X0 m c b
/-- After item 0, the host stretch `hostOps0`. -/
def X1 (c : Dev nD) : Valuation τ sig (Elt F) := StableHlo.after hostOps0 (X0 m c)
abbrev E1 : (c : Dev nD) → (b : Ref sig .tc) → Buf (Elt F) ((c : Thread nD τ).loc b) := fun c b => X1 m c b
/-- After item 1, launch 0: `main_v5` holds what the launch's write-backs leave, every other buffer is as entered. -/
def X2 (c : Dev nD) : Valuation τ sig (Elt F) :=
  Function.update (X1 m c) main_v5 ((dat0 (E1 m) c).arrAt 3 cfg0.N)
abbrev E2 : (c : Dev nD) → (b : Ref sig .tc) → Buf (Elt F) ((c : Thread nD τ).loc b) := fun c b => X2 m c b
/-- After item 2, the host stretch `hostOps1`. -/
def X3 (c : Dev nD) : Valuation τ sig (Elt F) := StableHlo.after hostOps1 (X2 m c)
abbrev E3 : (c : Dev nD) → (b : Ref sig .tc) → Buf (Elt F) ((c : Thread nD τ).loc b) := fun c b => X3 m c b
/-- After item 3, launch 1: `main_v11` holds what the launch's write-backs leave, every other buffer is as entered. -/
def X4 (c : Dev nD) : Valuation τ sig (Elt F) :=
  Function.update (X3 m c) main_v11 ((dat1 (E3 m) c).arrAt 3 cfg1.N)
abbrev E4 : (c : Dev nD) → (b : Ref sig .tc) → Buf (Elt F) ((c : Thread nD τ).loc b) := fun c b => X4 m c b
/-- After item 4, the host stretch `hostOps2`. -/
def X5 (c : Dev nD) : Valuation τ sig (Elt F) := StableHlo.after hostOps2 (X4 m c)
abbrev E5 : (c : Dev nD) → (b : Ref sig .tc) → Buf (Elt F) ((c : Thread nD τ).loc b) := fun c b => X5 m c b
/-- After item 5, launch 2: `main_v17` holds what the launch's write-backs leave, every other buffer is as entered. -/
def X6 (c : Dev nD) : Valuation τ sig (Elt F) :=
  Function.update (X5 m c) main_v17 ((dat2 (E5 m) c).arrAt 3 cfg2.N)
abbrev E6 : (c : Dev nD) → (b : Ref sig .tc) → Buf (Elt F) ((c : Thread nD τ).loc b) := fun c b => X6 m c b
/-- After item 6, the host stretch `hostOps3`. -/
def X7 (c : Dev nD) : Valuation τ sig (Elt F) := StableHlo.after hostOps3 (X6 m c)
abbrev E7 : (c : Dev nD) → (b : Ref sig .tc) → Buf (Elt F) ((c : Thread nD τ).loc b) := fun c b => X7 m c b
/-- After item 7, launch 3: `main_v23` holds what the launch's write-backs leave, every other buffer is as entered. -/
def X8 (c : Dev nD) : Valuation τ sig (Elt F) :=
  Function.update (X7 m c) main_v23 ((dat3 (E7 m) c).arrAt 3 cfg3.N)
abbrev E8 : (c : Dev nD) → (b : Ref sig .tc) → Buf (Elt F) ((c : Thread nD τ).loc b) := fun c b => X8 m c b
/-- After item 8, the host stretch `hostOps4`. -/
def X9 (c : Dev nD) : Valuation τ sig (Elt F) := StableHlo.after hostOps4 (X8 m c)
abbrev E9 : (c : Dev nD) → (b : Ref sig .tc) → Buf (Elt F) ((c : Thread nD τ).loc b) := fun c b => X9 m c b
/-- After item 9, the host stretch `hostOps4_1`. -/
def X10 (c : Dev nD) : Valuation τ sig (Elt F) := StableHlo.after hostOps4_1 (X9 m c)
abbrev E10 : (c : Dev nD) → (b : Ref sig .tc) → Buf (Elt F) ((c : Thread nD τ).loc b) := fun c b => X10 m c b
/-- After item 10, the host stretch `hostOps4_2`. -/
def X11 (c : Dev nD) : Valuation τ sig (Elt F) := StableHlo.after hostOps4_2 (X10 m c)
abbrev E11 : (c : Dev nD) → (b : Ref sig .tc) → Buf (Elt F) ((c : Thread nD τ).loc b) := fun c b => X11 m c b
/-- After item 11, the host stretch `hostOps4_3`. -/
def X12 (c : Dev nD) : Valuation τ sig (Elt F) := StableHlo.after hostOps4_3 (X11 m c)
abbrev E12 : (c : Dev nD) → (b : Ref sig .tc) → Buf (Elt F) ((c : Thread nD τ).loc b) := fun c b => X12 m c b
/-- After item 12, the host stretch `hostOps4_4`. -/
def X13 (c : Dev nD) : Valuation τ sig (Elt F) := StableHlo.after hostOps4_4 (X12 m c)
abbrev E13 : (c : Dev nD) → (b : Ref sig .tc) → Buf (Elt F) ((c : Thread nD τ).loc b) := fun c b => X13 m c b
/-- After item 13, the host stretch `hostOps4_5`. -/
def X14 (c : Dev nD) : Valuation τ sig (Elt F) := StableHlo.after hostOps4_5 (X13 m c)
abbrev E14 : (c : Dev nD) → (b : Ref sig .tc) → Buf (Elt F) ((c : Thread nD τ).loc b) := fun c b => X14 m c b
/-- After item 14, the host stretch `hostOps4_6`. -/
def X15 (c : Dev nD) : Valuation τ sig (Elt F) := StableHlo.after hostOps4_6 (X14 m c)
abbrev E15 : (c : Dev nD) → (b : Ref sig .tc) → Buf (Elt F) ((c : Thread nD τ).loc b) := fun c b => X15 m c b
/-- After item 15, the host stretch `hostOps4_7`. -/
def X16 (c : Dev nD) : Valuation τ sig (Elt F) := StableHlo.after hostOps4_7 (X15 m c)
abbrev E16 : (c : Dev nD) → (b : Ref sig .tc) → Buf (Elt F) ((c : Thread nD τ).loc b) := fun c b => X16 m c b
/-- After item 16, the host stretch `hostOps4_8`. -/
def X17 (c : Dev nD) : Valuation τ sig (Elt F) := StableHlo.after hostOps4_8 (X16 m c)
abbrev E17 : (c : Dev nD) → (b : Ref sig .tc) → Buf (Elt F) ((c : Thread nD τ).loc b) := fun c b => X17 m c b
/-- After item 17, the host stretch `hostOps4_9`. -/
def X18 (c : Dev nD) : Valuation τ sig (Elt F) := StableHlo.after hostOps4_9 (X17 m c)
abbrev E18 : (c : Dev nD) → (b : Ref sig .tc) → Buf (Elt F) ((c : Thread nD τ).loc b) := fun c b => X18 m c b
/-- After item 18, the host stretch `hostOps4_10`. -/
def X19 (c : Dev nD) : Valuation τ sig (Elt F) := StableHlo.after hostOps4_10 (X18 m c)
abbrev E19 : (c : Dev nD) → (b : Ref sig .tc) → Buf (Elt F) ((c : Thread nD τ).loc b) := fun c b => X19 m c b
/-- After item 19, the host stretch `hostOps4_11`. -/
def X20 (c : Dev nD) : Valuation τ sig (Elt F) := StableHlo.after hostOps4_11 (X19 m c)
abbrev E20 : (c : Dev nD) → (b : Ref sig .tc) → Buf (Elt F) ((c : Thread nD τ).loc b) := fun c b => X20 m c b
/-- After item 20, the host stretch `hostOps4_12`. -/
def X21 (c : Dev nD) : Valuation τ sig (Elt F) := StableHlo.after hostOps4_12 (X20 m c)
abbrev E21 : (c : Dev nD) → (b : Ref sig .tc) → Buf (Elt F) ((c : Thread nD τ).loc b) := fun c b => X21 m c b
/-- After item 21, the host stretch `hostOps4_13`. -/
def X22 (c : Dev nD) : Valuation τ sig (Elt F) := StableHlo.after hostOps4_13 (X21 m c)
abbrev E22 : (c : Dev nD) → (b : Ref sig .tc) → Buf (Elt F) ((c : Thread nD τ).loc b) := fun c b => X22 m c b
/-- After item 22, the host stretch `hostOps4_14`. -/
def X23 (c : Dev nD) : Valuation τ sig (Elt F) := StableHlo.after hostOps4_14 (X22 m c)
abbrev E23 : (c : Dev nD) → (b : Ref sig .tc) → Buf (Elt F) ((c : Thread nD τ).loc b) := fun c b => X23 m c b
/-- After item 23, the host stretch `hostOps4_15`. -/
def X24 (c : Dev nD) : Valuation τ sig (Elt F) := StableHlo.after hostOps4_15 (X23 m c)
abbrev E24 : (c : Dev nD) → (b : Ref sig .tc) → Buf (Elt F) ((c : Thread nD τ).loc b) := fun c b => X24 m c b
/-- After item 24, the host stretch `hostOps4_16`. -/
def X25 (c : Dev nD) : Valuation τ sig (Elt F) := StableHlo.after hostOps4_16 (X24 m c)
abbrev E25 : (c : Dev nD) → (b : Ref sig .tc) → Buf (Elt F) ((c : Thread nD τ).loc b) := fun c b => X25 m c b
/-- After item 25, the host stretch `hostOps4_17`. -/
def X26 (c : Dev nD) : Valuation τ sig (Elt F) := StableHlo.after hostOps4_17 (X25 m c)
abbrev E26 : (c : Dev nD) → (b : Ref sig .tc) → Buf (Elt F) ((c : Thread nD τ).loc b) := fun c b => X26 m c b
/-- After item 26, the host stretch `hostOps4_18`. -/
def X27 (c : Dev nD) : Valuation τ sig (Elt F) := StableHlo.after hostOps4_18 (X26 m c)
abbrev E27 : (c : Dev nD) → (b : Ref sig .tc) → Buf (Elt F) ((c : Thread nD τ).loc b) := fun c b => X27 m c b
/-- After item 27, the host stretch `hostOps4_19`. -/
def X28 (c : Dev nD) : Valuation τ sig (Elt F) := StableHlo.after hostOps4_19 (X27 m c)
abbrev E28 : (c : Dev nD) → (b : Ref sig .tc) → Buf (Elt F) ((c : Thread nD τ).loc b) := fun c b => X28 m c b
/-- After item 28, the host stretch `hostOps4_20`. -/
def X29 (c : Dev nD) : Valuation τ sig (Elt F) := StableHlo.after hostOps4_20 (X28 m c)
abbrev E29 : (c : Dev nD) → (b : Ref sig .tc) → Buf (Elt F) ((c : Thread nD τ).loc b) := fun c b => X29 m c b
/-- After item 29, launch 4: `main_v122` holds what the launch's write-backs leave, every other buffer is as entered. -/
def X30 (c : Dev nD) : Valuation τ sig (Elt F) :=
  Function.update (X29 m c) main_v122 ((dat4 (E29 m) c).arrAt 4 cfg4.N)
abbrev E30 : (c : Dev nD) → (b : Ref sig .tc) → Buf (Elt F) ((c : Thread nD τ).loc b) := fun c b => X30 m c b
/-- After item 30, the host stretch `hostOps5`. -/
def X31 (c : Dev nD) : Valuation τ sig (Elt F) := StableHlo.after hostOps5 (X30 m c)
abbrev E31 : (c : Dev nD) → (b : Ref sig .tc) → Buf (Elt F) ((c : Thread nD τ).loc b) := fun c b => X31 m c b
/-- After item 31, launch 5: `main_v147` holds what the launch's write-backs leave, every other buffer is as entered. -/
def X32 (c : Dev nD) : Valuation τ sig (Elt F) :=
  Function.update (X31 m c) main_v147 ((dat5 (E31 m) c).arrAt 4 cfg5.N)
abbrev E32 : (c : Dev nD) → (b : Ref sig .tc) → Buf (Elt F) ((c : Thread nD τ).loc b) := fun c b => X32 m c b
/-- After item 32, the host stretch `hostOps6`. -/
def X33 (c : Dev nD) : Valuation τ sig (Elt F) := StableHlo.after hostOps6 (X32 m c)
abbrev E33 : (c : Dev nD) → (b : Ref sig .tc) → Buf (Elt F) ((c : Thread nD τ).loc b) := fun c b => X33 m c b
/-- After item 33, launch 6: `main_v172` holds what the launch's write-backs leave, every other buffer is as entered. -/
def X34 (c : Dev nD) : Valuation τ sig (Elt F) :=
  Function.update (X33 m c) main_v172 ((dat6 (E33 m) c).arrAt 4 cfg6.N)
abbrev E34 : (c : Dev nD) → (b : Ref sig .tc) → Buf (Elt F) ((c : Thread nD τ).loc b) := fun c b => X34 m c b
/-- After item 34, the host stretch `hostOps7`. -/
def X35 (c : Dev nD) : Valuation τ sig (Elt F) := StableHlo.after hostOps7 (X34 m c)
abbrev E35 : (c : Dev nD) → (b : Ref sig .tc) → Buf (Elt F) ((c : Thread nD τ).loc b) := fun c b => X35 m c b
/-- After item 35, launch 7: `main_v197` holds what the launch's write-backs leave, every other buffer is as entered. -/
def X36 (c : Dev nD) : Valuation τ sig (Elt F) :=
  Function.update (X35 m c) main_v197 ((dat7 (E35 m) c).arrAt 4 cfg7.N)
abbrev E36 : (c : Dev nD) → (b : Ref sig .tc) → Buf (Elt F) ((c : Thread nD τ).loc b) := fun c b => X36 m c b
/-- After item 36, the host stretch `hostOps8`. -/
def X37 (c : Dev nD) : Valuation τ sig (Elt F) := StableHlo.after hostOps8 (X36 m c)
abbrev E37 : (c : Dev nD) → (b : Ref sig .tc) → Buf (Elt F) ((c : Thread nD τ).loc b) := fun c b => X37 m c b
/-- After item 37, launch 8: `main_v222` holds what the launch's write-backs leave, every other buffer is as entered. -/
def X38 (c : Dev nD) : Valuation τ sig (Elt F) :=
  Function.update (X37 m c) main_v222 ((dat8 (E37 m) c).arrAt 4 cfg8.N)
abbrev E38 : (c : Dev nD) → (b : Ref sig .tc) → Buf (Elt F) ((c : Thread nD τ).loc b) := fun c b => X38 m c b
/-- After item 38, the host stretch `hostOps9`. -/
def X39 (c : Dev nD) : Valuation τ sig (Elt F) := StableHlo.after hostOps9 (X38 m c)
abbrev E39 : (c : Dev nD) → (b : Ref sig .tc) → Buf (Elt F) ((c : Thread nD τ).loc b) := fun c b => X39 m c b
/-- After item 39, launch 9: `main_v259` holds what the launch's write-backs leave, every other buffer is as entered. -/
def X40 (c : Dev nD) : Valuation τ sig (Elt F) :=
  Function.update (X39 m c) main_v259 ((dat9 (E39 m) c).arrAt 4 cfg9.N)
abbrev E40 : (c : Dev nD) → (b : Ref sig .tc) → Buf (Elt F) ((c : Thread nD τ).loc b) := fun c b => X40 m c b
/-- After item 40, the host stretch `hostOps10`. -/
def X41 (c : Dev nD) : Valuation τ sig (Elt F) := StableHlo.after hostOps10 (X40 m c)
abbrev E41 : (c : Dev nD) → (b : Ref sig .tc) → Buf (Elt F) ((c : Thread nD τ).loc b) := fun c b => X41 m c b
/-- After item 41, launch 10: `main_v284` holds what the launch's write-backs leave, every other buffer is as entered. -/
def X42 (c : Dev nD) : Valuation τ sig (Elt F) :=
  Function.update (X41 m c) main_v284 ((dat10 (E41 m) c).arrAt 4 cfg10.N)
abbrev E42 : (c : Dev nD) → (b : Ref sig .tc) → Buf (Elt F) ((c : Thread nD τ).loc b) := fun c b => X42 m c b
/-- After item 42, the host stretch `hostOps11`. -/
def X43 (c : Dev nD) : Valuation τ sig (Elt F) := StableHlo.after hostOps11 (X42 m c)
abbrev E43 : (c : Dev nD) → (b : Ref sig .tc) → Buf (Elt F) ((c : Thread nD τ).loc b) := fun c b => X43 m c b
/-- After item 43, launch 11: `main_v309` holds what the launch's write-backs leave, every other buffer is as entered. -/
def X44 (c : Dev nD) : Valuation τ sig (Elt F) :=
  Function.update (X43 m c) main_v309 ((dat11 (E43 m) c).arrAt 4 cfg11.N)
abbrev E44 : (c : Dev nD) → (b : Ref sig .tc) → Buf (Elt F) ((c : Thread nD τ).loc b) := fun c b => X44 m c b
/-- After item 44, the host stretch `hostOps12`. -/
def X45 (c : Dev nD) : Valuation τ sig (Elt F) := StableHlo.after hostOps12 (X44 m c)
abbrev E45 : (c : Dev nD) → (b : Ref sig .tc) → Buf (Elt F) ((c : Thread nD τ).loc b) := fun c b => X45 m c b
/-- After item 45, launch 12: `main_v334` holds what the launch's write-backs leave, every other buffer is as entered. -/
def X46 (c : Dev nD) : Valuation τ sig (Elt F) :=
  Function.update (X45 m c) main_v334 ((dat12 (E45 m) c).arrAt 4 cfg12.N)
abbrev E46 : (c : Dev nD) → (b : Ref sig .tc) → Buf (Elt F) ((c : Thread nD τ).loc b) := fun c b => X46 m c b
/-- After item 46, the host stretch `hostOps13`. -/
def X47 (c : Dev nD) : Valuation τ sig (Elt F) := StableHlo.after hostOps13 (X46 m c)
abbrev E47 : (c : Dev nD) → (b : Ref sig .tc) → Buf (Elt F) ((c : Thread nD τ).loc b) := fun c b => X47 m c b
/-- After item 47, launch 13: `main_v359` holds what the launch's write-backs leave, every other buffer is as entered. -/
def X48 (c : Dev nD) : Valuation τ sig (Elt F) :=
  Function.update (X47 m c) main_v359 ((dat13 (E47 m) c).arrAt 4 cfg13.N)
abbrev E48 : (c : Dev nD) → (b : Ref sig .tc) → Buf (Elt F) ((c : Thread nD τ).loc b) := fun c b => X48 m c b
/-- After item 48, the host stretch `hostOps14`. -/
def X49 (c : Dev nD) : Valuation τ sig (Elt F) := StableHlo.after hostOps14 (X48 m c)
abbrev E49 : (c : Dev nD) → (b : Ref sig .tc) → Buf (Elt F) ((c : Thread nD τ).loc b) := fun c b => X49 m c b

/-- What the launches leave, as the conditional frame's table of unknown contents: `outsX J r c` is `r`'s contents after item J−1. -/
def outsX : Outs (F := F) := fun J r c => match J with
  | 2 => X2 m c r
  | 4 => X4 m c r
  | 6 => X6 m c r
  | 8 => X8 m c r
  | 30 => X30 m c r
  | 32 => X32 m c r
  | 34 => X34 m c r
  | 36 => X36 m c r
  | 38 => X38 m c r
  | 40 => X40 m c r
  | 42 => X42 m c r
  | 44 => X44 m c r
  | 46 => X46 m c r
  | 48 => X48 m c r
  | _ => X0 m c r

theorem V0_eq (c : Dev nD) : V0 m c = X0 m c := rfl
theorem V1_eq (c : Dev nD) : V1 m c = X1 m c := by
  show StableHlo.after hostOps0 (V0 m c) = _
  rw [V0_eq]; rfl
theorem V2_eq (c : Dev nD) : V2 m (outsX m) c = X2 m c := by
  show Function.update (V1 m c) main_v5 (X2 m c main_v5) = _
  rw [V1_eq]
  unfold X2
  rw [Function.update_self]
theorem V3_eq (c : Dev nD) : V3 m (outsX m) c = X3 m c := by
  show StableHlo.after hostOps1 (V2 m (outsX m) c) = _
  rw [V2_eq]; rfl
theorem V4_eq (c : Dev nD) : V4 m (outsX m) c = X4 m c := by
  show Function.update (V3 m (outsX m) c) main_v11 (X4 m c main_v11) = _
  rw [V3_eq]
  unfold X4
  rw [Function.update_self]
theorem V5_eq (c : Dev nD) : V5 m (outsX m) c = X5 m c := by
  show StableHlo.after hostOps2 (V4 m (outsX m) c) = _
  rw [V4_eq]; rfl
theorem V6_eq (c : Dev nD) : V6 m (outsX m) c = X6 m c := by
  show Function.update (V5 m (outsX m) c) main_v17 (X6 m c main_v17) = _
  rw [V5_eq]
  unfold X6
  rw [Function.update_self]
theorem V7_eq (c : Dev nD) : V7 m (outsX m) c = X7 m c := by
  show StableHlo.after hostOps3 (V6 m (outsX m) c) = _
  rw [V6_eq]; rfl
theorem V8_eq (c : Dev nD) : V8 m (outsX m) c = X8 m c := by
  show Function.update (V7 m (outsX m) c) main_v23 (X8 m c main_v23) = _
  rw [V7_eq]
  unfold X8
  rw [Function.update_self]
theorem V9_eq (c : Dev nD) : V9 m (outsX m) c = X9 m c := by
  show StableHlo.after hostOps4 (V8 m (outsX m) c) = _
  rw [V8_eq]; rfl
theorem V10_eq (c : Dev nD) : V10 m (outsX m) c = X10 m c := by
  show StableHlo.after hostOps4_1 (V9 m (outsX m) c) = _
  rw [V9_eq]; rfl
theorem V11_eq (c : Dev nD) : V11 m (outsX m) c = X11 m c := by
  show StableHlo.after hostOps4_2 (V10 m (outsX m) c) = _
  rw [V10_eq]; rfl
theorem V12_eq (c : Dev nD) : V12 m (outsX m) c = X12 m c := by
  show StableHlo.after hostOps4_3 (V11 m (outsX m) c) = _
  rw [V11_eq]; rfl
theorem V13_eq (c : Dev nD) : V13 m (outsX m) c = X13 m c := by
  show StableHlo.after hostOps4_4 (V12 m (outsX m) c) = _
  rw [V12_eq]; rfl
theorem V14_eq (c : Dev nD) : V14 m (outsX m) c = X14 m c := by
  show StableHlo.after hostOps4_5 (V13 m (outsX m) c) = _
  rw [V13_eq]; rfl
theorem V15_eq (c : Dev nD) : V15 m (outsX m) c = X15 m c := by
  show StableHlo.after hostOps4_6 (V14 m (outsX m) c) = _
  rw [V14_eq]; rfl
theorem V16_eq (c : Dev nD) : V16 m (outsX m) c = X16 m c := by
  show StableHlo.after hostOps4_7 (V15 m (outsX m) c) = _
  rw [V15_eq]; rfl
theorem V17_eq (c : Dev nD) : V17 m (outsX m) c = X17 m c := by
  show StableHlo.after hostOps4_8 (V16 m (outsX m) c) = _
  rw [V16_eq]; rfl
theorem V18_eq (c : Dev nD) : V18 m (outsX m) c = X18 m c := by
  show StableHlo.after hostOps4_9 (V17 m (outsX m) c) = _
  rw [V17_eq]; rfl
theorem V19_eq (c : Dev nD) : V19 m (outsX m) c = X19 m c := by
  show StableHlo.after hostOps4_10 (V18 m (outsX m) c) = _
  rw [V18_eq]; rfl
theorem V20_eq (c : Dev nD) : V20 m (outsX m) c = X20 m c := by
  show StableHlo.after hostOps4_11 (V19 m (outsX m) c) = _
  rw [V19_eq]; rfl
theorem V21_eq (c : Dev nD) : V21 m (outsX m) c = X21 m c := by
  show StableHlo.after hostOps4_12 (V20 m (outsX m) c) = _
  rw [V20_eq]; rfl
theorem V22_eq (c : Dev nD) : V22 m (outsX m) c = X22 m c := by
  show StableHlo.after hostOps4_13 (V21 m (outsX m) c) = _
  rw [V21_eq]; rfl
theorem V23_eq (c : Dev nD) : V23 m (outsX m) c = X23 m c := by
  show StableHlo.after hostOps4_14 (V22 m (outsX m) c) = _
  rw [V22_eq]; rfl
theorem V24_eq (c : Dev nD) : V24 m (outsX m) c = X24 m c := by
  show StableHlo.after hostOps4_15 (V23 m (outsX m) c) = _
  rw [V23_eq]; rfl
theorem V25_eq (c : Dev nD) : V25 m (outsX m) c = X25 m c := by
  show StableHlo.after hostOps4_16 (V24 m (outsX m) c) = _
  rw [V24_eq]; rfl
theorem V26_eq (c : Dev nD) : V26 m (outsX m) c = X26 m c := by
  show StableHlo.after hostOps4_17 (V25 m (outsX m) c) = _
  rw [V25_eq]; rfl
theorem V27_eq (c : Dev nD) : V27 m (outsX m) c = X27 m c := by
  show StableHlo.after hostOps4_18 (V26 m (outsX m) c) = _
  rw [V26_eq]; rfl
theorem V28_eq (c : Dev nD) : V28 m (outsX m) c = X28 m c := by
  show StableHlo.after hostOps4_19 (V27 m (outsX m) c) = _
  rw [V27_eq]; rfl
theorem V29_eq (c : Dev nD) : V29 m (outsX m) c = X29 m c := by
  show StableHlo.after hostOps4_20 (V28 m (outsX m) c) = _
  rw [V28_eq]; rfl
theorem V30_eq (c : Dev nD) : V30 m (outsX m) c = X30 m c := by
  show Function.update (V29 m (outsX m) c) main_v122 (X30 m c main_v122) = _
  rw [V29_eq]
  unfold X30
  rw [Function.update_self]
theorem V31_eq (c : Dev nD) : V31 m (outsX m) c = X31 m c := by
  show StableHlo.after hostOps5 (V30 m (outsX m) c) = _
  rw [V30_eq]; rfl
theorem V32_eq (c : Dev nD) : V32 m (outsX m) c = X32 m c := by
  show Function.update (V31 m (outsX m) c) main_v147 (X32 m c main_v147) = _
  rw [V31_eq]
  unfold X32
  rw [Function.update_self]
theorem V33_eq (c : Dev nD) : V33 m (outsX m) c = X33 m c := by
  show StableHlo.after hostOps6 (V32 m (outsX m) c) = _
  rw [V32_eq]; rfl
theorem V34_eq (c : Dev nD) : V34 m (outsX m) c = X34 m c := by
  show Function.update (V33 m (outsX m) c) main_v172 (X34 m c main_v172) = _
  rw [V33_eq]
  unfold X34
  rw [Function.update_self]
theorem V35_eq (c : Dev nD) : V35 m (outsX m) c = X35 m c := by
  show StableHlo.after hostOps7 (V34 m (outsX m) c) = _
  rw [V34_eq]; rfl
theorem V36_eq (c : Dev nD) : V36 m (outsX m) c = X36 m c := by
  show Function.update (V35 m (outsX m) c) main_v197 (X36 m c main_v197) = _
  rw [V35_eq]
  unfold X36
  rw [Function.update_self]
theorem V37_eq (c : Dev nD) : V37 m (outsX m) c = X37 m c := by
  show StableHlo.after hostOps8 (V36 m (outsX m) c) = _
  rw [V36_eq]; rfl
theorem V38_eq (c : Dev nD) : V38 m (outsX m) c = X38 m c := by
  show Function.update (V37 m (outsX m) c) main_v222 (X38 m c main_v222) = _
  rw [V37_eq]
  unfold X38
  rw [Function.update_self]
theorem V39_eq (c : Dev nD) : V39 m (outsX m) c = X39 m c := by
  show StableHlo.after hostOps9 (V38 m (outsX m) c) = _
  rw [V38_eq]; rfl
theorem V40_eq (c : Dev nD) : V40 m (outsX m) c = X40 m c := by
  show Function.update (V39 m (outsX m) c) main_v259 (X40 m c main_v259) = _
  rw [V39_eq]
  unfold X40
  rw [Function.update_self]
theorem V41_eq (c : Dev nD) : V41 m (outsX m) c = X41 m c := by
  show StableHlo.after hostOps10 (V40 m (outsX m) c) = _
  rw [V40_eq]; rfl
theorem V42_eq (c : Dev nD) : V42 m (outsX m) c = X42 m c := by
  show Function.update (V41 m (outsX m) c) main_v284 (X42 m c main_v284) = _
  rw [V41_eq]
  unfold X42
  rw [Function.update_self]
theorem V43_eq (c : Dev nD) : V43 m (outsX m) c = X43 m c := by
  show StableHlo.after hostOps11 (V42 m (outsX m) c) = _
  rw [V42_eq]; rfl
theorem V44_eq (c : Dev nD) : V44 m (outsX m) c = X44 m c := by
  show Function.update (V43 m (outsX m) c) main_v309 (X44 m c main_v309) = _
  rw [V43_eq]
  unfold X44
  rw [Function.update_self]
theorem V45_eq (c : Dev nD) : V45 m (outsX m) c = X45 m c := by
  show StableHlo.after hostOps12 (V44 m (outsX m) c) = _
  rw [V44_eq]; rfl
theorem V46_eq (c : Dev nD) : V46 m (outsX m) c = X46 m c := by
  show Function.update (V45 m (outsX m) c) main_v334 (X46 m c main_v334) = _
  rw [V45_eq]
  unfold X46
  rw [Function.update_self]
theorem V47_eq (c : Dev nD) : V47 m (outsX m) c = X47 m c := by
  show StableHlo.after hostOps13 (V46 m (outsX m) c) = _
  rw [V46_eq]; rfl
theorem V48_eq (c : Dev nD) : V48 m (outsX m) c = X48 m c := by
  show Function.update (V47 m (outsX m) c) main_v359 (X48 m c main_v359) = _
  rw [V47_eq]
  unfold X48
  rw [Function.update_self]
theorem V49_eq (c : Dev nD) : V49 m (outsX m) c = X49 m c := by
  show StableHlo.after hostOps14 (V48 m (outsX m) c) = _
  rw [V48_eq]; rfl

/-! What each item leaves unchanged, over the contents defined here. -/

theorem X1_of (c : Dev nD) (r : Ref sig .tc) (h : r ∉ hostOps0_W) : X1 m c r = X0 m c r := by
  rw [← V1_eq, ← V0_eq]; exact V1_of m c r h
theorem X2_of (c : Dev nD) (r : Ref sig .tc) (h : r ∉ ([main_v5] : List (Ref sig .tc))) : X2 m c r = X1 m c r := by
  rw [← V2_eq, ← V1_eq]; exact V2_of m (outsX m) c r h
theorem X2_out (c : Dev nD) : X2 m c main_v5 = (dat0 (E1 m) c).arrAt 3 cfg0.N := by
  unfold X2; rw [Function.update_self]
theorem X3_of (c : Dev nD) (r : Ref sig .tc) (h : r ∉ hostOps1_W) : X3 m c r = X2 m c r := by
  rw [← V3_eq, ← V2_eq]; exact V3_of m (outsX m) c r h
theorem X4_of (c : Dev nD) (r : Ref sig .tc) (h : r ∉ ([main_v11] : List (Ref sig .tc))) : X4 m c r = X3 m c r := by
  rw [← V4_eq, ← V3_eq]; exact V4_of m (outsX m) c r h
theorem X4_out (c : Dev nD) : X4 m c main_v11 = (dat1 (E3 m) c).arrAt 3 cfg1.N := by
  unfold X4; rw [Function.update_self]
theorem X5_of (c : Dev nD) (r : Ref sig .tc) (h : r ∉ hostOps2_W) : X5 m c r = X4 m c r := by
  rw [← V5_eq, ← V4_eq]; exact V5_of m (outsX m) c r h
theorem X6_of (c : Dev nD) (r : Ref sig .tc) (h : r ∉ ([main_v17] : List (Ref sig .tc))) : X6 m c r = X5 m c r := by
  rw [← V6_eq, ← V5_eq]; exact V6_of m (outsX m) c r h
theorem X6_out (c : Dev nD) : X6 m c main_v17 = (dat2 (E5 m) c).arrAt 3 cfg2.N := by
  unfold X6; rw [Function.update_self]
theorem X7_of (c : Dev nD) (r : Ref sig .tc) (h : r ∉ hostOps3_W) : X7 m c r = X6 m c r := by
  rw [← V7_eq, ← V6_eq]; exact V7_of m (outsX m) c r h
theorem X8_of (c : Dev nD) (r : Ref sig .tc) (h : r ∉ ([main_v23] : List (Ref sig .tc))) : X8 m c r = X7 m c r := by
  rw [← V8_eq, ← V7_eq]; exact V8_of m (outsX m) c r h
theorem X8_out (c : Dev nD) : X8 m c main_v23 = (dat3 (E7 m) c).arrAt 3 cfg3.N := by
  unfold X8; rw [Function.update_self]
theorem X9_of (c : Dev nD) (r : Ref sig .tc) (h : r ∉ hostOps4_W) : X9 m c r = X8 m c r := by
  rw [← V9_eq, ← V8_eq]; exact V9_of m (outsX m) c r h
theorem X10_of (c : Dev nD) (r : Ref sig .tc) (h : r ∉ hostOps4_1_W) : X10 m c r = X9 m c r := by
  rw [← V10_eq, ← V9_eq]; exact V10_of m (outsX m) c r h
theorem X11_of (c : Dev nD) (r : Ref sig .tc) (h : r ∉ hostOps4_2_W) : X11 m c r = X10 m c r := by
  rw [← V11_eq, ← V10_eq]; exact V11_of m (outsX m) c r h
theorem X12_of (c : Dev nD) (r : Ref sig .tc) (h : r ∉ hostOps4_3_W) : X12 m c r = X11 m c r := by
  rw [← V12_eq, ← V11_eq]; exact V12_of m (outsX m) c r h
theorem X13_of (c : Dev nD) (r : Ref sig .tc) (h : r ∉ hostOps4_4_W) : X13 m c r = X12 m c r := by
  rw [← V13_eq, ← V12_eq]; exact V13_of m (outsX m) c r h
theorem X14_of (c : Dev nD) (r : Ref sig .tc) (h : r ∉ hostOps4_5_W) : X14 m c r = X13 m c r := by
  rw [← V14_eq, ← V13_eq]; exact V14_of m (outsX m) c r h
theorem X15_of (c : Dev nD) (r : Ref sig .tc) (h : r ∉ hostOps4_6_W) : X15 m c r = X14 m c r := by
  rw [← V15_eq, ← V14_eq]; exact V15_of m (outsX m) c r h
theorem X16_of (c : Dev nD) (r : Ref sig .tc) (h : r ∉ hostOps4_7_W) : X16 m c r = X15 m c r := by
  rw [← V16_eq, ← V15_eq]; exact V16_of m (outsX m) c r h
theorem X17_of (c : Dev nD) (r : Ref sig .tc) (h : r ∉ hostOps4_8_W) : X17 m c r = X16 m c r := by
  rw [← V17_eq, ← V16_eq]; exact V17_of m (outsX m) c r h
theorem X18_of (c : Dev nD) (r : Ref sig .tc) (h : r ∉ hostOps4_9_W) : X18 m c r = X17 m c r := by
  rw [← V18_eq, ← V17_eq]; exact V18_of m (outsX m) c r h
theorem X19_of (c : Dev nD) (r : Ref sig .tc) (h : r ∉ hostOps4_10_W) : X19 m c r = X18 m c r := by
  rw [← V19_eq, ← V18_eq]; exact V19_of m (outsX m) c r h
theorem X20_of (c : Dev nD) (r : Ref sig .tc) (h : r ∉ hostOps4_11_W) : X20 m c r = X19 m c r := by
  rw [← V20_eq, ← V19_eq]; exact V20_of m (outsX m) c r h
theorem X21_of (c : Dev nD) (r : Ref sig .tc) (h : r ∉ hostOps4_12_W) : X21 m c r = X20 m c r := by
  rw [← V21_eq, ← V20_eq]; exact V21_of m (outsX m) c r h
theorem X22_of (c : Dev nD) (r : Ref sig .tc) (h : r ∉ hostOps4_13_W) : X22 m c r = X21 m c r := by
  rw [← V22_eq, ← V21_eq]; exact V22_of m (outsX m) c r h
theorem X23_of (c : Dev nD) (r : Ref sig .tc) (h : r ∉ hostOps4_14_W) : X23 m c r = X22 m c r := by
  rw [← V23_eq, ← V22_eq]; exact V23_of m (outsX m) c r h
theorem X24_of (c : Dev nD) (r : Ref sig .tc) (h : r ∉ hostOps4_15_W) : X24 m c r = X23 m c r := by
  rw [← V24_eq, ← V23_eq]; exact V24_of m (outsX m) c r h
theorem X25_of (c : Dev nD) (r : Ref sig .tc) (h : r ∉ hostOps4_16_W) : X25 m c r = X24 m c r := by
  rw [← V25_eq, ← V24_eq]; exact V25_of m (outsX m) c r h
theorem X26_of (c : Dev nD) (r : Ref sig .tc) (h : r ∉ hostOps4_17_W) : X26 m c r = X25 m c r := by
  rw [← V26_eq, ← V25_eq]; exact V26_of m (outsX m) c r h
theorem X27_of (c : Dev nD) (r : Ref sig .tc) (h : r ∉ hostOps4_18_W) : X27 m c r = X26 m c r := by
  rw [← V27_eq, ← V26_eq]; exact V27_of m (outsX m) c r h
theorem X28_of (c : Dev nD) (r : Ref sig .tc) (h : r ∉ hostOps4_19_W) : X28 m c r = X27 m c r := by
  rw [← V28_eq, ← V27_eq]; exact V28_of m (outsX m) c r h
theorem X29_of (c : Dev nD) (r : Ref sig .tc) (h : r ∉ hostOps4_20_W) : X29 m c r = X28 m c r := by
  rw [← V29_eq, ← V28_eq]; exact V29_of m (outsX m) c r h
theorem X30_of (c : Dev nD) (r : Ref sig .tc) (h : r ∉ ([main_v122] : List (Ref sig .tc))) : X30 m c r = X29 m c r := by
  rw [← V30_eq, ← V29_eq]; exact V30_of m (outsX m) c r h
theorem X30_out (c : Dev nD) : X30 m c main_v122 = (dat4 (E29 m) c).arrAt 4 cfg4.N := by
  unfold X30; rw [Function.update_self]
theorem X31_of (c : Dev nD) (r : Ref sig .tc) (h : r ∉ hostOps5_W) : X31 m c r = X30 m c r := by
  rw [← V31_eq, ← V30_eq]; exact V31_of m (outsX m) c r h
theorem X32_of (c : Dev nD) (r : Ref sig .tc) (h : r ∉ ([main_v147] : List (Ref sig .tc))) : X32 m c r = X31 m c r := by
  rw [← V32_eq, ← V31_eq]; exact V32_of m (outsX m) c r h
theorem X32_out (c : Dev nD) : X32 m c main_v147 = (dat5 (E31 m) c).arrAt 4 cfg5.N := by
  unfold X32; rw [Function.update_self]
theorem X33_of (c : Dev nD) (r : Ref sig .tc) (h : r ∉ hostOps6_W) : X33 m c r = X32 m c r := by
  rw [← V33_eq, ← V32_eq]; exact V33_of m (outsX m) c r h
theorem X34_of (c : Dev nD) (r : Ref sig .tc) (h : r ∉ ([main_v172] : List (Ref sig .tc))) : X34 m c r = X33 m c r := by
  rw [← V34_eq, ← V33_eq]; exact V34_of m (outsX m) c r h
theorem X34_out (c : Dev nD) : X34 m c main_v172 = (dat6 (E33 m) c).arrAt 4 cfg6.N := by
  unfold X34; rw [Function.update_self]
theorem X35_of (c : Dev nD) (r : Ref sig .tc) (h : r ∉ hostOps7_W) : X35 m c r = X34 m c r := by
  rw [← V35_eq, ← V34_eq]; exact V35_of m (outsX m) c r h
theorem X36_of (c : Dev nD) (r : Ref sig .tc) (h : r ∉ ([main_v197] : List (Ref sig .tc))) : X36 m c r = X35 m c r := by
  rw [← V36_eq, ← V35_eq]; exact V36_of m (outsX m) c r h
theorem X36_out (c : Dev nD) : X36 m c main_v197 = (dat7 (E35 m) c).arrAt 4 cfg7.N := by
  unfold X36; rw [Function.update_self]
theorem X37_of (c : Dev nD) (r : Ref sig .tc) (h : r ∉ hostOps8_W) : X37 m c r = X36 m c r := by
  rw [← V37_eq, ← V36_eq]; exact V37_of m (outsX m) c r h
theorem X38_of (c : Dev nD) (r : Ref sig .tc) (h : r ∉ ([main_v222] : List (Ref sig .tc))) : X38 m c r = X37 m c r := by
  rw [← V38_eq, ← V37_eq]; exact V38_of m (outsX m) c r h
theorem X38_out (c : Dev nD) : X38 m c main_v222 = (dat8 (E37 m) c).arrAt 4 cfg8.N := by
  unfold X38; rw [Function.update_self]
theorem X39_of (c : Dev nD) (r : Ref sig .tc) (h : r ∉ hostOps9_W) : X39 m c r = X38 m c r := by
  rw [← V39_eq, ← V38_eq]; exact V39_of m (outsX m) c r h
theorem X40_of (c : Dev nD) (r : Ref sig .tc) (h : r ∉ ([main_v259] : List (Ref sig .tc))) : X40 m c r = X39 m c r := by
  rw [← V40_eq, ← V39_eq]; exact V40_of m (outsX m) c r h
theorem X40_out (c : Dev nD) : X40 m c main_v259 = (dat9 (E39 m) c).arrAt 4 cfg9.N := by
  unfold X40; rw [Function.update_self]
theorem X41_of (c : Dev nD) (r : Ref sig .tc) (h : r ∉ hostOps10_W) : X41 m c r = X40 m c r := by
  rw [← V41_eq, ← V40_eq]; exact V41_of m (outsX m) c r h
theorem X42_of (c : Dev nD) (r : Ref sig .tc) (h : r ∉ ([main_v284] : List (Ref sig .tc))) : X42 m c r = X41 m c r := by
  rw [← V42_eq, ← V41_eq]; exact V42_of m (outsX m) c r h
theorem X42_out (c : Dev nD) : X42 m c main_v284 = (dat10 (E41 m) c).arrAt 4 cfg10.N := by
  unfold X42; rw [Function.update_self]
theorem X43_of (c : Dev nD) (r : Ref sig .tc) (h : r ∉ hostOps11_W) : X43 m c r = X42 m c r := by
  rw [← V43_eq, ← V42_eq]; exact V43_of m (outsX m) c r h
theorem X44_of (c : Dev nD) (r : Ref sig .tc) (h : r ∉ ([main_v309] : List (Ref sig .tc))) : X44 m c r = X43 m c r := by
  rw [← V44_eq, ← V43_eq]; exact V44_of m (outsX m) c r h
theorem X44_out (c : Dev nD) : X44 m c main_v309 = (dat11 (E43 m) c).arrAt 4 cfg11.N := by
  unfold X44; rw [Function.update_self]
theorem X45_of (c : Dev nD) (r : Ref sig .tc) (h : r ∉ hostOps12_W) : X45 m c r = X44 m c r := by
  rw [← V45_eq, ← V44_eq]; exact V45_of m (outsX m) c r h
theorem X46_of (c : Dev nD) (r : Ref sig .tc) (h : r ∉ ([main_v334] : List (Ref sig .tc))) : X46 m c r = X45 m c r := by
  rw [← V46_eq, ← V45_eq]; exact V46_of m (outsX m) c r h
theorem X46_out (c : Dev nD) : X46 m c main_v334 = (dat12 (E45 m) c).arrAt 4 cfg12.N := by
  unfold X46; rw [Function.update_self]
theorem X47_of (c : Dev nD) (r : Ref sig .tc) (h : r ∉ hostOps13_W) : X47 m c r = X46 m c r := by
  rw [← V47_eq, ← V46_eq]; exact V47_of m (outsX m) c r h
theorem X48_of (c : Dev nD) (r : Ref sig .tc) (h : r ∉ ([main_v359] : List (Ref sig .tc))) : X48 m c r = X47 m c r := by
  rw [← V48_eq, ← V47_eq]; exact V48_of m (outsX m) c r h
theorem X48_out (c : Dev nD) : X48 m c main_v359 = (dat13 (E47 m) c).arrAt 4 cfg13.N := by
  unfold X48; rw [Function.update_self]
theorem X49_of (c : Dev nD) (r : Ref sig .tc) (h : r ∉ hostOps14_W) : X49 m c r = X48 m c r := by
  rw [← V49_eq, ← V48_eq]; exact V49_of m (outsX m) c r h

/-! The thread state that rides beside the buffers through every item. -/

abbrev 𝒱₀ : Variants := Variants.none
/-- No core owes another anything: no level is assigned. -/
abbrev L : GSem nD τ sig → Finset Unit := fun _ => ∅
abbrev lv : GSem nD τ sig → Unit → ℕ := fun _ _ => 0
/-- The core's generator register at some state, and nothing owed. -/
abbrev R (c : Dev nD) : sProp (MT nD τ sig Unit (Elt F) ℕ (UR sig nD τ) ℕ) :=
  iprop((∃ r, prngReg c r) ∗ ∃ W, owes (c : Thread nD τ) (0 : CellTallies nD τ sig Unit) W)

/-- Every launch's proof data, each at the contents its launch is entered from. -/
def pdats : (p : Fin 14) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E29 m) c
  | ⟨5, _⟩ => fun c => dat5 (E31 m) c
  | ⟨6, _⟩ => fun c => dat6 (E33 m) c
  | ⟨7, _⟩ => fun c => dat7 (E35 m) c
  | ⟨8, _⟩ => fun c => dat8 (E37 m) c
  | ⟨9, _⟩ => fun c => dat9 (E39 m) c
  | ⟨10, _⟩ => fun c => dat10 (E41 m) c
  | ⟨11, _⟩ => fun c => dat11 (E43 m) c
  | ⟨12, _⟩ => fun c => dat12 (E45 m) c
  | ⟨13, _⟩ => fun c => dat13 (E47 m) c

end Cert.Kernel.Hand

end
-- ==== Proof.Kernel.Seg0.lean ====
/-
  Launch 0 as a segment of the program's run. The thread state between items is "every unscoped buffer held at the
  contents of that point, the generator register at some state, nothing owed". Entering the launch, its four arrays are split
  out of the unscoped buffers and the rest bypasses; leaving it, they are put back: the three inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF0 (c : Dev nD) (w : Fin cfg0.W) : (dat0 (E1 m) c).arrAt w cfg0.N = E2 m c (Pipeline.arrRef spec0 w) := by
  match w with
  | ⟨0, _⟩ => exact (((dat0 (E1 m) c).arrAt_in 0 rfl _).trans (A_eq0 (E1 m) c 0)).trans (X2_of m c _ (by decide)).symm
  | ⟨1, _⟩ => exact (((dat0 (E1 m) c).arrAt_in 1 rfl _).trans (A_eq0 (E1 m) c 1)).trans (X2_of m c _ (by decide)).symm
  | ⟨2, _⟩ => exact (((dat0 (E1 m) c).arrAt_in 2 rfl _).trans (A_eq0 (E1 m) c 2)).trans (X2_of m c _ (by decide)).symm
  | ⟨3, _⟩ => exact (X2_out m c).symm

set_option maxHeartbeats 2000000 in
/-- Every buffer that is none of the launch's arrays holds at the exit what it held at the entry. -/
theorem hrest0 (c : Dev nD) : ∀ b, b ∉ Finset.univ.image (Pipeline.arrRef spec0) → E2 m c b = E1 m c b :=
  fun b hb => X2_of m c b (fun h => hb (by
    rw [List.mem_singleton.mp h]; exact Finset.mem_image.mpr ⟨3, Finset.mem_univ _, rfl⟩))

set_option maxHeartbeats 2000000 in
set_option backward.isDefEq.respectTransparency.types false in
/-- The launch over the thread state: entered from every unscoped buffer at the entry contents, left at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg1.lean ====
/-
  Launch 1 as a segment of the program's run. The thread state between items is "every unscoped buffer held at the
  contents of that point, the generator register at some state, nothing owed". Entering the launch, its four arrays are split
  out of the unscoped buffers and the rest bypasses; leaving it, they are put back: the three inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF1 (c : Dev nD) (w : Fin cfg1.W) : (dat1 (E3 m) c).arrAt w cfg1.N = E4 m c (Pipeline.arrRef spec1 w) := by
  match w with
  | ⟨0, _⟩ => exact (((dat1 (E3 m) c).arrAt_in 0 rfl _).trans (A_eq1 (E3 m) c 0)).trans (X4_of m c _ (by decide)).symm
  | ⟨1, _⟩ => exact (((dat1 (E3 m) c).arrAt_in 1 rfl _).trans (A_eq1 (E3 m) c 1)).trans (X4_of m c _ (by decide)).symm
  | ⟨2, _⟩ => exact (((dat1 (E3 m) c).arrAt_in 2 rfl _).trans (A_eq1 (E3 m) c 2)).trans (X4_of m c _ (by decide)).symm
  | ⟨3, _⟩ => exact (X4_out m c).symm

set_option maxHeartbeats 2000000 in
/-- Every buffer that is none of the launch's arrays holds at the exit what it held at the entry. -/
theorem hrest1 (c : Dev nD) : ∀ b, b ∉ Finset.univ.image (Pipeline.arrRef spec1) → E4 m c b = E3 m c b :=
  fun b hb => X4_of m c b (fun h => hb (by
    rw [List.mem_singleton.mp h]; exact Finset.mem_image.mpr ⟨3, Finset.mem_univ _, rfl⟩))

set_option maxHeartbeats 2000000 in
set_option backward.isDefEq.respectTransparency.types false in
/-- The launch over the thread state: entered from every unscoped buffer at the entry contents, left at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg2.lean ====
/-
  Launch 2 as a segment of the program's run. The thread state between items is "every unscoped buffer held at the
  contents of that point, the generator register at some state, nothing owed". Entering the launch, its four arrays are split
  out of the unscoped buffers and the rest bypasses; leaving it, they are put back: the three inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF2 (c : Dev nD) (w : Fin cfg2.W) : (dat2 (E5 m) c).arrAt w cfg2.N = E6 m c (Pipeline.arrRef spec2 w) := by
  match w with
  | ⟨0, _⟩ => exact (((dat2 (E5 m) c).arrAt_in 0 rfl _).trans (A_eq2 (E5 m) c 0)).trans (X6_of m c _ (by decide)).symm
  | ⟨1, _⟩ => exact (((dat2 (E5 m) c).arrAt_in 1 rfl _).trans (A_eq2 (E5 m) c 1)).trans (X6_of m c _ (by decide)).symm
  | ⟨2, _⟩ => exact (((dat2 (E5 m) c).arrAt_in 2 rfl _).trans (A_eq2 (E5 m) c 2)).trans (X6_of m c _ (by decide)).symm
  | ⟨3, _⟩ => exact (X6_out m c).symm

set_option maxHeartbeats 2000000 in
/-- Every buffer that is none of the launch's arrays holds at the exit what it held at the entry. -/
theorem hrest2 (c : Dev nD) : ∀ b, b ∉ Finset.univ.image (Pipeline.arrRef spec2) → E6 m c b = E5 m c b :=
  fun b hb => X6_of m c b (fun h => hb (by
    rw [List.mem_singleton.mp h]; exact Finset.mem_image.mpr ⟨3, Finset.mem_univ _, rfl⟩))

set_option maxHeartbeats 2000000 in
set_option backward.isDefEq.respectTransparency.types false in
/-- The launch over the thread state: entered from every unscoped buffer at the entry contents, left at the exit contents. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg3.lean ====
/-
  Launch 3 as a segment of the program's run. The thread state between items is "every unscoped buffer held at the
  contents of that point, the generator register at some state, nothing owed". Entering the launch, its four arrays are split
  out of the unscoped buffers and the rest bypasses; leaving it, they are put back: the three inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF3 (c : Dev nD) (w : Fin cfg3.W) : (dat3 (E7 m) c).arrAt w cfg3.N = E8 m c (Pipeline.arrRef spec3 w) := by
  match w with
  | ⟨0, _⟩ => exact (((dat3 (E7 m) c).arrAt_in 0 rfl _).trans (A_eq3 (E7 m) c 0)).trans (X8_of m c _ (by decide)).symm
  | ⟨1, _⟩ => exact (((dat3 (E7 m) c).arrAt_in 1 rfl _).trans (A_eq3 (E7 m) c 1)).trans (X8_of m c _ (by decide)).symm
  | ⟨2, _⟩ => exact (((dat3 (E7 m) c).arrAt_in 2 rfl _).trans (A_eq3 (E7 m) c 2)).trans (X8_of m c _ (by decide)).symm
  | ⟨3, _⟩ => exact (X8_out m c).symm

set_option maxHeartbeats 2000000 in
/-- Every buffer that is none of the launch's arrays holds at the exit what it held at the entry. -/
theorem hrest3 (c : Dev nD) : ∀ b, b ∉ Finset.univ.image (Pipeline.arrRef spec3) → E8 m c b = E7 m c b :=
  fun b hb => X8_of m c b (fun h => hb (by
    rw [List.mem_singleton.mp h]; exact Finset.mem_image.mpr ⟨3, Finset.mem_univ _, rfl⟩))

set_option maxHeartbeats 2000000 in
set_option backward.isDefEq.respectTransparency.types false in
/-- The launch over the thread state: entered from every unscoped buffer at the entry contents, left at the exit contents. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg4.lean ====
/-
  Launch 4 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF4 (c : Dev nD) (w : Fin cfg4.W) : (dat4 (E29 m) c).arrAt w cfg4.N = E30 m c (Pipeline.arrRef spec4 w) := by
  match w with
  | ⟨0, _⟩ => exact (((dat4 (E29 m) c).arrAt_in 0 rfl _).trans (A_eq4 (E29 m) c 0)).trans (X30_of m c _ (by decide)).symm
  | ⟨1, _⟩ => exact (((dat4 (E29 m) c).arrAt_in 1 rfl _).trans (A_eq4 (E29 m) c 1)).trans (X30_of m c _ (by decide)).symm
  | ⟨2, _⟩ => exact (((dat4 (E29 m) c).arrAt_in 2 rfl _).trans (A_eq4 (E29 m) c 2)).trans (X30_of m c _ (by decide)).symm
  | ⟨3, _⟩ => exact (((dat4 (E29 m) c).arrAt_in 3 rfl _).trans (A_eq4 (E29 m) c 3)).trans (X30_of m c _ (by decide)).symm
  | ⟨4, _⟩ => exact (X30_out m c).symm

set_option maxHeartbeats 2000000 in
/-- Every buffer that is none of the launch's arrays holds at the exit what it held at the entry. -/
theorem hrest4 (c : Dev nD) : ∀ b, b ∉ Finset.univ.image (Pipeline.arrRef spec4) → E30 m c b = E29 m c b :=
  fun b hb => X30_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E29 m) c).loose
  hwaits := Pipeline.hwaits_of_owed_zero _ _ _ _ L lv 4 fun _ _ => rfl
  pre c := iprop(StableHlo.held (c : Thread nD τ) (Pipeline.ucRefs τ sig) (X29 m c) ∗ R c)
  post c := iprop(StableHlo.held (c : Thread nD τ) (Pipeline.ucRefs τ sig) (X30 m c) ∗ R c)
  X c := iprop(∃ r, prngReg c r)
  Y c := iprop(∃ r, prngReg c r)
  Z c := Pipeline.unscopedRest (Ix := Unit) (Name := ℕ) (U := UR sig nD τ) (Lvl := ℕ) spec4 c (E29 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E29 m c) (E30 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg5.lean ====
/-
  Launch 5 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF5 (c : Dev nD) (w : Fin cfg5.W) : (dat5 (E31 m) c).arrAt w cfg5.N = E32 m c (Pipeline.arrRef spec5 w) := by
  match w with
  | ⟨0, _⟩ => exact (((dat5 (E31 m) c).arrAt_in 0 rfl _).trans (A_eq5 (E31 m) c 0)).trans (X32_of m c _ (by decide)).symm
  | ⟨1, _⟩ => exact (((dat5 (E31 m) c).arrAt_in 1 rfl _).trans (A_eq5 (E31 m) c 1)).trans (X32_of m c _ (by decide)).symm
  | ⟨2, _⟩ => exact (((dat5 (E31 m) c).arrAt_in 2 rfl _).trans (A_eq5 (E31 m) c 2)).trans (X32_of m c _ (by decide)).symm
  | ⟨3, _⟩ => exact (((dat5 (E31 m) c).arrAt_in 3 rfl _).trans (A_eq5 (E31 m) c 3)).trans (X32_of m c _ (by decide)).symm
  | ⟨4, _⟩ => exact (X32_out m c).symm

set_option maxHeartbeats 2000000 in
/-- Every buffer that is none of the launch's arrays holds at the exit what it held at the entry. -/
theorem hrest5 (c : Dev nD) : ∀ b, b ∉ Finset.univ.image (Pipeline.arrRef spec5) → E32 m c b = E31 m c b :=
  fun b hb => X32_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E31 m) c).loose
  hwaits := Pipeline.hwaits_of_owed_zero _ _ _ _ L lv 5 fun _ _ => rfl
  pre c := iprop(StableHlo.held (c : Thread nD τ) (Pipeline.ucRefs τ sig) (X31 m c) ∗ R c)
  post c := iprop(StableHlo.held (c : Thread nD τ) (Pipeline.ucRefs τ sig) (X32 m c) ∗ R c)
  X c := iprop(∃ r, prngReg c r)
  Y c := iprop(∃ r, prngReg c r)
  Z c := Pipeline.unscopedRest (Ix := Unit) (Name := ℕ) (U := UR sig nD τ) (Lvl := ℕ) spec5 c (E31 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E31 m c) (E32 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg6.lean ====
/-
  Launch 6 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF6 (c : Dev nD) (w : Fin cfg6.W) : (dat6 (E33 m) c).arrAt w cfg6.N = E34 m c (Pipeline.arrRef spec6 w) := by
  match w with
  | ⟨0, _⟩ => exact (((dat6 (E33 m) c).arrAt_in 0 rfl _).trans (A_eq6 (E33 m) c 0)).trans (X34_of m c _ (by decide)).symm
  | ⟨1, _⟩ => exact (((dat6 (E33 m) c).arrAt_in 1 rfl _).trans (A_eq6 (E33 m) c 1)).trans (X34_of m c _ (by decide)).symm
  | ⟨2, _⟩ => exact (((dat6 (E33 m) c).arrAt_in 2 rfl _).trans (A_eq6 (E33 m) c 2)).trans (X34_of m c _ (by decide)).symm
  | ⟨3, _⟩ => exact (((dat6 (E33 m) c).arrAt_in 3 rfl _).trans (A_eq6 (E33 m) c 3)).trans (X34_of m c _ (by decide)).symm
  | ⟨4, _⟩ => exact (X34_out m c).symm

set_option maxHeartbeats 2000000 in
/-- Every buffer that is none of the launch's arrays holds at the exit what it held at the entry. -/
theorem hrest6 (c : Dev nD) : ∀ b, b ∉ Finset.univ.image (Pipeline.arrRef spec6) → E34 m c b = E33 m c b :=
  fun b hb => X34_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E33 m) c).loose
  hwaits := Pipeline.hwaits_of_owed_zero _ _ _ _ L lv 6 fun _ _ => rfl
  pre c := iprop(StableHlo.held (c : Thread nD τ) (Pipeline.ucRefs τ sig) (X33 m c) ∗ R c)
  post c := iprop(StableHlo.held (c : Thread nD τ) (Pipeline.ucRefs τ sig) (X34 m c) ∗ R c)
  X c := iprop(∃ r, prngReg c r)
  Y c := iprop(∃ r, prngReg c r)
  Z c := Pipeline.unscopedRest (Ix := Unit) (Name := ℕ) (U := UR sig nD τ) (Lvl := ℕ) spec6 c (E33 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E33 m c) (E34 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg7.lean ====
/-
  Launch 7 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF7 (c : Dev nD) (w : Fin cfg7.W) : (dat7 (E35 m) c).arrAt w cfg7.N = E36 m c (Pipeline.arrRef spec7 w) := by
  match w with
  | ⟨0, _⟩ => exact (((dat7 (E35 m) c).arrAt_in 0 rfl _).trans (A_eq7 (E35 m) c 0)).trans (X36_of m c _ (by decide)).symm
  | ⟨1, _⟩ => exact (((dat7 (E35 m) c).arrAt_in 1 rfl _).trans (A_eq7 (E35 m) c 1)).trans (X36_of m c _ (by decide)).symm
  | ⟨2, _⟩ => exact (((dat7 (E35 m) c).arrAt_in 2 rfl _).trans (A_eq7 (E35 m) c 2)).trans (X36_of m c _ (by decide)).symm
  | ⟨3, _⟩ => exact (((dat7 (E35 m) c).arrAt_in 3 rfl _).trans (A_eq7 (E35 m) c 3)).trans (X36_of m c _ (by decide)).symm
  | ⟨4, _⟩ => exact (X36_out m c).symm

set_option maxHeartbeats 2000000 in
/-- Every buffer that is none of the launch's arrays holds at the exit what it held at the entry. -/
theorem hrest7 (c : Dev nD) : ∀ b, b ∉ Finset.univ.image (Pipeline.arrRef spec7) → E36 m c b = E35 m c b :=
  fun b hb => X36_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E35 m) c).loose
  hwaits := Pipeline.hwaits_of_owed_zero _ _ _ _ L lv 7 fun _ _ => rfl
  pre c := iprop(StableHlo.held (c : Thread nD τ) (Pipeline.ucRefs τ sig) (X35 m c) ∗ R c)
  post c := iprop(StableHlo.held (c : Thread nD τ) (Pipeline.ucRefs τ sig) (X36 m c) ∗ R c)
  X c := iprop(∃ r, prngReg c r)
  Y c := iprop(∃ r, prngReg c r)
  Z c := Pipeline.unscopedRest (Ix := Unit) (Name := ℕ) (U := UR sig nD τ) (Lvl := ℕ) spec7 c (E35 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E35 m c) (E36 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg8.lean ====
/-
  Launch 8 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF8 (c : Dev nD) (w : Fin cfg8.W) : (dat8 (E37 m) c).arrAt w cfg8.N = E38 m c (Pipeline.arrRef spec8 w) := by
  match w with
  | ⟨0, _⟩ => exact (((dat8 (E37 m) c).arrAt_in 0 rfl _).trans (A_eq8 (E37 m) c 0)).trans (X38_of m c _ (by decide)).symm
  | ⟨1, _⟩ => exact (((dat8 (E37 m) c).arrAt_in 1 rfl _).trans (A_eq8 (E37 m) c 1)).trans (X38_of m c _ (by decide)).symm
  | ⟨2, _⟩ => exact (((dat8 (E37 m) c).arrAt_in 2 rfl _).trans (A_eq8 (E37 m) c 2)).trans (X38_of m c _ (by decide)).symm
  | ⟨3, _⟩ => exact (((dat8 (E37 m) c).arrAt_in 3 rfl _).trans (A_eq8 (E37 m) c 3)).trans (X38_of m c _ (by decide)).symm
  | ⟨4, _⟩ => exact (X38_out m c).symm

set_option maxHeartbeats 2000000 in
/-- Every buffer that is none of the launch's arrays holds at the exit what it held at the entry. -/
theorem hrest8 (c : Dev nD) : ∀ b, b ∉ Finset.univ.image (Pipeline.arrRef spec8) → E38 m c b = E37 m c b :=
  fun b hb => X38_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E37 m) c).loose
  hwaits := Pipeline.hwaits_of_owed_zero _ _ _ _ L lv 8 fun _ _ => rfl
  pre c := iprop(StableHlo.held (c : Thread nD τ) (Pipeline.ucRefs τ sig) (X37 m c) ∗ R c)
  post c := iprop(StableHlo.held (c : Thread nD τ) (Pipeline.ucRefs τ sig) (X38 m c) ∗ R c)
  X c := iprop(∃ r, prngReg c r)
  Y c := iprop(∃ r, prngReg c r)
  Z c := Pipeline.unscopedRest (Ix := Unit) (Name := ℕ) (U := UR sig nD τ) (Lvl := ℕ) spec8 c (E37 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (E37 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E37 m c) (E38 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg9.lean ====
/-
  Launch 9 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF9 (c : Dev nD) (w : Fin cfg9.W) : (dat9 (E39 m) c).arrAt w cfg9.N = E40 m c (Pipeline.arrRef spec9 w) := by
  match w with
  | ⟨0, _⟩ => exact (((dat9 (E39 m) c).arrAt_in 0 rfl _).trans (A_eq9 (E39 m) c 0)).trans (X40_of m c _ (by decide)).symm
  | ⟨1, _⟩ => exact (((dat9 (E39 m) c).arrAt_in 1 rfl _).trans (A_eq9 (E39 m) c 1)).trans (X40_of m c _ (by decide)).symm
  | ⟨2, _⟩ => exact (((dat9 (E39 m) c).arrAt_in 2 rfl _).trans (A_eq9 (E39 m) c 2)).trans (X40_of m c _ (by decide)).symm
  | ⟨3, _⟩ => exact (((dat9 (E39 m) c).arrAt_in 3 rfl _).trans (A_eq9 (E39 m) c 3)).trans (X40_of m c _ (by decide)).symm
  | ⟨4, _⟩ => exact (X40_out m c).symm

set_option maxHeartbeats 2000000 in
/-- Every buffer that is none of the launch's arrays holds at the exit what it held at the entry. -/
theorem hrest9 (c : Dev nD) : ∀ b, b ∉ Finset.univ.image (Pipeline.arrRef spec9) → E40 m c b = E39 m c b :=
  fun b hb => X40_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (E39 m) c).loose
  hwaits := Pipeline.hwaits_of_owed_zero _ _ _ _ L lv 9 fun _ _ => rfl
  pre c := iprop(StableHlo.held (c : Thread nD τ) (Pipeline.ucRefs τ sig) (X39 m c) ∗ R c)
  post c := iprop(StableHlo.held (c : Thread nD τ) (Pipeline.ucRefs τ sig) (X40 m c) ∗ R c)
  X c := iprop(∃ r, prngReg c r)
  Y c := iprop(∃ r, prngReg c r)
  Z c := Pipeline.unscopedRest (Ix := Unit) (Name := ℕ) (U := UR sig nD τ) (Lvl := ℕ) spec9 c (E39 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (E39 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (E39 m c) (E40 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg10.lean ====
/-
  Launch 10 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF10 (c : Dev nD) (w : Fin cfg10.W) : (dat10 (E41 m) c).arrAt w cfg10.N = E42 m c (Pipeline.arrRef spec10 w) := by
  match w with
  | ⟨0, _⟩ => exact (((dat10 (E41 m) c).arrAt_in 0 rfl _).trans (A_eq10 (E41 m) c 0)).trans (X42_of m c _ (by decide)).symm
  | ⟨1, _⟩ => exact (((dat10 (E41 m) c).arrAt_in 1 rfl _).trans (A_eq10 (E41 m) c 1)).trans (X42_of m c _ (by decide)).symm
  | ⟨2, _⟩ => exact (((dat10 (E41 m) c).arrAt_in 2 rfl _).trans (A_eq10 (E41 m) c 2)).trans (X42_of m c _ (by decide)).symm
  | ⟨3, _⟩ => exact (((dat10 (E41 m) c).arrAt_in 3 rfl _).trans (A_eq10 (E41 m) c 3)).trans (X42_of m c _ (by decide)).symm
  | ⟨4, _⟩ => exact (X42_out m c).symm

set_option maxHeartbeats 2000000 in
/-- Every buffer that is none of the launch's arrays holds at the exit what it held at the entry. -/
theorem hrest10 (c : Dev nD) : ∀ b, b ∉ Finset.univ.image (Pipeline.arrRef spec10) → E42 m c b = E41 m c b :=
  fun b hb => X42_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (E41 m) c).loose
  hwaits := Pipeline.hwaits_of_owed_zero _ _ _ _ L lv 10 fun _ _ => rfl
  pre c := iprop(StableHlo.held (c : Thread nD τ) (Pipeline.ucRefs τ sig) (X41 m c) ∗ R c)
  post c := iprop(StableHlo.held (c : Thread nD τ) (Pipeline.ucRefs τ sig) (X42 m c) ∗ R c)
  X c := iprop(∃ r, prngReg c r)
  Y c := iprop(∃ r, prngReg c r)
  Z c := Pipeline.unscopedRest (Ix := Unit) (Name := ℕ) (U := UR sig nD τ) (Lvl := ℕ) spec10 c (E41 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (E41 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (E41 m c) (E42 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg11.lean ====
/-
  Launch 11 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF11 (c : Dev nD) (w : Fin cfg11.W) : (dat11 (E43 m) c).arrAt w cfg11.N = E44 m c (Pipeline.arrRef spec11 w) := by
  match w with
  | ⟨0, _⟩ => exact (((dat11 (E43 m) c).arrAt_in 0 rfl _).trans (A_eq11 (E43 m) c 0)).trans (X44_of m c _ (by decide)).symm
  | ⟨1, _⟩ => exact (((dat11 (E43 m) c).arrAt_in 1 rfl _).trans (A_eq11 (E43 m) c 1)).trans (X44_of m c _ (by decide)).symm
  | ⟨2, _⟩ => exact (((dat11 (E43 m) c).arrAt_in 2 rfl _).trans (A_eq11 (E43 m) c 2)).trans (X44_of m c _ (by decide)).symm
  | ⟨3, _⟩ => exact (((dat11 (E43 m) c).arrAt_in 3 rfl _).trans (A_eq11 (E43 m) c 3)).trans (X44_of m c _ (by decide)).symm
  | ⟨4, _⟩ => exact (X44_out m c).symm

set_option maxHeartbeats 2000000 in
/-- Every buffer that is none of the launch's arrays holds at the exit what it held at the entry. -/
theorem hrest11 (c : Dev nD) : ∀ b, b ∉ Finset.univ.image (Pipeline.arrRef spec11) → E44 m c b = E43 m c b :=
  fun b hb => X44_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (E43 m) c).loose
  hwaits := Pipeline.hwaits_of_owed_zero _ _ _ _ L lv 11 fun _ _ => rfl
  pre c := iprop(StableHlo.held (c : Thread nD τ) (Pipeline.ucRefs τ sig) (X43 m c) ∗ R c)
  post c := iprop(StableHlo.held (c : Thread nD τ) (Pipeline.ucRefs τ sig) (X44 m c) ∗ R c)
  X c := iprop(∃ r, prngReg c r)
  Y c := iprop(∃ r, prngReg c r)
  Z c := Pipeline.unscopedRest (Ix := Unit) (Name := ℕ) (U := UR sig nD τ) (Lvl := ℕ) spec11 c (E43 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (E43 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (E43 m c) (E44 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg12.lean ====
/-
  Launch 12 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF12 (c : Dev nD) (w : Fin cfg12.W) : (dat12 (E45 m) c).arrAt w cfg12.N = E46 m c (Pipeline.arrRef spec12 w) := by
  match w with
  | ⟨0, _⟩ => exact (((dat12 (E45 m) c).arrAt_in 0 rfl _).trans (A_eq12 (E45 m) c 0)).trans (X46_of m c _ (by decide)).symm
  | ⟨1, _⟩ => exact (((dat12 (E45 m) c).arrAt_in 1 rfl _).trans (A_eq12 (E45 m) c 1)).trans (X46_of m c _ (by decide)).symm
  | ⟨2, _⟩ => exact (((dat12 (E45 m) c).arrAt_in 2 rfl _).trans (A_eq12 (E45 m) c 2)).trans (X46_of m c _ (by decide)).symm
  | ⟨3, _⟩ => exact (((dat12 (E45 m) c).arrAt_in 3 rfl _).trans (A_eq12 (E45 m) c 3)).trans (X46_of m c _ (by decide)).symm
  | ⟨4, _⟩ => exact (X46_out m c).symm

set_option maxHeartbeats 2000000 in
/-- Every buffer that is none of the launch's arrays holds at the exit what it held at the entry. -/
theorem hrest12 (c : Dev nD) : ∀ b, b ∉ Finset.univ.image (Pipeline.arrRef spec12) → E46 m c b = E45 m c b :=
  fun b hb => X46_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (E45 m) c).loose
  hwaits := Pipeline.hwaits_of_owed_zero _ _ _ _ L lv 12 fun _ _ => rfl
  pre c := iprop(StableHlo.held (c : Thread nD τ) (Pipeline.ucRefs τ sig) (X45 m c) ∗ R c)
  post c := iprop(StableHlo.held (c : Thread nD τ) (Pipeline.ucRefs τ sig) (X46 m c) ∗ R c)
  X c := iprop(∃ r, prngReg c r)
  Y c := iprop(∃ r, prngReg c r)
  Z c := Pipeline.unscopedRest (Ix := Unit) (Name := ℕ) (U := UR sig nD τ) (Lvl := ℕ) spec12 c (E45 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (E45 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (E45 m c) (E46 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg13.lean ====
/-
  Launch 13 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.Kernel.Chain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF13 (c : Dev nD) (w : Fin cfg13.W) : (dat13 (E47 m) c).arrAt w cfg13.N = E48 m c (Pipeline.arrRef spec13 w) := by
  match w with
  | ⟨0, _⟩ => exact (((dat13 (E47 m) c).arrAt_in 0 rfl _).trans (A_eq13 (E47 m) c 0)).trans (X48_of m c _ (by decide)).symm
  | ⟨1, _⟩ => exact (((dat13 (E47 m) c).arrAt_in 1 rfl _).trans (A_eq13 (E47 m) c 1)).trans (X48_of m c _ (by decide)).symm
  | ⟨2, _⟩ => exact (((dat13 (E47 m) c).arrAt_in 2 rfl _).trans (A_eq13 (E47 m) c 2)).trans (X48_of m c _ (by decide)).symm
  | ⟨3, _⟩ => exact (((dat13 (E47 m) c).arrAt_in 3 rfl _).trans (A_eq13 (E47 m) c 3)).trans (X48_of m c _ (by decide)).symm
  | ⟨4, _⟩ => exact (X48_out m c).symm

set_option maxHeartbeats 2000000 in
/-- Every buffer that is none of the launch's arrays holds at the exit what it held at the entry. -/
theorem hrest13 (c : Dev nD) : ∀ b, b ∉ Finset.univ.image (Pipeline.arrRef spec13) → E48 m c b = E47 m c b :=
  fun b hb => X48_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (E47 m) c).loose
  hwaits := Pipeline.hwaits_of_owed_zero _ _ _ _ L lv 13 fun _ _ => rfl
  pre c := iprop(StableHlo.held (c : Thread nD τ) (Pipeline.ucRefs τ sig) (X47 m c) ∗ R c)
  post c := iprop(StableHlo.held (c : Thread nD τ) (Pipeline.ucRefs τ sig) (X48 m c) ∗ R c)
  X c := iprop(∃ r, prngReg c r)
  Y c := iprop(∃ r, prngReg c r)
  Z c := Pipeline.unscopedRest (Ix := Unit) (Name := ℕ) (U := UR sig nD τ) (Lvl := ℕ) spec13 c (E47 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (E47 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (E47 m c) (E48 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Run.lean ====
/-
  The whole program as the chain of its items: host stretches and the fourteen launches, each launch entered from the
  contents the chain has reached and left at the next. Every weakly fair execution terminates with the arguments as launched.
-/
import proofs.«418080_j49366354100286_4_alg».proof.Proof.Kernel.Seg0
import proofs.«418080_j49366354100286_4_alg».proof.Proof.Kernel.Seg1
import proofs.«418080_j49366354100286_4_alg».proof.Proof.Kernel.Seg2
import proofs.«418080_j49366354100286_4_alg».proof.Proof.Kernel.Seg3
import proofs.«418080_j49366354100286_4_alg».proof.Proof.Kernel.Seg4
import proofs.«418080_j49366354100286_4_alg».proof.Proof.Kernel.Seg5
import proofs.«418080_j49366354100286_4_alg».proof.Proof.Kernel.Seg6
import proofs.«418080_j49366354100286_4_alg».proof.Proof.Kernel.Seg7
import proofs.«418080_j49366354100286_4_alg».proof.Proof.Kernel.Seg8
import proofs.«418080_j49366354100286_4_alg».proof.Proof.Kernel.Seg9
import proofs.«418080_j49366354100286_4_alg».proof.Proof.Kernel.Seg10
import proofs.«418080_j49366354100286_4_alg».proof.Proof.Kernel.Seg11
import proofs.«418080_j49366354100286_4_alg».proof.Proof.Kernel.Seg12
import proofs.«418080_j49366354100286_4_alg».proof.Proof.Kernel.Seg13

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The launch element yields the pipeline library's element at every staging cell; no ghost resource is needed. -/
theorem launch_elt : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core makes the riding state: its generator register at the launch state, nothing owed. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

/-- THE FRAME: every weakly fair execution of the program from memory `m` terminates with the arguments as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond (F := F) m emb₁ () 𝒱₀ L lv (fun _ _ => rfl) ρ (outsX m) (pdats m) 0 (fun _ => (BI.emp : sProp 𝕄))
    (initOf (Pipeline.cells cfgs cellOf_inj) (Pipeline.launchToks cfgs cellOf_inj)) launch_elt
    (fun _ c => R (F := F) c) (launch_rest ρ) (fun c => by iintro ⟨-, HO⟩; iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V29_eq]; exact .rfl) (fun c => by rw [V30_eq]; exact .rfl)
    (reg5 m) (fun c => by rw [V31_eq]; exact .rfl) (fun c => by rw [V32_eq]; exact .rfl)
    (reg6 m) (fun c => by rw [V33_eq]; exact .rfl) (fun c => by rw [V34_eq]; exact .rfl)
    (reg7 m) (fun c => by rw [V35_eq]; exact .rfl) (fun c => by rw [V36_eq]; exact .rfl)
    (reg8 m) (fun c => by rw [V37_eq]; exact .rfl) (fun c => by rw [V38_eq]; exact .rfl)
    (reg9 m) (fun c => by rw [V39_eq]; exact .rfl) (fun c => by rw [V40_eq]; exact .rfl)
    (reg10 m) (fun c => by rw [V41_eq]; exact .rfl) (fun c => by rw [V42_eq]; exact .rfl)
    (reg11 m) (fun c => by rw [V43_eq]; exact .rfl) (fun c => by rw [V44_eq]; exact .rfl)
    (reg12 m) (fun c => by rw [V45_eq]; exact .rfl) (fun c => by rw [V46_eq]; exact .rfl)
    (reg13 m) (fun c => by rw [V47_eq]; exact .rfl) (fun c => by rw [V48_eq]; exact .rfl)

end Cert.Kernel.Hand

end
-- ==== Proof.KernelIdeal.Proj0.lean ====
/-
  Input projection, launch 0 of the program: one grid of 25 points over row tiles of 2000. At each point the body
  loads a 2000×385 tile of the features, the whole 385×128 weight and the 1×128 bias, and stores
  max(tile · weight + bias, 0) to the 2000×128 output tile. This module runs the body once on arbitrary
  staging memrefs, names what it leaves in the output buffer as a function of the three loaded blocks, and packages
  that as the pipeline's proof data at an arbitrary entry valuation `V` of the core's buffers, with the body obligation
  at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the point fetches it or
    not (an unfetched window's block index has not moved), for any proof data over `V` whose body leaves inputs in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S2000x385 := Rect.unit (s := S2000x385) ![0, 0] S2000x385.size inb_S2000x385_S2000x385_0_0
abbrev rw0 : Rect S385x128 := Rect.unit (s := S385x128) ![0, 0] S385x128.size inb_S385x128_S385x128_0_0
abbrev rb0 : Rect S1x128 := Rect.unit (s := S1x128) ![0, 0] S1x128.size inb_S1x128_S1x128_0_0
abbrev ro0 : Rect S2000x128 := Rect.unit (s := S2000x128) ![0, 0] S2000x128.size inb_S2000x128_S2000x128_0_0

/-- What the body leaves in the output tile's buffer, from the three loaded blocks: its one store. -/
def out0_3 (x0 : Vec F S2000x385 .f32) (x1 : Vec F S385x128 .f32) (x2 : Vec F S1x128 .f32) : Vec F S2000x128 .f32 :=
  View.canon [⟨ro0, k0_pay1 (View.ld x0 rx0) (View.ld x1 rw0) (View.ld x2 rb0)⟩]

/-- The one store covers the output buffer. -/
theorem cover0_3 (p0 : Vec F S2000x128 .f32) (y : S2000x128.Idx) :
    ∃ pc ∈ ([⟨ro0, p0⟩] : List (View.Piece (Elt F) S2000x128 .f32)), y ∈ pc.1.set :=
  View.cover_of_tiled [⟨ro0, p0⟩] S2000x128.size (by rfl) y

set_option maxHeartbeats 1000000 in
/-- The body on whole staging memrefs: with the inputs held at `x0 x1 x2` and the output at anything, it runs to its
    return leaving the inputs as they were and the output at `out0_3 x0 x1 x2`. -/
theorem sound_kernel0 (c : Dev nD) (E : Set ℕ) (i : grid0.Coords)
    (arg1 : Memref sig .tc .vmem S2000x385 .f32) (harg1 : arg1.IsWhole) (arg2 : Memref sig .tc .vmem S385x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x385 .f32) (x1 : Vec F S385x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the launch finds them; after the body at point `t` each input's
    buffer at its block and the output's at the body's result on the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging memrefs hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Proj1.lean ====
/-
  Input projection, launch 1 of the program: one grid of 25 points over row tiles of 2000. At each point the body
  loads a 2000×385 tile of the features, the whole 385×128 weight and the 1×128 bias, and stores
  max(tile · weight + bias, 0) to the 2000×128 output tile. This module runs the body once on arbitrary
  staging memrefs, names what it leaves in the output buffer as a function of the three loaded blocks, and packages
  that as the pipeline's proof data at an arbitrary entry valuation `V` of the core's buffers, with the body obligation
  at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the point fetches it or
    not (an unfetched window's block index has not moved), for any proof data over `V` whose body leaves inputs in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rx1 : Rect S2000x385 := Rect.unit (s := S2000x385) ![0, 0] S2000x385.size inb_S2000x385_S2000x385_0_0
abbrev rw1 : Rect S385x128 := Rect.unit (s := S385x128) ![0, 0] S385x128.size inb_S385x128_S385x128_0_0
abbrev rb1 : Rect S1x128 := Rect.unit (s := S1x128) ![0, 0] S1x128.size inb_S1x128_S1x128_0_0
abbrev ro1 : Rect S2000x128 := Rect.unit (s := S2000x128) ![0, 0] S2000x128.size inb_S2000x128_S2000x128_0_0

/-- What the body leaves in the output tile's buffer, from the three loaded blocks: its one store. -/
def out1_3 (x0 : Vec F S2000x385 .f32) (x1 : Vec F S385x128 .f32) (x2 : Vec F S1x128 .f32) : Vec F S2000x128 .f32 :=
  View.canon [⟨ro1, k1_pay1 (View.ld x0 rx1) (View.ld x1 rw1) (View.ld x2 rb1)⟩]

/-- The one store covers the output buffer. -/
theorem cover1_3 (p0 : Vec F S2000x128 .f32) (y : S2000x128.Idx) :
    ∃ pc ∈ ([⟨ro1, p0⟩] : List (View.Piece (Elt F) S2000x128 .f32)), y ∈ pc.1.set :=
  View.cover_of_tiled [⟨ro1, p0⟩] S2000x128.size (by rfl) y

set_option maxHeartbeats 1000000 in
/-- The body on whole staging memrefs: with the inputs held at `x0 x1 x2` and the output at anything, it runs to its
    return leaving the inputs as they were and the output at `out1_3 x0 x1 x2`. -/
theorem sound_kernel1 (c : Dev nD) (E : Set ℕ) (i : grid1.Coords)
    (arg1 : Memref sig .tc .vmem S2000x385 .f32) (harg1 : arg1.IsWhole) (arg2 : Memref sig .tc .vmem S385x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x385 .f32) (x1 : Vec F S385x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the launch finds them; after the body at point `t` each input's
    buffer at its block and the output's at the body's result on the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' staging memrefs hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Proj2.lean ====
/-
  Input projection, launch 2 of the program: one grid of 25 points over row tiles of 2000. At each point the body
  loads a 2000×385 tile of the features, the whole 385×128 weight and the 1×128 bias, and stores
  max(tile · weight + bias, 0) to the 2000×128 output tile. This module runs the body once on arbitrary
  staging memrefs, names what it leaves in the output buffer as a function of the three loaded blocks, and packages
  that as the pipeline's proof data at an arbitrary entry valuation `V` of the core's buffers, with the body obligation
  at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, whether the point fetches it or
    not (an unfetched window's block index has not moved), for any proof data over `V` whose body leaves inputs in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rx2 : Rect S2000x385 := Rect.unit (s := S2000x385) ![0, 0] S2000x385.size inb_S2000x385_S2000x385_0_0
abbrev rw2 : Rect S385x128 := Rect.unit (s := S385x128) ![0, 0] S385x128.size inb_S385x128_S385x128_0_0
abbrev rb2 : Rect S1x128 := Rect.unit (s := S1x128) ![0, 0] S1x128.size inb_S1x128_S1x128_0_0
abbrev ro2 : Rect S2000x128 := Rect.unit (s := S2000x128) ![0, 0] S2000x128.size inb_S2000x128_S2000x128_0_0

/-- What the body leaves in the output tile's buffer, from the three loaded blocks: its one store. -/
def out2_3 (x0 : Vec F S2000x385 .f32) (x1 : Vec F S385x128 .f32) (x2 : Vec F S1x128 .f32) : Vec F S2000x128 .f32 :=
  View.canon [⟨ro2, k2_pay1 (View.ld x0 rx2) (View.ld x1 rw2) (View.ld x2 rb2)⟩]

/-- The one store covers the output buffer. -/
theorem cover2_3 (p0 : Vec F S2000x128 .f32) (y : S2000x128.Idx) :
    ∃ pc ∈ ([⟨ro2, p0⟩] : List (View.Piece (Elt F) S2000x128 .f32)), y ∈ pc.1.set :=
  View.cover_of_tiled [⟨ro2, p0⟩] S2000x128.size (by rfl) y

set_option maxHeartbeats 1000000 in
/-- The body on whole staging memrefs: with the inputs held at `x0 x1 x2` and the output at anything, it runs to its
    return leaving the inputs as they were and the output at `out2_3 x0 x1 x2`. -/
theorem sound_kernel2 (c : Dev nD) (E : Set ℕ) (i : grid2.Coords)
    (arg1 : Memref sig .tc .vmem S2000x385 .f32) (harg1 : arg1.IsWhole) (arg2 : Memref sig .tc .vmem S385x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x385 .f32) (x1 : Vec F S385x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the launch finds them; after the body at point `t` each input's
    buffer at its block and the output's at the body's result on the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' staging memrefs hold their blocks, so the body's run applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Proj3.lean ====
/-
  Input projection, launch 3 of the program: one grid of 25 points over row tiles of 2000. At each point the body
  loads a 2000×385 tile of the features, the whole 385×128 weight and the 1×128 bias, and stores
  max(tile · weight + bias, 0) to the 2000×128 output tile. This module runs the body once on arbitrary
  staging memrefs, names what it leaves in the output buffer as a function of the three loaded blocks, and packages
  that as the pipeline's proof data at an arbitrary entry valuation `V` of the core's buffers, with the body obligation
  at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds the window's block at every point, whether the point fetches it or
    not (an unfetched window's block index has not moved), for any proof data over `V` whose body leaves inputs in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rx3 : Rect S2000x385 := Rect.unit (s := S2000x385) ![0, 0] S2000x385.size inb_S2000x385_S2000x385_0_0
abbrev rw3 : Rect S385x128 := Rect.unit (s := S385x128) ![0, 0] S385x128.size inb_S385x128_S385x128_0_0
abbrev rb3 : Rect S1x128 := Rect.unit (s := S1x128) ![0, 0] S1x128.size inb_S1x128_S1x128_0_0
abbrev ro3 : Rect S2000x128 := Rect.unit (s := S2000x128) ![0, 0] S2000x128.size inb_S2000x128_S2000x128_0_0

/-- What the body leaves in the output tile's buffer, from the three loaded blocks: its one store. -/
def out3_3 (x0 : Vec F S2000x385 .f32) (x1 : Vec F S385x128 .f32) (x2 : Vec F S1x128 .f32) : Vec F S2000x128 .f32 :=
  View.canon [⟨ro3, k3_pay1 (View.ld x0 rx3) (View.ld x1 rw3) (View.ld x2 rb3)⟩]

/-- The one store covers the output buffer. -/
theorem cover3_3 (p0 : Vec F S2000x128 .f32) (y : S2000x128.Idx) :
    ∃ pc ∈ ([⟨ro3, p0⟩] : List (View.Piece (Elt F) S2000x128 .f32)), y ∈ pc.1.set :=
  View.cover_of_tiled [⟨ro3, p0⟩] S2000x128.size (by rfl) y

set_option maxHeartbeats 1000000 in
/-- The body on whole staging memrefs: with the inputs held at `x0 x1 x2` and the output at anything, it runs to its
    return leaving the inputs as they were and the output at `out3_3 x0 x1 x2`. -/
theorem sound_kernel3 (c : Dev nD) (E : Set ℕ) (i : grid3.Coords)
    (arg1 : Memref sig .tc .vmem S2000x385 .f32) (harg1 : arg1.IsWhole) (arg2 : Memref sig .tc .vmem S385x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x385 .f32) (x1 : Vec F S385x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data on core `c`: the arrays as the launch finds them; after the body at point `t` each input's
    buffer at its block and the output's at the body's result on the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' staging memrefs hold their blocks, so the body's run applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.Conv4.lean ====
/-
  Graph-convolution epilogue, launch 4 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds the window's block at every point, whether the point fetches it or
    not (an unfetched window's block index has not moved), for any proof data over `V` whose body leaves inputs in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev ra4 : Rect S2000x128 := Rect.unit (s := S2000x128) ![0, 0] S2000x128.size inb_S2000x128_S2000x128_0_0
abbrev rs4 : Rect S2000x1 := Rect.unit (s := S2000x1) ![0, 0] S2000x1.size inb_S2000x1_S2000x1_0_0
abbrev rw4 : Rect S128x128 := Rect.unit (s := S128x128) ![0, 0] S128x128.size inb_S128x128_S128x128_0_0
abbrev rb4 : Rect S1x128 := Rect.unit (s := S1x128) ![0, 0] S1x128.size inb_S1x128_S1x128_0_0

/-- What the body leaves in the output tile's buffer, from the four loaded blocks: its one store. -/
def out4_4 (x0 : Vec F S2000x128 .f32) (x1 : Vec F S2000x1 .f32) (x2 : Vec F S128x128 .f32) (x3 : Vec F S1x128 .f32) : Vec F S2000x128 .f32 :=
  View.canon [⟨ra4, k4_pay1 (View.ld x0 ra4) (View.ld x1 rs4) (View.ld x2 rw4) (View.ld x3 rb4)⟩]

/-- The one store covers the output buffer. -/
theorem cover4_4 (p0 : Vec F S2000x128 .f32) (y : S2000x128.Idx) :
    ∃ pc ∈ ([⟨ra4, p0⟩] : List (View.Piece (Elt F) S2000x128 .f32)), y ∈ pc.1.set :=
  View.cover_of_tiled [⟨ra4, p0⟩] S2000x128.size (by rfl) y

set_option maxHeartbeats 1000000 in
/-- The body on whole staging memrefs: with the inputs held at `x0 x1 x2 x3` and the output at anything, it runs to its
    return leaving the inputs as they were and the output at `out4_4 x0 x1 x2 x3`. -/
theorem sound_kernel4 (c : Dev nD) (E : Set ℕ) (i : grid4.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__gc_kernel i arg1 harg1 arg2 harg2 arg3 harg3 arg4 harg4 arg5 harg5) K := by
  simp only [cc4__gc_kernel_eq_skeleton]; unfold cc4__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The pipeline's proof data on core `c`: the arrays as the launch finds them; after the body at point `t` each input's
    buffer at its block and the output's at the body's result on the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' staging memrefs hold their blocks, so the body's run applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KernelIdeal.Conv5.lean ====
/-
  Graph-convolution epilogue, launch 5 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds the window's block at every point, whether the point fetches it or
    not (an unfetched window's block index has not moved), for any proof data over `V` whose body leaves inputs in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev ra5 : Rect S2000x128 := Rect.unit (s := S2000x128) ![0, 0] S2000x128.size inb_S2000x128_S2000x128_0_0
abbrev rs5 : Rect S2000x1 := Rect.unit (s := S2000x1) ![0, 0] S2000x1.size inb_S2000x1_S2000x1_0_0
abbrev rw5 : Rect S128x128 := Rect.unit (s := S128x128) ![0, 0] S128x128.size inb_S128x128_S128x128_0_0
abbrev rb5 : Rect S1x128 := Rect.unit (s := S1x128) ![0, 0] S1x128.size inb_S1x128_S1x128_0_0

/-- What the body leaves in the output tile's buffer, from the four loaded blocks: its one store. -/
def out5_4 (x0 : Vec F S2000x128 .f32) (x1 : Vec F S2000x1 .f32) (x2 : Vec F S128x128 .f32) (x3 : Vec F S1x128 .f32) : Vec F S2000x128 .f32 :=
  View.canon [⟨ra5, k5_pay1 (View.ld x0 ra5) (View.ld x1 rs5) (View.ld x2 rw5) (View.ld x3 rb5)⟩]

/-- The one store covers the output buffer. -/
theorem cover5_4 (p0 : Vec F S2000x128 .f32) (y : S2000x128.Idx) :
    ∃ pc ∈ ([⟨ra5, p0⟩] : List (View.Piece (Elt F) S2000x128 .f32)), y ∈ pc.1.set :=
  View.cover_of_tiled [⟨ra5, p0⟩] S2000x128.size (by rfl) y

set_option maxHeartbeats 1000000 in
/-- The body on whole staging memrefs: with the inputs held at `x0 x1 x2 x3` and the output at anything, it runs to its
    return leaving the inputs as they were and the output at `out5_4 x0 x1 x2 x3`. -/
theorem sound_kernel5 (c : Dev nD) (E : Set ℕ) (i : grid5.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__gc_kernel i arg1 harg1 arg2 harg2 arg3 harg3 arg4 harg4 arg5 harg5) K := by
  simp only [cc5__gc_kernel_eq_skeleton]; unfold cc5__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The pipeline's proof data on core `c`: the arrays as the launch finds them; after the body at point `t` each input's
    buffer at its block and the output's at the body's result on the input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' staging memrefs hold their blocks, so the body's run applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KernelIdeal.Conv6.lean ====
/-
  Graph-convolution epilogue, launch 6 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds the window's block at every point, whether the point fetches it or
    not (an unfetched window's block index has not moved), for any proof data over `V` whose body leaves inputs in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev ra6 : Rect S2000x128 := Rect.unit (s := S2000x128) ![0, 0] S2000x128.size inb_S2000x128_S2000x128_0_0
abbrev rs6 : Rect S2000x1 := Rect.unit (s := S2000x1) ![0, 0] S2000x1.size inb_S2000x1_S2000x1_0_0
abbrev rw6 : Rect S128x128 := Rect.unit (s := S128x128) ![0, 0] S128x128.size inb_S128x128_S128x128_0_0
abbrev rb6 : Rect S1x128 := Rect.unit (s := S1x128) ![0, 0] S1x128.size inb_S1x128_S1x128_0_0

/-- What the body leaves in the output tile's buffer, from the four loaded blocks: its one store. -/
def out6_4 (x0 : Vec F S2000x128 .f32) (x1 : Vec F S2000x1 .f32) (x2 : Vec F S128x128 .f32) (x3 : Vec F S1x128 .f32) : Vec F S2000x128 .f32 :=
  View.canon [⟨ra6, k6_pay1 (View.ld x0 ra6) (View.ld x1 rs6) (View.ld x2 rw6) (View.ld x3 rb6)⟩]

/-- The one store covers the output buffer. -/
theorem cover6_4 (p0 : Vec F S2000x128 .f32) (y : S2000x128.Idx) :
    ∃ pc ∈ ([⟨ra6, p0⟩] : List (View.Piece (Elt F) S2000x128 .f32)), y ∈ pc.1.set :=
  View.cover_of_tiled [⟨ra6, p0⟩] S2000x128.size (by rfl) y

set_option maxHeartbeats 1000000 in
/-- The body on whole staging memrefs: with the inputs held at `x0 x1 x2 x3` and the output at anything, it runs to its
    return leaving the inputs as they were and the output at `out6_4 x0 x1 x2 x3`. -/
theorem sound_kernel6 (c : Dev nD) (E : Set ℕ) (i : grid6.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__gc_kernel i arg1 harg1 arg2 harg2 arg3 harg3 arg4 harg4 arg5 harg5) K := by
  simp only [cc6__gc_kernel_eq_skeleton]; unfold cc6__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-- The pipeline's proof data on core `c`: the arrays as the launch finds them; after the body at point `t` each input's
    buffer at its block and the output's at the body's result on the input blocks; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' staging memrefs hold their blocks, so the body's run applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KernelIdeal.Conv7.lean ====
/-
  Graph-convolution epilogue, launch 7 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds the window's block at every point, whether the point fetches it or
    not (an unfetched window's block index has not moved), for any proof data over `V` whose body leaves inputs in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body loads and stores through. -/
abbrev ra7 : Rect S2000x128 := Rect.unit (s := S2000x128) ![0, 0] S2000x128.size inb_S2000x128_S2000x128_0_0
abbrev rs7 : Rect S2000x1 := Rect.unit (s := S2000x1) ![0, 0] S2000x1.size inb_S2000x1_S2000x1_0_0
abbrev rw7 : Rect S128x128 := Rect.unit (s := S128x128) ![0, 0] S128x128.size inb_S128x128_S128x128_0_0
abbrev rb7 : Rect S1x128 := Rect.unit (s := S1x128) ![0, 0] S1x128.size inb_S1x128_S1x128_0_0

/-- What the body leaves in the output tile's buffer, from the four loaded blocks: its one store. -/
def out7_4 (x0 : Vec F S2000x128 .f32) (x1 : Vec F S2000x1 .f32) (x2 : Vec F S128x128 .f32) (x3 : Vec F S1x128 .f32) : Vec F S2000x128 .f32 :=
  View.canon [⟨ra7, k7_pay1 (View.ld x0 ra7) (View.ld x1 rs7) (View.ld x2 rw7) (View.ld x3 rb7)⟩]

/-- The one store covers the output buffer. -/
theorem cover7_4 (p0 : Vec F S2000x128 .f32) (y : S2000x128.Idx) :
    ∃ pc ∈ ([⟨ra7, p0⟩] : List (View.Piece (Elt F) S2000x128 .f32)), y ∈ pc.1.set :=
  View.cover_of_tiled [⟨ra7, p0⟩] S2000x128.size (by rfl) y

set_option maxHeartbeats 1000000 in
/-- The body on whole staging memrefs: with the inputs held at `x0 x1 x2 x3` and the output at anything, it runs to its
    return leaving the inputs as they were and the output at `out7_4 x0 x1 x2 x3`. -/
theorem sound_kernel7 (c : Dev nD) (E : Set ℕ) (i : grid7.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7_4 x0 x1 x2 x3)) -∗ K ⟨⟩))
      ⊢ wp frame (wpE (defs₀ (F := F)) Variants.none c none) E (cc7__gc_kernel i arg1 harg1 arg2 harg2 arg3 harg3 arg4 harg4 arg5 harg5) K := by
  simp only [cc7__gc_kernel_eq_skeleton]; unfold cc7__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-- The pipeline's proof data on core `c`: the arrays as the launch finds them; after the body at point `t` each input's
    buffer at its block and the output's at the body's result on the input blocks; the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' staging memrefs hold their blocks, so the body's run applies; the invariant and what
    the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KernelIdeal.Conv8.lean ====
/-
  Graph-convolution epilogue, launch 8 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds the window's block at every point, whether the point fetches it or
    not (an unfetched window's block index has not moved), for any proof data over `V` whose body leaves inputs in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The whole-buffer rectangles the body loads and stores through. -/
abbrev ra8 : Rect S2000x128 := Rect.unit (s := S2000x128) ![0, 0] S2000x128.size inb_S2000x128_S2000x128_0_0
abbrev rs8 : Rect S2000x1 := Rect.unit (s := S2000x1) ![0, 0] S2000x1.size inb_S2000x1_S2000x1_0_0
abbrev rw8 : Rect S128x128 := Rect.unit (s := S128x128) ![0, 0] S128x128.size inb_S128x128_S128x128_0_0
abbrev rb8 : Rect S1x128 := Rect.unit (s := S1x128) ![0, 0] S1x128.size inb_S1x128_S1x128_0_0

/-- What the body leaves in the output tile's buffer, from the four loaded blocks: its one store. -/
def out8_4 (x0 : Vec F S2000x128 .f32) (x1 : Vec F S2000x1 .f32) (x2 : Vec F S128x128 .f32) (x3 : Vec F S1x128 .f32) : Vec F S2000x128 .f32 :=
  View.canon [⟨ra8, k8_pay1 (View.ld x0 ra8) (View.ld x1 rs8) (View.ld x2 rw8) (View.ld x3 rb8)⟩]

/-- The one store covers the output buffer. -/
theorem cover8_4 (p0 : Vec F S2000x128 .f32) (y : S2000x128.Idx) :
    ∃ pc ∈ ([⟨ra8, p0⟩] : List (View.Piece (Elt F) S2000x128 .f32)), y ∈ pc.1.set :=
  View.cover_of_tiled [⟨ra8, p0⟩] S2000x128.size (by rfl) y

set_option maxHeartbeats 1000000 in
/-- The body on whole staging memrefs: with the inputs held at `x0 x1 x2 x3` and the output at anything, it runs to its
    return leaving the inputs as they were and the output at `out8_4 x0 x1 x2 x3`. -/
theorem sound_kernel8 (c : Dev nD) (E : Set ℕ) (i : grid8.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out8_4 x0 x1 x2 x3)) -∗ K ⟨⟩))
      ⊢ wp frame (wpE (defs₀ (F := F)) Variants.none c none) E (cc8__gc_kernel i arg1 harg1 arg2 harg2 arg3 harg3 arg4 harg4 arg5 harg5) K := by
  simp only [cc8__gc_kernel_eq_skeleton]; unfold cc8__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-- The pipeline's proof data on core `c`: the arrays as the launch finds them; after the body at point `t` each input's
    buffer at its block and the output's at the body's result on the input blocks; the scoped rest and the generator
    register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) :
    (dat8 V c).after 4 t = out8_4 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-- What the body is called with at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' staging memrefs hold their blocks, so the body's run applies; the invariant and what
    the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KernelIdeal.Conv9.lean ====
/-
  Graph-convolution epilogue, launch 9 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds the window's block at every point, whether the point fetches it or
    not (an unfetched window's block index has not moved), for any proof data over `V` whose body leaves inputs in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- The whole-buffer rectangles the body loads and stores through. -/
abbrev ra9 : Rect S2000x128 := Rect.unit (s := S2000x128) ![0, 0] S2000x128.size inb_S2000x128_S2000x128_0_0
abbrev rs9 : Rect S2000x1 := Rect.unit (s := S2000x1) ![0, 0] S2000x1.size inb_S2000x1_S2000x1_0_0
abbrev rw9 : Rect S128x128 := Rect.unit (s := S128x128) ![0, 0] S128x128.size inb_S128x128_S128x128_0_0
abbrev rb9 : Rect S1x128 := Rect.unit (s := S1x128) ![0, 0] S1x128.size inb_S1x128_S1x128_0_0

/-- What the body leaves in the output tile's buffer, from the four loaded blocks: its one store. -/
def out9_4 (x0 : Vec F S2000x128 .f32) (x1 : Vec F S2000x1 .f32) (x2 : Vec F S128x128 .f32) (x3 : Vec F S1x128 .f32) : Vec F S2000x128 .f32 :=
  View.canon [⟨ra9, k9_pay1 (View.ld x0 ra9) (View.ld x1 rs9) (View.ld x2 rw9) (View.ld x3 rb9)⟩]

/-- The one store covers the output buffer. -/
theorem cover9_4 (p0 : Vec F S2000x128 .f32) (y : S2000x128.Idx) :
    ∃ pc ∈ ([⟨ra9, p0⟩] : List (View.Piece (Elt F) S2000x128 .f32)), y ∈ pc.1.set :=
  View.cover_of_tiled [⟨ra9, p0⟩] S2000x128.size (by rfl) y

set_option maxHeartbeats 1000000 in
/-- The body on whole staging memrefs: with the inputs held at `x0 x1 x2 x3` and the output at anything, it runs to its
    return leaving the inputs as they were and the output at `out9_4 x0 x1 x2 x3`. -/
theorem sound_kernel9 (c : Dev nD) (E : Set ℕ) (i : grid9.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out9_4 x0 x1 x2 x3)) -∗ K ⟨⟩))
      ⊢ wp frame (wpE (defs₀ (F := F)) Variants.none c none) E (cc9__gc_kernel i arg1 harg1 arg2 harg2 arg3 harg3 arg4 harg4 arg5 harg5) K := by
  simp only [cc9__gc_kernel_eq_skeleton]; unfold cc9__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-- The pipeline's proof data on core `c`: the arrays as the launch finds them; after the body at point `t` each input's
    buffer at its block and the output's at the body's result on the input blocks; the scoped rest and the generator
    register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is called with at point `t`, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' staging memrefs hold their blocks, so the body's run applies; the invariant and what
    the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KernelIdeal.Conv10.lean ====
/-
  Graph-convolution epilogue, launch 10 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds the window's block at every point, whether the point fetches it or
    not (an unfetched window's block index has not moved), for any proof data over `V` whose body leaves inputs in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- The whole-buffer rectangles the body loads and stores through. -/
abbrev ra10 : Rect S2000x128 := Rect.unit (s := S2000x128) ![0, 0] S2000x128.size inb_S2000x128_S2000x128_0_0
abbrev rs10 : Rect S2000x1 := Rect.unit (s := S2000x1) ![0, 0] S2000x1.size inb_S2000x1_S2000x1_0_0
abbrev rw10 : Rect S128x128 := Rect.unit (s := S128x128) ![0, 0] S128x128.size inb_S128x128_S128x128_0_0
abbrev rb10 : Rect S1x128 := Rect.unit (s := S1x128) ![0, 0] S1x128.size inb_S1x128_S1x128_0_0

/-- What the body leaves in the output tile's buffer, from the four loaded blocks: its one store. -/
def out10_4 (x0 : Vec F S2000x128 .f32) (x1 : Vec F S2000x1 .f32) (x2 : Vec F S128x128 .f32) (x3 : Vec F S1x128 .f32) : Vec F S2000x128 .f32 :=
  View.canon [⟨ra10, k10_pay1 (View.ld x0 ra10) (View.ld x1 rs10) (View.ld x2 rw10) (View.ld x3 rb10)⟩]

/-- The one store covers the output buffer. -/
theorem cover10_4 (p0 : Vec F S2000x128 .f32) (y : S2000x128.Idx) :
    ∃ pc ∈ ([⟨ra10, p0⟩] : List (View.Piece (Elt F) S2000x128 .f32)), y ∈ pc.1.set :=
  View.cover_of_tiled [⟨ra10, p0⟩] S2000x128.size (by rfl) y

set_option maxHeartbeats 1000000 in
/-- The body on whole staging memrefs: with the inputs held at `x0 x1 x2 x3` and the output at anything, it runs to its
    return leaving the inputs as they were and the output at `out10_4 x0 x1 x2 x3`. -/
theorem sound_kernel10 (c : Dev nD) (E : Set ℕ) (i : grid10.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out10_4 x0 x1 x2 x3)) -∗ K ⟨⟩))
      ⊢ wp frame (wpE (defs₀ (F := F)) Variants.none c none) E (cc10__gc_kernel i arg1 harg1 arg2 harg2 arg3 harg3 arg4 harg4 arg5 harg5) K := by
  simp only [cc10__gc_kernel_eq_skeleton]; unfold cc10__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover10_4 _)

/-- The pipeline's proof data on core `c`: the arrays as the launch finds them; after the body at point `t` each input's
    buffer at its block and the output's at the body's result on the input blocks; the scoped rest and the generator
    register untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t) (iblk10 V c 3 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = out10_4 (iblk10 V c 0 t) (iblk10 V c 1 t) (iblk10 V c 2 t) (iblk10 V c 3 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-- What the body is called with at point `t`, window by window, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

/-- The body at any point: the inputs' staging memrefs hold their blocks, so the body's run applies; the invariant and what
    the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ _ _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KernelIdeal.Conv11.lean ====
/-
  Graph-convolution epilogue, launch 11 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds the window's block at every point, whether the point fetches it or
    not (an unfetched window's block index has not moved), for any proof data over `V` whose body leaves inputs in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- The whole-buffer rectangles the body loads and stores through. -/
abbrev ra11 : Rect S2000x128 := Rect.unit (s := S2000x128) ![0, 0] S2000x128.size inb_S2000x128_S2000x128_0_0
abbrev rs11 : Rect S2000x1 := Rect.unit (s := S2000x1) ![0, 0] S2000x1.size inb_S2000x1_S2000x1_0_0
abbrev rw11 : Rect S128x128 := Rect.unit (s := S128x128) ![0, 0] S128x128.size inb_S128x128_S128x128_0_0
abbrev rb11 : Rect S1x128 := Rect.unit (s := S1x128) ![0, 0] S1x128.size inb_S1x128_S1x128_0_0

/-- What the body leaves in the output tile's buffer, from the four loaded blocks: its one store. -/
def out11_4 (x0 : Vec F S2000x128 .f32) (x1 : Vec F S2000x1 .f32) (x2 : Vec F S128x128 .f32) (x3 : Vec F S1x128 .f32) : Vec F S2000x128 .f32 :=
  View.canon [⟨ra11, k11_pay1 (View.ld x0 ra11) (View.ld x1 rs11) (View.ld x2 rw11) (View.ld x3 rb11)⟩]

/-- The one store covers the output buffer. -/
theorem cover11_4 (p0 : Vec F S2000x128 .f32) (y : S2000x128.Idx) :
    ∃ pc ∈ ([⟨ra11, p0⟩] : List (View.Piece (Elt F) S2000x128 .f32)), y ∈ pc.1.set :=
  View.cover_of_tiled [⟨ra11, p0⟩] S2000x128.size (by rfl) y

set_option maxHeartbeats 1000000 in
/-- The body on whole staging memrefs: with the inputs held at `x0 x1 x2 x3` and the output at anything, it runs to its
    return leaving the inputs as they were and the output at `out11_4 x0 x1 x2 x3`. -/
theorem sound_kernel11 (c : Dev nD) (E : Set ℕ) (i : grid11.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out11_4 x0 x1 x2 x3)) -∗ K ⟨⟩))
      ⊢ wp frame (wpE (defs₀ (F := F)) Variants.none c none) E (cc11__gc_kernel i arg1 harg1 arg2 harg2 arg3 harg3 arg4 harg4 arg5 harg5) K := by
  simp only [cc11__gc_kernel_eq_skeleton]; unfold cc11__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11_4 _)

/-- The pipeline's proof data on core `c`: the arrays as the launch finds them; after the body at point `t` each input's
    buffer at its block and the output's at the body's result on the input blocks; the scoped rest and the generator
    register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) :
    (dat11 V c).after 4 t = out11_4 (iblk11 V c 0 t) (iblk11 V c 1 t) (iblk11 V c 2 t) (iblk11 V c 3 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-- What the body is called with at point `t`, window by window, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the inputs' staging memrefs hold their blocks, so the body's run applies; the invariant and what
    the core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KernelIdeal.Conv12.lean ====
/-
  Graph-convolution epilogue, launch 12 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds the window's block at every point, whether the point fetches it or
    not (an unfetched window's block index has not moved), for any proof data over `V` whose body leaves inputs in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- The whole-buffer rectangles the body loads and stores through. -/
abbrev ra12 : Rect S2000x128 := Rect.unit (s := S2000x128) ![0, 0] S2000x128.size inb_S2000x128_S2000x128_0_0
abbrev rs12 : Rect S2000x1 := Rect.unit (s := S2000x1) ![0, 0] S2000x1.size inb_S2000x1_S2000x1_0_0
abbrev rw12 : Rect S128x128 := Rect.unit (s := S128x128) ![0, 0] S128x128.size inb_S128x128_S128x128_0_0
abbrev rb12 : Rect S1x128 := Rect.unit (s := S1x128) ![0, 0] S1x128.size inb_S1x128_S1x128_0_0

/-- What the body leaves in the output tile's buffer, from the four loaded blocks: its one store. -/
def out12_4 (x0 : Vec F S2000x128 .f32) (x1 : Vec F S2000x1 .f32) (x2 : Vec F S128x128 .f32) (x3 : Vec F S1x128 .f32) : Vec F S2000x128 .f32 :=
  View.canon [⟨ra12, k12_pay1 (View.ld x0 ra12) (View.ld x1 rs12) (View.ld x2 rw12) (View.ld x3 rb12)⟩]

/-- The one store covers the output buffer. -/
theorem cover12_4 (p0 : Vec F S2000x128 .f32) (y : S2000x128.Idx) :
    ∃ pc ∈ ([⟨ra12, p0⟩] : List (View.Piece (Elt F) S2000x128 .f32)), y ∈ pc.1.set :=
  View.cover_of_tiled [⟨ra12, p0⟩] S2000x128.size (by rfl) y

set_option maxHeartbeats 1000000 in
/-- The body on whole staging memrefs: with the inputs held at `x0 x1 x2 x3` and the output at anything, it runs to its
    return leaving the inputs as they were and the output at `out12_4 x0 x1 x2 x3`. -/
theorem sound_kernel12 (c : Dev nD) (E : Set ℕ) (i : grid12.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out12_4 x0 x1 x2 x3)) -∗ K ⟨⟩))
      ⊢ wp frame (wpE (defs₀ (F := F)) Variants.none c none) E (cc12__gc_kernel i arg1 harg1 arg2 harg2 arg3 harg3 arg4 harg4 arg5 harg5) K := by
  simp only [cc12__gc_kernel_eq_skeleton]; unfold cc12__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover12_4 _)

/-- The pipeline's proof data on core `c`: the arrays as the launch finds them; after the body at point `t` each input's
    buffer at its block and the output's at the body's result on the input blocks; the scoped rest and the generator
    register untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t) (iblk12 V c 3 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) :
    (dat12 V c).after 4 t = out12_4 (iblk12 V c 0 t) (iblk12 V c 1 t) (iblk12 V c 2 t) (iblk12 V c 3 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

/-- What the body is called with at point `t`, window by window, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

/-- The body at any point: the inputs' staging memrefs hold their blocks, so the body's run applies; the invariant and what
    the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KernelIdeal.Conv13.lean ====
/-
  Graph-convolution epilogue, launch 13 of the program: one grid of 25 points over row tiles of 2000. At each point the
  body loads a 2000×128 tile of the aggregated features, the matching 2000×1 tile of the destination-degree scale, the
  whole 128×128 weight and the 1×128 bias, and stores (tile · scale) · weight + bias to the 2000×128 output tile. This
  module runs the body once on arbitrary staging memrefs, names what it leaves in the output buffer as a function of the
  four loaded blocks, and packages that as the pipeline's proof data at an arbitrary entry valuation `V` of the core's
  buffers, with the body obligation at every grid point.
-/
import proofs.«418080_j49366354100286_4_alg».proof.Proof.Gen.KernelIdeal.Launch
import proofs.«418080_j49366354100286_4_alg».proof.Proof.Gen.KernelIdeal.Skeleton
import proofs.«418080_j49366354100286_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the launch finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds the window's block at every point, whether the point fetches it or
    not (an unfetched window's block index has not moved), for any proof data over `V` whose body leaves inputs in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- The whole-buffer rectangles the body loads and stores through. -/
abbrev ra13 : Rect S2000x128 := Rect.unit (s := S2000x128) ![0, 0] S2000x128.size inb_S2000x128_S2000x128_0_0
abbrev rs13 : Rect S2000x1 := Rect.unit (s := S2000x1) ![0, 0] S2000x1.size inb_S2000x1_S2000x1_0_0
abbrev rw13 : Rect S128x128 := Rect.unit (s := S128x128) ![0, 0] S128x128.size inb_S128x128_S128x128_0_0
abbrev rb13 : Rect S1x128 := Rect.unit (s := S1x128) ![0, 0] S1x128.size inb_S1x128_S1x128_0_0

/-- What the body leaves in the output tile's buffer, from the four loaded blocks: its one store. -/
def out13_4 (x0 : Vec F S2000x128 .f32) (x1 : Vec F S2000x1 .f32) (x2 : Vec F S128x128 .f32) (x3 : Vec F S1x128 .f32) : Vec F S2000x128 .f32 :=
  View.canon [⟨ra13, k13_pay1 (View.ld x0 ra13) (View.ld x1 rs13) (View.ld x2 rw13) (View.ld x3 rb13)⟩]

/-- The one store covers the output buffer. -/
theorem cover13_4 (p0 : Vec F S2000x128 .f32) (y : S2000x128.Idx) :
    ∃ pc ∈ ([⟨ra13, p0⟩] : List (View.Piece (Elt F) S2000x128 .f32)), y ∈ pc.1.set :=
  View.cover_of_tiled [⟨ra13, p0⟩] S2000x128.size (by rfl) y

set_option maxHeartbeats 1000000 in
/-- The body on whole staging memrefs: with the inputs held at `x0 x1 x2 x3` and the output at anything, it runs to its
    return leaving the inputs as they were and the output at `out13_4 x0 x1 x2 x3`. -/
theorem sound_kernel13 (c : Dev nD) (E : Set ℕ) (i : grid13.Coords)
    (arg1 : Memref sig .tc .vmem S2000x128 .f32) (harg1 : arg1.IsWhole) (arg2 : Memref sig .tc .vmem S2000x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x1 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out13_4 x0 x1 x2 x3)) -∗ K ⟨⟩))
      ⊢ wp frame (wpE (defs₀ (F := F)) Variants.none c none) E (cc13__gc_kernel i arg1 harg1 arg2 harg2 arg3 harg3 arg4 harg4 arg5 harg5) K := by
  simp only [cc13__gc_kernel_eq_skeleton]; unfold cc13__gc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover13_4 _)

/-- The pipeline's proof data on core `c`: the arrays as the launch finds them; after the body at point `t` each input's
    buffer at its block and the output's at the body's result on the input blocks; the scoped rest and the generator
    register untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 (iblk13 V c 0 t) (iblk13 V c 1 t) (iblk13 V c 2 t) (iblk13 V c 3 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) :
    (dat13 V c).after 4 t = out13_4 (iblk13 V c 0 t) (iblk13 V c 1 t) (iblk13 V c 2 t) (iblk13 V c 3 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d

/-- What the body is called with at point `t`, window by window, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t))

/-- The body at any point: the inputs' staging memrefs hold their blocks, so the body's run applies; the invariant and what
    the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).Φ t.succ = (dat13 V c).Φ t.castSucc from rfl,
    show (dat13 V c).owesAt () t.succ = (dat13 V c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ _ _ _ _ _ _ _ _ _ _ _ (iblk13 V c 0 t) (iblk13 V c 1 t) (iblk13 V c 2 t) (iblk13 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KernelIdeal.Chain.lean ====
/-
  The contents of the core's buffers between the items of the program, from the launch memory to the return: after a host
  stretch they are the stretch's operations applied to what was there; after a launch the launch's output array holds what
  the launch's write-backs leave (the pipeline's fold over its grid of the body's result on the input blocks) and every other
  buffer is unchanged. These are the values the conditional frame's unknown contents are instantiated with; the lemmas
  `V<j>_eq` say that, so instantiated, the valuations between items are the ones defined here. The proof data of
  all fourteen launches, each at the contents found at its entry, is collected in `pdats`.
-/
import proofs.«418080_j49366354100286_4_alg».proof.Proof.KernelIdeal.RegionsP
import proofs.«418080_j49366354100286_4_alg».proof.Proof.KernelIdeal.Proj0
import proofs.«418080_j49366354100286_4_alg».proof.Proof.KernelIdeal.Proj1
import proofs.«418080_j49366354100286_4_alg».proof.Proof.KernelIdeal.Proj2
import proofs.«418080_j49366354100286_4_alg».proof.Proof.KernelIdeal.Proj3
import proofs.«418080_j49366354100286_4_alg».proof.Proof.KernelIdeal.Conv4
import proofs.«418080_j49366354100286_4_alg».proof.Proof.KernelIdeal.Conv5
import proofs.«418080_j49366354100286_4_alg».proof.Proof.KernelIdeal.Conv6
import proofs.«418080_j49366354100286_4_alg».proof.Proof.KernelIdeal.Conv7
import proofs.«418080_j49366354100286_4_alg».proof.Proof.KernelIdeal.Conv8
import proofs.«418080_j49366354100286_4_alg».proof.Proof.KernelIdeal.Conv9
import proofs.«418080_j49366354100286_4_alg».proof.Proof.KernelIdeal.Conv10
import proofs.«418080_j49366354100286_4_alg».proof.Proof.KernelIdeal.Conv11
import proofs.«418080_j49366354100286_4_alg».proof.Proof.KernelIdeal.Conv12
import proofs.«418080_j49366354100286_4_alg».proof.Proof.KernelIdeal.Conv13

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

/-- Core `c`'s buffers at launch. -/
def X0 (c : Dev nD) : Valuation τ sig (Elt F) := V0 m c
/-- The same contents read at the TensorCore's references (what a launch's proof data take). -/
abbrev E0 : (c : Dev nD) → (b : Ref sig .tc) → Buf (Elt F) ((c : Thread nD τ).loc b) := fun c b => X0 m c b
/-- After item 0, the host stretch `hostOps0`. -/
def X1 (c : Dev nD) : Valuation τ sig (Elt F) := StableHlo.after hostOps0 (X0 m c)
abbrev E1 : (c : Dev nD) → (b : Ref sig .tc) → Buf (Elt F) ((c : Thread nD τ).loc b) := fun c b => X1 m c b
/-- After item 1, launch 0: `main_v5` holds what the launch's write-backs leave, every other buffer is as entered. -/
def X2 (c : Dev nD) : Valuation τ sig (Elt F) :=
  Function.update (X1 m c) main_v5 ((dat0 (E1 m) c).arrAt 3 cfg0.N)
abbrev E2 : (c : Dev nD) → (b : Ref sig .tc) → Buf (Elt F) ((c : Thread nD τ).loc b) := fun c b => X2 m c b
/-- After item 2, the host stretch `hostOps1`. -/
def X3 (c : Dev nD) : Valuation τ sig (Elt F) := StableHlo.after hostOps1 (X2 m c)
abbrev E3 : (c : Dev nD) → (b : Ref sig .tc) → Buf (Elt F) ((c : Thread nD τ).loc b) := fun c b => X3 m c b
/-- After item 3, launch 1: `main_v11` holds what the launch's write-backs leave, every other buffer is as entered. -/
def X4 (c : Dev nD) : Valuation τ sig (Elt F) :=
  Function.update (X3 m c) main_v11 ((dat1 (E3 m) c).arrAt 3 cfg1.N)
abbrev E4 : (c : Dev nD) → (b : Ref sig .tc) → Buf (Elt F) ((c : Thread nD τ).loc b) := fun c b => X4 m c b
/-- After item 4, the host stretch `hostOps2`. -/
def X5 (c : Dev nD) : Valuation τ sig (Elt F) := StableHlo.after hostOps2 (X4 m c)
abbrev E5 : (c : Dev nD) → (b : Ref sig .tc) → Buf (Elt F) ((c : Thread nD τ).loc b) := fun c b => X5 m c b
/-- After item 5, launch 2: `main_v17` holds what the launch's write-backs leave, every other buffer is as entered. -/
def X6 (c : Dev nD) : Valuation τ sig (Elt F) :=
  Function.update (X5 m c) main_v17 ((dat2 (E5 m) c).arrAt 3 cfg2.N)
abbrev E6 : (c : Dev nD) → (b : Ref sig .tc) → Buf (Elt F) ((c : Thread nD τ).loc b) := fun c b => X6 m c b
/-- After item 6, the host stretch `hostOps3`. -/
def X7 (c : Dev nD) : Valuation τ sig (Elt F) := StableHlo.after hostOps3 (X6 m c)
abbrev E7 : (c : Dev nD) → (b : Ref sig .tc) → Buf (Elt F) ((c : Thread nD τ).loc b) := fun c b => X7 m c b
/-- After item 7, launch 3: `main_v23` holds what the launch's write-backs leave, every other buffer is as entered. -/
def X8 (c : Dev nD) : Valuation τ sig (Elt F) :=
  Function.update (X7 m c) main_v23 ((dat3 (E7 m) c).arrAt 3 cfg3.N)
abbrev E8 : (c : Dev nD) → (b : Ref sig .tc) → Buf (Elt F) ((c : Thread nD τ).loc b) := fun c b => X8 m c b
/-- After item 8, the host stretch `hostOps4`. -/
def X9 (c : Dev nD) : Valuation τ sig (Elt F) := StableHlo.after hostOps4 (X8 m c)
abbrev E9 : (c : Dev nD) → (b : Ref sig .tc) → Buf (Elt F) ((c : Thread nD τ).loc b) := fun c b => X9 m c b
/-- After item 9, the host stretch `hostOps4_1`. -/
def X10 (c : Dev nD) : Valuation τ sig (Elt F) := StableHlo.after hostOps4_1 (X9 m c)
abbrev E10 : (c : Dev nD) → (b : Ref sig .tc) → Buf (Elt F) ((c : Thread nD τ).loc b) := fun c b => X10 m c b
/-- After item 10, the host stretch `hostOps4_2`. -/
def X11 (c : Dev nD) : Valuation τ sig (Elt F) := StableHlo.after hostOps4_2 (X10 m c)
abbrev E11 : (c : Dev nD) → (b : Ref sig .tc) → Buf (Elt F) ((c : Thread nD τ).loc b) := fun c b => X11 m c b
/-- After item 11, the host stretch `hostOps4_3`. -/
def X12 (c : Dev nD) : Valuation τ sig (Elt F) := StableHlo.after hostOps4_3 (X11 m c)
abbrev E12 : (c : Dev nD) → (b : Ref sig .tc) → Buf (Elt F) ((c : Thread nD τ).loc b) := fun c b => X12 m c b
/-- After item 12, the host stretch `hostOps4_4`. -/
def X13 (c : Dev nD) : Valuation τ sig (Elt F) := StableHlo.after hostOps4_4 (X12 m c)
abbrev E13 : (c : Dev nD) → (b : Ref sig .tc) → Buf (Elt F) ((c : Thread nD τ).loc b) := fun c b => X13 m c b
/-- After item 13, the host stretch `hostOps4_5`. -/
def X14 (c : Dev nD) : Valuation τ sig (Elt F) := StableHlo.after hostOps4_5 (X13 m c)
abbrev E14 : (c : Dev nD) → (b : Ref sig .tc) → Buf (Elt F) ((c : Thread nD τ).loc b) := fun c b => X14 m c b
/-- After item 14, the host stretch `hostOps4_6`. -/
def X15 (c : Dev nD) : Valuation τ sig (Elt F) := StableHlo.after hostOps4_6 (X14 m c)
abbrev E15 : (c : Dev nD) → (b : Ref sig .tc) → Buf (Elt F) ((c : Thread nD τ).loc b) := fun c b => X15 m c b
/-- After item 15, the host stretch `hostOps4_7`. -/
def X16 (c : Dev nD) : Valuation τ sig (Elt F) := StableHlo.after hostOps4_7 (X15 m c)
abbrev E16 : (c : Dev nD) → (b : Ref sig .tc) → Buf (Elt F) ((c : Thread nD τ).loc b) := fun c b => X16 m c b
/-- After item 16, the host stretch `hostOps4_8`. -/
def X17 (c : Dev nD) : Valuation τ sig (Elt F) := StableHlo.after hostOps4_8 (X16 m c)
abbrev E17 : (c : Dev nD) → (b : Ref sig .tc) → Buf (Elt F) ((c : Thread nD τ).loc b) := fun c b => X17 m c b
/-- After item 17, the host stretch `hostOps4_9`. -/
def X18 (c : Dev nD) : Valuation τ sig (Elt F) := StableHlo.after hostOps4_9 (X17 m c)
abbrev E18 : (c : Dev nD) → (b : Ref sig .tc) → Buf (Elt F) ((c : Thread nD τ).loc b) := fun c b => X18 m c b
/-- After item 18, the host stretch `hostOps4_10`. -/
def X19 (c : Dev nD) : Valuation τ sig (Elt F) := StableHlo.after hostOps4_10 (X18 m c)
abbrev E19 : (c : Dev nD) → (b : Ref sig .tc) → Buf (Elt F) ((c : Thread nD τ).loc b) := fun c b => X19 m c b
/-- After item 19, the host stretch `hostOps4_11`. -/
def X20 (c : Dev nD) : Valuation τ sig (Elt F) := StableHlo.after hostOps4_11 (X19 m c)
abbrev E20 : (c : Dev nD) → (b : Ref sig .tc) → Buf (Elt F) ((c : Thread nD τ).loc b) := fun c b => X20 m c b
/-- After item 20, the host stretch `hostOps4_12`. -/
def X21 (c : Dev nD) : Valuation τ sig (Elt F) := StableHlo.after hostOps4_12 (X20 m c)
abbrev E21 : (c : Dev nD) → (b : Ref sig .tc) → Buf (Elt F) ((c : Thread nD τ).loc b) := fun c b => X21 m c b
/-- After item 21, the host stretch `hostOps4_13`. -/
def X22 (c : Dev nD) : Valuation τ sig (Elt F) := StableHlo.after hostOps4_13 (X21 m c)
abbrev E22 : (c : Dev nD) → (b : Ref sig .tc) → Buf (Elt F) ((c : Thread nD τ).loc b) := fun c b => X22 m c b
/-- After item 22, the host stretch `hostOps4_14`. -/
def X23 (c : Dev nD) : Valuation τ sig (Elt F) := StableHlo.after hostOps4_14 (X22 m c)
abbrev E23 : (c : Dev nD) → (b : Ref sig .tc) → Buf (Elt F) ((c : Thread nD τ).loc b) := fun c b => X23 m c b
/-- After item 23, the host stretch `hostOps4_15`. -/
def X24 (c : Dev nD) : Valuation τ sig (Elt F) := StableHlo.after hostOps4_15 (X23 m c)
abbrev E24 : (c : Dev nD) → (b : Ref sig .tc) → Buf (Elt F) ((c : Thread nD τ).loc b) := fun c b => X24 m c b
/-- After item 24, the host stretch `hostOps4_16`. -/
def X25 (c : Dev nD) : Valuation τ sig (Elt F) := StableHlo.after hostOps4_16 (X24 m c)
abbrev E25 : (c : Dev nD) → (b : Ref sig .tc) → Buf (Elt F) ((c : Thread nD τ).loc b) := fun c b => X25 m c b
/-- After item 25, the host stretch `hostOps4_17`. -/
def X26 (c : Dev nD) : Valuation τ sig (Elt F) := StableHlo.after hostOps4_17 (X25 m c)
abbrev E26 : (c : Dev nD) → (b : Ref sig .tc) → Buf (Elt F) ((c : Thread nD τ).loc b) := fun c b => X26 m c b
/-- After item 26, the host stretch `hostOps4_18`. -/
def X27 (c : Dev nD) : Valuation τ sig (Elt F) := StableHlo.after hostOps4_18 (X26 m c)
abbrev E27 : (c : Dev nD) → (b : Ref sig .tc) → Buf (Elt F) ((c : Thread nD τ).loc b) := fun c b => X27 m c b
/-- After item 27, the host stretch `hostOps4_19`. -/
def X28 (c : Dev nD) : Valuation τ sig (Elt F) := StableHlo.after hostOps4_19 (X27 m c)
abbrev E28 : (c : Dev nD) → (b : Ref sig .tc) → Buf (Elt F) ((c : Thread nD τ).loc b) := fun c b => X28 m c b
/-- After item 28, the host stretch `hostOps4_20`. -/
def X29 (c : Dev nD) : Valuation τ sig (Elt F) := StableHlo.after hostOps4_20 (X28 m c)
abbrev E29 : (c : Dev nD) → (b : Ref sig .tc) → Buf (Elt F) ((c : Thread nD τ).loc b) := fun c b => X29 m c b
/-- After item 29, launch 4: `main_v122` holds what the launch's write-backs leave, every other buffer is as entered. -/
def X30 (c : Dev nD) : Valuation τ sig (Elt F) :=
  Function.update (X29 m c) main_v122 ((dat4 (E29 m) c).arrAt 4 cfg4.N)
abbrev E30 : (c : Dev nD) → (b : Ref sig .tc) → Buf (Elt F) ((c : Thread nD τ).loc b) := fun c b => X30 m c b
/-- After item 30, the host stretch `hostOps5`. -/
def X31 (c : Dev nD) : Valuation τ sig (Elt F) := StableHlo.after hostOps5 (X30 m c)
abbrev E31 : (c : Dev nD) → (b : Ref sig .tc) → Buf (Elt F) ((c : Thread nD τ).loc b) := fun c b => X31 m c b
/-- After item 31, launch 5: `main_v147` holds what the launch's write-backs leave, every other buffer is as entered. -/
def X32 (c : Dev nD) : Valuation τ sig (Elt F) :=
  Function.update (X31 m c) main_v147 ((dat5 (E31 m) c).arrAt 4 cfg5.N)
abbrev E32 : (c : Dev nD) → (b : Ref sig .tc) → Buf (Elt F) ((c : Thread nD τ).loc b) := fun c b => X32 m c b
/-- After item 32, the host stretch `hostOps6`. -/
def X33 (c : Dev nD) : Valuation τ sig (Elt F) := StableHlo.after hostOps6 (X32 m c)
abbrev E33 : (c : Dev nD) → (b : Ref sig .tc) → Buf (Elt F) ((c : Thread nD τ).loc b) := fun c b => X33 m c b
/-- After item 33, launch 6: `main_v172` holds what the launch's write-backs leave, every other buffer is as entered. -/
def X34 (c : Dev nD) : Valuation τ sig (Elt F) :=
  Function.update (X33 m c) main_v172 ((dat6 (E33 m) c).arrAt 4 cfg6.N)
abbrev E34 : (c : Dev nD) → (b : Ref sig .tc) → Buf (Elt F) ((c : Thread nD τ).loc b) := fun c b => X34 m c b
/-- After item 34, the host stretch `hostOps7`. -/
def X35 (c : Dev nD) : Valuation τ sig (Elt F) := StableHlo.after hostOps7 (X34 m c)
abbrev E35 : (c : Dev nD) → (b : Ref sig .tc) → Buf (Elt F) ((c : Thread nD τ).loc b) := fun c b => X35 m c b
/-- After item 35, launch 7: `main_v197` holds what the launch's write-backs leave, every other buffer is as entered. -/
def X36 (c : Dev nD) : Valuation τ sig (Elt F) :=
  Function.update (X35 m c) main_v197 ((dat7 (E35 m) c).arrAt 4 cfg7.N)
abbrev E36 : (c : Dev nD) → (b : Ref sig .tc) → Buf (Elt F) ((c : Thread nD τ).loc b) := fun c b => X36 m c b
/-- After item 36, the host stretch `hostOps8`. -/
def X37 (c : Dev nD) : Valuation τ sig (Elt F) := StableHlo.after hostOps8 (X36 m c)
abbrev E37 : (c : Dev nD) → (b : Ref sig .tc) → Buf (Elt F) ((c : Thread nD τ).loc b) := fun c b => X37 m c b
/-- After item 37, launch 8: `main_v222` holds what the launch's write-backs leave, every other buffer is as entered. -/
def X38 (c : Dev nD) : Valuation τ sig (Elt F) :=
  Function.update (X37 m c) main_v222 ((dat8 (E37 m) c).arrAt 4 cfg8.N)
abbrev E38 : (c : Dev nD) → (b : Ref sig .tc) → Buf (Elt F) ((c : Thread nD τ).loc b) := fun c b => X38 m c b
/-- After item 38, the host stretch `hostOps9`. -/
def X39 (c : Dev nD) : Valuation τ sig (Elt F) := StableHlo.after hostOps9 (X38 m c)
abbrev E39 : (c : Dev nD) → (b : Ref sig .tc) → Buf (Elt F) ((c : Thread nD τ).loc b) := fun c b => X39 m c b
/-- After item 39, launch 9: `main_v259` holds what the launch's write-backs leave, every other buffer is as entered. -/
def X40 (c : Dev nD) : Valuation τ sig (Elt F) :=
  Function.update (X39 m c) main_v259 ((dat9 (E39 m) c).arrAt 4 cfg9.N)
abbrev E40 : (c : Dev nD) → (b : Ref sig .tc) → Buf (Elt F) ((c : Thread nD τ).loc b) := fun c b => X40 m c b
/-- After item 40, the host stretch `hostOps10`. -/
def X41 (c : Dev nD) : Valuation τ sig (Elt F) := StableHlo.after hostOps10 (X40 m c)
abbrev E41 : (c : Dev nD) → (b : Ref sig .tc) → Buf (Elt F) ((c : Thread nD τ).loc b) := fun c b => X41 m c b
/-- After item 41, launch 10: `main_v284` holds what the launch's write-backs leave, every other buffer is as entered. -/
def X42 (c : Dev nD) : Valuation τ sig (Elt F) :=
  Function.update (X41 m c) main_v284 ((dat10 (E41 m) c).arrAt 4 cfg10.N)
abbrev E42 : (c : Dev nD) → (b : Ref sig .tc) → Buf (Elt F) ((c : Thread nD τ).loc b) := fun c b => X42 m c b
/-- After item 42, the host stretch `hostOps11`. -/
def X43 (c : Dev nD) : Valuation τ sig (Elt F) := StableHlo.after hostOps11 (X42 m c)
abbrev E43 : (c : Dev nD) → (b : Ref sig .tc) → Buf (Elt F) ((c : Thread nD τ).loc b) := fun c b => X43 m c b
/-- After item 43, launch 11: `main_v309` holds what the launch's write-backs leave, every other buffer is as entered. -/
def X44 (c : Dev nD) : Valuation τ sig (Elt F) :=
  Function.update (X43 m c) main_v309 ((dat11 (E43 m) c).arrAt 4 cfg11.N)
abbrev E44 : (c : Dev nD) → (b : Ref sig .tc) → Buf (Elt F) ((c : Thread nD τ).loc b) := fun c b => X44 m c b
/-- After item 44, the host stretch `hostOps12`. -/
def X45 (c : Dev nD) : Valuation τ sig (Elt F) := StableHlo.after hostOps12 (X44 m c)
abbrev E45 : (c : Dev nD) → (b : Ref sig .tc) → Buf (Elt F) ((c : Thread nD τ).loc b) := fun c b => X45 m c b
/-- After item 45, launch 12: `main_v334` holds what the launch's write-backs leave, every other buffer is as entered. -/
def X46 (c : Dev nD) : Valuation τ sig (Elt F) :=
  Function.update (X45 m c) main_v334 ((dat12 (E45 m) c).arrAt 4 cfg12.N)
abbrev E46 : (c : Dev nD) → (b : Ref sig .tc) → Buf (Elt F) ((c : Thread nD τ).loc b) := fun c b => X46 m c b
/-- After item 46, the host stretch `hostOps13`. -/
def X47 (c : Dev nD) : Valuation τ sig (Elt F) := StableHlo.after hostOps13 (X46 m c)
abbrev E47 : (c : Dev nD) → (b : Ref sig .tc) → Buf (Elt F) ((c : Thread nD τ).loc b) := fun c b => X47 m c b
/-- After item 47, launch 13: `main_v359` holds what the launch's write-backs leave, every other buffer is as entered. -/
def X48 (c : Dev nD) : Valuation τ sig (Elt F) :=
  Function.update (X47 m c) main_v359 ((dat13 (E47 m) c).arrAt 4 cfg13.N)
abbrev E48 : (c : Dev nD) → (b : Ref sig .tc) → Buf (Elt F) ((c : Thread nD τ).loc b) := fun c b => X48 m c b
/-- After item 48, the host stretch `hostOps14`. -/
def X49 (c : Dev nD) : Valuation τ sig (Elt F) := StableHlo.after hostOps14 (X48 m c)
abbrev E49 : (c : Dev nD) → (b : Ref sig .tc) → Buf (Elt F) ((c : Thread nD τ).loc b) := fun c b => X49 m c b

/-- What the launches leave, as the conditional frame's table of unknown contents: `outsX J r c` is `r`'s contents after item J−1. -/
def outsX : Outs (F := F) := fun J r c => match J with
  | 2 => X2 m c r
  | 4 => X4 m c r
  | 6 => X6 m c r
  | 8 => X8 m c r
  | 30 => X30 m c r
  | 32 => X32 m c r
  | 34 => X34 m c r
  | 36 => X36 m c r
  | 38 => X38 m c r
  | 40 => X40 m c r
  | 42 => X42 m c r
  | 44 => X44 m c r
  | 46 => X46 m c r
  | 48 => X48 m c r
  | _ => X0 m c r

theorem V0_eq (c : Dev nD) : V0 m c = X0 m c := rfl
theorem V1_eq (c : Dev nD) : V1 m c = X1 m c := by
  show StableHlo.after hostOps0 (V0 m c) = _
  rw [V0_eq]; rfl
theorem V2_eq (c : Dev nD) : V2 m (outsX m) c = X2 m c := by
  show Function.update (V1 m c) main_v5 (X2 m c main_v5) = _
  rw [V1_eq]
  unfold X2
  rw [Function.update_self]
theorem V3_eq (c : Dev nD) : V3 m (outsX m) c = X3 m c := by
  show StableHlo.after hostOps1 (V2 m (outsX m) c) = _
  rw [V2_eq]; rfl
theorem V4_eq (c : Dev nD) : V4 m (outsX m) c = X4 m c := by
  show Function.update (V3 m (outsX m) c) main_v11 (X4 m c main_v11) = _
  rw [V3_eq]
  unfold X4
  rw [Function.update_self]
theorem V5_eq (c : Dev nD) : V5 m (outsX m) c = X5 m c := by
  show StableHlo.after hostOps2 (V4 m (outsX m) c) = _
  rw [V4_eq]; rfl
theorem V6_eq (c : Dev nD) : V6 m (outsX m) c = X6 m c := by
  show Function.update (V5 m (outsX m) c) main_v17 (X6 m c main_v17) = _
  rw [V5_eq]
  unfold X6
  rw [Function.update_self]
theorem V7_eq (c : Dev nD) : V7 m (outsX m) c = X7 m c := by
  show StableHlo.after hostOps3 (V6 m (outsX m) c) = _
  rw [V6_eq]; rfl
theorem V8_eq (c : Dev nD) : V8 m (outsX m) c = X8 m c := by
  show Function.update (V7 m (outsX m) c) main_v23 (X8 m c main_v23) = _
  rw [V7_eq]
  unfold X8
  rw [Function.update_self]
theorem V9_eq (c : Dev nD) : V9 m (outsX m) c = X9 m c := by
  show StableHlo.after hostOps4 (V8 m (outsX m) c) = _
  rw [V8_eq]; rfl
theorem V10_eq (c : Dev nD) : V10 m (outsX m) c = X10 m c := by
  show StableHlo.after hostOps4_1 (V9 m (outsX m) c) = _
  rw [V9_eq]; rfl
theorem V11_eq (c : Dev nD) : V11 m (outsX m) c = X11 m c := by
  show StableHlo.after hostOps4_2 (V10 m (outsX m) c) = _
  rw [V10_eq]; rfl
theorem V12_eq (c : Dev nD) : V12 m (outsX m) c = X12 m c := by
  show StableHlo.after hostOps4_3 (V11 m (outsX m) c) = _
  rw [V11_eq]; rfl
theorem V13_eq (c : Dev nD) : V13 m (outsX m) c = X13 m c := by
  show StableHlo.after hostOps4_4 (V12 m (outsX m) c) = _
  rw [V12_eq]; rfl
theorem V14_eq (c : Dev nD) : V14 m (outsX m) c = X14 m c := by
  show StableHlo.after hostOps4_5 (V13 m (outsX m) c) = _
  rw [V13_eq]; rfl
theorem V15_eq (c : Dev nD) : V15 m (outsX m) c = X15 m c := by
  show StableHlo.after hostOps4_6 (V14 m (outsX m) c) = _
  rw [V14_eq]; rfl
theorem V16_eq (c : Dev nD) : V16 m (outsX m) c = X16 m c := by
  show StableHlo.after hostOps4_7 (V15 m (outsX m) c) = _
  rw [V15_eq]; rfl
theorem V17_eq (c : Dev nD) : V17 m (outsX m) c = X17 m c := by
  show StableHlo.after hostOps4_8 (V16 m (outsX m) c) = _
  rw [V16_eq]; rfl
theorem V18_eq (c : Dev nD) : V18 m (outsX m) c = X18 m c := by
  show StableHlo.after hostOps4_9 (V17 m (outsX m) c) = _
  rw [V17_eq]; rfl
theorem V19_eq (c : Dev nD) : V19 m (outsX m) c = X19 m c := by
  show StableHlo.after hostOps4_10 (V18 m (outsX m) c) = _
  rw [V18_eq]; rfl
theorem V20_eq (c : Dev nD) : V20 m (outsX m) c = X20 m c := by
  show StableHlo.after hostOps4_11 (V19 m (outsX m) c) = _
  rw [V19_eq]; rfl
theorem V21_eq (c : Dev nD) : V21 m (outsX m) c = X21 m c := by
  show StableHlo.after hostOps4_12 (V20 m (outsX m) c) = _
  rw [V20_eq]; rfl
theorem V22_eq (c : Dev nD) : V22 m (outsX m) c = X22 m c := by
  show StableHlo.after hostOps4_13 (V21 m (outsX m) c) = _
  rw [V21_eq]; rfl
theorem V23_eq (c : Dev nD) : V23 m (outsX m) c = X23 m c := by
  show StableHlo.after hostOps4_14 (V22 m (outsX m) c) = _
  rw [V22_eq]; rfl
theorem V24_eq (c : Dev nD) : V24 m (outsX m) c = X24 m c := by
  show StableHlo.after hostOps4_15 (V23 m (outsX m) c) = _
  rw [V23_eq]; rfl
theorem V25_eq (c : Dev nD) : V25 m (outsX m) c = X25 m c := by
  show StableHlo.after hostOps4_16 (V24 m (outsX m) c) = _
  rw [V24_eq]; rfl
theorem V26_eq (c : Dev nD) : V26 m (outsX m) c = X26 m c := by
  show StableHlo.after hostOps4_17 (V25 m (outsX m) c) = _
  rw [V25_eq]; rfl
theorem V27_eq (c : Dev nD) : V27 m (outsX m) c = X27 m c := by
  show StableHlo.after hostOps4_18 (V26 m (outsX m) c) = _
  rw [V26_eq]; rfl
theorem V28_eq (c : Dev nD) : V28 m (outsX m) c = X28 m c := by
  show StableHlo.after hostOps4_19 (V27 m (outsX m) c) = _
  rw [V27_eq]; rfl
theorem V29_eq (c : Dev nD) : V29 m (outsX m) c = X29 m c := by
  show StableHlo.after hostOps4_20 (V28 m (outsX m) c) = _
  rw [V28_eq]; rfl
theorem V30_eq (c : Dev nD) : V30 m (outsX m) c = X30 m c := by
  show Function.update (V29 m (outsX m) c) main_v122 (X30 m c main_v122) = _
  rw [V29_eq]
  unfold X30
  rw [Function.update_self]
theorem V31_eq (c : Dev nD) : V31 m (outsX m) c = X31 m c := by
  show StableHlo.after hostOps5 (V30 m (outsX m) c) = _
  rw [V30_eq]; rfl
theorem V32_eq (c : Dev nD) : V32 m (outsX m) c = X32 m c := by
  show Function.update (V31 m (outsX m) c) main_v147 (X32 m c main_v147) = _
  rw [V31_eq]
  unfold X32
  rw [Function.update_self]
theorem V33_eq (c : Dev nD) : V33 m (outsX m) c = X33 m c := by
  show StableHlo.after hostOps6 (V32 m (outsX m) c) = _
  rw [V32_eq]; rfl
theorem V34_eq (c : Dev nD) : V34 m (outsX m) c = X34 m c := by
  show Function.update (V33 m (outsX m) c) main_v172 (X34 m c main_v172) = _
  rw [V33_eq]
  unfold X34
  rw [Function.update_self]
theorem V35_eq (c : Dev nD) : V35 m (outsX m) c = X35 m c := by
  show StableHlo.after hostOps7 (V34 m (outsX m) c) = _
  rw [V34_eq]; rfl
theorem V36_eq (c : Dev nD) : V36 m (outsX m) c = X36 m c := by
  show Function.update (V35 m (outsX m) c) main_v197 (X36 m c main_v197) = _
  rw [V35_eq]
  unfold X36
  rw [Function.update_self]
theorem V37_eq (c : Dev nD) : V37 m (outsX m) c = X37 m c := by
  show StableHlo.after hostOps8 (V36 m (outsX m) c) = _
  rw [V36_eq]; rfl
theorem V38_eq (c : Dev nD) : V38 m (outsX m) c = X38 m c := by
  show Function.update (V37 m (outsX m) c) main_v222 (X38 m c main_v222) = _
  rw [V37_eq]
  unfold X38
  rw [Function.update_self]
theorem V39_eq (c : Dev nD) : V39 m (outsX m) c = X39 m c := by
  show StableHlo.after hostOps9 (V38 m (outsX m) c) = _
  rw [V38_eq]; rfl
theorem V40_eq (c : Dev nD) : V40 m (outsX m) c = X40 m c := by
  show Function.update (V39 m (outsX m) c) main_v259 (X40 m c main_v259) = _
  rw [V39_eq]
  unfold X40
  rw [Function.update_self]
theorem V41_eq (c : Dev nD) : V41 m (outsX m) c = X41 m c := by
  show StableHlo.after hostOps10 (V40 m (outsX m) c) = _
  rw [V40_eq]; rfl
theorem V42_eq (c : Dev nD) : V42 m (outsX m) c = X42 m c := by
  show Function.update (V41 m (outsX m) c) main_v284 (X42 m c main_v284) = _
  rw [V41_eq]
  unfold X42
  rw [Function.update_self]
theorem V43_eq (c : Dev nD) : V43 m (outsX m) c = X43 m c := by
  show StableHlo.after hostOps11 (V42 m (outsX m) c) = _
  rw [V42_eq]; rfl
theorem V44_eq (c : Dev nD) : V44 m (outsX m) c = X44 m c := by
  show Function.update (V43 m (outsX m) c) main_v309 (X44 m c main_v309) = _
  rw [V43_eq]
  unfold X44
  rw [Function.update_self]
theorem V45_eq (c : Dev nD) : V45 m (outsX m) c = X45 m c := by
  show StableHlo.after hostOps12 (V44 m (outsX m) c) = _
  rw [V44_eq]; rfl
theorem V46_eq (c : Dev nD) : V46 m (outsX m) c = X46 m c := by
  show Function.update (V45 m (outsX m) c) main_v334 (X46 m c main_v334) = _
  rw [V45_eq]
  unfold X46
  rw [Function.update_self]
theorem V47_eq (c : Dev nD) : V47 m (outsX m) c = X47 m c := by
  show StableHlo.after hostOps13 (V46 m (outsX m) c) = _
  rw [V46_eq]; rfl
theorem V48_eq (c : Dev nD) : V48 m (outsX m) c = X48 m c := by
  show Function.update (V47 m (outsX m) c) main_v359 (X48 m c main_v359) = _
  rw [V47_eq]
  unfold X48
  rw [Function.update_self]
theorem V49_eq (c : Dev nD) : V49 m (outsX m) c = X49 m c := by
  show StableHlo.after hostOps14 (V48 m (outsX m) c) = _
  rw [V48_eq]; rfl

/-! What each item leaves unchanged, over the contents defined here. -/

theorem X1_of (c : Dev nD) (r : Ref sig .tc) (h : r ∉ hostOps0_W) : X1 m c r = X0 m c r := by
  rw [← V1_eq, ← V0_eq]; exact V1_of m c r h
theorem X2_of (c : Dev nD) (r : Ref sig .tc) (h : r ∉ ([main_v5] : List (Ref sig .tc))) : X2 m c r = X1 m c r := by
  rw [← V2_eq, ← V1_eq]; exact V2_of m (outsX m) c r h
theorem X2_out (c : Dev nD) : X2 m c main_v5 = (dat0 (E1 m) c).arrAt 3 cfg0.N := by
  unfold X2; rw [Function.update_self]
theorem X3_of (c : Dev nD) (r : Ref sig .tc) (h : r ∉ hostOps1_W) : X3 m c r = X2 m c r := by
  rw [← V3_eq, ← V2_eq]; exact V3_of m (outsX m) c r h
theorem X4_of (c : Dev nD) (r : Ref sig .tc) (h : r ∉ ([main_v11] : List (Ref sig .tc))) : X4 m c r = X3 m c r := by
  rw [← V4_eq, ← V3_eq]; exact V4_of m (outsX m) c r h
theorem X4_out (c : Dev nD) : X4 m c main_v11 = (dat1 (E3 m) c).arrAt 3 cfg1.N := by
  unfold X4; rw [Function.update_self]
theorem X5_of (c : Dev nD) (r : Ref sig .tc) (h : r ∉ hostOps2_W) : X5 m c r = X4 m c r := by
  rw [← V5_eq, ← V4_eq]; exact V5_of m (outsX m) c r h
theorem X6_of (c : Dev nD) (r : Ref sig .tc) (h : r ∉ ([main_v17] : List (Ref sig .tc))) : X6 m c r = X5 m c r := by
  rw [← V6_eq, ← V5_eq]; exact V6_of m (outsX m) c r h
theorem X6_out (c : Dev nD) : X6 m c main_v17 = (dat2 (E5 m) c).arrAt 3 cfg2.N := by
  unfold X6; rw [Function.update_self]
theorem X7_of (c : Dev nD) (r : Ref sig .tc) (h : r ∉ hostOps3_W) : X7 m c r = X6 m c r := by
  rw [← V7_eq, ← V6_eq]; exact V7_of m (outsX m) c r h
theorem X8_of (c : Dev nD) (r : Ref sig .tc) (h : r ∉ ([main_v23] : List (Ref sig .tc))) : X8 m c r = X7 m c r := by
  rw [← V8_eq, ← V7_eq]; exact V8_of m (outsX m) c r h
theorem X8_out (c : Dev nD) : X8 m c main_v23 = (dat3 (E7 m) c).arrAt 3 cfg3.N := by
  unfold X8; rw [Function.update_self]
theorem X9_of (c : Dev nD) (r : Ref sig .tc) (h : r ∉ hostOps4_W) : X9 m c r = X8 m c r := by
  rw [← V9_eq, ← V8_eq]; exact V9_of m (outsX m) c r h
theorem X10_of (c : Dev nD) (r : Ref sig .tc) (h : r ∉ hostOps4_1_W) : X10 m c r = X9 m c r := by
  rw [← V10_eq, ← V9_eq]; exact V10_of m (outsX m) c r h
theorem X11_of (c : Dev nD) (r : Ref sig .tc) (h : r ∉ hostOps4_2_W) : X11 m c r = X10 m c r := by
  rw [← V11_eq, ← V10_eq]; exact V11_of m (outsX m) c r h
theorem X12_of (c : Dev nD) (r : Ref sig .tc) (h : r ∉ hostOps4_3_W) : X12 m c r = X11 m c r := by
  rw [← V12_eq, ← V11_eq]; exact V12_of m (outsX m) c r h
theorem X13_of (c : Dev nD) (r : Ref sig .tc) (h : r ∉ hostOps4_4_W) : X13 m c r = X12 m c r := by
  rw [← V13_eq, ← V12_eq]; exact V13_of m (outsX m) c r h
theorem X14_of (c : Dev nD) (r : Ref sig .tc) (h : r ∉ hostOps4_5_W) : X14 m c r = X13 m c r := by
  rw [← V14_eq, ← V13_eq]; exact V14_of m (outsX m) c r h
theorem X15_of (c : Dev nD) (r : Ref sig .tc) (h : r ∉ hostOps4_6_W) : X15 m c r = X14 m c r := by
  rw [← V15_eq, ← V14_eq]; exact V15_of m (outsX m) c r h
theorem X16_of (c : Dev nD) (r : Ref sig .tc) (h : r ∉ hostOps4_7_W) : X16 m c r = X15 m c r := by
  rw [← V16_eq, ← V15_eq]; exact V16_of m (outsX m) c r h
theorem X17_of (c : Dev nD) (r : Ref sig .tc) (h : r ∉ hostOps4_8_W) : X17 m c r = X16 m c r := by
  rw [← V17_eq, ← V16_eq]; exact V17_of m (outsX m) c r h
theorem X18_of (c : Dev nD) (r : Ref sig .tc) (h : r ∉ hostOps4_9_W) : X18 m c r = X17 m c r := by
  rw [← V18_eq, ← V17_eq]; exact V18_of m (outsX m) c r h
theorem X19_of (c : Dev nD) (r : Ref sig .tc) (h : r ∉ hostOps4_10_W) : X19 m c r = X18 m c r := by
  rw [← V19_eq, ← V18_eq]; exact V19_of m (outsX m) c r h
theorem X20_of (c : Dev nD) (r : Ref sig .tc) (h : r ∉ hostOps4_11_W) : X20 m c r = X19 m c r := by
  rw [← V20_eq, ← V19_eq]; exact V20_of m (outsX m) c r h
theorem X21_of (c : Dev nD) (r : Ref sig .tc) (h : r ∉ hostOps4_12_W) : X21 m c r = X20 m c r := by
  rw [← V21_eq, ← V20_eq]; exact V21_of m (outsX m) c r h
theorem X22_of (c : Dev nD) (r : Ref sig .tc) (h : r ∉ hostOps4_13_W) : X22 m c r = X21 m c r := by
  rw [← V22_eq, ← V21_eq]; exact V22_of m (outsX m) c r h
theorem X23_of (c : Dev nD) (r : Ref sig .tc) (h : r ∉ hostOps4_14_W) : X23 m c r = X22 m c r := by
  rw [← V23_eq, ← V22_eq]; exact V23_of m (outsX m) c r h
theorem X24_of (c : Dev nD) (r : Ref sig .tc) (h : r ∉ hostOps4_15_W) : X24 m c r = X23 m c r := by
  rw [← V24_eq, ← V23_eq]; exact V24_of m (outsX m) c r h
theorem X25_of (c : Dev nD) (r : Ref sig .tc) (h : r ∉ hostOps4_16_W) : X25 m c r = X24 m c r := by
  rw [← V25_eq, ← V24_eq]; exact V25_of m (outsX m) c r h
theorem X26_of (c : Dev nD) (r : Ref sig .tc) (h : r ∉ hostOps4_17_W) : X26 m c r = X25 m c r := by
  rw [← V26_eq, ← V25_eq]; exact V26_of m (outsX m) c r h
theorem X27_of (c : Dev nD) (r : Ref sig .tc) (h : r ∉ hostOps4_18_W) : X27 m c r = X26 m c r := by
  rw [← V27_eq, ← V26_eq]; exact V27_of m (outsX m) c r h
theorem X28_of (c : Dev nD) (r : Ref sig .tc) (h : r ∉ hostOps4_19_W) : X28 m c r = X27 m c r := by
  rw [← V28_eq, ← V27_eq]; exact V28_of m (outsX m) c r h
theorem X29_of (c : Dev nD) (r : Ref sig .tc) (h : r ∉ hostOps4_20_W) : X29 m c r = X28 m c r := by
  rw [← V29_eq, ← V28_eq]; exact V29_of m (outsX m) c r h
theorem X30_of (c : Dev nD) (r : Ref sig .tc) (h : r ∉ ([main_v122] : List (Ref sig .tc))) : X30 m c r = X29 m c r := by
  rw [← V30_eq, ← V29_eq]; exact V30_of m (outsX m) c r h
theorem X30_out (c : Dev nD) : X30 m c main_v122 = (dat4 (E29 m) c).arrAt 4 cfg4.N := by
  unfold X30; rw [Function.update_self]
theorem X31_of (c : Dev nD) (r : Ref sig .tc) (h : r ∉ hostOps5_W) : X31 m c r = X30 m c r := by
  rw [← V31_eq, ← V30_eq]; exact V31_of m (outsX m) c r h
theorem X32_of (c : Dev nD) (r : Ref sig .tc) (h : r ∉ ([main_v147] : List (Ref sig .tc))) : X32 m c r = X31 m c r := by
  rw [← V32_eq, ← V31_eq]; exact V32_of m (outsX m) c r h
theorem X32_out (c : Dev nD) : X32 m c main_v147 = (dat5 (E31 m) c).arrAt 4 cfg5.N := by
  unfold X32; rw [Function.update_self]
theorem X33_of (c : Dev nD) (r : Ref sig .tc) (h : r ∉ hostOps6_W) : X33 m c r = X32 m c r := by
  rw [← V33_eq, ← V32_eq]; exact V33_of m (outsX m) c r h
theorem X34_of (c : Dev nD) (r : Ref sig .tc) (h : r ∉ ([main_v172] : List (Ref sig .tc))) : X34 m c r = X33 m c r := by
  rw [← V34_eq, ← V33_eq]; exact V34_of m (outsX m) c r h
theorem X34_out (c : Dev nD) : X34 m c main_v172 = (dat6 (E33 m) c).arrAt 4 cfg6.N := by
  unfold X34; rw [Function.update_self]
theorem X35_of (c : Dev nD) (r : Ref sig .tc) (h : r ∉ hostOps7_W) : X35 m c r = X34 m c r := by
  rw [← V35_eq, ← V34_eq]; exact V35_of m (outsX m) c r h
theorem X36_of (c : Dev nD) (r : Ref sig .tc) (h : r ∉ ([main_v197] : List (Ref sig .tc))) : X36 m c r = X35 m c r := by
  rw [← V36_eq, ← V35_eq]; exact V36_of m (outsX m) c r h
theorem X36_out (c : Dev nD) : X36 m c main_v197 = (dat7 (E35 m) c).arrAt 4 cfg7.N := by
  unfold X36; rw [Function.update_self]
theorem X37_of (c : Dev nD) (r : Ref sig .tc) (h : r ∉ hostOps8_W) : X37 m c r = X36 m c r := by
  rw [← V37_eq, ← V36_eq]; exact V37_of m (outsX m) c r h
theorem X38_of (c : Dev nD) (r : Ref sig .tc) (h : r ∉ ([main_v222] : List (Ref sig .tc))) : X38 m c r = X37 m c r := by
  rw [← V38_eq, ← V37_eq]; exact V38_of m (outsX m) c r h
theorem X38_out (c : Dev nD) : X38 m c main_v222 = (dat8 (E37 m) c).arrAt 4 cfg8.N := by
  unfold X38; rw [Function.update_self]
theorem X39_of (c : Dev nD) (r : Ref sig .tc) (h : r ∉ hostOps9_W) : X39 m c r = X38 m c r := by
  rw [← V39_eq, ← V38_eq]; exact V39_of m (outsX m) c r h
theorem X40_of (c : Dev nD) (r : Ref sig .tc) (h : r ∉ ([main_v259] : List (Ref sig .tc))) : X40 m c r = X39 m c r := by
  rw [← V40_eq, ← V39_eq]; exact V40_of m (outsX m) c r h
theorem X40_out (c : Dev nD) : X40 m c main_v259 = (dat9 (E39 m) c).arrAt 4 cfg9.N := by
  unfold X40; rw [Function.update_self]
theorem X41_of (c : Dev nD) (r : Ref sig .tc) (h : r ∉ hostOps10_W) : X41 m c r = X40 m c r := by
  rw [← V41_eq, ← V40_eq]; exact V41_of m (outsX m) c r h
theorem X42_of (c : Dev nD) (r : Ref sig .tc) (h : r ∉ ([main_v284] : List (Ref sig .tc))) : X42 m c r = X41 m c r := by
  rw [← V42_eq, ← V41_eq]; exact V42_of m (outsX m) c r h
theorem X42_out (c : Dev nD) : X42 m c main_v284 = (dat10 (E41 m) c).arrAt 4 cfg10.N := by
  unfold X42; rw [Function.update_self]
theorem X43_of (c : Dev nD) (r : Ref sig .tc) (h : r ∉ hostOps11_W) : X43 m c r = X42 m c r := by
  rw [← V43_eq, ← V42_eq]; exact V43_of m (outsX m) c r h
theorem X44_of (c : Dev nD) (r : Ref sig .tc) (h : r ∉ ([main_v309] : List (Ref sig .tc))) : X44 m c r = X43 m c r := by
  rw [← V44_eq, ← V43_eq]; exact V44_of m (outsX m) c r h
theorem X44_out (c : Dev nD) : X44 m c main_v309 = (dat11 (E43 m) c).arrAt 4 cfg11.N := by
  unfold X44; rw [Function.update_self]
theorem X45_of (c : Dev nD) (r : Ref sig .tc) (h : r ∉ hostOps12_W) : X45 m c r = X44 m c r := by
  rw [← V45_eq, ← V44_eq]; exact V45_of m (outsX m) c r h
theorem X46_of (c : Dev nD) (r : Ref sig .tc) (h : r ∉ ([main_v334] : List (Ref sig .tc))) : X46 m c r = X45 m c r := by
  rw [← V46_eq, ← V45_eq]; exact V46_of m (outsX m) c r h
theorem X46_out (c : Dev nD) : X46 m c main_v334 = (dat12 (E45 m) c).arrAt 4 cfg12.N := by
  unfold X46; rw [Function.update_self]
theorem X47_of (c : Dev nD) (r : Ref sig .tc) (h : r ∉ hostOps13_W) : X47 m c r = X46 m c r := by
  rw [← V47_eq, ← V46_eq]; exact V47_of m (outsX m) c r h
theorem X48_of (c : Dev nD) (r : Ref sig .tc) (h : r ∉ ([main_v359] : List (Ref sig .tc))) : X48 m c r = X47 m c r := by
  rw [← V48_eq, ← V47_eq]; exact V48_of m (outsX m) c r h
theorem X48_out (c : Dev nD) : X48 m c main_v359 = (dat13 (E47 m) c).arrAt 4 cfg13.N := by
  unfold X48; rw [Function.update_self]
theorem X49_of (c : Dev nD) (r : Ref sig .tc) (h : r ∉ hostOps14_W) : X49 m c r = X48 m c r := by
  rw [← V49_eq, ← V48_eq]; exact V49_of m (outsX m) c r h

/-! The thread state that rides beside the buffers through every item. -/

abbrev 𝒱₀ : Variants := Variants.none
/-- No core owes another anything: no level is assigned. -/
abbrev L : GSem nD τ sig → Finset Unit := fun _ => ∅
abbrev lv : GSem nD τ sig → Unit → ℕ := fun _ _ => 0
/-- The core's generator register at some state, and nothing owed. -/
abbrev R (c : Dev nD) : sProp (MT nD τ sig Unit (Elt F) ℕ (UR sig nD τ) ℕ) :=
  iprop((∃ r, prngReg c r) ∗ ∃ W, owes (c : Thread nD τ) (0 : CellTallies nD τ sig Unit) W)

/-- Every launch's proof data, each at the contents its launch is entered from. -/
def pdats : (p : Fin 14) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E29 m) c
  | ⟨5, _⟩ => fun c => dat5 (E31 m) c
  | ⟨6, _⟩ => fun c => dat6 (E33 m) c
  | ⟨7, _⟩ => fun c => dat7 (E35 m) c
  | ⟨8, _⟩ => fun c => dat8 (E37 m) c
  | ⟨9, _⟩ => fun c => dat9 (E39 m) c
  | ⟨10, _⟩ => fun c => dat10 (E41 m) c
  | ⟨11, _⟩ => fun c => dat11 (E43 m) c
  | ⟨12, _⟩ => fun c => dat12 (E45 m) c
  | ⟨13, _⟩ => fun c => dat13 (E47 m) c

end Cert.KernelIdeal.Hand

end
-- ==== Proof.KernelIdeal.Seg0.lean ====
/-
  Launch 0 as a segment of the program's run. The thread state between items is "every unscoped buffer held at the
  contents of that point, the generator register at some state, nothing owed". Entering the launch, its four arrays are split
  out of the unscoped buffers and the rest bypasses; leaving it, they are put back: the three inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF0 (c : Dev nD) (w : Fin cfg0.W) : (dat0 (E1 m) c).arrAt w cfg0.N = E2 m c (Pipeline.arrRef spec0 w) := by
  match w with
  | ⟨0, _⟩ => exact (((dat0 (E1 m) c).arrAt_in 0 rfl _).trans (A_eq0 (E1 m) c 0)).trans (X2_of m c _ (by decide)).symm
  | ⟨1, _⟩ => exact (((dat0 (E1 m) c).arrAt_in 1 rfl _).trans (A_eq0 (E1 m) c 1)).trans (X2_of m c _ (by decide)).symm
  | ⟨2, _⟩ => exact (((dat0 (E1 m) c).arrAt_in 2 rfl _).trans (A_eq0 (E1 m) c 2)).trans (X2_of m c _ (by decide)).symm
  | ⟨3, _⟩ => exact (X2_out m c).symm

set_option maxHeartbeats 2000000 in
/-- Every buffer that is none of the launch's arrays holds at the exit what it held at the entry. -/
theorem hrest0 (c : Dev nD) : ∀ b, b ∉ Finset.univ.image (Pipeline.arrRef spec0) → E2 m c b = E1 m c b :=
  fun b hb => X2_of m c b (fun h => hb (by
    rw [List.mem_singleton.mp h]; exact Finset.mem_image.mpr ⟨3, Finset.mem_univ _, rfl⟩))

set_option maxHeartbeats 2000000 in
set_option backward.isDefEq.respectTransparency.types false in
/-- The launch over the thread state: entered from every unscoped buffer at the entry contents, left at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg1.lean ====
/-
  Launch 1 as a segment of the program's run. The thread state between items is "every unscoped buffer held at the
  contents of that point, the generator register at some state, nothing owed". Entering the launch, its four arrays are split
  out of the unscoped buffers and the rest bypasses; leaving it, they are put back: the three inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF1 (c : Dev nD) (w : Fin cfg1.W) : (dat1 (E3 m) c).arrAt w cfg1.N = E4 m c (Pipeline.arrRef spec1 w) := by
  match w with
  | ⟨0, _⟩ => exact (((dat1 (E3 m) c).arrAt_in 0 rfl _).trans (A_eq1 (E3 m) c 0)).trans (X4_of m c _ (by decide)).symm
  | ⟨1, _⟩ => exact (((dat1 (E3 m) c).arrAt_in 1 rfl _).trans (A_eq1 (E3 m) c 1)).trans (X4_of m c _ (by decide)).symm
  | ⟨2, _⟩ => exact (((dat1 (E3 m) c).arrAt_in 2 rfl _).trans (A_eq1 (E3 m) c 2)).trans (X4_of m c _ (by decide)).symm
  | ⟨3, _⟩ => exact (X4_out m c).symm

set_option maxHeartbeats 2000000 in
/-- Every buffer that is none of the launch's arrays holds at the exit what it held at the entry. -/
theorem hrest1 (c : Dev nD) : ∀ b, b ∉ Finset.univ.image (Pipeline.arrRef spec1) → E4 m c b = E3 m c b :=
  fun b hb => X4_of m c b (fun h => hb (by
    rw [List.mem_singleton.mp h]; exact Finset.mem_image.mpr ⟨3, Finset.mem_univ _, rfl⟩))

set_option maxHeartbeats 2000000 in
set_option backward.isDefEq.respectTransparency.types false in
/-- The launch over the thread state: entered from every unscoped buffer at the entry contents, left at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg2.lean ====
/-
  Launch 2 as a segment of the program's run. The thread state between items is "every unscoped buffer held at the
  contents of that point, the generator register at some state, nothing owed". Entering the launch, its four arrays are split
  out of the unscoped buffers and the rest bypasses; leaving it, they are put back: the three inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF2 (c : Dev nD) (w : Fin cfg2.W) : (dat2 (E5 m) c).arrAt w cfg2.N = E6 m c (Pipeline.arrRef spec2 w) := by
  match w with
  | ⟨0, _⟩ => exact (((dat2 (E5 m) c).arrAt_in 0 rfl _).trans (A_eq2 (E5 m) c 0)).trans (X6_of m c _ (by decide)).symm
  | ⟨1, _⟩ => exact (((dat2 (E5 m) c).arrAt_in 1 rfl _).trans (A_eq2 (E5 m) c 1)).trans (X6_of m c _ (by decide)).symm
  | ⟨2, _⟩ => exact (((dat2 (E5 m) c).arrAt_in 2 rfl _).trans (A_eq2 (E5 m) c 2)).trans (X6_of m c _ (by decide)).symm
  | ⟨3, _⟩ => exact (X6_out m c).symm

set_option maxHeartbeats 2000000 in
/-- Every buffer that is none of the launch's arrays holds at the exit what it held at the entry. -/
theorem hrest2 (c : Dev nD) : ∀ b, b ∉ Finset.univ.image (Pipeline.arrRef spec2) → E6 m c b = E5 m c b :=
  fun b hb => X6_of m c b (fun h => hb (by
    rw [List.mem_singleton.mp h]; exact Finset.mem_image.mpr ⟨3, Finset.mem_univ _, rfl⟩))

set_option maxHeartbeats 2000000 in
set_option backward.isDefEq.respectTransparency.types false in
/-- The launch over the thread state: entered from every unscoped buffer at the entry contents, left at the exit contents. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg3.lean ====
/-
  Launch 3 as a segment of the program's run. The thread state between items is "every unscoped buffer held at the
  contents of that point, the generator register at some state, nothing owed". Entering the launch, its four arrays are split
  out of the unscoped buffers and the rest bypasses; leaving it, they are put back: the three inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF3 (c : Dev nD) (w : Fin cfg3.W) : (dat3 (E7 m) c).arrAt w cfg3.N = E8 m c (Pipeline.arrRef spec3 w) := by
  match w with
  | ⟨0, _⟩ => exact (((dat3 (E7 m) c).arrAt_in 0 rfl _).trans (A_eq3 (E7 m) c 0)).trans (X8_of m c _ (by decide)).symm
  | ⟨1, _⟩ => exact (((dat3 (E7 m) c).arrAt_in 1 rfl _).trans (A_eq3 (E7 m) c 1)).trans (X8_of m c _ (by decide)).symm
  | ⟨2, _⟩ => exact (((dat3 (E7 m) c).arrAt_in 2 rfl _).trans (A_eq3 (E7 m) c 2)).trans (X8_of m c _ (by decide)).symm
  | ⟨3, _⟩ => exact (X8_out m c).symm

set_option maxHeartbeats 2000000 in
/-- Every buffer that is none of the launch's arrays holds at the exit what it held at the entry. -/
theorem hrest3 (c : Dev nD) : ∀ b, b ∉ Finset.univ.image (Pipeline.arrRef spec3) → E8 m c b = E7 m c b :=
  fun b hb => X8_of m c b (fun h => hb (by
    rw [List.mem_singleton.mp h]; exact Finset.mem_image.mpr ⟨3, Finset.mem_univ _, rfl⟩))

set_option maxHeartbeats 2000000 in
set_option backward.isDefEq.respectTransparency.types false in
/-- The launch over the thread state: entered from every unscoped buffer at the entry contents, left at the exit contents. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg4.lean ====
/-
  Launch 4 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF4 (c : Dev nD) (w : Fin cfg4.W) : (dat4 (E29 m) c).arrAt w cfg4.N = E30 m c (Pipeline.arrRef spec4 w) := by
  match w with
  | ⟨0, _⟩ => exact (((dat4 (E29 m) c).arrAt_in 0 rfl _).trans (A_eq4 (E29 m) c 0)).trans (X30_of m c _ (by decide)).symm
  | ⟨1, _⟩ => exact (((dat4 (E29 m) c).arrAt_in 1 rfl _).trans (A_eq4 (E29 m) c 1)).trans (X30_of m c _ (by decide)).symm
  | ⟨2, _⟩ => exact (((dat4 (E29 m) c).arrAt_in 2 rfl _).trans (A_eq4 (E29 m) c 2)).trans (X30_of m c _ (by decide)).symm
  | ⟨3, _⟩ => exact (((dat4 (E29 m) c).arrAt_in 3 rfl _).trans (A_eq4 (E29 m) c 3)).trans (X30_of m c _ (by decide)).symm
  | ⟨4, _⟩ => exact (X30_out m c).symm

set_option maxHeartbeats 2000000 in
/-- Every buffer that is none of the launch's arrays holds at the exit what it held at the entry. -/
theorem hrest4 (c : Dev nD) : ∀ b, b ∉ Finset.univ.image (Pipeline.arrRef spec4) → E30 m c b = E29 m c b :=
  fun b hb => X30_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E29 m) c).loose
  hwaits := Pipeline.hwaits_of_owed_zero _ _ _ _ L lv 4 fun _ _ => rfl
  pre c := iprop(StableHlo.held (c : Thread nD τ) (Pipeline.ucRefs τ sig) (X29 m c) ∗ R c)
  post c := iprop(StableHlo.held (c : Thread nD τ) (Pipeline.ucRefs τ sig) (X30 m c) ∗ R c)
  X c := iprop(∃ r, prngReg c r)
  Y c := iprop(∃ r, prngReg c r)
  Z c := Pipeline.unscopedRest (Ix := Unit) (Name := ℕ) (U := UR sig nD τ) (Lvl := ℕ) spec4 c (E29 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E29 m c) (E30 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg5.lean ====
/-
  Launch 5 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF5 (c : Dev nD) (w : Fin cfg5.W) : (dat5 (E31 m) c).arrAt w cfg5.N = E32 m c (Pipeline.arrRef spec5 w) := by
  match w with
  | ⟨0, _⟩ => exact (((dat5 (E31 m) c).arrAt_in 0 rfl _).trans (A_eq5 (E31 m) c 0)).trans (X32_of m c _ (by decide)).symm
  | ⟨1, _⟩ => exact (((dat5 (E31 m) c).arrAt_in 1 rfl _).trans (A_eq5 (E31 m) c 1)).trans (X32_of m c _ (by decide)).symm
  | ⟨2, _⟩ => exact (((dat5 (E31 m) c).arrAt_in 2 rfl _).trans (A_eq5 (E31 m) c 2)).trans (X32_of m c _ (by decide)).symm
  | ⟨3, _⟩ => exact (((dat5 (E31 m) c).arrAt_in 3 rfl _).trans (A_eq5 (E31 m) c 3)).trans (X32_of m c _ (by decide)).symm
  | ⟨4, _⟩ => exact (X32_out m c).symm

set_option maxHeartbeats 2000000 in
/-- Every buffer that is none of the launch's arrays holds at the exit what it held at the entry. -/
theorem hrest5 (c : Dev nD) : ∀ b, b ∉ Finset.univ.image (Pipeline.arrRef spec5) → E32 m c b = E31 m c b :=
  fun b hb => X32_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E31 m) c).loose
  hwaits := Pipeline.hwaits_of_owed_zero _ _ _ _ L lv 5 fun _ _ => rfl
  pre c := iprop(StableHlo.held (c : Thread nD τ) (Pipeline.ucRefs τ sig) (X31 m c) ∗ R c)
  post c := iprop(StableHlo.held (c : Thread nD τ) (Pipeline.ucRefs τ sig) (X32 m c) ∗ R c)
  X c := iprop(∃ r, prngReg c r)
  Y c := iprop(∃ r, prngReg c r)
  Z c := Pipeline.unscopedRest (Ix := Unit) (Name := ℕ) (U := UR sig nD τ) (Lvl := ℕ) spec5 c (E31 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E31 m c) (E32 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg6.lean ====
/-
  Launch 6 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF6 (c : Dev nD) (w : Fin cfg6.W) : (dat6 (E33 m) c).arrAt w cfg6.N = E34 m c (Pipeline.arrRef spec6 w) := by
  match w with
  | ⟨0, _⟩ => exact (((dat6 (E33 m) c).arrAt_in 0 rfl _).trans (A_eq6 (E33 m) c 0)).trans (X34_of m c _ (by decide)).symm
  | ⟨1, _⟩ => exact (((dat6 (E33 m) c).arrAt_in 1 rfl _).trans (A_eq6 (E33 m) c 1)).trans (X34_of m c _ (by decide)).symm
  | ⟨2, _⟩ => exact (((dat6 (E33 m) c).arrAt_in 2 rfl _).trans (A_eq6 (E33 m) c 2)).trans (X34_of m c _ (by decide)).symm
  | ⟨3, _⟩ => exact (((dat6 (E33 m) c).arrAt_in 3 rfl _).trans (A_eq6 (E33 m) c 3)).trans (X34_of m c _ (by decide)).symm
  | ⟨4, _⟩ => exact (X34_out m c).symm

set_option maxHeartbeats 2000000 in
/-- Every buffer that is none of the launch's arrays holds at the exit what it held at the entry. -/
theorem hrest6 (c : Dev nD) : ∀ b, b ∉ Finset.univ.image (Pipeline.arrRef spec6) → E34 m c b = E33 m c b :=
  fun b hb => X34_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E33 m) c).loose
  hwaits := Pipeline.hwaits_of_owed_zero _ _ _ _ L lv 6 fun _ _ => rfl
  pre c := iprop(StableHlo.held (c : Thread nD τ) (Pipeline.ucRefs τ sig) (X33 m c) ∗ R c)
  post c := iprop(StableHlo.held (c : Thread nD τ) (Pipeline.ucRefs τ sig) (X34 m c) ∗ R c)
  X c := iprop(∃ r, prngReg c r)
  Y c := iprop(∃ r, prngReg c r)
  Z c := Pipeline.unscopedRest (Ix := Unit) (Name := ℕ) (U := UR sig nD τ) (Lvl := ℕ) spec6 c (E33 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E33 m c) (E34 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg7.lean ====
/-
  Launch 7 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF7 (c : Dev nD) (w : Fin cfg7.W) : (dat7 (E35 m) c).arrAt w cfg7.N = E36 m c (Pipeline.arrRef spec7 w) := by
  match w with
  | ⟨0, _⟩ => exact (((dat7 (E35 m) c).arrAt_in 0 rfl _).trans (A_eq7 (E35 m) c 0)).trans (X36_of m c _ (by decide)).symm
  | ⟨1, _⟩ => exact (((dat7 (E35 m) c).arrAt_in 1 rfl _).trans (A_eq7 (E35 m) c 1)).trans (X36_of m c _ (by decide)).symm
  | ⟨2, _⟩ => exact (((dat7 (E35 m) c).arrAt_in 2 rfl _).trans (A_eq7 (E35 m) c 2)).trans (X36_of m c _ (by decide)).symm
  | ⟨3, _⟩ => exact (((dat7 (E35 m) c).arrAt_in 3 rfl _).trans (A_eq7 (E35 m) c 3)).trans (X36_of m c _ (by decide)).symm
  | ⟨4, _⟩ => exact (X36_out m c).symm

set_option maxHeartbeats 2000000 in
/-- Every buffer that is none of the launch's arrays holds at the exit what it held at the entry. -/
theorem hrest7 (c : Dev nD) : ∀ b, b ∉ Finset.univ.image (Pipeline.arrRef spec7) → E36 m c b = E35 m c b :=
  fun b hb => X36_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E35 m) c).loose
  hwaits := Pipeline.hwaits_of_owed_zero _ _ _ _ L lv 7 fun _ _ => rfl
  pre c := iprop(StableHlo.held (c : Thread nD τ) (Pipeline.ucRefs τ sig) (X35 m c) ∗ R c)
  post c := iprop(StableHlo.held (c : Thread nD τ) (Pipeline.ucRefs τ sig) (X36 m c) ∗ R c)
  X c := iprop(∃ r, prngReg c r)
  Y c := iprop(∃ r, prngReg c r)
  Z c := Pipeline.unscopedRest (Ix := Unit) (Name := ℕ) (U := UR sig nD τ) (Lvl := ℕ) spec7 c (E35 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E35 m c) (E36 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg8.lean ====
/-
  Launch 8 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF8 (c : Dev nD) (w : Fin cfg8.W) : (dat8 (E37 m) c).arrAt w cfg8.N = E38 m c (Pipeline.arrRef spec8 w) := by
  match w with
  | ⟨0, _⟩ => exact (((dat8 (E37 m) c).arrAt_in 0 rfl _).trans (A_eq8 (E37 m) c 0)).trans (X38_of m c _ (by decide)).symm
  | ⟨1, _⟩ => exact (((dat8 (E37 m) c).arrAt_in 1 rfl _).trans (A_eq8 (E37 m) c 1)).trans (X38_of m c _ (by decide)).symm
  | ⟨2, _⟩ => exact (((dat8 (E37 m) c).arrAt_in 2 rfl _).trans (A_eq8 (E37 m) c 2)).trans (X38_of m c _ (by decide)).symm
  | ⟨3, _⟩ => exact (((dat8 (E37 m) c).arrAt_in 3 rfl _).trans (A_eq8 (E37 m) c 3)).trans (X38_of m c _ (by decide)).symm
  | ⟨4, _⟩ => exact (X38_out m c).symm

set_option maxHeartbeats 2000000 in
/-- Every buffer that is none of the launch's arrays holds at the exit what it held at the entry. -/
theorem hrest8 (c : Dev nD) : ∀ b, b ∉ Finset.univ.image (Pipeline.arrRef spec8) → E38 m c b = E37 m c b :=
  fun b hb => X38_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E37 m) c).loose
  hwaits := Pipeline.hwaits_of_owed_zero _ _ _ _ L lv 8 fun _ _ => rfl
  pre c := iprop(StableHlo.held (c : Thread nD τ) (Pipeline.ucRefs τ sig) (X37 m c) ∗ R c)
  post c := iprop(StableHlo.held (c : Thread nD τ) (Pipeline.ucRefs τ sig) (X38 m c) ∗ R c)
  X c := iprop(∃ r, prngReg c r)
  Y c := iprop(∃ r, prngReg c r)
  Z c := Pipeline.unscopedRest (Ix := Unit) (Name := ℕ) (U := UR sig nD τ) (Lvl := ℕ) spec8 c (E37 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (E37 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E37 m c) (E38 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg9.lean ====
/-
  Launch 9 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF9 (c : Dev nD) (w : Fin cfg9.W) : (dat9 (E39 m) c).arrAt w cfg9.N = E40 m c (Pipeline.arrRef spec9 w) := by
  match w with
  | ⟨0, _⟩ => exact (((dat9 (E39 m) c).arrAt_in 0 rfl _).trans (A_eq9 (E39 m) c 0)).trans (X40_of m c _ (by decide)).symm
  | ⟨1, _⟩ => exact (((dat9 (E39 m) c).arrAt_in 1 rfl _).trans (A_eq9 (E39 m) c 1)).trans (X40_of m c _ (by decide)).symm
  | ⟨2, _⟩ => exact (((dat9 (E39 m) c).arrAt_in 2 rfl _).trans (A_eq9 (E39 m) c 2)).trans (X40_of m c _ (by decide)).symm
  | ⟨3, _⟩ => exact (((dat9 (E39 m) c).arrAt_in 3 rfl _).trans (A_eq9 (E39 m) c 3)).trans (X40_of m c _ (by decide)).symm
  | ⟨4, _⟩ => exact (X40_out m c).symm

set_option maxHeartbeats 2000000 in
/-- Every buffer that is none of the launch's arrays holds at the exit what it held at the entry. -/
theorem hrest9 (c : Dev nD) : ∀ b, b ∉ Finset.univ.image (Pipeline.arrRef spec9) → E40 m c b = E39 m c b :=
  fun b hb => X40_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (E39 m) c).loose
  hwaits := Pipeline.hwaits_of_owed_zero _ _ _ _ L lv 9 fun _ _ => rfl
  pre c := iprop(StableHlo.held (c : Thread nD τ) (Pipeline.ucRefs τ sig) (X39 m c) ∗ R c)
  post c := iprop(StableHlo.held (c : Thread nD τ) (Pipeline.ucRefs τ sig) (X40 m c) ∗ R c)
  X c := iprop(∃ r, prngReg c r)
  Y c := iprop(∃ r, prngReg c r)
  Z c := Pipeline.unscopedRest (Ix := Unit) (Name := ℕ) (U := UR sig nD τ) (Lvl := ℕ) spec9 c (E39 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (E39 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (E39 m c) (E40 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg10.lean ====
/-
  Launch 10 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF10 (c : Dev nD) (w : Fin cfg10.W) : (dat10 (E41 m) c).arrAt w cfg10.N = E42 m c (Pipeline.arrRef spec10 w) := by
  match w with
  | ⟨0, _⟩ => exact (((dat10 (E41 m) c).arrAt_in 0 rfl _).trans (A_eq10 (E41 m) c 0)).trans (X42_of m c _ (by decide)).symm
  | ⟨1, _⟩ => exact (((dat10 (E41 m) c).arrAt_in 1 rfl _).trans (A_eq10 (E41 m) c 1)).trans (X42_of m c _ (by decide)).symm
  | ⟨2, _⟩ => exact (((dat10 (E41 m) c).arrAt_in 2 rfl _).trans (A_eq10 (E41 m) c 2)).trans (X42_of m c _ (by decide)).symm
  | ⟨3, _⟩ => exact (((dat10 (E41 m) c).arrAt_in 3 rfl _).trans (A_eq10 (E41 m) c 3)).trans (X42_of m c _ (by decide)).symm
  | ⟨4, _⟩ => exact (X42_out m c).symm

set_option maxHeartbeats 2000000 in
/-- Every buffer that is none of the launch's arrays holds at the exit what it held at the entry. -/
theorem hrest10 (c : Dev nD) : ∀ b, b ∉ Finset.univ.image (Pipeline.arrRef spec10) → E42 m c b = E41 m c b :=
  fun b hb => X42_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (E41 m) c).loose
  hwaits := Pipeline.hwaits_of_owed_zero _ _ _ _ L lv 10 fun _ _ => rfl
  pre c := iprop(StableHlo.held (c : Thread nD τ) (Pipeline.ucRefs τ sig) (X41 m c) ∗ R c)
  post c := iprop(StableHlo.held (c : Thread nD τ) (Pipeline.ucRefs τ sig) (X42 m c) ∗ R c)
  X c := iprop(∃ r, prngReg c r)
  Y c := iprop(∃ r, prngReg c r)
  Z c := Pipeline.unscopedRest (Ix := Unit) (Name := ℕ) (U := UR sig nD τ) (Lvl := ℕ) spec10 c (E41 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (E41 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (E41 m c) (E42 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg11.lean ====
/-
  Launch 11 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF11 (c : Dev nD) (w : Fin cfg11.W) : (dat11 (E43 m) c).arrAt w cfg11.N = E44 m c (Pipeline.arrRef spec11 w) := by
  match w with
  | ⟨0, _⟩ => exact (((dat11 (E43 m) c).arrAt_in 0 rfl _).trans (A_eq11 (E43 m) c 0)).trans (X44_of m c _ (by decide)).symm
  | ⟨1, _⟩ => exact (((dat11 (E43 m) c).arrAt_in 1 rfl _).trans (A_eq11 (E43 m) c 1)).trans (X44_of m c _ (by decide)).symm
  | ⟨2, _⟩ => exact (((dat11 (E43 m) c).arrAt_in 2 rfl _).trans (A_eq11 (E43 m) c 2)).trans (X44_of m c _ (by decide)).symm
  | ⟨3, _⟩ => exact (((dat11 (E43 m) c).arrAt_in 3 rfl _).trans (A_eq11 (E43 m) c 3)).trans (X44_of m c _ (by decide)).symm
  | ⟨4, _⟩ => exact (X44_out m c).symm

set_option maxHeartbeats 2000000 in
/-- Every buffer that is none of the launch's arrays holds at the exit what it held at the entry. -/
theorem hrest11 (c : Dev nD) : ∀ b, b ∉ Finset.univ.image (Pipeline.arrRef spec11) → E44 m c b = E43 m c b :=
  fun b hb => X44_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (E43 m) c).loose
  hwaits := Pipeline.hwaits_of_owed_zero _ _ _ _ L lv 11 fun _ _ => rfl
  pre c := iprop(StableHlo.held (c : Thread nD τ) (Pipeline.ucRefs τ sig) (X43 m c) ∗ R c)
  post c := iprop(StableHlo.held (c : Thread nD τ) (Pipeline.ucRefs τ sig) (X44 m c) ∗ R c)
  X c := iprop(∃ r, prngReg c r)
  Y c := iprop(∃ r, prngReg c r)
  Z c := Pipeline.unscopedRest (Ix := Unit) (Name := ℕ) (U := UR sig nD τ) (Lvl := ℕ) spec11 c (E43 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (E43 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (E43 m c) (E44 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg12.lean ====
/-
  Launch 12 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF12 (c : Dev nD) (w : Fin cfg12.W) : (dat12 (E45 m) c).arrAt w cfg12.N = E46 m c (Pipeline.arrRef spec12 w) := by
  match w with
  | ⟨0, _⟩ => exact (((dat12 (E45 m) c).arrAt_in 0 rfl _).trans (A_eq12 (E45 m) c 0)).trans (X46_of m c _ (by decide)).symm
  | ⟨1, _⟩ => exact (((dat12 (E45 m) c).arrAt_in 1 rfl _).trans (A_eq12 (E45 m) c 1)).trans (X46_of m c _ (by decide)).symm
  | ⟨2, _⟩ => exact (((dat12 (E45 m) c).arrAt_in 2 rfl _).trans (A_eq12 (E45 m) c 2)).trans (X46_of m c _ (by decide)).symm
  | ⟨3, _⟩ => exact (((dat12 (E45 m) c).arrAt_in 3 rfl _).trans (A_eq12 (E45 m) c 3)).trans (X46_of m c _ (by decide)).symm
  | ⟨4, _⟩ => exact (X46_out m c).symm

set_option maxHeartbeats 2000000 in
/-- Every buffer that is none of the launch's arrays holds at the exit what it held at the entry. -/
theorem hrest12 (c : Dev nD) : ∀ b, b ∉ Finset.univ.image (Pipeline.arrRef spec12) → E46 m c b = E45 m c b :=
  fun b hb => X46_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (E45 m) c).loose
  hwaits := Pipeline.hwaits_of_owed_zero _ _ _ _ L lv 12 fun _ _ => rfl
  pre c := iprop(StableHlo.held (c : Thread nD τ) (Pipeline.ucRefs τ sig) (X45 m c) ∗ R c)
  post c := iprop(StableHlo.held (c : Thread nD τ) (Pipeline.ucRefs τ sig) (X46 m c) ∗ R c)
  X c := iprop(∃ r, prngReg c r)
  Y c := iprop(∃ r, prngReg c r)
  Z c := Pipeline.unscopedRest (Ix := Unit) (Name := ℕ) (U := UR sig nD τ) (Lvl := ℕ) spec12 c (E45 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (E45 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (E45 m c) (E46 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg13.lean ====
/-
  Launch 13 as a segment of the program's run. The thread state between items is "every unscoped buffer held at the
  contents of that point, the generator register at some state, nothing owed". Entering the launch, its five arrays are split
  out of the unscoped buffers and the rest bypasses; leaving it, they are put back: the four inputs as they were and the
  output at what the write-backs leave, which is exactly the next point's contents. The generator register passes into the
  pipeline's invariant and back; the kernel has no semaphore of its own.
-/
import proofs.«418080_j49366354100286_4_alg».proof.Proof.KernelIdeal.Chain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- At the launch's exit each of its arrays holds what the pipeline leaves: an input what it held, the output the fold of
    the write-backs. -/
theorem hF13 (c : Dev nD) (w : Fin cfg13.W) : (dat13 (E47 m) c).arrAt w cfg13.N = E48 m c (Pipeline.arrRef spec13 w) := by
  match w with
  | ⟨0, _⟩ => exact (((dat13 (E47 m) c).arrAt_in 0 rfl _).trans (A_eq13 (E47 m) c 0)).trans (X48_of m c _ (by decide)).symm
  | ⟨1, _⟩ => exact (((dat13 (E47 m) c).arrAt_in 1 rfl _).trans (A_eq13 (E47 m) c 1)).trans (X48_of m c _ (by decide)).symm
  | ⟨2, _⟩ => exact (((dat13 (E47 m) c).arrAt_in 2 rfl _).trans (A_eq13 (E47 m) c 2)).trans (X48_of m c _ (by decide)).symm
  | ⟨3, _⟩ => exact (((dat13 (E47 m) c).arrAt_in 3 rfl _).trans (A_eq13 (E47 m) c 3)).trans (X48_of m c _ (by decide)).symm
  | ⟨4, _⟩ => exact (X48_out m c).symm

set_option maxHeartbeats 2000000 in
/-- Every buffer that is none of the launch's arrays holds at the exit what it held at the entry. -/
theorem hrest13 (c : Dev nD) : ∀ b, b ∉ Finset.univ.image (Pipeline.arrRef spec13) → E48 m c b = E47 m c b :=
  fun b hb => X48_of m c b (fun h => hb (by
    rw [List.mem_singleton.mp h]; exact Finset.mem_image.mpr ⟨4, Finset.mem_univ _, rfl⟩))

set_option maxHeartbeats 2000000 in
set_option backward.isDefEq.respectTransparency.types false in
/-- The launch over the thread state: entered from every unscoped buffer at the entry contents, left at the exit contents. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (E47 m) c).loose
  hwaits := Pipeline.hwaits_of_owed_zero _ _ _ _ L lv 13 fun _ _ => rfl
  pre c := iprop(StableHlo.held (c : Thread nD τ) (Pipeline.ucRefs τ sig) (X47 m c) ∗ R c)
  post c := iprop(StableHlo.held (c : Thread nD τ) (Pipeline.ucRefs τ sig) (X48 m c) ∗ R c)
  X c := iprop(∃ r, prngReg c r)
  Y c := iprop(∃ r, prngReg c r)
  Z c := Pipeline.unscopedRest (Ix := Unit) (Name := ℕ) (U := UR sig nD τ) (Lvl := ℕ) spec13 c (E47 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (E47 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (E47 m c) (E48 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Run.lean ====
/-
  The whole program as the chain of its items: host stretches and the fourteen launches, each launch entered from the
  contents the chain has reached and left at the next. Every weakly fair execution terminates, and on each core the final memory
  holds, at every unscoped buffer, the last contents of the chain: in particular the arguments as launched and the result
  array at the value the chain computes.
-/
import proofs.«418080_j49366354100286_4_alg».proof.Proof.KernelIdeal.RunCond
import proofs.«418080_j49366354100286_4_alg».proof.Proof.KernelIdeal.Seg0
import proofs.«418080_j49366354100286_4_alg».proof.Proof.KernelIdeal.Seg1
import proofs.«418080_j49366354100286_4_alg».proof.Proof.KernelIdeal.Seg2
import proofs.«418080_j49366354100286_4_alg».proof.Proof.KernelIdeal.Seg3
import proofs.«418080_j49366354100286_4_alg».proof.Proof.KernelIdeal.Seg4
import proofs.«418080_j49366354100286_4_alg».proof.Proof.KernelIdeal.Seg5
import proofs.«418080_j49366354100286_4_alg».proof.Proof.KernelIdeal.Seg6
import proofs.«418080_j49366354100286_4_alg».proof.Proof.KernelIdeal.Seg7
import proofs.«418080_j49366354100286_4_alg».proof.Proof.KernelIdeal.Seg8
import proofs.«418080_j49366354100286_4_alg».proof.Proof.KernelIdeal.Seg9
import proofs.«418080_j49366354100286_4_alg».proof.Proof.KernelIdeal.Seg10
import proofs.«418080_j49366354100286_4_alg».proof.Proof.KernelIdeal.Seg11
import proofs.«418080_j49366354100286_4_alg».proof.Proof.KernelIdeal.Seg12
import proofs.«418080_j49366354100286_4_alg».proof.Proof.KernelIdeal.Seg13

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The launch element yields the pipeline library's element at every staging cell; no ghost resource is needed. -/
theorem launch_elt : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core makes the riding state: its generator register at the launch state, nothing owed. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) :=
  Pipeline.initEach L lv fun c => by
    iintro ⟨⟨-, HO, -, Hp, -⟩, -⟩
    imodintro
    isplitl [Hp]; · iexists _; iexact Hp
    iexists ∅; iexact HO

/-- THE RUN: every weakly fair execution of the program from memory `m` terminates, and on every core the final memory holds
    each unscoped buffer at the chain's last contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X49 m c b) := by
  have h := run_cond (F := F) m emb₁ () 𝒱₀ L lv (fun _ _ => rfl) ρ (outsX m) (pdats m) 0 (fun _ => (BI.emp : sProp 𝕄))
    (initOf (Pipeline.cells cfgs cellOf_inj) (Pipeline.launchToks cfgs cellOf_inj)) launch_elt
    (fun _ c => R (F := F) c) (launch_rest ρ) (fun c => by iintro ⟨-, HO⟩; iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V29_eq]; exact .rfl) (fun c => by rw [V30_eq]; exact .rfl)
    (reg5 m) (fun c => by rw [V31_eq]; exact .rfl) (fun c => by rw [V32_eq]; exact .rfl)
    (reg6 m) (fun c => by rw [V33_eq]; exact .rfl) (fun c => by rw [V34_eq]; exact .rfl)
    (reg7 m) (fun c => by rw [V35_eq]; exact .rfl) (fun c => by rw [V36_eq]; exact .rfl)
    (reg8 m) (fun c => by rw [V37_eq]; exact .rfl) (fun c => by rw [V38_eq]; exact .rfl)
    (reg9 m) (fun c => by rw [V39_eq]; exact .rfl) (fun c => by rw [V40_eq]; exact .rfl)
    (reg10 m) (fun c => by rw [V41_eq]; exact .rfl) (fun c => by rw [V42_eq]; exact .rfl)
    (reg11 m) (fun c => by rw [V43_eq]; exact .rfl) (fun c => by rw [V44_eq]; exact .rfl)
    (reg12 m) (fun c => by rw [V45_eq]; exact .rfl) (fun c => by rw [V46_eq]; exact .rfl)
    (reg13 m) (fun c => by rw [V47_eq]; exact .rfl) (fun c => by rw [V48_eq]; exact .rfl)
  exact (θ_run defs _ _).mono (fun r hr c b hb => by rw [← V49_eq]; exact hr c b hb) h

end Cert.KernelIdeal.Hand

end
-- ==== Proof.Spec.lean ====
/-
  The two row-tiled matrix stages of the network, as plain functions on extended reals, index by index.
  `projFn x w b` is the input projection max(x·w + b, 0): entry (r, q) is the larger of 0 and the sum over k of
  x(r, k)·w(k, q), plus b(0, q). `convFn a s w b` is the graph-convolution epilogue (a scaled row-wise by s)·w + b:
  entry (r, q) is the sum over k of (a(r, k)·s(r, 0))·w(k, q), plus b(0, q). Both programs' values are compared with these.
-/
import Idealize.ShloMosaic.PureOps.Ideal
import Idealize.ShloMosaic.Lib.ValueIdx

noncomputable section

namespace Cert.Spec

open Idealize.ShloMosaic Idealize.ShloMosaic.ValueIdx

/-- Entry (r, q) of max(x·w + b, 0). -/
def projAt (x : (⟨2, ![50000, 385]⟩ : Shape).Idx → EReal) (w : (⟨2, ![385, 128]⟩ : Shape).Idx → EReal)
    (b : (⟨2, ![1, 128]⟩ : Shape).Idx → EReal) (r : Fin 50000) (q : Fin 128) : EReal :=
  max ((∑ k : Fin 385, x (ix2 r k) * w (ix2 k q)) + b (ix2 (0 : Fin 1) q)) 0

/-- max(x·w + b, 0) as a whole array. -/
def projFn (x : (⟨2, ![50000, 385]⟩ : Shape).Idx → EReal) (w : (⟨2, ![385, 128]⟩ : Shape).Idx → EReal)
    (b : (⟨2, ![1, 128]⟩ : Shape).Idx → EReal) : (⟨2, ![50000, 128]⟩ : Shape).Idx → EReal :=
  fun i => projAt x w b (i 0) (i 1)

/-- Entry (r, q) of (a scaled row-wise by s)·w + b. -/
def convAt (a : (⟨2, ![50000, 128]⟩ : Shape).Idx → EReal) (s : (⟨2, ![50000, 1]⟩ : Shape).Idx → EReal)
    (w : (⟨2, ![128, 128]⟩ : Shape).Idx → EReal) (b : (⟨2, ![1, 128]⟩ : Shape).Idx → EReal) (r : Fin 50000) (q : Fin 128) : EReal :=
  (∑ k : Fin 128, (a (ix2 r k) * s (ix2 r (0 : Fin 1))) * w (ix2 k q)) + b (ix2 (0 : Fin 1) q)

/-- (a scaled row-wise by s)·w + b as a whole array. -/
def convFn (a : (⟨2, ![50000, 128]⟩ : Shape).Idx → EReal) (s : (⟨2, ![50000, 1]⟩ : Shape).Idx → EReal)
    (w : (⟨2, ![128, 128]⟩ : Shape).Idx → EReal) (b : (⟨2, ![1, 128]⟩ : Shape).Idx → EReal) : (⟨2, ![50000, 128]⟩ : Shape).Idx → EReal :=
  fun i => convAt a s w b (i 0) (i 1)

end Cert.Spec

end
-- ==== Proof.KernelIdeal.ProjValue0.lean ====
/-
  Input projection, launch 0 of the program: the VALUE the launch leaves in its output array, at the ideal arithmetic.
  The launch walks 25 row tiles of 2000 rows. At point t the body loads rows 2000·t … 2000·t + 1999 of the features x
  (a 2000×385 tile), the whole 385×128 weight w and the 1×128 bias b, and stores max(tile · w + b, 0) to rows
  2000·t … 2000·t + 1999 of the output. Three steps:
  * the body's stored value at entry (p, q) of a tile: the matrix product into a zero accumulator is the sum over k of
    x(p, k)·w(k, q) (the contraction index re-indexed to its one coordinate), the bias row is spread over the rows, and the
    maximum against the zero splat is the maximum against 0;
  * what point t writes back is tile t of ONE function of the arrays as the launch finds them, entry (r, q) ↦
    max(∑ k, x(r, k)·w(k, q) + b(0, q), 0): row p of the features' tile t is row 2000·t + p of x, the weight's and the
    bias's blocks are the whole arrays, and the output's tile sits at the same rows;
  * the 25 row tiles cover the output array (row r lies in tile r / 2000), so the array ends holding that function.
-/
import proofs.«418080_j49366354100286_4_alg».proof.Proof.KernelIdeal.Proj0
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The tile product's operand indices -/

/-- The left operand's row is the result's row, -/
theorem lhs0_row (i : S2000x128.Idx) (q : dot_S2000x385_S385x128_S2000x128_1_0_0_1_n_n.contr.Idx) :
    (dot_S2000x385_S385x128_S2000x128_1_0_0_1_n_n.lhsIdx i q 0).val = (i 0).val := by
  unfold DotDims.lhsIdx
  rw [dif_neg (show ¬(0 : Fin S2000x385.rank) ∈ dot_S2000x385_S385x128_S2000x128_1_0_0_1_n_n.lhsBatch by decide), dif_pos (show (0 : Fin S2000x385.rank) ∈ dot_S2000x385_S385x128_S2000x128_1_0_0_1_n_n.lhsNonContracting by decide)]
  rfl
/-- its column the summation index; -/
theorem lhs0_col (i : S2000x128.Idx) (q : dot_S2000x385_S385x128_S2000x128_1_0_0_1_n_n.contr.Idx) :
    (dot_S2000x385_S385x128_S2000x128_1_0_0_1_n_n.lhsIdx i q 1).val = (q ⟨0, by decide⟩).val :=
  dot_S2000x385_S385x128_S2000x128_1_0_0_1_n_n.lhsIdx_val_of_single rfl i q
/-- the right operand's row is the summation index, -/
theorem rhs0_row (i : S2000x128.Idx) (q : dot_S2000x385_S385x128_S2000x128_1_0_0_1_n_n.contr.Idx) :
    (dot_S2000x385_S385x128_S2000x128_1_0_0_1_n_n.rhsIdx i q 0).val = (q ⟨0, by decide⟩).val :=
  dot_S2000x385_S385x128_S2000x128_1_0_0_1_n_n.rhsIdx_val_of_single rfl i q
/-- its column the result's column. -/
theorem rhs0_col (i : S2000x128.Idx) (q : dot_S2000x385_S385x128_S2000x128_1_0_0_1_n_n.contr.Idx) :
    (dot_S2000x385_S385x128_S2000x128_1_0_0_1_n_n.rhsIdx i q 1).val = (i 1).val := by
  unfold DotDims.rhsIdx
  rw [dif_neg (show ¬(1 : Fin S385x128.rank) ∈ dot_S2000x385_S385x128_S2000x128_1_0_0_1_n_n.rhsBatch by decide), dif_pos (show (1 : Fin S385x128.rank) ∈ dot_S2000x385_S385x128_S2000x128_1_0_0_1_n_n.rhsNonContracting by decide)]
  rfl

/-- The tile product into a zero accumulator, entry (p, q): the sum over k of x(p, k)·w(k, q). -/
theorem tile_product0_apply (x0 : FVec Ideal S2000x385 .f32) (x1 : FVec Ideal S385x128 .f32) (p : Fin 2000) (q : Fin 128) :
    matmul dot_S2000x385_S385x128_S2000x128_1_0_0_1_n_n (some .fp32) x0 x1 (constant (F := Ideal) S2000x128 .f32 0x00000000#32) (ix2 p q)
      = ∑ k : Fin 385, x0 (ix2 p k) * x1 (ix2 k q) := by
  refine (Ideal.matmul_constant_zero_apply dot_S2000x385_S385x128_S2000x128_1_0_0_1_n_n (some .fp32) x0 x1 (ix2 p q)).trans ?_
  rw [← Equiv.sum_comp (ValueIdx.contrEquiv1 dot_S2000x385_S385x128_S2000x128_1_0_0_1_n_n 385 rfl rfl).symm]
  refine Finset.sum_congr rfl fun k _ => ?_
  have hk := ValueIdx.contrEquiv1_symm_val dot_S2000x385_S385x128_S2000x128_1_0_0_1_n_n 385 rfl rfl k
  have el : dot_S2000x385_S385x128_S2000x128_1_0_0_1_n_n.lhsIdx (ix2 p q) ((ValueIdx.contrEquiv1 dot_S2000x385_S385x128_S2000x128_1_0_0_1_n_n 385 rfl rfl).symm k) = ix2 p k := funext fun a => Fin.ext (by
    match a with
    | ⟨0, _⟩ => exact lhs0_row _ _
    | ⟨1, _⟩ => exact (lhs0_col _ _).trans hk)
  have er : dot_S2000x385_S385x128_S2000x128_1_0_0_1_n_n.rhsIdx (ix2 p q) ((ValueIdx.contrEquiv1 dot_S2000x385_S385x128_S2000x128_1_0_0_1_n_n 385 rfl rfl).symm k) = ix2 k q := funext fun a => Fin.ext (by
    match a with
    | ⟨0, _⟩ => exact (rhs0_row _ _).trans hk
    | ⟨1, _⟩ => exact rhs0_col _ _)
  rw [el, er]

/-- The bias row spread over the tile's rows, entry (p, q): b(0, q). -/
theorem bias_rows0_apply (x2 : FVec Ideal S1x128 .f32) (p : Fin 2000) (q : Fin 128) :
    broadcastTo S2000x128 x2 broadcasts_S1x128_S2000x128 (ix2 p q) = x2 (ix2 (0 : Fin 1) q) :=
  broadcastTo_apply x2 broadcasts_S1x128_S2000x128 (ix2 p q) (ix2 (0 : Fin 1) q) (fun a => by
    match a with
    | ⟨0, _⟩ => rfl
    | ⟨1, _⟩ => rfl)

/-- The body's stored value, entry (p, q): the larger of 0 and the sum over k of x(p, k)·w(k, q), plus b(0, q). -/
theorem body0_apply (x0 : Vec Ideal S2000x385 .f32) (x1 : Vec Ideal S385x128 .f32) (x2 : Vec Ideal S1x128 .f32) (p : Fin 2000) (q : Fin 128) :
    k0_pay1 (F := Ideal) x0 x1 x2 (ix2 p q) = max ((∑ k : Fin 385, x0 (ix2 p k) * x1 (ix2 k q)) + x2 (ix2 (0 : Fin 1) q)) 0 := by
  unfold k0_pay1
  simp only [shapeCast_self]
  rw [maximumf_apply, addf_apply, broadcast_apply]
  rw [tile_product0_apply, bias_rows0_apply]
  exact congrArg (max _) Ideal.ofBits_zero_f32

/-! ## From the tiles to the array -/

variable (V : (c : Dev nD) → (b : Ref sig .tc) → Buf (Elt Ideal) ((c : Thread nD τ).loc b))

theorem zero_offsets0 : (![0, 0] : Fin 2 → Nat) = fun _ => 0 := funext fun a => by fin_cases a <;> rfl

/-- The printed index maps, decided over the grid: at point t the features' and the output's tiles are row tile t, column tile 0;
    the weight's and the bias's block is the whole array. -/
theorem tile_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, q) of the body's stored value on a row tile of x whose row p is row r of x, against the whole w and b,
    is entry (r, q) of max(x·w + b, 0). -/
theorem tile_entry0 (X : (⟨2, ![50000, 385]⟩ : Shape).Idx → EReal) (W : (⟨2, ![385, 128]⟩ : Shape).Idx → EReal) (B : (⟨2, ![1, 128]⟩ : Shape).Idx → EReal)
    (x0 : Vec Ideal S2000x385 .f32) (x1 : Vec Ideal S385x128 .f32) (x2 : Vec Ideal S1x128 .f32)
    (r : Fin 50000) (p : Fin 2000) (q : Fin 128)
    (h0 : ∀ k : Fin 385, x0 (ix2 p k) = X (ix2 r k)) (h1 : ∀ (k : Fin 385) (q : Fin 128), x1 (ix2 k q) = W (ix2 k q))
    (h2 : ∀ q : Fin 128, x2 (ix2 (0 : Fin 1) q) = B (ix2 (0 : Fin 1) q)) :
    k0_pay1 (F := Ideal) x0 x1 x2 (ix2 p q) = Cert.Spec.projAt X W B r q := by
  rw [body0_apply]
  unfold Cert.Spec.projAt
  rw [h2 q]
  exact congrArg (fun s => max (s + B (ix2 (0 : Fin 1) q)) 0) (Finset.sum_congr rfl fun k _ => by rw [h0 k, h1 k q])

/-- WHAT POINT t WRITES BACK is tile t of max(x·w + b, 0) of the arrays as the launch finds them. -/
theorem flushed0_3 (c : Dev nD) (t : Fin cfg0.N) :
    (dat0 (F := Ideal) V c).flushed 3 t
      = ((cfg0.win 3).blk t).view.read (Elt Ideal) (Cert.Spec.projFn (V c main_arg0) (V c main_v1) (V c main_v4)) := by
  show (cfg0.win 3).cut (grid0.coords t) ((dat0 (F := Ideal) V c).after 3 t) = _
  rw [after0_3]
  unfold out0_3
  rw [View.canon_unit_zero zero_offsets0]
  simp only [View.ld_unit_zero (S := S2000x385) zero_offsets0, View.ld_unit_zero (S := S385x128) zero_offsets0, View.ld_unit_zero (S := S1x128) zero_offsets0]
  obtain ⟨e00, e01, e10, e11, e20, e21, e30, e31⟩ := tile_index0 t
  have ht : t.val < 25 := t.isLt
  funext j
  have hj0 : (j 0).val < 2000 := (j 0).isLt
  have hj1 : (j 1).val < 128 := (j 1).isLt
  have ej : (cfg0.win 3).xinj (grid0.coords t) j = ix2 (⟨(j 0).val, hj0⟩ : Fin 2000) (⟨(j 1).val, hj1⟩ : Fin 128) :=
    funext fun a => by match a with | ⟨0, _⟩ => rfl | ⟨1, _⟩ => rfl
  refine (congrArg (k0_pay1 (F := Ideal) (iblk0 V c 0 t) (iblk0 V c 1 t) (iblk0 V c 2 t)) ej).trans ?_
  refine (tile_entry0 (V c main_arg0) (V c main_v1) (V c main_v4) (iblk0 V c 0 t) (iblk0 V c 1 t) (iblk0 V c 2 t)
    (⟨2000 * t.val + (j 0).val, by omega⟩ : Fin 50000) (⟨(j 0).val, hj0⟩ : Fin 2000) (⟨(j 1).val, hj1⟩ : Fin 128) ?_ ?_ ?_).trans ?_
  · intro k
    show V c main_arg0 (((cfg0.win 0).blk t).view.emb (ix2 (⟨(j 0).val, hj0⟩ : Fin 2000) k)) = V c main_arg0 (ix2 (⟨2000 * t.val + (j 0).val, by omega⟩ : Fin 50000) k)
    refine congrArg (V c main_arg0) (funext fun a => Fin.ext ?_)
    match a with
    | ⟨0, _⟩ => show win0_0.index t (0 : Fin 2) * 2000 + 1 * (j 0).val = 2000 * t.val + (j 0).val; omega
    | ⟨1, _⟩ => show win0_0.index t (1 : Fin 2) * 385 + 1 * k.val = k.val; omega
  · intro k q
    show V c main_v1 (((cfg0.win 1).blk t).view.emb (ix2 k q)) = V c main_v1 (ix2 k q)
    refine congrArg (V c main_v1) (funext fun a => Fin.ext ?_)
    match a with
    | ⟨0, _⟩ => show win0_1.index t (0 : Fin 2) * 385 + 1 * k.val = k.val; omega
    | ⟨1, _⟩ => show win0_1.index t (1 : Fin 2) * 128 + 1 * q.val = q.val; omega
  · intro q
    show V c main_v4 (((cfg0.win 2).blk t).view.emb (ix2 (0 : Fin 1) q)) = V c main_v4 (ix2 (0 : Fin 1) q)
    refine congrArg (V c main_v4) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  · show _ = Cert.Spec.projFn (V c main_arg0) (V c main_v1) (V c main_v4) (((cfg0.win 3).blk t).view.emb j)
    unfold Cert.Spec.projFn
    have r0 : (((cfg0.win 3).blk t).view.emb j 0).val = 2000 * t.val + (j 0).val := by
      show win0_3.index t (0 : Fin 2) * 2000 + 1 * (j 0).val = _; omega
    have r1 : (((cfg0.win 3).blk t).view.emb j 1).val = (j 1).val := by
      show win0_3.index t (1 : Fin 2) * 128 + 1 * (j 1).val = _; omega
    exact congrArg₂ (Cert.Spec.projAt (V c main_arg0) (V c main_v1) (V c main_v4)) (Fin.ext r0.symm) (Fin.ext r1.symm)

/-- An index of the output array is in point t's tile iff each coordinate is in the tile's range on its axis. -/
theorem mem_tile0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- The row tiles cover the output array: row r is in the tile of point r / 2000, which writes its tile back. -/
theorem rows_covered0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 2000 < cfg0.N := by show (i 0).val / 2000 < 25; omega
  obtain ⟨-, -, -, -, -, -, e30, e31⟩ := tile_index0 ⟨(i 0).val / 2000, ht⟩
  have e30' : win0_3.index ⟨(i 0).val / 2000, ht⟩ (0 : Fin 2) = (i 0).val / 2000 := e30
  refine ⟨⟨(i 0).val / 2000, ht⟩, flush0_3 _, ?_⟩
  rw [mem_tile0]
  intro a
  match a with
  | ⟨0, _⟩ => show win0_3.index ⟨(i 0).val / 2000, ht⟩ (0 : Fin 2) * 2000 ≤ (i 0).val ∧ (i 0).val < win0_3.index ⟨(i 0).val / 2000, ht⟩ (0 : Fin 2) * 2000 + 2000; omega
  | ⟨1, _⟩ => show win0_3.index ⟨(i 0).val / 2000, ht⟩ (1 : Fin 2) * 128 ≤ (i 1).val ∧ (i 1).val < win0_3.index ⟨(i 0).val / 2000, ht⟩ (1 : Fin 2) * 128 + 128; omega

/-- THE OUTPUT ARRAY after the launch is max(x·w + b, 0) of the features, the weight and the bias as the launch finds them. -/
theorem proj0_value (c : Dev nD) :
    (dat0 (F := Ideal) V c).arrAt 3 cfg0.N = Cert.Spec.projFn (V c main_arg0) (V c main_v1) (V c main_v4) :=
  (dat0 (F := Ideal) V c).arrAt_eq_of_cover 3 (Cert.Spec.projFn (V c main_arg0) (V c main_v1) (V c main_v4))
    (fun t _ => flushed0_3 V c t) rows_covered0

end Cert.KernelIdeal.Hand

end
-- ==== Proof.KernelIdeal.ConvValue4.lean ====
/-
  The value of the graph-convolution epilogue, launch 4, at ideal (extended-real) values. The body's arithmetic at entry
  (p, q) of a tile is the sum over k of (tile(p, k) · scale(p, 0)) · weight(k, q), plus bias(0, q): the casts keep their
  shapes, the scale's column is laid along every column, the product accumulates into zero, the bias's row is laid along
  every row. At grid point t the feature tile and the scale tile are rows 2000 t … 2000 t + 1999 of their arrays, the
  weight and bias blocks are the whole arrays, and the point writes back the same rows of the output; the 25 row tiles
  cover the 50000 rows. So after the launch the output array is `Cert.Spec.convFn` of the four input arrays as the launch
  finds them.
-/
import proofs.«418080_j49366354100286_4_alg».proof.Proof.KernelIdeal.Conv4
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic at an entry -/

/-- A column `[a, 1]` broadcast to `[a, b]` reads, at `(p, c)`, the column's entry of row `p`. -/
theorem conv4_column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row and the contraction coordinate, -/
theorem conv4_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem conv4_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- and its right operand at the contraction coordinate and the output's column. -/
theorem conv4_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem conv4_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product into a zero accumulator, at ideal values: entry `(p, q)` is the sum over `k` of the
    left operand's `(p, k)` times the right operand's `(k, q)`. -/
theorem conv4_matmul_apply (l : FVec Ideal S2000x128 .f32) (r : FVec Ideal S128x128 .f32) (p : Fin 2000) (q : Fin 128) :
    matmul (F := Ideal) dot_S2000x128_S128x128_S2000x128_1_0_0_1_n_n (some .fp32) l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n (some .fp32) l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact conv4_lhs_0 _ _
    | ⟨1, _⟩ => exact (conv4_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (conv4_rhs_0 _ _).trans hk
    | ⟨1, _⟩ => exact conv4_rhs_1 _ _)
  rw [el, er]

/-- The body's arithmetic at an entry, at ideal values: the tile's row `p` scaled by that row's scale, times the weight's
    column `q`, plus the bias at `q`. -/
theorem conv4_payload_apply (x0 : Vec Ideal S2000x128 .f32) (x1 : Vec Ideal S2000x1 .f32) (x2 : Vec Ideal S128x128 .f32)
    (x3 : Vec Ideal S1x128 .f32) (p : Fin 2000) (q : Fin 128) :
    k4_pay1 (F := Ideal) x0 x1 x2 x3 (ix2 p q)
      = (∑ k : Fin 128, (x0 (ix2 p k) * x1 (ix2 p (0 : Fin 1))) * x2 (ix2 k q)) + x3 (ix2 (0 : Fin 1) q) := by
  unfold k4_pay1
  simp only [shapeCast_self]
  refine (addf_apply _ _ _).trans ?_
  refine congrArg₂ (· + ·) ?_ (broadcastTo_1b_ab_apply x3 broadcasts_S1x128_S2000x128 p q)
  refine (conv4_matmul_apply _ x2 p q).trans ?_
  refine Finset.sum_congr rfl fun k _ => ?_
  refine congrArg (· * x2 (ix2 k q)) ?_
  refine (mulf_apply _ _ _).trans ?_
  exact congrArg (x0 (ix2 p k) * ·) (conv4_column_broadcast_apply x1 broadcasts_S2000x1_S2000x128 p k)

/-! ## What one grid point writes back -/

theorem conv4_zero_offsets : (![0, 0] : Fin 2 → Nat) = fun _ => 0 := funext fun a => by fin_cases a <;> rfl

/-- The printed index maps, decided over the 25 grid points: at point `t` the feature tile, the scale tile and the output
    tile are the `t`-th row tiles of their arrays, and the weight and the bias are whole. -/
theorem conv4_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

variable (V : (c : Dev nD) → (b : Ref sig .tc) → Buf (Elt Ideal) ((c : Thread nD τ).loc b))

/-- The feature tile at point `t` is rows `2000 t … 2000 t + 1999` of the aggregated features. -/
theorem conv4_features_apply (c : Dev nD) (t : Fin cfg4.N) (p : Fin 2000) (k : Fin 128) (r : Fin 50000)
    (hr : r.val = t.val * 2000 + p.val) :
    (iblk4 V c 0 t : Vec Ideal S2000x128 .f32) (ix2 p k) = (V c main_v119 : S50000x128.Idx → EReal) (ix2 r k) := by
  obtain ⟨e0, e1, -⟩ := conv4_idx t
  show V c main_v119 (((cfg4.win 0).blk t).view.emb (ix2 p k)) = V c main_v119 (ix2 r k)
  refine congrArg (V c main_v119) (funext fun a => Fin.ext ?_)
  match a with
  | ⟨0, _⟩ => show win4_0.index t (0 : Fin 2) * 2000 + 1 * p.val = r.val; omega
  | ⟨1, _⟩ => show win4_0.index t (1 : Fin 2) * 128 + 1 * k.val = k.val; omega

/-- The scale tile at point `t` is the same rows of the degree scale. -/
theorem conv4_scale_apply (c : Dev nD) (t : Fin cfg4.N) (p : Fin 2000) (r : Fin 50000)
    (hr : r.val = t.val * 2000 + p.val) :
    (iblk4 V c 1 t : Vec Ideal S2000x1 .f32) (ix2 p (0 : Fin 1)) = (V c main_v120 : S50000x1.Idx → EReal) (ix2 r (0 : Fin 1)) := by
  obtain ⟨-, -, e0, e1, -⟩ := conv4_idx t
  show V c main_v120 (((cfg4.win 1).blk t).view.emb (ix2 p (0 : Fin 1))) = V c main_v120 (ix2 r (0 : Fin 1))
  refine congrArg (V c main_v120) (funext fun a => Fin.ext ?_)
  match a with
  | ⟨0, _⟩ => show win4_1.index t (0 : Fin 2) * 2000 + 1 * p.val = r.val; omega
  | ⟨1, _⟩ => show win4_1.index t (1 : Fin 2) * 1 + 1 * 0 = 0; omega

/-- The weight block at every point is the whole weight, -/
theorem conv4_weight_apply (c : Dev nD) (t : Fin cfg4.N) (k : Fin 128) (q : Fin 128) :
    (iblk4 V c 2 t : Vec Ideal S128x128 .f32) (ix2 k q) = (V c main_v104 : S128x128.Idx → EReal) (ix2 k q) := by
  obtain ⟨-, -, -, -, e0, e1, -⟩ := conv4_idx t
  show V c main_v104 (((cfg4.win 2).blk t).view.emb (ix2 k q)) = V c main_v104 (ix2 k q)
  refine congrArg (V c main_v104) (funext fun a => Fin.ext ?_)
  match a with
  | ⟨0, _⟩ => show win4_2.index t (0 : Fin 2) * 128 + 1 * k.val = k.val; omega
  | ⟨1, _⟩ => show win4_2.index t (1 : Fin 2) * 128 + 1 * q.val = q.val; omega

/-- and the bias block the whole bias. -/
theorem conv4_bias_apply (c : Dev nD) (t : Fin cfg4.N) (q : Fin 128) :
    (iblk4 V c 3 t : Vec Ideal S1x128 .f32) (ix2 (0 : Fin 1) q) = (V c main_v121 : S1x128.Idx → EReal) (ix2 (0 : Fin 1) q) := by
  obtain ⟨-, -, -, -, -, -, e0, e1, -⟩ := conv4_idx t
  show V c main_v121 (((cfg4.win 3).blk t).view.emb (ix2 (0 : Fin 1) q)) = V c main_v121 (ix2 (0 : Fin 1) q)
  refine congrArg (V c main_v121) (funext fun a => Fin.ext ?_)
  match a with
  | ⟨0, _⟩ => show win4_3.index t (0 : Fin 2) * 1 + 1 * 0 = 0; omega
  | ⟨1, _⟩ => show win4_3.index t (1 : Fin 2) * 128 + 1 * q.val = q.val; omega

/-- The body's result on four blocks that agree, entry by entry, with row `r` of the features, the scale at row `r`,
    the weight and the bias, is the epilogue's entry `(r, q)`. -/
theorem conv4_tile_apply (a : S50000x128.Idx → EReal) (s : S50000x1.Idx → EReal) (w : S128x128.Idx → EReal) (b : S1x128.Idx → EReal)
    (x0 : Vec Ideal S2000x128 .f32) (x1 : Vec Ideal S2000x1 .f32) (x2 : Vec Ideal S128x128 .f32) (x3 : Vec Ideal S1x128 .f32)
    (p : Fin 2000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k4_pay1 (F := Ideal) x0 x1 x2 x3 (ix2 p q) = Cert.Spec.convAt a s w b r q := by
  refine (conv4_payload_apply x0 x1 x2 x3 p q).trans ?_
  unfold Cert.Spec.convAt
  rw [h1, h3]
  exact congrArg (· + b (ix2 (0 : Fin 1) q)) (Finset.sum_congr rfl fun k _ => by rw [h0 k, h2 k])

/-- What point `t` writes back is block `t` of the epilogue of the arrays as the launch finds them. -/
theorem conv4_flushed (c : Dev nD) (t : Fin cfg4.N) :
    (dat4 (F := Ideal) V c).flushed 4 t
      = ((cfg4.win 4).blk t).view.read (Elt Ideal) (Cert.Spec.convFn (V c main_v119) (V c main_v120) (V c main_v104) (V c main_v121)) := by
  show (cfg4.win 4).cut (grid4.coords t) ((dat4 V c).after 4 t) = _
  rw [after4_4]
  unfold out4_4
  rw [View.canon_unit_zero conv4_zero_offsets]
  simp only [View.ld_unit_zero (S := S2000x128) conv4_zero_offsets, View.ld_unit_zero (S := S2000x1) conv4_zero_offsets,
    View.ld_unit_zero (S := S128x128) conv4_zero_offsets, View.ld_unit_zero (S := S1x128) conv4_zero_offsets]
  obtain ⟨-, -, -, -, -, -, -, -, e0, e1⟩ := conv4_idx t
  have hN : cfg4.N = 25 := N_4
  funext j
  have hj0 : (j 0).val < 2000 := (j 0).isLt
  have hj1 : (j 1).val < 128 := (j 1).isLt
  have hr : t.val * 2000 + (j 0).val < 50000 := by have := t.isLt; omega
  have hx : (cfg4.win 4).xinj (grid4.coords t) j = ix2 (⟨(j 0).val, hj0⟩ : Fin 2000) (⟨(j 1).val, hj1⟩ : Fin 128) :=
    funext fun a => by match a with | ⟨0, _⟩ => rfl | ⟨1, _⟩ => rfl
  have hy : ((cfg4.win 4).blk t).view.emb j = ix2 (⟨t.val * 2000 + (j 0).val, hr⟩ : Fin 50000) (⟨(j 1).val, hj1⟩ : Fin 128) :=
    funext fun a => Fin.ext (by
      match a with
      | ⟨0, _⟩ => show win4_4.index t (0 : Fin 2) * 2000 + 1 * (j 0).val = t.val * 2000 + (j 0).val; omega
      | ⟨1, _⟩ => show win4_4.index t (1 : Fin 2) * 128 + 1 * (j 1).val = (j 1).val; omega)
  show k4_pay1 (F := Ideal) (iblk4 V c 0 t) (iblk4 V c 1 t) (iblk4 V c 2 t) (iblk4 V c 3 t) ((cfg4.win 4).xinj (grid4.coords t) j)
    = Cert.Spec.convFn (V c main_v119) (V c main_v120) (V c main_v104) (V c main_v121) (((cfg4.win 4).blk t).view.emb j)
  rw [hx, hy]
  exact conv4_tile_apply (V c main_v119) (V c main_v120) (V c main_v104) (V c main_v121)
    (iblk4 V c 0 t) (iblk4 V c 1 t) (iblk4 V c 2 t) (iblk4 V c 3 t) ⟨(j 0).val, hj0⟩ ⟨(j 1).val, hj1⟩ ⟨t.val * 2000 + (j 0).val, hr⟩
    (fun k => conv4_features_apply V c t ⟨(j 0).val, hj0⟩ k ⟨t.val * 2000 + (j 0).val, hr⟩ rfl)
    (conv4_scale_apply V c t ⟨(j 0).val, hj0⟩ ⟨t.val * 2000 + (j 0).val, hr⟩ rfl)
    (fun k => conv4_weight_apply V c t k ⟨(j 1).val, hj1⟩)
    (conv4_bias_apply V c t ⟨(j 1).val, hj1⟩)

/-! ## The array after the launch -/

/-- The 25 row tiles cover the output (row `r` is in tile `r / 2000`), so after the launch the output array is the
    epilogue of the four input arrays as the launch finds them. -/
theorem conv4_value (c : Dev nD) :
    (dat4 (F := Ideal) V c).arrAt 4 cfg4.N = Cert.Spec.convFn (V c main_v119) (V c main_v120) (V c main_v104) (V c main_v121) :=
  (dat4 (F := Ideal) V c).arrAt_eq_of_cover 4 (Cert.Spec.convFn (V c main_v119) (V c main_v120) (V c main_v104) (V c main_v121))
    (fun t _ => conv4_flushed V c t) fun i => by
      have hN : cfg4.N = 25 := N_4
      have hi0 : (i 0).val < 50000 := (i 0).isLt
      have hi1 : (i 1).val < 128 := (i 1).isLt
      have ht : (i 0).val / 2000 < cfg4.N := by omega
      obtain ⟨-, -, -, -, -, -, -, -, e0, e1⟩ := conv4_idx ⟨(i 0).val / 2000, ht⟩
      refine ⟨⟨(i 0).val / 2000, ht⟩, flush4_4 _, ?_⟩
      show i ∈ ((View.whole (Pipeline.arrRef spec4 4)).slice (win4_4.rect ⟨(i 0).val / 2000, ht⟩)).set
      rw [View.set_slice_whole, Rect.mem_set_unit]
      intro a
      match a with
      | ⟨0, _⟩ =>
        show win4_4.index ⟨(i 0).val / 2000, ht⟩ (0 : Fin 2) * 2000 ≤ (i 0).val
          ∧ (i 0).val < win4_4.index ⟨(i 0).val / 2000, ht⟩ (0 : Fin 2) * 2000 + 2000
        rw [e0]; show (i 0).val / 2000 * 2000 ≤ (i 0).val ∧ (i 0).val < (i 0).val / 2000 * 2000 + 2000; omega
      | ⟨1, _⟩ =>
        show win4_4.index ⟨(i 0).val / 2000, ht⟩ (1 : Fin 2) * 128 ≤ (i 1).val
          ∧ (i 1).val < win4_4.index ⟨(i 0).val / 2000, ht⟩ (1 : Fin 2) * 128 + 128
        rw [e1]; omega

end Cert.KernelIdeal.Hand

end
-- ==== Proof.KernelIdeal.ConvValue9.lean ====
/-
  The value of the graph-convolution epilogue, launch 9, at ideal (extended-real) values. The body's arithmetic at entry
  (p, q) of a tile is the sum over k of (tile(p, k) · scale(p, 0)) · weight(k, q), plus bias(0, q): the casts keep their
  shapes, the scale's column is laid along every column, the product accumulates into zero, the bias's row is laid along
  every row. At grid point t the feature tile and the scale tile are rows 2000 t … 2000 t + 1999 of their arrays, the
  weight and bias blocks are the whole arrays, and the point writes back the same rows of the output; the 25 row tiles
  cover the 50000 rows. So after the launch the output array is `Cert.Spec.convFn` of the four input arrays as the launch
  finds them.
-/
import proofs.«418080_j49366354100286_4_alg».proof.Proof.KernelIdeal.Conv9
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic at an entry -/

/-- A column `[a, 1]` broadcast to `[a, b]` reads, at `(p, c)`, the column's entry of row `p`. -/
theorem conv9_column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row and the contraction coordinate, -/
theorem conv9_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem conv9_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- and its right operand at the contraction coordinate and the output's column. -/
theorem conv9_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem conv9_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product into a zero accumulator, at ideal values: entry `(p, q)` is the sum over `k` of the
    left operand's `(p, k)` times the right operand's `(k, q)`. -/
theorem conv9_matmul_apply (l : FVec Ideal S2000x128 .f32) (r : FVec Ideal S128x128 .f32) (p : Fin 2000) (q : Fin 128) :
    matmul (F := Ideal) dot_S2000x128_S128x128_S2000x128_1_0_0_1_n_n (some .fp32) l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n (some .fp32) l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact conv9_lhs_0 _ _
    | ⟨1, _⟩ => exact (conv9_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (conv9_rhs_0 _ _).trans hk
    | ⟨1, _⟩ => exact conv9_rhs_1 _ _)
  rw [el, er]

/-- The body's arithmetic at an entry, at ideal values: the tile's row `p` scaled by that row's scale, times the weight's
    column `q`, plus the bias at `q`. -/
theorem conv9_payload_apply (x0 : Vec Ideal S2000x128 .f32) (x1 : Vec Ideal S2000x1 .f32) (x2 : Vec Ideal S128x128 .f32)
    (x3 : Vec Ideal S1x128 .f32) (p : Fin 2000) (q : Fin 128) :
    k9_pay1 (F := Ideal) x0 x1 x2 x3 (ix2 p q)
      = (∑ k : Fin 128, (x0 (ix2 p k) * x1 (ix2 p (0 : Fin 1))) * x2 (ix2 k q)) + x3 (ix2 (0 : Fin 1) q) := by
  unfold k9_pay1
  simp only [shapeCast_self]
  refine (addf_apply _ _ _).trans ?_
  refine congrArg₂ (· + ·) ?_ (broadcastTo_1b_ab_apply x3 broadcasts_S1x128_S2000x128 p q)
  refine (conv9_matmul_apply _ x2 p q).trans ?_
  refine Finset.sum_congr rfl fun k _ => ?_
  refine congrArg (· * x2 (ix2 k q)) ?_
  refine (mulf_apply _ _ _).trans ?_
  exact congrArg (x0 (ix2 p k) * ·) (conv9_column_broadcast_apply x1 broadcasts_S2000x1_S2000x128 p k)

/-! ## What one grid point writes back -/

theorem conv9_zero_offsets : (![0, 0] : Fin 2 → Nat) = fun _ => 0 := funext fun a => by fin_cases a <;> rfl

/-- The printed index maps, decided over the 25 grid points: at point `t` the feature tile, the scale tile and the output
    tile are the `t`-th row tiles of their arrays, and the weight and the bias are whole. -/
theorem conv9_idx : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

variable (V : (c : Dev nD) → (b : Ref sig .tc) → Buf (Elt Ideal) ((c : Thread nD τ).loc b))

/-- The feature tile at point `t` is rows `2000 t … 2000 t + 1999` of the aggregated features. -/
theorem conv9_features_apply (c : Dev nD) (t : Fin cfg9.N) (p : Fin 2000) (k : Fin 128) (r : Fin 50000)
    (hr : r.val = t.val * 2000 + p.val) :
    (iblk9 V c 0 t : Vec Ideal S2000x128 .f32) (ix2 p k) = (V c main_v256 : S50000x128.Idx → EReal) (ix2 r k) := by
  obtain ⟨e0, e1, -⟩ := conv9_idx t
  show V c main_v256 (((cfg9.win 0).blk t).view.emb (ix2 p k)) = V c main_v256 (ix2 r k)
  refine congrArg (V c main_v256) (funext fun a => Fin.ext ?_)
  match a with
  | ⟨0, _⟩ => show win9_0.index t (0 : Fin 2) * 2000 + 1 * p.val = r.val; omega
  | ⟨1, _⟩ => show win9_0.index t (1 : Fin 2) * 128 + 1 * k.val = k.val; omega

/-- The scale tile at point `t` is the same rows of the degree scale. -/
theorem conv9_scale_apply (c : Dev nD) (t : Fin cfg9.N) (p : Fin 2000) (r : Fin 50000)
    (hr : r.val = t.val * 2000 + p.val) :
    (iblk9 V c 1 t : Vec Ideal S2000x1 .f32) (ix2 p (0 : Fin 1)) = (V c main_v257 : S50000x1.Idx → EReal) (ix2 r (0 : Fin 1)) := by
  obtain ⟨-, -, e0, e1, -⟩ := conv9_idx t
  show V c main_v257 (((cfg9.win 1).blk t).view.emb (ix2 p (0 : Fin 1))) = V c main_v257 (ix2 r (0 : Fin 1))
  refine congrArg (V c main_v257) (funext fun a => Fin.ext ?_)
  match a with
  | ⟨0, _⟩ => show win9_1.index t (0 : Fin 2) * 2000 + 1 * p.val = r.val; omega
  | ⟨1, _⟩ => show win9_1.index t (1 : Fin 2) * 1 + 1 * 0 = 0; omega

/-- The weight block at every point is the whole weight, -/
theorem conv9_weight_apply (c : Dev nD) (t : Fin cfg9.N) (k : Fin 128) (q : Fin 128) :
    (iblk9 V c 2 t : Vec Ideal S128x128 .f32) (ix2 k q) = (V c main_v241 : S128x128.Idx → EReal) (ix2 k q) := by
  obtain ⟨-, -, -, -, e0, e1, -⟩ := conv9_idx t
  show V c main_v241 (((cfg9.win 2).blk t).view.emb (ix2 k q)) = V c main_v241 (ix2 k q)
  refine congrArg (V c main_v241) (funext fun a => Fin.ext ?_)
  match a with
  | ⟨0, _⟩ => show win9_2.index t (0 : Fin 2) * 128 + 1 * k.val = k.val; omega
  | ⟨1, _⟩ => show win9_2.index t (1 : Fin 2) * 128 + 1 * q.val = q.val; omega

/-- and the bias block the whole bias. -/
theorem conv9_bias_apply (c : Dev nD) (t : Fin cfg9.N) (q : Fin 128) :
    (iblk9 V c 3 t : Vec Ideal S1x128 .f32) (ix2 (0 : Fin 1) q) = (V c main_v258 : S1x128.Idx → EReal) (ix2 (0 : Fin 1) q) := by
  obtain ⟨-, -, -, -, -, -, e0, e1, -⟩ := conv9_idx t
  show V c main_v258 (((cfg9.win 3).blk t).view.emb (ix2 (0 : Fin 1) q)) = V c main_v258 (ix2 (0 : Fin 1) q)
  refine congrArg (V c main_v258) (funext fun a => Fin.ext ?_)
  match a with
  | ⟨0, _⟩ => show win9_3.index t (0 : Fin 2) * 1 + 1 * 0 = 0; omega
  | ⟨1, _⟩ => show win9_3.index t (1 : Fin 2) * 128 + 1 * q.val = q.val; omega

/-- The body's result on four blocks that agree, entry by entry, with row `r` of the features, the scale at row `r`,
    the weight and the bias, is the epilogue's entry `(r, q)`. -/
theorem conv9_tile_apply (a : S50000x128.Idx → EReal) (s : S50000x1.Idx → EReal) (w : S128x128.Idx → EReal) (b : S1x128.Idx → EReal)
    (x0 : Vec Ideal S2000x128 .f32) (x1 : Vec Ideal S2000x1 .f32) (x2 : Vec Ideal S128x128 .f32) (x3 : Vec Ideal S1x128 .f32)
    (p : Fin 2000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k9_pay1 (F := Ideal) x0 x1 x2 x3 (ix2 p q) = Cert.Spec.convAt a s w b r q := by
  refine (conv9_payload_apply x0 x1 x2 x3 p q).trans ?_
  unfold Cert.Spec.convAt
  rw [h1, h3]
  exact congrArg (· + b (ix2 (0 : Fin 1) q)) (Finset.sum_congr rfl fun k _ => by rw [h0 k, h2 k])

/-- What point `t` writes back is block `t` of the epilogue of the arrays as the launch finds them. -/
theorem conv9_flushed (c : Dev nD) (t : Fin cfg9.N) :
    (dat9 (F := Ideal) V c).flushed 4 t
      = ((cfg9.win 4).blk t).view.read (Elt Ideal) (Cert.Spec.convFn (V c main_v256) (V c main_v257) (V c main_v241) (V c main_v258)) := by
  show (cfg9.win 4).cut (grid9.coords t) ((dat9 V c).after 4 t) = _
  rw [after9_4]
  unfold out9_4
  rw [View.canon_unit_zero conv9_zero_offsets]
  simp only [View.ld_unit_zero (S := S2000x128) conv9_zero_offsets, View.ld_unit_zero (S := S2000x1) conv9_zero_offsets,
    View.ld_unit_zero (S := S128x128) conv9_zero_offsets, View.ld_unit_zero (S := S1x128) conv9_zero_offsets]
  obtain ⟨-, -, -, -, -, -, -, -, e0, e1⟩ := conv9_idx t
  have hN : cfg9.N = 25 := N_9
  funext j
  have hj0 : (j 0).val < 2000 := (j 0).isLt
  have hj1 : (j 1).val < 128 := (j 1).isLt
  have hr : t.val * 2000 + (j 0).val < 50000 := by have := t.isLt; omega
  have hx : (cfg9.win 4).xinj (grid9.coords t) j = ix2 (⟨(j 0).val, hj0⟩ : Fin 2000) (⟨(j 1).val, hj1⟩ : Fin 128) :=
    funext fun a => by match a with | ⟨0, _⟩ => rfl | ⟨1, _⟩ => rfl
  have hy : ((cfg9.win 4).blk t).view.emb j = ix2 (⟨t.val * 2000 + (j 0).val, hr⟩ : Fin 50000) (⟨(j 1).val, hj1⟩ : Fin 128) :=
    funext fun a => Fin.ext (by
      match a with
      | ⟨0, _⟩ => show win9_4.index t (0 : Fin 2) * 2000 + 1 * (j 0).val = t.val * 2000 + (j 0).val; omega
      | ⟨1, _⟩ => show win9_4.index t (1 : Fin 2) * 128 + 1 * (j 1).val = (j 1).val; omega)
  show k9_pay1 (F := Ideal) (iblk9 V c 0 t) (iblk9 V c 1 t) (iblk9 V c 2 t) (iblk9 V c 3 t) ((cfg9.win 4).xinj (grid9.coords t) j)
    = Cert.Spec.convFn (V c main_v256) (V c main_v257) (V c main_v241) (V c main_v258) (((cfg9.win 4).blk t).view.emb j)
  rw [hx, hy]
  exact conv9_tile_apply (V c main_v256) (V c main_v257) (V c main_v241) (V c main_v258)
    (iblk9 V c 0 t) (iblk9 V c 1 t) (iblk9 V c 2 t) (iblk9 V c 3 t) ⟨(j 0).val, hj0⟩ ⟨(j 1).val, hj1⟩ ⟨t.val * 2000 + (j 0).val, hr⟩
    (fun k => conv9_features_apply V c t ⟨(j 0).val, hj0⟩ k ⟨t.val * 2000 + (j 0).val, hr⟩ rfl)
    (conv9_scale_apply V c t ⟨(j 0).val, hj0⟩ ⟨t.val * 2000 + (j 0).val, hr⟩ rfl)
    (fun k => conv9_weight_apply V c t k ⟨(j 1).val, hj1⟩)
    (conv9_bias_apply V c t ⟨(j 1).val, hj1⟩)

/-! ## The array after the launch -/

/-- The 25 row tiles cover the output (row `r` is in tile `r / 2000`), so after the launch the output array is the
    epilogue of the four input arrays as the launch finds them. -/
theorem conv9_value (c : Dev nD) :
    (dat9 (F := Ideal) V c).arrAt 4 cfg9.N = Cert.Spec.convFn (V c main_v256) (V c main_v257) (V c main_v241) (V c main_v258) :=
  (dat9 (F := Ideal) V c).arrAt_eq_of_cover 4 (Cert.Spec.convFn (V c main_v256) (V c main_v257) (V c main_v241) (V c main_v258))
    (fun t _ => conv9_flushed V c t) fun i => by
      have hN : cfg9.N = 25 := N_9
      have hi0 : (i 0).val < 50000 := (i 0).isLt
      have hi1 : (i 1).val < 128 := (i 1).isLt
      have ht : (i 0).val / 2000 < cfg9.N := by omega
      obtain ⟨-, -, -, -, -, -, -, -, e0, e1⟩ := conv9_idx ⟨(i 0).val / 2000, ht⟩
      refine ⟨⟨(i 0).val / 2000, ht⟩, flush9_4 _, ?_⟩
      show i ∈ ((View.whole (Pipeline.arrRef spec9 4)).slice (win9_4.rect ⟨(i 0).val / 2000, ht⟩)).set
      rw [View.set_slice_whole, Rect.mem_set_unit]
      intro a
      match a with
      | ⟨0, _⟩ =>
        show win9_4.index ⟨(i 0).val / 2000, ht⟩ (0 : Fin 2) * 2000 ≤ (i 0).val
          ∧ (i 0).val < win9_4.index ⟨(i 0).val / 2000, ht⟩ (0 : Fin 2) * 2000 + 2000
        rw [e0]; show (i 0).val / 2000 * 2000 ≤ (i 0).val ∧ (i 0).val < (i 0).val / 2000 * 2000 + 2000; omega
      | ⟨1, _⟩ =>
        show win9_4.index ⟨(i 0).val / 2000, ht⟩ (1 : Fin 2) * 128 ≤ (i 1).val
          ∧ (i 1).val < win9_4.index ⟨(i 0).val / 2000, ht⟩ (1 : Fin 2) * 128 + 128
        rw [e1]; omega

end Cert.KernelIdeal.Hand

end
-- ==== Proof.LibReshape.lean ====
/-
  Reading a reshape of a vector into a one-row or a one-column matrix at an index.
  A reshape keeps the row-major position of every entry. In a [1, n] matrix entry (0, q) sits at position 0 * n + q = q,
  and in an [n, 1] matrix entry (r, 0) sits at position r * 1 + 0 = r: in both cases the position of entry q (resp. r)
  of the vector. So the reshaped matrix read at (0, q) (resp. (r, 0)) is the vector read at q (resp. r).
-/
import Idealize.ShloMosaic.Lib.Pipeline.Value
import Idealize.ShloMosaic.Lib.ValueIdx

namespace Cert.LibReshape

open Idealize.ShloMosaic Idealize.ShloMosaic.ValueIdx

variable {α : Type}

/-- A vector of `n` entries reshaped to ONE ROW: entry (0, q) of the [1, n] matrix is entry q of the vector
    (both sit at row-major position q). -/
theorem shapeCast_row_apply {n : ℕ} (v : (⟨1, ![n]⟩ : Shape).Idx → α)
    (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = 0 * n + q.val
    rw [Nat.zero_mul, Nat.zero_add])

/-- A vector of `n` entries reshaped to ONE COLUMN: entry (r, 0) of the [n, 1] matrix is entry r of the vector
    (both sit at row-major position r). -/
theorem shapeCast_col_apply {n : ℕ} (v : (⟨1, ![n]⟩ : Shape).Idx → α)
    (h : (⟨1, ![n]⟩ : Shape).ShapeCasts ⟨2, ![n, 1]⟩) (r : Fin n) :
    shapeCast ⟨2, ![n, 1]⟩ v h (ix2 r (0 : Fin 1)) = v (ix1 r) :=
  shapeCast_apply v h (ix2 r (0 : Fin 1)) (ix1 r) (by
    rw [Shape.rowMajor_val_two, Shape.rowMajor_val_one]
    show r.val = r.val * 1 + 0
    rw [Nat.mul_one, Nat.add_zero])

end Cert.LibReshape
-- ==== Proof.KernelIdeal.Stages.lean ====
/-
  The host stretches of the idealized kernel, stage by stage, against the reference, at any float instance. The two programs apply the same host operations
  (slices of the weights, the degree histograms by scatter-add of ones, clip, rsqrt, the scaling of features, the gather along edges, the
  scatter-add into destinations, the sums per node type, the final maximum with zero and the stacking) to the same arguments, so every
  buffer of the kernel that a launch reads, or that is read across a launch, holds the reference's stage function of the arguments,
  provided each launch result read on the way holds the reference's stage for it (the hypotheses `h_v<N>`; the launches' values are proved
  elsewhere). Each lemma reads one host stretch back to the item before it and compares the two terms, which are the same
  operations on the same operands. A launch's bias row and degree-scale column are reshapes the reference does not have: for them the
  lemma is pointwise, against the reference's one-dimensional stage.
-/
import proofs.«418080_j49366354100286_4_alg».proof.Proof.KernelIdeal.RegionsP
import proofs.«418080_j49366354100286_4_alg».proof.Proof.RefReadP
import proofs.«418080_j49366354100286_4_alg».proof.Proof.LibReshape
import Idealize.ShloMosaic.Lib.StableHlo.Run
import Idealize.ShloMosaic.Lib.ValueIdx

set_option maxRecDepth 16384
set_option maxHeartbeats 4000000

noncomputable section

namespace Cert.KernelIdeal.Hand

open Cert.KernelIdeal Cert.KernelIdeal.Gen Cert.KernelIdeal.GenP
open Cert.ReferenceIdeal.ReadP
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (outs : Outs (F := F))

/-- Argument 0 as launched, on core `c`. -/
abbrev a0 (c : Dev nD) := m ((c.tc : Thread nD τ).loc main_arg0)
/-- Argument 1 as launched, on core `c`. -/
abbrev a1 (c : Dev nD) := m ((c.tc : Thread nD τ).loc main_arg1)
/-- Argument 2 as launched, on core `c`. -/
abbrev a2 (c : Dev nD) := m ((c.tc : Thread nD τ).loc main_arg2)
/-- Argument 3 as launched, on core `c`. -/
abbrev a3 (c : Dev nD) := m ((c.tc : Thread nD τ).loc main_arg3)
/-- Argument 4 as launched, on core `c`. -/
abbrev a4 (c : Dev nD) := m ((c.tc : Thread nD τ).loc main_arg4)
/-- Argument 5 as launched, on core `c`. -/
abbrev a5 (c : Dev nD) := m ((c.tc : Thread nD τ).loc main_arg5)
/-- Argument 6 as launched, on core `c`. -/
abbrev a6 (c : Dev nD) := m ((c.tc : Thread nD τ).loc main_arg6)
/-- Argument 7 as launched, on core `c`. -/
abbrev a7 (c : Dev nD) := m ((c.tc : Thread nD τ).loc main_arg7)
/-- Argument 8 as launched, on core `c`. -/
abbrev a8 (c : Dev nD) := m ((c.tc : Thread nD τ).loc main_arg8)
/-- Argument 9 as launched, on core `c`. -/
abbrev a9 (c : Dev nD) := m ((c.tc : Thread nD τ).loc main_arg9)
/-- Argument 10 as launched, on core `c`. -/
abbrev a10 (c : Dev nD) := m ((c.tc : Thread nD τ).loc main_arg10)
/-- Argument 11 as launched, on core `c`. -/
abbrev a11 (c : Dev nD) := m ((c.tc : Thread nD τ).loc main_arg11)

theorem V2_self (c : Dev nD) : V2 m outs c main_v5 = outs 2 main_v5 c := by
  show Function.update _ _ _ _ = _; rw [Function.update_self]
theorem V4_self (c : Dev nD) : V4 m outs c main_v11 = outs 4 main_v11 c := by
  show Function.update _ _ _ _ = _; rw [Function.update_self]
theorem V6_self (c : Dev nD) : V6 m outs c main_v17 = outs 6 main_v17 c := by
  show Function.update _ _ _ _ = _; rw [Function.update_self]
theorem V8_self (c : Dev nD) : V8 m outs c main_v23 = outs 8 main_v23 c := by
  show Function.update _ _ _ _ = _; rw [Function.update_self]
theorem V30_self (c : Dev nD) : V30 m outs c main_v122 = outs 30 main_v122 c := by
  show Function.update _ _ _ _ = _; rw [Function.update_self]
theorem V32_self (c : Dev nD) : V32 m outs c main_v147 = outs 32 main_v147 c := by
  show Function.update _ _ _ _ = _; rw [Function.update_self]
theorem V34_self (c : Dev nD) : V34 m outs c main_v172 = outs 34 main_v172 c := by
  show Function.update _ _ _ _ = _; rw [Function.update_self]
theorem V36_self (c : Dev nD) : V36 m outs c main_v197 = outs 36 main_v197 c := by
  show Function.update _ _ _ _ = _; rw [Function.update_self]
theorem V38_self (c : Dev nD) : V38 m outs c main_v222 = outs 38 main_v222 c := by
  show Function.update _ _ _ _ = _; rw [Function.update_self]
theorem V40_self (c : Dev nD) : V40 m outs c main_v259 = outs 40 main_v259 c := by
  show Function.update _ _ _ _ = _; rw [Function.update_self]
theorem V42_self (c : Dev nD) : V42 m outs c main_v284 = outs 42 main_v284 c := by
  show Function.update _ _ _ _ = _; rw [Function.update_self]
theorem V44_self (c : Dev nD) : V44 m outs c main_v309 = outs 44 main_v309 c := by
  show Function.update _ _ _ _ = _; rw [Function.update_self]
theorem V46_self (c : Dev nD) : V46 m outs c main_v334 = outs 46 main_v334 c := by
  show Function.update _ _ _ _ = _; rw [Function.update_self]
theorem V48_self (c : Dev nD) : V48 m outs c main_v359 = outs 48 main_v359 c := by
  show Function.update _ _ _ _ = _; rw [Function.update_self]

theorem at0_arg6  (c : Dev nD) : V0 m c main_arg6 = a6 m c :=
  rfl
theorem at0_arg7  (c : Dev nD) : V0 m c main_arg7 = a7 m c :=
  rfl
theorem kv_v1  (c : Dev nD) : V1 m c main_v1 = val_main_v1 (F := F) (a6 m c) := by
  show StableHlo.after hostOps0 (V0 m c) (Proc.devRef .tc main_v1) = _
  generalize hW : V0 m c = W
  after_results
  subst hW
  try rw [at0_arg6 m c]
  try rw [at0_arg7 m c]
  try simp only [TRef.ofBuf, TRef.toBuf, cast_eq, id]
  rfl
theorem kv_v4  (c : Dev nD) : V1 m c main_v4 = shapeCast ⟨2, ![1, 128]⟩ (val_main_v4 (F := F) (a7 m c)) shapeCasts_S128_S1x128 := by
  show StableHlo.after hostOps0 (V0 m c) (Proc.devRef .tc main_v4) = _
  generalize hW : V0 m c = W
  after_results
  subst hW
  try rw [at0_arg6 m c]
  try rw [at0_arg7 m c]
  try simp only [TRef.ofBuf, TRef.toBuf, cast_eq, id]
  rfl
theorem kvpt_v4  (c : Dev nD) (q : Fin 128) : V1 m c main_v4 (ix2 (0 : Fin 1) q) = val_main_v4 (F := F) (a7 m c) (ix1 q) := by
  rw [kv_v4 m c]
  exact Cert.LibReshape.shapeCast_row_apply _ _ _
theorem at2_arg6  (c : Dev nD) : V2 m outs c main_arg6 = a6 m c :=
  (V2_of m outs c _ (by decide)).trans ((V1_of m c _ (by decide)).trans (rfl))
theorem at2_arg7  (c : Dev nD) : V2 m outs c main_arg7 = a7 m c :=
  (V2_of m outs c _ (by decide)).trans ((V1_of m c _ (by decide)).trans (rfl))
theorem kv_v7  (c : Dev nD) : V3 m outs c main_v7 = val_main_v10 (F := F) (a6 m c) := by
  show StableHlo.after hostOps1 (V2 m outs c) (Proc.devRef .tc main_v7) = _
  generalize hW : V2 m outs c = W
  after_results
  subst hW
  try rw [at2_arg6 m outs c]
  try rw [at2_arg7 m outs c]
  try simp only [TRef.ofBuf, TRef.toBuf, cast_eq, id]
  rfl
theorem kv_v10  (c : Dev nD) : V3 m outs c main_v10 = shapeCast ⟨2, ![1, 128]⟩ (val_main_v13 (F := F) (a7 m c)) shapeCasts_S128_S1x128 := by
  show StableHlo.after hostOps1 (V2 m outs c) (Proc.devRef .tc main_v10) = _
  generalize hW : V2 m outs c = W
  after_results
  subst hW
  try rw [at2_arg6 m outs c]
  try rw [at2_arg7 m outs c]
  try simp only [TRef.ofBuf, TRef.toBuf, cast_eq, id]
  rfl
theorem kvpt_v10  (c : Dev nD) (q : Fin 128) : V3 m outs c main_v10 (ix2 (0 : Fin 1) q) = val_main_v13 (F := F) (a7 m c) (ix1 q) := by
  rw [kv_v10 m outs c]
  exact Cert.LibReshape.shapeCast_row_apply _ _ _
theorem at4_arg6  (c : Dev nD) : V4 m outs c main_arg6 = a6 m c :=
  (V4_of m outs c _ (by decide)).trans ((V3_of m outs c _ (by decide)).trans ((V2_of m outs c _ (by decide)).trans ((V1_of m c _ (by decide)).trans (rfl))))
theorem at4_arg7  (c : Dev nD) : V4 m outs c main_arg7 = a7 m c :=
  (V4_of m outs c _ (by decide)).trans ((V3_of m outs c _ (by decide)).trans ((V2_of m outs c _ (by decide)).trans ((V1_of m c _ (by decide)).trans (rfl))))
theorem kv_v13  (c : Dev nD) : V5 m outs c main_v13 = val_main_v19 (F := F) (a6 m c) := by
  show StableHlo.after hostOps2 (V4 m outs c) (Proc.devRef .tc main_v13) = _
  generalize hW : V4 m outs c = W
  after_results
  subst hW
  try rw [at4_arg6 m outs c]
  try rw [at4_arg7 m outs c]
  try simp only [TRef.ofBuf, TRef.toBuf, cast_eq, id]
  rfl
theorem kv_v16  (c : Dev nD) : V5 m outs c main_v16 = shapeCast ⟨2, ![1, 128]⟩ (val_main_v22 (F := F) (a7 m c)) shapeCasts_S128_S1x128 := by
  show StableHlo.after hostOps2 (V4 m outs c) (Proc.devRef .tc main_v16) = _
  generalize hW : V4 m outs c = W
  after_results
  subst hW
  try rw [at4_arg6 m outs c]
  try rw [at4_arg7 m outs c]
  try simp only [TRef.ofBuf, TRef.toBuf, cast_eq, id]
  rfl
theorem kvpt_v16  (c : Dev nD) (q : Fin 128) : V5 m outs c main_v16 (ix2 (0 : Fin 1) q) = val_main_v22 (F := F) (a7 m c) (ix1 q) := by
  rw [kv_v16 m outs c]
  exact Cert.LibReshape.shapeCast_row_apply _ _ _
theorem at6_arg6  (c : Dev nD) : V6 m outs c main_arg6 = a6 m c :=
  (V6_of m outs c _ (by decide)).trans ((V5_of m outs c _ (by decide)).trans ((V4_of m outs c _ (by decide)).trans ((V3_of m outs c _ (by decide)).trans ((V2_of m outs c _ (by decide)).trans ((V1_of m c _ (by decide)).trans (rfl))))))
theorem at6_arg7  (c : Dev nD) : V6 m outs c main_arg7 = a7 m c :=
  (V6_of m outs c _ (by decide)).trans ((V5_of m outs c _ (by decide)).trans ((V4_of m outs c _ (by decide)).trans ((V3_of m outs c _ (by decide)).trans ((V2_of m outs c _ (by decide)).trans ((V1_of m c _ (by decide)).trans (rfl))))))
theorem kv_v19  (c : Dev nD) : V7 m outs c main_v19 = val_main_v28 (F := F) (a6 m c) := by
  show StableHlo.after hostOps3 (V6 m outs c) (Proc.devRef .tc main_v19) = _
  generalize hW : V6 m outs c = W
  after_results
  subst hW
  try rw [at6_arg6 m outs c]
  try rw [at6_arg7 m outs c]
  try simp only [TRef.ofBuf, TRef.toBuf, cast_eq, id]
  rfl
theorem kv_v22  (c : Dev nD) : V7 m outs c main_v22 = shapeCast ⟨2, ![1, 128]⟩ (val_main_v31 (F := F) (a7 m c)) shapeCasts_S128_S1x128 := by
  show StableHlo.after hostOps3 (V6 m outs c) (Proc.devRef .tc main_v22) = _
  generalize hW : V6 m outs c = W
  after_results
  subst hW
  try rw [at6_arg6 m outs c]
  try rw [at6_arg7 m outs c]
  try simp only [TRef.ofBuf, TRef.toBuf, cast_eq, id]
  rfl
theorem kvpt_v22  (c : Dev nD) (q : Fin 128) : V7 m outs c main_v22 (ix2 (0 : Fin 1) q) = val_main_v31 (F := F) (a7 m c) (ix1 q) := by
  rw [kv_v22 m outs c]
  exact Cert.LibReshape.shapeCast_row_apply _ _ _
theorem at8_arg4  (c : Dev nD) : V8 m outs c main_arg4 = a4 m c :=
  (V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))
theorem at8_arg5  (c : Dev nD) : V8 m outs c main_arg5 = a5 m c :=
  (V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))
theorem kv_v24  (c : Dev nD) : V9 m outs c main_v24 = val_main_v48 (F := F) := by
  show StableHlo.after hostOps4 (V8 m outs c) (Proc.devRef .tc main_v24) = _
  generalize hW : V8 m outs c = W
  after_results
  subst hW
  try rw [at8_arg4 m outs c]
  try rw [at8_arg5 m outs c]
  try simp only [TRef.ofBuf, TRef.toBuf, cast_eq, id]
  rfl
theorem kv_v28  (c : Dev nD) : V9 m outs c main_v28 = val_main_v43 (F := F) (a5 m c) := by
  show StableHlo.after hostOps4 (V8 m outs c) (Proc.devRef .tc main_v28) = _
  generalize hW : V8 m outs c = W
  after_results
  subst hW
  try rw [at8_arg4 m outs c]
  try rw [at8_arg5 m outs c]
  try simp only [TRef.ofBuf, TRef.toBuf, cast_eq, id]
  rfl
theorem kv_v31  (c : Dev nD) : V9 m outs c main_v31 = val_main_v51 (F := F) (a4 m c) := by
  show StableHlo.after hostOps4 (V8 m outs c) (Proc.devRef .tc main_v31) = _
  generalize hW : V8 m outs c = W
  after_results
  subst hW
  try rw [at8_arg4 m outs c]
  try rw [at8_arg5 m outs c]
  try simp only [TRef.ofBuf, TRef.toBuf, cast_eq, id]
  rfl
theorem kv_cst_1  (c : Dev nD) : V9 m outs c main_cst_1 = val_main_cst_3 (F := F) := by
  show StableHlo.after hostOps4 (V8 m outs c) (Proc.devRef .tc main_cst_1) = _
  generalize hW : V8 m outs c = W
  after_results
  subst hW
  try rw [at8_arg4 m outs c]
  try rw [at8_arg5 m outs c]
  try simp only [TRef.ofBuf, TRef.toBuf, cast_eq, id]
  rfl
theorem at9_v31  (c : Dev nD) : V9 m outs c main_v31 = val_main_v51 (F := F) (a4 m c) :=
  kv_v31 m outs c
theorem at9_cst_1  (c : Dev nD) : V9 m outs c main_cst_1 = val_main_cst_3 (F := F) :=
  kv_cst_1 m outs c
theorem kv_v32  (c : Dev nD) : V10 m outs c main_v32 = val_main_v52 (F := F) (a4 m c) := by
  show StableHlo.after hostOps4_1 (V9 m outs c) (Proc.devRef .tc main_v32) = _
  generalize hW : V9 m outs c = W
  after_results
  subst hW
  try rw [at9_v31 m outs c]
  try rw [at9_cst_1 m outs c]
  try simp only [TRef.ofBuf, TRef.toBuf, cast_eq, id]
  rfl
theorem at10_v28  (c : Dev nD) : V10 m outs c main_v28 = val_main_v43 (F := F) (a5 m c) :=
  (V10_of m outs c _ (by decide)).trans (kv_v28 m outs c)
theorem at10_v24  (c : Dev nD) : V10 m outs c main_v24 = val_main_v48 (F := F) :=
  (V10_of m outs c _ (by decide)).trans (kv_v24 m outs c)
theorem kv_v35  (c : Dev nD) : V11 m outs c main_v35 = val_main_v55 (F := F) (a5 m c) := by
  show StableHlo.after hostOps4_2 (V10 m outs c) (Proc.devRef .tc main_v35) = _
  generalize hW : V10 m outs c = W
  after_results
  subst hW
  try rw [at10_v28 m outs c]
  try rw [at10_v24 m outs c]
  try simp only [TRef.ofBuf, TRef.toBuf, cast_eq, id]
  rfl
theorem kv_cst_3  (c : Dev nD) : V11 m outs c main_cst_3 = val_main_cst_3 (F := F) := by
  show StableHlo.after hostOps4_2 (V10 m outs c) (Proc.devRef .tc main_cst_3) = _
  generalize hW : V10 m outs c = W
  after_results
  subst hW
  try rw [at10_v28 m outs c]
  try rw [at10_v24 m outs c]
  try simp only [TRef.ofBuf, TRef.toBuf, cast_eq, id]
  rfl
theorem at11_v35  (c : Dev nD) : V11 m outs c main_v35 = val_main_v55 (F := F) (a5 m c) :=
  kv_v35 m outs c
theorem at11_cst_3  (c : Dev nD) : V11 m outs c main_cst_3 = val_main_cst_3 (F := F) :=
  kv_cst_3 m outs c
theorem kv_v36  (c : Dev nD) : V12 m outs c main_v36 = val_main_v56 (F := F) (a5 m c) := by
  show StableHlo.after hostOps4_3 (V11 m outs c) (Proc.devRef .tc main_v36) = _
  generalize hW : V11 m outs c = W
  after_results
  subst hW
  try rw [at11_v35 m outs c]
  try rw [at11_cst_3 m outs c]
  try simp only [TRef.ofBuf, TRef.toBuf, cast_eq, id]
  rfl
theorem at12_v32  (c : Dev nD) : V12 m outs c main_v32 = val_main_v52 (F := F) (a4 m c) :=
  (V12_of m outs c _ (by decide)).trans ((V11_of m outs c _ (by decide)).trans (kv_v32 m outs c))
theorem at12_v36  (c : Dev nD) : V12 m outs c main_v36 = val_main_v56 (F := F) (a5 m c) :=
  kv_v36 m outs c
theorem at12_arg4  (c : Dev nD) : V12 m outs c main_arg4 = a4 m c :=
  (V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))
theorem at12_arg5  (c : Dev nD) : V12 m outs c main_arg5 = a5 m c :=
  (V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))
theorem at12_v24  (c : Dev nD) : V12 m outs c main_v24 = val_main_v48 (F := F) :=
  (V12_of m outs c _ (by decide)).trans ((V11_of m outs c _ (by decide)).trans ((V10_of m outs c _ (by decide)).trans (kv_v24 m outs c)))
theorem kv_v37  (c : Dev nD) : V13 m outs c main_v37 = val_main_v57 (F := F) (a4 m c) := by
  show StableHlo.after hostOps4_4 (V12 m outs c) (Proc.devRef .tc main_v37) = _
  generalize hW : V12 m outs c = W
  after_results
  subst hW
  try rw [at12_v32 m outs c]
  try rw [at12_v36 m outs c]
  try rw [at12_arg4 m outs c]
  try rw [at12_arg5 m outs c]
  try rw [at12_v24 m outs c]
  try simp only [TRef.ofBuf, TRef.toBuf, cast_eq, id]
  rfl
theorem kv_v38  (c : Dev nD) : V13 m outs c main_v38 = val_main_v71 (F := F) (a5 m c) := by
  show StableHlo.after hostOps4_4 (V12 m outs c) (Proc.devRef .tc main_v38) = _
  generalize hW : V12 m outs c = W
  after_results
  subst hW
  try rw [at12_v32 m outs c]
  try rw [at12_v36 m outs c]
  try rw [at12_arg4 m outs c]
  try rw [at12_arg5 m outs c]
  try rw [at12_v24 m outs c]
  try simp only [TRef.ofBuf, TRef.toBuf, cast_eq, id]
  rfl
theorem kv_v42  (c : Dev nD) : V13 m outs c main_v42 = val_main_v83 (F := F) (a5 m c) := by
  show StableHlo.after hostOps4_4 (V12 m outs c) (Proc.devRef .tc main_v42) = _
  generalize hW : V12 m outs c = W
  after_results
  subst hW
  try rw [at12_v32 m outs c]
  try rw [at12_v36 m outs c]
  try rw [at12_arg4 m outs c]
  try rw [at12_arg5 m outs c]
  try rw [at12_v24 m outs c]
  try simp only [TRef.ofBuf, TRef.toBuf, cast_eq, id]
  rfl
theorem kv_v45  (c : Dev nD) : V13 m outs c main_v45 = val_main_v91 (F := F) (a4 m c) := by
  show StableHlo.after hostOps4_4 (V12 m outs c) (Proc.devRef .tc main_v45) = _
  generalize hW : V12 m outs c = W
  after_results
  subst hW
  try rw [at12_v32 m outs c]
  try rw [at12_v36 m outs c]
  try rw [at12_arg4 m outs c]
  try rw [at12_arg5 m outs c]
  try rw [at12_v24 m outs c]
  try simp only [TRef.ofBuf, TRef.toBuf, cast_eq, id]
  rfl
theorem kv_cst_5  (c : Dev nD) : V13 m outs c main_cst_5 = val_main_cst_3 (F := F) := by
  show StableHlo.after hostOps4_4 (V12 m outs c) (Proc.devRef .tc main_cst_5) = _
  generalize hW : V12 m outs c = W
  after_results
  subst hW
  try rw [at12_v32 m outs c]
  try rw [at12_v36 m outs c]
  try rw [at12_arg4 m outs c]
  try rw [at12_arg5 m outs c]
  try rw [at12_v24 m outs c]
  try simp only [TRef.ofBuf, TRef.toBuf, cast_eq, id]
  rfl
theorem at13_v45  (c : Dev nD) : V13 m outs c main_v45 = val_main_v91 (F := F) (a4 m c) :=
  kv_v45 m outs c
theorem at13_cst_5  (c : Dev nD) : V13 m outs c main_cst_5 = val_main_cst_3 (F := F) :=
  kv_cst_5 m outs c
theorem kv_v46  (c : Dev nD) : V14 m outs c main_v46 = val_main_v92 (F := F) (a4 m c) := by
  show StableHlo.after hostOps4_5 (V13 m outs c) (Proc.devRef .tc main_v46) = _
  generalize hW : V13 m outs c = W
  after_results
  subst hW
  try rw [at13_v45 m outs c]
  try rw [at13_cst_5 m outs c]
  try simp only [TRef.ofBuf, TRef.toBuf, cast_eq, id]
  rfl
theorem at14_v42  (c : Dev nD) : V14 m outs c main_v42 = val_main_v83 (F := F) (a5 m c) :=
  (V14_of m outs c _ (by decide)).trans (kv_v42 m outs c)
theorem at14_v24  (c : Dev nD) : V14 m outs c main_v24 = val_main_v48 (F := F) :=
  (V14_of m outs c _ (by decide)).trans ((V13_of m outs c _ (by decide)).trans ((V12_of m outs c _ (by decide)).trans ((V11_of m outs c _ (by decide)).trans ((V10_of m outs c _ (by decide)).trans (kv_v24 m outs c)))))
theorem kv_v49  (c : Dev nD) : V15 m outs c main_v49 = val_main_v95 (F := F) (a5 m c) := by
  show StableHlo.after hostOps4_6 (V14 m outs c) (Proc.devRef .tc main_v49) = _
  generalize hW : V14 m outs c = W
  after_results
  subst hW
  try rw [at14_v42 m outs c]
  try rw [at14_v24 m outs c]
  try simp only [TRef.ofBuf, TRef.toBuf, cast_eq, id]
  rfl
theorem kv_cst_7  (c : Dev nD) : V15 m outs c main_cst_7 = val_main_cst_3 (F := F) := by
  show StableHlo.after hostOps4_6 (V14 m outs c) (Proc.devRef .tc main_cst_7) = _
  generalize hW : V14 m outs c = W
  after_results
  subst hW
  try rw [at14_v42 m outs c]
  try rw [at14_v24 m outs c]
  try simp only [TRef.ofBuf, TRef.toBuf, cast_eq, id]
  rfl
theorem at15_v49  (c : Dev nD) : V15 m outs c main_v49 = val_main_v95 (F := F) (a5 m c) :=
  kv_v49 m outs c
theorem at15_cst_7  (c : Dev nD) : V15 m outs c main_cst_7 = val_main_cst_3 (F := F) :=
  kv_cst_7 m outs c
theorem kv_v50  (c : Dev nD) : V16 m outs c main_v50 = val_main_v96 (F := F) (a5 m c) := by
  show StableHlo.after hostOps4_7 (V15 m outs c) (Proc.devRef .tc main_v50) = _
  generalize hW : V15 m outs c = W
  after_results
  subst hW
  try rw [at15_v49 m outs c]
  try rw [at15_cst_7 m outs c]
  try simp only [TRef.ofBuf, TRef.toBuf, cast_eq, id]
  rfl
theorem at16_v46  (c : Dev nD) : V16 m outs c main_v46 = val_main_v92 (F := F) (a4 m c) :=
  (V16_of m outs c _ (by decide)).trans ((V15_of m outs c _ (by decide)).trans (kv_v46 m outs c))
theorem at16_v50  (c : Dev nD) : V16 m outs c main_v50 = val_main_v96 (F := F) (a5 m c) :=
  kv_v50 m outs c
theorem at16_arg4  (c : Dev nD) : V16 m outs c main_arg4 = a4 m c :=
  (V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))
theorem at16_arg5  (c : Dev nD) : V16 m outs c main_arg5 = a5 m c :=
  (V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))
theorem at16_v24  (c : Dev nD) : V16 m outs c main_v24 = val_main_v48 (F := F) :=
  (V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans (kv_v24 m outs c)))))))
theorem kv_v51  (c : Dev nD) : V17 m outs c main_v51 = val_main_v97 (F := F) (a4 m c) := by
  show StableHlo.after hostOps4_8 (V16 m outs c) (Proc.devRef .tc main_v51) = _
  generalize hW : V16 m outs c = W
  after_results
  subst hW
  try rw [at16_v46 m outs c]
  try rw [at16_v50 m outs c]
  try rw [at16_arg4 m outs c]
  try rw [at16_arg5 m outs c]
  try rw [at16_v24 m outs c]
  try simp only [TRef.ofBuf, TRef.toBuf, cast_eq, id]
  rfl
theorem kv_v52  (c : Dev nD) : V17 m outs c main_v52 = val_main_v111 (F := F) (a5 m c) := by
  show StableHlo.after hostOps4_8 (V16 m outs c) (Proc.devRef .tc main_v52) = _
  generalize hW : V16 m outs c = W
  after_results
  subst hW
  try rw [at16_v46 m outs c]
  try rw [at16_v50 m outs c]
  try rw [at16_arg4 m outs c]
  try rw [at16_arg5 m outs c]
  try rw [at16_v24 m outs c]
  try simp only [TRef.ofBuf, TRef.toBuf, cast_eq, id]
  rfl
theorem kv_v56  (c : Dev nD) : V17 m outs c main_v56 = val_main_v123 (F := F) (a5 m c) := by
  show StableHlo.after hostOps4_8 (V16 m outs c) (Proc.devRef .tc main_v56) = _
  generalize hW : V16 m outs c = W
  after_results
  subst hW
  try rw [at16_v46 m outs c]
  try rw [at16_v50 m outs c]
  try rw [at16_arg4 m outs c]
  try rw [at16_arg5 m outs c]
  try rw [at16_v24 m outs c]
  try simp only [TRef.ofBuf, TRef.toBuf, cast_eq, id]
  rfl
theorem kv_v59  (c : Dev nD) : V17 m outs c main_v59 = val_main_v131 (F := F) (a4 m c) := by
  show StableHlo.after hostOps4_8 (V16 m outs c) (Proc.devRef .tc main_v59) = _
  generalize hW : V16 m outs c = W
  after_results
  subst hW
  try rw [at16_v46 m outs c]
  try rw [at16_v50 m outs c]
  try rw [at16_arg4 m outs c]
  try rw [at16_arg5 m outs c]
  try rw [at16_v24 m outs c]
  try simp only [TRef.ofBuf, TRef.toBuf, cast_eq, id]
  rfl
theorem kv_cst_9  (c : Dev nD) : V17 m outs c main_cst_9 = val_main_cst_3 (F := F) := by
  show StableHlo.after hostOps4_8 (V16 m outs c) (Proc.devRef .tc main_cst_9) = _
  generalize hW : V16 m outs c = W
  after_results
  subst hW
  try rw [at16_v46 m outs c]
  try rw [at16_v50 m outs c]
  try rw [at16_arg4 m outs c]
  try rw [at16_arg5 m outs c]
  try rw [at16_v24 m outs c]
  try simp only [TRef.ofBuf, TRef.toBuf, cast_eq, id]
  rfl
theorem at17_v59  (c : Dev nD) : V17 m outs c main_v59 = val_main_v131 (F := F) (a4 m c) :=
  kv_v59 m outs c
theorem at17_cst_9  (c : Dev nD) : V17 m outs c main_cst_9 = val_main_cst_3 (F := F) :=
  kv_cst_9 m outs c
theorem kv_v60  (c : Dev nD) : V18 m outs c main_v60 = val_main_v132 (F := F) (a4 m c) := by
  show StableHlo.after hostOps4_9 (V17 m outs c) (Proc.devRef .tc main_v60) = _
  generalize hW : V17 m outs c = W
  after_results
  subst hW
  try rw [at17_v59 m outs c]
  try rw [at17_cst_9 m outs c]
  try simp only [TRef.ofBuf, TRef.toBuf, cast_eq, id]
  rfl
theorem at18_v56  (c : Dev nD) : V18 m outs c main_v56 = val_main_v123 (F := F) (a5 m c) :=
  (V18_of m outs c _ (by decide)).trans (kv_v56 m outs c)
theorem at18_v24  (c : Dev nD) : V18 m outs c main_v24 = val_main_v48 (F := F) :=
  (V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans (kv_v24 m outs c)))))))))
theorem kv_v63  (c : Dev nD) : V19 m outs c main_v63 = val_main_v135 (F := F) (a5 m c) := by
  show StableHlo.after hostOps4_10 (V18 m outs c) (Proc.devRef .tc main_v63) = _
  generalize hW : V18 m outs c = W
  after_results
  subst hW
  try rw [at18_v56 m outs c]
  try rw [at18_v24 m outs c]
  try simp only [TRef.ofBuf, TRef.toBuf, cast_eq, id]
  rfl
theorem kv_cst_11  (c : Dev nD) : V19 m outs c main_cst_11 = val_main_cst_3 (F := F) := by
  show StableHlo.after hostOps4_10 (V18 m outs c) (Proc.devRef .tc main_cst_11) = _
  generalize hW : V18 m outs c = W
  after_results
  subst hW
  try rw [at18_v56 m outs c]
  try rw [at18_v24 m outs c]
  try simp only [TRef.ofBuf, TRef.toBuf, cast_eq, id]
  rfl
theorem at19_v63  (c : Dev nD) : V19 m outs c main_v63 = val_main_v135 (F := F) (a5 m c) :=
  kv_v63 m outs c
theorem at19_cst_11  (c : Dev nD) : V19 m outs c main_cst_11 = val_main_cst_3 (F := F) :=
  kv_cst_11 m outs c
theorem kv_v64  (c : Dev nD) : V20 m outs c main_v64 = val_main_v136 (F := F) (a5 m c) := by
  show StableHlo.after hostOps4_11 (V19 m outs c) (Proc.devRef .tc main_v64) = _
  generalize hW : V19 m outs c = W
  after_results
  subst hW
  try rw [at19_v63 m outs c]
  try rw [at19_cst_11 m outs c]
  try simp only [TRef.ofBuf, TRef.toBuf, cast_eq, id]
  rfl
theorem at20_v60  (c : Dev nD) : V20 m outs c main_v60 = val_main_v132 (F := F) (a4 m c) :=
  (V20_of m outs c _ (by decide)).trans ((V19_of m outs c _ (by decide)).trans (kv_v60 m outs c))
theorem at20_v64  (c : Dev nD) : V20 m outs c main_v64 = val_main_v136 (F := F) (a5 m c) :=
  kv_v64 m outs c
theorem at20_arg4  (c : Dev nD) : V20 m outs c main_arg4 = a4 m c :=
  (V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))
theorem at20_arg5  (c : Dev nD) : V20 m outs c main_arg5 = a5 m c :=
  (V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))
theorem at20_v24  (c : Dev nD) : V20 m outs c main_v24 = val_main_v48 (F := F) :=
  (V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans (kv_v24 m outs c)))))))))))
theorem kv_v65  (c : Dev nD) : V21 m outs c main_v65 = val_main_v137 (F := F) (a4 m c) := by
  show StableHlo.after hostOps4_12 (V20 m outs c) (Proc.devRef .tc main_v65) = _
  generalize hW : V20 m outs c = W
  after_results
  subst hW
  try rw [at20_v60 m outs c]
  try rw [at20_v64 m outs c]
  try rw [at20_arg4 m outs c]
  try rw [at20_arg5 m outs c]
  try rw [at20_v24 m outs c]
  try simp only [TRef.ofBuf, TRef.toBuf, cast_eq, id]
  rfl
theorem kv_v66  (c : Dev nD) : V21 m outs c main_v66 = val_main_v151 (F := F) (a5 m c) := by
  show StableHlo.after hostOps4_12 (V20 m outs c) (Proc.devRef .tc main_v66) = _
  generalize hW : V20 m outs c = W
  after_results
  subst hW
  try rw [at20_v60 m outs c]
  try rw [at20_v64 m outs c]
  try rw [at20_arg4 m outs c]
  try rw [at20_arg5 m outs c]
  try rw [at20_v24 m outs c]
  try simp only [TRef.ofBuf, TRef.toBuf, cast_eq, id]
  rfl
theorem kv_v70  (c : Dev nD) : V21 m outs c main_v70 = val_main_v163 (F := F) (a5 m c) := by
  show StableHlo.after hostOps4_12 (V20 m outs c) (Proc.devRef .tc main_v70) = _
  generalize hW : V20 m outs c = W
  after_results
  subst hW
  try rw [at20_v60 m outs c]
  try rw [at20_v64 m outs c]
  try rw [at20_arg4 m outs c]
  try rw [at20_arg5 m outs c]
  try rw [at20_v24 m outs c]
  try simp only [TRef.ofBuf, TRef.toBuf, cast_eq, id]
  rfl
theorem kv_v73  (c : Dev nD) : V21 m outs c main_v73 = val_main_v171 (F := F) (a4 m c) := by
  show StableHlo.after hostOps4_12 (V20 m outs c) (Proc.devRef .tc main_v73) = _
  generalize hW : V20 m outs c = W
  after_results
  subst hW
  try rw [at20_v60 m outs c]
  try rw [at20_v64 m outs c]
  try rw [at20_arg4 m outs c]
  try rw [at20_arg5 m outs c]
  try rw [at20_v24 m outs c]
  try simp only [TRef.ofBuf, TRef.toBuf, cast_eq, id]
  rfl
theorem kv_cst_13  (c : Dev nD) : V21 m outs c main_cst_13 = val_main_cst_3 (F := F) := by
  show StableHlo.after hostOps4_12 (V20 m outs c) (Proc.devRef .tc main_cst_13) = _
  generalize hW : V20 m outs c = W
  after_results
  subst hW
  try rw [at20_v60 m outs c]
  try rw [at20_v64 m outs c]
  try rw [at20_arg4 m outs c]
  try rw [at20_arg5 m outs c]
  try rw [at20_v24 m outs c]
  try simp only [TRef.ofBuf, TRef.toBuf, cast_eq, id]
  rfl
theorem at21_v73  (c : Dev nD) : V21 m outs c main_v73 = val_main_v171 (F := F) (a4 m c) :=
  kv_v73 m outs c
theorem at21_cst_13  (c : Dev nD) : V21 m outs c main_cst_13 = val_main_cst_3 (F := F) :=
  kv_cst_13 m outs c
theorem kv_v74  (c : Dev nD) : V22 m outs c main_v74 = val_main_v172 (F := F) (a4 m c) := by
  show StableHlo.after hostOps4_13 (V21 m outs c) (Proc.devRef .tc main_v74) = _
  generalize hW : V21 m outs c = W
  after_results
  subst hW
  try rw [at21_v73 m outs c]
  try rw [at21_cst_13 m outs c]
  try simp only [TRef.ofBuf, TRef.toBuf, cast_eq, id]
  rfl
theorem at22_v70  (c : Dev nD) : V22 m outs c main_v70 = val_main_v163 (F := F) (a5 m c) :=
  (V22_of m outs c _ (by decide)).trans (kv_v70 m outs c)
theorem at22_v24  (c : Dev nD) : V22 m outs c main_v24 = val_main_v48 (F := F) :=
  (V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans (kv_v24 m outs c)))))))))))))
theorem kv_v77  (c : Dev nD) : V23 m outs c main_v77 = val_main_v175 (F := F) (a5 m c) := by
  show StableHlo.after hostOps4_14 (V22 m outs c) (Proc.devRef .tc main_v77) = _
  generalize hW : V22 m outs c = W
  after_results
  subst hW
  try rw [at22_v70 m outs c]
  try rw [at22_v24 m outs c]
  try simp only [TRef.ofBuf, TRef.toBuf, cast_eq, id]
  rfl
theorem kv_cst_15  (c : Dev nD) : V23 m outs c main_cst_15 = val_main_cst_3 (F := F) := by
  show StableHlo.after hostOps4_14 (V22 m outs c) (Proc.devRef .tc main_cst_15) = _
  generalize hW : V22 m outs c = W
  after_results
  subst hW
  try rw [at22_v70 m outs c]
  try rw [at22_v24 m outs c]
  try simp only [TRef.ofBuf, TRef.toBuf, cast_eq, id]
  rfl
theorem at23_v77  (c : Dev nD) : V23 m outs c main_v77 = val_main_v175 (F := F) (a5 m c) :=
  kv_v77 m outs c
theorem at23_cst_15  (c : Dev nD) : V23 m outs c main_cst_15 = val_main_cst_3 (F := F) :=
  kv_cst_15 m outs c
theorem kv_v78  (c : Dev nD) : V24 m outs c main_v78 = val_main_v176 (F := F) (a5 m c) := by
  show StableHlo.after hostOps4_15 (V23 m outs c) (Proc.devRef .tc main_v78) = _
  generalize hW : V23 m outs c = W
  after_results
  subst hW
  try rw [at23_v77 m outs c]
  try rw [at23_cst_15 m outs c]
  try simp only [TRef.ofBuf, TRef.toBuf, cast_eq, id]
  rfl
theorem at24_v74  (c : Dev nD) : V24 m outs c main_v74 = val_main_v172 (F := F) (a4 m c) :=
  (V24_of m outs c _ (by decide)).trans ((V23_of m outs c _ (by decide)).trans (kv_v74 m outs c))
theorem at24_v78  (c : Dev nD) : V24 m outs c main_v78 = val_main_v176 (F := F) (a5 m c) :=
  kv_v78 m outs c
theorem at24_arg4  (c : Dev nD) : V24 m outs c main_arg4 = a4 m c :=
  (V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))
theorem at24_arg5  (c : Dev nD) : V24 m outs c main_arg5 = a5 m c :=
  (V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))
theorem at24_v24  (c : Dev nD) : V24 m outs c main_v24 = val_main_v48 (F := F) :=
  (V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans (kv_v24 m outs c)))))))))))))))
theorem kv_v79  (c : Dev nD) : V25 m outs c main_v79 = val_main_v177 (F := F) (a4 m c) := by
  show StableHlo.after hostOps4_16 (V24 m outs c) (Proc.devRef .tc main_v79) = _
  generalize hW : V24 m outs c = W
  after_results
  subst hW
  try rw [at24_v74 m outs c]
  try rw [at24_v78 m outs c]
  try rw [at24_arg4 m outs c]
  try rw [at24_arg5 m outs c]
  try rw [at24_v24 m outs c]
  try simp only [TRef.ofBuf, TRef.toBuf, cast_eq, id]
  rfl
theorem kv_v80  (c : Dev nD) : V25 m outs c main_v80 = val_main_v191 (F := F) (a5 m c) := by
  show StableHlo.after hostOps4_16 (V24 m outs c) (Proc.devRef .tc main_v80) = _
  generalize hW : V24 m outs c = W
  after_results
  subst hW
  try rw [at24_v74 m outs c]
  try rw [at24_v78 m outs c]
  try rw [at24_arg4 m outs c]
  try rw [at24_arg5 m outs c]
  try rw [at24_v24 m outs c]
  try simp only [TRef.ofBuf, TRef.toBuf, cast_eq, id]
  rfl
theorem kv_v84  (c : Dev nD) : V25 m outs c main_v84 = val_main_v203 (F := F) (a5 m c) := by
  show StableHlo.after hostOps4_16 (V24 m outs c) (Proc.devRef .tc main_v84) = _
  generalize hW : V24 m outs c = W
  after_results
  subst hW
  try rw [at24_v74 m outs c]
  try rw [at24_v78 m outs c]
  try rw [at24_arg4 m outs c]
  try rw [at24_arg5 m outs c]
  try rw [at24_v24 m outs c]
  try simp only [TRef.ofBuf, TRef.toBuf, cast_eq, id]
  rfl
theorem kv_v87  (c : Dev nD) : V25 m outs c main_v87 = val_main_v211 (F := F) (a4 m c) := by
  show StableHlo.after hostOps4_16 (V24 m outs c) (Proc.devRef .tc main_v87) = _
  generalize hW : V24 m outs c = W
  after_results
  subst hW
  try rw [at24_v74 m outs c]
  try rw [at24_v78 m outs c]
  try rw [at24_arg4 m outs c]
  try rw [at24_arg5 m outs c]
  try rw [at24_v24 m outs c]
  try simp only [TRef.ofBuf, TRef.toBuf, cast_eq, id]
  rfl
theorem kv_cst_17  (c : Dev nD) : V25 m outs c main_cst_17 = val_main_cst_3 (F := F) := by
  show StableHlo.after hostOps4_16 (V24 m outs c) (Proc.devRef .tc main_cst_17) = _
  generalize hW : V24 m outs c = W
  after_results
  subst hW
  try rw [at24_v74 m outs c]
  try rw [at24_v78 m outs c]
  try rw [at24_arg4 m outs c]
  try rw [at24_arg5 m outs c]
  try rw [at24_v24 m outs c]
  try simp only [TRef.ofBuf, TRef.toBuf, cast_eq, id]
  rfl
theorem at25_v87  (c : Dev nD) : V25 m outs c main_v87 = val_main_v211 (F := F) (a4 m c) :=
  kv_v87 m outs c
theorem at25_cst_17  (c : Dev nD) : V25 m outs c main_cst_17 = val_main_cst_3 (F := F) :=
  kv_cst_17 m outs c
theorem kv_v88  (c : Dev nD) : V26 m outs c main_v88 = val_main_v212 (F := F) (a4 m c) := by
  show StableHlo.after hostOps4_17 (V25 m outs c) (Proc.devRef .tc main_v88) = _
  generalize hW : V25 m outs c = W
  after_results
  subst hW
  try rw [at25_v87 m outs c]
  try rw [at25_cst_17 m outs c]
  try simp only [TRef.ofBuf, TRef.toBuf, cast_eq, id]
  rfl
theorem at26_v84  (c : Dev nD) : V26 m outs c main_v84 = val_main_v203 (F := F) (a5 m c) :=
  (V26_of m outs c _ (by decide)).trans (kv_v84 m outs c)
theorem at26_v24  (c : Dev nD) : V26 m outs c main_v24 = val_main_v48 (F := F) :=
  (V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans (kv_v24 m outs c)))))))))))))))))
theorem kv_v91  (c : Dev nD) : V27 m outs c main_v91 = val_main_v215 (F := F) (a5 m c) := by
  show StableHlo.after hostOps4_18 (V26 m outs c) (Proc.devRef .tc main_v91) = _
  generalize hW : V26 m outs c = W
  after_results
  subst hW
  try rw [at26_v84 m outs c]
  try rw [at26_v24 m outs c]
  try simp only [TRef.ofBuf, TRef.toBuf, cast_eq, id]
  rfl
theorem kv_cst_19  (c : Dev nD) : V27 m outs c main_cst_19 = val_main_cst_3 (F := F) := by
  show StableHlo.after hostOps4_18 (V26 m outs c) (Proc.devRef .tc main_cst_19) = _
  generalize hW : V26 m outs c = W
  after_results
  subst hW
  try rw [at26_v84 m outs c]
  try rw [at26_v24 m outs c]
  try simp only [TRef.ofBuf, TRef.toBuf, cast_eq, id]
  rfl
theorem at27_v91  (c : Dev nD) : V27 m outs c main_v91 = val_main_v215 (F := F) (a5 m c) :=
  kv_v91 m outs c
theorem at27_cst_19  (c : Dev nD) : V27 m outs c main_cst_19 = val_main_cst_3 (F := F) :=
  kv_cst_19 m outs c
theorem kv_v92  (c : Dev nD) : V28 m outs c main_v92 = val_main_v216 (F := F) (a5 m c) := by
  show StableHlo.after hostOps4_19 (V27 m outs c) (Proc.devRef .tc main_v92) = _
  generalize hW : V27 m outs c = W
  after_results
  subst hW
  try rw [at27_v91 m outs c]
  try rw [at27_cst_19 m outs c]
  try simp only [TRef.ofBuf, TRef.toBuf, cast_eq, id]
  rfl
theorem at28_v88  (c : Dev nD) : V28 m outs c main_v88 = val_main_v212 (F := F) (a4 m c) :=
  (V28_of m outs c _ (by decide)).trans ((V27_of m outs c _ (by decide)).trans (kv_v88 m outs c))
theorem at28_v92  (c : Dev nD) : V28 m outs c main_v92 = val_main_v216 (F := F) (a5 m c) :=
  kv_v92 m outs c
theorem at28_arg4  (c : Dev nD) : V28 m outs c main_arg4 = a4 m c :=
  (V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))
theorem at28_arg5  (c : Dev nD) : V28 m outs c main_arg5 = a5 m c :=
  (V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))
theorem at28_arg8  (c : Dev nD) : V28 m outs c main_arg8 = a8 m c :=
  (V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))
theorem at28_arg9  (c : Dev nD) : V28 m outs c main_arg9 = a9 m c :=
  (V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))
theorem at28_v37  (c : Dev nD) : V28 m outs c main_v37 = val_main_v57 (F := F) (a4 m c) :=
  (V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans (kv_v37 m outs c)))))))))))))))
theorem at28_v5 (h_v5 : ∀ c : Dev nD, outs 2 main_v5 c = val_main_v8 (F := F) (a0 m c) (a6 m c) (a7 m c)) (c : Dev nD) : V28 m outs c main_v5 = val_main_v8 (F := F) (a0 m c) (a6 m c) (a7 m c) :=
  (V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_self m outs c).trans (h_v5 c)))))))))))))))))))))))))))
theorem at28_v38  (c : Dev nD) : V28 m outs c main_v38 = val_main_v71 (F := F) (a5 m c) :=
  (V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans (kv_v38 m outs c)))))))))))))))
theorem kv_v93 (h_v5 : ∀ c : Dev nD, outs 2 main_v5 c = val_main_v8 (F := F) (a0 m c) (a6 m c) (a7 m c)) (c : Dev nD) : V29 m outs c main_v93 = val_main_v217 (F := F) (a4 m c) := by
  show StableHlo.after hostOps4_20 (V28 m outs c) (Proc.devRef .tc main_v93) = _
  generalize hW : V28 m outs c = W
  after_results
  subst hW
  try rw [at28_v88 m outs c]
  try rw [at28_v92 m outs c]
  try rw [at28_arg4 m outs c]
  try rw [at28_arg5 m outs c]
  try rw [at28_arg8 m outs c]
  try rw [at28_arg9 m outs c]
  try rw [at28_v37 m outs c]
  try rw [at28_v5 m outs h_v5 c]
  try rw [at28_v38 m outs c]
  try simp only [TRef.ofBuf, TRef.toBuf, cast_eq, id]
  rfl
theorem kv_v94 (h_v5 : ∀ c : Dev nD, outs 2 main_v5 c = val_main_v8 (F := F) (a0 m c) (a6 m c) (a7 m c)) (c : Dev nD) : V29 m outs c main_v94 = val_main_v231 (F := F) (a5 m c) := by
  show StableHlo.after hostOps4_20 (V28 m outs c) (Proc.devRef .tc main_v94) = _
  generalize hW : V28 m outs c = W
  after_results
  subst hW
  try rw [at28_v88 m outs c]
  try rw [at28_v92 m outs c]
  try rw [at28_arg4 m outs c]
  try rw [at28_arg5 m outs c]
  try rw [at28_arg8 m outs c]
  try rw [at28_arg9 m outs c]
  try rw [at28_v37 m outs c]
  try rw [at28_v5 m outs h_v5 c]
  try rw [at28_v38 m outs c]
  try simp only [TRef.ofBuf, TRef.toBuf, cast_eq, id]
  rfl
theorem kv_v95 (h_v5 : ∀ c : Dev nD, outs 2 main_v5 c = val_main_v8 (F := F) (a0 m c) (a6 m c) (a7 m c)) (c : Dev nD) : V29 m outs c main_v95 = val_main_v36 (F := F) := by
  show StableHlo.after hostOps4_20 (V28 m outs c) (Proc.devRef .tc main_v95) = _
  generalize hW : V28 m outs c = W
  after_results
  subst hW
  try rw [at28_v88 m outs c]
  try rw [at28_v92 m outs c]
  try rw [at28_arg4 m outs c]
  try rw [at28_arg5 m outs c]
  try rw [at28_arg8 m outs c]
  try rw [at28_arg9 m outs c]
  try rw [at28_v37 m outs c]
  try rw [at28_v5 m outs h_v5 c]
  try rw [at28_v38 m outs c]
  try simp only [TRef.ofBuf, TRef.toBuf, cast_eq, id]
  rfl
theorem kv_v96 (h_v5 : ∀ c : Dev nD, outs 2 main_v5 c = val_main_v8 (F := F) (a0 m c) (a6 m c) (a7 m c)) (c : Dev nD) : V29 m outs c main_v96 = val_main_v36 (F := F) := by
  show StableHlo.after hostOps4_20 (V28 m outs c) (Proc.devRef .tc main_v96) = _
  generalize hW : V28 m outs c = W
  after_results
  subst hW
  try rw [at28_v88 m outs c]
  try rw [at28_v92 m outs c]
  try rw [at28_arg4 m outs c]
  try rw [at28_arg5 m outs c]
  try rw [at28_arg8 m outs c]
  try rw [at28_arg9 m outs c]
  try rw [at28_v37 m outs c]
  try rw [at28_v5 m outs h_v5 c]
  try rw [at28_v38 m outs c]
  try simp only [TRef.ofBuf, TRef.toBuf, cast_eq, id]
  rfl
theorem kv_v97 (h_v5 : ∀ c : Dev nD, outs 2 main_v5 c = val_main_v8 (F := F) (a0 m c) (a6 m c) (a7 m c)) (c : Dev nD) : V29 m outs c main_v97 = val_main_v36 (F := F) := by
  show StableHlo.after hostOps4_20 (V28 m outs c) (Proc.devRef .tc main_v97) = _
  generalize hW : V28 m outs c = W
  after_results
  subst hW
  try rw [at28_v88 m outs c]
  try rw [at28_v92 m outs c]
  try rw [at28_arg4 m outs c]
  try rw [at28_arg5 m outs c]
  try rw [at28_arg8 m outs c]
  try rw [at28_arg9 m outs c]
  try rw [at28_v37 m outs c]
  try rw [at28_v5 m outs h_v5 c]
  try rw [at28_v38 m outs c]
  try simp only [TRef.ofBuf, TRef.toBuf, cast_eq, id]
  rfl
theorem kv_v98 (h_v5 : ∀ c : Dev nD, outs 2 main_v5 c = val_main_v8 (F := F) (a0 m c) (a6 m c) (a7 m c)) (c : Dev nD) : V29 m outs c main_v98 = val_main_v36 (F := F) := by
  show StableHlo.after hostOps4_20 (V28 m outs c) (Proc.devRef .tc main_v98) = _
  generalize hW : V28 m outs c = W
  after_results
  subst hW
  try rw [at28_v88 m outs c]
  try rw [at28_v92 m outs c]
  try rw [at28_arg4 m outs c]
  try rw [at28_arg5 m outs c]
  try rw [at28_arg8 m outs c]
  try rw [at28_arg9 m outs c]
  try rw [at28_v37 m outs c]
  try rw [at28_v5 m outs h_v5 c]
  try rw [at28_v38 m outs c]
  try simp only [TRef.ofBuf, TRef.toBuf, cast_eq, id]
  rfl
theorem kv_v104 (h_v5 : ∀ c : Dev nD, outs 2 main_v5 c = val_main_v8 (F := F) (a0 m c) (a6 m c) (a7 m c)) (c : Dev nD) : V29 m outs c main_v104 = val_main_v45 (F := F) (a8 m c) := by
  show StableHlo.after hostOps4_20 (V28 m outs c) (Proc.devRef .tc main_v104) = _
  generalize hW : V28 m outs c = W
  after_results
  subst hW
  try rw [at28_v88 m outs c]
  try rw [at28_v92 m outs c]
  try rw [at28_arg4 m outs c]
  try rw [at28_arg5 m outs c]
  try rw [at28_arg8 m outs c]
  try rw [at28_arg9 m outs c]
  try rw [at28_v37 m outs c]
  try rw [at28_v5 m outs h_v5 c]
  try rw [at28_v38 m outs c]
  try simp only [TRef.ofBuf, TRef.toBuf, cast_eq, id]
  rfl
theorem kv_v119 (h_v5 : ∀ c : Dev nD, outs 2 main_v5 c = val_main_v8 (F := F) (a0 m c) (a6 m c) (a7 m c)) (c : Dev nD) : V29 m outs c main_v119 = val_main_v70 (F := F) (a0 m c) (a4 m c) (a5 m c) (a6 m c) (a7 m c) := by
  show StableHlo.after hostOps4_20 (V28 m outs c) (Proc.devRef .tc main_v119) = _
  generalize hW : V28 m outs c = W
  after_results
  subst hW
  try rw [at28_v88 m outs c]
  try rw [at28_v92 m outs c]
  try rw [at28_arg4 m outs c]
  try rw [at28_arg5 m outs c]
  try rw [at28_arg8 m outs c]
  try rw [at28_arg9 m outs c]
  try rw [at28_v37 m outs c]
  try rw [at28_v5 m outs h_v5 c]
  try rw [at28_v38 m outs c]
  try simp only [TRef.ofBuf, TRef.toBuf, cast_eq, id]
  rfl
theorem kv_v120 (h_v5 : ∀ c : Dev nD, outs 2 main_v5 c = val_main_v8 (F := F) (a0 m c) (a6 m c) (a7 m c)) (c : Dev nD) : V29 m outs c main_v120 = shapeCast ⟨2, ![50000, 1]⟩ (val_main_v71 (F := F) (a5 m c)) shapeCasts_S50000_S50000x1 := by
  show StableHlo.after hostOps4_20 (V28 m outs c) (Proc.devRef .tc main_v120) = _
  generalize hW : V28 m outs c = W
  after_results
  subst hW
  try rw [at28_v88 m outs c]
  try rw [at28_v92 m outs c]
  try rw [at28_arg4 m outs c]
  try rw [at28_arg5 m outs c]
  try rw [at28_arg8 m outs c]
  try rw [at28_arg9 m outs c]
  try rw [at28_v37 m outs c]
  try rw [at28_v5 m outs h_v5 c]
  try rw [at28_v38 m outs c]
  try simp only [TRef.ofBuf, TRef.toBuf, cast_eq, id]
  rfl
theorem kvpt_v120 (h_v5 : ∀ c : Dev nD, outs 2 main_v5 c = val_main_v8 (F := F) (a0 m c) (a6 m c) (a7 m c)) (c : Dev nD) (r : Fin 50000) : V29 m outs c main_v120 (ix2 r (0 : Fin 1)) = val_main_v71 (F := F) (a5 m c) (ix1 r) := by
  rw [kv_v120 m outs h_v5 c]
  exact Cert.LibReshape.shapeCast_col_apply _ _ _
theorem kv_v121 (h_v5 : ∀ c : Dev nD, outs 2 main_v5 c = val_main_v8 (F := F) (a0 m c) (a6 m c) (a7 m c)) (c : Dev nD) : V29 m outs c main_v121 = shapeCast ⟨2, ![1, 128]⟩ (val_main_v47 (F := F) (a9 m c)) shapeCasts_S128_S1x128 := by
  show StableHlo.after hostOps4_20 (V28 m outs c) (Proc.devRef .tc main_v121) = _
  generalize hW : V28 m outs c = W
  after_results
  subst hW
  try rw [at28_v88 m outs c]
  try rw [at28_v92 m outs c]
  try rw [at28_arg4 m outs c]
  try rw [at28_arg5 m outs c]
  try rw [at28_arg8 m outs c]
  try rw [at28_arg9 m outs c]
  try rw [at28_v37 m outs c]
  try rw [at28_v5 m outs h_v5 c]
  try rw [at28_v38 m outs c]
  try simp only [TRef.ofBuf, TRef.toBuf, cast_eq, id]
  rfl
theorem kvpt_v121 (h_v5 : ∀ c : Dev nD, outs 2 main_v5 c = val_main_v8 (F := F) (a0 m c) (a6 m c) (a7 m c)) (c : Dev nD) (q : Fin 128) : V29 m outs c main_v121 (ix2 (0 : Fin 1) q) = val_main_v47 (F := F) (a9 m c) (ix1 q) := by
  rw [kv_v121 m outs h_v5 c]
  exact Cert.LibReshape.shapeCast_row_apply _ _ _
theorem at30_v96 (h_v5 : ∀ c : Dev nD, outs 2 main_v5 c = val_main_v8 (F := F) (a0 m c) (a6 m c) (a7 m c)) (c : Dev nD) : V30 m outs c main_v96 = val_main_v36 (F := F) :=
  (V30_of m outs c _ (by decide)).trans (kv_v96 m outs h_v5 c)
theorem at30_v122 (h_v122 : ∀ c : Dev nD, outs 30 main_v122 c = val_main_v78 (F := F) (a0 m c) (a4 m c) (a5 m c) (a6 m c) (a7 m c) (a8 m c) (a9 m c)) (c : Dev nD) : V30 m outs c main_v122 = val_main_v78 (F := F) (a0 m c) (a4 m c) (a5 m c) (a6 m c) (a7 m c) (a8 m c) (a9 m c) :=
  (V30_self m outs c).trans (h_v122 c)
theorem at30_arg4  (c : Dev nD) : V30 m outs c main_arg4 = a4 m c :=
  (V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))
theorem at30_arg5  (c : Dev nD) : V30 m outs c main_arg5 = a5 m c :=
  (V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))
theorem at30_arg8  (c : Dev nD) : V30 m outs c main_arg8 = a8 m c :=
  (V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))
theorem at30_arg9  (c : Dev nD) : V30 m outs c main_arg9 = a9 m c :=
  (V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))
theorem at30_v51  (c : Dev nD) : V30 m outs c main_v51 = val_main_v97 (F := F) (a4 m c) :=
  (V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans (kv_v51 m outs c)))))))))))))
theorem at30_v11 (h_v11 : ∀ c : Dev nD, outs 4 main_v11 c = val_main_v17 (F := F) (a1 m c) (a6 m c) (a7 m c)) (c : Dev nD) : V30 m outs c main_v11 = val_main_v17 (F := F) (a1 m c) (a6 m c) (a7 m c) :=
  (V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_self m outs c).trans (h_v11 c)))))))))))))))))))))))))))
theorem at30_v52  (c : Dev nD) : V30 m outs c main_v52 = val_main_v111 (F := F) (a5 m c) :=
  (V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans (kv_v52 m outs c)))))))))))))
theorem kv_v123 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v122 : ∀ c : Dev nD, outs 30 main_v122 c = val_main_v78 (F := F) (a0 m c) (a4 m c) (a5 m c) (a6 m c) (a7 m c) (a8 m c) (a9 m c)) (c : Dev nD) : V31 m outs c main_v123 = val_main_v79 (F := F) (a0 m c) (a4 m c) (a5 m c) (a6 m c) (a7 m c) (a8 m c) (a9 m c) := by
  show StableHlo.after hostOps5 (V30 m outs c) (Proc.devRef .tc main_v123) = _
  generalize hW : V30 m outs c = W
  after_results
  subst hW
  try rw [at30_v96 m outs h_v5 c]
  try rw [at30_v122 m outs h_v122 c]
  try rw [at30_arg4 m outs c]
  try rw [at30_arg5 m outs c]
  try rw [at30_arg8 m outs c]
  try rw [at30_arg9 m outs c]
  try rw [at30_v51 m outs c]
  try rw [at30_v11 m outs h_v11 c]
  try rw [at30_v52 m outs c]
  try simp only [TRef.ofBuf, TRef.toBuf, cast_eq, id]
  rfl
theorem kv_v129 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v122 : ∀ c : Dev nD, outs 30 main_v122 c = val_main_v78 (F := F) (a0 m c) (a4 m c) (a5 m c) (a6 m c) (a7 m c) (a8 m c) (a9 m c)) (c : Dev nD) : V31 m outs c main_v129 = val_main_v85 (F := F) (a8 m c) := by
  show StableHlo.after hostOps5 (V30 m outs c) (Proc.devRef .tc main_v129) = _
  generalize hW : V30 m outs c = W
  after_results
  subst hW
  try rw [at30_v96 m outs h_v5 c]
  try rw [at30_v122 m outs h_v122 c]
  try rw [at30_arg4 m outs c]
  try rw [at30_arg5 m outs c]
  try rw [at30_arg8 m outs c]
  try rw [at30_arg9 m outs c]
  try rw [at30_v51 m outs c]
  try rw [at30_v11 m outs h_v11 c]
  try rw [at30_v52 m outs c]
  try simp only [TRef.ofBuf, TRef.toBuf, cast_eq, id]
  rfl
theorem kv_v144 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v122 : ∀ c : Dev nD, outs 30 main_v122 c = val_main_v78 (F := F) (a0 m c) (a4 m c) (a5 m c) (a6 m c) (a7 m c) (a8 m c) (a9 m c)) (c : Dev nD) : V31 m outs c main_v144 = val_main_v110 (F := F) (a1 m c) (a4 m c) (a5 m c) (a6 m c) (a7 m c) := by
  show StableHlo.after hostOps5 (V30 m outs c) (Proc.devRef .tc main_v144) = _
  generalize hW : V30 m outs c = W
  after_results
  subst hW
  try rw [at30_v96 m outs h_v5 c]
  try rw [at30_v122 m outs h_v122 c]
  try rw [at30_arg4 m outs c]
  try rw [at30_arg5 m outs c]
  try rw [at30_arg8 m outs c]
  try rw [at30_arg9 m outs c]
  try rw [at30_v51 m outs c]
  try rw [at30_v11 m outs h_v11 c]
  try rw [at30_v52 m outs c]
  try simp only [TRef.ofBuf, TRef.toBuf, cast_eq, id]
  rfl
theorem kv_v145 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v122 : ∀ c : Dev nD, outs 30 main_v122 c = val_main_v78 (F := F) (a0 m c) (a4 m c) (a5 m c) (a6 m c) (a7 m c) (a8 m c) (a9 m c)) (c : Dev nD) : V31 m outs c main_v145 = shapeCast ⟨2, ![50000, 1]⟩ (val_main_v111 (F := F) (a5 m c)) shapeCasts_S50000_S50000x1 := by
  show StableHlo.after hostOps5 (V30 m outs c) (Proc.devRef .tc main_v145) = _
  generalize hW : V30 m outs c = W
  after_results
  subst hW
  try rw [at30_v96 m outs h_v5 c]
  try rw [at30_v122 m outs h_v122 c]
  try rw [at30_arg4 m outs c]
  try rw [at30_arg5 m outs c]
  try rw [at30_arg8 m outs c]
  try rw [at30_arg9 m outs c]
  try rw [at30_v51 m outs c]
  try rw [at30_v11 m outs h_v11 c]
  try rw [at30_v52 m outs c]
  try simp only [TRef.ofBuf, TRef.toBuf, cast_eq, id]
  rfl
theorem kvpt_v145 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v122 : ∀ c : Dev nD, outs 30 main_v122 c = val_main_v78 (F := F) (a0 m c) (a4 m c) (a5 m c) (a6 m c) (a7 m c) (a8 m c) (a9 m c)) (c : Dev nD) (r : Fin 50000) : V31 m outs c main_v145 (ix2 r (0 : Fin 1)) = val_main_v111 (F := F) (a5 m c) (ix1 r) := by
  rw [kv_v145 m outs h_v5 h_v11 h_v122 c]
  exact Cert.LibReshape.shapeCast_col_apply _ _ _
theorem kv_v146 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v122 : ∀ c : Dev nD, outs 30 main_v122 c = val_main_v78 (F := F) (a0 m c) (a4 m c) (a5 m c) (a6 m c) (a7 m c) (a8 m c) (a9 m c)) (c : Dev nD) : V31 m outs c main_v146 = shapeCast ⟨2, ![1, 128]⟩ (val_main_v87 (F := F) (a9 m c)) shapeCasts_S128_S1x128 := by
  show StableHlo.after hostOps5 (V30 m outs c) (Proc.devRef .tc main_v146) = _
  generalize hW : V30 m outs c = W
  after_results
  subst hW
  try rw [at30_v96 m outs h_v5 c]
  try rw [at30_v122 m outs h_v122 c]
  try rw [at30_arg4 m outs c]
  try rw [at30_arg5 m outs c]
  try rw [at30_arg8 m outs c]
  try rw [at30_arg9 m outs c]
  try rw [at30_v51 m outs c]
  try rw [at30_v11 m outs h_v11 c]
  try rw [at30_v52 m outs c]
  try simp only [TRef.ofBuf, TRef.toBuf, cast_eq, id]
  rfl
theorem kvpt_v146 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v122 : ∀ c : Dev nD, outs 30 main_v122 c = val_main_v78 (F := F) (a0 m c) (a4 m c) (a5 m c) (a6 m c) (a7 m c) (a8 m c) (a9 m c)) (c : Dev nD) (q : Fin 128) : V31 m outs c main_v146 (ix2 (0 : Fin 1) q) = val_main_v87 (F := F) (a9 m c) (ix1 q) := by
  rw [kv_v146 m outs h_v5 h_v11 h_v122 c]
  exact Cert.LibReshape.shapeCast_row_apply _ _ _
theorem at32_v98 (h_v5 : ∀ c : Dev nD, outs 2 main_v5 c = val_main_v8 (F := F) (a0 m c) (a6 m c) (a7 m c)) (c : Dev nD) : V32 m outs c main_v98 = val_main_v36 (F := F) :=
  (V32_of m outs c _ (by decide)).trans ((V31_of m outs c _ (by decide)).trans ((V30_of m outs c _ (by decide)).trans (kv_v98 m outs h_v5 c)))
theorem at32_v147 (h_v147 : ∀ c : Dev nD, outs 32 main_v147 c = val_main_v118 (F := F) (a1 m c) (a4 m c) (a5 m c) (a6 m c) (a7 m c) (a8 m c) (a9 m c)) (c : Dev nD) : V32 m outs c main_v147 = val_main_v118 (F := F) (a1 m c) (a4 m c) (a5 m c) (a6 m c) (a7 m c) (a8 m c) (a9 m c) :=
  (V32_self m outs c).trans (h_v147 c)
theorem at32_arg4  (c : Dev nD) : V32 m outs c main_arg4 = a4 m c :=
  (V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))
theorem at32_arg5  (c : Dev nD) : V32 m outs c main_arg5 = a5 m c :=
  (V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))
theorem at32_arg8  (c : Dev nD) : V32 m outs c main_arg8 = a8 m c :=
  (V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))
theorem at32_arg9  (c : Dev nD) : V32 m outs c main_arg9 = a9 m c :=
  (V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))
theorem at32_v65  (c : Dev nD) : V32 m outs c main_v65 = val_main_v137 (F := F) (a4 m c) :=
  (V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans (kv_v65 m outs c)))))))))))
theorem at32_v23 (h_v23 : ∀ c : Dev nD, outs 8 main_v23 c = val_main_v35 (F := F) (a3 m c) (a6 m c) (a7 m c)) (c : Dev nD) : V32 m outs c main_v23 = val_main_v35 (F := F) (a3 m c) (a6 m c) (a7 m c) :=
  (V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_self m outs c).trans (h_v23 c)))))))))))))))))))))))))
theorem at32_v66  (c : Dev nD) : V32 m outs c main_v66 = val_main_v151 (F := F) (a5 m c) :=
  (V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans (kv_v66 m outs c)))))))))))
theorem kv_v148 (h_v5 : ∀ c : Dev nD, outs 2 main_v5 c = val_main_v8 (F := F) (a0 m c) (a6 m c) (a7 m c)) (h_v23 : ∀ c : Dev nD, outs 8 main_v23 c = val_main_v35 (F := F) (a3 m c) (a6 m c) (a7 m c)) (h_v147 : ∀ c : Dev nD, outs 32 main_v147 c = val_main_v118 (F := F) (a1 m c) (a4 m c) (a5 m c) (a6 m c) (a7 m c) (a8 m c) (a9 m c)) (c : Dev nD) : V33 m outs c main_v148 = val_main_v119 (F := F) (a1 m c) (a4 m c) (a5 m c) (a6 m c) (a7 m c) (a8 m c) (a9 m c) := by
  show StableHlo.after hostOps6 (V32 m outs c) (Proc.devRef .tc main_v148) = _
  generalize hW : V32 m outs c = W
  after_results
  subst hW
  try rw [at32_v98 m outs h_v5 c]
  try rw [at32_v147 m outs h_v147 c]
  try rw [at32_arg4 m outs c]
  try rw [at32_arg5 m outs c]
  try rw [at32_arg8 m outs c]
  try rw [at32_arg9 m outs c]
  try rw [at32_v65 m outs c]
  try rw [at32_v23 m outs h_v23 c]
  try rw [at32_v66 m outs c]
  try simp only [TRef.ofBuf, TRef.toBuf, cast_eq, id]
  rfl
theorem kv_v154 (h_v5 : ∀ c : Dev nD, outs 2 main_v5 c = val_main_v8 (F := F) (a0 m c) (a6 m c) (a7 m c)) (h_v23 : ∀ c : Dev nD, outs 8 main_v23 c = val_main_v35 (F := F) (a3 m c) (a6 m c) (a7 m c)) (h_v147 : ∀ c : Dev nD, outs 32 main_v147 c = val_main_v118 (F := F) (a1 m c) (a4 m c) (a5 m c) (a6 m c) (a7 m c) (a8 m c) (a9 m c)) (c : Dev nD) : V33 m outs c main_v154 = val_main_v125 (F := F) (a8 m c) := by
  show StableHlo.after hostOps6 (V32 m outs c) (Proc.devRef .tc main_v154) = _
  generalize hW : V32 m outs c = W
  after_results
  subst hW
  try rw [at32_v98 m outs h_v5 c]
  try rw [at32_v147 m outs h_v147 c]
  try rw [at32_arg4 m outs c]
  try rw [at32_arg5 m outs c]
  try rw [at32_arg8 m outs c]
  try rw [at32_arg9 m outs c]
  try rw [at32_v65 m outs c]
  try rw [at32_v23 m outs h_v23 c]
  try rw [at32_v66 m outs c]
  try simp only [TRef.ofBuf, TRef.toBuf, cast_eq, id]
  rfl
theorem kv_v169 (h_v5 : ∀ c : Dev nD, outs 2 main_v5 c = val_main_v8 (F := F) (a0 m c) (a6 m c) (a7 m c)) (h_v23 : ∀ c : Dev nD, outs 8 main_v23 c = val_main_v35 (F := F) (a3 m c) (a6 m c) (a7 m c)) (h_v147 : ∀ c : Dev nD, outs 32 main_v147 c = val_main_v118 (F := F) (a1 m c) (a4 m c) (a5 m c) (a6 m c) (a7 m c) (a8 m c) (a9 m c)) (c : Dev nD) : V33 m outs c main_v169 = val_main_v150 (F := F) (a3 m c) (a4 m c) (a5 m c) (a6 m c) (a7 m c) := by
  show StableHlo.after hostOps6 (V32 m outs c) (Proc.devRef .tc main_v169) = _
  generalize hW : V32 m outs c = W
  after_results
  subst hW
  try rw [at32_v98 m outs h_v5 c]
  try rw [at32_v147 m outs h_v147 c]
  try rw [at32_arg4 m outs c]
  try rw [at32_arg5 m outs c]
  try rw [at32_arg8 m outs c]
  try rw [at32_arg9 m outs c]
  try rw [at32_v65 m outs c]
  try rw [at32_v23 m outs h_v23 c]
  try rw [at32_v66 m outs c]
  try simp only [TRef.ofBuf, TRef.toBuf, cast_eq, id]
  rfl
theorem kv_v170 (h_v5 : ∀ c : Dev nD, outs 2 main_v5 c = val_main_v8 (F := F) (a0 m c) (a6 m c) (a7 m c)) (h_v23 : ∀ c : Dev nD, outs 8 main_v23 c = val_main_v35 (F := F) (a3 m c) (a6 m c) (a7 m c)) (h_v147 : ∀ c : Dev nD, outs 32 main_v147 c = val_main_v118 (F := F) (a1 m c) (a4 m c) (a5 m c) (a6 m c) (a7 m c) (a8 m c) (a9 m c)) (c : Dev nD) : V33 m outs c main_v170 = shapeCast ⟨2, ![50000, 1]⟩ (val_main_v151 (F := F) (a5 m c)) shapeCasts_S50000_S50000x1 := by
  show StableHlo.after hostOps6 (V32 m outs c) (Proc.devRef .tc main_v170) = _
  generalize hW : V32 m outs c = W
  after_results
  subst hW
  try rw [at32_v98 m outs h_v5 c]
  try rw [at32_v147 m outs h_v147 c]
  try rw [at32_arg4 m outs c]
  try rw [at32_arg5 m outs c]
  try rw [at32_arg8 m outs c]
  try rw [at32_arg9 m outs c]
  try rw [at32_v65 m outs c]
  try rw [at32_v23 m outs h_v23 c]
  try rw [at32_v66 m outs c]
  try simp only [TRef.ofBuf, TRef.toBuf, cast_eq, id]
  rfl
theorem kvpt_v170 (h_v5 : ∀ c : Dev nD, outs 2 main_v5 c = val_main_v8 (F := F) (a0 m c) (a6 m c) (a7 m c)) (h_v23 : ∀ c : Dev nD, outs 8 main_v23 c = val_main_v35 (F := F) (a3 m c) (a6 m c) (a7 m c)) (h_v147 : ∀ c : Dev nD, outs 32 main_v147 c = val_main_v118 (F := F) (a1 m c) (a4 m c) (a5 m c) (a6 m c) (a7 m c) (a8 m c) (a9 m c)) (c : Dev nD) (r : Fin 50000) : V33 m outs c main_v170 (ix2 r (0 : Fin 1)) = val_main_v151 (F := F) (a5 m c) (ix1 r) := by
  rw [kv_v170 m outs h_v5 h_v23 h_v147 c]
  exact Cert.LibReshape.shapeCast_col_apply _ _ _
theorem kv_v171 (h_v5 : ∀ c : Dev nD, outs 2 main_v5 c = val_main_v8 (F := F) (a0 m c) (a6 m c) (a7 m c)) (h_v23 : ∀ c : Dev nD, outs 8 main_v23 c = val_main_v35 (F := F) (a3 m c) (a6 m c) (a7 m c)) (h_v147 : ∀ c : Dev nD, outs 32 main_v147 c = val_main_v118 (F := F) (a1 m c) (a4 m c) (a5 m c) (a6 m c) (a7 m c) (a8 m c) (a9 m c)) (c : Dev nD) : V33 m outs c main_v171 = shapeCast ⟨2, ![1, 128]⟩ (val_main_v127 (F := F) (a9 m c)) shapeCasts_S128_S1x128 := by
  show StableHlo.after hostOps6 (V32 m outs c) (Proc.devRef .tc main_v171) = _
  generalize hW : V32 m outs c = W
  after_results
  subst hW
  try rw [at32_v98 m outs h_v5 c]
  try rw [at32_v147 m outs h_v147 c]
  try rw [at32_arg4 m outs c]
  try rw [at32_arg5 m outs c]
  try rw [at32_arg8 m outs c]
  try rw [at32_arg9 m outs c]
  try rw [at32_v65 m outs c]
  try rw [at32_v23 m outs h_v23 c]
  try rw [at32_v66 m outs c]
  try simp only [TRef.ofBuf, TRef.toBuf, cast_eq, id]
  rfl
theorem kvpt_v171 (h_v5 : ∀ c : Dev nD, outs 2 main_v5 c = val_main_v8 (F := F) (a0 m c) (a6 m c) (a7 m c)) (h_v23 : ∀ c : Dev nD, outs 8 main_v23 c = val_main_v35 (F := F) (a3 m c) (a6 m c) (a7 m c)) (h_v147 : ∀ c : Dev nD, outs 32 main_v147 c = val_main_v118 (F := F) (a1 m c) (a4 m c) (a5 m c) (a6 m c) (a7 m c) (a8 m c) (a9 m c)) (c : Dev nD) (q : Fin 128) : V33 m outs c main_v171 (ix2 (0 : Fin 1) q) = val_main_v127 (F := F) (a9 m c) (ix1 q) := by
  rw [kv_v171 m outs h_v5 h_v23 h_v147 c]
  exact Cert.LibReshape.shapeCast_row_apply _ _ _
theorem at34_v97 (h_v5 : ∀ c : Dev nD, outs 2 main_v5 c = val_main_v8 (F := F) (a0 m c) (a6 m c) (a7 m c)) (c : Dev nD) : V34 m outs c main_v97 = val_main_v36 (F := F) :=
  (V34_of m outs c _ (by decide)).trans ((V33_of m outs c _ (by decide)).trans ((V32_of m outs c _ (by decide)).trans ((V31_of m outs c _ (by decide)).trans ((V30_of m outs c _ (by decide)).trans (kv_v97 m outs h_v5 c)))))
theorem at34_v172 (h_v172 : ∀ c : Dev nD, outs 34 main_v172 c = val_main_v158 (F := F) (a3 m c) (a4 m c) (a5 m c) (a6 m c) (a7 m c) (a8 m c) (a9 m c)) (c : Dev nD) : V34 m outs c main_v172 = val_main_v158 (F := F) (a3 m c) (a4 m c) (a5 m c) (a6 m c) (a7 m c) (a8 m c) (a9 m c) :=
  (V34_self m outs c).trans (h_v172 c)
theorem at34_arg4  (c : Dev nD) : V34 m outs c main_arg4 = a4 m c :=
  (V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))
theorem at34_arg5  (c : Dev nD) : V34 m outs c main_arg5 = a5 m c :=
  (V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))
theorem at34_arg8  (c : Dev nD) : V34 m outs c main_arg8 = a8 m c :=
  (V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))
theorem at34_arg9  (c : Dev nD) : V34 m outs c main_arg9 = a9 m c :=
  (V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))
theorem at34_v79  (c : Dev nD) : V34 m outs c main_v79 = val_main_v177 (F := F) (a4 m c) :=
  (V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans (kv_v79 m outs c)))))))))
theorem at34_v5 (h_v5 : ∀ c : Dev nD, outs 2 main_v5 c = val_main_v8 (F := F) (a0 m c) (a6 m c) (a7 m c)) (c : Dev nD) : V34 m outs c main_v5 = val_main_v8 (F := F) (a0 m c) (a6 m c) (a7 m c) :=
  (V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_self m outs c).trans (h_v5 c)))))))))))))))))))))))))))))))))
theorem at34_v80  (c : Dev nD) : V34 m outs c main_v80 = val_main_v191 (F := F) (a5 m c) :=
  (V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans (kv_v80 m outs c)))))))))
theorem kv_v173 (h_v5 : ∀ c : Dev nD, outs 2 main_v5 c = val_main_v8 (F := F) (a0 m c) (a6 m c) (a7 m c)) (h_v172 : ∀ c : Dev nD, outs 34 main_v172 c = val_main_v158 (F := F) (a3 m c) (a4 m c) (a5 m c) (a6 m c) (a7 m c) (a8 m c) (a9 m c)) (c : Dev nD) : V35 m outs c main_v173 = val_main_v159 (F := F) (a3 m c) (a4 m c) (a5 m c) (a6 m c) (a7 m c) (a8 m c) (a9 m c) := by
  show StableHlo.after hostOps7 (V34 m outs c) (Proc.devRef .tc main_v173) = _
  generalize hW : V34 m outs c = W
  after_results
  subst hW
  try rw [at34_v97 m outs h_v5 c]
  try rw [at34_v172 m outs h_v172 c]
  try rw [at34_arg4 m outs c]
  try rw [at34_arg5 m outs c]
  try rw [at34_arg8 m outs c]
  try rw [at34_arg9 m outs c]
  try rw [at34_v79 m outs c]
  try rw [at34_v5 m outs h_v5 c]
  try rw [at34_v80 m outs c]
  try simp only [TRef.ofBuf, TRef.toBuf, cast_eq, id]
  rfl
theorem kv_v179 (h_v5 : ∀ c : Dev nD, outs 2 main_v5 c = val_main_v8 (F := F) (a0 m c) (a6 m c) (a7 m c)) (h_v172 : ∀ c : Dev nD, outs 34 main_v172 c = val_main_v158 (F := F) (a3 m c) (a4 m c) (a5 m c) (a6 m c) (a7 m c) (a8 m c) (a9 m c)) (c : Dev nD) : V35 m outs c main_v179 = val_main_v165 (F := F) (a8 m c) := by
  show StableHlo.after hostOps7 (V34 m outs c) (Proc.devRef .tc main_v179) = _
  generalize hW : V34 m outs c = W
  after_results
  subst hW
  try rw [at34_v97 m outs h_v5 c]
  try rw [at34_v172 m outs h_v172 c]
  try rw [at34_arg4 m outs c]
  try rw [at34_arg5 m outs c]
  try rw [at34_arg8 m outs c]
  try rw [at34_arg9 m outs c]
  try rw [at34_v79 m outs c]
  try rw [at34_v5 m outs h_v5 c]
  try rw [at34_v80 m outs c]
  try simp only [TRef.ofBuf, TRef.toBuf, cast_eq, id]
  rfl
theorem kv_v194 (h_v5 : ∀ c : Dev nD, outs 2 main_v5 c = val_main_v8 (F := F) (a0 m c) (a6 m c) (a7 m c)) (h_v172 : ∀ c : Dev nD, outs 34 main_v172 c = val_main_v158 (F := F) (a3 m c) (a4 m c) (a5 m c) (a6 m c) (a7 m c) (a8 m c) (a9 m c)) (c : Dev nD) : V35 m outs c main_v194 = val_main_v190 (F := F) (a0 m c) (a4 m c) (a5 m c) (a6 m c) (a7 m c) := by
  show StableHlo.after hostOps7 (V34 m outs c) (Proc.devRef .tc main_v194) = _
  generalize hW : V34 m outs c = W
  after_results
  subst hW
  try rw [at34_v97 m outs h_v5 c]
  try rw [at34_v172 m outs h_v172 c]
  try rw [at34_arg4 m outs c]
  try rw [at34_arg5 m outs c]
  try rw [at34_arg8 m outs c]
  try rw [at34_arg9 m outs c]
  try rw [at34_v79 m outs c]
  try rw [at34_v5 m outs h_v5 c]
  try rw [at34_v80 m outs c]
  try simp only [TRef.ofBuf, TRef.toBuf, cast_eq, id]
  rfl
theorem kv_v195 (h_v5 : ∀ c : Dev nD, outs 2 main_v5 c = val_main_v8 (F := F) (a0 m c) (a6 m c) (a7 m c)) (h_v172 : ∀ c : Dev nD, outs 34 main_v172 c = val_main_v158 (F := F) (a3 m c) (a4 m c) (a5 m c) (a6 m c) (a7 m c) (a8 m c) (a9 m c)) (c : Dev nD) : V35 m outs c main_v195 = shapeCast ⟨2, ![50000, 1]⟩ (val_main_v191 (F := F) (a5 m c)) shapeCasts_S50000_S50000x1 := by
  show StableHlo.after hostOps7 (V34 m outs c) (Proc.devRef .tc main_v195) = _
  generalize hW : V34 m outs c = W
  after_results
  subst hW
  try rw [at34_v97 m outs h_v5 c]
  try rw [at34_v172 m outs h_v172 c]
  try rw [at34_arg4 m outs c]
  try rw [at34_arg5 m outs c]
  try rw [at34_arg8 m outs c]
  try rw [at34_arg9 m outs c]
  try rw [at34_v79 m outs c]
  try rw [at34_v5 m outs h_v5 c]
  try rw [at34_v80 m outs c]
  try simp only [TRef.ofBuf, TRef.toBuf, cast_eq, id]
  rfl
theorem kvpt_v195 (h_v5 : ∀ c : Dev nD, outs 2 main_v5 c = val_main_v8 (F := F) (a0 m c) (a6 m c) (a7 m c)) (h_v172 : ∀ c : Dev nD, outs 34 main_v172 c = val_main_v158 (F := F) (a3 m c) (a4 m c) (a5 m c) (a6 m c) (a7 m c) (a8 m c) (a9 m c)) (c : Dev nD) (r : Fin 50000) : V35 m outs c main_v195 (ix2 r (0 : Fin 1)) = val_main_v191 (F := F) (a5 m c) (ix1 r) := by
  rw [kv_v195 m outs h_v5 h_v172 c]
  exact Cert.LibReshape.shapeCast_col_apply _ _ _
theorem kv_v196 (h_v5 : ∀ c : Dev nD, outs 2 main_v5 c = val_main_v8 (F := F) (a0 m c) (a6 m c) (a7 m c)) (h_v172 : ∀ c : Dev nD, outs 34 main_v172 c = val_main_v158 (F := F) (a3 m c) (a4 m c) (a5 m c) (a6 m c) (a7 m c) (a8 m c) (a9 m c)) (c : Dev nD) : V35 m outs c main_v196 = shapeCast ⟨2, ![1, 128]⟩ (val_main_v167 (F := F) (a9 m c)) shapeCasts_S128_S1x128 := by
  show StableHlo.after hostOps7 (V34 m outs c) (Proc.devRef .tc main_v196) = _
  generalize hW : V34 m outs c = W
  after_results
  subst hW
  try rw [at34_v97 m outs h_v5 c]
  try rw [at34_v172 m outs h_v172 c]
  try rw [at34_arg4 m outs c]
  try rw [at34_arg5 m outs c]
  try rw [at34_arg8 m outs c]
  try rw [at34_arg9 m outs c]
  try rw [at34_v79 m outs c]
  try rw [at34_v5 m outs h_v5 c]
  try rw [at34_v80 m outs c]
  try simp only [TRef.ofBuf, TRef.toBuf, cast_eq, id]
  rfl
theorem kvpt_v196 (h_v5 : ∀ c : Dev nD, outs 2 main_v5 c = val_main_v8 (F := F) (a0 m c) (a6 m c) (a7 m c)) (h_v172 : ∀ c : Dev nD, outs 34 main_v172 c = val_main_v158 (F := F) (a3 m c) (a4 m c) (a5 m c) (a6 m c) (a7 m c) (a8 m c) (a9 m c)) (c : Dev nD) (q : Fin 128) : V35 m outs c main_v196 (ix2 (0 : Fin 1) q) = val_main_v167 (F := F) (a9 m c) (ix1 q) := by
  rw [kv_v196 m outs h_v5 h_v172 c]
  exact Cert.LibReshape.shapeCast_row_apply _ _ _
theorem at36_v173 (h_v5 : ∀ c : Dev nD, outs 2 main_v5 c = val_main_v8 (F := F) (a0 m c) (a6 m c) (a7 m c)) (h_v172 : ∀ c : Dev nD, outs 34 main_v172 c = val_main_v158 (F := F) (a3 m c) (a4 m c) (a5 m c) (a6 m c) (a7 m c) (a8 m c) (a9 m c)) (c : Dev nD) : V36 m outs c main_v173 = val_main_v159 (F := F) (a3 m c) (a4 m c) (a5 m c) (a6 m c) (a7 m c) (a8 m c) (a9 m c) :=
  (V36_of m outs c _ (by decide)).trans (kv_v173 m outs h_v5 h_v172 c)
theorem at36_v197 (h_v197 : ∀ c : Dev nD, outs 36 main_v197 c = val_main_v198 (F := F) (a0 m c) (a4 m c) (a5 m c) (a6 m c) (a7 m c) (a8 m c) (a9 m c)) (c : Dev nD) : V36 m outs c main_v197 = val_main_v198 (F := F) (a0 m c) (a4 m c) (a5 m c) (a6 m c) (a7 m c) (a8 m c) (a9 m c) :=
  (V36_self m outs c).trans (h_v197 c)
theorem at36_arg4  (c : Dev nD) : V36 m outs c main_arg4 = a4 m c :=
  (V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))
theorem at36_arg5  (c : Dev nD) : V36 m outs c main_arg5 = a5 m c :=
  (V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))
theorem at36_arg8  (c : Dev nD) : V36 m outs c main_arg8 = a8 m c :=
  (V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))
theorem at36_arg9  (c : Dev nD) : V36 m outs c main_arg9 = a9 m c :=
  (V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))
theorem at36_v93 (h_v5 : ∀ c : Dev nD, outs 2 main_v5 c = val_main_v8 (F := F) (a0 m c) (a6 m c) (a7 m c)) (c : Dev nD) : V36 m outs c main_v93 = val_main_v217 (F := F) (a4 m c) :=
  (V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans (kv_v93 m outs h_v5 c)))))))
theorem at36_v17 (h_v17 : ∀ c : Dev nD, outs 6 main_v17 c = val_main_v26 (F := F) (a2 m c) (a6 m c) (a7 m c)) (c : Dev nD) : V36 m outs c main_v17 = val_main_v26 (F := F) (a2 m c) (a6 m c) (a7 m c) :=
  (V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_self m outs c).trans (h_v17 c)))))))))))))))))))))))))))))))
theorem at36_v94 (h_v5 : ∀ c : Dev nD, outs 2 main_v5 c = val_main_v8 (F := F) (a0 m c) (a6 m c) (a7 m c)) (c : Dev nD) : V36 m outs c main_v94 = val_main_v231 (F := F) (a5 m c) :=
  (V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans (kv_v94 m outs h_v5 c)))))))
theorem kv_v198 (h_v5 : ∀ c : Dev nD, outs 2 main_v5 c = val_main_v8 (F := F) (a0 m c) (a6 m c) (a7 m c)) (h_v17 : ∀ c : Dev nD, outs 6 main_v17 c = val_main_v26 (F := F) (a2 m c) (a6 m c) (a7 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (c : Dev nD) : V37 m outs c main_v198 = val_main_v199 (F := F) (a0 m c) (a3 m c) (a4 m c) (a5 m c) (a6 m c) (a7 m c) (a8 m c) (a9 m c) := by
  show StableHlo.after hostOps8 (V36 m outs c) (Proc.devRef .tc main_v198) = _
  generalize hW : V36 m outs c = W
  after_results
  subst hW
  try rw [at36_v173 m outs h_v5 h_v172 c]
  try rw [at36_v197 m outs h_v197 c]
  try rw [at36_arg4 m outs c]
  try rw [at36_arg5 m outs c]
  try rw [at36_arg8 m outs c]
  try rw [at36_arg9 m outs c]
  try rw [at36_v93 m outs h_v5 c]
  try rw [at36_v17 m outs h_v17 c]
  try rw [at36_v94 m outs h_v5 c]
  try simp only [TRef.ofBuf, TRef.toBuf, cast_eq, id]
  rfl
theorem kv_v204 (h_v5 : ∀ c : Dev nD, outs 2 main_v5 c = val_main_v8 (F := F) (a0 m c) (a6 m c) (a7 m c)) (h_v17 : ∀ c : Dev nD, outs 6 main_v17 c = val_main_v26 (F := F) (a2 m c) (a6 m c) (a7 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (c : Dev nD) : V37 m outs c main_v204 = val_main_v205 (F := F) (a8 m c) := by
  show StableHlo.after hostOps8 (V36 m outs c) (Proc.devRef .tc main_v204) = _
  generalize hW : V36 m outs c = W
  after_results
  subst hW
  try rw [at36_v173 m outs h_v5 h_v172 c]
  try rw [at36_v197 m outs h_v197 c]
  try rw [at36_arg4 m outs c]
  try rw [at36_arg5 m outs c]
  try rw [at36_arg8 m outs c]
  try rw [at36_arg9 m outs c]
  try rw [at36_v93 m outs h_v5 c]
  try rw [at36_v17 m outs h_v17 c]
  try rw [at36_v94 m outs h_v5 c]
  try simp only [TRef.ofBuf, TRef.toBuf, cast_eq, id]
  rfl
theorem kv_v219 (h_v5 : ∀ c : Dev nD, outs 2 main_v5 c = val_main_v8 (F := F) (a0 m c) (a6 m c) (a7 m c)) (h_v17 : ∀ c : Dev nD, outs 6 main_v17 c = val_main_v26 (F := F) (a2 m c) (a6 m c) (a7 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (c : Dev nD) : V37 m outs c main_v219 = val_main_v230 (F := F) (a2 m c) (a4 m c) (a5 m c) (a6 m c) (a7 m c) := by
  show StableHlo.after hostOps8 (V36 m outs c) (Proc.devRef .tc main_v219) = _
  generalize hW : V36 m outs c = W
  after_results
  subst hW
  try rw [at36_v173 m outs h_v5 h_v172 c]
  try rw [at36_v197 m outs h_v197 c]
  try rw [at36_arg4 m outs c]
  try rw [at36_arg5 m outs c]
  try rw [at36_arg8 m outs c]
  try rw [at36_arg9 m outs c]
  try rw [at36_v93 m outs h_v5 c]
  try rw [at36_v17 m outs h_v17 c]
  try rw [at36_v94 m outs h_v5 c]
  try simp only [TRef.ofBuf, TRef.toBuf, cast_eq, id]
  rfl
theorem kv_v220 (h_v5 : ∀ c : Dev nD, outs 2 main_v5 c = val_main_v8 (F := F) (a0 m c) (a6 m c) (a7 m c)) (h_v17 : ∀ c : Dev nD, outs 6 main_v17 c = val_main_v26 (F := F) (a2 m c) (a6 m c) (a7 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (c : Dev nD) : V37 m outs c main_v220 = shapeCast ⟨2, ![50000, 1]⟩ (val_main_v231 (F := F) (a5 m c)) shapeCasts_S50000_S50000x1 := by
  show StableHlo.after hostOps8 (V36 m outs c) (Proc.devRef .tc main_v220) = _
  generalize hW : V36 m outs c = W
  after_results
  subst hW
  try rw [at36_v173 m outs h_v5 h_v172 c]
  try rw [at36_v197 m outs h_v197 c]
  try rw [at36_arg4 m outs c]
  try rw [at36_arg5 m outs c]
  try rw [at36_arg8 m outs c]
  try rw [at36_arg9 m outs c]
  try rw [at36_v93 m outs h_v5 c]
  try rw [at36_v17 m outs h_v17 c]
  try rw [at36_v94 m outs h_v5 c]
  try simp only [TRef.ofBuf, TRef.toBuf, cast_eq, id]
  rfl
theorem kvpt_v220 (h_v5 : ∀ c : Dev nD, outs 2 main_v5 c = val_main_v8 (F := F) (a0 m c) (a6 m c) (a7 m c)) (h_v17 : ∀ c : Dev nD, outs 6 main_v17 c = val_main_v26 (F := F) (a2 m c) (a6 m c) (a7 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (c : Dev nD) (r : Fin 50000) : V37 m outs c main_v220 (ix2 r (0 : Fin 1)) = val_main_v231 (F := F) (a5 m c) (ix1 r) := by
  rw [kv_v220 m outs h_v5 h_v17 h_v172 h_v197 c]
  exact Cert.LibReshape.shapeCast_col_apply _ _ _
theorem kv_v221 (h_v5 : ∀ c : Dev nD, outs 2 main_v5 c = val_main_v8 (F := F) (a0 m c) (a6 m c) (a7 m c)) (h_v17 : ∀ c : Dev nD, outs 6 main_v17 c = val_main_v26 (F := F) (a2 m c) (a6 m c) (a7 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (c : Dev nD) : V37 m outs c main_v221 = shapeCast ⟨2, ![1, 128]⟩ (val_main_v207 (F := F) (a9 m c)) shapeCasts_S128_S1x128 := by
  show StableHlo.after hostOps8 (V36 m outs c) (Proc.devRef .tc main_v221) = _
  generalize hW : V36 m outs c = W
  after_results
  subst hW
  try rw [at36_v173 m outs h_v5 h_v172 c]
  try rw [at36_v197 m outs h_v197 c]
  try rw [at36_arg4 m outs c]
  try rw [at36_arg5 m outs c]
  try rw [at36_arg8 m outs c]
  try rw [at36_arg9 m outs c]
  try rw [at36_v93 m outs h_v5 c]
  try rw [at36_v17 m outs h_v17 c]
  try rw [at36_v94 m outs h_v5 c]
  try simp only [TRef.ofBuf, TRef.toBuf, cast_eq, id]
  rfl
theorem kvpt_v221 (h_v5 : ∀ c : Dev nD, outs 2 main_v5 c = val_main_v8 (F := F) (a0 m c) (a6 m c) (a7 m c)) (h_v17 : ∀ c : Dev nD, outs 6 main_v17 c = val_main_v26 (F := F) (a2 m c) (a6 m c) (a7 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (c : Dev nD) (q : Fin 128) : V37 m outs c main_v221 (ix2 (0 : Fin 1) q) = val_main_v207 (F := F) (a9 m c) (ix1 q) := by
  rw [kv_v221 m outs h_v5 h_v17 h_v172 h_v197 c]
  exact Cert.LibReshape.shapeCast_row_apply _ _ _
theorem at38_v95 (h_v5 : ∀ c : Dev nD, outs 2 main_v5 c = val_main_v8 (F := F) (a0 m c) (a6 m c) (a7 m c)) (c : Dev nD) : V38 m outs c main_v95 = val_main_v36 (F := F) :=
  (V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans (kv_v95 m outs h_v5 c)))))))))
theorem at38_v222 (h_v222 : ∀ c : Dev nD, outs 38 main_v222 c = val_main_v238 (F := F) (a2 m c) (a4 m c) (a5 m c) (a6 m c) (a7 m c) (a8 m c) (a9 m c)) (c : Dev nD) : V38 m outs c main_v222 = val_main_v238 (F := F) (a2 m c) (a4 m c) (a5 m c) (a6 m c) (a7 m c) (a8 m c) (a9 m c) :=
  (V38_self m outs c).trans (h_v222 c)
theorem at38_v123 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v122 : ∀ c : Dev nD, outs 30 main_v122 c = val_main_v78 (F := F) (a0 m c) (a4 m c) (a5 m c) (a6 m c) (a7 m c) (a8 m c) (a9 m c)) (c : Dev nD) : V38 m outs c main_v123 = val_main_v79 (F := F) (a0 m c) (a4 m c) (a5 m c) (a6 m c) (a7 m c) (a8 m c) (a9 m c) :=
  (V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans (kv_v123 m outs h_v5 h_v11 h_v122 c)))))))
theorem at38_v198 (h_v5 : ∀ c : Dev nD, outs 2 main_v5 c = val_main_v8 (F := F) (a0 m c) (a6 m c) (a7 m c)) (h_v17 : ∀ c : Dev nD, outs 6 main_v17 c = val_main_v26 (F := F) (a2 m c) (a6 m c) (a7 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (c : Dev nD) : V38 m outs c main_v198 = val_main_v199 (F := F) (a0 m c) (a3 m c) (a4 m c) (a5 m c) (a6 m c) (a7 m c) (a8 m c) (a9 m c) :=
  (V38_of m outs c _ (by decide)).trans (kv_v198 m outs h_v5 h_v17 h_v172 h_v197 c)
theorem at38_v148 (h_v5 : ∀ c : Dev nD, outs 2 main_v5 c = val_main_v8 (F := F) (a0 m c) (a6 m c) (a7 m c)) (h_v23 : ∀ c : Dev nD, outs 8 main_v23 c = val_main_v35 (F := F) (a3 m c) (a6 m c) (a7 m c)) (h_v147 : ∀ c : Dev nD, outs 32 main_v147 c = val_main_v118 (F := F) (a1 m c) (a4 m c) (a5 m c) (a6 m c) (a7 m c) (a8 m c) (a9 m c)) (c : Dev nD) : V38 m outs c main_v148 = val_main_v119 (F := F) (a1 m c) (a4 m c) (a5 m c) (a6 m c) (a7 m c) (a8 m c) (a9 m c) :=
  (V38_of m outs c _ (by decide)).trans ((V37_of m outs c _ (by decide)).trans ((V36_of m outs c _ (by decide)).trans ((V35_of m outs c _ (by decide)).trans ((V34_of m outs c _ (by decide)).trans (kv_v148 m outs h_v5 h_v23 h_v147 c)))))
theorem at38_arg4  (c : Dev nD) : V38 m outs c main_arg4 = a4 m c :=
  (V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))
theorem at38_arg5  (c : Dev nD) : V38 m outs c main_arg5 = a5 m c :=
  (V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))
theorem at38_arg10  (c : Dev nD) : V38 m outs c main_arg10 = a10 m c :=
  (V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))
theorem at38_arg11  (c : Dev nD) : V38 m outs c main_arg11 = a11 m c :=
  (V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))
theorem at38_v37  (c : Dev nD) : V38 m outs c main_v37 = val_main_v57 (F := F) (a4 m c) :=
  (V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans (kv_v37 m outs c)))))))))))))))))))))))))
theorem at38_v38  (c : Dev nD) : V38 m outs c main_v38 = val_main_v71 (F := F) (a5 m c) :=
  (V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans (kv_v38 m outs c)))))))))))))))))))))))))
theorem kv_v225 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V39 m outs c main_v225 = val_main_v240 (F := F) (a2 m c) (a4 m c) (a5 m c) (a6 m c) (a7 m c) (a8 m c) (a9 m c) := by
  show StableHlo.after hostOps9 (V38 m outs c) (Proc.devRef .tc main_v225) = _
  generalize hW : V38 m outs c = W
  after_results
  subst hW
  try rw [at38_v95 m outs h_v5 c]
  try rw [at38_v222 m outs h_v222 c]
  try rw [at38_v123 m outs h_v5 h_v11 h_v122 c]
  try rw [at38_v198 m outs h_v5 h_v17 h_v172 h_v197 c]
  try rw [at38_v148 m outs h_v5 h_v23 h_v147 c]
  try rw [at38_arg4 m outs c]
  try rw [at38_arg5 m outs c]
  try rw [at38_arg10 m outs c]
  try rw [at38_arg11 m outs c]
  try rw [at38_v37 m outs c]
  try rw [at38_v38 m outs c]
  try simp only [TRef.ofBuf, TRef.toBuf, cast_eq, id]
  rfl
theorem kv_v227 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V39 m outs c main_v227 = val_main_v241 (F := F) (a0 m c) (a4 m c) (a5 m c) (a6 m c) (a7 m c) (a8 m c) (a9 m c) := by
  show StableHlo.after hostOps9 (V38 m outs c) (Proc.devRef .tc main_v227) = _
  generalize hW : V38 m outs c = W
  after_results
  subst hW
  try rw [at38_v95 m outs h_v5 c]
  try rw [at38_v222 m outs h_v222 c]
  try rw [at38_v123 m outs h_v5 h_v11 h_v122 c]
  try rw [at38_v198 m outs h_v5 h_v17 h_v172 h_v197 c]
  try rw [at38_v148 m outs h_v5 h_v23 h_v147 c]
  try rw [at38_arg4 m outs c]
  try rw [at38_arg5 m outs c]
  try rw [at38_arg10 m outs c]
  try rw [at38_arg11 m outs c]
  try rw [at38_v37 m outs c]
  try rw [at38_v38 m outs c]
  try simp only [TRef.ofBuf, TRef.toBuf, cast_eq, id]
  rfl
theorem kv_v229 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V39 m outs c main_v229 = val_main_v242 (F := F) (a0 m c) (a3 m c) (a4 m c) (a5 m c) (a6 m c) (a7 m c) (a8 m c) (a9 m c) := by
  show StableHlo.after hostOps9 (V38 m outs c) (Proc.devRef .tc main_v229) = _
  generalize hW : V38 m outs c = W
  after_results
  subst hW
  try rw [at38_v95 m outs h_v5 c]
  try rw [at38_v222 m outs h_v222 c]
  try rw [at38_v123 m outs h_v5 h_v11 h_v122 c]
  try rw [at38_v198 m outs h_v5 h_v17 h_v172 h_v197 c]
  try rw [at38_v148 m outs h_v5 h_v23 h_v147 c]
  try rw [at38_arg4 m outs c]
  try rw [at38_arg5 m outs c]
  try rw [at38_arg10 m outs c]
  try rw [at38_arg11 m outs c]
  try rw [at38_v37 m outs c]
  try rw [at38_v38 m outs c]
  try simp only [TRef.ofBuf, TRef.toBuf, cast_eq, id]
  rfl
theorem kv_v231 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V39 m outs c main_v231 = val_main_v243 (F := F) (a1 m c) (a4 m c) (a5 m c) (a6 m c) (a7 m c) (a8 m c) (a9 m c) := by
  show StableHlo.after hostOps9 (V38 m outs c) (Proc.devRef .tc main_v231) = _
  generalize hW : V38 m outs c = W
  after_results
  subst hW
  try rw [at38_v95 m outs h_v5 c]
  try rw [at38_v222 m outs h_v222 c]
  try rw [at38_v123 m outs h_v5 h_v11 h_v122 c]
  try rw [at38_v198 m outs h_v5 h_v17 h_v172 h_v197 c]
  try rw [at38_v148 m outs h_v5 h_v23 h_v147 c]
  try rw [at38_arg4 m outs c]
  try rw [at38_arg5 m outs c]
  try rw [at38_arg10 m outs c]
  try rw [at38_arg11 m outs c]
  try rw [at38_v37 m outs c]
  try rw [at38_v38 m outs c]
  try simp only [TRef.ofBuf, TRef.toBuf, cast_eq, id]
  rfl
theorem kv_v232 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V39 m outs c main_v232 = val_main_v36 (F := F) := by
  show StableHlo.after hostOps9 (V38 m outs c) (Proc.devRef .tc main_v232) = _
  generalize hW : V38 m outs c = W
  after_results
  subst hW
  try rw [at38_v95 m outs h_v5 c]
  try rw [at38_v222 m outs h_v222 c]
  try rw [at38_v123 m outs h_v5 h_v11 h_v122 c]
  try rw [at38_v198 m outs h_v5 h_v17 h_v172 h_v197 c]
  try rw [at38_v148 m outs h_v5 h_v23 h_v147 c]
  try rw [at38_arg4 m outs c]
  try rw [at38_arg5 m outs c]
  try rw [at38_arg10 m outs c]
  try rw [at38_arg11 m outs c]
  try rw [at38_v37 m outs c]
  try rw [at38_v38 m outs c]
  try simp only [TRef.ofBuf, TRef.toBuf, cast_eq, id]
  rfl
theorem kv_v233 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V39 m outs c main_v233 = val_main_v36 (F := F) := by
  show StableHlo.after hostOps9 (V38 m outs c) (Proc.devRef .tc main_v233) = _
  generalize hW : V38 m outs c = W
  after_results
  subst hW
  try rw [at38_v95 m outs h_v5 c]
  try rw [at38_v222 m outs h_v222 c]
  try rw [at38_v123 m outs h_v5 h_v11 h_v122 c]
  try rw [at38_v198 m outs h_v5 h_v17 h_v172 h_v197 c]
  try rw [at38_v148 m outs h_v5 h_v23 h_v147 c]
  try rw [at38_arg4 m outs c]
  try rw [at38_arg5 m outs c]
  try rw [at38_arg10 m outs c]
  try rw [at38_arg11 m outs c]
  try rw [at38_v37 m outs c]
  try rw [at38_v38 m outs c]
  try simp only [TRef.ofBuf, TRef.toBuf, cast_eq, id]
  rfl
theorem kv_v234 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V39 m outs c main_v234 = val_main_v36 (F := F) := by
  show StableHlo.after hostOps9 (V38 m outs c) (Proc.devRef .tc main_v234) = _
  generalize hW : V38 m outs c = W
  after_results
  subst hW
  try rw [at38_v95 m outs h_v5 c]
  try rw [at38_v222 m outs h_v222 c]
  try rw [at38_v123 m outs h_v5 h_v11 h_v122 c]
  try rw [at38_v198 m outs h_v5 h_v17 h_v172 h_v197 c]
  try rw [at38_v148 m outs h_v5 h_v23 h_v147 c]
  try rw [at38_arg4 m outs c]
  try rw [at38_arg5 m outs c]
  try rw [at38_arg10 m outs c]
  try rw [at38_arg11 m outs c]
  try rw [at38_v37 m outs c]
  try rw [at38_v38 m outs c]
  try simp only [TRef.ofBuf, TRef.toBuf, cast_eq, id]
  rfl
theorem kv_v235 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V39 m outs c main_v235 = val_main_v36 (F := F) := by
  show StableHlo.after hostOps9 (V38 m outs c) (Proc.devRef .tc main_v235) = _
  generalize hW : V38 m outs c = W
  after_results
  subst hW
  try rw [at38_v95 m outs h_v5 c]
  try rw [at38_v222 m outs h_v222 c]
  try rw [at38_v123 m outs h_v5 h_v11 h_v122 c]
  try rw [at38_v198 m outs h_v5 h_v17 h_v172 h_v197 c]
  try rw [at38_v148 m outs h_v5 h_v23 h_v147 c]
  try rw [at38_arg4 m outs c]
  try rw [at38_arg5 m outs c]
  try rw [at38_arg10 m outs c]
  try rw [at38_arg11 m outs c]
  try rw [at38_v37 m outs c]
  try rw [at38_v38 m outs c]
  try simp only [TRef.ofBuf, TRef.toBuf, cast_eq, id]
  rfl
theorem kv_v241 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V39 m outs c main_v241 = val_main_v253 (F := F) (a10 m c) := by
  show StableHlo.after hostOps9 (V38 m outs c) (Proc.devRef .tc main_v241) = _
  generalize hW : V38 m outs c = W
  after_results
  subst hW
  try rw [at38_v95 m outs h_v5 c]
  try rw [at38_v222 m outs h_v222 c]
  try rw [at38_v123 m outs h_v5 h_v11 h_v122 c]
  try rw [at38_v198 m outs h_v5 h_v17 h_v172 h_v197 c]
  try rw [at38_v148 m outs h_v5 h_v23 h_v147 c]
  try rw [at38_arg4 m outs c]
  try rw [at38_arg5 m outs c]
  try rw [at38_arg10 m outs c]
  try rw [at38_arg11 m outs c]
  try rw [at38_v37 m outs c]
  try rw [at38_v38 m outs c]
  try simp only [TRef.ofBuf, TRef.toBuf, cast_eq, id]
  rfl
theorem kv_v256 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V39 m outs c main_v256 = val_main_v278 (F := F) (a2 m c) (a4 m c) (a5 m c) (a6 m c) (a7 m c) (a8 m c) (a9 m c) := by
  show StableHlo.after hostOps9 (V38 m outs c) (Proc.devRef .tc main_v256) = _
  generalize hW : V38 m outs c = W
  after_results
  subst hW
  try rw [at38_v95 m outs h_v5 c]
  try rw [at38_v222 m outs h_v222 c]
  try rw [at38_v123 m outs h_v5 h_v11 h_v122 c]
  try rw [at38_v198 m outs h_v5 h_v17 h_v172 h_v197 c]
  try rw [at38_v148 m outs h_v5 h_v23 h_v147 c]
  try rw [at38_arg4 m outs c]
  try rw [at38_arg5 m outs c]
  try rw [at38_arg10 m outs c]
  try rw [at38_arg11 m outs c]
  try rw [at38_v37 m outs c]
  try rw [at38_v38 m outs c]
  try simp only [TRef.ofBuf, TRef.toBuf, cast_eq, id]
  rfl
theorem kv_v257 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V39 m outs c main_v257 = shapeCast ⟨2, ![50000, 1]⟩ (val_main_v71 (F := F) (a5 m c)) shapeCasts_S50000_S50000x1 := by
  show StableHlo.after hostOps9 (V38 m outs c) (Proc.devRef .tc main_v257) = _
  generalize hW : V38 m outs c = W
  after_results
  subst hW
  try rw [at38_v95 m outs h_v5 c]
  try rw [at38_v222 m outs h_v222 c]
  try rw [at38_v123 m outs h_v5 h_v11 h_v122 c]
  try rw [at38_v198 m outs h_v5 h_v17 h_v172 h_v197 c]
  try rw [at38_v148 m outs h_v5 h_v23 h_v147 c]
  try rw [at38_arg4 m outs c]
  try rw [at38_arg5 m outs c]
  try rw [at38_arg10 m outs c]
  try rw [at38_arg11 m outs c]
  try rw [at38_v37 m outs c]
  try rw [at38_v38 m outs c]
  try simp only [TRef.ofBuf, TRef.toBuf, cast_eq, id]
  rfl
theorem kvpt_v257 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) (r : Fin 50000) : V39 m outs c main_v257 (ix2 r (0 : Fin 1)) = val_main_v71 (F := F) (a5 m c) (ix1 r) := by
  rw [kv_v257 m outs h_v5 h_v11 h_v17 h_v23 h_v122 h_v147 h_v172 h_v197 h_v222 c]
  exact Cert.LibReshape.shapeCast_col_apply _ _ _
theorem kv_v258 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V39 m outs c main_v258 = shapeCast ⟨2, ![1, 128]⟩ (val_main_v255 (F := F) (a11 m c)) shapeCasts_S128_S1x128 := by
  show StableHlo.after hostOps9 (V38 m outs c) (Proc.devRef .tc main_v258) = _
  generalize hW : V38 m outs c = W
  after_results
  subst hW
  try rw [at38_v95 m outs h_v5 c]
  try rw [at38_v222 m outs h_v222 c]
  try rw [at38_v123 m outs h_v5 h_v11 h_v122 c]
  try rw [at38_v198 m outs h_v5 h_v17 h_v172 h_v197 c]
  try rw [at38_v148 m outs h_v5 h_v23 h_v147 c]
  try rw [at38_arg4 m outs c]
  try rw [at38_arg5 m outs c]
  try rw [at38_arg10 m outs c]
  try rw [at38_arg11 m outs c]
  try rw [at38_v37 m outs c]
  try rw [at38_v38 m outs c]
  try simp only [TRef.ofBuf, TRef.toBuf, cast_eq, id]
  rfl
theorem kvpt_v258 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) (q : Fin 128) : V39 m outs c main_v258 (ix2 (0 : Fin 1) q) = val_main_v255 (F := F) (a11 m c) (ix1 q) := by
  rw [kv_v258 m outs h_v5 h_v11 h_v17 h_v23 h_v122 h_v147 h_v172 h_v197 h_v222 c]
  exact Cert.LibReshape.shapeCast_row_apply _ _ _
theorem at40_v233 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V40 m outs c main_v233 = val_main_v36 (F := F) :=
  (V40_of m outs c _ (by decide)).trans (kv_v233 m outs h_v5 h_v11 h_v17 h_v23 h_v122 h_v147 h_v172 h_v197 h_v222 c)
theorem at40_v259 (h_v259 : ∀ c : Dev nD, outs 40 main_v259 c = val_main_v286 (F := F) (a2 m c) (a4 m c) (a5 m c) (a6 m c) (a7 m c) (a8 m c) (a9 m c) (a10 m c) (a11 m c)) (c : Dev nD) : V40 m outs c main_v259 = val_main_v286 (F := F) (a2 m c) (a4 m c) (a5 m c) (a6 m c) (a7 m c) (a8 m c) (a9 m c) (a10 m c) (a11 m c) :=
  (V40_self m outs c).trans (h_v259 c)
theorem at40_arg4  (c : Dev nD) : V40 m outs c main_arg4 = a4 m c :=
  (V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))
theorem at40_arg5  (c : Dev nD) : V40 m outs c main_arg5 = a5 m c :=
  (V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))
theorem at40_arg10  (c : Dev nD) : V40 m outs c main_arg10 = a10 m c :=
  (V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))
theorem at40_arg11  (c : Dev nD) : V40 m outs c main_arg11 = a11 m c :=
  (V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))
theorem at40_v51  (c : Dev nD) : V40 m outs c main_v51 = val_main_v97 (F := F) (a4 m c) :=
  (V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans (kv_v51 m outs c)))))))))))))))))))))))
theorem at40_v227 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V40 m outs c main_v227 = val_main_v241 (F := F) (a0 m c) (a4 m c) (a5 m c) (a6 m c) (a7 m c) (a8 m c) (a9 m c) :=
  (V40_of m outs c _ (by decide)).trans (kv_v227 m outs h_v5 h_v11 h_v17 h_v23 h_v122 h_v147 h_v172 h_v197 h_v222 c)
theorem at40_v52  (c : Dev nD) : V40 m outs c main_v52 = val_main_v111 (F := F) (a5 m c) :=
  (V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans (kv_v52 m outs c)))))))))))))))))))))))
theorem kv_v260 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v259 : ∀ c : Dev nD, outs 40 main_v259 c = val_main_v286 (F := F) (a2 m c) (a4 m c) (a5 m c) (a6 m c) (a7 m c) (a8 m c) (a9 m c) (a10 m c) (a11 m c)) (c : Dev nD) : V41 m outs c main_v260 = val_main_v287 (F := F) (a2 m c) (a4 m c) (a5 m c) (a6 m c) (a7 m c) (a8 m c) (a9 m c) (a10 m c) (a11 m c) := by
  show StableHlo.after hostOps10 (V40 m outs c) (Proc.devRef .tc main_v260) = _
  generalize hW : V40 m outs c = W
  after_results
  subst hW
  try rw [at40_v233 m outs h_v5 h_v11 h_v17 h_v23 h_v122 h_v147 h_v172 h_v197 h_v222 c]
  try rw [at40_v259 m outs h_v259 c]
  try rw [at40_arg4 m outs c]
  try rw [at40_arg5 m outs c]
  try rw [at40_arg10 m outs c]
  try rw [at40_arg11 m outs c]
  try rw [at40_v51 m outs c]
  try rw [at40_v227 m outs h_v5 h_v11 h_v17 h_v23 h_v122 h_v147 h_v172 h_v197 h_v222 c]
  try rw [at40_v52 m outs c]
  try simp only [TRef.ofBuf, TRef.toBuf, cast_eq, id]
  rfl
theorem kv_v266 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v259 : ∀ c : Dev nD, outs 40 main_v259 c = val_main_v286 (F := F) (a2 m c) (a4 m c) (a5 m c) (a6 m c) (a7 m c) (a8 m c) (a9 m c) (a10 m c) (a11 m c)) (c : Dev nD) : V41 m outs c main_v266 = val_main_v293 (F := F) (a10 m c) := by
  show StableHlo.after hostOps10 (V40 m outs c) (Proc.devRef .tc main_v266) = _
  generalize hW : V40 m outs c = W
  after_results
  subst hW
  try rw [at40_v233 m outs h_v5 h_v11 h_v17 h_v23 h_v122 h_v147 h_v172 h_v197 h_v222 c]
  try rw [at40_v259 m outs h_v259 c]
  try rw [at40_arg4 m outs c]
  try rw [at40_arg5 m outs c]
  try rw [at40_arg10 m outs c]
  try rw [at40_arg11 m outs c]
  try rw [at40_v51 m outs c]
  try rw [at40_v227 m outs h_v5 h_v11 h_v17 h_v23 h_v122 h_v147 h_v172 h_v197 h_v222 c]
  try rw [at40_v52 m outs c]
  try simp only [TRef.ofBuf, TRef.toBuf, cast_eq, id]
  rfl
theorem kv_v281 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v259 : ∀ c : Dev nD, outs 40 main_v259 c = val_main_v286 (F := F) (a2 m c) (a4 m c) (a5 m c) (a6 m c) (a7 m c) (a8 m c) (a9 m c) (a10 m c) (a11 m c)) (c : Dev nD) : V41 m outs c main_v281 = val_main_v318 (F := F) (a0 m c) (a4 m c) (a5 m c) (a6 m c) (a7 m c) (a8 m c) (a9 m c) := by
  show StableHlo.after hostOps10 (V40 m outs c) (Proc.devRef .tc main_v281) = _
  generalize hW : V40 m outs c = W
  after_results
  subst hW
  try rw [at40_v233 m outs h_v5 h_v11 h_v17 h_v23 h_v122 h_v147 h_v172 h_v197 h_v222 c]
  try rw [at40_v259 m outs h_v259 c]
  try rw [at40_arg4 m outs c]
  try rw [at40_arg5 m outs c]
  try rw [at40_arg10 m outs c]
  try rw [at40_arg11 m outs c]
  try rw [at40_v51 m outs c]
  try rw [at40_v227 m outs h_v5 h_v11 h_v17 h_v23 h_v122 h_v147 h_v172 h_v197 h_v222 c]
  try rw [at40_v52 m outs c]
  try simp only [TRef.ofBuf, TRef.toBuf, cast_eq, id]
  rfl
theorem kv_v282 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v259 : ∀ c : Dev nD, outs 40 main_v259 c = val_main_v286 (F := F) (a2 m c) (a4 m c) (a5 m c) (a6 m c) (a7 m c) (a8 m c) (a9 m c) (a10 m c) (a11 m c)) (c : Dev nD) : V41 m outs c main_v282 = shapeCast ⟨2, ![50000, 1]⟩ (val_main_v111 (F := F) (a5 m c)) shapeCasts_S50000_S50000x1 := by
  show StableHlo.after hostOps10 (V40 m outs c) (Proc.devRef .tc main_v282) = _
  generalize hW : V40 m outs c = W
  after_results
  subst hW
  try rw [at40_v233 m outs h_v5 h_v11 h_v17 h_v23 h_v122 h_v147 h_v172 h_v197 h_v222 c]
  try rw [at40_v259 m outs h_v259 c]
  try rw [at40_arg4 m outs c]
  try rw [at40_arg5 m outs c]
  try rw [at40_arg10 m outs c]
  try rw [at40_arg11 m outs c]
  try rw [at40_v51 m outs c]
  try rw [at40_v227 m outs h_v5 h_v11 h_v17 h_v23 h_v122 h_v147 h_v172 h_v197 h_v222 c]
  try rw [at40_v52 m outs c]
  try simp only [TRef.ofBuf, TRef.toBuf, cast_eq, id]
  rfl
theorem kvpt_v282 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v259 : ∀ c : Dev nD, outs 40 main_v259 c = val_main_v286 (F := F) (a2 m c) (a4 m c) (a5 m c) (a6 m c) (a7 m c) (a8 m c) (a9 m c) (a10 m c) (a11 m c)) (c : Dev nD) (r : Fin 50000) : V41 m outs c main_v282 (ix2 r (0 : Fin 1)) = val_main_v111 (F := F) (a5 m c) (ix1 r) := by
  rw [kv_v282 m outs h_v5 h_v11 h_v17 h_v23 h_v122 h_v147 h_v172 h_v197 h_v222 h_v259 c]
  exact Cert.LibReshape.shapeCast_col_apply _ _ _
theorem kv_v283 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v259 : ∀ c : Dev nD, outs 40 main_v259 c = val_main_v286 (F := F) (a2 m c) (a4 m c) (a5 m c) (a6 m c) (a7 m c) (a8 m c) (a9 m c) (a10 m c) (a11 m c)) (c : Dev nD) : V41 m outs c main_v283 = shapeCast ⟨2, ![1, 128]⟩ (val_main_v295 (F := F) (a11 m c)) shapeCasts_S128_S1x128 := by
  show StableHlo.after hostOps10 (V40 m outs c) (Proc.devRef .tc main_v283) = _
  generalize hW : V40 m outs c = W
  after_results
  subst hW
  try rw [at40_v233 m outs h_v5 h_v11 h_v17 h_v23 h_v122 h_v147 h_v172 h_v197 h_v222 c]
  try rw [at40_v259 m outs h_v259 c]
  try rw [at40_arg4 m outs c]
  try rw [at40_arg5 m outs c]
  try rw [at40_arg10 m outs c]
  try rw [at40_arg11 m outs c]
  try rw [at40_v51 m outs c]
  try rw [at40_v227 m outs h_v5 h_v11 h_v17 h_v23 h_v122 h_v147 h_v172 h_v197 h_v222 c]
  try rw [at40_v52 m outs c]
  try simp only [TRef.ofBuf, TRef.toBuf, cast_eq, id]
  rfl
theorem kvpt_v283 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v259 : ∀ c : Dev nD, outs 40 main_v259 c = val_main_v286 (F := F) (a2 m c) (a4 m c) (a5 m c) (a6 m c) (a7 m c) (a8 m c) (a9 m c) (a10 m c) (a11 m c)) (c : Dev nD) (q : Fin 128) : V41 m outs c main_v283 (ix2 (0 : Fin 1) q) = val_main_v295 (F := F) (a11 m c) (ix1 q) := by
  rw [kv_v283 m outs h_v5 h_v11 h_v17 h_v23 h_v122 h_v147 h_v172 h_v197 h_v222 h_v259 c]
  exact Cert.LibReshape.shapeCast_row_apply _ _ _
theorem at42_v235 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V42 m outs c main_v235 = val_main_v36 (F := F) :=
  (V42_of m outs c _ (by decide)).trans ((V41_of m outs c _ (by decide)).trans ((V40_of m outs c _ (by decide)).trans (kv_v235 m outs h_v5 h_v11 h_v17 h_v23 h_v122 h_v147 h_v172 h_v197 h_v222 c)))
theorem at42_v284 (h_v284 : ∀ c : Dev nD, outs 42 main_v284 c = val_main_v326 (F := F) (a0 m c) (a4 m c) (a5 m c) (a6 m c) (a7 m c) (a8 m c) (a9 m c) (a10 m c) (a11 m c)) (c : Dev nD) : V42 m outs c main_v284 = val_main_v326 (F := F) (a0 m c) (a4 m c) (a5 m c) (a6 m c) (a7 m c) (a8 m c) (a9 m c) (a10 m c) (a11 m c) :=
  (V42_self m outs c).trans (h_v284 c)
theorem at42_arg4  (c : Dev nD) : V42 m outs c main_arg4 = a4 m c :=
  (V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))))
theorem at42_arg5  (c : Dev nD) : V42 m outs c main_arg5 = a5 m c :=
  (V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))))
theorem at42_arg10  (c : Dev nD) : V42 m outs c main_arg10 = a10 m c :=
  (V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))))
theorem at42_arg11  (c : Dev nD) : V42 m outs c main_arg11 = a11 m c :=
  (V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))))
theorem at42_v65  (c : Dev nD) : V42 m outs c main_v65 = val_main_v137 (F := F) (a4 m c) :=
  (V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans (kv_v65 m outs c)))))))))))))))))))))
theorem at42_v231 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V42 m outs c main_v231 = val_main_v243 (F := F) (a1 m c) (a4 m c) (a5 m c) (a6 m c) (a7 m c) (a8 m c) (a9 m c) :=
  (V42_of m outs c _ (by decide)).trans ((V41_of m outs c _ (by decide)).trans ((V40_of m outs c _ (by decide)).trans (kv_v231 m outs h_v5 h_v11 h_v17 h_v23 h_v122 h_v147 h_v172 h_v197 h_v222 c)))
theorem at42_v66  (c : Dev nD) : V42 m outs c main_v66 = val_main_v151 (F := F) (a5 m c) :=
  (V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans (kv_v66 m outs c)))))))))))))))))))))
theorem kv_v285 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v284 : ∀ c : Dev nD, outs 42 main_v284 c = val_main_v326 (F := F) (a0 m c) (a4 m c) (a5 m c) (a6 m c) (a7 m c) (a8 m c) (a9 m c) (a10 m c) (a11 m c)) (c : Dev nD) : V43 m outs c main_v285 = val_main_v327 (F := F) (a0 m c) (a4 m c) (a5 m c) (a6 m c) (a7 m c) (a8 m c) (a9 m c) (a10 m c) (a11 m c) := by
  show StableHlo.after hostOps11 (V42 m outs c) (Proc.devRef .tc main_v285) = _
  generalize hW : V42 m outs c = W
  after_results
  subst hW
  try rw [at42_v235 m outs h_v5 h_v11 h_v17 h_v23 h_v122 h_v147 h_v172 h_v197 h_v222 c]
  try rw [at42_v284 m outs h_v284 c]
  try rw [at42_arg4 m outs c]
  try rw [at42_arg5 m outs c]
  try rw [at42_arg10 m outs c]
  try rw [at42_arg11 m outs c]
  try rw [at42_v65 m outs c]
  try rw [at42_v231 m outs h_v5 h_v11 h_v17 h_v23 h_v122 h_v147 h_v172 h_v197 h_v222 c]
  try rw [at42_v66 m outs c]
  try simp only [TRef.ofBuf, TRef.toBuf, cast_eq, id]
  rfl
theorem kv_v291 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v284 : ∀ c : Dev nD, outs 42 main_v284 c = val_main_v326 (F := F) (a0 m c) (a4 m c) (a5 m c) (a6 m c) (a7 m c) (a8 m c) (a9 m c) (a10 m c) (a11 m c)) (c : Dev nD) : V43 m outs c main_v291 = val_main_v333 (F := F) (a10 m c) := by
  show StableHlo.after hostOps11 (V42 m outs c) (Proc.devRef .tc main_v291) = _
  generalize hW : V42 m outs c = W
  after_results
  subst hW
  try rw [at42_v235 m outs h_v5 h_v11 h_v17 h_v23 h_v122 h_v147 h_v172 h_v197 h_v222 c]
  try rw [at42_v284 m outs h_v284 c]
  try rw [at42_arg4 m outs c]
  try rw [at42_arg5 m outs c]
  try rw [at42_arg10 m outs c]
  try rw [at42_arg11 m outs c]
  try rw [at42_v65 m outs c]
  try rw [at42_v231 m outs h_v5 h_v11 h_v17 h_v23 h_v122 h_v147 h_v172 h_v197 h_v222 c]
  try rw [at42_v66 m outs c]
  try simp only [TRef.ofBuf, TRef.toBuf, cast_eq, id]
  rfl
theorem kv_v306 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v284 : ∀ c : Dev nD, outs 42 main_v284 c = val_main_v326 (F := F) (a0 m c) (a4 m c) (a5 m c) (a6 m c) (a7 m c) (a8 m c) (a9 m c) (a10 m c) (a11 m c)) (c : Dev nD) : V43 m outs c main_v306 = val_main_v358 (F := F) (a1 m c) (a4 m c) (a5 m c) (a6 m c) (a7 m c) (a8 m c) (a9 m c) := by
  show StableHlo.after hostOps11 (V42 m outs c) (Proc.devRef .tc main_v306) = _
  generalize hW : V42 m outs c = W
  after_results
  subst hW
  try rw [at42_v235 m outs h_v5 h_v11 h_v17 h_v23 h_v122 h_v147 h_v172 h_v197 h_v222 c]
  try rw [at42_v284 m outs h_v284 c]
  try rw [at42_arg4 m outs c]
  try rw [at42_arg5 m outs c]
  try rw [at42_arg10 m outs c]
  try rw [at42_arg11 m outs c]
  try rw [at42_v65 m outs c]
  try rw [at42_v231 m outs h_v5 h_v11 h_v17 h_v23 h_v122 h_v147 h_v172 h_v197 h_v222 c]
  try rw [at42_v66 m outs c]
  try simp only [TRef.ofBuf, TRef.toBuf, cast_eq, id]
  rfl
theorem kv_v307 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v284 : ∀ c : Dev nD, outs 42 main_v284 c = val_main_v326 (F := F) (a0 m c) (a4 m c) (a5 m c) (a6 m c) (a7 m c) (a8 m c) (a9 m c) (a10 m c) (a11 m c)) (c : Dev nD) : V43 m outs c main_v307 = shapeCast ⟨2, ![50000, 1]⟩ (val_main_v151 (F := F) (a5 m c)) shapeCasts_S50000_S50000x1 := by
  show StableHlo.after hostOps11 (V42 m outs c) (Proc.devRef .tc main_v307) = _
  generalize hW : V42 m outs c = W
  after_results
  subst hW
  try rw [at42_v235 m outs h_v5 h_v11 h_v17 h_v23 h_v122 h_v147 h_v172 h_v197 h_v222 c]
  try rw [at42_v284 m outs h_v284 c]
  try rw [at42_arg4 m outs c]
  try rw [at42_arg5 m outs c]
  try rw [at42_arg10 m outs c]
  try rw [at42_arg11 m outs c]
  try rw [at42_v65 m outs c]
  try rw [at42_v231 m outs h_v5 h_v11 h_v17 h_v23 h_v122 h_v147 h_v172 h_v197 h_v222 c]
  try rw [at42_v66 m outs c]
  try simp only [TRef.ofBuf, TRef.toBuf, cast_eq, id]
  rfl
theorem kvpt_v307 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v284 : ∀ c : Dev nD, outs 42 main_v284 c = val_main_v326 (F := F) (a0 m c) (a4 m c) (a5 m c) (a6 m c) (a7 m c) (a8 m c) (a9 m c) (a10 m c) (a11 m c)) (c : Dev nD) (r : Fin 50000) : V43 m outs c main_v307 (ix2 r (0 : Fin 1)) = val_main_v151 (F := F) (a5 m c) (ix1 r) := by
  rw [kv_v307 m outs h_v5 h_v11 h_v17 h_v23 h_v122 h_v147 h_v172 h_v197 h_v222 h_v284 c]
  exact Cert.LibReshape.shapeCast_col_apply _ _ _
theorem kv_v308 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v284 : ∀ c : Dev nD, outs 42 main_v284 c = val_main_v326 (F := F) (a0 m c) (a4 m c) (a5 m c) (a6 m c) (a7 m c) (a8 m c) (a9 m c) (a10 m c) (a11 m c)) (c : Dev nD) : V43 m outs c main_v308 = shapeCast ⟨2, ![1, 128]⟩ (val_main_v335 (F := F) (a11 m c)) shapeCasts_S128_S1x128 := by
  show StableHlo.after hostOps11 (V42 m outs c) (Proc.devRef .tc main_v308) = _
  generalize hW : V42 m outs c = W
  after_results
  subst hW
  try rw [at42_v235 m outs h_v5 h_v11 h_v17 h_v23 h_v122 h_v147 h_v172 h_v197 h_v222 c]
  try rw [at42_v284 m outs h_v284 c]
  try rw [at42_arg4 m outs c]
  try rw [at42_arg5 m outs c]
  try rw [at42_arg10 m outs c]
  try rw [at42_arg11 m outs c]
  try rw [at42_v65 m outs c]
  try rw [at42_v231 m outs h_v5 h_v11 h_v17 h_v23 h_v122 h_v147 h_v172 h_v197 h_v222 c]
  try rw [at42_v66 m outs c]
  try simp only [TRef.ofBuf, TRef.toBuf, cast_eq, id]
  rfl
theorem kvpt_v308 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v284 : ∀ c : Dev nD, outs 42 main_v284 c = val_main_v326 (F := F) (a0 m c) (a4 m c) (a5 m c) (a6 m c) (a7 m c) (a8 m c) (a9 m c) (a10 m c) (a11 m c)) (c : Dev nD) (q : Fin 128) : V43 m outs c main_v308 (ix2 (0 : Fin 1) q) = val_main_v335 (F := F) (a11 m c) (ix1 q) := by
  rw [kv_v308 m outs h_v5 h_v11 h_v17 h_v23 h_v122 h_v147 h_v172 h_v197 h_v222 h_v284 c]
  exact Cert.LibReshape.shapeCast_row_apply _ _ _
theorem at44_v234 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V44 m outs c main_v234 = val_main_v36 (F := F) :=
  (V44_of m outs c _ (by decide)).trans ((V43_of m outs c _ (by decide)).trans ((V42_of m outs c _ (by decide)).trans ((V41_of m outs c _ (by decide)).trans ((V40_of m outs c _ (by decide)).trans (kv_v234 m outs h_v5 h_v11 h_v17 h_v23 h_v122 h_v147 h_v172 h_v197 h_v222 c)))))
theorem at44_v309 (h_v309 : ∀ c : Dev nD, outs 44 main_v309 c = val_main_v366 (F := F) (a1 m c) (a4 m c) (a5 m c) (a6 m c) (a7 m c) (a8 m c) (a9 m c) (a10 m c) (a11 m c)) (c : Dev nD) : V44 m outs c main_v309 = val_main_v366 (F := F) (a1 m c) (a4 m c) (a5 m c) (a6 m c) (a7 m c) (a8 m c) (a9 m c) (a10 m c) (a11 m c) :=
  (V44_self m outs c).trans (h_v309 c)
theorem at44_arg4  (c : Dev nD) : V44 m outs c main_arg4 = a4 m c :=
  (V44_of m outs c _ (by decide)).trans ((V43_of m outs c _ (by decide)).trans ((V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))))))
theorem at44_arg5  (c : Dev nD) : V44 m outs c main_arg5 = a5 m c :=
  (V44_of m outs c _ (by decide)).trans ((V43_of m outs c _ (by decide)).trans ((V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))))))
theorem at44_arg10  (c : Dev nD) : V44 m outs c main_arg10 = a10 m c :=
  (V44_of m outs c _ (by decide)).trans ((V43_of m outs c _ (by decide)).trans ((V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))))))
theorem at44_arg11  (c : Dev nD) : V44 m outs c main_arg11 = a11 m c :=
  (V44_of m outs c _ (by decide)).trans ((V43_of m outs c _ (by decide)).trans ((V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))))))
theorem at44_v79  (c : Dev nD) : V44 m outs c main_v79 = val_main_v177 (F := F) (a4 m c) :=
  (V44_of m outs c _ (by decide)).trans ((V43_of m outs c _ (by decide)).trans ((V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans (kv_v79 m outs c)))))))))))))))))))
theorem at44_v225 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V44 m outs c main_v225 = val_main_v240 (F := F) (a2 m c) (a4 m c) (a5 m c) (a6 m c) (a7 m c) (a8 m c) (a9 m c) :=
  (V44_of m outs c _ (by decide)).trans ((V43_of m outs c _ (by decide)).trans ((V42_of m outs c _ (by decide)).trans ((V41_of m outs c _ (by decide)).trans ((V40_of m outs c _ (by decide)).trans (kv_v225 m outs h_v5 h_v11 h_v17 h_v23 h_v122 h_v147 h_v172 h_v197 h_v222 c)))))
theorem at44_v80  (c : Dev nD) : V44 m outs c main_v80 = val_main_v191 (F := F) (a5 m c) :=
  (V44_of m outs c _ (by decide)).trans ((V43_of m outs c _ (by decide)).trans ((V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans (kv_v80 m outs c)))))))))))))))))))
theorem kv_v310 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (c : Dev nD) : V45 m outs c main_v310 = val_main_v367 (F := F) (a1 m c) (a4 m c) (a5 m c) (a6 m c) (a7 m c) (a8 m c) (a9 m c) (a10 m c) (a11 m c) := by
  show StableHlo.after hostOps12 (V44 m outs c) (Proc.devRef .tc main_v310) = _
  generalize hW : V44 m outs c = W
  after_results
  subst hW
  try rw [at44_v234 m outs h_v5 h_v11 h_v17 h_v23 h_v122 h_v147 h_v172 h_v197 h_v222 c]
  try rw [at44_v309 m outs h_v309 c]
  try rw [at44_arg4 m outs c]
  try rw [at44_arg5 m outs c]
  try rw [at44_arg10 m outs c]
  try rw [at44_arg11 m outs c]
  try rw [at44_v79 m outs c]
  try rw [at44_v225 m outs h_v5 h_v11 h_v17 h_v23 h_v122 h_v147 h_v172 h_v197 h_v222 c]
  try rw [at44_v80 m outs c]
  try simp only [TRef.ofBuf, TRef.toBuf, cast_eq, id]
  rfl
theorem kv_v316 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (c : Dev nD) : V45 m outs c main_v316 = val_main_v373 (F := F) (a10 m c) := by
  show StableHlo.after hostOps12 (V44 m outs c) (Proc.devRef .tc main_v316) = _
  generalize hW : V44 m outs c = W
  after_results
  subst hW
  try rw [at44_v234 m outs h_v5 h_v11 h_v17 h_v23 h_v122 h_v147 h_v172 h_v197 h_v222 c]
  try rw [at44_v309 m outs h_v309 c]
  try rw [at44_arg4 m outs c]
  try rw [at44_arg5 m outs c]
  try rw [at44_arg10 m outs c]
  try rw [at44_arg11 m outs c]
  try rw [at44_v79 m outs c]
  try rw [at44_v225 m outs h_v5 h_v11 h_v17 h_v23 h_v122 h_v147 h_v172 h_v197 h_v222 c]
  try rw [at44_v80 m outs c]
  try simp only [TRef.ofBuf, TRef.toBuf, cast_eq, id]
  rfl
theorem kv_v331 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (c : Dev nD) : V45 m outs c main_v331 = val_main_v398 (F := F) (a2 m c) (a4 m c) (a5 m c) (a6 m c) (a7 m c) (a8 m c) (a9 m c) := by
  show StableHlo.after hostOps12 (V44 m outs c) (Proc.devRef .tc main_v331) = _
  generalize hW : V44 m outs c = W
  after_results
  subst hW
  try rw [at44_v234 m outs h_v5 h_v11 h_v17 h_v23 h_v122 h_v147 h_v172 h_v197 h_v222 c]
  try rw [at44_v309 m outs h_v309 c]
  try rw [at44_arg4 m outs c]
  try rw [at44_arg5 m outs c]
  try rw [at44_arg10 m outs c]
  try rw [at44_arg11 m outs c]
  try rw [at44_v79 m outs c]
  try rw [at44_v225 m outs h_v5 h_v11 h_v17 h_v23 h_v122 h_v147 h_v172 h_v197 h_v222 c]
  try rw [at44_v80 m outs c]
  try simp only [TRef.ofBuf, TRef.toBuf, cast_eq, id]
  rfl
theorem kv_v332 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (c : Dev nD) : V45 m outs c main_v332 = shapeCast ⟨2, ![50000, 1]⟩ (val_main_v191 (F := F) (a5 m c)) shapeCasts_S50000_S50000x1 := by
  show StableHlo.after hostOps12 (V44 m outs c) (Proc.devRef .tc main_v332) = _
  generalize hW : V44 m outs c = W
  after_results
  subst hW
  try rw [at44_v234 m outs h_v5 h_v11 h_v17 h_v23 h_v122 h_v147 h_v172 h_v197 h_v222 c]
  try rw [at44_v309 m outs h_v309 c]
  try rw [at44_arg4 m outs c]
  try rw [at44_arg5 m outs c]
  try rw [at44_arg10 m outs c]
  try rw [at44_arg11 m outs c]
  try rw [at44_v79 m outs c]
  try rw [at44_v225 m outs h_v5 h_v11 h_v17 h_v23 h_v122 h_v147 h_v172 h_v197 h_v222 c]
  try rw [at44_v80 m outs c]
  try simp only [TRef.ofBuf, TRef.toBuf, cast_eq, id]
  rfl
theorem kvpt_v332 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (c : Dev nD) (r : Fin 50000) : V45 m outs c main_v332 (ix2 r (0 : Fin 1)) = val_main_v191 (F := F) (a5 m c) (ix1 r) := by
  rw [kv_v332 m outs h_v5 h_v11 h_v17 h_v23 h_v122 h_v147 h_v172 h_v197 h_v222 h_v309 c]
  exact Cert.LibReshape.shapeCast_col_apply _ _ _
theorem kv_v333 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (c : Dev nD) : V45 m outs c main_v333 = shapeCast ⟨2, ![1, 128]⟩ (val_main_v375 (F := F) (a11 m c)) shapeCasts_S128_S1x128 := by
  show StableHlo.after hostOps12 (V44 m outs c) (Proc.devRef .tc main_v333) = _
  generalize hW : V44 m outs c = W
  after_results
  subst hW
  try rw [at44_v234 m outs h_v5 h_v11 h_v17 h_v23 h_v122 h_v147 h_v172 h_v197 h_v222 c]
  try rw [at44_v309 m outs h_v309 c]
  try rw [at44_arg4 m outs c]
  try rw [at44_arg5 m outs c]
  try rw [at44_arg10 m outs c]
  try rw [at44_arg11 m outs c]
  try rw [at44_v79 m outs c]
  try rw [at44_v225 m outs h_v5 h_v11 h_v17 h_v23 h_v122 h_v147 h_v172 h_v197 h_v222 c]
  try rw [at44_v80 m outs c]
  try simp only [TRef.ofBuf, TRef.toBuf, cast_eq, id]
  rfl
theorem kvpt_v333 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (c : Dev nD) (q : Fin 128) : V45 m outs c main_v333 (ix2 (0 : Fin 1) q) = val_main_v375 (F := F) (a11 m c) (ix1 q) := by
  rw [kv_v333 m outs h_v5 h_v11 h_v17 h_v23 h_v122 h_v147 h_v172 h_v197 h_v222 h_v309 c]
  exact Cert.LibReshape.shapeCast_row_apply _ _ _
theorem at46_v310 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (c : Dev nD) : V46 m outs c main_v310 = val_main_v367 (F := F) (a1 m c) (a4 m c) (a5 m c) (a6 m c) (a7 m c) (a8 m c) (a9 m c) (a10 m c) (a11 m c) :=
  (V46_of m outs c _ (by decide)).trans (kv_v310 m outs h_v5 h_v11 h_v17 h_v23 h_v122 h_v147 h_v172 h_v197 h_v222 h_v309 c)
theorem at46_v334 (h_v334 : ∀ c : Dev nD, outs 46 main_v334 c = val_main_v406 (F := F) (a2 m c) (a4 m c) (a5 m c) (a6 m c) (a7 m c) (a8 m c) (a9 m c) (a10 m c) (a11 m c)) (c : Dev nD) : V46 m outs c main_v334 = val_main_v406 (F := F) (a2 m c) (a4 m c) (a5 m c) (a6 m c) (a7 m c) (a8 m c) (a9 m c) (a10 m c) (a11 m c) :=
  (V46_self m outs c).trans (h_v334 c)
theorem at46_arg4  (c : Dev nD) : V46 m outs c main_arg4 = a4 m c :=
  (V46_of m outs c _ (by decide)).trans ((V45_of m outs c _ (by decide)).trans ((V44_of m outs c _ (by decide)).trans ((V43_of m outs c _ (by decide)).trans ((V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))))))))
theorem at46_arg5  (c : Dev nD) : V46 m outs c main_arg5 = a5 m c :=
  (V46_of m outs c _ (by decide)).trans ((V45_of m outs c _ (by decide)).trans ((V44_of m outs c _ (by decide)).trans ((V43_of m outs c _ (by decide)).trans ((V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))))))))
theorem at46_arg10  (c : Dev nD) : V46 m outs c main_arg10 = a10 m c :=
  (V46_of m outs c _ (by decide)).trans ((V45_of m outs c _ (by decide)).trans ((V44_of m outs c _ (by decide)).trans ((V43_of m outs c _ (by decide)).trans ((V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))))))))
theorem at46_arg11  (c : Dev nD) : V46 m outs c main_arg11 = a11 m c :=
  (V46_of m outs c _ (by decide)).trans ((V45_of m outs c _ (by decide)).trans ((V44_of m outs c _ (by decide)).trans ((V43_of m outs c _ (by decide)).trans ((V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans ((V29_of m outs c _ (by decide)).trans ((V28_of m outs c _ (by decide)).trans ((V27_of m outs c _ (by decide)).trans ((V26_of m outs c _ (by decide)).trans ((V25_of m outs c _ (by decide)).trans ((V24_of m outs c _ (by decide)).trans ((V23_of m outs c _ (by decide)).trans ((V22_of m outs c _ (by decide)).trans ((V21_of m outs c _ (by decide)).trans ((V20_of m outs c _ (by decide)).trans ((V19_of m outs c _ (by decide)).trans ((V18_of m outs c _ (by decide)).trans ((V17_of m outs c _ (by decide)).trans ((V16_of m outs c _ (by decide)).trans ((V15_of m outs c _ (by decide)).trans ((V14_of m outs c _ (by decide)).trans ((V13_of m outs c _ (by decide)).trans ((V12_of m outs c _ (by decide)).trans ((V11_of m outs c _ (by decide)).trans ((V10_of m outs c _ (by decide)).trans ((V9_of m outs c _ (by decide)).trans ((V8_of m outs c _ (by decide)).trans ((V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl))))))))))))))))))))))))))))))))))))))))))))))
theorem at46_v93 (h_v5 : ∀ c : Dev nD, outs 2 main_v5 c = val_main_v8 (F := F) (a0 m c) (a6 m c) (a7 m c)) (c : Dev nD) : V46 m outs c main_v93 = val_main_v217 (F := F) (a4 m c) :=
  (V46_of m outs c _ (by decide)).trans ((V45_of m outs c _ (by decide)).trans ((V44_of m outs c _ (by decide)).trans ((V43_of m outs c _ (by decide)).trans ((V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans (kv_v93 m outs h_v5 c)))))))))))))))))
theorem at46_v229 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V46 m outs c main_v229 = val_main_v242 (F := F) (a0 m c) (a3 m c) (a4 m c) (a5 m c) (a6 m c) (a7 m c) (a8 m c) (a9 m c) :=
  (V46_of m outs c _ (by decide)).trans ((V45_of m outs c _ (by decide)).trans ((V44_of m outs c _ (by decide)).trans ((V43_of m outs c _ (by decide)).trans ((V42_of m outs c _ (by decide)).trans ((V41_of m outs c _ (by decide)).trans ((V40_of m outs c _ (by decide)).trans (kv_v229 m outs h_v5 h_v11 h_v17 h_v23 h_v122 h_v147 h_v172 h_v197 h_v222 c)))))))
theorem at46_v94 (h_v5 : ∀ c : Dev nD, outs 2 main_v5 c = val_main_v8 (F := F) (a0 m c) (a6 m c) (a7 m c)) (c : Dev nD) : V46 m outs c main_v94 = val_main_v231 (F := F) (a5 m c) :=
  (V46_of m outs c _ (by decide)).trans ((V45_of m outs c _ (by decide)).trans ((V44_of m outs c _ (by decide)).trans ((V43_of m outs c _ (by decide)).trans ((V42_of m outs c _ (by decide)).trans ((V41_of m outs c _ (by decide)).trans ((V40_of m outs c _ (by decide)).trans ((V39_of m outs c _ (by decide)).trans ((V38_of m outs c _ (by decide)).trans ((V37_of m outs c _ (by decide)).trans ((V36_of m outs c _ (by decide)).trans ((V35_of m outs c _ (by decide)).trans ((V34_of m outs c _ (by decide)).trans ((V33_of m outs c _ (by decide)).trans ((V32_of m outs c _ (by decide)).trans ((V31_of m outs c _ (by decide)).trans ((V30_of m outs c _ (by decide)).trans (kv_v94 m outs h_v5 c)))))))))))))))))
theorem kv_v335 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (h_v334 : ∀ c : Dev nD, outs 46 main_v334 c = val_main_v406 (F := F) (a2 m c) (a4 m c) (a5 m c) (a6 m c) (a7 m c) (a8 m c) (a9 m c) (a10 m c) (a11 m c)) (c : Dev nD) : V47 m outs c main_v335 = val_main_v407 (F := F) (a1 m c) (a2 m c) (a4 m c) (a5 m c) (a6 m c) (a7 m c) (a8 m c) (a9 m c) (a10 m c) (a11 m c) := by
  show StableHlo.after hostOps13 (V46 m outs c) (Proc.devRef .tc main_v335) = _
  generalize hW : V46 m outs c = W
  after_results
  subst hW
  try rw [at46_v310 m outs h_v5 h_v11 h_v17 h_v23 h_v122 h_v147 h_v172 h_v197 h_v222 h_v309 c]
  try rw [at46_v334 m outs h_v334 c]
  try rw [at46_arg4 m outs c]
  try rw [at46_arg5 m outs c]
  try rw [at46_arg10 m outs c]
  try rw [at46_arg11 m outs c]
  try rw [at46_v93 m outs h_v5 c]
  try rw [at46_v229 m outs h_v5 h_v11 h_v17 h_v23 h_v122 h_v147 h_v172 h_v197 h_v222 c]
  try rw [at46_v94 m outs h_v5 c]
  try simp only [TRef.ofBuf, TRef.toBuf, cast_eq, id]
  rfl
theorem kv_v341 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (h_v334 : ∀ c : Dev nD, outs 46 main_v334 c = val_main_v406 (F := F) (a2 m c) (a4 m c) (a5 m c) (a6 m c) (a7 m c) (a8 m c) (a9 m c) (a10 m c) (a11 m c)) (c : Dev nD) : V47 m outs c main_v341 = val_main_v413 (F := F) (a10 m c) := by
  show StableHlo.after hostOps13 (V46 m outs c) (Proc.devRef .tc main_v341) = _
  generalize hW : V46 m outs c = W
  after_results
  subst hW
  try rw [at46_v310 m outs h_v5 h_v11 h_v17 h_v23 h_v122 h_v147 h_v172 h_v197 h_v222 h_v309 c]
  try rw [at46_v334 m outs h_v334 c]
  try rw [at46_arg4 m outs c]
  try rw [at46_arg5 m outs c]
  try rw [at46_arg10 m outs c]
  try rw [at46_arg11 m outs c]
  try rw [at46_v93 m outs h_v5 c]
  try rw [at46_v229 m outs h_v5 h_v11 h_v17 h_v23 h_v122 h_v147 h_v172 h_v197 h_v222 c]
  try rw [at46_v94 m outs h_v5 c]
  try simp only [TRef.ofBuf, TRef.toBuf, cast_eq, id]
  rfl
theorem kv_v356 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (h_v334 : ∀ c : Dev nD, outs 46 main_v334 c = val_main_v406 (F := F) (a2 m c) (a4 m c) (a5 m c) (a6 m c) (a7 m c) (a8 m c) (a9 m c) (a10 m c) (a11 m c)) (c : Dev nD) : V47 m outs c main_v356 = val_main_v438 (F := F) (a0 m c) (a3 m c) (a4 m c) (a5 m c) (a6 m c) (a7 m c) (a8 m c) (a9 m c) := by
  show StableHlo.after hostOps13 (V46 m outs c) (Proc.devRef .tc main_v356) = _
  generalize hW : V46 m outs c = W
  after_results
  subst hW
  try rw [at46_v310 m outs h_v5 h_v11 h_v17 h_v23 h_v122 h_v147 h_v172 h_v197 h_v222 h_v309 c]
  try rw [at46_v334 m outs h_v334 c]
  try rw [at46_arg4 m outs c]
  try rw [at46_arg5 m outs c]
  try rw [at46_arg10 m outs c]
  try rw [at46_arg11 m outs c]
  try rw [at46_v93 m outs h_v5 c]
  try rw [at46_v229 m outs h_v5 h_v11 h_v17 h_v23 h_v122 h_v147 h_v172 h_v197 h_v222 c]
  try rw [at46_v94 m outs h_v5 c]
  try simp only [TRef.ofBuf, TRef.toBuf, cast_eq, id]
  rfl
theorem kv_v357 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (h_v334 : ∀ c : Dev nD, outs 46 main_v334 c = val_main_v406 (F := F) (a2 m c) (a4 m c) (a5 m c) (a6 m c) (a7 m c) (a8 m c) (a9 m c) (a10 m c) (a11 m c)) (c : Dev nD) : V47 m outs c main_v357 = shapeCast ⟨2, ![50000, 1]⟩ (val_main_v231 (F := F) (a5 m c)) shapeCasts_S50000_S50000x1 := by
  show StableHlo.after hostOps13 (V46 m outs c) (Proc.devRef .tc main_v357) = _
  generalize hW : V46 m outs c = W
  after_results
  subst hW
  try rw [at46_v310 m outs h_v5 h_v11 h_v17 h_v23 h_v122 h_v147 h_v172 h_v197 h_v222 h_v309 c]
  try rw [at46_v334 m outs h_v334 c]
  try rw [at46_arg4 m outs c]
  try rw [at46_arg5 m outs c]
  try rw [at46_arg10 m outs c]
  try rw [at46_arg11 m outs c]
  try rw [at46_v93 m outs h_v5 c]
  try rw [at46_v229 m outs h_v5 h_v11 h_v17 h_v23 h_v122 h_v147 h_v172 h_v197 h_v222 c]
  try rw [at46_v94 m outs h_v5 c]
  try simp only [TRef.ofBuf, TRef.toBuf, cast_eq, id]
  rfl
theorem kvpt_v357 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (h_v334 : ∀ c : Dev nD, outs 46 main_v334 c = val_main_v406 (F := F) (a2 m c) (a4 m c) (a5 m c) (a6 m c) (a7 m c) (a8 m c) (a9 m c) (a10 m c) (a11 m c)) (c : Dev nD) (r : Fin 50000) : V47 m outs c main_v357 (ix2 r (0 : Fin 1)) = val_main_v231 (F := F) (a5 m c) (ix1 r) := by
  rw [kv_v357 m outs h_v5 h_v11 h_v17 h_v23 h_v122 h_v147 h_v172 h_v197 h_v222 h_v309 h_v334 c]
  exact Cert.LibReshape.shapeCast_col_apply _ _ _
theorem kv_v358 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (h_v334 : ∀ c : Dev nD, outs 46 main_v334 c = val_main_v406 (F := F) (a2 m c) (a4 m c) (a5 m c) (a6 m c) (a7 m c) (a8 m c) (a9 m c) (a10 m c) (a11 m c)) (c : Dev nD) : V47 m outs c main_v358 = shapeCast ⟨2, ![1, 128]⟩ (val_main_v415 (F := F) (a11 m c)) shapeCasts_S128_S1x128 := by
  show StableHlo.after hostOps13 (V46 m outs c) (Proc.devRef .tc main_v358) = _
  generalize hW : V46 m outs c = W
  after_results
  subst hW
  try rw [at46_v310 m outs h_v5 h_v11 h_v17 h_v23 h_v122 h_v147 h_v172 h_v197 h_v222 h_v309 c]
  try rw [at46_v334 m outs h_v334 c]
  try rw [at46_arg4 m outs c]
  try rw [at46_arg5 m outs c]
  try rw [at46_arg10 m outs c]
  try rw [at46_arg11 m outs c]
  try rw [at46_v93 m outs h_v5 c]
  try rw [at46_v229 m outs h_v5 h_v11 h_v17 h_v23 h_v122 h_v147 h_v172 h_v197 h_v222 c]
  try rw [at46_v94 m outs h_v5 c]
  try simp only [TRef.ofBuf, TRef.toBuf, cast_eq, id]
  rfl
theorem kvpt_v358 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (h_v334 : ∀ c : Dev nD, outs 46 main_v334 c = val_main_v406 (F := F) (a2 m c) (a4 m c) (a5 m c) (a6 m c) (a7 m c) (a8 m c) (a9 m c) (a10 m c) (a11 m c)) (c : Dev nD) (q : Fin 128) : V47 m outs c main_v358 (ix2 (0 : Fin 1) q) = val_main_v415 (F := F) (a11 m c) (ix1 q) := by
  rw [kv_v358 m outs h_v5 h_v11 h_v17 h_v23 h_v122 h_v147 h_v172 h_v197 h_v222 h_v309 h_v334 c]
  exact Cert.LibReshape.shapeCast_row_apply _ _ _
theorem at48_v232 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (c : Dev nD) : V48 m outs c main_v232 = val_main_v36 (F := F) :=
  (V48_of m outs c _ (by decide)).trans ((V47_of m outs c _ (by decide)).trans ((V46_of m outs c _ (by decide)).trans ((V45_of m outs c _ (by decide)).trans ((V44_of m outs c _ (by decide)).trans ((V43_of m outs c _ (by decide)).trans ((V42_of m outs c _ (by decide)).trans ((V41_of m outs c _ (by decide)).trans ((V40_of m outs c _ (by decide)).trans (kv_v232 m outs h_v5 h_v11 h_v17 h_v23 h_v122 h_v147 h_v172 h_v197 h_v222 c)))))))))
theorem at48_v359 (h_v359 : ∀ c : Dev nD, outs 48 main_v359 c = val_main_v446 (F := F) (a0 m c) (a3 m c) (a4 m c) (a5 m c) (a6 m c) (a7 m c) (a8 m c) (a9 m c) (a10 m c) (a11 m c)) (c : Dev nD) : V48 m outs c main_v359 = val_main_v446 (F := F) (a0 m c) (a3 m c) (a4 m c) (a5 m c) (a6 m c) (a7 m c) (a8 m c) (a9 m c) (a10 m c) (a11 m c) :=
  (V48_self m outs c).trans (h_v359 c)
theorem at48_v260 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v259 : ∀ c : Dev nD, outs 40 main_v259 c = val_main_v286 (F := F) (a2 m c) (a4 m c) (a5 m c) (a6 m c) (a7 m c) (a8 m c) (a9 m c) (a10 m c) (a11 m c)) (c : Dev nD) : V48 m outs c main_v260 = val_main_v287 (F := F) (a2 m c) (a4 m c) (a5 m c) (a6 m c) (a7 m c) (a8 m c) (a9 m c) (a10 m c) (a11 m c) :=
  (V48_of m outs c _ (by decide)).trans ((V47_of m outs c _ (by decide)).trans ((V46_of m outs c _ (by decide)).trans ((V45_of m outs c _ (by decide)).trans ((V44_of m outs c _ (by decide)).trans ((V43_of m outs c _ (by decide)).trans ((V42_of m outs c _ (by decide)).trans (kv_v260 m outs h_v5 h_v11 h_v17 h_v23 h_v122 h_v147 h_v172 h_v197 h_v222 h_v259 c)))))))
theorem at48_v335 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v309 : ∀ c : Dev nD, outs 44 main_v309 c = val_main_v366 (F := F) (a1 m c) (a4 m c) (a5 m c) (a6 m c) (a7 m c) (a8 m c) (a9 m c) (a10 m c) (a11 m c)) (h_v334 : ∀ c : Dev nD, outs 46 main_v334 c = val_main_v406 (F := F) (a2 m c) (a4 m c) (a5 m c) (a6 m c) (a7 m c) (a8 m c) (a9 m c) (a10 m c) (a11 m c)) (c : Dev nD) : V48 m outs c main_v335 = val_main_v407 (F := F) (a1 m c) (a2 m c) (a4 m c) (a5 m c) (a6 m c) (a7 m c) (a8 m c) (a9 m c) (a10 m c) (a11 m c) :=
  (V48_of m outs c _ (by decide)).trans (kv_v335 m outs h_v5 h_v11 h_v17 h_v23 h_v122 h_v147 h_v172 h_v197 h_v222 h_v309 h_v334 c)
theorem at48_v285 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v284 : ∀ c : Dev nD, outs 42 main_v284 c = val_main_v326 (F := F) (a0 m c) (a4 m c) (a5 m c) (a6 m c) (a7 m c) (a8 m c) (a9 m c) (a10 m c) (a11 m c)) (c : Dev nD) : V48 m outs c main_v285 = val_main_v327 (F := F) (a0 m c) (a4 m c) (a5 m c) (a6 m c) (a7 m c) (a8 m c) (a9 m c) (a10 m c) (a11 m c) :=
  (V48_of m outs c _ (by decide)).trans ((V47_of m outs c _ (by decide)).trans ((V46_of m outs c _ (by decide)).trans ((V45_of m outs c _ (by decide)).trans ((V44_of m outs c _ (by decide)).trans (kv_v285 m outs h_v5 h_v11 h_v17 h_v23 h_v122 h_v147 h_v172 h_v197 h_v222 h_v284 c)))))
theorem kv_v373 (h_v5 : ∀ c : Dev nD, outs 2 main_v5 c = val_main_v8 (F := F) (a0 m c) (a6 m c) (a7 m c)) (h_v11 : ∀ c : Dev nD, outs 4 main_v11 c = val_main_v17 (F := F) (a1 m c) (a6 m c) (a7 m c)) (h_v17 : ∀ c : Dev nD, outs 6 main_v17 c = val_main_v26 (F := F) (a2 m c) (a6 m c) (a7 m c)) (h_v23 : ∀ c : Dev nD, outs 8 main_v23 c = val_main_v35 (F := F) (a3 m c) (a6 m c) (a7 m c)) (h_v122 : ∀ c : Dev nD, outs 30 main_v122 c = val_main_v78 (F := F) (a0 m c) (a4 m c) (a5 m c) (a6 m c) (a7 m c) (a8 m c) (a9 m c)) (h_v147 : ∀ c : Dev nD, outs 32 main_v147 c = val_main_v118 (F := F) (a1 m c) (a4 m c) (a5 m c) (a6 m c) (a7 m c) (a8 m c) (a9 m c)) (h_v172 : ∀ c : Dev nD, outs 34 main_v172 c = val_main_v158 (F := F) (a3 m c) (a4 m c) (a5 m c) (a6 m c) (a7 m c) (a8 m c) (a9 m c)) (h_v197 : ∀ c : Dev nD, outs 36 main_v197 c = val_main_v198 (F := F) (a0 m c) (a4 m c) (a5 m c) (a6 m c) (a7 m c) (a8 m c) (a9 m c)) (h_v222 : ∀ c : Dev nD, outs 38 main_v222 c = val_main_v238 (F := F) (a2 m c) (a4 m c) (a5 m c) (a6 m c) (a7 m c) (a8 m c) (a9 m c)) (h_v259 : ∀ c : Dev nD, outs 40 main_v259 c = val_main_v286 (F := F) (a2 m c) (a4 m c) (a5 m c) (a6 m c) (a7 m c) (a8 m c) (a9 m c) (a10 m c) (a11 m c)) (h_v284 : ∀ c : Dev nD, outs 42 main_v284 c = val_main_v326 (F := F) (a0 m c) (a4 m c) (a5 m c) (a6 m c) (a7 m c) (a8 m c) (a9 m c) (a10 m c) (a11 m c)) (h_v309 : ∀ c : Dev nD, outs 44 main_v309 c = val_main_v366 (F := F) (a1 m c) (a4 m c) (a5 m c) (a6 m c) (a7 m c) (a8 m c) (a9 m c) (a10 m c) (a11 m c)) (h_v334 : ∀ c : Dev nD, outs 46 main_v334 c = val_main_v406 (F := F) (a2 m c) (a4 m c) (a5 m c) (a6 m c) (a7 m c) (a8 m c) (a9 m c) (a10 m c) (a11 m c)) (h_v359 : ∀ c : Dev nD, outs 48 main_v359 c = val_main_v446 (F := F) (a0 m c) (a3 m c) (a4 m c) (a5 m c) (a6 m c) (a7 m c) (a8 m c) (a9 m c) (a10 m c) (a11 m c)) (c : Dev nD) : V49 m outs c main_v373 = val_main_v456 (F := F) (a0 m c) (a1 m c) (a2 m c) (a3 m c) (a4 m c) (a5 m c) (a6 m c) (a7 m c) (a8 m c) (a9 m c) (a10 m c) (a11 m c) := by
  show StableHlo.after hostOps14 (V48 m outs c) (Proc.devRef .tc main_v373) = _
  generalize hW : V48 m outs c = W
  simp only [hostOps14, after_cons, after_nil]
  refine (nary4_result _ _ _ _).trans ?_
  repeat (first
    | rw [nullary_result] | rw [unary_result] | rw [binary_result] | rw [ternary_result] | rw [quaternary_result] | rw [reshape_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  subst hW
  try rw [at48_v232 m outs h_v5 h_v11 h_v17 h_v23 h_v122 h_v147 h_v172 h_v197 h_v222 c]
  try rw [at48_v359 m outs h_v359 c]
  try rw [at48_v260 m outs h_v5 h_v11 h_v17 h_v23 h_v122 h_v147 h_v172 h_v197 h_v222 h_v259 c]
  try rw [at48_v335 m outs h_v5 h_v11 h_v17 h_v23 h_v122 h_v147 h_v172 h_v197 h_v222 h_v309 h_v334 c]
  try rw [at48_v285 m outs h_v5 h_v11 h_v17 h_v23 h_v122 h_v147 h_v172 h_v197 h_v222 h_v284 c]
  try simp only [TRef.ofBuf, TRef.toBuf, cast_eq, id]
  rfl
theorem at1_arg0  (c : Dev nD) : V1 m c main_arg0 = a0 m c :=
  (V1_of m c _ (by decide)).trans (rfl)
theorem at3_arg1  (c : Dev nD) : V3 m outs c main_arg1 = a1 m c :=
  (V3_of m outs c _ (by decide)).trans ((V2_of m outs c _ (by decide)).trans ((V1_of m c _ (by decide)).trans (rfl)))
theorem at5_arg2  (c : Dev nD) : V5 m outs c main_arg2 = a2 m c :=
  (V5_of m outs c _ (by decide)).trans ((V4_of m outs c _ (by decide)).trans ((V3_of m outs c _ (by decide)).trans ((V2_of m outs c _ (by decide)).trans ((V1_of m c _ (by decide)).trans (rfl)))))
theorem at7_arg3  (c : Dev nD) : V7 m outs c main_arg3 = a3 m c :=
  (V7_of m outs c _ (by decide)).trans ((V6_of m outs c _ (by decide)).trans ((V5_of m outs c _ (by decide)).trans ((V4_of m outs c _ (by decide)).trans ((V3_of m outs c _ (by decide)).trans ((V2_of m outs c _ (by decide)).trans ((V1_of m c _ (by decide)).trans (rfl)))))))

end Cert.KernelIdeal.Hand

end
-- ==== Proof.RefStages.lean ====
/-
  The reference program's two kinds of dense stage, read entry by entry.
  An input projection ends in max(x·w + b, 0): its last stage at entry (r, q) is the larger of 0 and the sum over k of
  x(r, k)·w(k, q) plus the bias at q. A graph-convolution epilogue ends in (a scaled row-wise by s)·w + b: its last stage
  at (r, q) is the sum over k of (a(r, k)·s(r))·w(k, q) plus the bias at q. In the program the bias is a vector laid along
  every row and the scale a vector laid along every column; the statements below take instead ANY one-row array and any
  one-column array that agree entry by entry with those vectors, so they do not depend on how the vector was laid out.
  The aggregate a, the weights w and the vectors themselves stay the program's own stages, never opened.
-/
import proofs.«418080_j49366354100286_4_alg».proof.Proof.RefReadP
import proofs.«418080_j49366354100286_4_alg».proof.Proof.Spec
import Idealize.ShloMosaic.Lib.ValueIdx
import Idealize.ShloMosaic.PureOps.Ideal.Laws

noncomputable section

namespace Cert.ReferenceIdeal.Hand

open Cert.ReferenceIdeal Cert.ReferenceIdeal.ReadP Idealize.ShloMosaic Idealize.ShloMosaic.ValueIdx

/-- projection 0: %8 = relu(%7), %7 = %2 + %6, %2 = dot_general(%arg0, %1), %6 = bcast(%5), %5 = bcast(%4 : [128]).
    At entry (r, q) the final stage is the larger of (the sum over k of x(r, k) · w(k, q), plus the bias row at q) and
    the zero constant: the projection function of the features, the weight stage and any one-row array that agrees
    with the 1-D bias stage. -/
theorem ref_proj0 (x0 : (⟨S50000x385, .f32⟩ : BufTy).Contents (Elt Ideal)) (x6 : (⟨S4x385x128, .f32⟩ : BufTy).Contents (Elt Ideal)) (x7 : (⟨S4x128, .f32⟩ : BufTy).Contents (Elt Ideal))
    (b : (⟨2, ![1, 128]⟩ : Shape).Idx → EReal) (hb : ∀ q : Fin 128, b (ix2 (0 : Fin 1) q) = val_main_v4 (F := Ideal) x7 (ix1 q)) :
    val_main_v8 (F := Ideal) x0 x6 x7 = Cert.Spec.projFn x0 (val_main_v1 (F := Ideal) x6) b := by
  funext i
  obtain ⟨r, q, rfl⟩ : ∃ (r : Fin 50000) (q : Fin 128), i = ix2 r q := ⟨i 0, i 1, eq_ix2 i⟩
  -- the generated index functions at (r, q), by coordinates
  have el : ∀ k : Fin 385, lidx_main_v2 (ix2 r q) k = ix2 r k := fun k =>
    funext fun a => Fin.ext (by match a with | ⟨0, _⟩ => rfl | ⟨1, _⟩ => rfl)
  have er : ∀ k : Fin 385, ridx_main_v2 (ix2 r q) k = ix2 k q := fun k =>
    funext fun a => Fin.ext (by match a with | ⟨0, _⟩ => rfl | ⟨1, _⟩ => rfl)
  have eb : idx_main_v5 (idx_main_v6 (ix2 r q)) = ix1 q :=
    funext fun a => Fin.ext (by match a with | ⟨0, _⟩ => rfl)
  show _ = Cert.Spec.projAt x0 (val_main_v1 (F := Ideal) x6) b r q
  unfold Cert.Spec.projAt
  rw [val_main_v8_apply, val_main_v7_apply, val_main_v2_apply, val_main_v6_apply, val_main_v5_apply,
    val_main_call0_v0_apply, val_main_call0_cst_apply, eb, ← hb q]
  simp only [el, er, Ideal.maximumf_def, Ideal.addf_def, Ideal.ofBits_def, Ideal.ofBits_zero_f32]

/-- epilogue of launch 4: %78 = %75 + %77, %75 = dot_general(%74, %45), %74 = %70 * %73, %73 = bcast(%72),
    %72 = bcast(%71 : [50000]), %77 = bcast(%76), %76 = bcast(%47 : [128]).
    At entry (r, q) the final stage is the sum over k of (aggregate(r, k) · scale(r)) · w(k, q), plus the bias at q: the
    epilogue function of the aggregate stage, any one-column array that agrees with the 1-D scale stage, the weight
    stage and any one-row array that agrees with the 1-D bias stage. The aggregate and the weights are named as
    variables before the two sides' arithmetic is compared, so neither is ever opened. -/
theorem ref_conv4 (x0 : (⟨S50000x385, .f32⟩ : BufTy).Contents (Elt Ideal)) (x4 x5 : (⟨S5x1600000, .i32⟩ : BufTy).Contents (Elt Ideal)) (x6 : (⟨S4x385x128, .f32⟩ : BufTy).Contents (Elt Ideal)) (x7 : (⟨S4x128, .f32⟩ : BufTy).Contents (Elt Ideal)) (x8 : (⟨S5x128x128, .f32⟩ : BufTy).Contents (Elt Ideal)) (x9 : (⟨S5x128, .f32⟩ : BufTy).Contents (Elt Ideal))
    (s : (⟨2, ![50000, 1]⟩ : Shape).Idx → EReal) (hs : ∀ r : Fin 50000, s (ix2 r (0 : Fin 1)) = val_main_v71 (F := Ideal) x5 (ix1 r))
    (b : (⟨2, ![1, 128]⟩ : Shape).Idx → EReal) (hb : ∀ q : Fin 128, b (ix2 (0 : Fin 1) q) = val_main_v47 (F := Ideal) x9 (ix1 q)) :
    val_main_v78 (F := Ideal) x0 x4 x5 x6 x7 x8 x9 = Cert.Spec.convFn (val_main_v70 (F := Ideal) x0 x4 x5 x6 x7) s (val_main_v45 (F := Ideal) x8) b := by
  funext i
  obtain ⟨r, q, rfl⟩ : ∃ (r : Fin 50000) (q : Fin 128), i = ix2 r q := ⟨i 0, i 1, eq_ix2 i⟩
  -- the generated index functions at (r, q), by coordinates
  have el : ∀ k : Fin 128, lidx_main_v75 (ix2 r q) k = ix2 r k := fun k =>
    funext fun a => Fin.ext (by match a with | ⟨0, _⟩ => rfl | ⟨1, _⟩ => rfl)
  have er : ∀ k : Fin 128, ridx_main_v75 (ix2 r q) k = ix2 k q := fun k =>
    funext fun a => Fin.ext (by match a with | ⟨0, _⟩ => rfl | ⟨1, _⟩ => rfl)
  have es : ∀ k : Fin 128, idx_main_v72 (idx_main_v73 (ix2 r k)) = ix1 r := fun k =>
    funext fun a => Fin.ext (by match a with | ⟨0, _⟩ => rfl)
  have eb : idx_main_v76 (idx_main_v77 (ix2 r q)) = ix1 q :=
    funext fun a => Fin.ext (by match a with | ⟨0, _⟩ => rfl)
  -- the scaled aggregate entry by entry, as an equation to rewrite with
  have hm := fun j => val_main_v74_apply (F := Ideal) x0 x4 x5 x6 x7 j
  -- read the left side down to the aggregate, the weights, s and b; the right side stays folded meanwhile
  rw [val_main_v78_apply, val_main_v75_apply, val_main_v77_apply, val_main_v76_apply, eb, ← hb q]
  simp only [el, er, hm, val_main_v73_apply, val_main_v72_apply, es, ← hs r]
  -- from here on the aggregate and the weights are variables
  generalize val_main_v70 (F := Ideal) x0 x4 x5 x6 x7 = A
  generalize val_main_v45 (F := Ideal) x8 = W
  rfl

end Cert.ReferenceIdeal.Hand

end
-- ==== Proof.RefStagesLaid.lean ====
import proofs.«418080_j49366354100286_4_alg».proof.Proof.RefStages

noncomputable section

namespace Cert.ReferenceIdeal.Hand

open Cert.ReferenceIdeal Cert.ReferenceIdeal.ReadP Idealize.ShloMosaic Idealize.ShloMosaic.ValueIdx

/-- projection 1: %17 = relu(%16), %16 = %11 + %15, %11 = dot_general(%arg1, %10), %15 = bcast(%14), %14 = bcast(%13 : [128]).
    At entry (r, q) the final stage is the larger of (the sum over k of x(r, k) · w(k, q), plus the bias row at q) and
    the zero constant: the projection function of the features, the weight stage and any one-row array that agrees
    with the 1-D bias stage. -/
theorem ref_proj1 (x1 : (⟨S50000x385, .f32⟩ : BufTy).Contents (Elt Ideal)) (x6 : (⟨S4x385x128, .f32⟩ : BufTy).Contents (Elt Ideal)) (x7 : (⟨S4x128, .f32⟩ : BufTy).Contents (Elt Ideal))
    (b : (⟨2, ![1, 128]⟩ : Shape).Idx → EReal) (hb : ∀ q : Fin 128, b (ix2 (0 : Fin 1) q) = val_main_v13 (F := Ideal) x7 (ix1 q)) :
    val_main_v17 (F := Ideal) x1 x6 x7 = Cert.Spec.projFn x1 (val_main_v10 (F := Ideal) x6) b := by
  funext i
  obtain ⟨r, q, rfl⟩ : ∃ (r : Fin 50000) (q : Fin 128), i = ix2 r q := ⟨i 0, i 1, eq_ix2 i⟩
  -- the generated index functions at (r, q), by coordinates
  have el : ∀ k : Fin 385, lidx_main_v11 (ix2 r q) k = ix2 r k := fun k =>
    funext fun a => Fin.ext (by match a with | ⟨0, _⟩ => rfl | ⟨1, _⟩ => rfl)
  have er : ∀ k : Fin 385, ridx_main_v11 (ix2 r q) k = ix2 k q := fun k =>
    funext fun a => Fin.ext (by match a with | ⟨0, _⟩ => rfl | ⟨1, _⟩ => rfl)
  have eb : idx_main_v14 (idx_main_v15 (ix2 r q)) = ix1 q :=
    funext fun a => Fin.ext (by match a with | ⟨0, _⟩ => rfl)
  show _ = Cert.Spec.projAt x1 (val_main_v10 (F := Ideal) x6) b r q
  unfold Cert.Spec.projAt
  rw [val_main_v17_apply, val_main_v16_apply, val_main_v11_apply, val_main_v15_apply, val_main_v14_apply,
    val_main_call1_v0_apply, val_main_call1_cst_apply, eb, ← hb q]
  simp only [el, er, Ideal.maximumf_def, Ideal.addf_def, Ideal.ofBits_def, Ideal.ofBits_zero_f32]

/-- projection 2: %26 = relu(%25), %25 = %20 + %24, %20 = dot_general(%arg2, %19), %24 = bcast(%23), %23 = bcast(%22 : [128]).
    At entry (r, q) the final stage is the larger of (the sum over k of x(r, k) · w(k, q), plus the bias row at q) and
    the zero constant: the projection function of the features, the weight stage and any one-row array that agrees
    with the 1-D bias stage. -/
theorem ref_proj2 (x2 : (⟨S50000x385, .f32⟩ : BufTy).Contents (Elt Ideal)) (x6 : (⟨S4x385x128, .f32⟩ : BufTy).Contents (Elt Ideal)) (x7 : (⟨S4x128, .f32⟩ : BufTy).Contents (Elt Ideal))
    (b : (⟨2, ![1, 128]⟩ : Shape).Idx → EReal) (hb : ∀ q : Fin 128, b (ix2 (0 : Fin 1) q) = val_main_v22 (F := Ideal) x7 (ix1 q)) :
    val_main_v26 (F := Ideal) x2 x6 x7 = Cert.Spec.projFn x2 (val_main_v19 (F := Ideal) x6) b := by
  funext i
  obtain ⟨r, q, rfl⟩ : ∃ (r : Fin 50000) (q : Fin 128), i = ix2 r q := ⟨i 0, i 1, eq_ix2 i⟩
  -- the generated index functions at (r, q), by coordinates
  have el : ∀ k : Fin 385, lidx_main_v20 (ix2 r q) k = ix2 r k := fun k =>
    funext fun a => Fin.ext (by match a with | ⟨0, _⟩ => rfl | ⟨1, _⟩ => rfl)
  have er : ∀ k : Fin 385, ridx_main_v20 (ix2 r q) k = ix2 k q := fun k =>
    funext fun a => Fin.ext (by match a with | ⟨0, _⟩ => rfl | ⟨1, _⟩ => rfl)
  have eb : idx_main_v23 (idx_main_v24 (ix2 r q)) = ix1 q :=
    funext fun a => Fin.ext (by match a with | ⟨0, _⟩ => rfl)
  show _ = Cert.Spec.projAt x2 (val_main_v19 (F := Ideal) x6) b r q
  unfold Cert.Spec.projAt
  rw [val_main_v26_apply, val_main_v25_apply, val_main_v20_apply, val_main_v24_apply, val_main_v23_apply,
    val_main_call2_v0_apply, val_main_call2_cst_apply, eb, ← hb q]
  simp only [el, er, Ideal.maximumf_def, Ideal.addf_def, Ideal.ofBits_def, Ideal.ofBits_zero_f32]

/-- projection 3: %35 = relu(%34), %34 = %29 + %33, %29 = dot_general(%arg3, %28), %33 = bcast(%32), %32 = bcast(%31 : [128]).
    At entry (r, q) the final stage is the larger of (the sum over k of x(r, k) · w(k, q), plus the bias row at q) and
    the zero constant: the projection function of the features, the weight stage and any one-row array that agrees
    with the 1-D bias stage. -/
theorem ref_proj3 (x3 : (⟨S50000x385, .f32⟩ : BufTy).Contents (Elt Ideal)) (x6 : (⟨S4x385x128, .f32⟩ : BufTy).Contents (Elt Ideal)) (x7 : (⟨S4x128, .f32⟩ : BufTy).Contents (Elt Ideal))
    (b : (⟨2, ![1, 128]⟩ : Shape).Idx → EReal) (hb : ∀ q : Fin 128, b (ix2 (0 : Fin 1) q) = val_main_v31 (F := Ideal) x7 (ix1 q)) :
    val_main_v35 (F := Ideal) x3 x6 x7 = Cert.Spec.projFn x3 (val_main_v28 (F := Ideal) x6) b := by
  funext i
  obtain ⟨r, q, rfl⟩ : ∃ (r : Fin 50000) (q : Fin 128), i = ix2 r q := ⟨i 0, i 1, eq_ix2 i⟩
  -- the generated index functions at (r, q), by coordinates
  have el : ∀ k : Fin 385, lidx_main_v29 (ix2 r q) k = ix2 r k := fun k =>
    funext fun a => Fin.ext (by match a with | ⟨0, _⟩ => rfl | ⟨1, _⟩ => rfl)
  have er : ∀ k : Fin 385, ridx_main_v29 (ix2 r q) k = ix2 k q := fun k =>
    funext fun a => Fin.ext (by match a with | ⟨0, _⟩ => rfl | ⟨1, _⟩ => rfl)
  have eb : idx_main_v32 (idx_main_v33 (ix2 r q)) = ix1 q :=
    funext fun a => Fin.ext (by match a with | ⟨0, _⟩ => rfl)
  show _ = Cert.Spec.projAt x3 (val_main_v28 (F := Ideal) x6) b r q
  unfold Cert.Spec.projAt
  rw [val_main_v35_apply, val_main_v34_apply, val_main_v29_apply, val_main_v33_apply, val_main_v32_apply,
    val_main_call3_v0_apply, val_main_call3_cst_apply, eb, ← hb q]
  simp only [el, er, Ideal.maximumf_def, Ideal.addf_def, Ideal.ofBits_def, Ideal.ofBits_zero_f32]

/-- epilogue of launch 5: %118 = %115 + %117, %115 = dot_general(%114, %85), %114 = %110 * %113, %113 = bcast(%112),
    %112 = bcast(%111 : [50000]), %117 = bcast(%116), %116 = bcast(%87 : [128]).
    At entry (r, q) the final stage is the sum over k of (aggregate(r, k) · scale(r)) · w(k, q), plus the bias at q: the
    epilogue function of the aggregate stage, any one-column array that agrees with the 1-D scale stage, the weight
    stage and any one-row array that agrees with the 1-D bias stage. The aggregate and the weights are named as
    variables before the two sides' arithmetic is compared, so neither is ever opened. -/
theorem ref_conv5 (x1 : (⟨S50000x385, .f32⟩ : BufTy).Contents (Elt Ideal)) (x4 x5 : (⟨S5x1600000, .i32⟩ : BufTy).Contents (Elt Ideal)) (x6 : (⟨S4x385x128, .f32⟩ : BufTy).Contents (Elt Ideal)) (x7 : (⟨S4x128, .f32⟩ : BufTy).Contents (Elt Ideal)) (x8 : (⟨S5x128x128, .f32⟩ : BufTy).Contents (Elt Ideal)) (x9 : (⟨S5x128, .f32⟩ : BufTy).Contents (Elt Ideal))
    (s : (⟨2, ![50000, 1]⟩ : Shape).Idx → EReal) (hs : ∀ r : Fin 50000, s (ix2 r (0 : Fin 1)) = val_main_v111 (F := Ideal) x5 (ix1 r))
    (b : (⟨2, ![1, 128]⟩ : Shape).Idx → EReal) (hb : ∀ q : Fin 128, b (ix2 (0 : Fin 1) q) = val_main_v87 (F := Ideal) x9 (ix1 q)) :
    val_main_v118 (F := Ideal) x1 x4 x5 x6 x7 x8 x9 = Cert.Spec.convFn (val_main_v110 (F := Ideal) x1 x4 x5 x6 x7) s (val_main_v85 (F := Ideal) x8) b := by
  funext i
  obtain ⟨r, q, rfl⟩ : ∃ (r : Fin 50000) (q : Fin 128), i = ix2 r q := ⟨i 0, i 1, eq_ix2 i⟩
  -- the generated index functions at (r, q), by coordinates
  have el : ∀ k : Fin 128, lidx_main_v115 (ix2 r q) k = ix2 r k := fun k =>
    funext fun a => Fin.ext (by match a with | ⟨0, _⟩ => rfl | ⟨1, _⟩ => rfl)
  have er : ∀ k : Fin 128, ridx_main_v115 (ix2 r q) k = ix2 k q := fun k =>
    funext fun a => Fin.ext (by match a with | ⟨0, _⟩ => rfl | ⟨1, _⟩ => rfl)
  have es : ∀ k : Fin 128, idx_main_v112 (idx_main_v113 (ix2 r k)) = ix1 r := fun k =>
    funext fun a => Fin.ext (by match a with | ⟨0, _⟩ => rfl)
  have eb : idx_main_v116 (idx_main_v117 (ix2 r q)) = ix1 q :=
    funext fun a => Fin.ext (by match a with | ⟨0, _⟩ => rfl)
  -- the scaled aggregate entry by entry, as an equation to rewrite with
  have hm := fun j => val_main_v114_apply (F := Ideal) x1 x4 x5 x6 x7 j
  -- read the left side down to the aggregate, the weights, s and b; the right side stays folded meanwhile
  rw [val_main_v118_apply, val_main_v115_apply, val_main_v117_apply, val_main_v116_apply, eb, ← hb q]
  simp only [el, er, hm, val_main_v113_apply, val_main_v112_apply, es, ← hs r]
  -- from here on the aggregate and the weights are variables
  generalize val_main_v110 (F := Ideal) x1 x4 x5 x6 x7 = A
  generalize val_main_v85 (F := Ideal) x8 = W
  rfl

/-- epilogue of launch 6: %158 = %155 + %157, %155 = dot_general(%154, %125), %154 = %150 * %153, %153 = bcast(%152),
    %152 = bcast(%151 : [50000]), %157 = bcast(%156), %156 = bcast(%127 : [128]).
    At entry (r, q) the final stage is the sum over k of (aggregate(r, k) · scale(r)) · w(k, q), plus the bias at q: the
    epilogue function of the aggregate stage, any one-column array that agrees with the 1-D scale stage, the weight
    stage and any one-row array that agrees with the 1-D bias stage. The aggregate and the weights are named as
    variables before the two sides' arithmetic is compared, so neither is ever opened. -/
theorem ref_conv6 (x3 : (⟨S50000x385, .f32⟩ : BufTy).Contents (Elt Ideal)) (x4 x5 : (⟨S5x1600000, .i32⟩ : BufTy).Contents (Elt Ideal)) (x6 : (⟨S4x385x128, .f32⟩ : BufTy).Contents (Elt Ideal)) (x7 : (⟨S4x128, .f32⟩ : BufTy).Contents (Elt Ideal)) (x8 : (⟨S5x128x128, .f32⟩ : BufTy).Contents (Elt Ideal)) (x9 : (⟨S5x128, .f32⟩ : BufTy).Contents (Elt Ideal))
    (s : (⟨2, ![50000, 1]⟩ : Shape).Idx → EReal) (hs : ∀ r : Fin 50000, s (ix2 r (0 : Fin 1)) = val_main_v151 (F := Ideal) x5 (ix1 r))
    (b : (⟨2, ![1, 128]⟩ : Shape).Idx → EReal) (hb : ∀ q : Fin 128, b (ix2 (0 : Fin 1) q) = val_main_v127 (F := Ideal) x9 (ix1 q)) :
    val_main_v158 (F := Ideal) x3 x4 x5 x6 x7 x8 x9 = Cert.Spec.convFn (val_main_v150 (F := Ideal) x3 x4 x5 x6 x7) s (val_main_v125 (F := Ideal) x8) b := by
  funext i
  obtain ⟨r, q, rfl⟩ : ∃ (r : Fin 50000) (q : Fin 128), i = ix2 r q := ⟨i 0, i 1, eq_ix2 i⟩
  -- the generated index functions at (r, q), by coordinates
  have el : ∀ k : Fin 128, lidx_main_v155 (ix2 r q) k = ix2 r k := fun k =>
    funext fun a => Fin.ext (by match a with | ⟨0, _⟩ => rfl | ⟨1, _⟩ => rfl)
  have er : ∀ k : Fin 128, ridx_main_v155 (ix2 r q) k = ix2 k q := fun k =>
    funext fun a => Fin.ext (by match a with | ⟨0, _⟩ => rfl | ⟨1, _⟩ => rfl)
  have es : ∀ k : Fin 128, idx_main_v152 (idx_main_v153 (ix2 r k)) = ix1 r := fun k =>
    funext fun a => Fin.ext (by match a with | ⟨0, _⟩ => rfl)
  have eb : idx_main_v156 (idx_main_v157 (ix2 r q)) = ix1 q :=
    funext fun a => Fin.ext (by match a with | ⟨0, _⟩ => rfl)
  -- the scaled aggregate entry by entry, as an equation to rewrite with
  have hm := fun j => val_main_v154_apply (F := Ideal) x3 x4 x5 x6 x7 j
  -- read the left side down to the aggregate, the weights, s and b; the right side stays folded meanwhile
  rw [val_main_v158_apply, val_main_v155_apply, val_main_v157_apply, val_main_v156_apply, eb, ← hb q]
  simp only [el, er, hm, val_main_v153_apply, val_main_v152_apply, es, ← hs r]
  -- from here on the aggregate and the weights are variables
  generalize val_main_v150 (F := Ideal) x3 x4 x5 x6 x7 = A
  generalize val_main_v125 (F := Ideal) x8 = W
  rfl

/-- epilogue of launch 7: %198 = %195 + %197, %195 = dot_general(%194, %165), %194 = %190 * %193, %193 = bcast(%192),
    %192 = bcast(%191 : [50000]), %197 = bcast(%196), %196 = bcast(%167 : [128]).
    At entry (r, q) the final stage is the sum over k of (aggregate(r, k) · scale(r)) · w(k, q), plus the bias at q: the
    epilogue function of the aggregate stage, any one-column array that agrees with the 1-D scale stage, the weight
    stage and any one-row array that agrees with the 1-D bias stage. The aggregate and the weights are named as
    variables before the two sides' arithmetic is compared, so neither is ever opened. -/
theorem ref_conv7 (x0 : (⟨S50000x385, .f32⟩ : BufTy).Contents (Elt Ideal)) (x4 x5 : (⟨S5x1600000, .i32⟩ : BufTy).Contents (Elt Ideal)) (x6 : (⟨S4x385x128, .f32⟩ : BufTy).Contents (Elt Ideal)) (x7 : (⟨S4x128, .f32⟩ : BufTy).Contents (Elt Ideal)) (x8 : (⟨S5x128x128, .f32⟩ : BufTy).Contents (Elt Ideal)) (x9 : (⟨S5x128, .f32⟩ : BufTy).Contents (Elt Ideal))
    (s : (⟨2, ![50000, 1]⟩ : Shape).Idx → EReal) (hs : ∀ r : Fin 50000, s (ix2 r (0 : Fin 1)) = val_main_v191 (F := Ideal) x5 (ix1 r))
    (b : (⟨2, ![1, 128]⟩ : Shape).Idx → EReal) (hb : ∀ q : Fin 128, b (ix2 (0 : Fin 1) q) = val_main_v167 (F := Ideal) x9 (ix1 q)) :
    val_main_v198 (F := Ideal) x0 x4 x5 x6 x7 x8 x9 = Cert.Spec.convFn (val_main_v190 (F := Ideal) x0 x4 x5 x6 x7) s (val_main_v165 (F := Ideal) x8) b := by
  funext i
  obtain ⟨r, q, rfl⟩ : ∃ (r : Fin 50000) (q : Fin 128), i = ix2 r q := ⟨i 0, i 1, eq_ix2 i⟩
  -- the generated index functions at (r, q), by coordinates
  have el : ∀ k : Fin 128, lidx_main_v195 (ix2 r q) k = ix2 r k := fun k =>
    funext fun a => Fin.ext (by match a with | ⟨0, _⟩ => rfl | ⟨1, _⟩ => rfl)
  have er : ∀ k : Fin 128, ridx_main_v195 (ix2 r q) k = ix2 k q := fun k =>
    funext fun a => Fin.ext (by match a with | ⟨0, _⟩ => rfl | ⟨1, _⟩ => rfl)
  have es : ∀ k : Fin 128, idx_main_v192 (idx_main_v193 (ix2 r k)) = ix1 r := fun k =>
    funext fun a => Fin.ext (by match a with | ⟨0, _⟩ => rfl)
  have eb : idx_main_v196 (idx_main_v197 (ix2 r q)) = ix1 q :=
    funext fun a => Fin.ext (by match a with | ⟨0, _⟩ => rfl)
  -- the scaled aggregate entry by entry, as an equation to rewrite with
  have hm := fun j => val_main_v194_apply (F := Ideal) x0 x4 x5 x6 x7 j
  -- read the left side down to the aggregate, the weights, s and b; the right side stays folded meanwhile
  rw [val_main_v198_apply, val_main_v195_apply, val_main_v197_apply, val_main_v196_apply, eb, ← hb q]
  simp only [el, er, hm, val_main_v193_apply, val_main_v192_apply, es, ← hs r]
  -- from here on the aggregate and the weights are variables
  generalize val_main_v190 (F := Ideal) x0 x4 x5 x6 x7 = A
  generalize val_main_v165 (F := Ideal) x8 = W
  rfl

/-- epilogue of launch 8: %238 = %235 + %237, %235 = dot_general(%234, %205), %234 = %230 * %233, %233 = bcast(%232),
    %232 = bcast(%231 : [50000]), %237 = bcast(%236), %236 = bcast(%207 : [128]).
    At entry (r, q) the final stage is the sum over k of (aggregate(r, k) · scale(r)) · w(k, q), plus the bias at q: the
    epilogue function of the aggregate stage, any one-column array that agrees with the 1-D scale stage, the weight
    stage and any one-row array that agrees with the 1-D bias stage. The aggregate and the weights are named as
    variables before the two sides' arithmetic is compared, so neither is ever opened. -/
theorem ref_conv8 (x2 : (⟨S50000x385, .f32⟩ : BufTy).Contents (Elt Ideal)) (x4 x5 : (⟨S5x1600000, .i32⟩ : BufTy).Contents (Elt Ideal)) (x6 : (⟨S4x385x128, .f32⟩ : BufTy).Contents (Elt Ideal)) (x7 : (⟨S4x128, .f32⟩ : BufTy).Contents (Elt Ideal)) (x8 : (⟨S5x128x128, .f32⟩ : BufTy).Contents (Elt Ideal)) (x9 : (⟨S5x128, .f32⟩ : BufTy).Contents (Elt Ideal))
    (s : (⟨2, ![50000, 1]⟩ : Shape).Idx → EReal) (hs : ∀ r : Fin 50000, s (ix2 r (0 : Fin 1)) = val_main_v231 (F := Ideal) x5 (ix1 r))
    (b : (⟨2, ![1, 128]⟩ : Shape).Idx → EReal) (hb : ∀ q : Fin 128, b (ix2 (0 : Fin 1) q) = val_main_v207 (F := Ideal) x9 (ix1 q)) :
    val_main_v238 (F := Ideal) x2 x4 x5 x6 x7 x8 x9 = Cert.Spec.convFn (val_main_v230 (F := Ideal) x2 x4 x5 x6 x7) s (val_main_v205 (F := Ideal) x8) b := by
  funext i
  obtain ⟨r, q, rfl⟩ : ∃ (r : Fin 50000) (q : Fin 128), i = ix2 r q := ⟨i 0, i 1, eq_ix2 i⟩
  -- the generated index functions at (r, q), by coordinates
  have el : ∀ k : Fin 128, lidx_main_v235 (ix2 r q) k = ix2 r k := fun k =>
    funext fun a => Fin.ext (by match a with | ⟨0, _⟩ => rfl | ⟨1, _⟩ => rfl)
  have er : ∀ k : Fin 128, ridx_main_v235 (ix2 r q) k = ix2 k q := fun k =>
    funext fun a => Fin.ext (by match a with | ⟨0, _⟩ => rfl | ⟨1, _⟩ => rfl)
  have es : ∀ k : Fin 128, idx_main_v232 (idx_main_v233 (ix2 r k)) = ix1 r := fun k =>
    funext fun a => Fin.ext (by match a with | ⟨0, _⟩ => rfl)
  have eb : idx_main_v236 (idx_main_v237 (ix2 r q)) = ix1 q :=
    funext fun a => Fin.ext (by match a with | ⟨0, _⟩ => rfl)
  -- the scaled aggregate entry by entry, as an equation to rewrite with
  have hm := fun j => val_main_v234_apply (F := Ideal) x2 x4 x5 x6 x7 j
  -- read the left side down to the aggregate, the weights, s and b; the right side stays folded meanwhile
  rw [val_main_v238_apply, val_main_v235_apply, val_main_v237_apply, val_main_v236_apply, eb, ← hb q]
  simp only [el, er, hm, val_main_v233_apply, val_main_v232_apply, es, ← hs r]
  -- from here on the aggregate and the weights are variables
  generalize val_main_v230 (F := Ideal) x2 x4 x5 x6 x7 = A
  generalize val_main_v205 (F := Ideal) x8 = W
  rfl

/-- epilogue of launch 9: %286 = %283 + %285, %283 = dot_general(%282, %253), %282 = %278 * %281, %281 = bcast(%280),
    %280 = bcast(%279 : [50000]), %285 = bcast(%284), %284 = bcast(%255 : [128]).
    At entry (r, q) the final stage is the sum over k of (aggregate(r, k) · scale(r)) · w(k, q), plus the bias at q: the
    epilogue function of the aggregate stage, any one-column array that agrees with the 1-D scale stage, the weight
    stage and any one-row array that agrees with the 1-D bias stage. The aggregate and the weights are named as
    variables before the two sides' arithmetic is compared, so neither is ever opened. -/
theorem ref_conv9 (x2 : (⟨S50000x385, .f32⟩ : BufTy).Contents (Elt Ideal)) (x4 x5 : (⟨S5x1600000, .i32⟩ : BufTy).Contents (Elt Ideal)) (x6 : (⟨S4x385x128, .f32⟩ : BufTy).Contents (Elt Ideal)) (x7 : (⟨S4x128, .f32⟩ : BufTy).Contents (Elt Ideal)) (x8 : (⟨S5x128x128, .f32⟩ : BufTy).Contents (Elt Ideal)) (x9 : (⟨S5x128, .f32⟩ : BufTy).Contents (Elt Ideal)) (x10 : (⟨S5x128x128, .f32⟩ : BufTy).Contents (Elt Ideal)) (x11 : (⟨S5x128, .f32⟩ : BufTy).Contents (Elt Ideal))
    (s : (⟨2, ![50000, 1]⟩ : Shape).Idx → EReal) (hs : ∀ r : Fin 50000, s (ix2 r (0 : Fin 1)) = val_main_v279 (F := Ideal) x5 (ix1 r))
    (b : (⟨2, ![1, 128]⟩ : Shape).Idx → EReal) (hb : ∀ q : Fin 128, b (ix2 (0 : Fin 1) q) = val_main_v255 (F := Ideal) x11 (ix1 q)) :
    val_main_v286 (F := Ideal) x2 x4 x5 x6 x7 x8 x9 x10 x11 = Cert.Spec.convFn (val_main_v278 (F := Ideal) x2 x4 x5 x6 x7 x8 x9) s (val_main_v253 (F := Ideal) x10) b := by
  funext i
  obtain ⟨r, q, rfl⟩ : ∃ (r : Fin 50000) (q : Fin 128), i = ix2 r q := ⟨i 0, i 1, eq_ix2 i⟩
  -- the generated index functions at (r, q), by coordinates
  have el : ∀ k : Fin 128, lidx_main_v283 (ix2 r q) k = ix2 r k := fun k =>
    funext fun a => Fin.ext (by match a with | ⟨0, _⟩ => rfl | ⟨1, _⟩ => rfl)
  have er : ∀ k : Fin 128, ridx_main_v283 (ix2 r q) k = ix2 k q := fun k =>
    funext fun a => Fin.ext (by match a with | ⟨0, _⟩ => rfl | ⟨1, _⟩ => rfl)
  have es : ∀ k : Fin 128, idx_main_v280 (idx_main_v281 (ix2 r k)) = ix1 r := fun k =>
    funext fun a => Fin.ext (by match a with | ⟨0, _⟩ => rfl)
  have eb : idx_main_v284 (idx_main_v285 (ix2 r q)) = ix1 q :=
    funext fun a => Fin.ext (by match a with | ⟨0, _⟩ => rfl)
  -- the scaled aggregate entry by entry, as an equation to rewrite with
  have hm := fun j => val_main_v282_apply (F := Ideal) x2 x4 x5 x6 x7 x8 x9 j
  -- read the left side down to the aggregate, the weights, s and b; the right side stays folded meanwhile
  rw [val_main_v286_apply, val_main_v283_apply, val_main_v285_apply, val_main_v284_apply, eb, ← hb q]
  simp only [el, er, hm, val_main_v281_apply, val_main_v280_apply, es, ← hs r]
  -- from here on the aggregate and the weights are variables
  generalize val_main_v278 (F := Ideal) x2 x4 x5 x6 x7 x8 x9 = A
  generalize val_main_v253 (F := Ideal) x10 = W
  rfl

/-- epilogue of launch 10: %326 = %323 + %325, %323 = dot_general(%322, %293), %322 = %318 * %321, %321 = bcast(%320),
    %320 = bcast(%319 : [50000]), %325 = bcast(%324), %324 = bcast(%295 : [128]).
    At entry (r, q) the final stage is the sum over k of (aggregate(r, k) · scale(r)) · w(k, q), plus the bias at q: the
    epilogue function of the aggregate stage, any one-column array that agrees with the 1-D scale stage, the weight
    stage and any one-row array that agrees with the 1-D bias stage. The aggregate and the weights are named as
    variables before the two sides' arithmetic is compared, so neither is ever opened. -/
theorem ref_conv10 (x0 : (⟨S50000x385, .f32⟩ : BufTy).Contents (Elt Ideal)) (x4 x5 : (⟨S5x1600000, .i32⟩ : BufTy).Contents (Elt Ideal)) (x6 : (⟨S4x385x128, .f32⟩ : BufTy).Contents (Elt Ideal)) (x7 : (⟨S4x128, .f32⟩ : BufTy).Contents (Elt Ideal)) (x8 : (⟨S5x128x128, .f32⟩ : BufTy).Contents (Elt Ideal)) (x9 : (⟨S5x128, .f32⟩ : BufTy).Contents (Elt Ideal)) (x10 : (⟨S5x128x128, .f32⟩ : BufTy).Contents (Elt Ideal)) (x11 : (⟨S5x128, .f32⟩ : BufTy).Contents (Elt Ideal))
    (s : (⟨2, ![50000, 1]⟩ : Shape).Idx → EReal) (hs : ∀ r : Fin 50000, s (ix2 r (0 : Fin 1)) = val_main_v319 (F := Ideal) x5 (ix1 r))
    (b : (⟨2, ![1, 128]⟩ : Shape).Idx → EReal) (hb : ∀ q : Fin 128, b (ix2 (0 : Fin 1) q) = val_main_v295 (F := Ideal) x11 (ix1 q)) :
    val_main_v326 (F := Ideal) x0 x4 x5 x6 x7 x8 x9 x10 x11 = Cert.Spec.convFn (val_main_v318 (F := Ideal) x0 x4 x5 x6 x7 x8 x9) s (val_main_v293 (F := Ideal) x10) b := by
  funext i
  obtain ⟨r, q, rfl⟩ : ∃ (r : Fin 50000) (q : Fin 128), i = ix2 r q := ⟨i 0, i 1, eq_ix2 i⟩
  -- the generated index functions at (r, q), by coordinates
  have el : ∀ k : Fin 128, lidx_main_v323 (ix2 r q) k = ix2 r k := fun k =>
    funext fun a => Fin.ext (by match a with | ⟨0, _⟩ => rfl | ⟨1, _⟩ => rfl)
  have er : ∀ k : Fin 128, ridx_main_v323 (ix2 r q) k = ix2 k q := fun k =>
    funext fun a => Fin.ext (by match a with | ⟨0, _⟩ => rfl | ⟨1, _⟩ => rfl)
  have es : ∀ k : Fin 128, idx_main_v320 (idx_main_v321 (ix2 r k)) = ix1 r := fun k =>
    funext fun a => Fin.ext (by match a with | ⟨0, _⟩ => rfl)
  have eb : idx_main_v324 (idx_main_v325 (ix2 r q)) = ix1 q :=
    funext fun a => Fin.ext (by match a with | ⟨0, _⟩ => rfl)
  -- the scaled aggregate entry by entry, as an equation to rewrite with
  have hm := fun j => val_main_v322_apply (F := Ideal) x0 x4 x5 x6 x7 x8 x9 j
  -- read the left side down to the aggregate, the weights, s and b; the right side stays folded meanwhile
  rw [val_main_v326_apply, val_main_v323_apply, val_main_v325_apply, val_main_v324_apply, eb, ← hb q]
  simp only [el, er, hm, val_main_v321_apply, val_main_v320_apply, es, ← hs r]
  -- from here on the aggregate and the weights are variables
  generalize val_main_v318 (F := Ideal) x0 x4 x5 x6 x7 x8 x9 = A
  generalize val_main_v293 (F := Ideal) x10 = W
  rfl

/-- epilogue of launch 11: %366 = %363 + %365, %363 = dot_general(%362, %333), %362 = %358 * %361, %361 = bcast(%360),
    %360 = bcast(%359 : [50000]), %365 = bcast(%364), %364 = bcast(%335 : [128]).
    At entry (r, q) the final stage is the sum over k of (aggregate(r, k) · scale(r)) · w(k, q), plus the bias at q: the
    epilogue function of the aggregate stage, any one-column array that agrees with the 1-D scale stage, the weight
    stage and any one-row array that agrees with the 1-D bias stage. The aggregate and the weights are named as
    variables before the two sides' arithmetic is compared, so neither is ever opened. -/
theorem ref_conv11 (x1 : (⟨S50000x385, .f32⟩ : BufTy).Contents (Elt Ideal)) (x4 x5 : (⟨S5x1600000, .i32⟩ : BufTy).Contents (Elt Ideal)) (x6 : (⟨S4x385x128, .f32⟩ : BufTy).Contents (Elt Ideal)) (x7 : (⟨S4x128, .f32⟩ : BufTy).Contents (Elt Ideal)) (x8 : (⟨S5x128x128, .f32⟩ : BufTy).Contents (Elt Ideal)) (x9 : (⟨S5x128, .f32⟩ : BufTy).Contents (Elt Ideal)) (x10 : (⟨S5x128x128, .f32⟩ : BufTy).Contents (Elt Ideal)) (x11 : (⟨S5x128, .f32⟩ : BufTy).Contents (Elt Ideal))
    (s : (⟨2, ![50000, 1]⟩ : Shape).Idx → EReal) (hs : ∀ r : Fin 50000, s (ix2 r (0 : Fin 1)) = val_main_v359 (F := Ideal) x5 (ix1 r))
    (b : (⟨2, ![1, 128]⟩ : Shape).Idx → EReal) (hb : ∀ q : Fin 128, b (ix2 (0 : Fin 1) q) = val_main_v335 (F := Ideal) x11 (ix1 q)) :
    val_main_v366 (F := Ideal) x1 x4 x5 x6 x7 x8 x9 x10 x11 = Cert.Spec.convFn (val_main_v358 (F := Ideal) x1 x4 x5 x6 x7 x8 x9) s (val_main_v333 (F := Ideal) x10) b := by
  funext i
  obtain ⟨r, q, rfl⟩ : ∃ (r : Fin 50000) (q : Fin 128), i = ix2 r q := ⟨i 0, i 1, eq_ix2 i⟩
  -- the generated index functions at (r, q), by coordinates
  have el : ∀ k : Fin 128, lidx_main_v363 (ix2 r q) k = ix2 r k := fun k =>
    funext fun a => Fin.ext (by match a with | ⟨0, _⟩ => rfl | ⟨1, _⟩ => rfl)
  have er : ∀ k : Fin 128, ridx_main_v363 (ix2 r q) k = ix2 k q := fun k =>
    funext fun a => Fin.ext (by match a with | ⟨0, _⟩ => rfl | ⟨1, _⟩ => rfl)
  have es : ∀ k : Fin 128, idx_main_v360 (idx_main_v361 (ix2 r k)) = ix1 r := fun k =>
    funext fun a => Fin.ext (by match a with | ⟨0, _⟩ => rfl)
  have eb : idx_main_v364 (idx_main_v365 (ix2 r q)) = ix1 q :=
    funext fun a => Fin.ext (by match a with | ⟨0, _⟩ => rfl)
  -- the scaled aggregate entry by entry, as an equation to rewrite with
  have hm := fun j => val_main_v362_apply (F := Ideal) x1 x4 x5 x6 x7 x8 x9 j
  -- read the left side down to the aggregate, the weights, s and b; the right side stays folded meanwhile
  rw [val_main_v366_apply, val_main_v363_apply, val_main_v365_apply, val_main_v364_apply, eb, ← hb q]
  simp only [el, er, hm, val_main_v361_apply, val_main_v360_apply, es, ← hs r]
  -- from here on the aggregate and the weights are variables
  generalize val_main_v358 (F := Ideal) x1 x4 x5 x6 x7 x8 x9 = A
  generalize val_main_v333 (F := Ideal) x10 = W
  rfl

/-- epilogue of launch 12: %406 = %403 + %405, %403 = dot_general(%402, %373), %402 = %398 * %401, %401 = bcast(%400),
    %400 = bcast(%399 : [50000]), %405 = bcast(%404), %404 = bcast(%375 : [128]).
    At entry (r, q) the final stage is the sum over k of (aggregate(r, k) · scale(r)) · w(k, q), plus the bias at q: the
    epilogue function of the aggregate stage, any one-column array that agrees with the 1-D scale stage, the weight
    stage and any one-row array that agrees with the 1-D bias stage. The aggregate and the weights are named as
    variables before the two sides' arithmetic is compared, so neither is ever opened. -/
theorem ref_conv12 (x2 : (⟨S50000x385, .f32⟩ : BufTy).Contents (Elt Ideal)) (x4 x5 : (⟨S5x1600000, .i32⟩ : BufTy).Contents (Elt Ideal)) (x6 : (⟨S4x385x128, .f32⟩ : BufTy).Contents (Elt Ideal)) (x7 : (⟨S4x128, .f32⟩ : BufTy).Contents (Elt Ideal)) (x8 : (⟨S5x128x128, .f32⟩ : BufTy).Contents (Elt Ideal)) (x9 : (⟨S5x128, .f32⟩ : BufTy).Contents (Elt Ideal)) (x10 : (⟨S5x128x128, .f32⟩ : BufTy).Contents (Elt Ideal)) (x11 : (⟨S5x128, .f32⟩ : BufTy).Contents (Elt Ideal))
    (s : (⟨2, ![50000, 1]⟩ : Shape).Idx → EReal) (hs : ∀ r : Fin 50000, s (ix2 r (0 : Fin 1)) = val_main_v399 (F := Ideal) x5 (ix1 r))
    (b : (⟨2, ![1, 128]⟩ : Shape).Idx → EReal) (hb : ∀ q : Fin 128, b (ix2 (0 : Fin 1) q) = val_main_v375 (F := Ideal) x11 (ix1 q)) :
    val_main_v406 (F := Ideal) x2 x4 x5 x6 x7 x8 x9 x10 x11 = Cert.Spec.convFn (val_main_v398 (F := Ideal) x2 x4 x5 x6 x7 x8 x9) s (val_main_v373 (F := Ideal) x10) b := by
  funext i
  obtain ⟨r, q, rfl⟩ : ∃ (r : Fin 50000) (q : Fin 128), i = ix2 r q := ⟨i 0, i 1, eq_ix2 i⟩
  -- the generated index functions at (r, q), by coordinates
  have el : ∀ k : Fin 128, lidx_main_v403 (ix2 r q) k = ix2 r k := fun k =>
    funext fun a => Fin.ext (by match a with | ⟨0, _⟩ => rfl | ⟨1, _⟩ => rfl)
  have er : ∀ k : Fin 128, ridx_main_v403 (ix2 r q) k = ix2 k q := fun k =>
    funext fun a => Fin.ext (by match a with | ⟨0, _⟩ => rfl | ⟨1, _⟩ => rfl)
  have es : ∀ k : Fin 128, idx_main_v400 (idx_main_v401 (ix2 r k)) = ix1 r := fun k =>
    funext fun a => Fin.ext (by match a with | ⟨0, _⟩ => rfl)
  have eb : idx_main_v404 (idx_main_v405 (ix2 r q)) = ix1 q :=
    funext fun a => Fin.ext (by match a with | ⟨0, _⟩ => rfl)
  -- the scaled aggregate entry by entry, as an equation to rewrite with
  have hm := fun j => val_main_v402_apply (F := Ideal) x2 x4 x5 x6 x7 x8 x9 j
  -- read the left side down to the aggregate, the weights, s and b; the right side stays folded meanwhile
  rw [val_main_v406_apply, val_main_v403_apply, val_main_v405_apply, val_main_v404_apply, eb, ← hb q]
  simp only [el, er, hm, val_main_v401_apply, val_main_v400_apply, es, ← hs r]
  -- from here on the aggregate and the weights are variables
  generalize val_main_v398 (F := Ideal) x2 x4 x5 x6 x7 x8 x9 = A
  generalize val_main_v373 (F := Ideal) x10 = W
  rfl

/-- epilogue of launch 13: %446 = %443 + %445, %443 = dot_general(%442, %413), %442 = %438 * %441, %441 = bcast(%440),
    %440 = bcast(%439 : [50000]), %445 = bcast(%444), %444 = bcast(%415 : [128]).
    At entry (r, q) the final stage is the sum over k of (aggregate(r, k) · scale(r)) · w(k, q), plus the bias at q: the
    epilogue function of the aggregate stage, any one-column array that agrees with the 1-D scale stage, the weight
    stage and any one-row array that agrees with the 1-D bias stage. The aggregate and the weights are named as
    variables before the two sides' arithmetic is compared, so neither is ever opened. -/
theorem ref_conv13 (x0 x3 : (⟨S50000x385, .f32⟩ : BufTy).Contents (Elt Ideal)) (x4 x5 : (⟨S5x1600000, .i32⟩ : BufTy).Contents (Elt Ideal)) (x6 : (⟨S4x385x128, .f32⟩ : BufTy).Contents (Elt Ideal)) (x7 : (⟨S4x128, .f32⟩ : BufTy).Contents (Elt Ideal)) (x8 : (⟨S5x128x128, .f32⟩ : BufTy).Contents (Elt Ideal)) (x9 : (⟨S5x128, .f32⟩ : BufTy).Contents (Elt Ideal)) (x10 : (⟨S5x128x128, .f32⟩ : BufTy).Contents (Elt Ideal)) (x11 : (⟨S5x128, .f32⟩ : BufTy).Contents (Elt Ideal))
    (s : (⟨2, ![50000, 1]⟩ : Shape).Idx → EReal) (hs : ∀ r : Fin 50000, s (ix2 r (0 : Fin 1)) = val_main_v439 (F := Ideal) x5 (ix1 r))
    (b : (⟨2, ![1, 128]⟩ : Shape).Idx → EReal) (hb : ∀ q : Fin 128, b (ix2 (0 : Fin 1) q) = val_main_v415 (F := Ideal) x11 (ix1 q)) :
    val_main_v446 (F := Ideal) x0 x3 x4 x5 x6 x7 x8 x9 x10 x11 = Cert.Spec.convFn (val_main_v438 (F := Ideal) x0 x3 x4 x5 x6 x7 x8 x9) s (val_main_v413 (F := Ideal) x10) b := by
  funext i
  obtain ⟨r, q, rfl⟩ : ∃ (r : Fin 50000) (q : Fin 128), i = ix2 r q := ⟨i 0, i 1, eq_ix2 i⟩
  -- the generated index functions at (r, q), by coordinates
  have el : ∀ k : Fin 128, lidx_main_v443 (ix2 r q) k = ix2 r k := fun k =>
    funext fun a => Fin.ext (by match a with | ⟨0, _⟩ => rfl | ⟨1, _⟩ => rfl)
  have er : ∀ k : Fin 128, ridx_main_v443 (ix2 r q) k = ix2 k q := fun k =>
    funext fun a => Fin.ext (by match a with | ⟨0, _⟩ => rfl | ⟨1, _⟩ => rfl)
  have es : ∀ k : Fin 128, idx_main_v440 (idx_main_v441 (ix2 r k)) = ix1 r := fun k =>
    funext fun a => Fin.ext (by match a with | ⟨0, _⟩ => rfl)
  have eb : idx_main_v444 (idx_main_v445 (ix2 r q)) = ix1 q :=
    funext fun a => Fin.ext (by match a with | ⟨0, _⟩ => rfl)
  -- the scaled aggregate entry by entry, as an equation to rewrite with
  have hm := fun j => val_main_v442_apply (F := Ideal) x0 x3 x4 x5 x6 x7 x8 x9 j
  -- read the left side down to the aggregate, the weights, s and b; the right side stays folded meanwhile
  rw [val_main_v446_apply, val_main_v443_apply, val_main_v445_apply, val_main_v444_apply, eb, ← hb q]
  simp only [el, er, hm, val_main_v441_apply, val_main_v440_apply, es, ← hs r]
  -- from here on the aggregate and the weights are variables
  generalize val_main_v438 (F := Ideal) x0 x3 x4 x5 x6 x7 x8 x9 = A
  generalize val_main_v413 (F := Ideal) x10 = W
  rfl

end Cert.ReferenceIdeal.Hand

end
-- ==== Proof.KernelIdeal.ValueHand.lean ====
/-
  One launch of the idealized kernel against the reference's stage for it, for each of the program's three kinds of launch.
  The program alternates host stretches and fourteen launches: four input projections max(x·w + b, 0), one per node type, then two
  layers of five graph-convolution epilogues (a scaled row-wise by s)·w + b, one per relation. For one launch of each kind:
  * the launch's output array is the projection (or epilogue) function of the arrays the launch finds at its entry;
  * IF those arrays hold the reference's stages of the arguments as launched (the hypotheses: the features or the aggregate, the weight,
    and the bias row and scale column entry by entry, so that how a vector is laid out as a row or a column does not matter),
  * then the launch's output holds the reference's stage for the launch, which is the same function of those stages.
  The second layer's reference stages read a degree scale that the reference computes again; the recomputed stage is the same
  operations on the same argument as the first layer's, which is the one the hypotheses name.
-/
import proofs.«418080_j49366354100286_4_alg».proof.Proof.KernelIdeal.Chain
import proofs.«418080_j49366354100286_4_alg».proof.Proof.KernelIdeal.ProjValue0
import proofs.«418080_j49366354100286_4_alg».proof.Proof.KernelIdeal.ConvValue4
import proofs.«418080_j49366354100286_4_alg».proof.Proof.KernelIdeal.ConvValue9
import proofs.«418080_j49366354100286_4_alg».proof.Proof.KernelIdeal.Stages
import proofs.«418080_j49366354100286_4_alg».proof.Proof.RefStages
import proofs.«418080_j49366354100286_4_alg».proof.Proof.RefStagesLaid
import Idealize.ShloMosaic.Lib.ValueIdx

set_option maxRecDepth 16384

noncomputable section

namespace Cert.KernelIdeal.Hand

open Cert.KernelIdeal Cert.KernelIdeal.Gen Cert.KernelIdeal.GenP
open Cert.ReferenceIdeal.ReadP
open Idealize.ShloMosaic Idealize.ShloMosaic.TcCoe Idealize.SL.Sem Idealize.ShloMosaic.ValueIdx

/-- The degree scale that launch 9's reference stage reads is the first layer's: the same operations on the same argument. -/
theorem degree_scale9 {F : FTy → Type} [FloatOps F] (x5 : (⟨Cert.ReferenceIdeal.S5x1600000, .i32⟩ : BufTy).Contents (Elt F)) :
    val_main_v279 (F := F) x5 = val_main_v71 (F := F) x5 := rfl

variable (m : (ℓ : Loc nD τ sig) → Buf (Elt Ideal) ℓ)

/-- Launch 0 leaves in its output the reference's projection stage: the launch computes max(x·w + b, 0) of the arrays it finds; if those
    are the features as launched, the reference's weight stage, and a one-row array that agrees with the reference's bias stage, the result
    is the reference's stage. -/
theorem launch0_out (c : Dev nD)
    (hx : V1 m c main_arg0 = a0 m c)
    (hw : V1 m c main_v1 = val_main_v1 (F := Ideal) (a6 m c))
    (hb : ∀ q : Fin 128, V1 m c main_v4 (ix2 (0 : Fin 1) q) = val_main_v4 (F := Ideal) (a7 m c) (ix1 q)) :
    outsX m 2 main_v5 c = val_main_v8 (F := Ideal) (a0 m c) (a6 m c) (a7 m c) := by
  show X2 m c main_v5 = _
  rw [X2_out, proj0_value (E1 m) c]
  dsimp only [E1]
  rw [← V1_eq m c, hx, hw]
  exact (Cert.ReferenceIdeal.Hand.ref_proj0 (a0 m c) (a6 m c) (a7 m c) (V1 m c main_v4) hb).symm

/-- Launch 4 leaves in its output the reference's convolution stage: the launch computes (a scaled row-wise by s)·w + b of the arrays it
    finds; if those are the reference's aggregate and weight stages, a one-column array that agrees with the reference's degree scale, and a
    one-row array that agrees with the reference's bias stage, the result is the reference's stage. -/
theorem launch4_out (c : Dev nD)
    (ha : V29 m (outsX m) c main_v119 = val_main_v70 (F := Ideal) (a0 m c) (a4 m c) (a5 m c) (a6 m c) (a7 m c))
    (hs : ∀ r : Fin 50000, V29 m (outsX m) c main_v120 (ix2 r (0 : Fin 1)) = val_main_v71 (F := Ideal) (a5 m c) (ix1 r))
    (hw : V29 m (outsX m) c main_v104 = val_main_v45 (F := Ideal) (a8 m c))
    (hb : ∀ q : Fin 128, V29 m (outsX m) c main_v121 (ix2 (0 : Fin 1) q) = val_main_v47 (F := Ideal) (a9 m c) (ix1 q)) :
    outsX m 30 main_v122 c = val_main_v78 (F := Ideal) (a0 m c) (a4 m c) (a5 m c) (a6 m c) (a7 m c) (a8 m c) (a9 m c) := by
  show X30 m c main_v122 = _
  rw [X30_out, conv4_value (E29 m) c]
  dsimp only [E29]
  rw [← V29_eq m c, ha, hw]
  exact (Cert.ReferenceIdeal.Hand.ref_conv4 (a0 m c) (a4 m c) (a5 m c) (a6 m c) (a7 m c) (a8 m c) (a9 m c)
    (V29 m (outsX m) c main_v120) hs (V29 m (outsX m) c main_v121) hb).symm

/-- Launch 9, of the second layer, leaves in its output the reference's convolution stage, as launch 4 does; the scale column is given
    against the first layer's degree scale, which is the one the reference's stage reads again. -/
theorem launch9_out (c : Dev nD)
    (ha : V39 m (outsX m) c main_v256 = val_main_v278 (F := Ideal) (a2 m c) (a4 m c) (a5 m c) (a6 m c) (a7 m c) (a8 m c) (a9 m c))
    (hs : ∀ r : Fin 50000, V39 m (outsX m) c main_v257 (ix2 r (0 : Fin 1)) = val_main_v71 (F := Ideal) (a5 m c) (ix1 r))
    (hw : V39 m (outsX m) c main_v241 = val_main_v253 (F := Ideal) (a10 m c))
    (hb : ∀ q : Fin 128, V39 m (outsX m) c main_v258 (ix2 (0 : Fin 1) q) = val_main_v255 (F := Ideal) (a11 m c) (ix1 q)) :
    outsX m 40 main_v259 c = val_main_v286 (F := Ideal) (a2 m c) (a4 m c) (a5 m c) (a6 m c) (a7 m c) (a8 m c) (a9 m c) (a10 m c) (a11 m c) := by
  show X40 m c main_v259 = _
  rw [X40_out, conv9_value (E39 m) c]
  dsimp only [E39]
  rw [← V39_eq m c, ha, hw]
  exact (Cert.ReferenceIdeal.Hand.ref_conv9 (a2 m c) (a4 m c) (a5 m c) (a6 m c) (a7 m c) (a8 m c) (a9 m c) (a10 m c) (a11 m c)
    (V39 m (outsX m) c main_v257) (fun r => (hs r).trans (congrFun (degree_scale9 (F := Ideal) (a5 m c)).symm (ix1 r)))
    (V39 m (outsX m) c main_v258) hb).symm

end Cert.KernelIdeal.Hand

end
-- ==== Proof.KernelIdeal.ProjValue1.lean ====
/-
  Input projection, launch 1 of the program: the VALUE the launch leaves in its output array, at the ideal arithmetic.
  The launch walks 25 row tiles of 2000 rows. At point t the body loads rows 2000·t … 2000·t + 1999 of the features x
  (a 2000×385 tile), the whole 385×128 weight w and the 1×128 bias b, and stores max(tile · w + b, 0) to rows
  2000·t … 2000·t + 1999 of the output. Three steps:
  * the body's stored value at entry (p, q) of a tile: the matrix product into a zero accumulator is the sum over k of
    x(p, k)·w(k, q) (the contraction index re-indexed to its one coordinate), the bias row is spread over the rows, and the
    maximum against the zero splat is the maximum against 0;
  * what point t writes back is tile t of ONE function of the arrays as the launch finds them, entry (r, q) ↦
    max(∑ k, x(r, k)·w(k, q) + b(0, q), 0): row p of the features' tile t is row 2000·t + p of x, the weight's and the
    bias's blocks are the whole arrays, and the output's tile sits at the same rows;
  * the 25 row tiles cover the output array (row r lies in tile r / 2000), so the array ends holding that function.
-/
import proofs.«418080_j49366354100286_4_alg».proof.Proof.KernelIdeal.Proj1
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The tile product's operand indices -/

/-- The left operand's row is the result's row, -/
theorem lhs1_row (i : S2000x128.Idx) (q : dot_S2000x385_S385x128_S2000x128_1_0_0_1_n_n.contr.Idx) :
    (dot_S2000x385_S385x128_S2000x128_1_0_0_1_n_n.lhsIdx i q 0).val = (i 0).val := by
  unfold DotDims.lhsIdx
  rw [dif_neg (show ¬(0 : Fin S2000x385.rank) ∈ dot_S2000x385_S385x128_S2000x128_1_0_0_1_n_n.lhsBatch by decide), dif_pos (show (0 : Fin S2000x385.rank) ∈ dot_S2000x385_S385x128_S2000x128_1_0_0_1_n_n.lhsNonContracting by decide)]
  rfl
/-- its column the summation index; -/
theorem lhs1_col (i : S2000x128.Idx) (q : dot_S2000x385_S385x128_S2000x128_1_0_0_1_n_n.contr.Idx) :
    (dot_S2000x385_S385x128_S2000x128_1_0_0_1_n_n.lhsIdx i q 1).val = (q ⟨0, by decide⟩).val :=
  dot_S2000x385_S385x128_S2000x128_1_0_0_1_n_n.lhsIdx_val_of_single rfl i q
/-- the right operand's row is the summation index, -/
theorem rhs1_row (i : S2000x128.Idx) (q : dot_S2000x385_S385x128_S2000x128_1_0_0_1_n_n.contr.Idx) :
    (dot_S2000x385_S385x128_S2000x128_1_0_0_1_n_n.rhsIdx i q 0).val = (q ⟨0, by decide⟩).val :=
  dot_S2000x385_S385x128_S2000x128_1_0_0_1_n_n.rhsIdx_val_of_single rfl i q
/-- its column the result's column. -/
theorem rhs1_col (i : S2000x128.Idx) (q : dot_S2000x385_S385x128_S2000x128_1_0_0_1_n_n.contr.Idx) :
    (dot_S2000x385_S385x128_S2000x128_1_0_0_1_n_n.rhsIdx i q 1).val = (i 1).val := by
  unfold DotDims.rhsIdx
  rw [dif_neg (show ¬(1 : Fin S385x128.rank) ∈ dot_S2000x385_S385x128_S2000x128_1_0_0_1_n_n.rhsBatch by decide), dif_pos (show (1 : Fin S385x128.rank) ∈ dot_S2000x385_S385x128_S2000x128_1_0_0_1_n_n.rhsNonContracting by decide)]
  rfl

/-- The tile product into a zero accumulator, entry (p, q): the sum over k of x(p, k)·w(k, q). -/
theorem tile_product1_apply (x0 : FVec Ideal S2000x385 .f32) (x1 : FVec Ideal S385x128 .f32) (p : Fin 2000) (q : Fin 128) :
    matmul dot_S2000x385_S385x128_S2000x128_1_0_0_1_n_n (some .fp32) x0 x1 (constant (F := Ideal) S2000x128 .f32 0x00000000#32) (ix2 p q)
      = ∑ k : Fin 385, x0 (ix2 p k) * x1 (ix2 k q) := by
  refine (Ideal.matmul_constant_zero_apply dot_S2000x385_S385x128_S2000x128_1_0_0_1_n_n (some .fp32) x0 x1 (ix2 p q)).trans ?_
  rw [← Equiv.sum_comp (ValueIdx.contrEquiv1 dot_S2000x385_S385x128_S2000x128_1_0_0_1_n_n 385 rfl rfl).symm]
  refine Finset.sum_congr rfl fun k _ => ?_
  have hk := ValueIdx.contrEquiv1_symm_val dot_S2000x385_S385x128_S2000x128_1_0_0_1_n_n 385 rfl rfl k
  have el : dot_S2000x385_S385x128_S2000x128_1_0_0_1_n_n.lhsIdx (ix2 p q) ((ValueIdx.contrEquiv1 dot_S2000x385_S385x128_S2000x128_1_0_0_1_n_n 385 rfl rfl).symm k) = ix2 p k := funext fun a => Fin.ext (by
    match a with
    | ⟨0, _⟩ => exact lhs1_row _ _
    | ⟨1, _⟩ => exact (lhs1_col _ _).trans hk)
  have er : dot_S2000x385_S385x128_S2000x128_1_0_0_1_n_n.rhsIdx (ix2 p q) ((ValueIdx.contrEquiv1 dot_S2000x385_S385x128_S2000x128_1_0_0_1_n_n 385 rfl rfl).symm k) = ix2 k q := funext fun a => Fin.ext (by
    match a with
    | ⟨0, _⟩ => exact (rhs1_row _ _).trans hk
    | ⟨1, _⟩ => exact rhs1_col _ _)
  rw [el, er]

/-- The bias row spread over the tile's rows, entry (p, q): b(0, q). -/
theorem bias_rows1_apply (x2 : FVec Ideal S1x128 .f32) (p : Fin 2000) (q : Fin 128) :
    broadcastTo S2000x128 x2 broadcasts_S1x128_S2000x128 (ix2 p q) = x2 (ix2 (0 : Fin 1) q) :=
  broadcastTo_apply x2 broadcasts_S1x128_S2000x128 (ix2 p q) (ix2 (0 : Fin 1) q) (fun a => by
    match a with
    | ⟨0, _⟩ => rfl
    | ⟨1, _⟩ => rfl)

/-- The body's stored value, entry (p, q): the larger of 0 and the sum over k of x(p, k)·w(k, q), plus b(0, q). -/
theorem body1_apply (x0 : Vec Ideal S2000x385 .f32) (x1 : Vec Ideal S385x128 .f32) (x2 : Vec Ideal S1x128 .f32) (p : Fin 2000) (q : Fin 128) :
    k1_pay1 (F := Ideal) x0 x1 x2 (ix2 p q) = max ((∑ k : Fin 385, x0 (ix2 p k) * x1 (ix2 k q)) + x2 (ix2 (0 : Fin 1) q)) 0 := by
  unfold k1_pay1
  simp only [shapeCast_self]
  rw [maximumf_apply, addf_apply, broadcast_apply]
  rw [tile_product1_apply, bias_rows1_apply]
  exact congrArg (max _) Ideal.ofBits_zero_f32

/-! ## From the tiles to the array -/

variable (V : (c : Dev nD) → (b : Ref sig .tc) → Buf (Elt Ideal) ((c : Thread nD τ).loc b))

theorem zero_offsets1 : (![0, 0] : Fin 2 → Nat) = fun _ => 0 := funext fun a => by fin_cases a <;> rfl

/-- The printed index maps, decided over the grid: at point t the features' and the output's tiles are row tile t, column tile 0;
    the weight's and the bias's block is the whole array. -/
theorem tile_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, q) of the body's stored value on a row tile of x whose row p is row r of x, against the whole w and b,
    is entry (r, q) of max(x·w + b, 0). -/
theorem tile_entry1 (X : (⟨2, ![50000, 385]⟩ : Shape).Idx → EReal) (W : (⟨2, ![385, 128]⟩ : Shape).Idx → EReal) (B : (⟨2, ![1, 128]⟩ : Shape).Idx → EReal)
    (x0 : Vec Ideal S2000x385 .f32) (x1 : Vec Ideal S385x128 .f32) (x2 : Vec Ideal S1x128 .f32)
    (r : Fin 50000) (p : Fin 2000) (q : Fin 128)
    (h0 : ∀ k : Fin 385, x0 (ix2 p k) = X (ix2 r k)) (h1 : ∀ (k : Fin 385) (q : Fin 128), x1 (ix2 k q) = W (ix2 k q))
    (h2 : ∀ q : Fin 128, x2 (ix2 (0 : Fin 1) q) = B (ix2 (0 : Fin 1) q)) :
    k1_pay1 (F := Ideal) x0 x1 x2 (ix2 p q) = Cert.Spec.projAt X W B r q := by
  rw [body1_apply]
  unfold Cert.Spec.projAt
  rw [h2 q]
  exact congrArg (fun s => max (s + B (ix2 (0 : Fin 1) q)) 0) (Finset.sum_congr rfl fun k _ => by rw [h0 k, h1 k q])

/-- WHAT POINT t WRITES BACK is tile t of max(x·w + b, 0) of the arrays as the launch finds them. -/
theorem flushed1_3 (c : Dev nD) (t : Fin cfg1.N) :
    (dat1 (F := Ideal) V c).flushed 3 t
      = ((cfg1.win 3).blk t).view.read (Elt Ideal) (Cert.Spec.projFn (V c main_arg1) (V c main_v7) (V c main_v10)) := by
  show (cfg1.win 3).cut (grid1.coords t) ((dat1 (F := Ideal) V c).after 3 t) = _
  rw [after1_3]
  unfold out1_3
  rw [View.canon_unit_zero zero_offsets1]
  simp only [View.ld_unit_zero (S := S2000x385) zero_offsets1, View.ld_unit_zero (S := S385x128) zero_offsets1, View.ld_unit_zero (S := S1x128) zero_offsets1]
  obtain ⟨e00, e01, e10, e11, e20, e21, e30, e31⟩ := tile_index1 t
  have ht : t.val < 25 := t.isLt
  funext j
  have hj0 : (j 0).val < 2000 := (j 0).isLt
  have hj1 : (j 1).val < 128 := (j 1).isLt
  have ej : (cfg1.win 3).xinj (grid1.coords t) j = ix2 (⟨(j 0).val, hj0⟩ : Fin 2000) (⟨(j 1).val, hj1⟩ : Fin 128) :=
    funext fun a => by match a with | ⟨0, _⟩ => rfl | ⟨1, _⟩ => rfl
  refine (congrArg (k1_pay1 (F := Ideal) (iblk1 V c 0 t) (iblk1 V c 1 t) (iblk1 V c 2 t)) ej).trans ?_
  refine (tile_entry1 (V c main_arg1) (V c main_v7) (V c main_v10) (iblk1 V c 0 t) (iblk1 V c 1 t) (iblk1 V c 2 t)
    (⟨2000 * t.val + (j 0).val, by omega⟩ : Fin 50000) (⟨(j 0).val, hj0⟩ : Fin 2000) (⟨(j 1).val, hj1⟩ : Fin 128) ?_ ?_ ?_).trans ?_
  · intro k
    show V c main_arg1 (((cfg1.win 0).blk t).view.emb (ix2 (⟨(j 0).val, hj0⟩ : Fin 2000) k)) = V c main_arg1 (ix2 (⟨2000 * t.val + (j 0).val, by omega⟩ : Fin 50000) k)
    refine congrArg (V c main_arg1) (funext fun a => Fin.ext ?_)
    match a with
    | ⟨0, _⟩ => show win1_0.index t (0 : Fin 2) * 2000 + 1 * (j 0).val = 2000 * t.val + (j 0).val; omega
    | ⟨1, _⟩ => show win1_0.index t (1 : Fin 2) * 385 + 1 * k.val = k.val; omega
  · intro k q
    show V c main_v7 (((cfg1.win 1).blk t).view.emb (ix2 k q)) = V c main_v7 (ix2 k q)
    refine congrArg (V c main_v7) (funext fun a => Fin.ext ?_)
    match a with
    | ⟨0, _⟩ => show win1_1.index t (0 : Fin 2) * 385 + 1 * k.val = k.val; omega
    | ⟨1, _⟩ => show win1_1.index t (1 : Fin 2) * 128 + 1 * q.val = q.val; omega
  · intro q
    show V c main_v10 (((cfg1.win 2).blk t).view.emb (ix2 (0 : Fin 1) q)) = V c main_v10 (ix2 (0 : Fin 1) q)
    refine congrArg (V c main_v10) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show _ = Cert.Spec.projFn (V c main_arg1) (V c main_v7) (V c main_v10) (((cfg1.win 3).blk t).view.emb j)
    unfold Cert.Spec.projFn
    have r0 : (((cfg1.win 3).blk t).view.emb j 0).val = 2000 * t.val + (j 0).val := by
      show win1_3.index t (0 : Fin 2) * 2000 + 1 * (j 0).val = _; omega
    have r1 : (((cfg1.win 3).blk t).view.emb j 1).val = (j 1).val := by
      show win1_3.index t (1 : Fin 2) * 128 + 1 * (j 1).val = _; omega
    exact congrArg₂ (Cert.Spec.projAt (V c main_arg1) (V c main_v7) (V c main_v10)) (Fin.ext r0.symm) (Fin.ext r1.symm)

/-- An index of the output array is in point t's tile iff each coordinate is in the tile's range on its axis. -/
theorem mem_tile1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v11).slice (win1_3.rect t)).set ↔ _
  rw [View.set_slice_whole, Rect.mem_set_unit]
  exact Iff.rfl

/-- The row tiles cover the output array: row r is in the tile of point r / 2000, which writes its tile back. -/
theorem rows_covered1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have ht : (i 0).val / 2000 < cfg1.N := by show (i 0).val / 2000 < 25; omega
  obtain ⟨-, -, -, -, -, -, e30, e31⟩ := tile_index1 ⟨(i 0).val / 2000, ht⟩
  have e30' : win1_3.index ⟨(i 0).val / 2000, ht⟩ (0 : Fin 2) = (i 0).val / 2000 := e30
  refine ⟨⟨(i 0).val / 2000, ht⟩, flush1_3 _, ?_⟩
  rw [mem_tile1]
  intro a
  match a with
  | ⟨0, _⟩ => show win1_3.index ⟨(i 0).val / 2000, ht⟩ (0 : Fin 2) * 2000 ≤ (i 0).val ∧ (i 0).val < win1_3.index ⟨(i 0).val / 2000, ht⟩ (0 : Fin 2) * 2000 + 2000; omega
  | ⟨1, _⟩ => show win1_3.index ⟨(i 0).val / 2000, ht⟩ (1 : Fin 2) * 128 ≤ (i 1).val ∧ (i 1).val < win1_3.index ⟨(i 0).val / 2000, ht⟩ (1 : Fin 2) * 128 + 128; omega

/-- THE OUTPUT ARRAY after the launch is max(x·w + b, 0) of the features, the weight and the bias as the launch finds them. -/
theorem proj1_value (c : Dev nD) :
    (dat1 (F := Ideal) V c).arrAt 3 cfg1.N = Cert.Spec.projFn (V c main_arg1) (V c main_v7) (V c main_v10) :=
  (dat1 (F := Ideal) V c).arrAt_eq_of_cover 3 (Cert.Spec.projFn (V c main_arg1) (V c main_v7) (V c main_v10))
    (fun t _ => flushed1_3 V c t) rows_covered1

end Cert.KernelIdeal.Hand

end
-- ==== Proof.KernelIdeal.ProjValue2.lean ====
/-
  Input projection, launch 2 of the program: the VALUE the launch leaves in its output array, at the ideal arithmetic.
  The launch walks 25 row tiles of 2000 rows. At point t the body loads rows 2000·t … 2000·t + 1999 of the features x
  (a 2000×385 tile), the whole 385×128 weight w and the 1×128 bias b, and stores max(tile · w + b, 0) to rows
  2000·t … 2000·t + 1999 of the output. Three steps:
  * the body's stored value at entry (p, q) of a tile: the matrix product into a zero accumulator is the sum over k of
    x(p, k)·w(k, q) (the contraction index re-indexed to its one coordinate), the bias row is spread over the rows, and the
    maximum against the zero splat is the maximum against 0;
  * what point t writes back is tile t of ONE function of the arrays as the launch finds them, entry (r, q) ↦
    max(∑ k, x(r, k)·w(k, q) + b(0, q), 0): row p of the features' tile t is row 2000·t + p of x, the weight's and the
    bias's blocks are the whole arrays, and the output's tile sits at the same rows;
  * the 25 row tiles cover the output array (row r lies in tile r / 2000), so the array ends holding that function.
-/
import proofs.«418080_j49366354100286_4_alg».proof.Proof.KernelIdeal.Proj2
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The tile product's operand indices -/

/-- The left operand's row is the result's row, -/
theorem lhs2_row (i : S2000x128.Idx) (q : dot_S2000x385_S385x128_S2000x128_1_0_0_1_n_n.contr.Idx) :
    (dot_S2000x385_S385x128_S2000x128_1_0_0_1_n_n.lhsIdx i q 0).val = (i 0).val := by
  unfold DotDims.lhsIdx
  rw [dif_neg (show ¬(0 : Fin S2000x385.rank) ∈ dot_S2000x385_S385x128_S2000x128_1_0_0_1_n_n.lhsBatch by decide), dif_pos (show (0 : Fin S2000x385.rank) ∈ dot_S2000x385_S385x128_S2000x128_1_0_0_1_n_n.lhsNonContracting by decide)]
  rfl
/-- its column the summation index; -/
theorem lhs2_col (i : S2000x128.Idx) (q : dot_S2000x385_S385x128_S2000x128_1_0_0_1_n_n.contr.Idx) :
    (dot_S2000x385_S385x128_S2000x128_1_0_0_1_n_n.lhsIdx i q 1).val = (q ⟨0, by decide⟩).val :=
  dot_S2000x385_S385x128_S2000x128_1_0_0_1_n_n.lhsIdx_val_of_single rfl i q
/-- the right operand's row is the summation index, -/
theorem rhs2_row (i : S2000x128.Idx) (q : dot_S2000x385_S385x128_S2000x128_1_0_0_1_n_n.contr.Idx) :
    (dot_S2000x385_S385x128_S2000x128_1_0_0_1_n_n.rhsIdx i q 0).val = (q ⟨0, by decide⟩).val :=
  dot_S2000x385_S385x128_S2000x128_1_0_0_1_n_n.rhsIdx_val_of_single rfl i q
/-- its column the result's column. -/
theorem rhs2_col (i : S2000x128.Idx) (q : dot_S2000x385_S385x128_S2000x128_1_0_0_1_n_n.contr.Idx) :
    (dot_S2000x385_S385x128_S2000x128_1_0_0_1_n_n.rhsIdx i q 1).val = (i 1).val := by
  unfold DotDims.rhsIdx
  rw [dif_neg (show ¬(1 : Fin S385x128.rank) ∈ dot_S2000x385_S385x128_S2000x128_1_0_0_1_n_n.rhsBatch by decide), dif_pos (show (1 : Fin S385x128.rank) ∈ dot_S2000x385_S385x128_S2000x128_1_0_0_1_n_n.rhsNonContracting by decide)]
  rfl

/-- The tile product into a zero accumulator, entry (p, q): the sum over k of x(p, k)·w(k, q). -/
theorem tile_product2_apply (x0 : FVec Ideal S2000x385 .f32) (x1 : FVec Ideal S385x128 .f32) (p : Fin 2000) (q : Fin 128) :
    matmul dot_S2000x385_S385x128_S2000x128_1_0_0_1_n_n (some .fp32) x0 x1 (constant (F := Ideal) S2000x128 .f32 0x00000000#32) (ix2 p q)
      = ∑ k : Fin 385, x0 (ix2 p k) * x1 (ix2 k q) := by
  refine (Ideal.matmul_constant_zero_apply dot_S2000x385_S385x128_S2000x128_1_0_0_1_n_n (some .fp32) x0 x1 (ix2 p q)).trans ?_
  rw [← Equiv.sum_comp (ValueIdx.contrEquiv1 dot_S2000x385_S385x128_S2000x128_1_0_0_1_n_n 385 rfl rfl).symm]
  refine Finset.sum_congr rfl fun k _ => ?_
  have hk := ValueIdx.contrEquiv1_symm_val dot_S2000x385_S385x128_S2000x128_1_0_0_1_n_n 385 rfl rfl k
  have el : dot_S2000x385_S385x128_S2000x128_1_0_0_1_n_n.lhsIdx (ix2 p q) ((ValueIdx.contrEquiv1 dot_S2000x385_S385x128_S2000x128_1_0_0_1_n_n 385 rfl rfl).symm k) = ix2 p k := funext fun a => Fin.ext (by
    match a with
    | ⟨0, _⟩ => exact lhs2_row _ _
    | ⟨1, _⟩ => exact (lhs2_col _ _).trans hk)
  have er : dot_S2000x385_S385x128_S2000x128_1_0_0_1_n_n.rhsIdx (ix2 p q) ((ValueIdx.contrEquiv1 dot_S2000x385_S385x128_S2000x128_1_0_0_1_n_n 385 rfl rfl).symm k) = ix2 k q := funext fun a => Fin.ext (by
    match a with
    | ⟨0, _⟩ => exact (rhs2_row _ _).trans hk
    | ⟨1, _⟩ => exact rhs2_col _ _)
  rw [el, er]

/-- The bias row spread over the tile's rows, entry (p, q): b(0, q). -/
theorem bias_rows2_apply (x2 : FVec Ideal S1x128 .f32) (p : Fin 2000) (q : Fin 128) :
    broadcastTo S2000x128 x2 broadcasts_S1x128_S2000x128 (ix2 p q) = x2 (ix2 (0 : Fin 1) q) :=
  broadcastTo_apply x2 broadcasts_S1x128_S2000x128 (ix2 p q) (ix2 (0 : Fin 1) q) (fun a => by
    match a with
    | ⟨0, _⟩ => rfl
    | ⟨1, _⟩ => rfl)

/-- The body's stored value, entry (p, q): the larger of 0 and the sum over k of x(p, k)·w(k, q), plus b(0, q). -/
theorem body2_apply (x0 : Vec Ideal S2000x385 .f32) (x1 : Vec Ideal S385x128 .f32) (x2 : Vec Ideal S1x128 .f32) (p : Fin 2000) (q : Fin 128) :
    k2_pay1 (F := Ideal) x0 x1 x2 (ix2 p q) = max ((∑ k : Fin 385, x0 (ix2 p k) * x1 (ix2 k q)) + x2 (ix2 (0 : Fin 1) q)) 0 := by
  unfold k2_pay1
  simp only [shapeCast_self]
  rw [maximumf_apply, addf_apply, broadcast_apply]
  rw [tile_product2_apply, bias_rows2_apply]
  exact congrArg (max _) Ideal.ofBits_zero_f32

/-! ## From the tiles to the array -/

variable (V : (c : Dev nD) → (b : Ref sig .tc) → Buf (Elt Ideal) ((c : Thread nD τ).loc b))

theorem zero_offsets2 : (![0, 0] : Fin 2 → Nat) = fun _ => 0 := funext fun a => by fin_cases a <;> rfl

/-- The printed index maps, decided over the grid: at point t the features' and the output's tiles are row tile t, column tile 0;
    the weight's and the bias's block is the whole array. -/
theorem tile_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, q) of the body's stored value on a row tile of x whose row p is row r of x, against the whole w and b,
    is entry (r, q) of max(x·w + b, 0). -/
theorem tile_entry2 (X : (⟨2, ![50000, 385]⟩ : Shape).Idx → EReal) (W : (⟨2, ![385, 128]⟩ : Shape).Idx → EReal) (B : (⟨2, ![1, 128]⟩ : Shape).Idx → EReal)
    (x0 : Vec Ideal S2000x385 .f32) (x1 : Vec Ideal S385x128 .f32) (x2 : Vec Ideal S1x128 .f32)
    (r : Fin 50000) (p : Fin 2000) (q : Fin 128)
    (h0 : ∀ k : Fin 385, x0 (ix2 p k) = X (ix2 r k)) (h1 : ∀ (k : Fin 385) (q : Fin 128), x1 (ix2 k q) = W (ix2 k q))
    (h2 : ∀ q : Fin 128, x2 (ix2 (0 : Fin 1) q) = B (ix2 (0 : Fin 1) q)) :
    k2_pay1 (F := Ideal) x0 x1 x2 (ix2 p q) = Cert.Spec.projAt X W B r q := by
  rw [body2_apply]
  unfold Cert.Spec.projAt
  rw [h2 q]
  exact congrArg (fun s => max (s + B (ix2 (0 : Fin 1) q)) 0) (Finset.sum_congr rfl fun k _ => by rw [h0 k, h1 k q])

/-- WHAT POINT t WRITES BACK is tile t of max(x·w + b, 0) of the arrays as the launch finds them. -/
theorem flushed2_3 (c : Dev nD) (t : Fin cfg2.N) :
    (dat2 (F := Ideal) V c).flushed 3 t
      = ((cfg2.win 3).blk t).view.read (Elt Ideal) (Cert.Spec.projFn (V c main_arg2) (V c main_v13) (V c main_v16)) := by
  show (cfg2.win 3).cut (grid2.coords t) ((dat2 (F := Ideal) V c).after 3 t) = _
  rw [after2_3]
  unfold out2_3
  rw [View.canon_unit_zero zero_offsets2]
  simp only [View.ld_unit_zero (S := S2000x385) zero_offsets2, View.ld_unit_zero (S := S385x128) zero_offsets2, View.ld_unit_zero (S := S1x128) zero_offsets2]
  obtain ⟨e00, e01, e10, e11, e20, e21, e30, e31⟩ := tile_index2 t
  have ht : t.val < 25 := t.isLt
  funext j
  have hj0 : (j 0).val < 2000 := (j 0).isLt
  have hj1 : (j 1).val < 128 := (j 1).isLt
  have ej : (cfg2.win 3).xinj (grid2.coords t) j = ix2 (⟨(j 0).val, hj0⟩ : Fin 2000) (⟨(j 1).val, hj1⟩ : Fin 128) :=
    funext fun a => by match a with | ⟨0, _⟩ => rfl | ⟨1, _⟩ => rfl
  refine (congrArg (k2_pay1 (F := Ideal) (iblk2 V c 0 t) (iblk2 V c 1 t) (iblk2 V c 2 t)) ej).trans ?_
  refine (tile_entry2 (V c main_arg2) (V c main_v13) (V c main_v16) (iblk2 V c 0 t) (iblk2 V c 1 t) (iblk2 V c 2 t)
    (⟨2000 * t.val + (j 0).val, by omega⟩ : Fin 50000) (⟨(j 0).val, hj0⟩ : Fin 2000) (⟨(j 1).val, hj1⟩ : Fin 128) ?_ ?_ ?_).trans ?_
  · intro k
    show V c main_arg2 (((cfg2.win 0).blk t).view.emb (ix2 (⟨(j 0).val, hj0⟩ : Fin 2000) k)) = V c main_arg2 (ix2 (⟨2000 * t.val + (j 0).val, by omega⟩ : Fin 50000) k)
    refine congrArg (V c main_arg2) (funext fun a => Fin.ext ?_)
    match a with
    | ⟨0, _⟩ => show win2_0.index t (0 : Fin 2) * 2000 + 1 * (j 0).val = 2000 * t.val + (j 0).val; omega
    | ⟨1, _⟩ => show win2_0.index t (1 : Fin 2) * 385 + 1 * k.val = k.val; omega
  · intro k q
    show V c main_v13 (((cfg2.win 1).blk t).view.emb (ix2 k q)) = V c main_v13 (ix2 k q)
    refine congrArg (V c main_v13) (funext fun a => Fin.ext ?_)
    match a with
    | ⟨0, _⟩ => show win2_1.index t (0 : Fin 2) * 385 + 1 * k.val = k.val; omega
    | ⟨1, _⟩ => show win2_1.index t (1 : Fin 2) * 128 + 1 * q.val = q.val; omega
  · intro q
    show V c main_v16 (((cfg2.win 2).blk t).view.emb (ix2 (0 : Fin 1) q)) = V c main_v16 (ix2 (0 : Fin 1) q)
    refine congrArg (V c main_v16) (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  · show _ = Cert.Spec.projFn (V c main_arg2) (V c main_v13) (V c main_v16) (((cfg2.win 3).blk t).view.emb j)
    unfold Cert.Spec.projFn
    have r0 : (((cfg2.win 3).blk t).view.emb j 0).val = 2000 * t.val + (j 0).val := by
      show win2_3.index t (0 : Fin 2) * 2000 + 1 * (j 0).val = _; omega
    have r1 : (((cfg2.win 3).blk t).view.emb j 1).val = (j 1).val := by
      show win2_3.index t (1 : Fin 2) * 128 + 1 * (j 1).val = _; omega
    exact congrArg₂ (Cert.Spec.projAt (V c main_arg2) (V c main_v13) (V c main_v16)) (Fin.ext r0.symm) (Fin.ext r1.symm)

/-- An index of the output array is in point t's tile iff each coordinate is in the tile's range on its axis. -/
theorem mem_tile2 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v17).slice (win2_3.rect t)).set ↔ _
  rw [View.set_slice_whole, Rect.mem_set_unit]
  exact Iff.rfl

/-- The row tiles cover the output array: row r is in the tile of point r / 2000, which writes its tile back. -/
theorem rows_covered2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have ht : (i 0).val / 2000 < cfg2.N := by show (i 0).val / 2000 < 25; omega
  obtain ⟨-, -, -, -, -, -, e30, e31⟩ := tile_index2 ⟨(i 0).val / 2000, ht⟩
  have e30' : win2_3.index ⟨(i 0).val / 2000, ht⟩ (0 : Fin 2) = (i 0).val / 2000 := e30
  refine ⟨⟨(i 0).val / 2000, ht⟩, flush2_3 _, ?_⟩
  rw [mem_tile2]
  intro a
  match a with
  | ⟨0, _⟩ => show win2_3.index ⟨(i 0).val / 2000, ht⟩ (0 : Fin 2) * 2000 ≤ (i 0).val ∧ (i 0).val < win2_3.index ⟨(i 0).val / 2000, ht⟩ (0 : Fin 2) * 2000 + 2000; omega
  | ⟨1, _⟩ => show win2_3.index ⟨(i 0).val / 2000, ht⟩ (1 : Fin 2) * 128 ≤ (i 1).val ∧ (i 1).val < win2_3.index ⟨(i 0).val / 2000, ht⟩ (1 : Fin 2) * 128 + 128; omega

/-- THE OUTPUT ARRAY after the launch is max(x·w + b, 0) of the features, the weight and the bias as the launch finds them. -/
theorem proj2_value (c : Dev nD) :
    (dat2 (F := Ideal) V c).arrAt 3 cfg2.N = Cert.Spec.projFn (V c main_arg2) (V c main_v13) (V c main_v16) :=
  (dat2 (F := Ideal) V c).arrAt_eq_of_cover 3 (Cert.Spec.projFn (V c main_arg2) (V c main_v13) (V c main_v16))
    (fun t _ => flushed2_3 V c t) rows_covered2

end Cert.KernelIdeal.Hand

end
-- ==== Proof.KernelIdeal.ProjValue3.lean ====
/-
  Input projection, launch 3 of the program: the VALUE the launch leaves in its output array, at the ideal arithmetic.
  The launch walks 25 row tiles of 2000 rows. At point t the body loads rows 2000·t … 2000·t + 1999 of the features x
  (a 2000×385 tile), the whole 385×128 weight w and the 1×128 bias b, and stores max(tile · w + b, 0) to rows
  2000·t … 2000·t + 1999 of the output. Three steps:
  * the body's stored value at entry (p, q) of a tile: the matrix product into a zero accumulator is the sum over k of
    x(p, k)·w(k, q) (the contraction index re-indexed to its one coordinate), the bias row is spread over the rows, and the
    maximum against the zero splat is the maximum against 0;
  * what point t writes back is tile t of ONE function of the arrays as the launch finds them, entry (r, q) ↦
    max(∑ k, x(r, k)·w(k, q) + b(0, q), 0): row p of the features' tile t is row 2000·t + p of x, the weight's and the
    bias's blocks are the whole arrays, and the output's tile sits at the same rows;
  * the 25 row tiles cover the output array (row r lies in tile r / 2000), so the array ends holding that function.
-/
import proofs.«418080_j49366354100286_4_alg».proof.Proof.KernelIdeal.Proj3
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The tile product's operand indices -/

/-- The left operand's row is the result's row, -/
theorem lhs3_row (i : S2000x128.Idx) (q : dot_S2000x385_S385x128_S2000x128_1_0_0_1_n_n.contr.Idx) :
    (dot_S2000x385_S385x128_S2000x128_1_0_0_1_n_n.lhsIdx i q 0).val = (i 0).val := by
  unfold DotDims.lhsIdx
  rw [dif_neg (show ¬(0 : Fin S2000x385.rank) ∈ dot_S2000x385_S385x128_S2000x128_1_0_0_1_n_n.lhsBatch by decide), dif_pos (show (0 : Fin S2000x385.rank) ∈ dot_S2000x385_S385x128_S2000x128_1_0_0_1_n_n.lhsNonContracting by decide)]
  rfl
/-- its column the summation index; -/
theorem lhs3_col (i : S2000x128.Idx) (q : dot_S2000x385_S385x128_S2000x128_1_0_0_1_n_n.contr.Idx) :
    (dot_S2000x385_S385x128_S2000x128_1_0_0_1_n_n.lhsIdx i q 1).val = (q ⟨0, by decide⟩).val :=
  dot_S2000x385_S385x128_S2000x128_1_0_0_1_n_n.lhsIdx_val_of_single rfl i q
/-- the right operand's row is the summation index, -/
theorem rhs3_row (i : S2000x128.Idx) (q : dot_S2000x385_S385x128_S2000x128_1_0_0_1_n_n.contr.Idx) :
    (dot_S2000x385_S385x128_S2000x128_1_0_0_1_n_n.rhsIdx i q 0).val = (q ⟨0, by decide⟩).val :=
  dot_S2000x385_S385x128_S2000x128_1_0_0_1_n_n.rhsIdx_val_of_single rfl i q
/-- its column the result's column. -/
theorem rhs3_col (i : S2000x128.Idx) (q : dot_S2000x385_S385x128_S2000x128_1_0_0_1_n_n.contr.Idx) :
    (dot_S2000x385_S385x128_S2000x128_1_0_0_1_n_n.rhsIdx i q 1).val = (i 1).val := by
  unfold DotDims.rhsIdx
  rw [dif_neg (show ¬(1 : Fin S385x128.rank) ∈ dot_S2000x385_S385x128_S2000x128_1_0_0_1_n_n.rhsBatch by decide), dif_pos (show (1 : Fin S385x128.rank) ∈ dot_S2000x385_S385x128_S2000x128_1_0_0_1_n_n.rhsNonContracting by decide)]
  rfl

/-- The tile product into a zero accumulator, entry (p, q): the sum over k of x(p, k)·w(k, q). -/
theorem tile_product3_apply (x0 : FVec Ideal S2000x385 .f32) (x1 : FVec Ideal S385x128 .f32) (p : Fin 2000) (q : Fin 128) :
    matmul dot_S2000x385_S385x128_S2000x128_1_0_0_1_n_n (some .fp32) x0 x1 (constant (F := Ideal) S2000x128 .f32 0x00000000#32) (ix2 p q)
      = ∑ k : Fin 385, x0 (ix2 p k) * x1 (ix2 k q) := by
  refine (Ideal.matmul_constant_zero_apply dot_S2000x385_S385x128_S2000x128_1_0_0_1_n_n (some .fp32) x0 x1 (ix2 p q)).trans ?_
  rw [← Equiv.sum_comp (ValueIdx.contrEquiv1 dot_S2000x385_S385x128_S2000x128_1_0_0_1_n_n 385 rfl rfl).symm]
  refine Finset.sum_congr rfl fun k _ => ?_
  have hk := ValueIdx.contrEquiv1_symm_val dot_S2000x385_S385x128_S2000x128_1_0_0_1_n_n 385 rfl rfl k
  have el : dot_S2000x385_S385x128_S2000x128_1_0_0_1_n_n.lhsIdx (ix2 p q) ((ValueIdx.contrEquiv1 dot_S2000x385_S385x128_S2000x128_1_0_0_1_n_n 385 rfl rfl).symm k) = ix2 p k := funext fun a => Fin.ext (by
    match a with
    | ⟨0, _⟩ => exact lhs3_row _ _
    | ⟨1, _⟩ => exact (lhs3_col _ _).trans hk)
  have er : dot_S2000x385_S385x128_S2000x128_1_0_0_1_n_n.rhsIdx (ix2 p q) ((ValueIdx.contrEquiv1 dot_S2000x385_S385x128_S2000x128_1_0_0_1_n_n 385 rfl rfl).symm k) = ix2 k q := funext fun a => Fin.ext (by
    match a with
    | ⟨0, _⟩ => exact (rhs3_row _ _).trans hk
    | ⟨1, _⟩ => exact rhs3_col _ _)
  rw [el, er]

/-- The bias row spread over the tile's rows, entry (p, q): b(0, q). -/
theorem bias_rows3_apply (x2 : FVec Ideal S1x128 .f32) (p : Fin 2000) (q : Fin 128) :
    broadcastTo S2000x128 x2 broadcasts_S1x128_S2000x128 (ix2 p q) = x2 (ix2 (0 : Fin 1) q) :=
  broadcastTo_apply x2 broadcasts_S1x128_S2000x128 (ix2 p q) (ix2 (0 : Fin 1) q) (fun a => by
    match a with
    | ⟨0, _⟩ => rfl
    | ⟨1, _⟩ => rfl)

/-- The body's stored value, entry (p, q): the larger of 0 and the sum over k of x(p, k)·w(k, q), plus b(0, q). -/
theorem body3_apply (x0 : Vec Ideal S2000x385 .f32) (x1 : Vec Ideal S385x128 .f32) (x2 : Vec Ideal S1x128 .f32) (p : Fin 2000) (q : Fin 128) :
    k3_pay1 (F := Ideal) x0 x1 x2 (ix2 p q) = max ((∑ k : Fin 385, x0 (ix2 p k) * x1 (ix2 k q)) + x2 (ix2 (0 : Fin 1) q)) 0 := by
  unfold k3_pay1
  simp only [shapeCast_self]
  rw [maximumf_apply, addf_apply, broadcast_apply]
  rw [tile_product3_apply, bias_rows3_apply]
  exact congrArg (max _) Ideal.ofBits_zero_f32

/-! ## From the tiles to the array -/

variable (V : (c : Dev nD) → (b : Ref sig .tc) → Buf (Elt Ideal) ((c : Thread nD τ).loc b))

theorem zero_offsets3 : (![0, 0] : Fin 2 → Nat) = fun _ => 0 := funext fun a => by fin_cases a <;> rfl

/-- The printed index maps, decided over the grid: at point t the features' and the output's tiles are row tile t, column tile 0;
    the weight's and the bias's block is the whole array. -/
theorem tile_index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry (p, q) of the body's stored value on a row tile of x whose row p is row r of x, against the whole w and b,
    is entry (r, q) of max(x·w + b, 0). -/
theorem tile_entry3 (X : (⟨2, ![50000, 385]⟩ : Shape).Idx → EReal) (W : (⟨2, ![385, 128]⟩ : Shape).Idx → EReal) (B : (⟨2, ![1, 128]⟩ : Shape).Idx → EReal)
    (x0 : Vec Ideal S2000x385 .f32) (x1 : Vec Ideal S385x128 .f32) (x2 : Vec Ideal S1x128 .f32)
    (r : Fin 50000) (p : Fin 2000) (q : Fin 128)
    (h0 : ∀ k : Fin 385, x0 (ix2 p k) = X (ix2 r k)) (h1 : ∀ (k : Fin 385) (q : Fin 128), x1 (ix2 k q) = W (ix2 k q))
    (h2 : ∀ q : Fin 128, x2 (ix2 (0 : Fin 1) q) = B (ix2 (0 : Fin 1) q)) :
    k3_pay1 (F := Ideal) x0 x1 x2 (ix2 p q) = Cert.Spec.projAt X W B r q := by
  rw [body3_apply]
  unfold Cert.Spec.projAt
  rw [h2 q]
  exact congrArg (fun s => max (s + B (ix2 (0 : Fin 1) q)) 0) (Finset.sum_congr rfl fun k _ => by rw [h0 k, h1 k q])

/-- WHAT POINT t WRITES BACK is tile t of max(x·w + b, 0) of the arrays as the launch finds them. -/
theorem flushed3_3 (c : Dev nD) (t : Fin cfg3.N) :
    (dat3 (F := Ideal) V c).flushed 3 t
      = ((cfg3.win 3).blk t).view.read (Elt Ideal) (Cert.Spec.projFn (V c main_arg3) (V c main_v19) (V c main_v22)) := by
  show (cfg3.win 3).cut (grid3.coords t) ((dat3 (F := Ideal) V c).after 3 t) = _
  rw [after3_3]
  unfold out3_3
  rw [View.canon_unit_zero zero_offsets3]
  simp only [View.ld_unit_zero (S := S2000x385) zero_offsets3, View.ld_unit_zero (S := S385x128) zero_offsets3, View.ld_unit_zero (S := S1x128) zero_offsets3]
  obtain ⟨e00, e01, e10, e11, e20, e21, e30, e31⟩ := tile_index3 t
  have ht : t.val < 25 := t.isLt
  funext j
  have hj0 : (j 0).val < 2000 := (j 0).isLt
  have hj1 : (j 1).val < 128 := (j 1).isLt
  have ej : (cfg3.win 3).xinj (grid3.coords t) j = ix2 (⟨(j 0).val, hj0⟩ : Fin 2000) (⟨(j 1).val, hj1⟩ : Fin 128) :=
    funext fun a => by match a with | ⟨0, _⟩ => rfl | ⟨1, _⟩ => rfl
  refine (congrArg (k3_pay1 (F := Ideal) (iblk3 V c 0 t) (iblk3 V c 1 t) (iblk3 V c 2 t)) ej).trans ?_
  refine (tile_entry3 (V c main_arg3) (V c main_v19) (V c main_v22) (iblk3 V c 0 t) (iblk3 V c 1 t) (iblk3 V c 2 t)
    (⟨2000 * t.val + (j 0).val, by omega⟩ : Fin 50000) (⟨(j 0).val, hj0⟩ : Fin 2000) (⟨(j 1).val, hj1⟩ : Fin 128) ?_ ?_ ?_).trans ?_
  · intro k
    show V c main_arg3 (((cfg3.win 0).blk t).view.emb (ix2 (⟨(j 0).val, hj0⟩ : Fin 2000) k)) = V c main_arg3 (ix2 (⟨2000 * t.val + (j 0).val, by omega⟩ : Fin 50000) k)
    refine congrArg (V c main_arg3) (funext fun a => Fin.ext ?_)
    match a with
    | ⟨0, _⟩ => show win3_0.index t (0 : Fin 2) * 2000 + 1 * (j 0).val = 2000 * t.val + (j 0).val; omega
    | ⟨1, _⟩ => show win3_0.index t (1 : Fin 2) * 385 + 1 * k.val = k.val; omega
  · intro k q
    show V c main_v19 (((cfg3.win 1).blk t).view.emb (ix2 k q)) = V c main_v19 (ix2 k q)
    refine congrArg (V c main_v19) (funext fun a => Fin.ext ?_)
    match a with
    | ⟨0, _⟩ => show win3_1.index t (0 : Fin 2) * 385 + 1 * k.val = k.val; omega
    | ⟨1, _⟩ => show win3_1.index t (1 : Fin 2) * 128 + 1 * q.val = q.val; omega
  · intro q
    show V c main_v22 (((cfg3.win 2).blk t).view.emb (ix2 (0 : Fin 1) q)) = V c main_v22 (ix2 (0 : Fin 1) q)
    refine congrArg (V c main_v22) (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  · show _ = Cert.Spec.projFn (V c main_arg3) (V c main_v19) (V c main_v22) (((cfg3.win 3).blk t).view.emb j)
    unfold Cert.Spec.projFn
    have r0 : (((cfg3.win 3).blk t).view.emb j 0).val = 2000 * t.val + (j 0).val := by
      show win3_3.index t (0 : Fin 2) * 2000 + 1 * (j 0).val = _; omega
    have r1 : (((cfg3.win 3).blk t).view.emb j 1).val = (j 1).val := by
      show win3_3.index t (1 : Fin 2) * 128 + 1 * (j 1).val = _; omega
    exact congrArg₂ (Cert.Spec.projAt (V c main_arg3) (V c main_v19) (V c main_v22)) (Fin.ext r0.symm) (Fin.ext r1.symm)

/-- An index of the output array is in point t's tile iff each coordinate is in the tile's range on its axis. -/
theorem mem_tile3 (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v23).slice (win3_3.rect t)).set ↔ _
  rw [View.set_slice_whole, Rect.mem_set_unit]
  exact Iff.rfl

/-- The row tiles cover the output array: row r is in the tile of point r / 2000, which writes its tile back. -/
theorem rows_covered3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have ht : (i 0).val / 2000 < cfg3.N := by show (i 0).val / 2000 < 25; omega
  obtain ⟨-, -, -, -, -, -, e30, e31⟩ := tile_index3 ⟨(i 0).val / 2000, ht⟩
  have e30' : win3_3.index ⟨(i 0).val / 2000, ht⟩ (0 : Fin 2) = (i 0).val / 2000 := e30
  refine ⟨⟨(i 0).val / 2000, ht⟩, flush3_3 _, ?_⟩
  rw [mem_tile3]
  intro a
  match a with
  | ⟨0, _⟩ => show win3_3.index ⟨(i 0).val / 2000, ht⟩ (0 : Fin 2) * 2000 ≤ (i 0).val ∧ (i 0).val < win3_3.index ⟨(i 0).val / 2000, ht⟩ (0 : Fin 2) * 2000 + 2000; omega
  | ⟨1, _⟩ => show win3_3.index ⟨(i 0).val / 2000, ht⟩ (1 : Fin 2) * 128 ≤ (i 1).val ∧ (i 1).val < win3_3.index ⟨(i 0).val / 2000, ht⟩ (1 : Fin 2) * 128 + 128; omega

/-- THE OUTPUT ARRAY after the launch is max(x·w + b, 0) of the features, the weight and the bias as the launch finds them. -/
theorem proj3_value (c : Dev nD) :
    (dat3 (F := Ideal) V c).arrAt 3 cfg3.N = Cert.Spec.projFn (V c main_arg3) (V c main_v19) (V c main_v22) :=
  (dat3 (F := Ideal) V c).arrAt_eq_of_cover 3 (Cert.Spec.projFn (V c main_arg3) (V c main_v19) (V c main_v22))
    (fun t _ => flushed3_3 V c t) rows_covered3

end Cert.KernelIdeal.Hand

end
-- ==== Proof.KernelIdeal.ConvValue5.lean ====
/-
  The value of the graph-convolution epilogue, launch 5, at ideal (extended-real) values. The body's arithmetic at entry
  (p, q) of a tile is the sum over k of (tile(p, k) · scale(p, 0)) · weight(k, q), plus bias(0, q): the casts keep their
  shapes, the scale's column is laid along every column, the product accumulates into zero, the bias's row is laid along
  every row. At grid point t the feature tile and the scale tile are rows 2000 t … 2000 t + 1999 of their arrays, the
  weight and bias blocks are the whole arrays, and the point writes back the same rows of the output; the 25 row tiles
  cover the 50000 rows. So after the launch the output array is `Cert.Spec.convFn` of the four input arrays as the launch
  finds them.
-/
import proofs.«418080_j49366354100286_4_alg».proof.Proof.KernelIdeal.Conv5
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic at an entry -/

/-- A column `[a, 1]` broadcast to `[a, b]` reads, at `(p, c)`, the column's entry of row `p`. -/
theorem conv5_column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row and the contraction coordinate, -/
theorem conv5_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem conv5_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- and its right operand at the contraction coordinate and the output's column. -/
theorem conv5_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem conv5_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product into a zero accumulator, at ideal values: entry `(p, q)` is the sum over `k` of the
    left operand's `(p, k)` times the right operand's `(k, q)`. -/
theorem conv5_matmul_apply (l : FVec Ideal S2000x128 .f32) (r : FVec Ideal S128x128 .f32) (p : Fin 2000) (q : Fin 128) :
    matmul (F := Ideal) dot_S2000x128_S128x128_S2000x128_1_0_0_1_n_n (some .fp32) l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n (some .fp32) l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact conv5_lhs_0 _ _
    | ⟨1, _⟩ => exact (conv5_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (conv5_rhs_0 _ _).trans hk
    | ⟨1, _⟩ => exact conv5_rhs_1 _ _)
  rw [el, er]

/-- The body's arithmetic at an entry, at ideal values: the tile's row `p` scaled by that row's scale, times the weight's
    column `q`, plus the bias at `q`. -/
theorem conv5_payload_apply (x0 : Vec Ideal S2000x128 .f32) (x1 : Vec Ideal S2000x1 .f32) (x2 : Vec Ideal S128x128 .f32)
    (x3 : Vec Ideal S1x128 .f32) (p : Fin 2000) (q : Fin 128) :
    k5_pay1 (F := Ideal) x0 x1 x2 x3 (ix2 p q)
      = (∑ k : Fin 128, (x0 (ix2 p k) * x1 (ix2 p (0 : Fin 1))) * x2 (ix2 k q)) + x3 (ix2 (0 : Fin 1) q) := by
  unfold k5_pay1
  simp only [shapeCast_self]
  refine (addf_apply _ _ _).trans ?_
  refine congrArg₂ (· + ·) ?_ (broadcastTo_1b_ab_apply x3 broadcasts_S1x128_S2000x128 p q)
  refine (conv5_matmul_apply _ x2 p q).trans ?_
  refine Finset.sum_congr rfl fun k _ => ?_
  refine congrArg (· * x2 (ix2 k q)) ?_
  refine (mulf_apply _ _ _).trans ?_
  exact congrArg (x0 (ix2 p k) * ·) (conv5_column_broadcast_apply x1 broadcasts_S2000x1_S2000x128 p k)

/-! ## What one grid point writes back -/

theorem conv5_zero_offsets : (![0, 0] : Fin 2 → Nat) = fun _ => 0 := funext fun a => by fin_cases a <;> rfl

/-- The printed index maps, decided over the 25 grid points: at point `t` the feature tile, the scale tile and the output
    tile are the `t`-th row tiles of their arrays, and the weight and the bias are whole. -/
theorem conv5_idx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

variable (V : (c : Dev nD) → (b : Ref sig .tc) → Buf (Elt Ideal) ((c : Thread nD τ).loc b))

/-- The feature tile at point `t` is rows `2000 t … 2000 t + 1999` of the aggregated features. -/
theorem conv5_features_apply (c : Dev nD) (t : Fin cfg5.N) (p : Fin 2000) (k : Fin 128) (r : Fin 50000)
    (hr : r.val = t.val * 2000 + p.val) :
    (iblk5 V c 0 t : Vec Ideal S2000x128 .f32) (ix2 p k) = (V c main_v144 : S50000x128.Idx → EReal) (ix2 r k) := by
  obtain ⟨e0, e1, -⟩ := conv5_idx t
  show V c main_v144 (((cfg5.win 0).blk t).view.emb (ix2 p k)) = V c main_v144 (ix2 r k)
  refine congrArg (V c main_v144) (funext fun a => Fin.ext ?_)
  match a with
  | ⟨0, _⟩ => show win5_0.index t (0 : Fin 2) * 2000 + 1 * p.val = r.val; omega
  | ⟨1, _⟩ => show win5_0.index t (1 : Fin 2) * 128 + 1 * k.val = k.val; omega

/-- The scale tile at point `t` is the same rows of the degree scale. -/
theorem conv5_scale_apply (c : Dev nD) (t : Fin cfg5.N) (p : Fin 2000) (r : Fin 50000)
    (hr : r.val = t.val * 2000 + p.val) :
    (iblk5 V c 1 t : Vec Ideal S2000x1 .f32) (ix2 p (0 : Fin 1)) = (V c main_v145 : S50000x1.Idx → EReal) (ix2 r (0 : Fin 1)) := by
  obtain ⟨-, -, e0, e1, -⟩ := conv5_idx t
  show V c main_v145 (((cfg5.win 1).blk t).view.emb (ix2 p (0 : Fin 1))) = V c main_v145 (ix2 r (0 : Fin 1))
  refine congrArg (V c main_v145) (funext fun a => Fin.ext ?_)
  match a with
  | ⟨0, _⟩ => show win5_1.index t (0 : Fin 2) * 2000 + 1 * p.val = r.val; omega
  | ⟨1, _⟩ => show win5_1.index t (1 : Fin 2) * 1 + 1 * 0 = 0; omega

/-- The weight block at every point is the whole weight, -/
theorem conv5_weight_apply (c : Dev nD) (t : Fin cfg5.N) (k : Fin 128) (q : Fin 128) :
    (iblk5 V c 2 t : Vec Ideal S128x128 .f32) (ix2 k q) = (V c main_v129 : S128x128.Idx → EReal) (ix2 k q) := by
  obtain ⟨-, -, -, -, e0, e1, -⟩ := conv5_idx t
  show V c main_v129 (((cfg5.win 2).blk t).view.emb (ix2 k q)) = V c main_v129 (ix2 k q)
  refine congrArg (V c main_v129) (funext fun a => Fin.ext ?_)
  match a with
  | ⟨0, _⟩ => show win5_2.index t (0 : Fin 2) * 128 + 1 * k.val = k.val; omega
  | ⟨1, _⟩ => show win5_2.index t (1 : Fin 2) * 128 + 1 * q.val = q.val; omega

/-- and the bias block the whole bias. -/
theorem conv5_bias_apply (c : Dev nD) (t : Fin cfg5.N) (q : Fin 128) :
    (iblk5 V c 3 t : Vec Ideal S1x128 .f32) (ix2 (0 : Fin 1) q) = (V c main_v146 : S1x128.Idx → EReal) (ix2 (0 : Fin 1) q) := by
  obtain ⟨-, -, -, -, -, -, e0, e1, -⟩ := conv5_idx t
  show V c main_v146 (((cfg5.win 3).blk t).view.emb (ix2 (0 : Fin 1) q)) = V c main_v146 (ix2 (0 : Fin 1) q)
  refine congrArg (V c main_v146) (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega

/-- The body's result on four blocks that agree, entry by entry, with row `r` of the features, the scale at row `r`,
    the weight and the bias, is the epilogue's entry `(r, q)`. -/
theorem conv5_tile_apply (a : S50000x128.Idx → EReal) (s : S50000x1.Idx → EReal) (w : S128x128.Idx → EReal) (b : S1x128.Idx → EReal)
    (x0 : Vec Ideal S2000x128 .f32) (x1 : Vec Ideal S2000x1 .f32) (x2 : Vec Ideal S128x128 .f32) (x3 : Vec Ideal S1x128 .f32)
    (p : Fin 2000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k5_pay1 (F := Ideal) x0 x1 x2 x3 (ix2 p q) = Cert.Spec.convAt a s w b r q := by
  refine (conv5_payload_apply x0 x1 x2 x3 p q).trans ?_
  unfold Cert.Spec.convAt
  rw [h1, h3]
  exact congrArg (· + b (ix2 (0 : Fin 1) q)) (Finset.sum_congr rfl fun k _ => by rw [h0 k, h2 k])

/-- What point `t` writes back is block `t` of the epilogue of the arrays as the launch finds them. -/
theorem conv5_flushed (c : Dev nD) (t : Fin cfg5.N) :
    (dat5 (F := Ideal) V c).flushed 4 t
      = ((cfg5.win 4).blk t).view.read (Elt Ideal) (Cert.Spec.convFn (V c main_v144) (V c main_v145) (V c main_v129) (V c main_v146)) := by
  show (cfg5.win 4).cut (grid5.coords t) ((dat5 V c).after 4 t) = _
  rw [after5_4]
  unfold out5_4
  rw [View.canon_unit_zero conv5_zero_offsets]
  simp only [View.ld_unit_zero (S := S2000x128) conv5_zero_offsets, View.ld_unit_zero (S := S2000x1) conv5_zero_offsets,
    View.ld_unit_zero (S := S128x128) conv5_zero_offsets, View.ld_unit_zero (S := S1x128) conv5_zero_offsets]
  obtain ⟨-, -, -, -, -, -, -, -, e0, e1⟩ := conv5_idx t
  have hN : cfg5.N = 25 := N_5
  funext j
  have hj0 : (j 0).val < 2000 := (j 0).isLt
  have hj1 : (j 1).val < 128 := (j 1).isLt
  have hr : t.val * 2000 + (j 0).val < 50000 := by have := t.isLt; omega
  have hx : (cfg5.win 4).xinj (grid5.coords t) j = ix2 (⟨(j 0).val, hj0⟩ : Fin 2000) (⟨(j 1).val, hj1⟩ : Fin 128) :=
    funext fun a => by match a with | ⟨0, _⟩ => rfl | ⟨1, _⟩ => rfl
  have hy : ((cfg5.win 4).blk t).view.emb j = ix2 (⟨t.val * 2000 + (j 0).val, hr⟩ : Fin 50000) (⟨(j 1).val, hj1⟩ : Fin 128) :=
    funext fun a => Fin.ext (by
      match a with
      | ⟨0, _⟩ => show win5_4.index t (0 : Fin 2) * 2000 + 1 * (j 0).val = t.val * 2000 + (j 0).val; omega
      | ⟨1, _⟩ => show win5_4.index t (1 : Fin 2) * 128 + 1 * (j 1).val = (j 1).val; omega)
  show k5_pay1 (F := Ideal) (iblk5 V c 0 t) (iblk5 V c 1 t) (iblk5 V c 2 t) (iblk5 V c 3 t) ((cfg5.win 4).xinj (grid5.coords t) j)
    = Cert.Spec.convFn (V c main_v144) (V c main_v145) (V c main_v129) (V c main_v146) (((cfg5.win 4).blk t).view.emb j)
  rw [hx, hy]
  exact conv5_tile_apply (V c main_v144) (V c main_v145) (V c main_v129) (V c main_v146)
    (iblk5 V c 0 t) (iblk5 V c 1 t) (iblk5 V c 2 t) (iblk5 V c 3 t) ⟨(j 0).val, hj0⟩ ⟨(j 1).val, hj1⟩ ⟨t.val * 2000 + (j 0).val, hr⟩
    (fun k => conv5_features_apply V c t ⟨(j 0).val, hj0⟩ k ⟨t.val * 2000 + (j 0).val, hr⟩ rfl)
    (conv5_scale_apply V c t ⟨(j 0).val, hj0⟩ ⟨t.val * 2000 + (j 0).val, hr⟩ rfl)
    (fun k => conv5_weight_apply V c t k ⟨(j 1).val, hj1⟩)
    (conv5_bias_apply V c t ⟨(j 1).val, hj1⟩)

/-! ## The array after the launch -/

/-- The 25 row tiles cover the output (row `r` is in tile `r / 2000`), so after the launch the output array is the
    epilogue of the four input arrays as the launch finds them. -/
theorem conv5_value (c : Dev nD) :
    (dat5 (F := Ideal) V c).arrAt 4 cfg5.N = Cert.Spec.convFn (V c main_v144) (V c main_v145) (V c main_v129) (V c main_v146) :=
  (dat5 (F := Ideal) V c).arrAt_eq_of_cover 4 (Cert.Spec.convFn (V c main_v144) (V c main_v145) (V c main_v129) (V c main_v146))
    (fun t _ => conv5_flushed V c t) fun i => by
      have hN : cfg5.N = 25 := N_5
      have hi0 : (i 0).val < 50000 := (i 0).isLt
      have hi1 : (i 1).val < 128 := (i 1).isLt
      have ht : (i 0).val / 2000 < cfg5.N := by omega
      obtain ⟨-, -, -, -, -, -, -, -, e0, e1⟩ := conv5_idx ⟨(i 0).val / 2000, ht⟩
      refine ⟨⟨(i 0).val / 2000, ht⟩, flush5_4 _, ?_⟩
      show i ∈ ((View.whole (Pipeline.arrRef spec5 4)).slice (win5_4.rect ⟨(i 0).val / 2000, ht⟩)).set
      rw [View.set_slice_whole, Rect.mem_set_unit]
      intro a
      match a with
      | ⟨0, _⟩ =>
        show win5_4.index ⟨(i 0).val / 2000, ht⟩ (0 : Fin 2) * 2000 ≤ (i 0).val
          ∧ (i 0).val < win5_4.index ⟨(i 0).val / 2000, ht⟩ (0 : Fin 2) * 2000 + 2000
        rw [e0]; show (i 0).val / 2000 * 2000 ≤ (i 0).val ∧ (i 0).val < (i 0).val / 2000 * 2000 + 2000; omega
      | ⟨1, _⟩ =>
        show win5_4.index ⟨(i 0).val / 2000, ht⟩ (1 : Fin 2) * 128 ≤ (i 1).val
          ∧ (i 1).val < win5_4.index ⟨(i 0).val / 2000, ht⟩ (1 : Fin 2) * 128 + 128
        rw [e1]; omega

end Cert.KernelIdeal.Hand

end
-- ==== Proof.KernelIdeal.ConvValue6.lean ====
/-
  The value of the graph-convolution epilogue, launch 6, at ideal (extended-real) values. The body's arithmetic at entry
  (p, q) of a tile is the sum over k of (tile(p, k) · scale(p, 0)) · weight(k, q), plus bias(0, q): the casts keep their
  shapes, the scale's column is laid along every column, the product accumulates into zero, the bias's row is laid along
  every row. At grid point t the feature tile and the scale tile are rows 2000 t … 2000 t + 1999 of their arrays, the
  weight and bias blocks are the whole arrays, and the point writes back the same rows of the output; the 25 row tiles
  cover the 50000 rows. So after the launch the output array is `Cert.Spec.convFn` of the four input arrays as the launch
  finds them.
-/
import proofs.«418080_j49366354100286_4_alg».proof.Proof.KernelIdeal.Conv6
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic at an entry -/

/-- A column `[a, 1]` broadcast to `[a, b]` reads, at `(p, c)`, the column's entry of row `p`. -/
theorem conv6_column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row and the contraction coordinate, -/
theorem conv6_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem conv6_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- and its right operand at the contraction coordinate and the output's column. -/
theorem conv6_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem conv6_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product into a zero accumulator, at ideal values: entry `(p, q)` is the sum over `k` of the
    left operand's `(p, k)` times the right operand's `(k, q)`. -/
theorem conv6_matmul_apply (l : FVec Ideal S2000x128 .f32) (r : FVec Ideal S128x128 .f32) (p : Fin 2000) (q : Fin 128) :
    matmul (F := Ideal) dot_S2000x128_S128x128_S2000x128_1_0_0_1_n_n (some .fp32) l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n (some .fp32) l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact conv6_lhs_0 _ _
    | ⟨1, _⟩ => exact (conv6_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (conv6_rhs_0 _ _).trans hk
    | ⟨1, _⟩ => exact conv6_rhs_1 _ _)
  rw [el, er]

/-- The body's arithmetic at an entry, at ideal values: the tile's row `p` scaled by that row's scale, times the weight's
    column `q`, plus the bias at `q`. -/
theorem conv6_payload_apply (x0 : Vec Ideal S2000x128 .f32) (x1 : Vec Ideal S2000x1 .f32) (x2 : Vec Ideal S128x128 .f32)
    (x3 : Vec Ideal S1x128 .f32) (p : Fin 2000) (q : Fin 128) :
    k6_pay1 (F := Ideal) x0 x1 x2 x3 (ix2 p q)
      = (∑ k : Fin 128, (x0 (ix2 p k) * x1 (ix2 p (0 : Fin 1))) * x2 (ix2 k q)) + x3 (ix2 (0 : Fin 1) q) := by
  unfold k6_pay1
  simp only [shapeCast_self]
  refine (addf_apply _ _ _).trans ?_
  refine congrArg₂ (· + ·) ?_ (broadcastTo_1b_ab_apply x3 broadcasts_S1x128_S2000x128 p q)
  refine (conv6_matmul_apply _ x2 p q).trans ?_
  refine Finset.sum_congr rfl fun k _ => ?_
  refine congrArg (· * x2 (ix2 k q)) ?_
  refine (mulf_apply _ _ _).trans ?_
  exact congrArg (x0 (ix2 p k) * ·) (conv6_column_broadcast_apply x1 broadcasts_S2000x1_S2000x128 p k)

/-! ## What one grid point writes back -/

theorem conv6_zero_offsets : (![0, 0] : Fin 2 → Nat) = fun _ => 0 := funext fun a => by fin_cases a <;> rfl

/-- The printed index maps, decided over the 25 grid points: at point `t` the feature tile, the scale tile and the output
    tile are the `t`-th row tiles of their arrays, and the weight and the bias are whole. -/
theorem conv6_idx : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

variable (V : (c : Dev nD) → (b : Ref sig .tc) → Buf (Elt Ideal) ((c : Thread nD τ).loc b))

/-- The feature tile at point `t` is rows `2000 t … 2000 t + 1999` of the aggregated features. -/
theorem conv6_features_apply (c : Dev nD) (t : Fin cfg6.N) (p : Fin 2000) (k : Fin 128) (r : Fin 50000)
    (hr : r.val = t.val * 2000 + p.val) :
    (iblk6 V c 0 t : Vec Ideal S2000x128 .f32) (ix2 p k) = (V c main_v169 : S50000x128.Idx → EReal) (ix2 r k) := by
  obtain ⟨e0, e1, -⟩ := conv6_idx t
  show V c main_v169 (((cfg6.win 0).blk t).view.emb (ix2 p k)) = V c main_v169 (ix2 r k)
  refine congrArg (V c main_v169) (funext fun a => Fin.ext ?_)
  match a with
  | ⟨0, _⟩ => show win6_0.index t (0 : Fin 2) * 2000 + 1 * p.val = r.val; omega
  | ⟨1, _⟩ => show win6_0.index t (1 : Fin 2) * 128 + 1 * k.val = k.val; omega

/-- The scale tile at point `t` is the same rows of the degree scale. -/
theorem conv6_scale_apply (c : Dev nD) (t : Fin cfg6.N) (p : Fin 2000) (r : Fin 50000)
    (hr : r.val = t.val * 2000 + p.val) :
    (iblk6 V c 1 t : Vec Ideal S2000x1 .f32) (ix2 p (0 : Fin 1)) = (V c main_v170 : S50000x1.Idx → EReal) (ix2 r (0 : Fin 1)) := by
  obtain ⟨-, -, e0, e1, -⟩ := conv6_idx t
  show V c main_v170 (((cfg6.win 1).blk t).view.emb (ix2 p (0 : Fin 1))) = V c main_v170 (ix2 r (0 : Fin 1))
  refine congrArg (V c main_v170) (funext fun a => Fin.ext ?_)
  match a with
  | ⟨0, _⟩ => show win6_1.index t (0 : Fin 2) * 2000 + 1 * p.val = r.val; omega
  | ⟨1, _⟩ => show win6_1.index t (1 : Fin 2) * 1 + 1 * 0 = 0; omega

/-- The weight block at every point is the whole weight, -/
theorem conv6_weight_apply (c : Dev nD) (t : Fin cfg6.N) (k : Fin 128) (q : Fin 128) :
    (iblk6 V c 2 t : Vec Ideal S128x128 .f32) (ix2 k q) = (V c main_v154 : S128x128.Idx → EReal) (ix2 k q) := by
  obtain ⟨-, -, -, -, e0, e1, -⟩ := conv6_idx t
  show V c main_v154 (((cfg6.win 2).blk t).view.emb (ix2 k q)) = V c main_v154 (ix2 k q)
  refine congrArg (V c main_v154) (funext fun a => Fin.ext ?_)
  match a with
  | ⟨0, _⟩ => show win6_2.index t (0 : Fin 2) * 128 + 1 * k.val = k.val; omega
  | ⟨1, _⟩ => show win6_2.index t (1 : Fin 2) * 128 + 1 * q.val = q.val; omega

/-- and the bias block the whole bias. -/
theorem conv6_bias_apply (c : Dev nD) (t : Fin cfg6.N) (q : Fin 128) :
    (iblk6 V c 3 t : Vec Ideal S1x128 .f32) (ix2 (0 : Fin 1) q) = (V c main_v171 : S1x128.Idx → EReal) (ix2 (0 : Fin 1) q) := by
  obtain ⟨-, -, -, -, -, -, e0, e1, -⟩ := conv6_idx t
  show V c main_v171 (((cfg6.win 3).blk t).view.emb (ix2 (0 : Fin 1) q)) = V c main_v171 (ix2 (0 : Fin 1) q)
  refine congrArg (V c main_v171) (funext fun a => Fin.ext ?_)
  match a with
  | ⟨0, _⟩ => show win6_3.index t (0 : Fin 2) * 1 + 1 * 0 = 0; omega
  | ⟨1, _⟩ => show win6_3.index t (1 : Fin 2) * 128 + 1 * q.val = q.val; omega

/-- The body's result on four blocks that agree, entry by entry, with row `r` of the features, the scale at row `r`,
    the weight and the bias, is the epilogue's entry `(r, q)`. -/
theorem conv6_tile_apply (a : S50000x128.Idx → EReal) (s : S50000x1.Idx → EReal) (w : S128x128.Idx → EReal) (b : S1x128.Idx → EReal)
    (x0 : Vec Ideal S2000x128 .f32) (x1 : Vec Ideal S2000x1 .f32) (x2 : Vec Ideal S128x128 .f32) (x3 : Vec Ideal S1x128 .f32)
    (p : Fin 2000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k6_pay1 (F := Ideal) x0 x1 x2 x3 (ix2 p q) = Cert.Spec.convAt a s w b r q := by
  refine (conv6_payload_apply x0 x1 x2 x3 p q).trans ?_
  unfold Cert.Spec.convAt
  rw [h1, h3]
  exact congrArg (· + b (ix2 (0 : Fin 1) q)) (Finset.sum_congr rfl fun k _ => by rw [h0 k, h2 k])

/-- What point `t` writes back is block `t` of the epilogue of the arrays as the launch finds them. -/
theorem conv6_flushed (c : Dev nD) (t : Fin cfg6.N) :
    (dat6 (F := Ideal) V c).flushed 4 t
      = ((cfg6.win 4).blk t).view.read (Elt Ideal) (Cert.Spec.convFn (V c main_v169) (V c main_v170) (V c main_v154) (V c main_v171)) := by
  show (cfg6.win 4).cut (grid6.coords t) ((dat6 V c).after 4 t) = _
  rw [after6_4]
  unfold out6_4
  rw [View.canon_unit_zero conv6_zero_offsets]
  simp only [View.ld_unit_zero (S := S2000x128) conv6_zero_offsets, View.ld_unit_zero (S := S2000x1) conv6_zero_offsets,
    View.ld_unit_zero (S := S128x128) conv6_zero_offsets, View.ld_unit_zero (S := S1x128) conv6_zero_offsets]
  obtain ⟨-, -, -, -, -, -, -, -, e0, e1⟩ := conv6_idx t
  have hN : cfg6.N = 25 := N_6
  funext j
  have hj0 : (j 0).val < 2000 := (j 0).isLt
  have hj1 : (j 1).val < 128 := (j 1).isLt
  have hr : t.val * 2000 + (j 0).val < 50000 := by have := t.isLt; omega
  have hx : (cfg6.win 4).xinj (grid6.coords t) j = ix2 (⟨(j 0).val, hj0⟩ : Fin 2000) (⟨(j 1).val, hj1⟩ : Fin 128) :=
    funext fun a => by match a with | ⟨0, _⟩ => rfl | ⟨1, _⟩ => rfl
  have hy : ((cfg6.win 4).blk t).view.emb j = ix2 (⟨t.val * 2000 + (j 0).val, hr⟩ : Fin 50000) (⟨(j 1).val, hj1⟩ : Fin 128) :=
    funext fun a => Fin.ext (by
      match a with
      | ⟨0, _⟩ => show win6_4.index t (0 : Fin 2) * 2000 + 1 * (j 0).val = t.val * 2000 + (j 0).val; omega
      | ⟨1, _⟩ => show win6_4.index t (1 : Fin 2) * 128 + 1 * (j 1).val = (j 1).val; omega)
  show k6_pay1 (F := Ideal) (iblk6 V c 0 t) (iblk6 V c 1 t) (iblk6 V c 2 t) (iblk6 V c 3 t) ((cfg6.win 4).xinj (grid6.coords t) j)
    = Cert.Spec.convFn (V c main_v169) (V c main_v170) (V c main_v154) (V c main_v171) (((cfg6.win 4).blk t).view.emb j)
  rw [hx, hy]
  exact conv6_tile_apply (V c main_v169) (V c main_v170) (V c main_v154) (V c main_v171)
    (iblk6 V c 0 t) (iblk6 V c 1 t) (iblk6 V c 2 t) (iblk6 V c 3 t) ⟨(j 0).val, hj0⟩ ⟨(j 1).val, hj1⟩ ⟨t.val * 2000 + (j 0).val, hr⟩
    (fun k => conv6_features_apply V c t ⟨(j 0).val, hj0⟩ k ⟨t.val * 2000 + (j 0).val, hr⟩ rfl)
    (conv6_scale_apply V c t ⟨(j 0).val, hj0⟩ ⟨t.val * 2000 + (j 0).val, hr⟩ rfl)
    (fun k => conv6_weight_apply V c t k ⟨(j 1).val, hj1⟩)
    (conv6_bias_apply V c t ⟨(j 1).val, hj1⟩)

/-! ## The array after the launch -/

/-- The 25 row tiles cover the output (row `r` is in tile `r / 2000`), so after the launch the output array is the
    epilogue of the four input arrays as the launch finds them. -/
theorem conv6_value (c : Dev nD) :
    (dat6 (F := Ideal) V c).arrAt 4 cfg6.N = Cert.Spec.convFn (V c main_v169) (V c main_v170) (V c main_v154) (V c main_v171) :=
  (dat6 (F := Ideal) V c).arrAt_eq_of_cover 4 (Cert.Spec.convFn (V c main_v169) (V c main_v170) (V c main_v154) (V c main_v171))
    (fun t _ => conv6_flushed V c t) fun i => by
      have hN : cfg6.N = 25 := N_6
      have hi0 : (i 0).val < 50000 := (i 0).isLt
      have hi1 : (i 1).val < 128 := (i 1).isLt
      have ht : (i 0).val / 2000 < cfg6.N := by omega
      obtain ⟨-, -, -, -, -, -, -, -, e0, e1⟩ := conv6_idx ⟨(i 0).val / 2000, ht⟩
      refine ⟨⟨(i 0).val / 2000, ht⟩, flush6_4 _, ?_⟩
      show i ∈ ((View.whole (Pipeline.arrRef spec6 4)).slice (win6_4.rect ⟨(i 0).val / 2000, ht⟩)).set
      rw [View.set_slice_whole, Rect.mem_set_unit]
      intro a
      match a with
      | ⟨0, _⟩ =>
        show win6_4.index ⟨(i 0).val / 2000, ht⟩ (0 : Fin 2) * 2000 ≤ (i 0).val
          ∧ (i 0).val < win6_4.index ⟨(i 0).val / 2000, ht⟩ (0 : Fin 2) * 2000 + 2000
        rw [e0]; show (i 0).val / 2000 * 2000 ≤ (i 0).val ∧ (i 0).val < (i 0).val / 2000 * 2000 + 2000; omega
      | ⟨1, _⟩ =>
        show win6_4.index ⟨(i 0).val / 2000, ht⟩ (1 : Fin 2) * 128 ≤ (i 1).val
          ∧ (i 1).val < win6_4.index ⟨(i 0).val / 2000, ht⟩ (1 : Fin 2) * 128 + 128
        rw [e1]; omega

end Cert.KernelIdeal.Hand

end
-- ==== Proof.KernelIdeal.ConvValue7.lean ====
/-
  The value of the graph-convolution epilogue, launch 7, at ideal (extended-real) values. The body's arithmetic at entry
  (p, q) of a tile is the sum over k of (tile(p, k) · scale(p, 0)) · weight(k, q), plus bias(0, q): the casts keep their
  shapes, the scale's column is laid along every column, the product accumulates into zero, the bias's row is laid along
  every row. At grid point t the feature tile and the scale tile are rows 2000 t … 2000 t + 1999 of their arrays, the
  weight and bias blocks are the whole arrays, and the point writes back the same rows of the output; the 25 row tiles
  cover the 50000 rows. So after the launch the output array is `Cert.Spec.convFn` of the four input arrays as the launch
  finds them.
-/
import proofs.«418080_j49366354100286_4_alg».proof.Proof.KernelIdeal.Conv7
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic at an entry -/

/-- A column `[a, 1]` broadcast to `[a, b]` reads, at `(p, c)`, the column's entry of row `p`. -/
theorem conv7_column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row and the contraction coordinate, -/
theorem conv7_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem conv7_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- and its right operand at the contraction coordinate and the output's column. -/
theorem conv7_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem conv7_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product into a zero accumulator, at ideal values: entry `(p, q)` is the sum over `k` of the
    left operand's `(p, k)` times the right operand's `(k, q)`. -/
theorem conv7_matmul_apply (l : FVec Ideal S2000x128 .f32) (r : FVec Ideal S128x128 .f32) (p : Fin 2000) (q : Fin 128) :
    matmul (F := Ideal) dot_S2000x128_S128x128_S2000x128_1_0_0_1_n_n (some .fp32) l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n (some .fp32) l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact conv7_lhs_0 _ _
    | ⟨1, _⟩ => exact (conv7_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (conv7_rhs_0 _ _).trans hk
    | ⟨1, _⟩ => exact conv7_rhs_1 _ _)
  rw [el, er]

/-- The body's arithmetic at an entry, at ideal values: the tile's row `p` scaled by that row's scale, times the weight's
    column `q`, plus the bias at `q`. -/
theorem conv7_payload_apply (x0 : Vec Ideal S2000x128 .f32) (x1 : Vec Ideal S2000x1 .f32) (x2 : Vec Ideal S128x128 .f32)
    (x3 : Vec Ideal S1x128 .f32) (p : Fin 2000) (q : Fin 128) :
    k7_pay1 (F := Ideal) x0 x1 x2 x3 (ix2 p q)
      = (∑ k : Fin 128, (x0 (ix2 p k) * x1 (ix2 p (0 : Fin 1))) * x2 (ix2 k q)) + x3 (ix2 (0 : Fin 1) q) := by
  unfold k7_pay1
  simp only [shapeCast_self]
  refine (addf_apply _ _ _).trans ?_
  refine congrArg₂ (· + ·) ?_ (broadcastTo_1b_ab_apply x3 broadcasts_S1x128_S2000x128 p q)
  refine (conv7_matmul_apply _ x2 p q).trans ?_
  refine Finset.sum_congr rfl fun k _ => ?_
  refine congrArg (· * x2 (ix2 k q)) ?_
  refine (mulf_apply _ _ _).trans ?_
  exact congrArg (x0 (ix2 p k) * ·) (conv7_column_broadcast_apply x1 broadcasts_S2000x1_S2000x128 p k)

/-! ## What one grid point writes back -/

theorem conv7_zero_offsets : (![0, 0] : Fin 2 → Nat) = fun _ => 0 := funext fun a => by fin_cases a <;> rfl

/-- The printed index maps, decided over the 25 grid points: at point `t` the feature tile, the scale tile and the output
    tile are the `t`-th row tiles of their arrays, and the weight and the bias are whole. -/
theorem conv7_idx : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

variable (V : (c : Dev nD) → (b : Ref sig .tc) → Buf (Elt Ideal) ((c : Thread nD τ).loc b))

/-- The feature tile at point `t` is rows `2000 t … 2000 t + 1999` of the aggregated features. -/
theorem conv7_features_apply (c : Dev nD) (t : Fin cfg7.N) (p : Fin 2000) (k : Fin 128) (r : Fin 50000)
    (hr : r.val = t.val * 2000 + p.val) :
    (iblk7 V c 0 t : Vec Ideal S2000x128 .f32) (ix2 p k) = (V c main_v194 : S50000x128.Idx → EReal) (ix2 r k) := by
  obtain ⟨e0, e1, -⟩ := conv7_idx t
  show V c main_v194 (((cfg7.win 0).blk t).view.emb (ix2 p k)) = V c main_v194 (ix2 r k)
  refine congrArg (V c main_v194) (funext fun a => Fin.ext ?_)
  match a with
  | ⟨0, _⟩ => show win7_0.index t (0 : Fin 2) * 2000 + 1 * p.val = r.val; omega
  | ⟨1, _⟩ => show win7_0.index t (1 : Fin 2) * 128 + 1 * k.val = k.val; omega

/-- The scale tile at point `t` is the same rows of the degree scale. -/
theorem conv7_scale_apply (c : Dev nD) (t : Fin cfg7.N) (p : Fin 2000) (r : Fin 50000)
    (hr : r.val = t.val * 2000 + p.val) :
    (iblk7 V c 1 t : Vec Ideal S2000x1 .f32) (ix2 p (0 : Fin 1)) = (V c main_v195 : S50000x1.Idx → EReal) (ix2 r (0 : Fin 1)) := by
  obtain ⟨-, -, e0, e1, -⟩ := conv7_idx t
  show V c main_v195 (((cfg7.win 1).blk t).view.emb (ix2 p (0 : Fin 1))) = V c main_v195 (ix2 r (0 : Fin 1))
  refine congrArg (V c main_v195) (funext fun a => Fin.ext ?_)
  match a with
  | ⟨0, _⟩ => show win7_1.index t (0 : Fin 2) * 2000 + 1 * p.val = r.val; omega
  | ⟨1, _⟩ => show win7_1.index t (1 : Fin 2) * 1 + 1 * 0 = 0; omega

/-- The weight block at every point is the whole weight, -/
theorem conv7_weight_apply (c : Dev nD) (t : Fin cfg7.N) (k : Fin 128) (q : Fin 128) :
    (iblk7 V c 2 t : Vec Ideal S128x128 .f32) (ix2 k q) = (V c main_v179 : S128x128.Idx → EReal) (ix2 k q) := by
  obtain ⟨-, -, -, -, e0, e1, -⟩ := conv7_idx t
  show V c main_v179 (((cfg7.win 2).blk t).view.emb (ix2 k q)) = V c main_v179 (ix2 k q)
  refine congrArg (V c main_v179) (funext fun a => Fin.ext ?_)
  match a with
  | ⟨0, _⟩ => show win7_2.index t (0 : Fin 2) * 128 + 1 * k.val = k.val; omega
  | ⟨1, _⟩ => show win7_2.index t (1 : Fin 2) * 128 + 1 * q.val = q.val; omega

/-- and the bias block the whole bias. -/
theorem conv7_bias_apply (c : Dev nD) (t : Fin cfg7.N) (q : Fin 128) :
    (iblk7 V c 3 t : Vec Ideal S1x128 .f32) (ix2 (0 : Fin 1) q) = (V c main_v196 : S1x128.Idx → EReal) (ix2 (0 : Fin 1) q) := by
  obtain ⟨-, -, -, -, -, -, e0, e1, -⟩ := conv7_idx t
  show V c main_v196 (((cfg7.win 3).blk t).view.emb (ix2 (0 : Fin 1) q)) = V c main_v196 (ix2 (0 : Fin 1) q)
  refine congrArg (V c main_v196) (funext fun a => Fin.ext ?_)
  match a with
  | ⟨0, _⟩ => show win7_3.index t (0 : Fin 2) * 1 + 1 * 0 = 0; omega
  | ⟨1, _⟩ => show win7_3.index t (1 : Fin 2) * 128 + 1 * q.val = q.val; omega

/-- The body's result on four blocks that agree, entry by entry, with row `r` of the features, the scale at row `r`,
    the weight and the bias, is the epilogue's entry `(r, q)`. -/
theorem conv7_tile_apply (a : S50000x128.Idx → EReal) (s : S50000x1.Idx → EReal) (w : S128x128.Idx → EReal) (b : S1x128.Idx → EReal)
    (x0 : Vec Ideal S2000x128 .f32) (x1 : Vec Ideal S2000x1 .f32) (x2 : Vec Ideal S128x128 .f32) (x3 : Vec Ideal S1x128 .f32)
    (p : Fin 2000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k7_pay1 (F := Ideal) x0 x1 x2 x3 (ix2 p q) = Cert.Spec.convAt a s w b r q := by
  refine (conv7_payload_apply x0 x1 x2 x3 p q).trans ?_
  unfold Cert.Spec.convAt
  rw [h1, h3]
  exact congrArg (· + b (ix2 (0 : Fin 1) q)) (Finset.sum_congr rfl fun k _ => by rw [h0 k, h2 k])

/-- What point `t` writes back is block `t` of the epilogue of the arrays as the launch finds them. -/
theorem conv7_flushed (c : Dev nD) (t : Fin cfg7.N) :
    (dat7 (F := Ideal) V c).flushed 4 t
      = ((cfg7.win 4).blk t).view.read (Elt Ideal) (Cert.Spec.convFn (V c main_v194) (V c main_v195) (V c main_v179) (V c main_v196)) := by
  show (cfg7.win 4).cut (grid7.coords t) ((dat7 V c).after 4 t) = _
  rw [after7_4]
  unfold out7_4
  rw [View.canon_unit_zero conv7_zero_offsets]
  simp only [View.ld_unit_zero (S := S2000x128) conv7_zero_offsets, View.ld_unit_zero (S := S2000x1) conv7_zero_offsets,
    View.ld_unit_zero (S := S128x128) conv7_zero_offsets, View.ld_unit_zero (S := S1x128) conv7_zero_offsets]
  obtain ⟨-, -, -, -, -, -, -, -, e0, e1⟩ := conv7_idx t
  have hN : cfg7.N = 25 := N_7
  funext j
  have hj0 : (j 0).val < 2000 := (j 0).isLt
  have hj1 : (j 1).val < 128 := (j 1).isLt
  have hr : t.val * 2000 + (j 0).val < 50000 := by have := t.isLt; omega
  have hx : (cfg7.win 4).xinj (grid7.coords t) j = ix2 (⟨(j 0).val, hj0⟩ : Fin 2000) (⟨(j 1).val, hj1⟩ : Fin 128) :=
    funext fun a => by match a with | ⟨0, _⟩ => rfl | ⟨1, _⟩ => rfl
  have hy : ((cfg7.win 4).blk t).view.emb j = ix2 (⟨t.val * 2000 + (j 0).val, hr⟩ : Fin 50000) (⟨(j 1).val, hj1⟩ : Fin 128) :=
    funext fun a => Fin.ext (by
      match a with
      | ⟨0, _⟩ => show win7_4.index t (0 : Fin 2) * 2000 + 1 * (j 0).val = t.val * 2000 + (j 0).val; omega
      | ⟨1, _⟩ => show win7_4.index t (1 : Fin 2) * 128 + 1 * (j 1).val = (j 1).val; omega)
  show k7_pay1 (F := Ideal) (iblk7 V c 0 t) (iblk7 V c 1 t) (iblk7 V c 2 t) (iblk7 V c 3 t) ((cfg7.win 4).xinj (grid7.coords t) j)
    = Cert.Spec.convFn (V c main_v194) (V c main_v195) (V c main_v179) (V c main_v196) (((cfg7.win 4).blk t).view.emb j)
  rw [hx, hy]
  exact conv7_tile_apply (V c main_v194) (V c main_v195) (V c main_v179) (V c main_v196)
    (iblk7 V c 0 t) (iblk7 V c 1 t) (iblk7 V c 2 t) (iblk7 V c 3 t) ⟨(j 0).val, hj0⟩ ⟨(j 1).val, hj1⟩ ⟨t.val * 2000 + (j 0).val, hr⟩
    (fun k => conv7_features_apply V c t ⟨(j 0).val, hj0⟩ k ⟨t.val * 2000 + (j 0).val, hr⟩ rfl)
    (conv7_scale_apply V c t ⟨(j 0).val, hj0⟩ ⟨t.val * 2000 + (j 0).val, hr⟩ rfl)
    (fun k => conv7_weight_apply V c t k ⟨(j 1).val, hj1⟩)
    (conv7_bias_apply V c t ⟨(j 1).val, hj1⟩)

/-! ## The array after the launch -/

/-- The 25 row tiles cover the output (row `r` is in tile `r / 2000`), so after the launch the output array is the
    epilogue of the four input arrays as the launch finds them. -/
theorem conv7_value (c : Dev nD) :
    (dat7 (F := Ideal) V c).arrAt 4 cfg7.N = Cert.Spec.convFn (V c main_v194) (V c main_v195) (V c main_v179) (V c main_v196) :=
  (dat7 (F := Ideal) V c).arrAt_eq_of_cover 4 (Cert.Spec.convFn (V c main_v194) (V c main_v195) (V c main_v179) (V c main_v196))
    (fun t _ => conv7_flushed V c t) fun i => by
      have hN : cfg7.N = 25 := N_7
      have hi0 : (i 0).val < 50000 := (i 0).isLt
      have hi1 : (i 1).val < 128 := (i 1).isLt
      have ht : (i 0).val / 2000 < cfg7.N := by omega
      obtain ⟨-, -, -, -, -, -, -, -, e0, e1⟩ := conv7_idx ⟨(i 0).val / 2000, ht⟩
      refine ⟨⟨(i 0).val / 2000, ht⟩, flush7_4 _, ?_⟩
      show i ∈ ((View.whole (Pipeline.arrRef spec7 4)).slice (win7_4.rect ⟨(i 0).val / 2000, ht⟩)).set
      rw [View.set_slice_whole, Rect.mem_set_unit]
      intro a
      match a with
      | ⟨0, _⟩ =>
        show win7_4.index ⟨(i 0).val / 2000, ht⟩ (0 : Fin 2) * 2000 ≤ (i 0).val
          ∧ (i 0).val < win7_4.index ⟨(i 0).val / 2000, ht⟩ (0 : Fin 2) * 2000 + 2000
        rw [e0]; show (i 0).val / 2000 * 2000 ≤ (i 0).val ∧ (i 0).val < (i 0).val / 2000 * 2000 + 2000; omega
      | ⟨1, _⟩ =>
        show win7_4.index ⟨(i 0).val / 2000, ht⟩ (1 : Fin 2) * 128 ≤ (i 1).val
          ∧ (i 1).val < win7_4.index ⟨(i 0).val / 2000, ht⟩ (1 : Fin 2) * 128 + 128
        rw [e1]; omega

end Cert.KernelIdeal.Hand

end
-- ==== Proof.KernelIdeal.ConvValue8.lean ====
/-
  The value of the graph-convolution epilogue, launch 8, at ideal (extended-real) values. The body's arithmetic at entry
  (p, q) of a tile is the sum over k of (tile(p, k) · scale(p, 0)) · weight(k, q), plus bias(0, q): the casts keep their
  shapes, the scale's column is laid along every column, the product accumulates into zero, the bias's row is laid along
  every row. At grid point t the feature tile and the scale tile are rows 2000 t … 2000 t + 1999 of their arrays, the
  weight and bias blocks are the whole arrays, and the point writes back the same rows of the output; the 25 row tiles
  cover the 50000 rows. So after the launch the output array is `Cert.Spec.convFn` of the four input arrays as the launch
  finds them.
-/
import proofs.«418080_j49366354100286_4_alg».proof.Proof.KernelIdeal.Conv8
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic at an entry -/

/-- A column `[a, 1]` broadcast to `[a, b]` reads, at `(p, c)`, the column's entry of row `p`. -/
theorem conv8_column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row and the contraction coordinate, -/
theorem conv8_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem conv8_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- and its right operand at the contraction coordinate and the output's column. -/
theorem conv8_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem conv8_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product into a zero accumulator, at ideal values: entry `(p, q)` is the sum over `k` of the
    left operand's `(p, k)` times the right operand's `(k, q)`. -/
theorem conv8_matmul_apply (l : FVec Ideal S2000x128 .f32) (r : FVec Ideal S128x128 .f32) (p : Fin 2000) (q : Fin 128) :
    matmul (F := Ideal) dot_S2000x128_S128x128_S2000x128_1_0_0_1_n_n (some .fp32) l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n (some .fp32) l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact conv8_lhs_0 _ _
    | ⟨1, _⟩ => exact (conv8_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (conv8_rhs_0 _ _).trans hk
    | ⟨1, _⟩ => exact conv8_rhs_1 _ _)
  rw [el, er]

/-- The body's arithmetic at an entry, at ideal values: the tile's row `p` scaled by that row's scale, times the weight's
    column `q`, plus the bias at `q`. -/
theorem conv8_payload_apply (x0 : Vec Ideal S2000x128 .f32) (x1 : Vec Ideal S2000x1 .f32) (x2 : Vec Ideal S128x128 .f32)
    (x3 : Vec Ideal S1x128 .f32) (p : Fin 2000) (q : Fin 128) :
    k8_pay1 (F := Ideal) x0 x1 x2 x3 (ix2 p q)
      = (∑ k : Fin 128, (x0 (ix2 p k) * x1 (ix2 p (0 : Fin 1))) * x2 (ix2 k q)) + x3 (ix2 (0 : Fin 1) q) := by
  unfold k8_pay1
  simp only [shapeCast_self]
  refine (addf_apply _ _ _).trans ?_
  refine congrArg₂ (· + ·) ?_ (broadcastTo_1b_ab_apply x3 broadcasts_S1x128_S2000x128 p q)
  refine (conv8_matmul_apply _ x2 p q).trans ?_
  refine Finset.sum_congr rfl fun k _ => ?_
  refine congrArg (· * x2 (ix2 k q)) ?_
  refine (mulf_apply _ _ _).trans ?_
  exact congrArg (x0 (ix2 p k) * ·) (conv8_column_broadcast_apply x1 broadcasts_S2000x1_S2000x128 p k)

/-! ## What one grid point writes back -/

theorem conv8_zero_offsets : (![0, 0] : Fin 2 → Nat) = fun _ => 0 := funext fun a => by fin_cases a <;> rfl

/-- The printed index maps, decided over the 25 grid points: at point `t` the feature tile, the scale tile and the output
    tile are the `t`-th row tiles of their arrays, and the weight and the bias are whole. -/
theorem conv8_idx : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

variable (V : (c : Dev nD) → (b : Ref sig .tc) → Buf (Elt Ideal) ((c : Thread nD τ).loc b))

/-- The feature tile at point `t` is rows `2000 t … 2000 t + 1999` of the aggregated features. -/
theorem conv8_features_apply (c : Dev nD) (t : Fin cfg8.N) (p : Fin 2000) (k : Fin 128) (r : Fin 50000)
    (hr : r.val = t.val * 2000 + p.val) :
    (iblk8 V c 0 t : Vec Ideal S2000x128 .f32) (ix2 p k) = (V c main_v219 : S50000x128.Idx → EReal) (ix2 r k) := by
  obtain ⟨e0, e1, -⟩ := conv8_idx t
  show V c main_v219 (((cfg8.win 0).blk t).view.emb (ix2 p k)) = V c main_v219 (ix2 r k)
  refine congrArg (V c main_v219) (funext fun a => Fin.ext ?_)
  match a with
  | ⟨0, _⟩ => show win8_0.index t (0 : Fin 2) * 2000 + 1 * p.val = r.val; omega
  | ⟨1, _⟩ => show win8_0.index t (1 : Fin 2) * 128 + 1 * k.val = k.val; omega

/-- The scale tile at point `t` is the same rows of the degree scale. -/
theorem conv8_scale_apply (c : Dev nD) (t : Fin cfg8.N) (p : Fin 2000) (r : Fin 50000)
    (hr : r.val = t.val * 2000 + p.val) :
    (iblk8 V c 1 t : Vec Ideal S2000x1 .f32) (ix2 p (0 : Fin 1)) = (V c main_v220 : S50000x1.Idx → EReal) (ix2 r (0 : Fin 1)) := by
  obtain ⟨-, -, e0, e1, -⟩ := conv8_idx t
  show V c main_v220 (((cfg8.win 1).blk t).view.emb (ix2 p (0 : Fin 1))) = V c main_v220 (ix2 r (0 : Fin 1))
  refine congrArg (V c main_v220) (funext fun a => Fin.ext ?_)
  match a with
  | ⟨0, _⟩ => show win8_1.index t (0 : Fin 2) * 2000 + 1 * p.val = r.val; omega
  | ⟨1, _⟩ => show win8_1.index t (1 : Fin 2) * 1 + 1 * 0 = 0; omega

/-- The weight block at every point is the whole weight, -/
theorem conv8_weight_apply (c : Dev nD) (t : Fin cfg8.N) (k : Fin 128) (q : Fin 128) :
    (iblk8 V c 2 t : Vec Ideal S128x128 .f32) (ix2 k q) = (V c main_v204 : S128x128.Idx → EReal) (ix2 k q) := by
  obtain ⟨-, -, -, -, e0, e1, -⟩ := conv8_idx t
  show V c main_v204 (((cfg8.win 2).blk t).view.emb (ix2 k q)) = V c main_v204 (ix2 k q)
  refine congrArg (V c main_v204) (funext fun a => Fin.ext ?_)
  match a with
  | ⟨0, _⟩ => show win8_2.index t (0 : Fin 2) * 128 + 1 * k.val = k.val; omega
  | ⟨1, _⟩ => show win8_2.index t (1 : Fin 2) * 128 + 1 * q.val = q.val; omega

/-- and the bias block the whole bias. -/
theorem conv8_bias_apply (c : Dev nD) (t : Fin cfg8.N) (q : Fin 128) :
    (iblk8 V c 3 t : Vec Ideal S1x128 .f32) (ix2 (0 : Fin 1) q) = (V c main_v221 : S1x128.Idx → EReal) (ix2 (0 : Fin 1) q) := by
  obtain ⟨-, -, -, -, -, -, e0, e1, -⟩ := conv8_idx t
  show V c main_v221 (((cfg8.win 3).blk t).view.emb (ix2 (0 : Fin 1) q)) = V c main_v221 (ix2 (0 : Fin 1) q)
  refine congrArg (V c main_v221) (funext fun a => Fin.ext ?_)
  match a with
  | ⟨0, _⟩ => show win8_3.index t (0 : Fin 2) * 1 + 1 * 0 = 0; omega
  | ⟨1, _⟩ => show win8_3.index t (1 : Fin 2) * 128 + 1 * q.val = q.val; omega

/-- The body's result on four blocks that agree, entry by entry, with row `r` of the features, the scale at row `r`,
    the weight and the bias, is the epilogue's entry `(r, q)`. -/
theorem conv8_tile_apply (a : S50000x128.Idx → EReal) (s : S50000x1.Idx → EReal) (w : S128x128.Idx → EReal) (b : S1x128.Idx → EReal)
    (x0 : Vec Ideal S2000x128 .f32) (x1 : Vec Ideal S2000x1 .f32) (x2 : Vec Ideal S128x128 .f32) (x3 : Vec Ideal S1x128 .f32)
    (p : Fin 2000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k8_pay1 (F := Ideal) x0 x1 x2 x3 (ix2 p q) = Cert.Spec.convAt a s w b r q := by
  refine (conv8_payload_apply x0 x1 x2 x3 p q).trans ?_
  unfold Cert.Spec.convAt
  rw [h1, h3]
  exact congrArg (· + b (ix2 (0 : Fin 1) q)) (Finset.sum_congr rfl fun k _ => by rw [h0 k, h2 k])

/-- What point `t` writes back is block `t` of the epilogue of the arrays as the launch finds them. -/
theorem conv8_flushed (c : Dev nD) (t : Fin cfg8.N) :
    (dat8 (F := Ideal) V c).flushed 4 t
      = ((cfg8.win 4).blk t).view.read (Elt Ideal) (Cert.Spec.convFn (V c main_v219) (V c main_v220) (V c main_v204) (V c main_v221)) := by
  show (cfg8.win 4).cut (grid8.coords t) ((dat8 V c).after 4 t) = _
  rw [after8_4]
  unfold out8_4
  rw [View.canon_unit_zero conv8_zero_offsets]
  simp only [View.ld_unit_zero (S := S2000x128) conv8_zero_offsets, View.ld_unit_zero (S := S2000x1) conv8_zero_offsets,
    View.ld_unit_zero (S := S128x128) conv8_zero_offsets, View.ld_unit_zero (S := S1x128) conv8_zero_offsets]
  obtain ⟨-, -, -, -, -, -, -, -, e0, e1⟩ := conv8_idx t
  have hN : cfg8.N = 25 := N_8
  funext j
  have hj0 : (j 0).val < 2000 := (j 0).isLt
  have hj1 : (j 1).val < 128 := (j 1).isLt
  have hr : t.val * 2000 + (j 0).val < 50000 := by have := t.isLt; omega
  have hx : (cfg8.win 4).xinj (grid8.coords t) j = ix2 (⟨(j 0).val, hj0⟩ : Fin 2000) (⟨(j 1).val, hj1⟩ : Fin 128) :=
    funext fun a => by match a with | ⟨0, _⟩ => rfl | ⟨1, _⟩ => rfl
  have hy : ((cfg8.win 4).blk t).view.emb j = ix2 (⟨t.val * 2000 + (j 0).val, hr⟩ : Fin 50000) (⟨(j 1).val, hj1⟩ : Fin 128) :=
    funext fun a => Fin.ext (by
      match a with
      | ⟨0, _⟩ => show win8_4.index t (0 : Fin 2) * 2000 + 1 * (j 0).val = t.val * 2000 + (j 0).val; omega
      | ⟨1, _⟩ => show win8_4.index t (1 : Fin 2) * 128 + 1 * (j 1).val = (j 1).val; omega)
  show k8_pay1 (F := Ideal) (iblk8 V c 0 t) (iblk8 V c 1 t) (iblk8 V c 2 t) (iblk8 V c 3 t) ((cfg8.win 4).xinj (grid8.coords t) j)
    = Cert.Spec.convFn (V c main_v219) (V c main_v220) (V c main_v204) (V c main_v221) (((cfg8.win 4).blk t).view.emb j)
  rw [hx, hy]
  exact conv8_tile_apply (V c main_v219) (V c main_v220) (V c main_v204) (V c main_v221)
    (iblk8 V c 0 t) (iblk8 V c 1 t) (iblk8 V c 2 t) (iblk8 V c 3 t) ⟨(j 0).val, hj0⟩ ⟨(j 1).val, hj1⟩ ⟨t.val * 2000 + (j 0).val, hr⟩
    (fun k => conv8_features_apply V c t ⟨(j 0).val, hj0⟩ k ⟨t.val * 2000 + (j 0).val, hr⟩ rfl)
    (conv8_scale_apply V c t ⟨(j 0).val, hj0⟩ ⟨t.val * 2000 + (j 0).val, hr⟩ rfl)
    (fun k => conv8_weight_apply V c t k ⟨(j 1).val, hj1⟩)
    (conv8_bias_apply V c t ⟨(j 1).val, hj1⟩)

/-! ## The array after the launch -/

/-- The 25 row tiles cover the output (row `r` is in tile `r / 2000`), so after the launch the output array is the
    epilogue of the four input arrays as the launch finds them. -/
theorem conv8_value (c : Dev nD) :
    (dat8 (F := Ideal) V c).arrAt 4 cfg8.N = Cert.Spec.convFn (V c main_v219) (V c main_v220) (V c main_v204) (V c main_v221) :=
  (dat8 (F := Ideal) V c).arrAt_eq_of_cover 4 (Cert.Spec.convFn (V c main_v219) (V c main_v220) (V c main_v204) (V c main_v221))
    (fun t _ => conv8_flushed V c t) fun i => by
      have hN : cfg8.N = 25 := N_8
      have hi0 : (i 0).val < 50000 := (i 0).isLt
      have hi1 : (i 1).val < 128 := (i 1).isLt
      have ht : (i 0).val / 2000 < cfg8.N := by omega
      obtain ⟨-, -, -, -, -, -, -, -, e0, e1⟩ := conv8_idx ⟨(i 0).val / 2000, ht⟩
      refine ⟨⟨(i 0).val / 2000, ht⟩, flush8_4 _, ?_⟩
      show i ∈ ((View.whole (Pipeline.arrRef spec8 4)).slice (win8_4.rect ⟨(i 0).val / 2000, ht⟩)).set
      rw [View.set_slice_whole, Rect.mem_set_unit]
      intro a
      match a with
      | ⟨0, _⟩ =>
        show win8_4.index ⟨(i 0).val / 2000, ht⟩ (0 : Fin 2) * 2000 ≤ (i 0).val
          ∧ (i 0).val < win8_4.index ⟨(i 0).val / 2000, ht⟩ (0 : Fin 2) * 2000 + 2000
        rw [e0]; show (i 0).val / 2000 * 2000 ≤ (i 0).val ∧ (i 0).val < (i 0).val / 2000 * 2000 + 2000; omega
      | ⟨1, _⟩ =>
        show win8_4.index ⟨(i 0).val / 2000, ht⟩ (1 : Fin 2) * 128 ≤ (i 1).val
          ∧ (i 1).val < win8_4.index ⟨(i 0).val / 2000, ht⟩ (1 : Fin 2) * 128 + 128
        rw [e1]; omega

end Cert.KernelIdeal.Hand

end
-- ==== Proof.KernelIdeal.ConvValue10.lean ====
/-
  The value of the graph-convolution epilogue, launch 10, at ideal (extended-real) values. The body's arithmetic at entry
  (p, q) of a tile is the sum over k of (tile(p, k) · scale(p, 0)) · weight(k, q), plus bias(0, q): the casts keep their
  shapes, the scale's column is laid along every column, the product accumulates into zero, the bias's row is laid along
  every row. At grid point t the feature tile and the scale tile are rows 2000 t … 2000 t + 1999 of their arrays, the
  weight and bias blocks are the whole arrays, and the point writes back the same rows of the output; the 25 row tiles
  cover the 50000 rows. So after the launch the output array is `Cert.Spec.convFn` of the four input arrays as the launch
  finds them.
-/
import proofs.«418080_j49366354100286_4_alg».proof.Proof.KernelIdeal.Conv10
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic at an entry -/

/-- A column `[a, 1]` broadcast to `[a, b]` reads, at `(p, c)`, the column's entry of row `p`. -/
theorem conv10_column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row and the contraction coordinate, -/
theorem conv10_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem conv10_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- and its right operand at the contraction coordinate and the output's column. -/
theorem conv10_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem conv10_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product into a zero accumulator, at ideal values: entry `(p, q)` is the sum over `k` of the
    left operand's `(p, k)` times the right operand's `(k, q)`. -/
theorem conv10_matmul_apply (l : FVec Ideal S2000x128 .f32) (r : FVec Ideal S128x128 .f32) (p : Fin 2000) (q : Fin 128) :
    matmul (F := Ideal) dot_S2000x128_S128x128_S2000x128_1_0_0_1_n_n (some .fp32) l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n (some .fp32) l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact conv10_lhs_0 _ _
    | ⟨1, _⟩ => exact (conv10_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (conv10_rhs_0 _ _).trans hk
    | ⟨1, _⟩ => exact conv10_rhs_1 _ _)
  rw [el, er]

/-- The body's arithmetic at an entry, at ideal values: the tile's row `p` scaled by that row's scale, times the weight's
    column `q`, plus the bias at `q`. -/
theorem conv10_payload_apply (x0 : Vec Ideal S2000x128 .f32) (x1 : Vec Ideal S2000x1 .f32) (x2 : Vec Ideal S128x128 .f32)
    (x3 : Vec Ideal S1x128 .f32) (p : Fin 2000) (q : Fin 128) :
    k10_pay1 (F := Ideal) x0 x1 x2 x3 (ix2 p q)
      = (∑ k : Fin 128, (x0 (ix2 p k) * x1 (ix2 p (0 : Fin 1))) * x2 (ix2 k q)) + x3 (ix2 (0 : Fin 1) q) := by
  unfold k10_pay1
  simp only [shapeCast_self]
  refine (addf_apply _ _ _).trans ?_
  refine congrArg₂ (· + ·) ?_ (broadcastTo_1b_ab_apply x3 broadcasts_S1x128_S2000x128 p q)
  refine (conv10_matmul_apply _ x2 p q).trans ?_
  refine Finset.sum_congr rfl fun k _ => ?_
  refine congrArg (· * x2 (ix2 k q)) ?_
  refine (mulf_apply _ _ _).trans ?_
  exact congrArg (x0 (ix2 p k) * ·) (conv10_column_broadcast_apply x1 broadcasts_S2000x1_S2000x128 p k)

/-! ## What one grid point writes back -/

theorem conv10_zero_offsets : (![0, 0] : Fin 2 → Nat) = fun _ => 0 := funext fun a => by fin_cases a <;> rfl

/-- The printed index maps, decided over the 25 grid points: at point `t` the feature tile, the scale tile and the output
    tile are the `t`-th row tiles of their arrays, and the weight and the bias are whole. -/
theorem conv10_idx : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

variable (V : (c : Dev nD) → (b : Ref sig .tc) → Buf (Elt Ideal) ((c : Thread nD τ).loc b))

/-- The feature tile at point `t` is rows `2000 t … 2000 t + 1999` of the aggregated features. -/
theorem conv10_features_apply (c : Dev nD) (t : Fin cfg10.N) (p : Fin 2000) (k : Fin 128) (r : Fin 50000)
    (hr : r.val = t.val * 2000 + p.val) :
    (iblk10 V c 0 t : Vec Ideal S2000x128 .f32) (ix2 p k) = (V c main_v281 : S50000x128.Idx → EReal) (ix2 r k) := by
  obtain ⟨e0, e1, -⟩ := conv10_idx t
  show V c main_v281 (((cfg10.win 0).blk t).view.emb (ix2 p k)) = V c main_v281 (ix2 r k)
  refine congrArg (V c main_v281) (funext fun a => Fin.ext ?_)
  match a with
  | ⟨0, _⟩ => show win10_0.index t (0 : Fin 2) * 2000 + 1 * p.val = r.val; omega
  | ⟨1, _⟩ => show win10_0.index t (1 : Fin 2) * 128 + 1 * k.val = k.val; omega

/-- The scale tile at point `t` is the same rows of the degree scale. -/
theorem conv10_scale_apply (c : Dev nD) (t : Fin cfg10.N) (p : Fin 2000) (r : Fin 50000)
    (hr : r.val = t.val * 2000 + p.val) :
    (iblk10 V c 1 t : Vec Ideal S2000x1 .f32) (ix2 p (0 : Fin 1)) = (V c main_v282 : S50000x1.Idx → EReal) (ix2 r (0 : Fin 1)) := by
  obtain ⟨-, -, e0, e1, -⟩ := conv10_idx t
  show V c main_v282 (((cfg10.win 1).blk t).view.emb (ix2 p (0 : Fin 1))) = V c main_v282 (ix2 r (0 : Fin 1))
  refine congrArg (V c main_v282) (funext fun a => Fin.ext ?_)
  match a with
  | ⟨0, _⟩ => show win10_1.index t (0 : Fin 2) * 2000 + 1 * p.val = r.val; omega
  | ⟨1, _⟩ => show win10_1.index t (1 : Fin 2) * 1 + 1 * 0 = 0; omega

/-- The weight block at every point is the whole weight, -/
theorem conv10_weight_apply (c : Dev nD) (t : Fin cfg10.N) (k : Fin 128) (q : Fin 128) :
    (iblk10 V c 2 t : Vec Ideal S128x128 .f32) (ix2 k q) = (V c main_v266 : S128x128.Idx → EReal) (ix2 k q) := by
  obtain ⟨-, -, -, -, e0, e1, -⟩ := conv10_idx t
  show V c main_v266 (((cfg10.win 2).blk t).view.emb (ix2 k q)) = V c main_v266 (ix2 k q)
  refine congrArg (V c main_v266) (funext fun a => Fin.ext ?_)
  match a with
  | ⟨0, _⟩ => show win10_2.index t (0 : Fin 2) * 128 + 1 * k.val = k.val; omega
  | ⟨1, _⟩ => show win10_2.index t (1 : Fin 2) * 128 + 1 * q.val = q.val; omega

/-- and the bias block the whole bias. -/
theorem conv10_bias_apply (c : Dev nD) (t : Fin cfg10.N) (q : Fin 128) :
    (iblk10 V c 3 t : Vec Ideal S1x128 .f32) (ix2 (0 : Fin 1) q) = (V c main_v283 : S1x128.Idx → EReal) (ix2 (0 : Fin 1) q) := by
  obtain ⟨-, -, -, -, -, -, e0, e1, -⟩ := conv10_idx t
  show V c main_v283 (((cfg10.win 3).blk t).view.emb (ix2 (0 : Fin 1) q)) = V c main_v283 (ix2 (0 : Fin 1) q)
  refine congrArg (V c main_v283) (funext fun a => Fin.ext ?_)
  match a with
  | ⟨0, _⟩ => show win10_3.index t (0 : Fin 2) * 1 + 1 * 0 = 0; omega
  | ⟨1, _⟩ => show win10_3.index t (1 : Fin 2) * 128 + 1 * q.val = q.val; omega

/-- The body's result on four blocks that agree, entry by entry, with row `r` of the features, the scale at row `r`,
    the weight and the bias, is the epilogue's entry `(r, q)`. -/
theorem conv10_tile_apply (a : S50000x128.Idx → EReal) (s : S50000x1.Idx → EReal) (w : S128x128.Idx → EReal) (b : S1x128.Idx → EReal)
    (x0 : Vec Ideal S2000x128 .f32) (x1 : Vec Ideal S2000x1 .f32) (x2 : Vec Ideal S128x128 .f32) (x3 : Vec Ideal S1x128 .f32)
    (p : Fin 2000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k10_pay1 (F := Ideal) x0 x1 x2 x3 (ix2 p q) = Cert.Spec.convAt a s w b r q := by
  refine (conv10_payload_apply x0 x1 x2 x3 p q).trans ?_
  unfold Cert.Spec.convAt
  rw [h1, h3]
  exact congrArg (· + b (ix2 (0 : Fin 1) q)) (Finset.sum_congr rfl fun k _ => by rw [h0 k, h2 k])

/-- What point `t` writes back is block `t` of the epilogue of the arrays as the launch finds them. -/
theorem conv10_flushed (c : Dev nD) (t : Fin cfg10.N) :
    (dat10 (F := Ideal) V c).flushed 4 t
      = ((cfg10.win 4).blk t).view.read (Elt Ideal) (Cert.Spec.convFn (V c main_v281) (V c main_v282) (V c main_v266) (V c main_v283)) := by
  show (cfg10.win 4).cut (grid10.coords t) ((dat10 V c).after 4 t) = _
  rw [after10_4]
  unfold out10_4
  rw [View.canon_unit_zero conv10_zero_offsets]
  simp only [View.ld_unit_zero (S := S2000x128) conv10_zero_offsets, View.ld_unit_zero (S := S2000x1) conv10_zero_offsets,
    View.ld_unit_zero (S := S128x128) conv10_zero_offsets, View.ld_unit_zero (S := S1x128) conv10_zero_offsets]
  obtain ⟨-, -, -, -, -, -, -, -, e0, e1⟩ := conv10_idx t
  have hN : cfg10.N = 25 := N_10
  funext j
  have hj0 : (j 0).val < 2000 := (j 0).isLt
  have hj1 : (j 1).val < 128 := (j 1).isLt
  have hr : t.val * 2000 + (j 0).val < 50000 := by have := t.isLt; omega
  have hx : (cfg10.win 4).xinj (grid10.coords t) j = ix2 (⟨(j 0).val, hj0⟩ : Fin 2000) (⟨(j 1).val, hj1⟩ : Fin 128) :=
    funext fun a => by match a with | ⟨0, _⟩ => rfl | ⟨1, _⟩ => rfl
  have hy : ((cfg10.win 4).blk t).view.emb j = ix2 (⟨t.val * 2000 + (j 0).val, hr⟩ : Fin 50000) (⟨(j 1).val, hj1⟩ : Fin 128) :=
    funext fun a => Fin.ext (by
      match a with
      | ⟨0, _⟩ => show win10_4.index t (0 : Fin 2) * 2000 + 1 * (j 0).val = t.val * 2000 + (j 0).val; omega
      | ⟨1, _⟩ => show win10_4.index t (1 : Fin 2) * 128 + 1 * (j 1).val = (j 1).val; omega)
  show k10_pay1 (F := Ideal) (iblk10 V c 0 t) (iblk10 V c 1 t) (iblk10 V c 2 t) (iblk10 V c 3 t) ((cfg10.win 4).xinj (grid10.coords t) j)
    = Cert.Spec.convFn (V c main_v281) (V c main_v282) (V c main_v266) (V c main_v283) (((cfg10.win 4).blk t).view.emb j)
  rw [hx, hy]
  exact conv10_tile_apply (V c main_v281) (V c main_v282) (V c main_v266) (V c main_v283)
    (iblk10 V c 0 t) (iblk10 V c 1 t) (iblk10 V c 2 t) (iblk10 V c 3 t) ⟨(j 0).val, hj0⟩ ⟨(j 1).val, hj1⟩ ⟨t.val * 2000 + (j 0).val, hr⟩
    (fun k => conv10_features_apply V c t ⟨(j 0).val, hj0⟩ k ⟨t.val * 2000 + (j 0).val, hr⟩ rfl)
    (conv10_scale_apply V c t ⟨(j 0).val, hj0⟩ ⟨t.val * 2000 + (j 0).val, hr⟩ rfl)
    (fun k => conv10_weight_apply V c t k ⟨(j 1).val, hj1⟩)
    (conv10_bias_apply V c t ⟨(j 1).val, hj1⟩)

/-! ## The array after the launch -/

/-- The 25 row tiles cover the output (row `r` is in tile `r / 2000`), so after the launch the output array is the
    epilogue of the four input arrays as the launch finds them. -/
theorem conv10_value (c : Dev nD) :
    (dat10 (F := Ideal) V c).arrAt 4 cfg10.N = Cert.Spec.convFn (V c main_v281) (V c main_v282) (V c main_v266) (V c main_v283) :=
  (dat10 (F := Ideal) V c).arrAt_eq_of_cover 4 (Cert.Spec.convFn (V c main_v281) (V c main_v282) (V c main_v266) (V c main_v283))
    (fun t _ => conv10_flushed V c t) fun i => by
      have hN : cfg10.N = 25 := N_10
      have hi0 : (i 0).val < 50000 := (i 0).isLt
      have hi1 : (i 1).val < 128 := (i 1).isLt
      have ht : (i 0).val / 2000 < cfg10.N := by omega
      obtain ⟨-, -, -, -, -, -, -, -, e0, e1⟩ := conv10_idx ⟨(i 0).val / 2000, ht⟩
      refine ⟨⟨(i 0).val / 2000, ht⟩, flush10_4 _, ?_⟩
      show i ∈ ((View.whole (Pipeline.arrRef spec10 4)).slice (win10_4.rect ⟨(i 0).val / 2000, ht⟩)).set
      rw [View.set_slice_whole, Rect.mem_set_unit]
      intro a
      match a with
      | ⟨0, _⟩ =>
        show win10_4.index ⟨(i 0).val / 2000, ht⟩ (0 : Fin 2) * 2000 ≤ (i 0).val
          ∧ (i 0).val < win10_4.index ⟨(i 0).val / 2000, ht⟩ (0 : Fin 2) * 2000 + 2000
        rw [e0]; show (i 0).val / 2000 * 2000 ≤ (i 0).val ∧ (i 0).val < (i 0).val / 2000 * 2000 + 2000; omega
      | ⟨1, _⟩ =>
        show win10_4.index ⟨(i 0).val / 2000, ht⟩ (1 : Fin 2) * 128 ≤ (i 1).val
          ∧ (i 1).val < win10_4.index ⟨(i 0).val / 2000, ht⟩ (1 : Fin 2) * 128 + 128
        rw [e1]; omega

end Cert.KernelIdeal.Hand

end
-- ==== Proof.KernelIdeal.ConvValue11.lean ====
/-
  The value of the graph-convolution epilogue, launch 11, at ideal (extended-real) values. The body's arithmetic at entry
  (p, q) of a tile is the sum over k of (tile(p, k) · scale(p, 0)) · weight(k, q), plus bias(0, q): the casts keep their
  shapes, the scale's column is laid along every column, the product accumulates into zero, the bias's row is laid along
  every row. At grid point t the feature tile and the scale tile are rows 2000 t … 2000 t + 1999 of their arrays, the
  weight and bias blocks are the whole arrays, and the point writes back the same rows of the output; the 25 row tiles
  cover the 50000 rows. So after the launch the output array is `Cert.Spec.convFn` of the four input arrays as the launch
  finds them.
-/
import proofs.«418080_j49366354100286_4_alg».proof.Proof.KernelIdeal.Conv11
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic at an entry -/

/-- A column `[a, 1]` broadcast to `[a, b]` reads, at `(p, c)`, the column's entry of row `p`. -/
theorem conv11_column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row and the contraction coordinate, -/
theorem conv11_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem conv11_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- and its right operand at the contraction coordinate and the output's column. -/
theorem conv11_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem conv11_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product into a zero accumulator, at ideal values: entry `(p, q)` is the sum over `k` of the
    left operand's `(p, k)` times the right operand's `(k, q)`. -/
theorem conv11_matmul_apply (l : FVec Ideal S2000x128 .f32) (r : FVec Ideal S128x128 .f32) (p : Fin 2000) (q : Fin 128) :
    matmul (F := Ideal) dot_S2000x128_S128x128_S2000x128_1_0_0_1_n_n (some .fp32) l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n (some .fp32) l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact conv11_lhs_0 _ _
    | ⟨1, _⟩ => exact (conv11_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (conv11_rhs_0 _ _).trans hk
    | ⟨1, _⟩ => exact conv11_rhs_1 _ _)
  rw [el, er]

/-- The body's arithmetic at an entry, at ideal values: the tile's row `p` scaled by that row's scale, times the weight's
    column `q`, plus the bias at `q`. -/
theorem conv11_payload_apply (x0 : Vec Ideal S2000x128 .f32) (x1 : Vec Ideal S2000x1 .f32) (x2 : Vec Ideal S128x128 .f32)
    (x3 : Vec Ideal S1x128 .f32) (p : Fin 2000) (q : Fin 128) :
    k11_pay1 (F := Ideal) x0 x1 x2 x3 (ix2 p q)
      = (∑ k : Fin 128, (x0 (ix2 p k) * x1 (ix2 p (0 : Fin 1))) * x2 (ix2 k q)) + x3 (ix2 (0 : Fin 1) q) := by
  unfold k11_pay1
  simp only [shapeCast_self]
  refine (addf_apply _ _ _).trans ?_
  refine congrArg₂ (· + ·) ?_ (broadcastTo_1b_ab_apply x3 broadcasts_S1x128_S2000x128 p q)
  refine (conv11_matmul_apply _ x2 p q).trans ?_
  refine Finset.sum_congr rfl fun k _ => ?_
  refine congrArg (· * x2 (ix2 k q)) ?_
  refine (mulf_apply _ _ _).trans ?_
  exact congrArg (x0 (ix2 p k) * ·) (conv11_column_broadcast_apply x1 broadcasts_S2000x1_S2000x128 p k)

/-! ## What one grid point writes back -/

theorem conv11_zero_offsets : (![0, 0] : Fin 2 → Nat) = fun _ => 0 := funext fun a => by fin_cases a <;> rfl

/-- The printed index maps, decided over the 25 grid points: at point `t` the feature tile, the scale tile and the output
    tile are the `t`-th row tiles of their arrays, and the weight and the bias are whole. -/
theorem conv11_idx : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0 :=
  (by decide +kernel : ∀ t : Fin grid11.N, _)

variable (V : (c : Dev nD) → (b : Ref sig .tc) → Buf (Elt Ideal) ((c : Thread nD τ).loc b))

/-- The feature tile at point `t` is rows `2000 t … 2000 t + 1999` of the aggregated features. -/
theorem conv11_features_apply (c : Dev nD) (t : Fin cfg11.N) (p : Fin 2000) (k : Fin 128) (r : Fin 50000)
    (hr : r.val = t.val * 2000 + p.val) :
    (iblk11 V c 0 t : Vec Ideal S2000x128 .f32) (ix2 p k) = (V c main_v306 : S50000x128.Idx → EReal) (ix2 r k) := by
  obtain ⟨e0, e1, -⟩ := conv11_idx t
  show V c main_v306 (((cfg11.win 0).blk t).view.emb (ix2 p k)) = V c main_v306 (ix2 r k)
  refine congrArg (V c main_v306) (funext fun a => Fin.ext ?_)
  match a with
  | ⟨0, _⟩ => show win11_0.index t (0 : Fin 2) * 2000 + 1 * p.val = r.val; omega
  | ⟨1, _⟩ => show win11_0.index t (1 : Fin 2) * 128 + 1 * k.val = k.val; omega

/-- The scale tile at point `t` is the same rows of the degree scale. -/
theorem conv11_scale_apply (c : Dev nD) (t : Fin cfg11.N) (p : Fin 2000) (r : Fin 50000)
    (hr : r.val = t.val * 2000 + p.val) :
    (iblk11 V c 1 t : Vec Ideal S2000x1 .f32) (ix2 p (0 : Fin 1)) = (V c main_v307 : S50000x1.Idx → EReal) (ix2 r (0 : Fin 1)) := by
  obtain ⟨-, -, e0, e1, -⟩ := conv11_idx t
  show V c main_v307 (((cfg11.win 1).blk t).view.emb (ix2 p (0 : Fin 1))) = V c main_v307 (ix2 r (0 : Fin 1))
  refine congrArg (V c main_v307) (funext fun a => Fin.ext ?_)
  match a with
  | ⟨0, _⟩ => show win11_1.index t (0 : Fin 2) * 2000 + 1 * p.val = r.val; omega
  | ⟨1, _⟩ => show win11_1.index t (1 : Fin 2) * 1 + 1 * 0 = 0; omega

/-- The weight block at every point is the whole weight, -/
theorem conv11_weight_apply (c : Dev nD) (t : Fin cfg11.N) (k : Fin 128) (q : Fin 128) :
    (iblk11 V c 2 t : Vec Ideal S128x128 .f32) (ix2 k q) = (V c main_v291 : S128x128.Idx → EReal) (ix2 k q) := by
  obtain ⟨-, -, -, -, e0, e1, -⟩ := conv11_idx t
  show V c main_v291 (((cfg11.win 2).blk t).view.emb (ix2 k q)) = V c main_v291 (ix2 k q)
  refine congrArg (V c main_v291) (funext fun a => Fin.ext ?_)
  match a with
  | ⟨0, _⟩ => show win11_2.index t (0 : Fin 2) * 128 + 1 * k.val = k.val; omega
  | ⟨1, _⟩ => show win11_2.index t (1 : Fin 2) * 128 + 1 * q.val = q.val; omega

/-- and the bias block the whole bias. -/
theorem conv11_bias_apply (c : Dev nD) (t : Fin cfg11.N) (q : Fin 128) :
    (iblk11 V c 3 t : Vec Ideal S1x128 .f32) (ix2 (0 : Fin 1) q) = (V c main_v308 : S1x128.Idx → EReal) (ix2 (0 : Fin 1) q) := by
  obtain ⟨-, -, -, -, -, -, e0, e1, -⟩ := conv11_idx t
  show V c main_v308 (((cfg11.win 3).blk t).view.emb (ix2 (0 : Fin 1) q)) = V c main_v308 (ix2 (0 : Fin 1) q)
  refine congrArg (V c main_v308) (funext fun a => Fin.ext ?_)
  match a with
  | ⟨0, _⟩ => show win11_3.index t (0 : Fin 2) * 1 + 1 * 0 = 0; omega
  | ⟨1, _⟩ => show win11_3.index t (1 : Fin 2) * 128 + 1 * q.val = q.val; omega

/-- The body's result on four blocks that agree, entry by entry, with row `r` of the features, the scale at row `r`,
    the weight and the bias, is the epilogue's entry `(r, q)`. -/
theorem conv11_tile_apply (a : S50000x128.Idx → EReal) (s : S50000x1.Idx → EReal) (w : S128x128.Idx → EReal) (b : S1x128.Idx → EReal)
    (x0 : Vec Ideal S2000x128 .f32) (x1 : Vec Ideal S2000x1 .f32) (x2 : Vec Ideal S128x128 .f32) (x3 : Vec Ideal S1x128 .f32)
    (p : Fin 2000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k11_pay1 (F := Ideal) x0 x1 x2 x3 (ix2 p q) = Cert.Spec.convAt a s w b r q := by
  refine (conv11_payload_apply x0 x1 x2 x3 p q).trans ?_
  unfold Cert.Spec.convAt
  rw [h1, h3]
  exact congrArg (· + b (ix2 (0 : Fin 1) q)) (Finset.sum_congr rfl fun k _ => by rw [h0 k, h2 k])

/-- What point `t` writes back is block `t` of the epilogue of the arrays as the launch finds them. -/
theorem conv11_flushed (c : Dev nD) (t : Fin cfg11.N) :
    (dat11 (F := Ideal) V c).flushed 4 t
      = ((cfg11.win 4).blk t).view.read (Elt Ideal) (Cert.Spec.convFn (V c main_v306) (V c main_v307) (V c main_v291) (V c main_v308)) := by
  show (cfg11.win 4).cut (grid11.coords t) ((dat11 V c).after 4 t) = _
  rw [after11_4]
  unfold out11_4
  rw [View.canon_unit_zero conv11_zero_offsets]
  simp only [View.ld_unit_zero (S := S2000x128) conv11_zero_offsets, View.ld_unit_zero (S := S2000x1) conv11_zero_offsets,
    View.ld_unit_zero (S := S128x128) conv11_zero_offsets, View.ld_unit_zero (S := S1x128) conv11_zero_offsets]
  obtain ⟨-, -, -, -, -, -, -, -, e0, e1⟩ := conv11_idx t
  have hN : cfg11.N = 25 := N_11
  funext j
  have hj0 : (j 0).val < 2000 := (j 0).isLt
  have hj1 : (j 1).val < 128 := (j 1).isLt
  have hr : t.val * 2000 + (j 0).val < 50000 := by have := t.isLt; omega
  have hx : (cfg11.win 4).xinj (grid11.coords t) j = ix2 (⟨(j 0).val, hj0⟩ : Fin 2000) (⟨(j 1).val, hj1⟩ : Fin 128) :=
    funext fun a => by match a with | ⟨0, _⟩ => rfl | ⟨1, _⟩ => rfl
  have hy : ((cfg11.win 4).blk t).view.emb j = ix2 (⟨t.val * 2000 + (j 0).val, hr⟩ : Fin 50000) (⟨(j 1).val, hj1⟩ : Fin 128) :=
    funext fun a => Fin.ext (by
      match a with
      | ⟨0, _⟩ => show win11_4.index t (0 : Fin 2) * 2000 + 1 * (j 0).val = t.val * 2000 + (j 0).val; omega
      | ⟨1, _⟩ => show win11_4.index t (1 : Fin 2) * 128 + 1 * (j 1).val = (j 1).val; omega)
  show k11_pay1 (F := Ideal) (iblk11 V c 0 t) (iblk11 V c 1 t) (iblk11 V c 2 t) (iblk11 V c 3 t) ((cfg11.win 4).xinj (grid11.coords t) j)
    = Cert.Spec.convFn (V c main_v306) (V c main_v307) (V c main_v291) (V c main_v308) (((cfg11.win 4).blk t).view.emb j)
  rw [hx, hy]
  exact conv11_tile_apply (V c main_v306) (V c main_v307) (V c main_v291) (V c main_v308)
    (iblk11 V c 0 t) (iblk11 V c 1 t) (iblk11 V c 2 t) (iblk11 V c 3 t) ⟨(j 0).val, hj0⟩ ⟨(j 1).val, hj1⟩ ⟨t.val * 2000 + (j 0).val, hr⟩
    (fun k => conv11_features_apply V c t ⟨(j 0).val, hj0⟩ k ⟨t.val * 2000 + (j 0).val, hr⟩ rfl)
    (conv11_scale_apply V c t ⟨(j 0).val, hj0⟩ ⟨t.val * 2000 + (j 0).val, hr⟩ rfl)
    (fun k => conv11_weight_apply V c t k ⟨(j 1).val, hj1⟩)
    (conv11_bias_apply V c t ⟨(j 1).val, hj1⟩)

/-! ## The array after the launch -/

/-- The 25 row tiles cover the output (row `r` is in tile `r / 2000`), so after the launch the output array is the
    epilogue of the four input arrays as the launch finds them. -/
theorem conv11_value (c : Dev nD) :
    (dat11 (F := Ideal) V c).arrAt 4 cfg11.N = Cert.Spec.convFn (V c main_v306) (V c main_v307) (V c main_v291) (V c main_v308) :=
  (dat11 (F := Ideal) V c).arrAt_eq_of_cover 4 (Cert.Spec.convFn (V c main_v306) (V c main_v307) (V c main_v291) (V c main_v308))
    (fun t _ => conv11_flushed V c t) fun i => by
      have hN : cfg11.N = 25 := N_11
      have hi0 : (i 0).val < 50000 := (i 0).isLt
      have hi1 : (i 1).val < 128 := (i 1).isLt
      have ht : (i 0).val / 2000 < cfg11.N := by omega
      obtain ⟨-, -, -, -, -, -, -, -, e0, e1⟩ := conv11_idx ⟨(i 0).val / 2000, ht⟩
      refine ⟨⟨(i 0).val / 2000, ht⟩, flush11_4 _, ?_⟩
      show i ∈ ((View.whole (Pipeline.arrRef spec11 4)).slice (win11_4.rect ⟨(i 0).val / 2000, ht⟩)).set
      rw [View.set_slice_whole, Rect.mem_set_unit]
      intro a
      match a with
      | ⟨0, _⟩ =>
        show win11_4.index ⟨(i 0).val / 2000, ht⟩ (0 : Fin 2) * 2000 ≤ (i 0).val
          ∧ (i 0).val < win11_4.index ⟨(i 0).val / 2000, ht⟩ (0 : Fin 2) * 2000 + 2000
        rw [e0]; show (i 0).val / 2000 * 2000 ≤ (i 0).val ∧ (i 0).val < (i 0).val / 2000 * 2000 + 2000; omega
      | ⟨1, _⟩ =>
        show win11_4.index ⟨(i 0).val / 2000, ht⟩ (1 : Fin 2) * 128 ≤ (i 1).val
          ∧ (i 1).val < win11_4.index ⟨(i 0).val / 2000, ht⟩ (1 : Fin 2) * 128 + 128
        rw [e1]; omega

end Cert.KernelIdeal.Hand

end
-- ==== Proof.KernelIdeal.ConvValue12.lean ====
/-
  The value of the graph-convolution epilogue, launch 12, at ideal (extended-real) values. The body's arithmetic at entry
  (p, q) of a tile is the sum over k of (tile(p, k) · scale(p, 0)) · weight(k, q), plus bias(0, q): the casts keep their
  shapes, the scale's column is laid along every column, the product accumulates into zero, the bias's row is laid along
  every row. At grid point t the feature tile and the scale tile are rows 2000 t … 2000 t + 1999 of their arrays, the
  weight and bias blocks are the whole arrays, and the point writes back the same rows of the output; the 25 row tiles
  cover the 50000 rows. So after the launch the output array is `Cert.Spec.convFn` of the four input arrays as the launch
  finds them.
-/
import proofs.«418080_j49366354100286_4_alg».proof.Proof.KernelIdeal.Conv12
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic at an entry -/

/-- A column `[a, 1]` broadcast to `[a, b]` reads, at `(p, c)`, the column's entry of row `p`. -/
theorem conv12_column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row and the contraction coordinate, -/
theorem conv12_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem conv12_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- and its right operand at the contraction coordinate and the output's column. -/
theorem conv12_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem conv12_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product into a zero accumulator, at ideal values: entry `(p, q)` is the sum over `k` of the
    left operand's `(p, k)` times the right operand's `(k, q)`. -/
theorem conv12_matmul_apply (l : FVec Ideal S2000x128 .f32) (r : FVec Ideal S128x128 .f32) (p : Fin 2000) (q : Fin 128) :
    matmul (F := Ideal) dot_S2000x128_S128x128_S2000x128_1_0_0_1_n_n (some .fp32) l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n (some .fp32) l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact conv12_lhs_0 _ _
    | ⟨1, _⟩ => exact (conv12_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (conv12_rhs_0 _ _).trans hk
    | ⟨1, _⟩ => exact conv12_rhs_1 _ _)
  rw [el, er]

/-- The body's arithmetic at an entry, at ideal values: the tile's row `p` scaled by that row's scale, times the weight's
    column `q`, plus the bias at `q`. -/
theorem conv12_payload_apply (x0 : Vec Ideal S2000x128 .f32) (x1 : Vec Ideal S2000x1 .f32) (x2 : Vec Ideal S128x128 .f32)
    (x3 : Vec Ideal S1x128 .f32) (p : Fin 2000) (q : Fin 128) :
    k12_pay1 (F := Ideal) x0 x1 x2 x3 (ix2 p q)
      = (∑ k : Fin 128, (x0 (ix2 p k) * x1 (ix2 p (0 : Fin 1))) * x2 (ix2 k q)) + x3 (ix2 (0 : Fin 1) q) := by
  unfold k12_pay1
  simp only [shapeCast_self]
  refine (addf_apply _ _ _).trans ?_
  refine congrArg₂ (· + ·) ?_ (broadcastTo_1b_ab_apply x3 broadcasts_S1x128_S2000x128 p q)
  refine (conv12_matmul_apply _ x2 p q).trans ?_
  refine Finset.sum_congr rfl fun k _ => ?_
  refine congrArg (· * x2 (ix2 k q)) ?_
  refine (mulf_apply _ _ _).trans ?_
  exact congrArg (x0 (ix2 p k) * ·) (conv12_column_broadcast_apply x1 broadcasts_S2000x1_S2000x128 p k)

/-! ## What one grid point writes back -/

theorem conv12_zero_offsets : (![0, 0] : Fin 2 → Nat) = fun _ => 0 := funext fun a => by fin_cases a <;> rfl

/-- The printed index maps, decided over the 25 grid points: at point `t` the feature tile, the scale tile and the output
    tile are the `t`-th row tiles of their arrays, and the weight and the bias are whole. -/
theorem conv12_idx : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0 :=
  (by decide +kernel : ∀ t : Fin grid12.N, _)

variable (V : (c : Dev nD) → (b : Ref sig .tc) → Buf (Elt Ideal) ((c : Thread nD τ).loc b))

/-- The feature tile at point `t` is rows `2000 t … 2000 t + 1999` of the aggregated features. -/
theorem conv12_features_apply (c : Dev nD) (t : Fin cfg12.N) (p : Fin 2000) (k : Fin 128) (r : Fin 50000)
    (hr : r.val = t.val * 2000 + p.val) :
    (iblk12 V c 0 t : Vec Ideal S2000x128 .f32) (ix2 p k) = (V c main_v331 : S50000x128.Idx → EReal) (ix2 r k) := by
  obtain ⟨e0, e1, -⟩ := conv12_idx t
  show V c main_v331 (((cfg12.win 0).blk t).view.emb (ix2 p k)) = V c main_v331 (ix2 r k)
  refine congrArg (V c main_v331) (funext fun a => Fin.ext ?_)
  match a with
  | ⟨0, _⟩ => show win12_0.index t (0 : Fin 2) * 2000 + 1 * p.val = r.val; omega
  | ⟨1, _⟩ => show win12_0.index t (1 : Fin 2) * 128 + 1 * k.val = k.val; omega

/-- The scale tile at point `t` is the same rows of the degree scale. -/
theorem conv12_scale_apply (c : Dev nD) (t : Fin cfg12.N) (p : Fin 2000) (r : Fin 50000)
    (hr : r.val = t.val * 2000 + p.val) :
    (iblk12 V c 1 t : Vec Ideal S2000x1 .f32) (ix2 p (0 : Fin 1)) = (V c main_v332 : S50000x1.Idx → EReal) (ix2 r (0 : Fin 1)) := by
  obtain ⟨-, -, e0, e1, -⟩ := conv12_idx t
  show V c main_v332 (((cfg12.win 1).blk t).view.emb (ix2 p (0 : Fin 1))) = V c main_v332 (ix2 r (0 : Fin 1))
  refine congrArg (V c main_v332) (funext fun a => Fin.ext ?_)
  match a with
  | ⟨0, _⟩ => show win12_1.index t (0 : Fin 2) * 2000 + 1 * p.val = r.val; omega
  | ⟨1, _⟩ => show win12_1.index t (1 : Fin 2) * 1 + 1 * 0 = 0; omega

/-- The weight block at every point is the whole weight, -/
theorem conv12_weight_apply (c : Dev nD) (t : Fin cfg12.N) (k : Fin 128) (q : Fin 128) :
    (iblk12 V c 2 t : Vec Ideal S128x128 .f32) (ix2 k q) = (V c main_v316 : S128x128.Idx → EReal) (ix2 k q) := by
  obtain ⟨-, -, -, -, e0, e1, -⟩ := conv12_idx t
  show V c main_v316 (((cfg12.win 2).blk t).view.emb (ix2 k q)) = V c main_v316 (ix2 k q)
  refine congrArg (V c main_v316) (funext fun a => Fin.ext ?_)
  match a with
  | ⟨0, _⟩ => show win12_2.index t (0 : Fin 2) * 128 + 1 * k.val = k.val; omega
  | ⟨1, _⟩ => show win12_2.index t (1 : Fin 2) * 128 + 1 * q.val = q.val; omega

/-- and the bias block the whole bias. -/
theorem conv12_bias_apply (c : Dev nD) (t : Fin cfg12.N) (q : Fin 128) :
    (iblk12 V c 3 t : Vec Ideal S1x128 .f32) (ix2 (0 : Fin 1) q) = (V c main_v333 : S1x128.Idx → EReal) (ix2 (0 : Fin 1) q) := by
  obtain ⟨-, -, -, -, -, -, e0, e1, -⟩ := conv12_idx t
  show V c main_v333 (((cfg12.win 3).blk t).view.emb (ix2 (0 : Fin 1) q)) = V c main_v333 (ix2 (0 : Fin 1) q)
  refine congrArg (V c main_v333) (funext fun a => Fin.ext ?_)
  match a with
  | ⟨0, _⟩ => show win12_3.index t (0 : Fin 2) * 1 + 1 * 0 = 0; omega
  | ⟨1, _⟩ => show win12_3.index t (1 : Fin 2) * 128 + 1 * q.val = q.val; omega

/-- The body's result on four blocks that agree, entry by entry, with row `r` of the features, the scale at row `r`,
    the weight and the bias, is the epilogue's entry `(r, q)`. -/
theorem conv12_tile_apply (a : S50000x128.Idx → EReal) (s : S50000x1.Idx → EReal) (w : S128x128.Idx → EReal) (b : S1x128.Idx → EReal)
    (x0 : Vec Ideal S2000x128 .f32) (x1 : Vec Ideal S2000x1 .f32) (x2 : Vec Ideal S128x128 .f32) (x3 : Vec Ideal S1x128 .f32)
    (p : Fin 2000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k12_pay1 (F := Ideal) x0 x1 x2 x3 (ix2 p q) = Cert.Spec.convAt a s w b r q := by
  refine (conv12_payload_apply x0 x1 x2 x3 p q).trans ?_
  unfold Cert.Spec.convAt
  rw [h1, h3]
  exact congrArg (· + b (ix2 (0 : Fin 1) q)) (Finset.sum_congr rfl fun k _ => by rw [h0 k, h2 k])

/-- What point `t` writes back is block `t` of the epilogue of the arrays as the launch finds them. -/
theorem conv12_flushed (c : Dev nD) (t : Fin cfg12.N) :
    (dat12 (F := Ideal) V c).flushed 4 t
      = ((cfg12.win 4).blk t).view.read (Elt Ideal) (Cert.Spec.convFn (V c main_v331) (V c main_v332) (V c main_v316) (V c main_v333)) := by
  show (cfg12.win 4).cut (grid12.coords t) ((dat12 V c).after 4 t) = _
  rw [after12_4]
  unfold out12_4
  rw [View.canon_unit_zero conv12_zero_offsets]
  simp only [View.ld_unit_zero (S := S2000x128) conv12_zero_offsets, View.ld_unit_zero (S := S2000x1) conv12_zero_offsets,
    View.ld_unit_zero (S := S128x128) conv12_zero_offsets, View.ld_unit_zero (S := S1x128) conv12_zero_offsets]
  obtain ⟨-, -, -, -, -, -, -, -, e0, e1⟩ := conv12_idx t
  have hN : cfg12.N = 25 := N_12
  funext j
  have hj0 : (j 0).val < 2000 := (j 0).isLt
  have hj1 : (j 1).val < 128 := (j 1).isLt
  have hr : t.val * 2000 + (j 0).val < 50000 := by have := t.isLt; omega
  have hx : (cfg12.win 4).xinj (grid12.coords t) j = ix2 (⟨(j 0).val, hj0⟩ : Fin 2000) (⟨(j 1).val, hj1⟩ : Fin 128) :=
    funext fun a => by match a with | ⟨0, _⟩ => rfl | ⟨1, _⟩ => rfl
  have hy : ((cfg12.win 4).blk t).view.emb j = ix2 (⟨t.val * 2000 + (j 0).val, hr⟩ : Fin 50000) (⟨(j 1).val, hj1⟩ : Fin 128) :=
    funext fun a => Fin.ext (by
      match a with
      | ⟨0, _⟩ => show win12_4.index t (0 : Fin 2) * 2000 + 1 * (j 0).val = t.val * 2000 + (j 0).val; omega
      | ⟨1, _⟩ => show win12_4.index t (1 : Fin 2) * 128 + 1 * (j 1).val = (j 1).val; omega)
  show k12_pay1 (F := Ideal) (iblk12 V c 0 t) (iblk12 V c 1 t) (iblk12 V c 2 t) (iblk12 V c 3 t) ((cfg12.win 4).xinj (grid12.coords t) j)
    = Cert.Spec.convFn (V c main_v331) (V c main_v332) (V c main_v316) (V c main_v333) (((cfg12.win 4).blk t).view.emb j)
  rw [hx, hy]
  exact conv12_tile_apply (V c main_v331) (V c main_v332) (V c main_v316) (V c main_v333)
    (iblk12 V c 0 t) (iblk12 V c 1 t) (iblk12 V c 2 t) (iblk12 V c 3 t) ⟨(j 0).val, hj0⟩ ⟨(j 1).val, hj1⟩ ⟨t.val * 2000 + (j 0).val, hr⟩
    (fun k => conv12_features_apply V c t ⟨(j 0).val, hj0⟩ k ⟨t.val * 2000 + (j 0).val, hr⟩ rfl)
    (conv12_scale_apply V c t ⟨(j 0).val, hj0⟩ ⟨t.val * 2000 + (j 0).val, hr⟩ rfl)
    (fun k => conv12_weight_apply V c t k ⟨(j 1).val, hj1⟩)
    (conv12_bias_apply V c t ⟨(j 1).val, hj1⟩)

/-! ## The array after the launch -/

/-- The 25 row tiles cover the output (row `r` is in tile `r / 2000`), so after the launch the output array is the
    epilogue of the four input arrays as the launch finds them. -/
theorem conv12_value (c : Dev nD) :
    (dat12 (F := Ideal) V c).arrAt 4 cfg12.N = Cert.Spec.convFn (V c main_v331) (V c main_v332) (V c main_v316) (V c main_v333) :=
  (dat12 (F := Ideal) V c).arrAt_eq_of_cover 4 (Cert.Spec.convFn (V c main_v331) (V c main_v332) (V c main_v316) (V c main_v333))
    (fun t _ => conv12_flushed V c t) fun i => by
      have hN : cfg12.N = 25 := N_12
      have hi0 : (i 0).val < 50000 := (i 0).isLt
      have hi1 : (i 1).val < 128 := (i 1).isLt
      have ht : (i 0).val / 2000 < cfg12.N := by omega
      obtain ⟨-, -, -, -, -, -, -, -, e0, e1⟩ := conv12_idx ⟨(i 0).val / 2000, ht⟩
      refine ⟨⟨(i 0).val / 2000, ht⟩, flush12_4 _, ?_⟩
      show i ∈ ((View.whole (Pipeline.arrRef spec12 4)).slice (win12_4.rect ⟨(i 0).val / 2000, ht⟩)).set
      rw [View.set_slice_whole, Rect.mem_set_unit]
      intro a
      match a with
      | ⟨0, _⟩ =>
        show win12_4.index ⟨(i 0).val / 2000, ht⟩ (0 : Fin 2) * 2000 ≤ (i 0).val
          ∧ (i 0).val < win12_4.index ⟨(i 0).val / 2000, ht⟩ (0 : Fin 2) * 2000 + 2000
        rw [e0]; show (i 0).val / 2000 * 2000 ≤ (i 0).val ∧ (i 0).val < (i 0).val / 2000 * 2000 + 2000; omega
      | ⟨1, _⟩ =>
        show win12_4.index ⟨(i 0).val / 2000, ht⟩ (1 : Fin 2) * 128 ≤ (i 1).val
          ∧ (i 1).val < win12_4.index ⟨(i 0).val / 2000, ht⟩ (1 : Fin 2) * 128 + 128
        rw [e1]; omega

end Cert.KernelIdeal.Hand

end
-- ==== Proof.KernelIdeal.ConvValue13.lean ====
/-
  The value of the graph-convolution epilogue, launch 13, at ideal (extended-real) values. The body's arithmetic at entry
  (p, q) of a tile is the sum over k of (tile(p, k) · scale(p, 0)) · weight(k, q), plus bias(0, q): the casts keep their
  shapes, the scale's column is laid along every column, the product accumulates into zero, the bias's row is laid along
  every row. At grid point t the feature tile and the scale tile are rows 2000 t … 2000 t + 1999 of their arrays, the
  weight and bias blocks are the whole arrays, and the point writes back the same rows of the output; the 25 row tiles
  cover the 50000 rows. So after the launch the output array is `Cert.Spec.convFn` of the four input arrays as the launch
  finds them.
-/
import proofs.«418080_j49366354100286_4_alg».proof.Proof.KernelIdeal.Conv13
import proofs.«418080_j49366354100286_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic at an entry -/

/-- A column `[a, 1]` broadcast to `[a, b]` reads, at `(p, c)`, the column's entry of row `p`. -/
theorem conv13_column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row and the contraction coordinate, -/
theorem conv13_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem conv13_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- and its right operand at the contraction coordinate and the output's column. -/
theorem conv13_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem conv13_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 by 128×128 product into a zero accumulator, at ideal values: entry `(p, q)` is the sum over `k` of the
    left operand's `(p, k)` times the right operand's `(k, q)`. -/
theorem conv13_matmul_apply (l : FVec Ideal S2000x128 .f32) (r : FVec Ideal S128x128 .f32) (p : Fin 2000) (q : Fin 128) :
    matmul (F := Ideal) dot_S2000x128_S128x128_S2000x128_1_0_0_1_n_n (some .fp32) l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n (some .fp32) l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact conv13_lhs_0 _ _
    | ⟨1, _⟩ => exact (conv13_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (conv13_rhs_0 _ _).trans hk
    | ⟨1, _⟩ => exact conv13_rhs_1 _ _)
  rw [el, er]

/-- The body's arithmetic at an entry, at ideal values: the tile's row `p` scaled by that row's scale, times the weight's
    column `q`, plus the bias at `q`. -/
theorem conv13_payload_apply (x0 : Vec Ideal S2000x128 .f32) (x1 : Vec Ideal S2000x1 .f32) (x2 : Vec Ideal S128x128 .f32)
    (x3 : Vec Ideal S1x128 .f32) (p : Fin 2000) (q : Fin 128) :
    k13_pay1 (F := Ideal) x0 x1 x2 x3 (ix2 p q)
      = (∑ k : Fin 128, (x0 (ix2 p k) * x1 (ix2 p (0 : Fin 1))) * x2 (ix2 k q)) + x3 (ix2 (0 : Fin 1) q) := by
  unfold k13_pay1
  simp only [shapeCast_self]
  refine (addf_apply _ _ _).trans ?_
  refine congrArg₂ (· + ·) ?_ (broadcastTo_1b_ab_apply x3 broadcasts_S1x128_S2000x128 p q)
  refine (conv13_matmul_apply _ x2 p q).trans ?_
  refine Finset.sum_congr rfl fun k _ => ?_
  refine congrArg (· * x2 (ix2 k q)) ?_
  refine (mulf_apply _ _ _).trans ?_
  exact congrArg (x0 (ix2 p k) * ·) (conv13_column_broadcast_apply x1 broadcasts_S2000x1_S2000x128 p k)

/-! ## What one grid point writes back -/

theorem conv13_zero_offsets : (![0, 0] : Fin 2 → Nat) = fun _ => 0 := funext fun a => by fin_cases a <;> rfl

/-- The printed index maps, decided over the 25 grid points: at point `t` the feature tile, the scale tile and the output
    tile are the `t`-th row tiles of their arrays, and the weight and the bias are whole. -/
theorem conv13_idx : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0 :=
  (by decide +kernel : ∀ t : Fin grid13.N, _)

variable (V : (c : Dev nD) → (b : Ref sig .tc) → Buf (Elt Ideal) ((c : Thread nD τ).loc b))

/-- The feature tile at point `t` is rows `2000 t … 2000 t + 1999` of the aggregated features. -/
theorem conv13_features_apply (c : Dev nD) (t : Fin cfg13.N) (p : Fin 2000) (k : Fin 128) (r : Fin 50000)
    (hr : r.val = t.val * 2000 + p.val) :
    (iblk13 V c 0 t : Vec Ideal S2000x128 .f32) (ix2 p k) = (V c main_v356 : S50000x128.Idx → EReal) (ix2 r k) := by
  obtain ⟨e0, e1, -⟩ := conv13_idx t
  show V c main_v356 (((cfg13.win 0).blk t).view.emb (ix2 p k)) = V c main_v356 (ix2 r k)
  refine congrArg (V c main_v356) (funext fun a => Fin.ext ?_)
  match a with
  | ⟨0, _⟩ => show win13_0.index t (0 : Fin 2) * 2000 + 1 * p.val = r.val; omega
  | ⟨1, _⟩ => show win13_0.index t (1 : Fin 2) * 128 + 1 * k.val = k.val; omega

/-- The scale tile at point `t` is the same rows of the degree scale. -/
theorem conv13_scale_apply (c : Dev nD) (t : Fin cfg13.N) (p : Fin 2000) (r : Fin 50000)
    (hr : r.val = t.val * 2000 + p.val) :
    (iblk13 V c 1 t : Vec Ideal S2000x1 .f32) (ix2 p (0 : Fin 1)) = (V c main_v357 : S50000x1.Idx → EReal) (ix2 r (0 : Fin 1)) := by
  obtain ⟨-, -, e0, e1, -⟩ := conv13_idx t
  show V c main_v357 (((cfg13.win 1).blk t).view.emb (ix2 p (0 : Fin 1))) = V c main_v357 (ix2 r (0 : Fin 1))
  refine congrArg (V c main_v357) (funext fun a => Fin.ext ?_)
  match a with
  | ⟨0, _⟩ => show win13_1.index t (0 : Fin 2) * 2000 + 1 * p.val = r.val; omega
  | ⟨1, _⟩ => show win13_1.index t (1 : Fin 2) * 1 + 1 * 0 = 0; omega

/-- The weight block at every point is the whole weight, -/
theorem conv13_weight_apply (c : Dev nD) (t : Fin cfg13.N) (k : Fin 128) (q : Fin 128) :
    (iblk13 V c 2 t : Vec Ideal S128x128 .f32) (ix2 k q) = (V c main_v341 : S128x128.Idx → EReal) (ix2 k q) := by
  obtain ⟨-, -, -, -, e0, e1, -⟩ := conv13_idx t
  show V c main_v341 (((cfg13.win 2).blk t).view.emb (ix2 k q)) = V c main_v341 (ix2 k q)
  refine congrArg (V c main_v341) (funext fun a => Fin.ext ?_)
  match a with
  | ⟨0, _⟩ => show win13_2.index t (0 : Fin 2) * 128 + 1 * k.val = k.val; omega
  | ⟨1, _⟩ => show win13_2.index t (1 : Fin 2) * 128 + 1 * q.val = q.val; omega

/-- and the bias block the whole bias. -/
theorem conv13_bias_apply (c : Dev nD) (t : Fin cfg13.N) (q : Fin 128) :
    (iblk13 V c 3 t : Vec Ideal S1x128 .f32) (ix2 (0 : Fin 1) q) = (V c main_v358 : S1x128.Idx → EReal) (ix2 (0 : Fin 1) q) := by
  obtain ⟨-, -, -, -, -, -, e0, e1, -⟩ := conv13_idx t
  show V c main_v358 (((cfg13.win 3).blk t).view.emb (ix2 (0 : Fin 1) q)) = V c main_v358 (ix2 (0 : Fin 1) q)
  refine congrArg (V c main_v358) (funext fun a => Fin.ext ?_)
  match a with
  | ⟨0, _⟩ => show win13_3.index t (0 : Fin 2) * 1 + 1 * 0 = 0; omega
  | ⟨1, _⟩ => show win13_3.index t (1 : Fin 2) * 128 + 1 * q.val = q.val; omega

/-- The body's result on four blocks that agree, entry by entry, with row `r` of the features, the scale at row `r`,
    the weight and the bias, is the epilogue's entry `(r, q)`. -/
theorem conv13_tile_apply (a : S50000x128.Idx → EReal) (s : S50000x1.Idx → EReal) (w : S128x128.Idx → EReal) (b : S1x128.Idx → EReal)
    (x0 : Vec Ideal S2000x128 .f32) (x1 : Vec Ideal S2000x1 .f32) (x2 : Vec Ideal S128x128 .f32) (x3 : Vec Ideal S1x128 .f32)
    (p : Fin 2000) (q : Fin 128) (r : Fin 50000)
    (h0 : ∀ k : Fin 128, x0 (ix2 p k) = a (ix2 r k)) (h1 : x1 (ix2 p (0 : Fin 1)) = s (ix2 r (0 : Fin 1)))
    (h2 : ∀ k : Fin 128, x2 (ix2 k q) = w (ix2 k q)) (h3 : x3 (ix2 (0 : Fin 1) q) = b (ix2 (0 : Fin 1) q)) :
    k13_pay1 (F := Ideal) x0 x1 x2 x3 (ix2 p q) = Cert.Spec.convAt a s w b r q := by
  refine (conv13_payload_apply x0 x1 x2 x3 p q).trans ?_
  unfold Cert.Spec.convAt
  rw [h1, h3]
  exact congrArg (· + b (ix2 (0 : Fin 1) q)) (Finset.sum_congr rfl fun k _ => by rw [h0 k, h2 k])

/-- What point `t` writes back is block `t` of the epilogue of the arrays as the launch finds them. -/
theorem conv13_flushed (c : Dev nD) (t : Fin cfg13.N) :
    (dat13 (F := Ideal) V c).flushed 4 t
      = ((cfg13.win 4).blk t).view.read (Elt Ideal) (Cert.Spec.convFn (V c main_v356) (V c main_v357) (V c main_v341) (V c main_v358)) := by
  show (cfg13.win 4).cut (grid13.coords t) ((dat13 V c).after 4 t) = _
  rw [after13_4]
  unfold out13_4
  rw [View.canon_unit_zero conv13_zero_offsets]
  simp only [View.ld_unit_zero (S := S2000x128) conv13_zero_offsets, View.ld_unit_zero (S := S2000x1) conv13_zero_offsets,
    View.ld_unit_zero (S := S128x128) conv13_zero_offsets, View.ld_unit_zero (S := S1x128) conv13_zero_offsets]
  obtain ⟨-, -, -, -, -, -, -, -, e0, e1⟩ := conv13_idx t
  have hN : cfg13.N = 25 := N_13
  funext j
  have hj0 : (j 0).val < 2000 := (j 0).isLt
  have hj1 : (j 1).val < 128 := (j 1).isLt
  have hr : t.val * 2000 + (j 0).val < 50000 := by have := t.isLt; omega
  have hx : (cfg13.win 4).xinj (grid13.coords t) j = ix2 (⟨(j 0).val, hj0⟩ : Fin 2000) (⟨(j 1).val, hj1⟩ : Fin 128) :=
    funext fun a => by match a with | ⟨0, _⟩ => rfl | ⟨1, _⟩ => rfl
  have hy : ((cfg13.win 4).blk t).view.emb j = ix2 (⟨t.val * 2000 + (j 0).val, hr⟩ : Fin 50000) (⟨(j 1).val, hj1⟩ : Fin 128) :=
    funext fun a => Fin.ext (by
      match a with
      | ⟨0, _⟩ => show win13_4.index t (0 : Fin 2) * 2000 + 1 * (j 0).val = t.val * 2000 + (j 0).val; omega
      | ⟨1, _⟩ => show win13_4.index t (1 : Fin 2) * 128 + 1 * (j 1).val = (j 1).val; omega)
  show k13_pay1 (F := Ideal) (iblk13 V c 0 t) (iblk13 V c 1 t) (iblk13 V c 2 t) (iblk13 V c 3 t) ((cfg13.win 4).xinj (grid13.coords t) j)
    = Cert.Spec.convFn (V c main_v356) (V c main_v357) (V c main_v341) (V c main_v358) (((cfg13.win 4).blk t).view.emb j)
  rw [hx, hy]
  exact conv13_tile_apply (V c main_v356) (V c main_v357) (V c main_v341) (V c main_v358)
    (iblk13 V c 0 t) (iblk13 V c 1 t) (iblk13 V c 2 t) (iblk13 V c 3 t) ⟨(j 0).val, hj0⟩ ⟨(j 1).val, hj1⟩ ⟨t.val * 2000 + (j 0).val, hr⟩
    (fun k => conv13_features_apply V c t ⟨(j 0).val, hj0⟩ k ⟨t.val * 2000 + (j 0).val, hr⟩ rfl)
    (conv13_scale_apply V c t ⟨(j 0).val, hj0⟩ ⟨t.val * 2000 + (j 0).val, hr⟩ rfl)
    (fun k => conv13_weight_apply V c t k ⟨(j 1).val, hj1⟩)
    (conv13_bias_apply V c t ⟨(j 1).val, hj1⟩)

/-! ## The array after the launch -/

/-- The 25 row tiles cover the output (row `r` is in tile `r / 2000`), so after the launch the output array is the
    epilogue of the four input arrays as the launch finds them. -/
theorem conv13_value (c : Dev nD) :
    (dat13 (F := Ideal) V c).arrAt 4 cfg13.N = Cert.Spec.convFn (V c main_v356) (V c main_v357) (V c main_v341) (V c main_v358) :=
  (dat13 (F := Ideal) V c).arrAt_eq_of_cover 4 (Cert.Spec.convFn (V c main_v356) (V c main_v357) (V c main_v341) (V c main_v358))
    (fun t _ => conv13_flushed V c t) fun i => by
      have hN : cfg13.N = 25 := N_13
      have hi0 : (i 0).val < 50000 := (i 0).isLt
      have hi1 : (i 1).val < 128 := (i 1).isLt
      have ht : (i 0).val / 2000 < cfg13.N := by omega
      obtain ⟨-, -, -, -, -, -, -, -, e0, e1⟩ := conv13_idx ⟨(i 0).val / 2000, ht⟩
      refine ⟨⟨(i 0).val / 2000, ht⟩, flush13_4 _, ?_⟩
      show i ∈ ((View.whole (Pipeline.arrRef spec13 4)).slice (win13_4.rect ⟨(i 0).val / 2000, ht⟩)).set
      rw [View.set_slice_whole, Rect.mem_set_unit]
      intro a
      match a with
      | ⟨0, _⟩ =>
        show win13_4.index ⟨(i 0).val / 2000, ht⟩ (0 : Fin 2) * 2000 ≤ (i 0).val
          ∧ (i 0).val < win13_4.index ⟨(i 0).val / 2000, ht⟩ (0 : Fin 2) * 2000 + 2000
        rw [e0]; show (i 0).val / 2000 * 2000 ≤ (i 0).val ∧ (i 0).val < (i 0).val / 2000 * 2000 + 2000; omega
      | ⟨1, _⟩ =>
        show win13_4.index ⟨(i 0).val / 2000, ht⟩ (1 : Fin 2) * 128 ≤ (i 1).val
          ∧ (i 1).val < win13_4.index ⟨(i 0).val / 2000, ht⟩ (1 : Fin 2) * 128 + 128
        rw [e1]; omega

end Cert.KernelIdeal.Hand

end
-- ==== Proof.KernelIdeal.Value.lean ====
/-
  The value of the idealized kernel's whole run. Going through the fourteen launches in program order, each launch's output array holds the
  reference's stage for it, as a function of the twelve arguments as launched: the arrays the launch reads are host-stretch results, which hold the
  reference's stages of the arguments once every earlier launch's output does (the earlier rows of this same walk), and a launch on such arrays
  leaves the reference's stage (one lemma per launch: three written by hand, eleven their siblings). Last, the returned array is read off the final
  host stretch with all fourteen launch outputs known.
-/
import proofs.«418080_j49366354100286_4_alg».proof.Proof.KernelIdeal.ValueHand
import proofs.«418080_j49366354100286_4_alg».proof.Proof.KernelIdeal.ProjValue1
import proofs.«418080_j49366354100286_4_alg».proof.Proof.KernelIdeal.ProjValue2
import proofs.«418080_j49366354100286_4_alg».proof.Proof.KernelIdeal.ProjValue3
import proofs.«418080_j49366354100286_4_alg».proof.Proof.KernelIdeal.ConvValue5
import proofs.«418080_j49366354100286_4_alg».proof.Proof.KernelIdeal.ConvValue6
import proofs.«418080_j49366354100286_4_alg».proof.Proof.KernelIdeal.ConvValue7
import proofs.«418080_j49366354100286_4_alg».proof.Proof.KernelIdeal.ConvValue8
import proofs.«418080_j49366354100286_4_alg».proof.Proof.KernelIdeal.ConvValue10
import proofs.«418080_j49366354100286_4_alg».proof.Proof.KernelIdeal.ConvValue11
import proofs.«418080_j49366354100286_4_alg».proof.Proof.KernelIdeal.ConvValue12
import proofs.«418080_j49366354100286_4_alg».proof.Proof.KernelIdeal.ConvValue13

set_option maxRecDepth 16384

noncomputable section

namespace Cert.KernelIdeal.Hand

open Cert.KernelIdeal Cert.KernelIdeal.Gen Cert.KernelIdeal.GenP
open Cert.ReferenceIdeal.ReadP
open Idealize.ShloMosaic Idealize.ShloMosaic.TcCoe Idealize.SL.Sem Idealize.ShloMosaic.ValueIdx

/-- The degree scale that launch 10's reference stage reads is the first layer's: the same operations on the same argument. -/
theorem degree_scale10 {F : FTy → Type} [FloatOps F] (x5 : (⟨Cert.ReferenceIdeal.S5x1600000, .i32⟩ : BufTy).Contents (Elt F)) :
    val_main_v319 (F := F) x5 = val_main_v111 (F := F) x5 := rfl

/-- The degree scale that launch 11's reference stage reads is the first layer's: the same operations on the same argument. -/
theorem degree_scale11 {F : FTy → Type} [FloatOps F] (x5 : (⟨Cert.ReferenceIdeal.S5x1600000, .i32⟩ : BufTy).Contents (Elt F)) :
    val_main_v359 (F := F) x5 = val_main_v151 (F := F) x5 := rfl

/-- The degree scale that launch 12's reference stage reads is the first layer's: the same operations on the same argument. -/
theorem degree_scale12 {F : FTy → Type} [FloatOps F] (x5 : (⟨Cert.ReferenceIdeal.S5x1600000, .i32⟩ : BufTy).Contents (Elt F)) :
    val_main_v399 (F := F) x5 = val_main_v191 (F := F) x5 := rfl

/-- The degree scale that launch 13's reference stage reads is the first layer's: the same operations on the same argument. -/
theorem degree_scale13 {F : FTy → Type} [FloatOps F] (x5 : (⟨Cert.ReferenceIdeal.S5x1600000, .i32⟩ : BufTy).Contents (Elt F)) :
    val_main_v439 (F := F) x5 = val_main_v231 (F := F) x5 := rfl

variable (m : (ℓ : Loc nD τ sig) → Buf (Elt Ideal) ℓ)

/-- Launch 1 leaves in its output the reference's projection stage: the launch computes max(x·w + b, 0) of the arrays it finds; if those
    are the features as launched, the reference's weight stage, and a one-row array that agrees with the reference's bias stage, the result
    is the reference's stage. -/
theorem launch1_out (c : Dev nD)
    (hx : V3 m (outsX m) c main_arg1 = a1 m c)
    (hw : V3 m (outsX m) c main_v7 = val_main_v10 (F := Ideal) (a6 m c))
    (hb : ∀ q : Fin 128, V3 m (outsX m) c main_v10 (ix2 (0 : Fin 1) q) = val_main_v13 (F := Ideal) (a7 m c) (ix1 q)) :
    outsX m 4 main_v11 c = val_main_v17 (F := Ideal) (a1 m c) (a6 m c) (a7 m c) := by
  show X4 m c main_v11 = _
  rw [X4_out, proj1_value (E3 m) c]
  dsimp only [E3]
  rw [← V3_eq m c, hx, hw]
  exact (Cert.ReferenceIdeal.Hand.ref_proj1 (a1 m c) (a6 m c) (a7 m c) (V3 m (outsX m) c main_v10) hb).symm

/-- Launch 2 leaves in its output the reference's projection stage: the launch computes max(x·w + b, 0) of the arrays it finds; if those
    are the features as launched, the reference's weight stage, and a one-row array that agrees with the reference's bias stage, the result
    is the reference's stage. -/
theorem launch2_out (c : Dev nD)
    (hx : V5 m (outsX m) c main_arg2 = a2 m c)
    (hw : V5 m (outsX m) c main_v13 = val_main_v19 (F := Ideal) (a6 m c))
    (hb : ∀ q : Fin 128, V5 m (outsX m) c main_v16 (ix2 (0 : Fin 1) q) = val_main_v22 (F := Ideal) (a7 m c) (ix1 q)) :
    outsX m 6 main_v17 c = val_main_v26 (F := Ideal) (a2 m c) (a6 m c) (a7 m c) := by
  show X6 m c main_v17 = _
  rw [X6_out, proj2_value (E5 m) c]
  dsimp only [E5]
  rw [← V5_eq m c, hx, hw]
  exact (Cert.ReferenceIdeal.Hand.ref_proj2 (a2 m c) (a6 m c) (a7 m c) (V5 m (outsX m) c main_v16) hb).symm

/-- Launch 3 leaves in its output the reference's projection stage: the launch computes max(x·w + b, 0) of the arrays it finds; if those
    are the features as launched, the reference's weight stage, and a one-row array that agrees with the reference's bias stage, the result
    is the reference's stage. -/
theorem launch3_out (c : Dev nD)
    (hx : V7 m (outsX m) c main_arg3 = a3 m c)
    (hw : V7 m (outsX m) c main_v19 = val_main_v28 (F := Ideal) (a6 m c))
    (hb : ∀ q : Fin 128, V7 m (outsX m) c main_v22 (ix2 (0 : Fin 1) q) = val_main_v31 (F := Ideal) (a7 m c) (ix1 q)) :
    outsX m 8 main_v23 c = val_main_v35 (F := Ideal) (a3 m c) (a6 m c) (a7 m c) := by
  show X8 m c main_v23 = _
  rw [X8_out, proj3_value (E7 m) c]
  dsimp only [E7]
  rw [← V7_eq m c, hx, hw]
  exact (Cert.ReferenceIdeal.Hand.ref_proj3 (a3 m c) (a6 m c) (a7 m c) (V7 m (outsX m) c main_v22) hb).symm

/-- Launch 5 leaves in its output the reference's convolution stage: the launch computes (a scaled row-wise by s)·w + b of the arrays it
    finds; if those are the reference's aggregate and weight stages, a one-column array that agrees with the reference's degree scale, and a
    one-row array that agrees with the reference's bias stage, the result is the reference's stage. -/
theorem launch5_out (c : Dev nD)
    (ha : V31 m (outsX m) c main_v144 = val_main_v110 (F := Ideal) (a1 m c) (a4 m c) (a5 m c) (a6 m c) (a7 m c))
    (hs : ∀ r : Fin 50000, V31 m (outsX m) c main_v145 (ix2 r (0 : Fin 1)) = val_main_v111 (F := Ideal) (a5 m c) (ix1 r))
    (hw : V31 m (outsX m) c main_v129 = val_main_v85 (F := Ideal) (a8 m c))
    (hb : ∀ q : Fin 128, V31 m (outsX m) c main_v146 (ix2 (0 : Fin 1) q) = val_main_v87 (F := Ideal) (a9 m c) (ix1 q)) :
    outsX m 32 main_v147 c = val_main_v118 (F := Ideal) (a1 m c) (a4 m c) (a5 m c) (a6 m c) (a7 m c) (a8 m c) (a9 m c) := by
  show X32 m c main_v147 = _
  rw [X32_out, conv5_value (E31 m) c]
  dsimp only [E31]
  rw [← V31_eq m c, ha, hw]
  exact (Cert.ReferenceIdeal.Hand.ref_conv5 (a1 m c) (a4 m c) (a5 m c) (a6 m c) (a7 m c) (a8 m c) (a9 m c)
    (V31 m (outsX m) c main_v145) hs (V31 m (outsX m) c main_v146) hb).symm

/-- Launch 6 leaves in its output the reference's convolution stage: the launch computes (a scaled row-wise by s)·w + b of the arrays it
    finds; if those are the reference's aggregate and weight stages, a one-column array that agrees with the reference's degree scale, and a
    one-row array that agrees with the reference's bias stage, the result is the reference's stage. -/
theorem launch6_out (c : Dev nD)
    (ha : V33 m (outsX m) c main_v169 = val_main_v150 (F := Ideal) (a3 m c) (a4 m c) (a5 m c) (a6 m c) (a7 m c))
    (hs : ∀ r : Fin 50000, V33 m (outsX m) c main_v170 (ix2 r (0 : Fin 1)) = val_main_v151 (F := Ideal) (a5 m c) (ix1 r))
    (hw : V33 m (outsX m) c main_v154 = val_main_v125 (F := Ideal) (a8 m c))
    (hb : ∀ q : Fin 128, V33 m (outsX m) c main_v171 (ix2 (0 : Fin 1) q) = val_main_v127 (F := Ideal) (a9 m c) (ix1 q)) :
    outsX m 34 main_v172 c = val_main_v158 (F := Ideal) (a3 m c) (a4 m c) (a5 m c) (a6 m c) (a7 m c) (a8 m c) (a9 m c) := by
  show X34 m c main_v172 = _
  rw [X34_out, conv6_value (E33 m) c]
  dsimp only [E33]
  rw [← V33_eq m c, ha, hw]
  exact (Cert.ReferenceIdeal.Hand.ref_conv6 (a3 m c) (a4 m c) (a5 m c) (a6 m c) (a7 m c) (a8 m c) (a9 m c)
    (V33 m (outsX m) c main_v170) hs (V33 m (outsX m) c main_v171) hb).symm

/-- Launch 7 leaves in its output the reference's convolution stage: the launch computes (a scaled row-wise by s)·w + b of the arrays it
    finds; if those are the reference's aggregate and weight stages, a one-column array that agrees with the reference's degree scale, and a
    one-row array that agrees with the reference's bias stage, the result is the reference's stage. -/
theorem launch7_out (c : Dev nD)
    (ha : V35 m (outsX m) c main_v194 = val_main_v190 (F := Ideal) (a0 m c) (a4 m c) (a5 m c) (a6 m c) (a7 m c))
    (hs : ∀ r : Fin 50000, V35 m (outsX m) c main_v195 (ix2 r (0 : Fin 1)) = val_main_v191 (F := Ideal) (a5 m c) (ix1 r))
    (hw : V35 m (outsX m) c main_v179 = val_main_v165 (F := Ideal) (a8 m c))
    (hb : ∀ q : Fin 128, V35 m (outsX m) c main_v196 (ix2 (0 : Fin 1) q) = val_main_v167 (F := Ideal) (a9 m c) (ix1 q)) :
    outsX m 36 main_v197 c = val_main_v198 (F := Ideal) (a0 m c) (a4 m c) (a5 m c) (a6 m c) (a7 m c) (a8 m c) (a9 m c) := by
  show X36 m c main_v197 = _
  rw [X36_out, conv7_value (E35 m) c]
  dsimp only [E35]
  rw [← V35_eq m c, ha, hw]
  exact (Cert.ReferenceIdeal.Hand.ref_conv7 (a0 m c) (a4 m c) (a5 m c) (a6 m c) (a7 m c) (a8 m c) (a9 m c)
    (V35 m (outsX m) c main_v195) hs (V35 m (outsX m) c main_v196) hb).symm

/-- Launch 8 leaves in its output the reference's convolution stage: the launch computes (a scaled row-wise by s)·w + b of the arrays it
    finds; if those are the reference's aggregate and weight stages, a one-column array that agrees with the reference's degree scale, and a
    one-row array that agrees with the reference's bias stage, the result is the reference's stage. -/
theorem launch8_out (c : Dev nD)
    (ha : V37 m (outsX m) c main_v219 = val_main_v230 (F := Ideal) (a2 m c) (a4 m c) (a5 m c) (a6 m c) (a7 m c))
    (hs : ∀ r : Fin 50000, V37 m (outsX m) c main_v220 (ix2 r (0 : Fin 1)) = val_main_v231 (F := Ideal) (a5 m c) (ix1 r))
    (hw : V37 m (outsX m) c main_v204 = val_main_v205 (F := Ideal) (a8 m c))
    (hb : ∀ q : Fin 128, V37 m (outsX m) c main_v221 (ix2 (0 : Fin 1) q) = val_main_v207 (F := Ideal) (a9 m c) (ix1 q)) :
    outsX m 38 main_v222 c = val_main_v238 (F := Ideal) (a2 m c) (a4 m c) (a5 m c) (a6 m c) (a7 m c) (a8 m c) (a9 m c) := by
  show X38 m c main_v222 = _
  rw [X38_out, conv8_value (E37 m) c]
  dsimp only [E37]
  rw [← V37_eq m c, ha, hw]
  exact (Cert.ReferenceIdeal.Hand.ref_conv8 (a2 m c) (a4 m c) (a5 m c) (a6 m c) (a7 m c) (a8 m c) (a9 m c)
    (V37 m (outsX m) c main_v220) hs (V37 m (outsX m) c main_v221) hb).symm

/-- Launch 10, of the second layer, leaves in its output the reference's convolution stage, as launch 5 does; the scale column is given
    against the first layer's degree scale, which is the one the reference's stage reads again. -/
theorem launch10_out (c : Dev nD)
    (ha : V41 m (outsX m) c main_v281 = val_main_v318 (F := Ideal) (a0 m c) (a4 m c) (a5 m c) (a6 m c) (a7 m c) (a8 m c) (a9 m c))
    (hs : ∀ r : Fin 50000, V41 m (outsX m) c main_v282 (ix2 r (0 : Fin 1)) = val_main_v111 (F := Ideal) (a5 m c) (ix1 r))
    (hw : V41 m (outsX m) c main_v266 = val_main_v293 (F := Ideal) (a10 m c))
    (hb : ∀ q : Fin 128, V41 m (outsX m) c main_v283 (ix2 (0 : Fin 1) q) = val_main_v295 (F := Ideal) (a11 m c) (ix1 q)) :
    outsX m 42 main_v284 c = val_main_v326 (F := Ideal) (a0 m c) (a4 m c) (a5 m c) (a6 m c) (a7 m c) (a8 m c) (a9 m c) (a10 m c) (a11 m c) := by
  show X42 m c main_v284 = _
  rw [X42_out, conv10_value (E41 m) c]
  dsimp only [E41]
  rw [← V41_eq m c, ha, hw]
  exact (Cert.ReferenceIdeal.Hand.ref_conv10 (a0 m c) (a4 m c) (a5 m c) (a6 m c) (a7 m c) (a8 m c) (a9 m c) (a10 m c) (a11 m c)
    (V41 m (outsX m) c main_v282) (fun r => (hs r).trans (congrFun (degree_scale10 (F := Ideal) (a5 m c)).symm (ix1 r)))
    (V41 m (outsX m) c main_v283) hb).symm

/-- Launch 11, of the second layer, leaves in its output the reference's convolution stage, as launch 6 does; the scale column is given
    against the first layer's degree scale, which is the one the reference's stage reads again. -/
theorem launch11_out (c : Dev nD)
    (ha : V43 m (outsX m) c main_v306 = val_main_v358 (F := Ideal) (a1 m c) (a4 m c) (a5 m c) (a6 m c) (a7 m c) (a8 m c) (a9 m c))
    (hs : ∀ r : Fin 50000, V43 m (outsX m) c main_v307 (ix2 r (0 : Fin 1)) = val_main_v151 (F := Ideal) (a5 m c) (ix1 r))
    (hw : V43 m (outsX m) c main_v291 = val_main_v333 (F := Ideal) (a10 m c))
    (hb : ∀ q : Fin 128, V43 m (outsX m) c main_v308 (ix2 (0 : Fin 1) q) = val_main_v335 (F := Ideal) (a11 m c) (ix1 q)) :
    outsX m 44 main_v309 c = val_main_v366 (F := Ideal) (a1 m c) (a4 m c) (a5 m c) (a6 m c) (a7 m c) (a8 m c) (a9 m c) (a10 m c) (a11 m c) := by
  show X44 m c main_v309 = _
  rw [X44_out, conv11_value (E43 m) c]
  dsimp only [E43]
  rw [← V43_eq m c, ha, hw]
  exact (Cert.ReferenceIdeal.Hand.ref_conv11 (a1 m c) (a4 m c) (a5 m c) (a6 m c) (a7 m c) (a8 m c) (a9 m c) (a10 m c) (a11 m c)
    (V43 m (outsX m) c main_v307) (fun r => (hs r).trans (congrFun (degree_scale11 (F := Ideal) (a5 m c)).symm (ix1 r)))
    (V43 m (outsX m) c main_v308) hb).symm

/-- Launch 12, of the second layer, leaves in its output the reference's convolution stage, as launch 7 does; the scale column is given
    against the first layer's degree scale, which is the one the reference's stage reads again. -/
theorem launch12_out (c : Dev nD)
    (ha : V45 m (outsX m) c main_v331 = val_main_v398 (F := Ideal) (a2 m c) (a4 m c) (a5 m c) (a6 m c) (a7 m c) (a8 m c) (a9 m c))
    (hs : ∀ r : Fin 50000, V45 m (outsX m) c main_v332 (ix2 r (0 : Fin 1)) = val_main_v191 (F := Ideal) (a5 m c) (ix1 r))
    (hw : V45 m (outsX m) c main_v316 = val_main_v373 (F := Ideal) (a10 m c))
    (hb : ∀ q : Fin 128, V45 m (outsX m) c main_v333 (ix2 (0 : Fin 1) q) = val_main_v375 (F := Ideal) (a11 m c) (ix1 q)) :
    outsX m 46 main_v334 c = val_main_v406 (F := Ideal) (a2 m c) (a4 m c) (a5 m c) (a6 m c) (a7 m c) (a8 m c) (a9 m c) (a10 m c) (a11 m c) := by
  show X46 m c main_v334 = _
  rw [X46_out, conv12_value (E45 m) c]
  dsimp only [E45]
  rw [← V45_eq m c, ha, hw]
  exact (Cert.ReferenceIdeal.Hand.ref_conv12 (a2 m c) (a4 m c) (a5 m c) (a6 m c) (a7 m c) (a8 m c) (a9 m c) (a10 m c) (a11 m c)
    (V45 m (outsX m) c main_v332) (fun r => (hs r).trans (congrFun (degree_scale12 (F := Ideal) (a5 m c)).symm (ix1 r)))
    (V45 m (outsX m) c main_v333) hb).symm

/-- Launch 13, of the second layer, leaves in its output the reference's convolution stage, as launch 8 does; the scale column is given
    against the first layer's degree scale, which is the one the reference's stage reads again. -/
theorem launch13_out (c : Dev nD)
    (ha : V47 m (outsX m) c main_v356 = val_main_v438 (F := Ideal) (a0 m c) (a3 m c) (a4 m c) (a5 m c) (a6 m c) (a7 m c) (a8 m c) (a9 m c))
    (hs : ∀ r : Fin 50000, V47 m (outsX m) c main_v357 (ix2 r (0 : Fin 1)) = val_main_v231 (F := Ideal) (a5 m c) (ix1 r))
    (hw : V47 m (outsX m) c main_v341 = val_main_v413 (F := Ideal) (a10 m c))
    (hb : ∀ q : Fin 128, V47 m (outsX m) c main_v358 (ix2 (0 : Fin 1) q) = val_main_v415 (F := Ideal) (a11 m c) (ix1 q)) :
    outsX m 48 main_v359 c = val_main_v446 (F := Ideal) (a0 m c) (a3 m c) (a4 m c) (a5 m c) (a6 m c) (a7 m c) (a8 m c) (a9 m c) (a10 m c) (a11 m c) := by
  show X48 m c main_v359 = _
  rw [X48_out, conv13_value (E47 m) c]
  dsimp only [E47]
  rw [← V47_eq m c, ha, hw]
  exact (Cert.ReferenceIdeal.Hand.ref_conv13 (a0 m c) (a3 m c) (a4 m c) (a5 m c) (a6 m c) (a7 m c) (a8 m c) (a9 m c) (a10 m c) (a11 m c)
    (V47 m (outsX m) c main_v357) (fun r => (hs r).trans (congrFun (degree_scale13 (F := Ideal) (a5 m c)).symm (ix1 r)))
    (V47 m (outsX m) c main_v358) hb).symm

/-! ## The launches' results, in program order -/

theorem out_v5 (c : Dev nD) : outsX m 2 main_v5 c = val_main_v8 (F := Ideal) (a0 m c) (a6 m c) (a7 m c) :=
  launch0_out m c (at1_arg0 m c) (kv_v1 m c)
    (fun q => kvpt_v4 m c q)

theorem out_v11 (c : Dev nD) : outsX m 4 main_v11 c = val_main_v17 (F := Ideal) (a1 m c) (a6 m c) (a7 m c) :=
  launch1_out m c (at3_arg1 m (outsX m) c) (kv_v7 m (outsX m) c)
    (fun q => kvpt_v10 m (outsX m) c q)

theorem out_v17 (c : Dev nD) : outsX m 6 main_v17 c = val_main_v26 (F := Ideal) (a2 m c) (a6 m c) (a7 m c) :=
  launch2_out m c (at5_arg2 m (outsX m) c) (kv_v13 m (outsX m) c)
    (fun q => kvpt_v16 m (outsX m) c q)

theorem out_v23 (c : Dev nD) : outsX m 8 main_v23 c = val_main_v35 (F := Ideal) (a3 m c) (a6 m c) (a7 m c) :=
  launch3_out m c (at7_arg3 m (outsX m) c) (kv_v19 m (outsX m) c)
    (fun q => kvpt_v22 m (outsX m) c q)

theorem out_v122 (c : Dev nD) : outsX m 30 main_v122 c = val_main_v78 (F := Ideal) (a0 m c) (a4 m c) (a5 m c) (a6 m c) (a7 m c) (a8 m c) (a9 m c) :=
  launch4_out m c (kv_v119 m (outsX m) (out_v5 m) c)
    (fun r => kvpt_v120 m (outsX m) (out_v5 m) c r)
    (kv_v104 m (outsX m) (out_v5 m) c)
    (fun q => kvpt_v121 m (outsX m) (out_v5 m) c q)

theorem out_v147 (c : Dev nD) : outsX m 32 main_v147 c = val_main_v118 (F := Ideal) (a1 m c) (a4 m c) (a5 m c) (a6 m c) (a7 m c) (a8 m c) (a9 m c) :=
  launch5_out m c (kv_v144 m (outsX m) (out_v5 m) (out_v11 m) (out_v122 m) c)
    (fun r => kvpt_v145 m (outsX m) (out_v5 m) (out_v11 m) (out_v122 m) c r)
    (kv_v129 m (outsX m) (out_v5 m) (out_v11 m) (out_v122 m) c)
    (fun q => kvpt_v146 m (outsX m) (out_v5 m) (out_v11 m) (out_v122 m) c q)

theorem out_v172 (c : Dev nD) : outsX m 34 main_v172 c = val_main_v158 (F := Ideal) (a3 m c) (a4 m c) (a5 m c) (a6 m c) (a7 m c) (a8 m c) (a9 m c) :=
  launch6_out m c (kv_v169 m (outsX m) (out_v5 m) (out_v23 m) (out_v147 m) c)
    (fun r => kvpt_v170 m (outsX m) (out_v5 m) (out_v23 m) (out_v147 m) c r)
    (kv_v154 m (outsX m) (out_v5 m) (out_v23 m) (out_v147 m) c)
    (fun q => kvpt_v171 m (outsX m) (out_v5 m) (out_v23 m) (out_v147 m) c q)

theorem out_v197 (c : Dev nD) : outsX m 36 main_v197 c = val_main_v198 (F := Ideal) (a0 m c) (a4 m c) (a5 m c) (a6 m c) (a7 m c) (a8 m c) (a9 m c) :=
  launch7_out m c (kv_v194 m (outsX m) (out_v5 m) (out_v172 m) c)
    (fun r => kvpt_v195 m (outsX m) (out_v5 m) (out_v172 m) c r)
    (kv_v179 m (outsX m) (out_v5 m) (out_v172 m) c)
    (fun q => kvpt_v196 m (outsX m) (out_v5 m) (out_v172 m) c q)

theorem out_v222 (c : Dev nD) : outsX m 38 main_v222 c = val_main_v238 (F := Ideal) (a2 m c) (a4 m c) (a5 m c) (a6 m c) (a7 m c) (a8 m c) (a9 m c) :=
  launch8_out m c (kv_v219 m (outsX m) (out_v5 m) (out_v17 m) (out_v172 m) (out_v197 m) c)
    (fun r => kvpt_v220 m (outsX m) (out_v5 m) (out_v17 m) (out_v172 m) (out_v197 m) c r)
    (kv_v204 m (outsX m) (out_v5 m) (out_v17 m) (out_v172 m) (out_v197 m) c)
    (fun q => kvpt_v221 m (outsX m) (out_v5 m) (out_v17 m) (out_v172 m) (out_v197 m) c q)

theorem out_v259 (c : Dev nD) : outsX m 40 main_v259 c = val_main_v286 (F := Ideal) (a2 m c) (a4 m c) (a5 m c) (a6 m c) (a7 m c) (a8 m c) (a9 m c) (a10 m c) (a11 m c) :=
  launch9_out m c (kv_v256 m (outsX m) (out_v5 m) (out_v11 m) (out_v17 m) (out_v23 m) (out_v122 m) (out_v147 m) (out_v172 m) (out_v197 m) (out_v222 m) c)
    (fun r => kvpt_v257 m (outsX m) (out_v5 m) (out_v11 m) (out_v17 m) (out_v23 m) (out_v122 m) (out_v147 m) (out_v172 m) (out_v197 m) (out_v222 m) c r)
    (kv_v241 m (outsX m) (out_v5 m) (out_v11 m) (out_v17 m) (out_v23 m) (out_v122 m) (out_v147 m) (out_v172 m) (out_v197 m) (out_v222 m) c)
    (fun q => kvpt_v258 m (outsX m) (out_v5 m) (out_v11 m) (out_v17 m) (out_v23 m) (out_v122 m) (out_v147 m) (out_v172 m) (out_v197 m) (out_v222 m) c q)

theorem out_v284 (c : Dev nD) : outsX m 42 main_v284 c = val_main_v326 (F := Ideal) (a0 m c) (a4 m c) (a5 m c) (a6 m c) (a7 m c) (a8 m c) (a9 m c) (a10 m c) (a11 m c) :=
  launch10_out m c (kv_v281 m (outsX m) (out_v5 m) (out_v11 m) (out_v17 m) (out_v23 m) (out_v122 m) (out_v147 m) (out_v172 m) (out_v197 m) (out_v222 m) (out_v259 m) c)
    (fun r => kvpt_v282 m (outsX m) (out_v5 m) (out_v11 m) (out_v17 m) (out_v23 m) (out_v122 m) (out_v147 m) (out_v172 m) (out_v197 m) (out_v222 m) (out_v259 m) c r)
    (kv_v266 m (outsX m) (out_v5 m) (out_v11 m) (out_v17 m) (out_v23 m) (out_v122 m) (out_v147 m) (out_v172 m) (out_v197 m) (out_v222 m) (out_v259 m) c)
    (fun q => kvpt_v283 m (outsX m) (out_v5 m) (out_v11 m) (out_v17 m) (out_v23 m) (out_v122 m) (out_v147 m) (out_v172 m) (out_v197 m) (out_v222 m) (out_v259 m) c q)

theorem out_v309 (c : Dev nD) : outsX m 44 main_v309 c = val_main_v366 (F := Ideal) (a1 m c) (a4 m c) (a5 m c) (a6 m c) (a7 m c) (a8 m c) (a9 m c) (a10 m c) (a11 m c) :=
  launch11_out m c (kv_v306 m (outsX m) (out_v5 m) (out_v11 m) (out_v17 m) (out_v23 m) (out_v122 m) (out_v147 m) (out_v172 m) (out_v197 m) (out_v222 m) (out_v284 m) c)
    (fun r => kvpt_v307 m (outsX m) (out_v5 m) (out_v11 m) (out_v17 m) (out_v23 m) (out_v122 m) (out_v147 m) (out_v172 m) (out_v197 m) (out_v222 m) (out_v284 m) c r)
    (kv_v291 m (outsX m) (out_v5 m) (out_v11 m) (out_v17 m) (out_v23 m) (out_v122 m) (out_v147 m) (out_v172 m) (out_v197 m) (out_v222 m) (out_v284 m) c)
    (fun q => kvpt_v308 m (outsX m) (out_v5 m) (out_v11 m) (out_v17 m) (out_v23 m) (out_v122 m) (out_v147 m) (out_v172 m) (out_v197 m) (out_v222 m) (out_v284 m) c q)

theorem out_v334 (c : Dev nD) : outsX m 46 main_v334 c = val_main_v406 (F := Ideal) (a2 m c) (a4 m c) (a5 m c) (a6 m c) (a7 m c) (a8 m c) (a9 m c) (a10 m c) (a11 m c) :=
  launch12_out m c (kv_v331 m (outsX m) (out_v5 m) (out_v11 m) (out_v17 m) (out_v23 m) (out_v122 m) (out_v147 m) (out_v172 m) (out_v197 m) (out_v222 m) (out_v309 m) c)
    (fun r => kvpt_v332 m (outsX m) (out_v5 m) (out_v11 m) (out_v17 m) (out_v23 m) (out_v122 m) (out_v147 m) (out_v172 m) (out_v197 m) (out_v222 m) (out_v309 m) c r)
    (kv_v316 m (outsX m) (out_v5 m) (out_v11 m) (out_v17 m) (out_v23 m) (out_v122 m) (out_v147 m) (out_v172 m) (out_v197 m) (out_v222 m) (out_v309 m) c)
    (fun q => kvpt_v333 m (outsX m) (out_v5 m) (out_v11 m) (out_v17 m) (out_v23 m) (out_v122 m) (out_v147 m) (out_v172 m) (out_v197 m) (out_v222 m) (out_v309 m) c q)

theorem out_v359 (c : Dev nD) : outsX m 48 main_v359 c = val_main_v446 (F := Ideal) (a0 m c) (a3 m c) (a4 m c) (a5 m c) (a6 m c) (a7 m c) (a8 m c) (a9 m c) (a10 m c) (a11 m c) :=
  launch13_out m c (kv_v356 m (outsX m) (out_v5 m) (out_v11 m) (out_v17 m) (out_v23 m) (out_v122 m) (out_v147 m) (out_v172 m) (out_v197 m) (out_v222 m) (out_v309 m) (out_v334 m) c)
    (fun r => kvpt_v357 m (outsX m) (out_v5 m) (out_v11 m) (out_v17 m) (out_v23 m) (out_v122 m) (out_v147 m) (out_v172 m) (out_v197 m) (out_v222 m) (out_v309 m) (out_v334 m) c r)
    (kv_v341 m (outsX m) (out_v5 m) (out_v11 m) (out_v17 m) (out_v23 m) (out_v122 m) (out_v147 m) (out_v172 m) (out_v197 m) (out_v222 m) (out_v309 m) (out_v334 m) c)
    (fun q => kvpt_v358 m (outsX m) (out_v5 m) (out_v11 m) (out_v17 m) (out_v23 m) (out_v122 m) (out_v147 m) (out_v172 m) (out_v197 m) (out_v222 m) (out_v309 m) (out_v334 m) c q)

/-! ## The returned array -/

/-- The array the program returns holds the reference's last stage of the twelve arguments as launched. -/
theorem result_value (c : Dev nD) : X49 m c main_v373 = val_main_v456 (F := Ideal) (a0 m c) (a1 m c) (a2 m c) (a3 m c) (a4 m c) (a5 m c) (a6 m c) (a7 m c) (a8 m c) (a9 m c) (a10 m c) (a11 m c) := by
  rw [← V49_eq m c]
  exact kv_v373 m (outsX m) (out_v5 m) (out_v11 m) (out_v17 m) (out_v23 m) (out_v122 m) (out_v147 m) (out_v172 m) (out_v197 m) (out_v222 m) (out_v259 m) (out_v284 m) (out_v309 m) (out_v334 m) (out_v359 m) c

end Cert.KernelIdeal.Hand

end
-- ==== Proof.RefRunStage0.lean ====
/-
  The reference program's operations 1 to 70, read back list by list. From any contents of the buffers in which every buffer a list
  reads that an earlier list wrote holds its stage function of the arguments (and the argument buffers hold the arguments), a buffer the
  list writes holds its stage function afterwards: its operation's result is the operation applied to its operands' contents, and the
  stage function is defined as that operation applied to the operands' stage functions.
-/
import proofs.«418080_j49366354100286_4_alg».proof.Proof.RefRunChunk0
import proofs.«418080_j49366354100286_4_alg».proof.Proof.RefReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

set_option maxRecDepth 16384
set_option maxHeartbeats 4000000

theorem st_v8 (V : Valuation τ sig (Elt F)) (x0 : (⟨S50000x385, .f32⟩ : BufTy).Contents (Elt F)) (x6 : (⟨S4x385x128, .f32⟩ : BufTy).Contents (Elt F)) (x7 : (⟨S4x128, .f32⟩ : BufTy).Contents (Elt F)) (h_arg0 : V (Proc.devRef .tc main_arg0) = x0) (h_arg6 : V (Proc.devRef .tc main_arg6) = x6) (h_arg7 : V (Proc.devRef .tc main_arg7) = x7) :
    after ops_0 V (Proc.devRef .tc main_v8) = val_main_v8 (F := F) x0 x6 x7 := by
  after_results
  simp only [h_arg0, h_arg6, h_arg7]
  first | rfl | (simp only [TRef.ofBuf, TRef.toBuf, cast_eq]; rfl)
theorem st_v17 (V : Valuation τ sig (Elt F)) (x1 : (⟨S50000x385, .f32⟩ : BufTy).Contents (Elt F)) (x6 : (⟨S4x385x128, .f32⟩ : BufTy).Contents (Elt F)) (x7 : (⟨S4x128, .f32⟩ : BufTy).Contents (Elt F)) (h_arg1 : V (Proc.devRef .tc main_arg1) = x1) (h_arg6 : V (Proc.devRef .tc main_arg6) = x6) (h_arg7 : V (Proc.devRef .tc main_arg7) = x7) :
    after ops_0 V (Proc.devRef .tc main_v17) = val_main_v17 (F := F) x1 x6 x7 := by
  after_results
  simp only [h_arg1, h_arg6, h_arg7]
  first | rfl | (simp only [TRef.ofBuf, TRef.toBuf, cast_eq]; rfl)
theorem st_v26 (V : Valuation τ sig (Elt F)) (x2 : (⟨S50000x385, .f32⟩ : BufTy).Contents (Elt F)) (x6 : (⟨S4x385x128, .f32⟩ : BufTy).Contents (Elt F)) (x7 : (⟨S4x128, .f32⟩ : BufTy).Contents (Elt F)) (h_arg2 : V (Proc.devRef .tc main_arg2) = x2) (h_arg6 : V (Proc.devRef .tc main_arg6) = x6) (h_arg7 : V (Proc.devRef .tc main_arg7) = x7) :
    after ops_0 V (Proc.devRef .tc main_v26) = val_main_v26 (F := F) x2 x6 x7 := by
  after_results
  simp only [h_arg2, h_arg6, h_arg7]
  first | rfl | (simp only [TRef.ofBuf, TRef.toBuf, cast_eq]; rfl)
theorem st_v28 (V : Valuation τ sig (Elt F)) (x6 : (⟨S4x385x128, .f32⟩ : BufTy).Contents (Elt F)) (h_arg6 : V (Proc.devRef .tc main_arg6) = x6) :
    after ops_0 V (Proc.devRef .tc main_v28) = val_main_v28 (F := F) x6 := by
  after_results
  simp only [h_arg6]
  first | rfl | (simp only [TRef.ofBuf, TRef.toBuf, cast_eq]; rfl)
theorem st_v35 (V : Valuation τ sig (Elt F)) (x3 : (⟨S50000x385, .f32⟩ : BufTy).Contents (Elt F)) (x6 : (⟨S4x385x128, .f32⟩ : BufTy).Contents (Elt F)) (x7 : (⟨S4x128, .f32⟩ : BufTy).Contents (Elt F)) (h_arg3 : V (Proc.devRef .tc main_arg3) = x3) (h_v28 : V (Proc.devRef .tc main_v28) = val_main_v28 (F := F) x6) (h_arg7 : V (Proc.devRef .tc main_arg7) = x7) :
    after ops_1 V (Proc.devRef .tc main_v35) = val_main_v35 (F := F) x3 x6 x7 := by
  after_results
  simp only [h_arg3, h_v28, h_arg7]
  first | rfl | (simp only [TRef.ofBuf, TRef.toBuf, cast_eq]; rfl)
theorem st_v36 (V : Valuation τ sig (Elt F)) :
    after ops_1 V (Proc.devRef .tc main_v36) = val_main_v36 (F := F) := by
  after_results
  first | rfl | (simp only [TRef.ofBuf, TRef.toBuf, cast_eq]; rfl)
theorem st_v37 (V : Valuation τ sig (Elt F)) :
    after ops_1 V (Proc.devRef .tc main_v37) = val_main_v37 (F := F) := by
  after_results
  first | rfl | (simp only [TRef.ofBuf, TRef.toBuf, cast_eq]; rfl)
theorem st_v38 (V : Valuation τ sig (Elt F)) :
    after ops_1 V (Proc.devRef .tc main_v38) = val_main_v38 (F := F) := by
  after_results
  first | rfl | (simp only [TRef.ofBuf, TRef.toBuf, cast_eq]; rfl)
theorem st_v39 (V : Valuation τ sig (Elt F)) :
    after ops_1 V (Proc.devRef .tc main_v39) = val_main_v39 (F := F) := by
  after_results
  first | rfl | (simp only [TRef.ofBuf, TRef.toBuf, cast_eq]; rfl)
theorem st_v41 (V : Valuation τ sig (Elt F)) (x4 : (⟨S5x1600000, .i32⟩ : BufTy).Contents (Elt F)) (h_arg4 : V (Proc.devRef .tc main_arg4) = x4) :
    after ops_1 V (Proc.devRef .tc main_v41) = val_main_v41 (F := F) x4 := by
  after_results
  simp only [h_arg4]
  first | rfl | (simp only [TRef.ofBuf, TRef.toBuf, cast_eq]; rfl)
theorem st_v43 (V : Valuation τ sig (Elt F)) (x5 : (⟨S5x1600000, .i32⟩ : BufTy).Contents (Elt F)) (h_arg5 : V (Proc.devRef .tc main_arg5) = x5) :
    after ops_1 V (Proc.devRef .tc main_v43) = val_main_v43 (F := F) x5 := by
  after_results
  simp only [h_arg5]
  first | rfl | (simp only [TRef.ofBuf, TRef.toBuf, cast_eq]; rfl)
theorem st_v45 (V : Valuation τ sig (Elt F)) (x8 : (⟨S5x128x128, .f32⟩ : BufTy).Contents (Elt F)) (h_arg8 : V (Proc.devRef .tc main_arg8) = x8) :
    after ops_1 V (Proc.devRef .tc main_v45) = val_main_v45 (F := F) x8 := by
  after_results
  simp only [h_arg8]
  first | rfl | (simp only [TRef.ofBuf, TRef.toBuf, cast_eq]; rfl)
theorem st_v47 (V : Valuation τ sig (Elt F)) (x9 : (⟨S5x128, .f32⟩ : BufTy).Contents (Elt F)) (h_arg9 : V (Proc.devRef .tc main_arg9) = x9) :
    after ops_1 V (Proc.devRef .tc main_v47) = val_main_v47 (F := F) x9 := by
  after_results
  simp only [h_arg9]
  first | rfl | (simp only [TRef.ofBuf, TRef.toBuf, cast_eq]; rfl)
theorem st_v48 (V : Valuation τ sig (Elt F)) :
    after ops_1 V (Proc.devRef .tc main_v48) = val_main_v48 (F := F) := by
  after_results
  first | rfl | (simp only [TRef.ofBuf, TRef.toBuf, cast_eq]; rfl)
theorem st_v52 (V : Valuation τ sig (Elt F)) (x4 : (⟨S5x1600000, .i32⟩ : BufTy).Contents (Elt F)) (h_arg4 : V (Proc.devRef .tc main_arg4) = x4) :
    after ops_1 V (Proc.devRef .tc main_v52) = val_main_v52 (F := F) x4 := by
  after_results
  simp only [h_arg4]
  first | rfl | (simp only [TRef.ofBuf, TRef.toBuf, cast_eq]; rfl)

end Cert.ReferenceIdeal.Hand

end
-- ==== Proof.RefRunStage1.lean ====
/-
  The reference program's operations 71 to 136, read back list by list. From any contents of the buffers in which every buffer a list
  reads that an earlier list wrote holds its stage function of the arguments (and the argument buffers hold the arguments), a buffer the
  list writes holds its stage function afterwards: its operation's result is the operation applied to its operands' contents, and the
  stage function is defined as that operation applied to the operands' stage functions.
-/
import proofs.«418080_j49366354100286_4_alg».proof.Proof.RefRunChunk1
import proofs.«418080_j49366354100286_4_alg».proof.Proof.RefReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

set_option maxRecDepth 16384
set_option maxHeartbeats 4000000

theorem st_v78 (V : Valuation τ sig (Elt F)) (x0 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (h_v43 : V (Proc.devRef .tc main_v43) = val_main_v43 (F := F) x5) (h_v8 : V (Proc.devRef .tc main_v8) = val_main_v8 (F := F) x0 x6 x7) (h_v52 : V (Proc.devRef .tc main_v52) = val_main_v52 (F := F) x4) (h_v41 : V (Proc.devRef .tc main_v41) = val_main_v41 (F := F) x4) (h_v48 : V (Proc.devRef .tc main_v48) = val_main_v48 (F := F)) (h_v45 : V (Proc.devRef .tc main_v45) = val_main_v45 (F := F) x8) (h_v47 : V (Proc.devRef .tc main_v47) = val_main_v47 (F := F) x9) :
    after ops_2 V (Proc.devRef .tc main_v78) = val_main_v78 (F := F) x0 x4 x5 x6 x7 x8 x9 := by
  after_results
  simp only [h_v43, h_v8, h_v52, h_v41, h_v48, h_v45, h_v47]
  first | rfl | (simp only [TRef.ofBuf, TRef.toBuf, cast_eq]; rfl)
theorem st_v79 (V : Valuation τ sig (Elt F)) (x0 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (h_v37 : V (Proc.devRef .tc main_v37) = val_main_v37 (F := F)) (h_v78 : V (Proc.devRef .tc main_v78) = val_main_v78 (F := F) x0 x4 x5 x6 x7 x8 x9) :
    after ops_3 V (Proc.devRef .tc main_v79) = val_main_v79 (F := F) x0 x4 x5 x6 x7 x8 x9 := by
  after_results
  simp only [h_v37, h_v78]
  first | rfl | (simp only [TRef.ofBuf, TRef.toBuf, cast_eq]; rfl)
theorem st_v81 (V : Valuation τ sig (Elt F)) (x4 : (⟨S5x1600000, .i32⟩ : BufTy).Contents (Elt F)) (h_arg4 : V (Proc.devRef .tc main_arg4) = x4) :
    after ops_3 V (Proc.devRef .tc main_v81) = val_main_v81 (F := F) x4 := by
  after_results
  simp only [h_arg4]
  first | rfl | (simp only [TRef.ofBuf, TRef.toBuf, cast_eq]; rfl)
theorem st_v83 (V : Valuation τ sig (Elt F)) (x5 : (⟨S5x1600000, .i32⟩ : BufTy).Contents (Elt F)) (h_arg5 : V (Proc.devRef .tc main_arg5) = x5) :
    after ops_3 V (Proc.devRef .tc main_v83) = val_main_v83 (F := F) x5 := by
  after_results
  simp only [h_arg5]
  first | rfl | (simp only [TRef.ofBuf, TRef.toBuf, cast_eq]; rfl)
theorem st_v85 (V : Valuation τ sig (Elt F)) (x8 : (⟨S5x128x128, .f32⟩ : BufTy).Contents (Elt F)) (h_arg8 : V (Proc.devRef .tc main_arg8) = x8) :
    after ops_3 V (Proc.devRef .tc main_v85) = val_main_v85 (F := F) x8 := by
  after_results
  simp only [h_arg8]
  first | rfl | (simp only [TRef.ofBuf, TRef.toBuf, cast_eq]; rfl)
theorem st_v87 (V : Valuation τ sig (Elt F)) (x9 : (⟨S5x128, .f32⟩ : BufTy).Contents (Elt F)) (h_arg9 : V (Proc.devRef .tc main_arg9) = x9) :
    after ops_3 V (Proc.devRef .tc main_v87) = val_main_v87 (F := F) x9 := by
  after_results
  simp only [h_arg9]
  first | rfl | (simp only [TRef.ofBuf, TRef.toBuf, cast_eq]; rfl)
theorem st_v96 (V : Valuation τ sig (Elt F)) (x5 : (⟨S5x1600000, .i32⟩ : BufTy).Contents (Elt F)) (h_arg5 : V (Proc.devRef .tc main_arg5) = x5) :
    after ops_3 V (Proc.devRef .tc main_v96) = val_main_v96 (F := F) x5 := by
  after_results
  simp only [h_arg5]
  first | rfl | (simp only [TRef.ofBuf, TRef.toBuf, cast_eq]; rfl)
theorem st_v100 (V : Valuation τ sig (Elt F)) (x1 : (⟨S50000x385, .f32⟩ : BufTy).Contents (Elt F)) (x4 : (⟨S5x1600000, .i32⟩ : BufTy).Contents (Elt F)) (x6 : (⟨S4x385x128, .f32⟩ : BufTy).Contents (Elt F)) (x7 : (⟨S4x128, .f32⟩ : BufTy).Contents (Elt F)) (h_v17 : V (Proc.devRef .tc main_v17) = val_main_v17 (F := F) x1 x6 x7) (h_arg4 : V (Proc.devRef .tc main_arg4) = x4) :
    after ops_3 V (Proc.devRef .tc main_v100) = val_main_v100 (F := F) x1 x4 x6 x7 := by
  after_results
  simp only [h_v17, h_arg4]
  first | rfl | (simp only [TRef.ofBuf, TRef.toBuf, cast_eq]; rfl)
theorem st_v101 (V : Valuation τ sig (Elt F)) :
    after ops_3 V (Proc.devRef .tc main_v101) = val_main_v101 (F := F) := by
  after_results
  first | rfl | (simp only [TRef.ofBuf, TRef.toBuf, cast_eq]; rfl)

end Cert.ReferenceIdeal.Hand

end
-- ==== Proof.RefRunStage2.lean ====
/-
  The reference program's operations 137 to 200, read back list by list. From any contents of the buffers in which every buffer a list
  reads that an earlier list wrote holds its stage function of the arguments (and the argument buffers hold the arguments), a buffer the
  list writes holds its stage function afterwards: its operation's result is the operation applied to its operands' contents, and the
  stage function is defined as that operation applied to the operands' stage functions.
-/
import proofs.«418080_j49366354100286_4_alg».proof.Proof.RefRunChunk2
import proofs.«418080_j49366354100286_4_alg».proof.Proof.RefReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

set_option maxRecDepth 16384
set_option maxHeartbeats 4000000

theorem st_v119 (V : Valuation τ sig (Elt F)) (x1 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (h_v39 : V (Proc.devRef .tc main_v39) = val_main_v39 (F := F)) (h_v83 : V (Proc.devRef .tc main_v83) = val_main_v83 (F := F) x5) (h_v100 : V (Proc.devRef .tc main_v100) = val_main_v100 (F := F) x1 x4 x6 x7) (h_v81 : V (Proc.devRef .tc main_v81) = val_main_v81 (F := F) x4) (h_v101 : V (Proc.devRef .tc main_v101) = val_main_v101 (F := F)) (h_v96 : V (Proc.devRef .tc main_v96) = val_main_v96 (F := F) x5) (h_v85 : V (Proc.devRef .tc main_v85) = val_main_v85 (F := F) x8) (h_v87 : V (Proc.devRef .tc main_v87) = val_main_v87 (F := F) x9) :
    after ops_4 V (Proc.devRef .tc main_v119) = val_main_v119 (F := F) x1 x4 x5 x6 x7 x8 x9 := by
  after_results
  simp only [h_v39, h_v83, h_v100, h_v81, h_v101, h_v96, h_v85, h_v87]
  first | rfl | (simp only [TRef.ofBuf, TRef.toBuf, cast_eq]; rfl)
theorem st_v121 (V : Valuation τ sig (Elt F)) (x4 : (⟨S5x1600000, .i32⟩ : BufTy).Contents (Elt F)) (h_arg4 : V (Proc.devRef .tc main_arg4) = x4) :
    after ops_4 V (Proc.devRef .tc main_v121) = val_main_v121 (F := F) x4 := by
  after_results
  simp only [h_arg4]
  first | rfl | (simp only [TRef.ofBuf, TRef.toBuf, cast_eq]; rfl)
theorem st_v123 (V : Valuation τ sig (Elt F)) (x5 : (⟨S5x1600000, .i32⟩ : BufTy).Contents (Elt F)) (h_arg5 : V (Proc.devRef .tc main_arg5) = x5) :
    after ops_4 V (Proc.devRef .tc main_v123) = val_main_v123 (F := F) x5 := by
  after_results
  simp only [h_arg5]
  first | rfl | (simp only [TRef.ofBuf, TRef.toBuf, cast_eq]; rfl)
theorem st_v125 (V : Valuation τ sig (Elt F)) (x8 : (⟨S5x128x128, .f32⟩ : BufTy).Contents (Elt F)) (h_arg8 : V (Proc.devRef .tc main_arg8) = x8) :
    after ops_4 V (Proc.devRef .tc main_v125) = val_main_v125 (F := F) x8 := by
  after_results
  simp only [h_arg8]
  first | rfl | (simp only [TRef.ofBuf, TRef.toBuf, cast_eq]; rfl)
theorem st_v127 (V : Valuation τ sig (Elt F)) (x9 : (⟨S5x128, .f32⟩ : BufTy).Contents (Elt F)) (h_arg9 : V (Proc.devRef .tc main_arg9) = x9) :
    after ops_4 V (Proc.devRef .tc main_v127) = val_main_v127 (F := F) x9 := by
  after_results
  simp only [h_arg9]
  first | rfl | (simp only [TRef.ofBuf, TRef.toBuf, cast_eq]; rfl)
theorem st_v128 (V : Valuation τ sig (Elt F)) :
    after ops_4 V (Proc.devRef .tc main_v128) = val_main_v128 (F := F) := by
  after_results
  first | rfl | (simp only [TRef.ofBuf, TRef.toBuf, cast_eq]; rfl)
theorem st_v129 (V : Valuation τ sig (Elt F)) :
    after ops_4 V (Proc.devRef .tc main_v129) = val_main_v129 (F := F) := by
  after_results
  first | rfl | (simp only [TRef.ofBuf, TRef.toBuf, cast_eq]; rfl)
theorem st_v150 (V : Valuation τ sig (Elt F)) (x3 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (h_v123 : V (Proc.devRef .tc main_v123) = val_main_v123 (F := F) x5) (h_v35 : V (Proc.devRef .tc main_v35) = val_main_v35 (F := F) x3 x6 x7) (h_v129 : V (Proc.devRef .tc main_v129) = val_main_v129 (F := F)) (h_v121 : V (Proc.devRef .tc main_v121) = val_main_v121 (F := F) x4) (h_v128 : V (Proc.devRef .tc main_v128) = val_main_v128 (F := F)) :
    after ops_5 V (Proc.devRef .tc main_v150) = val_main_v150 (F := F) x3 x4 x5 x6 x7 := by
  after_results
  simp only [h_v123, h_v35, h_v129, h_v121, h_v128]
  first | rfl | (simp only [TRef.ofBuf, TRef.toBuf, cast_eq]; rfl)
theorem st_v151 (V : Valuation τ sig (Elt F)) (x5 : (⟨S5x1600000, .i32⟩ : BufTy).Contents (Elt F)) (h_v123 : V (Proc.devRef .tc main_v123) = val_main_v123 (F := F) x5) (h_v128 : V (Proc.devRef .tc main_v128) = val_main_v128 (F := F)) :
    after ops_5 V (Proc.devRef .tc main_v151) = val_main_v151 (F := F) x5 := by
  after_results
  simp only [h_v123, h_v128]
  first | rfl | (simp only [TRef.ofBuf, TRef.toBuf, cast_eq]; rfl)

end Cert.ReferenceIdeal.Hand

end
-- ==== Proof.RefRunStage3.lean ====
/-
  The reference program's operations 201 to 264, read back list by list. From any contents of the buffers in which every buffer a list
  reads that an earlier list wrote holds its stage function of the arguments (and the argument buffers hold the arguments), a buffer the
  list writes holds its stage function afterwards: its operation's result is the operation applied to its operands' contents, and the
  stage function is defined as that operation applied to the operands' stage functions.
-/
import proofs.«418080_j49366354100286_4_alg».proof.Proof.RefRunChunk3
import proofs.«418080_j49366354100286_4_alg».proof.Proof.RefReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

set_option maxRecDepth 16384
set_option maxHeartbeats 4000000

theorem st_v159 (V : Valuation τ sig (Elt F)) (x3 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (h_v38 : V (Proc.devRef .tc main_v38) = val_main_v38 (F := F)) (h_v150 : V (Proc.devRef .tc main_v150) = val_main_v150 (F := F) x3 x4 x5 x6 x7) (h_v151 : V (Proc.devRef .tc main_v151) = val_main_v151 (F := F) x5) (h_v125 : V (Proc.devRef .tc main_v125) = val_main_v125 (F := F) x8) (h_v127 : V (Proc.devRef .tc main_v127) = val_main_v127 (F := F) x9) :
    after ops_6 V (Proc.devRef .tc main_v159) = val_main_v159 (F := F) x3 x4 x5 x6 x7 x8 x9 := by
  after_results
  simp only [h_v38, h_v150, h_v151, h_v125, h_v127]
  first | rfl | (simp only [TRef.ofBuf, TRef.toBuf, cast_eq]; rfl)
theorem st_v161 (V : Valuation τ sig (Elt F)) (x4 : (⟨S5x1600000, .i32⟩ : BufTy).Contents (Elt F)) (h_arg4 : V (Proc.devRef .tc main_arg4) = x4) :
    after ops_6 V (Proc.devRef .tc main_v161) = val_main_v161 (F := F) x4 := by
  after_results
  simp only [h_arg4]
  first | rfl | (simp only [TRef.ofBuf, TRef.toBuf, cast_eq]; rfl)
theorem st_v163 (V : Valuation τ sig (Elt F)) (x5 : (⟨S5x1600000, .i32⟩ : BufTy).Contents (Elt F)) (h_arg5 : V (Proc.devRef .tc main_arg5) = x5) :
    after ops_6 V (Proc.devRef .tc main_v163) = val_main_v163 (F := F) x5 := by
  after_results
  simp only [h_arg5]
  first | rfl | (simp only [TRef.ofBuf, TRef.toBuf, cast_eq]; rfl)
theorem st_v165 (V : Valuation τ sig (Elt F)) (x8 : (⟨S5x128x128, .f32⟩ : BufTy).Contents (Elt F)) (h_arg8 : V (Proc.devRef .tc main_arg8) = x8) :
    after ops_6 V (Proc.devRef .tc main_v165) = val_main_v165 (F := F) x8 := by
  after_results
  simp only [h_arg8]
  first | rfl | (simp only [TRef.ofBuf, TRef.toBuf, cast_eq]; rfl)
theorem st_v167 (V : Valuation τ sig (Elt F)) (x9 : (⟨S5x128, .f32⟩ : BufTy).Contents (Elt F)) (h_arg9 : V (Proc.devRef .tc main_arg9) = x9) :
    after ops_6 V (Proc.devRef .tc main_v167) = val_main_v167 (F := F) x9 := by
  after_results
  simp only [h_arg9]
  first | rfl | (simp only [TRef.ofBuf, TRef.toBuf, cast_eq]; rfl)
theorem st_v172 (V : Valuation τ sig (Elt F)) (x4 : (⟨S5x1600000, .i32⟩ : BufTy).Contents (Elt F)) (h_arg4 : V (Proc.devRef .tc main_arg4) = x4) :
    after ops_6 V (Proc.devRef .tc main_v172) = val_main_v172 (F := F) x4 := by
  after_results
  simp only [h_arg4]
  first | rfl | (simp only [TRef.ofBuf, TRef.toBuf, cast_eq]; rfl)
theorem st_v175 (V : Valuation τ sig (Elt F)) (x5 : (⟨S5x1600000, .i32⟩ : BufTy).Contents (Elt F)) (h_arg5 : V (Proc.devRef .tc main_arg5) = x5) :
    after ops_6 V (Proc.devRef .tc main_v175) = val_main_v175 (F := F) x5 := by
  after_results
  simp only [h_arg5]
  first | rfl | (simp only [TRef.ofBuf, TRef.toBuf, cast_eq]; rfl)
theorem st_call11_v0 (V : Valuation τ sig (Elt F)) :
    after ops_6 V (Proc.devRef .tc main_call11_v0) = val_main_call11_v0 (F := F) := by
  after_results
  first | rfl | (simp only [TRef.ofBuf, TRef.toBuf, cast_eq]; rfl)
theorem st_v199 (V : Valuation τ sig (Elt F)) (x0 : (⟨S50000x385, .f32⟩ : BufTy).Contents (Elt F)) (x3 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (h_v159 : V (Proc.devRef .tc main_v159) = val_main_v159 (F := F) x3 x4 x5 x6 x7 x8 x9) (h_v163 : V (Proc.devRef .tc main_v163) = val_main_v163 (F := F) x5) (h_v8 : V (Proc.devRef .tc main_v8) = val_main_v8 (F := F) x0 x6 x7) (h_v172 : V (Proc.devRef .tc main_v172) = val_main_v172 (F := F) x4) (h_v161 : V (Proc.devRef .tc main_v161) = val_main_v161 (F := F) x4) (h_call11_v0 : V (Proc.devRef .tc main_call11_v0) = val_main_call11_v0 (F := F)) (h_v175 : V (Proc.devRef .tc main_v175) = val_main_v175 (F := F) x5) (h_v165 : V (Proc.devRef .tc main_v165) = val_main_v165 (F := F) x8) (h_v167 : V (Proc.devRef .tc main_v167) = val_main_v167 (F := F) x9) :
    after ops_7 V (Proc.devRef .tc main_v199) = val_main_v199 (F := F) x0 x3 x4 x5 x6 x7 x8 x9 := by
  after_results
  simp only [h_v159, h_v163, h_v8, h_v172, h_v161, h_call11_v0, h_v175, h_v165, h_v167]
  first | rfl | (simp only [TRef.ofBuf, TRef.toBuf, cast_eq]; rfl)
theorem st_v201 (V : Valuation τ sig (Elt F)) (x4 : (⟨S5x1600000, .i32⟩ : BufTy).Contents (Elt F)) (h_arg4 : V (Proc.devRef .tc main_arg4) = x4) :
    after ops_7 V (Proc.devRef .tc main_v201) = val_main_v201 (F := F) x4 := by
  after_results
  simp only [h_arg4]
  first | rfl | (simp only [TRef.ofBuf, TRef.toBuf, cast_eq]; rfl)
theorem st_v203 (V : Valuation τ sig (Elt F)) (x5 : (⟨S5x1600000, .i32⟩ : BufTy).Contents (Elt F)) (h_arg5 : V (Proc.devRef .tc main_arg5) = x5) :
    after ops_7 V (Proc.devRef .tc main_v203) = val_main_v203 (F := F) x5 := by
  after_results
  simp only [h_arg5]
  first | rfl | (simp only [TRef.ofBuf, TRef.toBuf, cast_eq]; rfl)

end Cert.ReferenceIdeal.Hand

end
-- ==== Proof.RefRunStage4.lean ====
/-
  The reference program's operations 265 to 336, read back list by list. From any contents of the buffers in which every buffer a list
  reads that an earlier list wrote holds its stage function of the arguments (and the argument buffers hold the arguments), a buffer the
  list writes holds its stage function afterwards: its operation's result is the operation applied to its operands' contents, and the
  stage function is defined as that operation applied to the operands' stage functions.
-/
import proofs.«418080_j49366354100286_4_alg».proof.Proof.RefRunChunk4
import proofs.«418080_j49366354100286_4_alg».proof.Proof.RefReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

set_option maxRecDepth 16384
set_option maxHeartbeats 4000000

theorem st_v205 (V : Valuation τ sig (Elt F)) (x8 : (⟨S5x128x128, .f32⟩ : BufTy).Contents (Elt F)) (h_arg8 : V (Proc.devRef .tc main_arg8) = x8) :
    after ops_8 V (Proc.devRef .tc main_v205) = val_main_v205 (F := F) x8 := by
  after_results
  simp only [h_arg8]
  first | rfl | (simp only [TRef.ofBuf, TRef.toBuf, cast_eq]; rfl)
theorem st_v207 (V : Valuation τ sig (Elt F)) (x9 : (⟨S5x128, .f32⟩ : BufTy).Contents (Elt F)) (h_arg9 : V (Proc.devRef .tc main_arg9) = x9) :
    after ops_8 V (Proc.devRef .tc main_v207) = val_main_v207 (F := F) x9 := by
  after_results
  simp only [h_arg9]
  first | rfl | (simp only [TRef.ofBuf, TRef.toBuf, cast_eq]; rfl)
theorem st_v216 (V : Valuation τ sig (Elt F)) (x5 : (⟨S5x1600000, .i32⟩ : BufTy).Contents (Elt F)) (h_v203 : V (Proc.devRef .tc main_v203) = val_main_v203 (F := F) x5) :
    after ops_8 V (Proc.devRef .tc main_v216) = val_main_v216 (F := F) x5 := by
  after_results
  simp only [h_v203]
  first | rfl | (simp only [TRef.ofBuf, TRef.toBuf, cast_eq]; rfl)
theorem st_v227 (V : Valuation τ sig (Elt F)) (x2 : (⟨S50000x385, .f32⟩ : BufTy).Contents (Elt F)) (x4 : (⟨S5x1600000, .i32⟩ : BufTy).Contents (Elt F)) (x6 : (⟨S4x385x128, .f32⟩ : BufTy).Contents (Elt F)) (x7 : (⟨S4x128, .f32⟩ : BufTy).Contents (Elt F)) (h_v26 : V (Proc.devRef .tc main_v26) = val_main_v26 (F := F) x2 x6 x7) (h_v201 : V (Proc.devRef .tc main_v201) = val_main_v201 (F := F) x4) :
    after ops_8 V (Proc.devRef .tc main_v227) = val_main_v227 (F := F) x2 x4 x6 x7 := by
  after_results
  simp only [h_v26, h_v201]
  first | rfl | (simp only [TRef.ofBuf, TRef.toBuf, cast_eq]; rfl)
theorem st_cst_41 (V : Valuation τ sig (Elt F)) :
    after ops_8 V (Proc.devRef .tc main_cst_41) = val_main_cst_41 (F := F) := by
  after_results
  first | rfl | (simp only [TRef.ofBuf, TRef.toBuf, cast_eq]; rfl)
theorem st_v240 (V : Valuation τ sig (Elt F)) (x2 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (h_v36 : V (Proc.devRef .tc main_v36) = val_main_v36 (F := F)) (h_cst_41 : V (Proc.devRef .tc main_cst_41) = val_main_cst_41 (F := F)) (h_v203 : V (Proc.devRef .tc main_v203) = val_main_v203 (F := F) x5) (h_v227 : V (Proc.devRef .tc main_v227) = val_main_v227 (F := F) x2 x4 x6 x7) (h_v216 : V (Proc.devRef .tc main_v216) = val_main_v216 (F := F) x5) (h_v205 : V (Proc.devRef .tc main_v205) = val_main_v205 (F := F) x8) (h_v207 : V (Proc.devRef .tc main_v207) = val_main_v207 (F := F) x9) :
    after ops_9 V (Proc.devRef .tc main_v240) = val_main_v240 (F := F) x2 x4 x5 x6 x7 x8 x9 := by
  after_results
  simp only [h_v36, h_cst_41, h_v203, h_v227, h_v216, h_v205, h_v207]
  first | rfl | (simp only [TRef.ofBuf, TRef.toBuf, cast_eq]; rfl)
theorem st_v241 (V : Valuation τ sig (Elt F)) (x0 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (h_v79 : V (Proc.devRef .tc main_v79) = val_main_v79 (F := F) x0 x4 x5 x6 x7 x8 x9) :
    after ops_9 V (Proc.devRef .tc main_v241) = val_main_v241 (F := F) x0 x4 x5 x6 x7 x8 x9 := by
  after_results
  simp only [h_v79]
  first | rfl | (simp only [TRef.ofBuf, TRef.toBuf, cast_eq]; rfl)
theorem st_v242 (V : Valuation τ sig (Elt F)) (x0 : (⟨S50000x385, .f32⟩ : BufTy).Contents (Elt F)) (x3 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (h_v199 : V (Proc.devRef .tc main_v199) = val_main_v199 (F := F) x0 x3 x4 x5 x6 x7 x8 x9) :
    after ops_9 V (Proc.devRef .tc main_v242) = val_main_v242 (F := F) x0 x3 x4 x5 x6 x7 x8 x9 := by
  after_results
  simp only [h_v199]
  first | rfl | (simp only [TRef.ofBuf, TRef.toBuf, cast_eq]; rfl)
theorem st_v243 (V : Valuation τ sig (Elt F)) (x1 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (h_v119 : V (Proc.devRef .tc main_v119) = val_main_v119 (F := F) x1 x4 x5 x6 x7 x8 x9) :
    after ops_9 V (Proc.devRef .tc main_v243) = val_main_v243 (F := F) x1 x4 x5 x6 x7 x8 x9 := by
  after_results
  simp only [h_v119]
  first | rfl | (simp only [TRef.ofBuf, TRef.toBuf, cast_eq]; rfl)
theorem st_v244 (V : Valuation τ sig (Elt F)) :
    after ops_9 V (Proc.devRef .tc main_v244) = val_main_v244 (F := F) := by
  after_results
  first | rfl | (simp only [TRef.ofBuf, TRef.toBuf, cast_eq]; rfl)
theorem st_v245 (V : Valuation τ sig (Elt F)) :
    after ops_9 V (Proc.devRef .tc main_v245) = val_main_v245 (F := F) := by
  after_results
  first | rfl | (simp only [TRef.ofBuf, TRef.toBuf, cast_eq]; rfl)
theorem st_v246 (V : Valuation τ sig (Elt F)) :
    after ops_9 V (Proc.devRef .tc main_v246) = val_main_v246 (F := F) := by
  after_results
  first | rfl | (simp only [TRef.ofBuf, TRef.toBuf, cast_eq]; rfl)
theorem st_v247 (V : Valuation τ sig (Elt F)) :
    after ops_9 V (Proc.devRef .tc main_v247) = val_main_v247 (F := F) := by
  after_results
  first | rfl | (simp only [TRef.ofBuf, TRef.toBuf, cast_eq]; rfl)
theorem st_v249 (V : Valuation τ sig (Elt F)) (x4 : (⟨S5x1600000, .i32⟩ : BufTy).Contents (Elt F)) (h_arg4 : V (Proc.devRef .tc main_arg4) = x4) :
    after ops_9 V (Proc.devRef .tc main_v249) = val_main_v249 (F := F) x4 := by
  after_results
  simp only [h_arg4]
  first | rfl | (simp only [TRef.ofBuf, TRef.toBuf, cast_eq]; rfl)
theorem st_v251 (V : Valuation τ sig (Elt F)) (x5 : (⟨S5x1600000, .i32⟩ : BufTy).Contents (Elt F)) (h_arg5 : V (Proc.devRef .tc main_arg5) = x5) :
    after ops_9 V (Proc.devRef .tc main_v251) = val_main_v251 (F := F) x5 := by
  after_results
  simp only [h_arg5]
  first | rfl | (simp only [TRef.ofBuf, TRef.toBuf, cast_eq]; rfl)

end Cert.ReferenceIdeal.Hand

end
-- ==== Proof.RefRunStage5.lean ====
/-
  The reference program's operations 337 to 402, read back list by list. From any contents of the buffers in which every buffer a list
  reads that an earlier list wrote holds its stage function of the arguments (and the argument buffers hold the arguments), a buffer the
  list writes holds its stage function afterwards: its operation's result is the operation applied to its operands' contents, and the
  stage function is defined as that operation applied to the operands' stage functions.
-/
import proofs.«418080_j49366354100286_4_alg».proof.Proof.RefRunChunk5
import proofs.«418080_j49366354100286_4_alg».proof.Proof.RefReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

set_option maxRecDepth 16384
set_option maxHeartbeats 4000000

theorem st_v253 (V : Valuation τ sig (Elt F)) (x10 : (⟨S5x128x128, .f32⟩ : BufTy).Contents (Elt F)) (h_arg10 : V (Proc.devRef .tc main_arg10) = x10) :
    after ops_10 V (Proc.devRef .tc main_v253) = val_main_v253 (F := F) x10 := by
  after_results
  simp only [h_arg10]
  first | rfl | (simp only [TRef.ofBuf, TRef.toBuf, cast_eq]; rfl)
theorem st_v255 (V : Valuation τ sig (Elt F)) (x11 : (⟨S5x128, .f32⟩ : BufTy).Contents (Elt F)) (h_arg11 : V (Proc.devRef .tc main_arg11) = x11) :
    after ops_10 V (Proc.devRef .tc main_v255) = val_main_v255 (F := F) x11 := by
  after_results
  simp only [h_arg11]
  first | rfl | (simp only [TRef.ofBuf, TRef.toBuf, cast_eq]; rfl)
theorem st_v264 (V : Valuation τ sig (Elt F)) (x5 : (⟨S5x1600000, .i32⟩ : BufTy).Contents (Elt F)) (h_v251 : V (Proc.devRef .tc main_v251) = val_main_v251 (F := F) x5) :
    after ops_10 V (Proc.devRef .tc main_v264) = val_main_v264 (F := F) x5 := by
  after_results
  simp only [h_v251]
  first | rfl | (simp only [TRef.ofBuf, TRef.toBuf, cast_eq]; rfl)
theorem st_v268 (V : Valuation τ sig (Elt F)) (x2 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (h_v240 : V (Proc.devRef .tc main_v240) = val_main_v240 (F := F) x2 x4 x5 x6 x7 x8 x9) (h_v249 : V (Proc.devRef .tc main_v249) = val_main_v249 (F := F) x4) :
    after ops_10 V (Proc.devRef .tc main_v268) = val_main_v268 (F := F) x2 x4 x5 x6 x7 x8 x9 := by
  after_results
  simp only [h_v240, h_v249]
  first | rfl | (simp only [TRef.ofBuf, TRef.toBuf, cast_eq]; rfl)
theorem st_v273 (V : Valuation τ sig (Elt F)) (x4 : (⟨S5x1600000, .i32⟩ : BufTy).Contents (Elt F)) (h_v249 : V (Proc.devRef .tc main_v249) = val_main_v249 (F := F) x4) :
    after ops_10 V (Proc.devRef .tc main_v273) = val_main_v273 (F := F) x4 := by
  after_results
  simp only [h_v249]
  first | rfl | (simp only [TRef.ofBuf, TRef.toBuf, cast_eq]; rfl)
theorem st_v287 (V : Valuation τ sig (Elt F)) (x2 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (x10 : (⟨S5x128x128, .f32⟩ : BufTy).Contents (Elt F)) (x11 : (⟨S5x128, .f32⟩ : BufTy).Contents (Elt F)) (h_v245 : V (Proc.devRef .tc main_v245) = val_main_v245 (F := F)) (h_v251 : V (Proc.devRef .tc main_v251) = val_main_v251 (F := F) x5) (h_v268 : V (Proc.devRef .tc main_v268) = val_main_v268 (F := F) x2 x4 x5 x6 x7 x8 x9) (h_v273 : V (Proc.devRef .tc main_v273) = val_main_v273 (F := F) x4) (h_v264 : V (Proc.devRef .tc main_v264) = val_main_v264 (F := F) x5) (h_v253 : V (Proc.devRef .tc main_v253) = val_main_v253 (F := F) x10) (h_v255 : V (Proc.devRef .tc main_v255) = val_main_v255 (F := F) x11) :
    after ops_11 V (Proc.devRef .tc main_v287) = val_main_v287 (F := F) x2 x4 x5 x6 x7 x8 x9 x10 x11 := by
  after_results
  simp only [h_v245, h_v251, h_v268, h_v273, h_v264, h_v253, h_v255]
  first | rfl | (simp only [TRef.ofBuf, TRef.toBuf, cast_eq]; rfl)
theorem st_v289 (V : Valuation τ sig (Elt F)) (x4 : (⟨S5x1600000, .i32⟩ : BufTy).Contents (Elt F)) (h_arg4 : V (Proc.devRef .tc main_arg4) = x4) :
    after ops_11 V (Proc.devRef .tc main_v289) = val_main_v289 (F := F) x4 := by
  after_results
  simp only [h_arg4]
  first | rfl | (simp only [TRef.ofBuf, TRef.toBuf, cast_eq]; rfl)
theorem st_v291 (V : Valuation τ sig (Elt F)) (x5 : (⟨S5x1600000, .i32⟩ : BufTy).Contents (Elt F)) (h_arg5 : V (Proc.devRef .tc main_arg5) = x5) :
    after ops_11 V (Proc.devRef .tc main_v291) = val_main_v291 (F := F) x5 := by
  after_results
  simp only [h_arg5]
  first | rfl | (simp only [TRef.ofBuf, TRef.toBuf, cast_eq]; rfl)
theorem st_v293 (V : Valuation τ sig (Elt F)) (x10 : (⟨S5x128x128, .f32⟩ : BufTy).Contents (Elt F)) (h_arg10 : V (Proc.devRef .tc main_arg10) = x10) :
    after ops_11 V (Proc.devRef .tc main_v293) = val_main_v293 (F := F) x10 := by
  after_results
  simp only [h_arg10]
  first | rfl | (simp only [TRef.ofBuf, TRef.toBuf, cast_eq]; rfl)
theorem st_v295 (V : Valuation τ sig (Elt F)) (x11 : (⟨S5x128, .f32⟩ : BufTy).Contents (Elt F)) (h_arg11 : V (Proc.devRef .tc main_arg11) = x11) :
    after ops_11 V (Proc.devRef .tc main_v295) = val_main_v295 (F := F) x11 := by
  after_results
  simp only [h_arg11]
  first | rfl | (simp only [TRef.ofBuf, TRef.toBuf, cast_eq]; rfl)
theorem st_v296 (V : Valuation τ sig (Elt F)) :
    after ops_11 V (Proc.devRef .tc main_v296) = val_main_v296 (F := F) := by
  after_results
  first | rfl | (simp only [TRef.ofBuf, TRef.toBuf, cast_eq]; rfl)
theorem st_v300 (V : Valuation τ sig (Elt F)) (x4 : (⟨S5x1600000, .i32⟩ : BufTy).Contents (Elt F)) (h_arg4 : V (Proc.devRef .tc main_arg4) = x4) :
    after ops_11 V (Proc.devRef .tc main_v300) = val_main_v300 (F := F) x4 := by
  after_results
  simp only [h_arg4]
  first | rfl | (simp only [TRef.ofBuf, TRef.toBuf, cast_eq]; rfl)

end Cert.ReferenceIdeal.Hand

end
-- ==== Proof.RefRunStage6.lean ====
/-
  The reference program's operations 403 to 468, read back list by list. From any contents of the buffers in which every buffer a list
  reads that an earlier list wrote holds its stage function of the arguments (and the argument buffers hold the arguments), a buffer the
  list writes holds its stage function afterwards: its operation's result is the operation applied to its operands' contents, and the
  stage function is defined as that operation applied to the operands' stage functions.
-/
import proofs.«418080_j49366354100286_4_alg».proof.Proof.RefRunChunk6
import proofs.«418080_j49366354100286_4_alg».proof.Proof.RefReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

set_option maxRecDepth 16384
set_option maxHeartbeats 4000000

theorem st_v326 (V : Valuation τ sig (Elt F)) (x0 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (x10 : (⟨S5x128x128, .f32⟩ : BufTy).Contents (Elt F)) (x11 : (⟨S5x128, .f32⟩ : BufTy).Contents (Elt F)) (h_v291 : V (Proc.devRef .tc main_v291) = val_main_v291 (F := F) x5) (h_v241 : V (Proc.devRef .tc main_v241) = val_main_v241 (F := F) x0 x4 x5 x6 x7 x8 x9) (h_v300 : V (Proc.devRef .tc main_v300) = val_main_v300 (F := F) x4) (h_v289 : V (Proc.devRef .tc main_v289) = val_main_v289 (F := F) x4) (h_v296 : V (Proc.devRef .tc main_v296) = val_main_v296 (F := F)) (h_v293 : V (Proc.devRef .tc main_v293) = val_main_v293 (F := F) x10) (h_v295 : V (Proc.devRef .tc main_v295) = val_main_v295 (F := F) x11) :
    after ops_12 V (Proc.devRef .tc main_v326) = val_main_v326 (F := F) x0 x4 x5 x6 x7 x8 x9 x10 x11 := by
  after_results
  simp only [h_v291, h_v241, h_v300, h_v289, h_v296, h_v293, h_v295]
  first | rfl | (simp only [TRef.ofBuf, TRef.toBuf, cast_eq]; rfl)
theorem st_v327 (V : Valuation τ sig (Elt F)) (x0 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (x10 : (⟨S5x128x128, .f32⟩ : BufTy).Contents (Elt F)) (x11 : (⟨S5x128, .f32⟩ : BufTy).Contents (Elt F)) (h_v247 : V (Proc.devRef .tc main_v247) = val_main_v247 (F := F)) (h_v326 : V (Proc.devRef .tc main_v326) = val_main_v326 (F := F) x0 x4 x5 x6 x7 x8 x9 x10 x11) :
    after ops_13 V (Proc.devRef .tc main_v327) = val_main_v327 (F := F) x0 x4 x5 x6 x7 x8 x9 x10 x11 := by
  after_results
  simp only [h_v247, h_v326]
  first | rfl | (simp only [TRef.ofBuf, TRef.toBuf, cast_eq]; rfl)
theorem st_v329 (V : Valuation τ sig (Elt F)) (x4 : (⟨S5x1600000, .i32⟩ : BufTy).Contents (Elt F)) (h_arg4 : V (Proc.devRef .tc main_arg4) = x4) :
    after ops_13 V (Proc.devRef .tc main_v329) = val_main_v329 (F := F) x4 := by
  after_results
  simp only [h_arg4]
  first | rfl | (simp only [TRef.ofBuf, TRef.toBuf, cast_eq]; rfl)
theorem st_v331 (V : Valuation τ sig (Elt F)) (x5 : (⟨S5x1600000, .i32⟩ : BufTy).Contents (Elt F)) (h_arg5 : V (Proc.devRef .tc main_arg5) = x5) :
    after ops_13 V (Proc.devRef .tc main_v331) = val_main_v331 (F := F) x5 := by
  after_results
  simp only [h_arg5]
  first | rfl | (simp only [TRef.ofBuf, TRef.toBuf, cast_eq]; rfl)
theorem st_v333 (V : Valuation τ sig (Elt F)) (x10 : (⟨S5x128x128, .f32⟩ : BufTy).Contents (Elt F)) (h_arg10 : V (Proc.devRef .tc main_arg10) = x10) :
    after ops_13 V (Proc.devRef .tc main_v333) = val_main_v333 (F := F) x10 := by
  after_results
  simp only [h_arg10]
  first | rfl | (simp only [TRef.ofBuf, TRef.toBuf, cast_eq]; rfl)
theorem st_v335 (V : Valuation τ sig (Elt F)) (x11 : (⟨S5x128, .f32⟩ : BufTy).Contents (Elt F)) (h_arg11 : V (Proc.devRef .tc main_arg11) = x11) :
    after ops_13 V (Proc.devRef .tc main_v335) = val_main_v335 (F := F) x11 := by
  after_results
  simp only [h_arg11]
  first | rfl | (simp only [TRef.ofBuf, TRef.toBuf, cast_eq]; rfl)
theorem st_v344 (V : Valuation τ sig (Elt F)) (x5 : (⟨S5x1600000, .i32⟩ : BufTy).Contents (Elt F)) (h_arg5 : V (Proc.devRef .tc main_arg5) = x5) :
    after ops_13 V (Proc.devRef .tc main_v344) = val_main_v344 (F := F) x5 := by
  after_results
  simp only [h_arg5]
  first | rfl | (simp only [TRef.ofBuf, TRef.toBuf, cast_eq]; rfl)
theorem st_v348 (V : Valuation τ sig (Elt F)) (x1 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (h_v243 : V (Proc.devRef .tc main_v243) = val_main_v243 (F := F) x1 x4 x5 x6 x7 x8 x9) (h_arg4 : V (Proc.devRef .tc main_arg4) = x4) :
    after ops_13 V (Proc.devRef .tc main_v348) = val_main_v348 (F := F) x1 x4 x5 x6 x7 x8 x9 := by
  after_results
  simp only [h_v243, h_arg4]
  first | rfl | (simp only [TRef.ofBuf, TRef.toBuf, cast_eq]; rfl)
theorem st_v349 (V : Valuation τ sig (Elt F)) :
    after ops_13 V (Proc.devRef .tc main_v349) = val_main_v349 (F := F) := by
  after_results
  first | rfl | (simp only [TRef.ofBuf, TRef.toBuf, cast_eq]; rfl)

end Cert.ReferenceIdeal.Hand

end
-- ==== Proof.RefRunStage7.lean ====
/-
  The reference program's operations 469 to 532, read back list by list. From any contents of the buffers in which every buffer a list
  reads that an earlier list wrote holds its stage function of the arguments (and the argument buffers hold the arguments), a buffer the
  list writes holds its stage function afterwards: its operation's result is the operation applied to its operands' contents, and the
  stage function is defined as that operation applied to the operands' stage functions.
-/
import proofs.«418080_j49366354100286_4_alg».proof.Proof.RefRunChunk7
import proofs.«418080_j49366354100286_4_alg».proof.Proof.RefReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

set_option maxRecDepth 16384
set_option maxHeartbeats 4000000

theorem st_v367 (V : Valuation τ sig (Elt F)) (x1 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (x10 : (⟨S5x128x128, .f32⟩ : BufTy).Contents (Elt F)) (x11 : (⟨S5x128, .f32⟩ : BufTy).Contents (Elt F)) (h_v246 : V (Proc.devRef .tc main_v246) = val_main_v246 (F := F)) (h_v331 : V (Proc.devRef .tc main_v331) = val_main_v331 (F := F) x5) (h_v348 : V (Proc.devRef .tc main_v348) = val_main_v348 (F := F) x1 x4 x5 x6 x7 x8 x9) (h_v329 : V (Proc.devRef .tc main_v329) = val_main_v329 (F := F) x4) (h_v349 : V (Proc.devRef .tc main_v349) = val_main_v349 (F := F)) (h_v344 : V (Proc.devRef .tc main_v344) = val_main_v344 (F := F) x5) (h_v333 : V (Proc.devRef .tc main_v333) = val_main_v333 (F := F) x10) (h_v335 : V (Proc.devRef .tc main_v335) = val_main_v335 (F := F) x11) :
    after ops_14 V (Proc.devRef .tc main_v367) = val_main_v367 (F := F) x1 x4 x5 x6 x7 x8 x9 x10 x11 := by
  after_results
  simp only [h_v246, h_v331, h_v348, h_v329, h_v349, h_v344, h_v333, h_v335]
  first | rfl | (simp only [TRef.ofBuf, TRef.toBuf, cast_eq]; rfl)
theorem st_v369 (V : Valuation τ sig (Elt F)) (x4 : (⟨S5x1600000, .i32⟩ : BufTy).Contents (Elt F)) (h_arg4 : V (Proc.devRef .tc main_arg4) = x4) :
    after ops_14 V (Proc.devRef .tc main_v369) = val_main_v369 (F := F) x4 := by
  after_results
  simp only [h_arg4]
  first | rfl | (simp only [TRef.ofBuf, TRef.toBuf, cast_eq]; rfl)
theorem st_v371 (V : Valuation τ sig (Elt F)) (x5 : (⟨S5x1600000, .i32⟩ : BufTy).Contents (Elt F)) (h_arg5 : V (Proc.devRef .tc main_arg5) = x5) :
    after ops_14 V (Proc.devRef .tc main_v371) = val_main_v371 (F := F) x5 := by
  after_results
  simp only [h_arg5]
  first | rfl | (simp only [TRef.ofBuf, TRef.toBuf, cast_eq]; rfl)
theorem st_v373 (V : Valuation τ sig (Elt F)) (x10 : (⟨S5x128x128, .f32⟩ : BufTy).Contents (Elt F)) (h_arg10 : V (Proc.devRef .tc main_arg10) = x10) :
    after ops_14 V (Proc.devRef .tc main_v373) = val_main_v373 (F := F) x10 := by
  after_results
  simp only [h_arg10]
  first | rfl | (simp only [TRef.ofBuf, TRef.toBuf, cast_eq]; rfl)
theorem st_v375 (V : Valuation τ sig (Elt F)) (x11 : (⟨S5x128, .f32⟩ : BufTy).Contents (Elt F)) (h_arg11 : V (Proc.devRef .tc main_arg11) = x11) :
    after ops_14 V (Proc.devRef .tc main_v375) = val_main_v375 (F := F) x11 := by
  after_results
  simp only [h_arg11]
  first | rfl | (simp only [TRef.ofBuf, TRef.toBuf, cast_eq]; rfl)
theorem st_v376 (V : Valuation τ sig (Elt F)) :
    after ops_14 V (Proc.devRef .tc main_v376) = val_main_v376 (F := F) := by
  after_results
  first | rfl | (simp only [TRef.ofBuf, TRef.toBuf, cast_eq]; rfl)
theorem st_v377 (V : Valuation τ sig (Elt F)) :
    after ops_14 V (Proc.devRef .tc main_v377) = val_main_v377 (F := F) := by
  after_results
  first | rfl | (simp only [TRef.ofBuf, TRef.toBuf, cast_eq]; rfl)
theorem st_v398 (V : Valuation τ sig (Elt F)) (x2 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (h_v371 : V (Proc.devRef .tc main_v371) = val_main_v371 (F := F) x5) (h_v240 : V (Proc.devRef .tc main_v240) = val_main_v240 (F := F) x2 x4 x5 x6 x7 x8 x9) (h_v377 : V (Proc.devRef .tc main_v377) = val_main_v377 (F := F)) (h_v369 : V (Proc.devRef .tc main_v369) = val_main_v369 (F := F) x4) (h_v376 : V (Proc.devRef .tc main_v376) = val_main_v376 (F := F)) :
    after ops_15 V (Proc.devRef .tc main_v398) = val_main_v398 (F := F) x2 x4 x5 x6 x7 x8 x9 := by
  after_results
  simp only [h_v371, h_v240, h_v377, h_v369, h_v376]
  first | rfl | (simp only [TRef.ofBuf, TRef.toBuf, cast_eq]; rfl)
theorem st_v399 (V : Valuation τ sig (Elt F)) (x5 : (⟨S5x1600000, .i32⟩ : BufTy).Contents (Elt F)) (h_v371 : V (Proc.devRef .tc main_v371) = val_main_v371 (F := F) x5) (h_v376 : V (Proc.devRef .tc main_v376) = val_main_v376 (F := F)) :
    after ops_15 V (Proc.devRef .tc main_v399) = val_main_v399 (F := F) x5 := by
  after_results
  simp only [h_v371, h_v376]
  first | rfl | (simp only [TRef.ofBuf, TRef.toBuf, cast_eq]; rfl)

end Cert.ReferenceIdeal.Hand

end
-- ==== Proof.RefRunStage8.lean ====
/-
  The reference program's operations 533 to 604, read back list by list. From any contents of the buffers in which every buffer a list
  reads that an earlier list wrote holds its stage function of the arguments (and the argument buffers hold the arguments), a buffer the
  list writes holds its stage function afterwards: its operation's result is the operation applied to its operands' contents, and the
  stage function is defined as that operation applied to the operands' stage functions.
-/
import proofs.«418080_j49366354100286_4_alg».proof.Proof.RefRunChunk8
import proofs.«418080_j49366354100286_4_alg».proof.Proof.RefReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

set_option maxRecDepth 16384
set_option maxHeartbeats 4000000

theorem st_v407 (V : Valuation τ sig (Elt F)) (x1 : (⟨S50000x385, .f32⟩ : BufTy).Contents (Elt F)) (x2 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (x10 : (⟨S5x128x128, .f32⟩ : BufTy).Contents (Elt F)) (x11 : (⟨S5x128, .f32⟩ : BufTy).Contents (Elt F)) (h_v367 : V (Proc.devRef .tc main_v367) = val_main_v367 (F := F) x1 x4 x5 x6 x7 x8 x9 x10 x11) (h_v398 : V (Proc.devRef .tc main_v398) = val_main_v398 (F := F) x2 x4 x5 x6 x7 x8 x9) (h_v399 : V (Proc.devRef .tc main_v399) = val_main_v399 (F := F) x5) (h_v373 : V (Proc.devRef .tc main_v373) = val_main_v373 (F := F) x10) (h_v375 : V (Proc.devRef .tc main_v375) = val_main_v375 (F := F) x11) :
    after ops_16 V (Proc.devRef .tc main_v407) = val_main_v407 (F := F) x1 x2 x4 x5 x6 x7 x8 x9 x10 x11 := by
  after_results
  simp only [h_v367, h_v398, h_v399, h_v373, h_v375]
  first | rfl | (simp only [TRef.ofBuf, TRef.toBuf, cast_eq]; rfl)
theorem st_v409 (V : Valuation τ sig (Elt F)) (x4 : (⟨S5x1600000, .i32⟩ : BufTy).Contents (Elt F)) (h_arg4 : V (Proc.devRef .tc main_arg4) = x4) :
    after ops_16 V (Proc.devRef .tc main_v409) = val_main_v409 (F := F) x4 := by
  after_results
  simp only [h_arg4]
  first | rfl | (simp only [TRef.ofBuf, TRef.toBuf, cast_eq]; rfl)
theorem st_v411 (V : Valuation τ sig (Elt F)) (x5 : (⟨S5x1600000, .i32⟩ : BufTy).Contents (Elt F)) (h_arg5 : V (Proc.devRef .tc main_arg5) = x5) :
    after ops_16 V (Proc.devRef .tc main_v411) = val_main_v411 (F := F) x5 := by
  after_results
  simp only [h_arg5]
  first | rfl | (simp only [TRef.ofBuf, TRef.toBuf, cast_eq]; rfl)
theorem st_v413 (V : Valuation τ sig (Elt F)) (x10 : (⟨S5x128x128, .f32⟩ : BufTy).Contents (Elt F)) (h_arg10 : V (Proc.devRef .tc main_arg10) = x10) :
    after ops_16 V (Proc.devRef .tc main_v413) = val_main_v413 (F := F) x10 := by
  after_results
  simp only [h_arg10]
  first | rfl | (simp only [TRef.ofBuf, TRef.toBuf, cast_eq]; rfl)
theorem st_v415 (V : Valuation τ sig (Elt F)) (x11 : (⟨S5x128, .f32⟩ : BufTy).Contents (Elt F)) (h_arg11 : V (Proc.devRef .tc main_arg11) = x11) :
    after ops_16 V (Proc.devRef .tc main_v415) = val_main_v415 (F := F) x11 := by
  after_results
  simp only [h_arg11]
  first | rfl | (simp only [TRef.ofBuf, TRef.toBuf, cast_eq]; rfl)
theorem st_v424 (V : Valuation τ sig (Elt F)) (x5 : (⟨S5x1600000, .i32⟩ : BufTy).Contents (Elt F)) (h_arg5 : V (Proc.devRef .tc main_arg5) = x5) :
    after ops_16 V (Proc.devRef .tc main_v424) = val_main_v424 (F := F) x5 := by
  after_results
  simp only [h_arg5]
  first | rfl | (simp only [TRef.ofBuf, TRef.toBuf, cast_eq]; rfl)
theorem st_v426 (V : Valuation τ sig (Elt F)) (x4 : (⟨S5x1600000, .i32⟩ : BufTy).Contents (Elt F)) (h_arg4 : V (Proc.devRef .tc main_arg4) = x4) :
    after ops_16 V (Proc.devRef .tc main_v426) = val_main_v426 (F := F) x4 := by
  after_results
  simp only [h_arg4]
  first | rfl | (simp only [TRef.ofBuf, TRef.toBuf, cast_eq]; rfl)
theorem st_v448 (V : Valuation τ sig (Elt F)) (x0 : (⟨S50000x385, .f32⟩ : BufTy).Contents (Elt F)) (x3 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (x10 : (⟨S5x128x128, .f32⟩ : BufTy).Contents (Elt F)) (x11 : (⟨S5x128, .f32⟩ : BufTy).Contents (Elt F)) (h_v244 : V (Proc.devRef .tc main_v244) = val_main_v244 (F := F)) (h_v411 : V (Proc.devRef .tc main_v411) = val_main_v411 (F := F) x5) (h_v242 : V (Proc.devRef .tc main_v242) = val_main_v242 (F := F) x0 x3 x4 x5 x6 x7 x8 x9) (h_v426 : V (Proc.devRef .tc main_v426) = val_main_v426 (F := F) x4) (h_v409 : V (Proc.devRef .tc main_v409) = val_main_v409 (F := F) x4) (h_v424 : V (Proc.devRef .tc main_v424) = val_main_v424 (F := F) x5) (h_v413 : V (Proc.devRef .tc main_v413) = val_main_v413 (F := F) x10) (h_v415 : V (Proc.devRef .tc main_v415) = val_main_v415 (F := F) x11) :
    after ops_17 V (Proc.devRef .tc main_v448) = val_main_v448 (F := F) x0 x3 x4 x5 x6 x7 x8 x9 x10 x11 := by
  after_results
  simp only [h_v244, h_v411, h_v242, h_v426, h_v409, h_v424, h_v413, h_v415]
  first | rfl | (simp only [TRef.ofBuf, TRef.toBuf, cast_eq]; rfl)
theorem st_v449 (V : Valuation τ sig (Elt F)) (x2 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (x10 : (⟨S5x128x128, .f32⟩ : BufTy).Contents (Elt F)) (x11 : (⟨S5x128, .f32⟩ : BufTy).Contents (Elt F)) (h_v287 : V (Proc.devRef .tc main_v287) = val_main_v287 (F := F) x2 x4 x5 x6 x7 x8 x9 x10 x11) :
    after ops_17 V (Proc.devRef .tc main_v449) = val_main_v449 (F := F) x2 x4 x5 x6 x7 x8 x9 x10 x11 := by
  after_results
  simp only [h_v287]
  first | rfl | (simp only [TRef.ofBuf, TRef.toBuf, cast_eq]; rfl)
theorem st_v450 (V : Valuation τ sig (Elt F)) (x1 : (⟨S50000x385, .f32⟩ : BufTy).Contents (Elt F)) (x2 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (x10 : (⟨S5x128x128, .f32⟩ : BufTy).Contents (Elt F)) (x11 : (⟨S5x128, .f32⟩ : BufTy).Contents (Elt F)) (h_v407 : V (Proc.devRef .tc main_v407) = val_main_v407 (F := F) x1 x2 x4 x5 x6 x7 x8 x9 x10 x11) :
    after ops_17 V (Proc.devRef .tc main_v450) = val_main_v450 (F := F) x1 x2 x4 x5 x6 x7 x8 x9 x10 x11 := by
  after_results
  simp only [h_v407]
  first | rfl | (simp only [TRef.ofBuf, TRef.toBuf, cast_eq]; rfl)
theorem st_v451 (V : Valuation τ sig (Elt F)) (x0 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (x10 : (⟨S5x128x128, .f32⟩ : BufTy).Contents (Elt F)) (x11 : (⟨S5x128, .f32⟩ : BufTy).Contents (Elt F)) (h_v327 : V (Proc.devRef .tc main_v327) = val_main_v327 (F := F) x0 x4 x5 x6 x7 x8 x9 x10 x11) :
    after ops_17 V (Proc.devRef .tc main_v451) = val_main_v451 (F := F) x0 x4 x5 x6 x7 x8 x9 x10 x11 := by
  after_results
  simp only [h_v327]
  first | rfl | (simp only [TRef.ofBuf, TRef.toBuf, cast_eq]; rfl)

end Cert.ReferenceIdeal.Hand

end
-- ==== Proof.RefRunStage9.lean ====
/-
  The reference program's operations 605 to 609, read back list by list. From any contents of the buffers in which every buffer a list
  reads that an earlier list wrote holds its stage function of the arguments (and the argument buffers hold the arguments), a buffer the
  list writes holds its stage function afterwards: its operation's result is the operation applied to its operands' contents, and the
  stage function is defined as that operation applied to the operands' stage functions.
-/
import proofs.«418080_j49366354100286_4_alg».proof.Proof.RefRunChunk9
import proofs.«418080_j49366354100286_4_alg».proof.Proof.RefReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

set_option maxRecDepth 16384
set_option maxHeartbeats 4000000

theorem st_v456 (V : Valuation τ sig (Elt F)) (x0 : (⟨S50000x385, .f32⟩ : BufTy).Contents (Elt F)) (x1 : (⟨S50000x385, .f32⟩ : BufTy).Contents (Elt F)) (x2 : (⟨S50000x385, .f32⟩ : BufTy).Contents (Elt F)) (x3 : (⟨S50000x385, .f32⟩ : BufTy).Contents (Elt F)) (x4 : (⟨S5x1600000, .i32⟩ : BufTy).Contents (Elt F)) (x5 : (⟨S5x1600000, .i32⟩ : BufTy).Contents (Elt F)) (x6 : (⟨S4x385x128, .f32⟩ : BufTy).Contents (Elt F)) (x7 : (⟨S4x128, .f32⟩ : BufTy).Contents (Elt F)) (x8 : (⟨S5x128x128, .f32⟩ : BufTy).Contents (Elt F)) (x9 : (⟨S5x128, .f32⟩ : BufTy).Contents (Elt F)) (x10 : (⟨S5x128x128, .f32⟩ : BufTy).Contents (Elt F)) (x11 : (⟨S5x128, .f32⟩ : BufTy).Contents (Elt F)) (h_v448 : V (Proc.devRef .tc main_v448) = val_main_v448 (F := F) x0 x3 x4 x5 x6 x7 x8 x9 x10 x11) (h_v449 : V (Proc.devRef .tc main_v449) = val_main_v449 (F := F) x2 x4 x5 x6 x7 x8 x9 x10 x11) (h_v450 : V (Proc.devRef .tc main_v450) = val_main_v450 (F := F) x1 x2 x4 x5 x6 x7 x8 x9 x10 x11) (h_v451 : V (Proc.devRef .tc main_v451) = val_main_v451 (F := F) x0 x4 x5 x6 x7 x8 x9 x10 x11) :
    after ops_18 V (Proc.devRef .tc main_v456) = val_main_v456 (F := F) x0 x1 x2 x3 x4 x5 x6 x7 x8 x9 x10 x11 := by
  simp only [after_cons, after_nil]
  refine (nary4_result _ _ _ _).trans ?_
  repeat (first
    | rw [nullary_result] | rw [unary_result] | rw [binary_result] | rw [ternary_result] | rw [quaternary_result] | rw [reshape_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  generalize V (Proc.devRef .tc main_v448) = t_v448 at h_v448 ⊢
  generalize V (Proc.devRef .tc main_v449) = t_v449 at h_v449 ⊢
  generalize V (Proc.devRef .tc main_v450) = t_v450 at h_v450 ⊢
  generalize V (Proc.devRef .tc main_v451) = t_v451 at h_v451 ⊢
  subst h_v448 h_v449 h_v450 h_v451
  rfl

end Cert.ReferenceIdeal.Hand

end
-- ==== Proof.RefRun.lean ====
/-
  The reference program's run. @main is its ten printed parts in order, each part its one or two lists of operations, so @main is
  the 19 lists appended, and its run ends with every buffer at what the lists leave one after the other from the launch contents.
  A buffer no later list writes keeps what its own list left; so, list by list, every buffer that a later list reads holds its stage
  function of the arguments, and at the end the result does and the arguments are as launched.
-/
import proofs.«418080_j49366354100286_4_alg».proof.Proof.RefRunChunk0
import proofs.«418080_j49366354100286_4_alg».proof.Proof.RefRunStage0
import proofs.«418080_j49366354100286_4_alg».proof.Proof.RefRunChunk1
import proofs.«418080_j49366354100286_4_alg».proof.Proof.RefRunStage1
import proofs.«418080_j49366354100286_4_alg».proof.Proof.RefRunChunk2
import proofs.«418080_j49366354100286_4_alg».proof.Proof.RefRunStage2
import proofs.«418080_j49366354100286_4_alg».proof.Proof.RefRunChunk3
import proofs.«418080_j49366354100286_4_alg».proof.Proof.RefRunStage3
import proofs.«418080_j49366354100286_4_alg».proof.Proof.RefRunChunk4
import proofs.«418080_j49366354100286_4_alg».proof.Proof.RefRunStage4
import proofs.«418080_j49366354100286_4_alg».proof.Proof.RefRunChunk5
import proofs.«418080_j49366354100286_4_alg».proof.Proof.RefRunStage5
import proofs.«418080_j49366354100286_4_alg».proof.Proof.RefRunChunk6
import proofs.«418080_j49366354100286_4_alg».proof.Proof.RefRunStage6
import proofs.«418080_j49366354100286_4_alg».proof.Proof.RefRunChunk7
import proofs.«418080_j49366354100286_4_alg».proof.Proof.RefRunStage7
import proofs.«418080_j49366354100286_4_alg».proof.Proof.RefRunChunk8
import proofs.«418080_j49366354100286_4_alg».proof.Proof.RefRunStage8
import proofs.«418080_j49366354100286_4_alg».proof.Proof.RefRunChunk9
import proofs.«418080_j49366354100286_4_alg».proof.Proof.RefRunStage9
import proofs.«418080_j49366354100286_4_alg».proof.Proof.RefReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

set_option maxRecDepth 16384
set_option maxHeartbeats 4000000

/-- What two lists leave, one after the other, is what their concatenation leaves. -/
theorem after_two : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_two l₁ l₂]

variable (m : (ℓ : Loc nD τ sig) → Buf (Elt F) ℓ)

/-- The buffers' contents at launch, -/
def RV0 (c : Dev nD) : Valuation τ sig (Elt F) := launchContents m c
/-- after list 0, -/
def RV1 (c : Dev nD) : Valuation τ sig (Elt F) := after ops_0 (RV0 m c)
/-- after list 1, -/
def RV2 (c : Dev nD) : Valuation τ sig (Elt F) := after ops_1 (RV1 m c)
/-- after list 2, -/
def RV3 (c : Dev nD) : Valuation τ sig (Elt F) := after ops_2 (RV2 m c)
/-- after list 3, -/
def RV4 (c : Dev nD) : Valuation τ sig (Elt F) := after ops_3 (RV3 m c)
/-- after list 4, -/
def RV5 (c : Dev nD) : Valuation τ sig (Elt F) := after ops_4 (RV4 m c)
/-- after list 5, -/
def RV6 (c : Dev nD) : Valuation τ sig (Elt F) := after ops_5 (RV5 m c)
/-- after list 6, -/
def RV7 (c : Dev nD) : Valuation τ sig (Elt F) := after ops_6 (RV6 m c)
/-- after list 7, -/
def RV8 (c : Dev nD) : Valuation τ sig (Elt F) := after ops_7 (RV7 m c)
/-- after list 8, -/
def RV9 (c : Dev nD) : Valuation τ sig (Elt F) := after ops_8 (RV8 m c)
/-- after list 9, -/
def RV10 (c : Dev nD) : Valuation τ sig (Elt F) := after ops_9 (RV9 m c)
/-- after list 10, -/
def RV11 (c : Dev nD) : Valuation τ sig (Elt F) := after ops_10 (RV10 m c)
/-- after list 11, -/
def RV12 (c : Dev nD) : Valuation τ sig (Elt F) := after ops_11 (RV11 m c)
/-- after list 12, -/
def RV13 (c : Dev nD) : Valuation τ sig (Elt F) := after ops_12 (RV12 m c)
/-- after list 13, -/
def RV14 (c : Dev nD) : Valuation τ sig (Elt F) := after ops_13 (RV13 m c)
/-- after list 14, -/
def RV15 (c : Dev nD) : Valuation τ sig (Elt F) := after ops_14 (RV14 m c)
/-- after list 15, -/
def RV16 (c : Dev nD) : Valuation τ sig (Elt F) := after ops_15 (RV15 m c)
/-- after list 16, -/
def RV17 (c : Dev nD) : Valuation τ sig (Elt F) := after ops_16 (RV16 m c)
/-- after list 17, -/
def RV18 (c : Dev nD) : Valuation τ sig (Elt F) := after ops_17 (RV17 m c)
/-- after list 18, -/
def RV19 (c : Dev nD) : Valuation τ sig (Elt F) := after ops_18 (RV18 m c)

theorem RV1_of (c : Dev nD) (r : Ref sig .tc) (h : r ∉ ops_0_W) : RV1 m c (Proc.devRef .tc r) = RV0 m c (Proc.devRef .tc r) :=
  after_of_writes_sub ops_0 _ ops_0_writes h
theorem RV2_of (c : Dev nD) (r : Ref sig .tc) (h : r ∉ ops_1_W) : RV2 m c (Proc.devRef .tc r) = RV1 m c (Proc.devRef .tc r) :=
  after_of_writes_sub ops_1 _ ops_1_writes h
theorem RV3_of (c : Dev nD) (r : Ref sig .tc) (h : r ∉ ops_2_W) : RV3 m c (Proc.devRef .tc r) = RV2 m c (Proc.devRef .tc r) :=
  after_of_writes_sub ops_2 _ ops_2_writes h
theorem RV4_of (c : Dev nD) (r : Ref sig .tc) (h : r ∉ ops_3_W) : RV4 m c (Proc.devRef .tc r) = RV3 m c (Proc.devRef .tc r) :=
  after_of_writes_sub ops_3 _ ops_3_writes h
theorem RV5_of (c : Dev nD) (r : Ref sig .tc) (h : r ∉ ops_4_W) : RV5 m c (Proc.devRef .tc r) = RV4 m c (Proc.devRef .tc r) :=
  after_of_writes_sub ops_4 _ ops_4_writes h
theorem RV6_of (c : Dev nD) (r : Ref sig .tc) (h : r ∉ ops_5_W) : RV6 m c (Proc.devRef .tc r) = RV5 m c (Proc.devRef .tc r) :=
  after_of_writes_sub ops_5 _ ops_5_writes h
theorem RV7_of (c : Dev nD) (r : Ref sig .tc) (h : r ∉ ops_6_W) : RV7 m c (Proc.devRef .tc r) = RV6 m c (Proc.devRef .tc r) :=
  after_of_writes_sub ops_6 _ ops_6_writes h
theorem RV8_of (c : Dev nD) (r : Ref sig .tc) (h : r ∉ ops_7_W) : RV8 m c (Proc.devRef .tc r) = RV7 m c (Proc.devRef .tc r) :=
  after_of_writes_sub ops_7 _ ops_7_writes h
theorem RV9_of (c : Dev nD) (r : Ref sig .tc) (h : r ∉ ops_8_W) : RV9 m c (Proc.devRef .tc r) = RV8 m c (Proc.devRef .tc r) :=
  after_of_writes_sub ops_8 _ ops_8_writes h
theorem RV10_of (c : Dev nD) (r : Ref sig .tc) (h : r ∉ ops_9_W) : RV10 m c (Proc.devRef .tc r) = RV9 m c (Proc.devRef .tc r) :=
  after_of_writes_sub ops_9 _ ops_9_writes h
theorem RV11_of (c : Dev nD) (r : Ref sig .tc) (h : r ∉ ops_10_W) : RV11 m c (Proc.devRef .tc r) = RV10 m c (Proc.devRef .tc r) :=
  after_of_writes_sub ops_10 _ ops_10_writes h
theorem RV12_of (c : Dev nD) (r : Ref sig .tc) (h : r ∉ ops_11_W) : RV12 m c (Proc.devRef .tc r) = RV11 m c (Proc.devRef .tc r) :=
  after_of_writes_sub ops_11 _ ops_11_writes h
theorem RV13_of (c : Dev nD) (r : Ref sig .tc) (h : r ∉ ops_12_W) : RV13 m c (Proc.devRef .tc r) = RV12 m c (Proc.devRef .tc r) :=
  after_of_writes_sub ops_12 _ ops_12_writes h
theorem RV14_of (c : Dev nD) (r : Ref sig .tc) (h : r ∉ ops_13_W) : RV14 m c (Proc.devRef .tc r) = RV13 m c (Proc.devRef .tc r) :=
  after_of_writes_sub ops_13 _ ops_13_writes h
theorem RV15_of (c : Dev nD) (r : Ref sig .tc) (h : r ∉ ops_14_W) : RV15 m c (Proc.devRef .tc r) = RV14 m c (Proc.devRef .tc r) :=
  after_of_writes_sub ops_14 _ ops_14_writes h
theorem RV16_of (c : Dev nD) (r : Ref sig .tc) (h : r ∉ ops_15_W) : RV16 m c (Proc.devRef .tc r) = RV15 m c (Proc.devRef .tc r) :=
  after_of_writes_sub ops_15 _ ops_15_writes h
theorem RV17_of (c : Dev nD) (r : Ref sig .tc) (h : r ∉ ops_16_W) : RV17 m c (Proc.devRef .tc r) = RV16 m c (Proc.devRef .tc r) :=
  after_of_writes_sub ops_16 _ ops_16_writes h
theorem RV18_of (c : Dev nD) (r : Ref sig .tc) (h : r ∉ ops_17_W) : RV18 m c (Proc.devRef .tc r) = RV17 m c (Proc.devRef .tc r) :=
  after_of_writes_sub ops_17 _ ops_17_writes h
theorem RV19_of (c : Dev nD) (r : Ref sig .tc) (h : r ∉ ops_18_W) : RV19 m c (Proc.devRef .tc r) = RV18 m c (Proc.devRef .tc r) :=
  after_of_writes_sub ops_18 _ ops_18_writes h

/-- @main's operations: the lists, part by part. -/
abbrev allOps : List (HloOp τ sig (Elt F)) :=
  (ops_0 ++ ops_1) ++ ((ops_2 ++ ops_3) ++ ((ops_4 ++ ops_5) ++ ((ops_6 ++ ops_7) ++ ((ops_8 ++ ops_9) ++ ((ops_10 ++ ops_11) ++ ((ops_12 ++ ops_13) ++ ((ops_14 ++ ops_15) ++ ((ops_16 ++ ops_17) ++ (ops_18)))))))))
theorem main_eq (d : Dev nD) : main (F := F) d = seq allOps := by
  show (main_part0 (F := F) d >>= fun _ => main_part1 (F := F) d >>= fun _ => main_part2 (F := F) d >>= fun _ => main_part3 (F := F) d >>= fun _ => main_part4 (F := F) d >>= fun _ => main_part5 (F := F) d >>= fun _ => main_part6 (F := F) d >>= fun _ => main_part7 (F := F) d >>= fun _ => main_part8 (F := F) d >>= fun _ => main_part9 (F := F) d) = _
  rw [main_part0_eq d, main_part1_eq d, main_part2_eq d, main_part3_eq d, main_part4_eq d, main_part5_eq d, main_part6_eq d, main_part7_eq d, main_part8_eq d, main_part9_eq d]
  simp only [allOps, seq_append]
theorem scopedRefs_eq : (Finset.univ.filter fun b : Ref sig .tc => b.isScoped) = ∅ := by decide
theorem scopedSems_eq : (Finset.univ.filter fun sm : SemLoc sig => sm.isScoped .tc) = ∅ := by decide
theorem allOps_sub : (allOps : List (HloOp τ sig (Elt F))).Forall fun op => op.bufs ⊆ tcRefs τ sig := by
  refine List.forall_iff_forall_mem.mpr fun op h => ?_
  simp only [allOps, List.mem_append, or_assoc] at h
  rcases h with h | h | h | h | h | h | h | h | h | h | h | h | h | h | h | h | h | h | h
  · exact List.forall_iff_forall_mem.mp ops_0_sub op h
  · exact List.forall_iff_forall_mem.mp ops_1_sub op h
  · exact List.forall_iff_forall_mem.mp ops_2_sub op h
  · exact List.forall_iff_forall_mem.mp ops_3_sub op h
  · exact List.forall_iff_forall_mem.mp ops_4_sub op h
  · exact List.forall_iff_forall_mem.mp ops_5_sub op h
  · exact List.forall_iff_forall_mem.mp ops_6_sub op h
  · exact List.forall_iff_forall_mem.mp ops_7_sub op h
  · exact List.forall_iff_forall_mem.mp ops_8_sub op h
  · exact List.forall_iff_forall_mem.mp ops_9_sub op h
  · exact List.forall_iff_forall_mem.mp ops_10_sub op h
  · exact List.forall_iff_forall_mem.mp ops_11_sub op h
  · exact List.forall_iff_forall_mem.mp ops_12_sub op h
  · exact List.forall_iff_forall_mem.mp ops_13_sub op h
  · exact List.forall_iff_forall_mem.mp ops_14_sub op h
  · exact List.forall_iff_forall_mem.mp ops_15_sub op h
  · exact List.forall_iff_forall_mem.mp ops_16_sub op h
  · exact List.forall_iff_forall_mem.mp ops_17_sub op h
  · exact List.forall_iff_forall_mem.mp ops_18_sub op h
theorem allOps_fresh : ∀ op ∈ (allOps : List (HloOp τ sig (Elt F))), op.fresh = ∅ := by
  intro op h
  simp only [allOps, List.mem_append, or_assoc] at h
  rcases h with h | h | h | h | h | h | h | h | h | h | h | h | h | h | h | h | h | h | h
  · exact List.forall_iff_forall_mem.mp ops_0_fresh op h
  · exact List.forall_iff_forall_mem.mp ops_1_fresh op h
  · exact List.forall_iff_forall_mem.mp ops_2_fresh op h
  · exact List.forall_iff_forall_mem.mp ops_3_fresh op h
  · exact List.forall_iff_forall_mem.mp ops_4_fresh op h
  · exact List.forall_iff_forall_mem.mp ops_5_fresh op h
  · exact List.forall_iff_forall_mem.mp ops_6_fresh op h
  · exact List.forall_iff_forall_mem.mp ops_7_fresh op h
  · exact List.forall_iff_forall_mem.mp ops_8_fresh op h
  · exact List.forall_iff_forall_mem.mp ops_9_fresh op h
  · exact List.forall_iff_forall_mem.mp ops_10_fresh op h
  · exact List.forall_iff_forall_mem.mp ops_11_fresh op h
  · exact List.forall_iff_forall_mem.mp ops_12_fresh op h
  · exact List.forall_iff_forall_mem.mp ops_13_fresh op h
  · exact List.forall_iff_forall_mem.mp ops_14_fresh op h
  · exact List.forall_iff_forall_mem.mp ops_15_fresh op h
  · exact List.forall_iff_forall_mem.mp ops_16_fresh op h
  · exact List.forall_iff_forall_mem.mp ops_17_fresh op h
  · exact List.forall_iff_forall_mem.mp ops_18_fresh op h
theorem after_allOps (c : Dev nD) : after allOps (launchContents m c) = RV19 m c := by
  simp only [allOps, after_two]
  rfl
/-- The run: every buffer ends at what the lists leave. -/
theorem run_chain (ρ : Dev nD → PrngReg) :
    θ_run defs (onTc (τ := τ) (main (F := F))) ⟨m, fun _ => 0, ρ⟩ fun r => ∀ (d : Dev nD) (b : Ref sig .tc), r.2.mem ((d.tc : Thread nD τ).loc b) = RV19 m d (Proc.devRef .tc b) :=
  (θ_run defs _ _).mono (fun r h d b => (h d b).trans (congrFun (after_allOps m d) _))
    (run_seq scopedRefs_eq scopedSems_eq defs main (fun _ => allOps) main_eq (fun _ => allOps_sub) m ρ (fun _ => allOps_fresh))

theorem at0_arg0 (c : Dev nD) : RV0 m c (Proc.devRef .tc main_arg0) = (m ((c.tc : Thread nD τ).loc main_arg0)) :=
  rfl
theorem at0_arg6 (c : Dev nD) : RV0 m c (Proc.devRef .tc main_arg6) = (m ((c.tc : Thread nD τ).loc main_arg6)) :=
  rfl
theorem at0_arg7 (c : Dev nD) : RV0 m c (Proc.devRef .tc main_arg7) = (m ((c.tc : Thread nD τ).loc main_arg7)) :=
  rfl
theorem rv_v8 (c : Dev nD) : RV1 m c (Proc.devRef .tc main_v8) = val_main_v8 (F := F) (m ((c.tc : Thread nD τ).loc main_arg0)) (m ((c.tc : Thread nD τ).loc main_arg6)) (m ((c.tc : Thread nD τ).loc main_arg7)) :=
  st_v8 (RV0 m c) (m ((c.tc : Thread nD τ).loc main_arg0)) (m ((c.tc : Thread nD τ).loc main_arg6)) (m ((c.tc : Thread nD τ).loc main_arg7)) (at0_arg0 m c) (at0_arg6 m c) (at0_arg7 m c)
theorem at0_arg1 (c : Dev nD) : RV0 m c (Proc.devRef .tc main_arg1) = (m ((c.tc : Thread nD τ).loc main_arg1)) :=
  rfl
theorem rv_v17 (c : Dev nD) : RV1 m c (Proc.devRef .tc main_v17) = val_main_v17 (F := F) (m ((c.tc : Thread nD τ).loc main_arg1)) (m ((c.tc : Thread nD τ).loc main_arg6)) (m ((c.tc : Thread nD τ).loc main_arg7)) :=
  st_v17 (RV0 m c) (m ((c.tc : Thread nD τ).loc main_arg1)) (m ((c.tc : Thread nD τ).loc main_arg6)) (m ((c.tc : Thread nD τ).loc main_arg7)) (at0_arg1 m c) (at0_arg6 m c) (at0_arg7 m c)
theorem at0_arg2 (c : Dev nD) : RV0 m c (Proc.devRef .tc main_arg2) = (m ((c.tc : Thread nD τ).loc main_arg2)) :=
  rfl
theorem rv_v26 (c : Dev nD) : RV1 m c (Proc.devRef .tc main_v26) = val_main_v26 (F := F) (m ((c.tc : Thread nD τ).loc main_arg2)) (m ((c.tc : Thread nD τ).loc main_arg6)) (m ((c.tc : Thread nD τ).loc main_arg7)) :=
  st_v26 (RV0 m c) (m ((c.tc : Thread nD τ).loc main_arg2)) (m ((c.tc : Thread nD τ).loc main_arg6)) (m ((c.tc : Thread nD τ).loc main_arg7)) (at0_arg2 m c) (at0_arg6 m c) (at0_arg7 m c)
theorem rv_v28 (c : Dev nD) : RV1 m c (Proc.devRef .tc main_v28) = val_main_v28 (F := F) (m ((c.tc : Thread nD τ).loc main_arg6)) :=
  st_v28 (RV0 m c) (m ((c.tc : Thread nD τ).loc main_arg6)) (at0_arg6 m c)
theorem at1_arg3 (c : Dev nD) : RV1 m c (Proc.devRef .tc main_arg3) = (m ((c.tc : Thread nD τ).loc main_arg3)) :=
  (RV1_of m c _ (by decide)).trans (rfl)
theorem at1_v28 (c : Dev nD) : RV1 m c (Proc.devRef .tc main_v28) = val_main_v28 (F := F) (m ((c.tc : Thread nD τ).loc main_arg6)) :=
  rv_v28 m c
theorem at1_arg7 (c : Dev nD) : RV1 m c (Proc.devRef .tc main_arg7) = (m ((c.tc : Thread nD τ).loc main_arg7)) :=
  (RV1_of m c _ (by decide)).trans (rfl)
theorem rv_v35 (c : Dev nD) : RV2 m c (Proc.devRef .tc main_v35) = val_main_v35 (F := F) (m ((c.tc : Thread nD τ).loc main_arg3)) (m ((c.tc : Thread nD τ).loc main_arg6)) (m ((c.tc : Thread nD τ).loc main_arg7)) :=
  st_v35 (RV1 m c) (m ((c.tc : Thread nD τ).loc main_arg3)) (m ((c.tc : Thread nD τ).loc main_arg6)) (m ((c.tc : Thread nD τ).loc main_arg7)) (at1_arg3 m c) (at1_v28 m c) (at1_arg7 m c)
theorem rv_v36 (c : Dev nD) : RV2 m c (Proc.devRef .tc main_v36) = val_main_v36 (F := F) :=
  st_v36 (RV1 m c)
theorem rv_v37 (c : Dev nD) : RV2 m c (Proc.devRef .tc main_v37) = val_main_v37 (F := F) :=
  st_v37 (RV1 m c)
theorem rv_v38 (c : Dev nD) : RV2 m c (Proc.devRef .tc main_v38) = val_main_v38 (F := F) :=
  st_v38 (RV1 m c)
theorem rv_v39 (c : Dev nD) : RV2 m c (Proc.devRef .tc main_v39) = val_main_v39 (F := F) :=
  st_v39 (RV1 m c)
theorem at1_arg4 (c : Dev nD) : RV1 m c (Proc.devRef .tc main_arg4) = (m ((c.tc : Thread nD τ).loc main_arg4)) :=
  (RV1_of m c _ (by decide)).trans (rfl)
theorem rv_v41 (c : Dev nD) : RV2 m c (Proc.devRef .tc main_v41) = val_main_v41 (F := F) (m ((c.tc : Thread nD τ).loc main_arg4)) :=
  st_v41 (RV1 m c) (m ((c.tc : Thread nD τ).loc main_arg4)) (at1_arg4 m c)
theorem at1_arg5 (c : Dev nD) : RV1 m c (Proc.devRef .tc main_arg5) = (m ((c.tc : Thread nD τ).loc main_arg5)) :=
  (RV1_of m c _ (by decide)).trans (rfl)
theorem rv_v43 (c : Dev nD) : RV2 m c (Proc.devRef .tc main_v43) = val_main_v43 (F := F) (m ((c.tc : Thread nD τ).loc main_arg5)) :=
  st_v43 (RV1 m c) (m ((c.tc : Thread nD τ).loc main_arg5)) (at1_arg5 m c)
theorem at1_arg8 (c : Dev nD) : RV1 m c (Proc.devRef .tc main_arg8) = (m ((c.tc : Thread nD τ).loc main_arg8)) :=
  (RV1_of m c _ (by decide)).trans (rfl)
theorem rv_v45 (c : Dev nD) : RV2 m c (Proc.devRef .tc main_v45) = val_main_v45 (F := F) (m ((c.tc : Thread nD τ).loc main_arg8)) :=
  st_v45 (RV1 m c) (m ((c.tc : Thread nD τ).loc main_arg8)) (at1_arg8 m c)
theorem at1_arg9 (c : Dev nD) : RV1 m c (Proc.devRef .tc main_arg9) = (m ((c.tc : Thread nD τ).loc main_arg9)) :=
  (RV1_of m c _ (by decide)).trans (rfl)
theorem rv_v47 (c : Dev nD) : RV2 m c (Proc.devRef .tc main_v47) = val_main_v47 (F := F) (m ((c.tc : Thread nD τ).loc main_arg9)) :=
  st_v47 (RV1 m c) (m ((c.tc : Thread nD τ).loc main_arg9)) (at1_arg9 m c)
theorem rv_v48 (c : Dev nD) : RV2 m c (Proc.devRef .tc main_v48) = val_main_v48 (F := F) :=
  st_v48 (RV1 m c)
theorem rv_v52 (c : Dev nD) : RV2 m c (Proc.devRef .tc main_v52) = val_main_v52 (F := F) (m ((c.tc : Thread nD τ).loc main_arg4)) :=
  st_v52 (RV1 m c) (m ((c.tc : Thread nD τ).loc main_arg4)) (at1_arg4 m c)
theorem at2_v43 (c : Dev nD) : RV2 m c (Proc.devRef .tc main_v43) = val_main_v43 (F := F) (m ((c.tc : Thread nD τ).loc main_arg5)) :=
  rv_v43 m c
theorem at2_v8 (c : Dev nD) : RV2 m c (Proc.devRef .tc main_v8) = val_main_v8 (F := F) (m ((c.tc : Thread nD τ).loc main_arg0)) (m ((c.tc : Thread nD τ).loc main_arg6)) (m ((c.tc : Thread nD τ).loc main_arg7)) :=
  (RV2_of m c _ (by decide)).trans (rv_v8 m c)
theorem at2_v52 (c : Dev nD) : RV2 m c (Proc.devRef .tc main_v52) = val_main_v52 (F := F) (m ((c.tc : Thread nD τ).loc main_arg4)) :=
  rv_v52 m c
theorem at2_v41 (c : Dev nD) : RV2 m c (Proc.devRef .tc main_v41) = val_main_v41 (F := F) (m ((c.tc : Thread nD τ).loc main_arg4)) :=
  rv_v41 m c
theorem at2_v48 (c : Dev nD) : RV2 m c (Proc.devRef .tc main_v48) = val_main_v48 (F := F) :=
  rv_v48 m c
theorem at2_v45 (c : Dev nD) : RV2 m c (Proc.devRef .tc main_v45) = val_main_v45 (F := F) (m ((c.tc : Thread nD τ).loc main_arg8)) :=
  rv_v45 m c
theorem at2_v47 (c : Dev nD) : RV2 m c (Proc.devRef .tc main_v47) = val_main_v47 (F := F) (m ((c.tc : Thread nD τ).loc main_arg9)) :=
  rv_v47 m c
theorem rv_v78 (c : Dev nD) : RV3 m c (Proc.devRef .tc main_v78) = val_main_v78 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  st_v78 (RV2 m c) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (at2_v43 m c) (at2_v8 m c) (at2_v52 m c) (at2_v41 m c) (at2_v48 m c) (at2_v45 m c) (at2_v47 m c)
theorem at3_v37 (c : Dev nD) : RV3 m c (Proc.devRef .tc main_v37) = val_main_v37 (F := F) :=
  (RV3_of m c _ (by decide)).trans (rv_v37 m c)
theorem at3_v78 (c : Dev nD) : RV3 m c (Proc.devRef .tc main_v78) = val_main_v78 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  rv_v78 m c
theorem rv_v79 (c : Dev nD) : RV4 m c (Proc.devRef .tc main_v79) = val_main_v79 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  st_v79 (RV3 m c) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (at3_v37 m c) (at3_v78 m c)
theorem at3_arg4 (c : Dev nD) : RV3 m c (Proc.devRef .tc main_arg4) = (m ((c.tc : Thread nD τ).loc main_arg4)) :=
  (RV3_of m c _ (by decide)).trans ((RV2_of m c _ (by decide)).trans ((RV1_of m c _ (by decide)).trans (rfl)))
theorem rv_v81 (c : Dev nD) : RV4 m c (Proc.devRef .tc main_v81) = val_main_v81 (F := F) (m ((c.tc : Thread nD τ).loc main_arg4)) :=
  st_v81 (RV3 m c) (m ((c.tc : Thread nD τ).loc main_arg4)) (at3_arg4 m c)
theorem at3_arg5 (c : Dev nD) : RV3 m c (Proc.devRef .tc main_arg5) = (m ((c.tc : Thread nD τ).loc main_arg5)) :=
  (RV3_of m c _ (by decide)).trans ((RV2_of m c _ (by decide)).trans ((RV1_of m c _ (by decide)).trans (rfl)))
theorem rv_v83 (c : Dev nD) : RV4 m c (Proc.devRef .tc main_v83) = val_main_v83 (F := F) (m ((c.tc : Thread nD τ).loc main_arg5)) :=
  st_v83 (RV3 m c) (m ((c.tc : Thread nD τ).loc main_arg5)) (at3_arg5 m c)
theorem at3_arg8 (c : Dev nD) : RV3 m c (Proc.devRef .tc main_arg8) = (m ((c.tc : Thread nD τ).loc main_arg8)) :=
  (RV3_of m c _ (by decide)).trans ((RV2_of m c _ (by decide)).trans ((RV1_of m c _ (by decide)).trans (rfl)))
theorem rv_v85 (c : Dev nD) : RV4 m c (Proc.devRef .tc main_v85) = val_main_v85 (F := F) (m ((c.tc : Thread nD τ).loc main_arg8)) :=
  st_v85 (RV3 m c) (m ((c.tc : Thread nD τ).loc main_arg8)) (at3_arg8 m c)
theorem at3_arg9 (c : Dev nD) : RV3 m c (Proc.devRef .tc main_arg9) = (m ((c.tc : Thread nD τ).loc main_arg9)) :=
  (RV3_of m c _ (by decide)).trans ((RV2_of m c _ (by decide)).trans ((RV1_of m c _ (by decide)).trans (rfl)))
theorem rv_v87 (c : Dev nD) : RV4 m c (Proc.devRef .tc main_v87) = val_main_v87 (F := F) (m ((c.tc : Thread nD τ).loc main_arg9)) :=
  st_v87 (RV3 m c) (m ((c.tc : Thread nD τ).loc main_arg9)) (at3_arg9 m c)
theorem rv_v96 (c : Dev nD) : RV4 m c (Proc.devRef .tc main_v96) = val_main_v96 (F := F) (m ((c.tc : Thread nD τ).loc main_arg5)) :=
  st_v96 (RV3 m c) (m ((c.tc : Thread nD τ).loc main_arg5)) (at3_arg5 m c)
theorem at3_v17 (c : Dev nD) : RV3 m c (Proc.devRef .tc main_v17) = val_main_v17 (F := F) (m ((c.tc : Thread nD τ).loc main_arg1)) (m ((c.tc : Thread nD τ).loc main_arg6)) (m ((c.tc : Thread nD τ).loc main_arg7)) :=
  (RV3_of m c _ (by decide)).trans ((RV2_of m c _ (by decide)).trans (rv_v17 m c))
theorem rv_v100 (c : Dev nD) : RV4 m c (Proc.devRef .tc main_v100) = val_main_v100 (F := F) (m ((c.tc : Thread nD τ).loc main_arg1)) (m ((c.tc : Thread nD τ).loc main_arg4)) (m ((c.tc : Thread nD τ).loc main_arg6)) (m ((c.tc : Thread nD τ).loc main_arg7)) :=
  st_v100 (RV3 m c) (m ((c.tc : Thread nD τ).loc main_arg1)) (m ((c.tc : Thread nD τ).loc main_arg4)) (m ((c.tc : Thread nD τ).loc main_arg6)) (m ((c.tc : Thread nD τ).loc main_arg7)) (at3_v17 m c) (at3_arg4 m c)
theorem rv_v101 (c : Dev nD) : RV4 m c (Proc.devRef .tc main_v101) = val_main_v101 (F := F) :=
  st_v101 (RV3 m c)
theorem at4_v39 (c : Dev nD) : RV4 m c (Proc.devRef .tc main_v39) = val_main_v39 (F := F) :=
  (RV4_of m c _ (by decide)).trans ((RV3_of m c _ (by decide)).trans (rv_v39 m c))
theorem at4_v83 (c : Dev nD) : RV4 m c (Proc.devRef .tc main_v83) = val_main_v83 (F := F) (m ((c.tc : Thread nD τ).loc main_arg5)) :=
  rv_v83 m c
theorem at4_v100 (c : Dev nD) : RV4 m c (Proc.devRef .tc main_v100) = val_main_v100 (F := F) (m ((c.tc : Thread nD τ).loc main_arg1)) (m ((c.tc : Thread nD τ).loc main_arg4)) (m ((c.tc : Thread nD τ).loc main_arg6)) (m ((c.tc : Thread nD τ).loc main_arg7)) :=
  rv_v100 m c
theorem at4_v81 (c : Dev nD) : RV4 m c (Proc.devRef .tc main_v81) = val_main_v81 (F := F) (m ((c.tc : Thread nD τ).loc main_arg4)) :=
  rv_v81 m c
theorem at4_v101 (c : Dev nD) : RV4 m c (Proc.devRef .tc main_v101) = val_main_v101 (F := F) :=
  rv_v101 m c
theorem at4_v96 (c : Dev nD) : RV4 m c (Proc.devRef .tc main_v96) = val_main_v96 (F := F) (m ((c.tc : Thread nD τ).loc main_arg5)) :=
  rv_v96 m c
theorem at4_v85 (c : Dev nD) : RV4 m c (Proc.devRef .tc main_v85) = val_main_v85 (F := F) (m ((c.tc : Thread nD τ).loc main_arg8)) :=
  rv_v85 m c
theorem at4_v87 (c : Dev nD) : RV4 m c (Proc.devRef .tc main_v87) = val_main_v87 (F := F) (m ((c.tc : Thread nD τ).loc main_arg9)) :=
  rv_v87 m c
theorem rv_v119 (c : Dev nD) : RV5 m c (Proc.devRef .tc main_v119) = val_main_v119 (F := F) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  st_v119 (RV4 m c) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (at4_v39 m c) (at4_v83 m c) (at4_v100 m c) (at4_v81 m c) (at4_v101 m c) (at4_v96 m c) (at4_v85 m c) (at4_v87 m c)
theorem at4_arg4 (c : Dev nD) : RV4 m c (Proc.devRef .tc main_arg4) = (m ((c.tc : Thread nD τ).loc main_arg4)) :=
  (RV4_of m c _ (by decide)).trans ((RV3_of m c _ (by decide)).trans ((RV2_of m c _ (by decide)).trans ((RV1_of m c _ (by decide)).trans (rfl))))
theorem rv_v121 (c : Dev nD) : RV5 m c (Proc.devRef .tc main_v121) = val_main_v121 (F := F) (m ((c.tc : Thread nD τ).loc main_arg4)) :=
  st_v121 (RV4 m c) (m ((c.tc : Thread nD τ).loc main_arg4)) (at4_arg4 m c)
theorem at4_arg5 (c : Dev nD) : RV4 m c (Proc.devRef .tc main_arg5) = (m ((c.tc : Thread nD τ).loc main_arg5)) :=
  (RV4_of m c _ (by decide)).trans ((RV3_of m c _ (by decide)).trans ((RV2_of m c _ (by decide)).trans ((RV1_of m c _ (by decide)).trans (rfl))))
theorem rv_v123 (c : Dev nD) : RV5 m c (Proc.devRef .tc main_v123) = val_main_v123 (F := F) (m ((c.tc : Thread nD τ).loc main_arg5)) :=
  st_v123 (RV4 m c) (m ((c.tc : Thread nD τ).loc main_arg5)) (at4_arg5 m c)
theorem at4_arg8 (c : Dev nD) : RV4 m c (Proc.devRef .tc main_arg8) = (m ((c.tc : Thread nD τ).loc main_arg8)) :=
  (RV4_of m c _ (by decide)).trans ((RV3_of m c _ (by decide)).trans ((RV2_of m c _ (by decide)).trans ((RV1_of m c _ (by decide)).trans (rfl))))
theorem rv_v125 (c : Dev nD) : RV5 m c (Proc.devRef .tc main_v125) = val_main_v125 (F := F) (m ((c.tc : Thread nD τ).loc main_arg8)) :=
  st_v125 (RV4 m c) (m ((c.tc : Thread nD τ).loc main_arg8)) (at4_arg8 m c)
theorem at4_arg9 (c : Dev nD) : RV4 m c (Proc.devRef .tc main_arg9) = (m ((c.tc : Thread nD τ).loc main_arg9)) :=
  (RV4_of m c _ (by decide)).trans ((RV3_of m c _ (by decide)).trans ((RV2_of m c _ (by decide)).trans ((RV1_of m c _ (by decide)).trans (rfl))))
theorem rv_v127 (c : Dev nD) : RV5 m c (Proc.devRef .tc main_v127) = val_main_v127 (F := F) (m ((c.tc : Thread nD τ).loc main_arg9)) :=
  st_v127 (RV4 m c) (m ((c.tc : Thread nD τ).loc main_arg9)) (at4_arg9 m c)
theorem rv_v128 (c : Dev nD) : RV5 m c (Proc.devRef .tc main_v128) = val_main_v128 (F := F) :=
  st_v128 (RV4 m c)
theorem rv_v129 (c : Dev nD) : RV5 m c (Proc.devRef .tc main_v129) = val_main_v129 (F := F) :=
  st_v129 (RV4 m c)
theorem at5_v123 (c : Dev nD) : RV5 m c (Proc.devRef .tc main_v123) = val_main_v123 (F := F) (m ((c.tc : Thread nD τ).loc main_arg5)) :=
  rv_v123 m c
theorem at5_v35 (c : Dev nD) : RV5 m c (Proc.devRef .tc main_v35) = val_main_v35 (F := F) (m ((c.tc : Thread nD τ).loc main_arg3)) (m ((c.tc : Thread nD τ).loc main_arg6)) (m ((c.tc : Thread nD τ).loc main_arg7)) :=
  (RV5_of m c _ (by decide)).trans ((RV4_of m c _ (by decide)).trans ((RV3_of m c _ (by decide)).trans (rv_v35 m c)))
theorem at5_v129 (c : Dev nD) : RV5 m c (Proc.devRef .tc main_v129) = val_main_v129 (F := F) :=
  rv_v129 m c
theorem at5_v121 (c : Dev nD) : RV5 m c (Proc.devRef .tc main_v121) = val_main_v121 (F := F) (m ((c.tc : Thread nD τ).loc main_arg4)) :=
  rv_v121 m c
theorem at5_v128 (c : Dev nD) : RV5 m c (Proc.devRef .tc main_v128) = val_main_v128 (F := F) :=
  rv_v128 m c
theorem rv_v150 (c : Dev nD) : RV6 m c (Proc.devRef .tc main_v150) = val_main_v150 (F := F) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  st_v150 (RV5 m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (at5_v123 m c) (at5_v35 m c) (at5_v129 m c) (at5_v121 m c) (at5_v128 m c)
theorem rv_v151 (c : Dev nD) : RV6 m c (Proc.devRef .tc main_v151) = val_main_v151 (F := F) (m ((c.tc : Thread nD τ).loc main_arg5)) :=
  st_v151 (RV5 m c) (m ((c.tc : Thread nD τ).loc main_arg5)) (at5_v123 m c) (at5_v128 m c)
theorem at6_v38 (c : Dev nD) : RV6 m c (Proc.devRef .tc main_v38) = val_main_v38 (F := F) :=
  (RV6_of m c _ (by decide)).trans ((RV5_of m c _ (by decide)).trans ((RV4_of m c _ (by decide)).trans ((RV3_of m c _ (by decide)).trans (rv_v38 m c))))
theorem at6_v150 (c : Dev nD) : RV6 m c (Proc.devRef .tc main_v150) = val_main_v150 (F := F) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  rv_v150 m c
theorem at6_v151 (c : Dev nD) : RV6 m c (Proc.devRef .tc main_v151) = val_main_v151 (F := F) (m ((c.tc : Thread nD τ).loc main_arg5)) :=
  rv_v151 m c
theorem at6_v125 (c : Dev nD) : RV6 m c (Proc.devRef .tc main_v125) = val_main_v125 (F := F) (m ((c.tc : Thread nD τ).loc main_arg8)) :=
  (RV6_of m c _ (by decide)).trans (rv_v125 m c)
theorem at6_v127 (c : Dev nD) : RV6 m c (Proc.devRef .tc main_v127) = val_main_v127 (F := F) (m ((c.tc : Thread nD τ).loc main_arg9)) :=
  (RV6_of m c _ (by decide)).trans (rv_v127 m c)
theorem rv_v159 (c : Dev nD) : RV7 m c (Proc.devRef .tc main_v159) = val_main_v159 (F := F) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  st_v159 (RV6 m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (at6_v38 m c) (at6_v150 m c) (at6_v151 m c) (at6_v125 m c) (at6_v127 m c)
theorem at6_arg4 (c : Dev nD) : RV6 m c (Proc.devRef .tc main_arg4) = (m ((c.tc : Thread nD τ).loc main_arg4)) :=
  (RV6_of m c _ (by decide)).trans ((RV5_of m c _ (by decide)).trans ((RV4_of m c _ (by decide)).trans ((RV3_of m c _ (by decide)).trans ((RV2_of m c _ (by decide)).trans ((RV1_of m c _ (by decide)).trans (rfl))))))
theorem rv_v161 (c : Dev nD) : RV7 m c (Proc.devRef .tc main_v161) = val_main_v161 (F := F) (m ((c.tc : Thread nD τ).loc main_arg4)) :=
  st_v161 (RV6 m c) (m ((c.tc : Thread nD τ).loc main_arg4)) (at6_arg4 m c)
theorem at6_arg5 (c : Dev nD) : RV6 m c (Proc.devRef .tc main_arg5) = (m ((c.tc : Thread nD τ).loc main_arg5)) :=
  (RV6_of m c _ (by decide)).trans ((RV5_of m c _ (by decide)).trans ((RV4_of m c _ (by decide)).trans ((RV3_of m c _ (by decide)).trans ((RV2_of m c _ (by decide)).trans ((RV1_of m c _ (by decide)).trans (rfl))))))
theorem rv_v163 (c : Dev nD) : RV7 m c (Proc.devRef .tc main_v163) = val_main_v163 (F := F) (m ((c.tc : Thread nD τ).loc main_arg5)) :=
  st_v163 (RV6 m c) (m ((c.tc : Thread nD τ).loc main_arg5)) (at6_arg5 m c)
theorem at6_arg8 (c : Dev nD) : RV6 m c (Proc.devRef .tc main_arg8) = (m ((c.tc : Thread nD τ).loc main_arg8)) :=
  (RV6_of m c _ (by decide)).trans ((RV5_of m c _ (by decide)).trans ((RV4_of m c _ (by decide)).trans ((RV3_of m c _ (by decide)).trans ((RV2_of m c _ (by decide)).trans ((RV1_of m c _ (by decide)).trans (rfl))))))
theorem rv_v165 (c : Dev nD) : RV7 m c (Proc.devRef .tc main_v165) = val_main_v165 (F := F) (m ((c.tc : Thread nD τ).loc main_arg8)) :=
  st_v165 (RV6 m c) (m ((c.tc : Thread nD τ).loc main_arg8)) (at6_arg8 m c)
theorem at6_arg9 (c : Dev nD) : RV6 m c (Proc.devRef .tc main_arg9) = (m ((c.tc : Thread nD τ).loc main_arg9)) :=
  (RV6_of m c _ (by decide)).trans ((RV5_of m c _ (by decide)).trans ((RV4_of m c _ (by decide)).trans ((RV3_of m c _ (by decide)).trans ((RV2_of m c _ (by decide)).trans ((RV1_of m c _ (by decide)).trans (rfl))))))
theorem rv_v167 (c : Dev nD) : RV7 m c (Proc.devRef .tc main_v167) = val_main_v167 (F := F) (m ((c.tc : Thread nD τ).loc main_arg9)) :=
  st_v167 (RV6 m c) (m ((c.tc : Thread nD τ).loc main_arg9)) (at6_arg9 m c)
theorem rv_v172 (c : Dev nD) : RV7 m c (Proc.devRef .tc main_v172) = val_main_v172 (F := F) (m ((c.tc : Thread nD τ).loc main_arg4)) :=
  st_v172 (RV6 m c) (m ((c.tc : Thread nD τ).loc main_arg4)) (at6_arg4 m c)
theorem rv_v175 (c : Dev nD) : RV7 m c (Proc.devRef .tc main_v175) = val_main_v175 (F := F) (m ((c.tc : Thread nD τ).loc main_arg5)) :=
  st_v175 (RV6 m c) (m ((c.tc : Thread nD τ).loc main_arg5)) (at6_arg5 m c)
theorem rv_call11_v0 (c : Dev nD) : RV7 m c (Proc.devRef .tc main_call11_v0) = val_main_call11_v0 (F := F) :=
  st_call11_v0 (RV6 m c)
theorem at7_v159 (c : Dev nD) : RV7 m c (Proc.devRef .tc main_v159) = val_main_v159 (F := F) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  rv_v159 m c
theorem at7_v163 (c : Dev nD) : RV7 m c (Proc.devRef .tc main_v163) = val_main_v163 (F := F) (m ((c.tc : Thread nD τ).loc main_arg5)) :=
  rv_v163 m c
theorem at7_v8 (c : Dev nD) : RV7 m c (Proc.devRef .tc main_v8) = val_main_v8 (F := F) (m ((c.tc : Thread nD τ).loc main_arg0)) (m ((c.tc : Thread nD τ).loc main_arg6)) (m ((c.tc : Thread nD τ).loc main_arg7)) :=
  (RV7_of m c _ (by decide)).trans ((RV6_of m c _ (by decide)).trans ((RV5_of m c _ (by decide)).trans ((RV4_of m c _ (by decide)).trans ((RV3_of m c _ (by decide)).trans ((RV2_of m c _ (by decide)).trans (rv_v8 m c))))))
theorem at7_v172 (c : Dev nD) : RV7 m c (Proc.devRef .tc main_v172) = val_main_v172 (F := F) (m ((c.tc : Thread nD τ).loc main_arg4)) :=
  rv_v172 m c
theorem at7_v161 (c : Dev nD) : RV7 m c (Proc.devRef .tc main_v161) = val_main_v161 (F := F) (m ((c.tc : Thread nD τ).loc main_arg4)) :=
  rv_v161 m c
theorem at7_call11_v0 (c : Dev nD) : RV7 m c (Proc.devRef .tc main_call11_v0) = val_main_call11_v0 (F := F) :=
  rv_call11_v0 m c
theorem at7_v175 (c : Dev nD) : RV7 m c (Proc.devRef .tc main_v175) = val_main_v175 (F := F) (m ((c.tc : Thread nD τ).loc main_arg5)) :=
  rv_v175 m c
theorem at7_v165 (c : Dev nD) : RV7 m c (Proc.devRef .tc main_v165) = val_main_v165 (F := F) (m ((c.tc : Thread nD τ).loc main_arg8)) :=
  rv_v165 m c
theorem at7_v167 (c : Dev nD) : RV7 m c (Proc.devRef .tc main_v167) = val_main_v167 (F := F) (m ((c.tc : Thread nD τ).loc main_arg9)) :=
  rv_v167 m c
theorem rv_v199 (c : Dev nD) : RV8 m c (Proc.devRef .tc main_v199) = val_main_v199 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  st_v199 (RV7 m c) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (at7_v159 m c) (at7_v163 m c) (at7_v8 m c) (at7_v172 m c) (at7_v161 m c) (at7_call11_v0 m c) (at7_v175 m c) (at7_v165 m c) (at7_v167 m c)
theorem at7_arg4 (c : Dev nD) : RV7 m c (Proc.devRef .tc main_arg4) = (m ((c.tc : Thread nD τ).loc main_arg4)) :=
  (RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))
theorem rv_v201 (c : Dev nD) : RV8 m c (Proc.devRef .tc main_v201) = val_main_v201 (F := F) (m ((c.tc : Thread nD τ).loc main_arg4)) :=
  st_v201 (RV7 m c) (m ((c.tc : Thread nD τ).loc main_arg4)) (at7_arg4 m c)
theorem at7_arg5 (c : Dev nD) : RV7 m c (Proc.devRef .tc main_arg5) = (m ((c.tc : Thread nD τ).loc main_arg5)) :=
  (RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))
theorem rv_v203 (c : Dev nD) : RV8 m c (Proc.devRef .tc main_v203) = val_main_v203 (F := F) (m ((c.tc : Thread nD τ).loc main_arg5)) :=
  st_v203 (RV7 m c) (m ((c.tc : Thread nD τ).loc main_arg5)) (at7_arg5 m c)
theorem at8_arg8 (c : Dev nD) : RV8 m c (Proc.devRef .tc main_arg8) = (m ((c.tc : Thread nD τ).loc main_arg8)) :=
  (RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl))))))))
theorem rv_v205 (c : Dev nD) : RV9 m c (Proc.devRef .tc main_v205) = val_main_v205 (F := F) (m ((c.tc : Thread nD τ).loc main_arg8)) :=
  st_v205 (RV8 m c) (m ((c.tc : Thread nD τ).loc main_arg8)) (at8_arg8 m c)
theorem at8_arg9 (c : Dev nD) : RV8 m c (Proc.devRef .tc main_arg9) = (m ((c.tc : Thread nD τ).loc main_arg9)) :=
  (RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl))))))))
theorem rv_v207 (c : Dev nD) : RV9 m c (Proc.devRef .tc main_v207) = val_main_v207 (F := F) (m ((c.tc : Thread nD τ).loc main_arg9)) :=
  st_v207 (RV8 m c) (m ((c.tc : Thread nD τ).loc main_arg9)) (at8_arg9 m c)
theorem at8_v203 (c : Dev nD) : RV8 m c (Proc.devRef .tc main_v203) = val_main_v203 (F := F) (m ((c.tc : Thread nD τ).loc main_arg5)) :=
  rv_v203 m c
theorem rv_v216 (c : Dev nD) : RV9 m c (Proc.devRef .tc main_v216) = val_main_v216 (F := F) (m ((c.tc : Thread nD τ).loc main_arg5)) :=
  st_v216 (RV8 m c) (m ((c.tc : Thread nD τ).loc main_arg5)) (at8_v203 m c)
theorem at8_v26 (c : Dev nD) : RV8 m c (Proc.devRef .tc main_v26) = val_main_v26 (F := F) (m ((c.tc : Thread nD τ).loc main_arg2)) (m ((c.tc : Thread nD τ).loc main_arg6)) (m ((c.tc : Thread nD τ).loc main_arg7)) :=
  (RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans (rv_v26 m c)))))))
theorem at8_v201 (c : Dev nD) : RV8 m c (Proc.devRef .tc main_v201) = val_main_v201 (F := F) (m ((c.tc : Thread nD τ).loc main_arg4)) :=
  rv_v201 m c
theorem rv_v227 (c : Dev nD) : RV9 m c (Proc.devRef .tc main_v227) = val_main_v227 (F := F) (m ((c.tc : Thread nD τ).loc main_arg2)) (m ((c.tc : Thread nD τ).loc main_arg4)) (m ((c.tc : Thread nD τ).loc main_arg6)) (m ((c.tc : Thread nD τ).loc main_arg7)) :=
  st_v227 (RV8 m c) (m ((c.tc : Thread nD τ).loc main_arg2)) (m ((c.tc : Thread nD τ).loc main_arg4)) (m ((c.tc : Thread nD τ).loc main_arg6)) (m ((c.tc : Thread nD τ).loc main_arg7)) (at8_v26 m c) (at8_v201 m c)
theorem rv_cst_41 (c : Dev nD) : RV9 m c (Proc.devRef .tc main_cst_41) = val_main_cst_41 (F := F) :=
  st_cst_41 (RV8 m c)
theorem at9_v36 (c : Dev nD) : RV9 m c (Proc.devRef .tc main_v36) = val_main_v36 (F := F) :=
  (RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans (rv_v36 m c)))))))
theorem at9_cst_41 (c : Dev nD) : RV9 m c (Proc.devRef .tc main_cst_41) = val_main_cst_41 (F := F) :=
  rv_cst_41 m c
theorem at9_v203 (c : Dev nD) : RV9 m c (Proc.devRef .tc main_v203) = val_main_v203 (F := F) (m ((c.tc : Thread nD τ).loc main_arg5)) :=
  (RV9_of m c _ (by decide)).trans (rv_v203 m c)
theorem at9_v227 (c : Dev nD) : RV9 m c (Proc.devRef .tc main_v227) = val_main_v227 (F := F) (m ((c.tc : Thread nD τ).loc main_arg2)) (m ((c.tc : Thread nD τ).loc main_arg4)) (m ((c.tc : Thread nD τ).loc main_arg6)) (m ((c.tc : Thread nD τ).loc main_arg7)) :=
  rv_v227 m c
theorem at9_v216 (c : Dev nD) : RV9 m c (Proc.devRef .tc main_v216) = val_main_v216 (F := F) (m ((c.tc : Thread nD τ).loc main_arg5)) :=
  rv_v216 m c
theorem at9_v205 (c : Dev nD) : RV9 m c (Proc.devRef .tc main_v205) = val_main_v205 (F := F) (m ((c.tc : Thread nD τ).loc main_arg8)) :=
  rv_v205 m c
theorem at9_v207 (c : Dev nD) : RV9 m c (Proc.devRef .tc main_v207) = val_main_v207 (F := F) (m ((c.tc : Thread nD τ).loc main_arg9)) :=
  rv_v207 m c
theorem rv_v240 (c : Dev nD) : RV10 m c (Proc.devRef .tc main_v240) = val_main_v240 (F := F) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  st_v240 (RV9 m c) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (at9_v36 m c) (at9_cst_41 m c) (at9_v203 m c) (at9_v227 m c) (at9_v216 m c) (at9_v205 m c) (at9_v207 m c)
theorem at9_v79 (c : Dev nD) : RV9 m c (Proc.devRef .tc main_v79) = val_main_v79 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (RV9_of m c _ (by decide)).trans ((RV8_of m c _ (by decide)).trans ((RV7_of m c _ (by decide)).trans ((RV6_of m c _ (by decide)).trans ((RV5_of m c _ (by decide)).trans (rv_v79 m c)))))
theorem rv_v241 (c : Dev nD) : RV10 m c (Proc.devRef .tc main_v241) = val_main_v241 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  st_v241 (RV9 m c) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (at9_v79 m c)
theorem at9_v199 (c : Dev nD) : RV9 m c (Proc.devRef .tc main_v199) = val_main_v199 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (RV9_of m c _ (by decide)).trans (rv_v199 m c)
theorem rv_v242 (c : Dev nD) : RV10 m c (Proc.devRef .tc main_v242) = val_main_v242 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  st_v242 (RV9 m c) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (at9_v199 m c)
theorem at9_v119 (c : Dev nD) : RV9 m c (Proc.devRef .tc main_v119) = val_main_v119 (F := F) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (RV9_of m c _ (by decide)).trans ((RV8_of m c _ (by decide)).trans ((RV7_of m c _ (by decide)).trans ((RV6_of m c _ (by decide)).trans (rv_v119 m c))))
theorem rv_v243 (c : Dev nD) : RV10 m c (Proc.devRef .tc main_v243) = val_main_v243 (F := F) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  st_v243 (RV9 m c) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (at9_v119 m c)
theorem rv_v244 (c : Dev nD) : RV10 m c (Proc.devRef .tc main_v244) = val_main_v244 (F := F) :=
  st_v244 (RV9 m c)
theorem rv_v245 (c : Dev nD) : RV10 m c (Proc.devRef .tc main_v245) = val_main_v245 (F := F) :=
  st_v245 (RV9 m c)
theorem rv_v246 (c : Dev nD) : RV10 m c (Proc.devRef .tc main_v246) = val_main_v246 (F := F) :=
  st_v246 (RV9 m c)
theorem rv_v247 (c : Dev nD) : RV10 m c (Proc.devRef .tc main_v247) = val_main_v247 (F := F) :=
  st_v247 (RV9 m c)
theorem at9_arg4 (c : Dev nD) : RV9 m c (Proc.devRef .tc main_arg4) = (m ((c.tc : Thread nD τ).loc main_arg4)) :=
  (RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))
theorem rv_v249 (c : Dev nD) : RV10 m c (Proc.devRef .tc main_v249) = val_main_v249 (F := F) (m ((c.tc : Thread nD τ).loc main_arg4)) :=
  st_v249 (RV9 m c) (m ((c.tc : Thread nD τ).loc main_arg4)) (at9_arg4 m c)
theorem at9_arg5 (c : Dev nD) : RV9 m c (Proc.devRef .tc main_arg5) = (m ((c.tc : Thread nD τ).loc main_arg5)) :=
  (RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))
theorem rv_v251 (c : Dev nD) : RV10 m c (Proc.devRef .tc main_v251) = val_main_v251 (F := F) (m ((c.tc : Thread nD τ).loc main_arg5)) :=
  st_v251 (RV9 m c) (m ((c.tc : Thread nD τ).loc main_arg5)) (at9_arg5 m c)
theorem at10_arg10 (c : Dev nD) : RV10 m c (Proc.devRef .tc main_arg10) = (m ((c.tc : Thread nD τ).loc main_arg10)) :=
  (RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl))))))))))
theorem rv_v253 (c : Dev nD) : RV11 m c (Proc.devRef .tc main_v253) = val_main_v253 (F := F) (m ((c.tc : Thread nD τ).loc main_arg10)) :=
  st_v253 (RV10 m c) (m ((c.tc : Thread nD τ).loc main_arg10)) (at10_arg10 m c)
theorem at10_arg11 (c : Dev nD) : RV10 m c (Proc.devRef .tc main_arg11) = (m ((c.tc : Thread nD τ).loc main_arg11)) :=
  (RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl))))))))))
theorem rv_v255 (c : Dev nD) : RV11 m c (Proc.devRef .tc main_v255) = val_main_v255 (F := F) (m ((c.tc : Thread nD τ).loc main_arg11)) :=
  st_v255 (RV10 m c) (m ((c.tc : Thread nD τ).loc main_arg11)) (at10_arg11 m c)
theorem at10_v251 (c : Dev nD) : RV10 m c (Proc.devRef .tc main_v251) = val_main_v251 (F := F) (m ((c.tc : Thread nD τ).loc main_arg5)) :=
  rv_v251 m c
theorem rv_v264 (c : Dev nD) : RV11 m c (Proc.devRef .tc main_v264) = val_main_v264 (F := F) (m ((c.tc : Thread nD τ).loc main_arg5)) :=
  st_v264 (RV10 m c) (m ((c.tc : Thread nD τ).loc main_arg5)) (at10_v251 m c)
theorem at10_v240 (c : Dev nD) : RV10 m c (Proc.devRef .tc main_v240) = val_main_v240 (F := F) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  rv_v240 m c
theorem at10_v249 (c : Dev nD) : RV10 m c (Proc.devRef .tc main_v249) = val_main_v249 (F := F) (m ((c.tc : Thread nD τ).loc main_arg4)) :=
  rv_v249 m c
theorem rv_v268 (c : Dev nD) : RV11 m c (Proc.devRef .tc main_v268) = val_main_v268 (F := F) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  st_v268 (RV10 m c) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (at10_v240 m c) (at10_v249 m c)
theorem rv_v273 (c : Dev nD) : RV11 m c (Proc.devRef .tc main_v273) = val_main_v273 (F := F) (m ((c.tc : Thread nD τ).loc main_arg4)) :=
  st_v273 (RV10 m c) (m ((c.tc : Thread nD τ).loc main_arg4)) (at10_v249 m c)
theorem at11_v245 (c : Dev nD) : RV11 m c (Proc.devRef .tc main_v245) = val_main_v245 (F := F) :=
  (RV11_of m c _ (by decide)).trans (rv_v245 m c)
theorem at11_v251 (c : Dev nD) : RV11 m c (Proc.devRef .tc main_v251) = val_main_v251 (F := F) (m ((c.tc : Thread nD τ).loc main_arg5)) :=
  (RV11_of m c _ (by decide)).trans (rv_v251 m c)
theorem at11_v268 (c : Dev nD) : RV11 m c (Proc.devRef .tc main_v268) = val_main_v268 (F := F) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  rv_v268 m c
theorem at11_v273 (c : Dev nD) : RV11 m c (Proc.devRef .tc main_v273) = val_main_v273 (F := F) (m ((c.tc : Thread nD τ).loc main_arg4)) :=
  rv_v273 m c
theorem at11_v264 (c : Dev nD) : RV11 m c (Proc.devRef .tc main_v264) = val_main_v264 (F := F) (m ((c.tc : Thread nD τ).loc main_arg5)) :=
  rv_v264 m c
theorem at11_v253 (c : Dev nD) : RV11 m c (Proc.devRef .tc main_v253) = val_main_v253 (F := F) (m ((c.tc : Thread nD τ).loc main_arg10)) :=
  rv_v253 m c
theorem at11_v255 (c : Dev nD) : RV11 m c (Proc.devRef .tc main_v255) = val_main_v255 (F := F) (m ((c.tc : Thread nD τ).loc main_arg11)) :=
  rv_v255 m c
theorem rv_v287 (c : Dev nD) : RV12 m c (Proc.devRef .tc main_v287) = val_main_v287 (F := F) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  st_v287 (RV11 m c) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (at11_v245 m c) (at11_v251 m c) (at11_v268 m c) (at11_v273 m c) (at11_v264 m c) (at11_v253 m c) (at11_v255 m c)
theorem at11_arg4 (c : Dev nD) : RV11 m c (Proc.devRef .tc main_arg4) = (m ((c.tc : Thread nD τ).loc main_arg4)) :=
  (RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))
theorem rv_v289 (c : Dev nD) : RV12 m c (Proc.devRef .tc main_v289) = val_main_v289 (F := F) (m ((c.tc : Thread nD τ).loc main_arg4)) :=
  st_v289 (RV11 m c) (m ((c.tc : Thread nD τ).loc main_arg4)) (at11_arg4 m c)
theorem at11_arg5 (c : Dev nD) : RV11 m c (Proc.devRef .tc main_arg5) = (m ((c.tc : Thread nD τ).loc main_arg5)) :=
  (RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))
theorem rv_v291 (c : Dev nD) : RV12 m c (Proc.devRef .tc main_v291) = val_main_v291 (F := F) (m ((c.tc : Thread nD τ).loc main_arg5)) :=
  st_v291 (RV11 m c) (m ((c.tc : Thread nD τ).loc main_arg5)) (at11_arg5 m c)
theorem at11_arg10 (c : Dev nD) : RV11 m c (Proc.devRef .tc main_arg10) = (m ((c.tc : Thread nD τ).loc main_arg10)) :=
  (RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))
theorem rv_v293 (c : Dev nD) : RV12 m c (Proc.devRef .tc main_v293) = val_main_v293 (F := F) (m ((c.tc : Thread nD τ).loc main_arg10)) :=
  st_v293 (RV11 m c) (m ((c.tc : Thread nD τ).loc main_arg10)) (at11_arg10 m c)
theorem at11_arg11 (c : Dev nD) : RV11 m c (Proc.devRef .tc main_arg11) = (m ((c.tc : Thread nD τ).loc main_arg11)) :=
  (RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))
theorem rv_v295 (c : Dev nD) : RV12 m c (Proc.devRef .tc main_v295) = val_main_v295 (F := F) (m ((c.tc : Thread nD τ).loc main_arg11)) :=
  st_v295 (RV11 m c) (m ((c.tc : Thread nD τ).loc main_arg11)) (at11_arg11 m c)
theorem rv_v296 (c : Dev nD) : RV12 m c (Proc.devRef .tc main_v296) = val_main_v296 (F := F) :=
  st_v296 (RV11 m c)
theorem rv_v300 (c : Dev nD) : RV12 m c (Proc.devRef .tc main_v300) = val_main_v300 (F := F) (m ((c.tc : Thread nD τ).loc main_arg4)) :=
  st_v300 (RV11 m c) (m ((c.tc : Thread nD τ).loc main_arg4)) (at11_arg4 m c)
theorem at12_v291 (c : Dev nD) : RV12 m c (Proc.devRef .tc main_v291) = val_main_v291 (F := F) (m ((c.tc : Thread nD τ).loc main_arg5)) :=
  rv_v291 m c
theorem at12_v241 (c : Dev nD) : RV12 m c (Proc.devRef .tc main_v241) = val_main_v241 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (RV12_of m c _ (by decide)).trans ((RV11_of m c _ (by decide)).trans (rv_v241 m c))
theorem at12_v300 (c : Dev nD) : RV12 m c (Proc.devRef .tc main_v300) = val_main_v300 (F := F) (m ((c.tc : Thread nD τ).loc main_arg4)) :=
  rv_v300 m c
theorem at12_v289 (c : Dev nD) : RV12 m c (Proc.devRef .tc main_v289) = val_main_v289 (F := F) (m ((c.tc : Thread nD τ).loc main_arg4)) :=
  rv_v289 m c
theorem at12_v296 (c : Dev nD) : RV12 m c (Proc.devRef .tc main_v296) = val_main_v296 (F := F) :=
  rv_v296 m c
theorem at12_v293 (c : Dev nD) : RV12 m c (Proc.devRef .tc main_v293) = val_main_v293 (F := F) (m ((c.tc : Thread nD τ).loc main_arg10)) :=
  rv_v293 m c
theorem at12_v295 (c : Dev nD) : RV12 m c (Proc.devRef .tc main_v295) = val_main_v295 (F := F) (m ((c.tc : Thread nD τ).loc main_arg11)) :=
  rv_v295 m c
theorem rv_v326 (c : Dev nD) : RV13 m c (Proc.devRef .tc main_v326) = val_main_v326 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  st_v326 (RV12 m c) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (at12_v291 m c) (at12_v241 m c) (at12_v300 m c) (at12_v289 m c) (at12_v296 m c) (at12_v293 m c) (at12_v295 m c)
theorem at13_v247 (c : Dev nD) : RV13 m c (Proc.devRef .tc main_v247) = val_main_v247 (F := F) :=
  (RV13_of m c _ (by decide)).trans ((RV12_of m c _ (by decide)).trans ((RV11_of m c _ (by decide)).trans (rv_v247 m c)))
theorem at13_v326 (c : Dev nD) : RV13 m c (Proc.devRef .tc main_v326) = val_main_v326 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  rv_v326 m c
theorem rv_v327 (c : Dev nD) : RV14 m c (Proc.devRef .tc main_v327) = val_main_v327 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  st_v327 (RV13 m c) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (at13_v247 m c) (at13_v326 m c)
theorem at13_arg4 (c : Dev nD) : RV13 m c (Proc.devRef .tc main_arg4) = (m ((c.tc : Thread nD τ).loc main_arg4)) :=
  (RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))
theorem rv_v329 (c : Dev nD) : RV14 m c (Proc.devRef .tc main_v329) = val_main_v329 (F := F) (m ((c.tc : Thread nD τ).loc main_arg4)) :=
  st_v329 (RV13 m c) (m ((c.tc : Thread nD τ).loc main_arg4)) (at13_arg4 m c)
theorem at13_arg5 (c : Dev nD) : RV13 m c (Proc.devRef .tc main_arg5) = (m ((c.tc : Thread nD τ).loc main_arg5)) :=
  (RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))
theorem rv_v331 (c : Dev nD) : RV14 m c (Proc.devRef .tc main_v331) = val_main_v331 (F := F) (m ((c.tc : Thread nD τ).loc main_arg5)) :=
  st_v331 (RV13 m c) (m ((c.tc : Thread nD τ).loc main_arg5)) (at13_arg5 m c)
theorem at13_arg10 (c : Dev nD) : RV13 m c (Proc.devRef .tc main_arg10) = (m ((c.tc : Thread nD τ).loc main_arg10)) :=
  (RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))
theorem rv_v333 (c : Dev nD) : RV14 m c (Proc.devRef .tc main_v333) = val_main_v333 (F := F) (m ((c.tc : Thread nD τ).loc main_arg10)) :=
  st_v333 (RV13 m c) (m ((c.tc : Thread nD τ).loc main_arg10)) (at13_arg10 m c)
theorem at13_arg11 (c : Dev nD) : RV13 m c (Proc.devRef .tc main_arg11) = (m ((c.tc : Thread nD τ).loc main_arg11)) :=
  (RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))
theorem rv_v335 (c : Dev nD) : RV14 m c (Proc.devRef .tc main_v335) = val_main_v335 (F := F) (m ((c.tc : Thread nD τ).loc main_arg11)) :=
  st_v335 (RV13 m c) (m ((c.tc : Thread nD τ).loc main_arg11)) (at13_arg11 m c)
theorem rv_v344 (c : Dev nD) : RV14 m c (Proc.devRef .tc main_v344) = val_main_v344 (F := F) (m ((c.tc : Thread nD τ).loc main_arg5)) :=
  st_v344 (RV13 m c) (m ((c.tc : Thread nD τ).loc main_arg5)) (at13_arg5 m c)
theorem at13_v243 (c : Dev nD) : RV13 m c (Proc.devRef .tc main_v243) = val_main_v243 (F := F) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (RV13_of m c _ (by decide)).trans ((RV12_of m c _ (by decide)).trans ((RV11_of m c _ (by decide)).trans (rv_v243 m c)))
theorem rv_v348 (c : Dev nD) : RV14 m c (Proc.devRef .tc main_v348) = val_main_v348 (F := F) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  st_v348 (RV13 m c) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (at13_v243 m c) (at13_arg4 m c)
theorem rv_v349 (c : Dev nD) : RV14 m c (Proc.devRef .tc main_v349) = val_main_v349 (F := F) :=
  st_v349 (RV13 m c)
theorem at14_v246 (c : Dev nD) : RV14 m c (Proc.devRef .tc main_v246) = val_main_v246 (F := F) :=
  (RV14_of m c _ (by decide)).trans ((RV13_of m c _ (by decide)).trans ((RV12_of m c _ (by decide)).trans ((RV11_of m c _ (by decide)).trans (rv_v246 m c))))
theorem at14_v331 (c : Dev nD) : RV14 m c (Proc.devRef .tc main_v331) = val_main_v331 (F := F) (m ((c.tc : Thread nD τ).loc main_arg5)) :=
  rv_v331 m c
theorem at14_v348 (c : Dev nD) : RV14 m c (Proc.devRef .tc main_v348) = val_main_v348 (F := F) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  rv_v348 m c
theorem at14_v329 (c : Dev nD) : RV14 m c (Proc.devRef .tc main_v329) = val_main_v329 (F := F) (m ((c.tc : Thread nD τ).loc main_arg4)) :=
  rv_v329 m c
theorem at14_v349 (c : Dev nD) : RV14 m c (Proc.devRef .tc main_v349) = val_main_v349 (F := F) :=
  rv_v349 m c
theorem at14_v344 (c : Dev nD) : RV14 m c (Proc.devRef .tc main_v344) = val_main_v344 (F := F) (m ((c.tc : Thread nD τ).loc main_arg5)) :=
  rv_v344 m c
theorem at14_v333 (c : Dev nD) : RV14 m c (Proc.devRef .tc main_v333) = val_main_v333 (F := F) (m ((c.tc : Thread nD τ).loc main_arg10)) :=
  rv_v333 m c
theorem at14_v335 (c : Dev nD) : RV14 m c (Proc.devRef .tc main_v335) = val_main_v335 (F := F) (m ((c.tc : Thread nD τ).loc main_arg11)) :=
  rv_v335 m c
theorem rv_v367 (c : Dev nD) : RV15 m c (Proc.devRef .tc main_v367) = val_main_v367 (F := F) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  st_v367 (RV14 m c) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (at14_v246 m c) (at14_v331 m c) (at14_v348 m c) (at14_v329 m c) (at14_v349 m c) (at14_v344 m c) (at14_v333 m c) (at14_v335 m c)
theorem at14_arg4 (c : Dev nD) : RV14 m c (Proc.devRef .tc main_arg4) = (m ((c.tc : Thread nD τ).loc main_arg4)) :=
  (RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl))))))))))))))
theorem rv_v369 (c : Dev nD) : RV15 m c (Proc.devRef .tc main_v369) = val_main_v369 (F := F) (m ((c.tc : Thread nD τ).loc main_arg4)) :=
  st_v369 (RV14 m c) (m ((c.tc : Thread nD τ).loc main_arg4)) (at14_arg4 m c)
theorem at14_arg5 (c : Dev nD) : RV14 m c (Proc.devRef .tc main_arg5) = (m ((c.tc : Thread nD τ).loc main_arg5)) :=
  (RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl))))))))))))))
theorem rv_v371 (c : Dev nD) : RV15 m c (Proc.devRef .tc main_v371) = val_main_v371 (F := F) (m ((c.tc : Thread nD τ).loc main_arg5)) :=
  st_v371 (RV14 m c) (m ((c.tc : Thread nD τ).loc main_arg5)) (at14_arg5 m c)
theorem at14_arg10 (c : Dev nD) : RV14 m c (Proc.devRef .tc main_arg10) = (m ((c.tc : Thread nD τ).loc main_arg10)) :=
  (RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl))))))))))))))
theorem rv_v373 (c : Dev nD) : RV15 m c (Proc.devRef .tc main_v373) = val_main_v373 (F := F) (m ((c.tc : Thread nD τ).loc main_arg10)) :=
  st_v373 (RV14 m c) (m ((c.tc : Thread nD τ).loc main_arg10)) (at14_arg10 m c)
theorem at14_arg11 (c : Dev nD) : RV14 m c (Proc.devRef .tc main_arg11) = (m ((c.tc : Thread nD τ).loc main_arg11)) :=
  (RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl))))))))))))))
theorem rv_v375 (c : Dev nD) : RV15 m c (Proc.devRef .tc main_v375) = val_main_v375 (F := F) (m ((c.tc : Thread nD τ).loc main_arg11)) :=
  st_v375 (RV14 m c) (m ((c.tc : Thread nD τ).loc main_arg11)) (at14_arg11 m c)
theorem rv_v376 (c : Dev nD) : RV15 m c (Proc.devRef .tc main_v376) = val_main_v376 (F := F) :=
  st_v376 (RV14 m c)
theorem rv_v377 (c : Dev nD) : RV15 m c (Proc.devRef .tc main_v377) = val_main_v377 (F := F) :=
  st_v377 (RV14 m c)
theorem at15_v371 (c : Dev nD) : RV15 m c (Proc.devRef .tc main_v371) = val_main_v371 (F := F) (m ((c.tc : Thread nD τ).loc main_arg5)) :=
  rv_v371 m c
theorem at15_v240 (c : Dev nD) : RV15 m c (Proc.devRef .tc main_v240) = val_main_v240 (F := F) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (RV15_of m c _ (by decide)).trans ((RV14_of m c _ (by decide)).trans ((RV13_of m c _ (by decide)).trans ((RV12_of m c _ (by decide)).trans ((RV11_of m c _ (by decide)).trans (rv_v240 m c)))))
theorem at15_v377 (c : Dev nD) : RV15 m c (Proc.devRef .tc main_v377) = val_main_v377 (F := F) :=
  rv_v377 m c
theorem at15_v369 (c : Dev nD) : RV15 m c (Proc.devRef .tc main_v369) = val_main_v369 (F := F) (m ((c.tc : Thread nD τ).loc main_arg4)) :=
  rv_v369 m c
theorem at15_v376 (c : Dev nD) : RV15 m c (Proc.devRef .tc main_v376) = val_main_v376 (F := F) :=
  rv_v376 m c
theorem rv_v398 (c : Dev nD) : RV16 m c (Proc.devRef .tc main_v398) = val_main_v398 (F := F) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  st_v398 (RV15 m c) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (at15_v371 m c) (at15_v240 m c) (at15_v377 m c) (at15_v369 m c) (at15_v376 m c)
theorem rv_v399 (c : Dev nD) : RV16 m c (Proc.devRef .tc main_v399) = val_main_v399 (F := F) (m ((c.tc : Thread nD τ).loc main_arg5)) :=
  st_v399 (RV15 m c) (m ((c.tc : Thread nD τ).loc main_arg5)) (at15_v371 m c) (at15_v376 m c)
theorem at16_v367 (c : Dev nD) : RV16 m c (Proc.devRef .tc main_v367) = val_main_v367 (F := F) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (RV16_of m c _ (by decide)).trans (rv_v367 m c)
theorem at16_v398 (c : Dev nD) : RV16 m c (Proc.devRef .tc main_v398) = val_main_v398 (F := F) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  rv_v398 m c
theorem at16_v399 (c : Dev nD) : RV16 m c (Proc.devRef .tc main_v399) = val_main_v399 (F := F) (m ((c.tc : Thread nD τ).loc main_arg5)) :=
  rv_v399 m c
theorem at16_v373 (c : Dev nD) : RV16 m c (Proc.devRef .tc main_v373) = val_main_v373 (F := F) (m ((c.tc : Thread nD τ).loc main_arg10)) :=
  (RV16_of m c _ (by decide)).trans (rv_v373 m c)
theorem at16_v375 (c : Dev nD) : RV16 m c (Proc.devRef .tc main_v375) = val_main_v375 (F := F) (m ((c.tc : Thread nD τ).loc main_arg11)) :=
  (RV16_of m c _ (by decide)).trans (rv_v375 m c)
theorem rv_v407 (c : Dev nD) : RV17 m c (Proc.devRef .tc main_v407) = val_main_v407 (F := F) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  st_v407 (RV16 m c) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (at16_v367 m c) (at16_v398 m c) (at16_v399 m c) (at16_v373 m c) (at16_v375 m c)
theorem at16_arg4 (c : Dev nD) : RV16 m c (Proc.devRef .tc main_arg4) = (m ((c.tc : Thread nD τ).loc main_arg4)) :=
  (RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl))))))))))))))))
theorem rv_v409 (c : Dev nD) : RV17 m c (Proc.devRef .tc main_v409) = val_main_v409 (F := F) (m ((c.tc : Thread nD τ).loc main_arg4)) :=
  st_v409 (RV16 m c) (m ((c.tc : Thread nD τ).loc main_arg4)) (at16_arg4 m c)
theorem at16_arg5 (c : Dev nD) : RV16 m c (Proc.devRef .tc main_arg5) = (m ((c.tc : Thread nD τ).loc main_arg5)) :=
  (RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl))))))))))))))))
theorem rv_v411 (c : Dev nD) : RV17 m c (Proc.devRef .tc main_v411) = val_main_v411 (F := F) (m ((c.tc : Thread nD τ).loc main_arg5)) :=
  st_v411 (RV16 m c) (m ((c.tc : Thread nD τ).loc main_arg5)) (at16_arg5 m c)
theorem at16_arg10 (c : Dev nD) : RV16 m c (Proc.devRef .tc main_arg10) = (m ((c.tc : Thread nD τ).loc main_arg10)) :=
  (RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl))))))))))))))))
theorem rv_v413 (c : Dev nD) : RV17 m c (Proc.devRef .tc main_v413) = val_main_v413 (F := F) (m ((c.tc : Thread nD τ).loc main_arg10)) :=
  st_v413 (RV16 m c) (m ((c.tc : Thread nD τ).loc main_arg10)) (at16_arg10 m c)
theorem at16_arg11 (c : Dev nD) : RV16 m c (Proc.devRef .tc main_arg11) = (m ((c.tc : Thread nD τ).loc main_arg11)) :=
  (RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl))))))))))))))))
theorem rv_v415 (c : Dev nD) : RV17 m c (Proc.devRef .tc main_v415) = val_main_v415 (F := F) (m ((c.tc : Thread nD τ).loc main_arg11)) :=
  st_v415 (RV16 m c) (m ((c.tc : Thread nD τ).loc main_arg11)) (at16_arg11 m c)
theorem rv_v424 (c : Dev nD) : RV17 m c (Proc.devRef .tc main_v424) = val_main_v424 (F := F) (m ((c.tc : Thread nD τ).loc main_arg5)) :=
  st_v424 (RV16 m c) (m ((c.tc : Thread nD τ).loc main_arg5)) (at16_arg5 m c)
theorem rv_v426 (c : Dev nD) : RV17 m c (Proc.devRef .tc main_v426) = val_main_v426 (F := F) (m ((c.tc : Thread nD τ).loc main_arg4)) :=
  st_v426 (RV16 m c) (m ((c.tc : Thread nD τ).loc main_arg4)) (at16_arg4 m c)
theorem at17_v244 (c : Dev nD) : RV17 m c (Proc.devRef .tc main_v244) = val_main_v244 (F := F) :=
  (RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans (rv_v244 m c)))))))
theorem at17_v411 (c : Dev nD) : RV17 m c (Proc.devRef .tc main_v411) = val_main_v411 (F := F) (m ((c.tc : Thread nD τ).loc main_arg5)) :=
  rv_v411 m c
theorem at17_v242 (c : Dev nD) : RV17 m c (Proc.devRef .tc main_v242) = val_main_v242 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans (rv_v242 m c)))))))
theorem at17_v426 (c : Dev nD) : RV17 m c (Proc.devRef .tc main_v426) = val_main_v426 (F := F) (m ((c.tc : Thread nD τ).loc main_arg4)) :=
  rv_v426 m c
theorem at17_v409 (c : Dev nD) : RV17 m c (Proc.devRef .tc main_v409) = val_main_v409 (F := F) (m ((c.tc : Thread nD τ).loc main_arg4)) :=
  rv_v409 m c
theorem at17_v424 (c : Dev nD) : RV17 m c (Proc.devRef .tc main_v424) = val_main_v424 (F := F) (m ((c.tc : Thread nD τ).loc main_arg5)) :=
  rv_v424 m c
theorem at17_v413 (c : Dev nD) : RV17 m c (Proc.devRef .tc main_v413) = val_main_v413 (F := F) (m ((c.tc : Thread nD τ).loc main_arg10)) :=
  rv_v413 m c
theorem at17_v415 (c : Dev nD) : RV17 m c (Proc.devRef .tc main_v415) = val_main_v415 (F := F) (m ((c.tc : Thread nD τ).loc main_arg11)) :=
  rv_v415 m c
theorem rv_v448 (c : Dev nD) : RV18 m c (Proc.devRef .tc main_v448) = val_main_v448 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  st_v448 (RV17 m c) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (at17_v244 m c) (at17_v411 m c) (at17_v242 m c) (at17_v426 m c) (at17_v409 m c) (at17_v424 m c) (at17_v413 m c) (at17_v415 m c)
theorem at17_v287 (c : Dev nD) : RV17 m c (Proc.devRef .tc main_v287) = val_main_v287 (F := F) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (RV17_of m c _ (by decide)).trans ((RV16_of m c _ (by decide)).trans ((RV15_of m c _ (by decide)).trans ((RV14_of m c _ (by decide)).trans ((RV13_of m c _ (by decide)).trans (rv_v287 m c)))))
theorem rv_v449 (c : Dev nD) : RV18 m c (Proc.devRef .tc main_v449) = val_main_v449 (F := F) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  st_v449 (RV17 m c) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (at17_v287 m c)
theorem at17_v407 (c : Dev nD) : RV17 m c (Proc.devRef .tc main_v407) = val_main_v407 (F := F) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  rv_v407 m c
theorem rv_v450 (c : Dev nD) : RV18 m c (Proc.devRef .tc main_v450) = val_main_v450 (F := F) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  st_v450 (RV17 m c) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (at17_v407 m c)
theorem at17_v327 (c : Dev nD) : RV17 m c (Proc.devRef .tc main_v327) = val_main_v327 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (RV17_of m c _ (by decide)).trans ((RV16_of m c _ (by decide)).trans ((RV15_of m c _ (by decide)).trans (rv_v327 m c)))
theorem rv_v451 (c : Dev nD) : RV18 m c (Proc.devRef .tc main_v451) = val_main_v451 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  st_v451 (RV17 m c) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (at17_v327 m c)
theorem at18_v448 (c : Dev nD) : RV18 m c (Proc.devRef .tc main_v448) = val_main_v448 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  rv_v448 m c
theorem at18_v449 (c : Dev nD) : RV18 m c (Proc.devRef .tc main_v449) = val_main_v449 (F := F) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  rv_v449 m c
theorem at18_v450 (c : Dev nD) : RV18 m c (Proc.devRef .tc main_v450) = val_main_v450 (F := F) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  rv_v450 m c
theorem at18_v451 (c : Dev nD) : RV18 m c (Proc.devRef .tc main_v451) = val_main_v451 (F := F) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  rv_v451 m c
theorem rv_v456 (c : Dev nD) : RV19 m c (Proc.devRef .tc main_v456) = val_main_v456 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  st_v456 (RV18 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (at18_v448 m c) (at18_v449 m c) (at18_v450 m c) (at18_v451 m c)
theorem at19_arg0 (c : Dev nD) : RV19 m c (Proc.devRef .tc main_arg0) = (m ((c.tc : Thread nD τ).loc main_arg0)) :=
  (RV19_of m c _ (by decide)).trans ((RV18_of m c _ (by decide)).trans ((RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))))))))
theorem at19_arg1 (c : Dev nD) : RV19 m c (Proc.devRef .tc main_arg1) = (m ((c.tc : Thread nD τ).loc main_arg1)) :=
  (RV19_of m c _ (by decide)).trans ((RV18_of m c _ (by decide)).trans ((RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))))))))
theorem at19_arg2 (c : Dev nD) : RV19 m c (Proc.devRef .tc main_arg2) = (m ((c.tc : Thread nD τ).loc main_arg2)) :=
  (RV19_of m c _ (by decide)).trans ((RV18_of m c _ (by decide)).trans ((RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))))))))
theorem at19_arg3 (c : Dev nD) : RV19 m c (Proc.devRef .tc main_arg3) = (m ((c.tc : Thread nD τ).loc main_arg3)) :=
  (RV19_of m c _ (by decide)).trans ((RV18_of m c _ (by decide)).trans ((RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))))))))
theorem at19_arg4 (c : Dev nD) : RV19 m c (Proc.devRef .tc main_arg4) = (m ((c.tc : Thread nD τ).loc main_arg4)) :=
  (RV19_of m c _ (by decide)).trans ((RV18_of m c _ (by decide)).trans ((RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))))))))
theorem at19_arg5 (c : Dev nD) : RV19 m c (Proc.devRef .tc main_arg5) = (m ((c.tc : Thread nD τ).loc main_arg5)) :=
  (RV19_of m c _ (by decide)).trans ((RV18_of m c _ (by decide)).trans ((RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))))))))
theorem at19_arg6 (c : Dev nD) : RV19 m c (Proc.devRef .tc main_arg6) = (m ((c.tc : Thread nD τ).loc main_arg6)) :=
  (RV19_of m c _ (by decide)).trans ((RV18_of m c _ (by decide)).trans ((RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))))))))
theorem at19_arg7 (c : Dev nD) : RV19 m c (Proc.devRef .tc main_arg7) = (m ((c.tc : Thread nD τ).loc main_arg7)) :=
  (RV19_of m c _ (by decide)).trans ((RV18_of m c _ (by decide)).trans ((RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))))))))
theorem at19_arg8 (c : Dev nD) : RV19 m c (Proc.devRef .tc main_arg8) = (m ((c.tc : Thread nD τ).loc main_arg8)) :=
  (RV19_of m c _ (by decide)).trans ((RV18_of m c _ (by decide)).trans ((RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))))))))
theorem at19_arg9 (c : Dev nD) : RV19 m c (Proc.devRef .tc main_arg9) = (m ((c.tc : Thread nD τ).loc main_arg9)) :=
  (RV19_of m c _ (by decide)).trans ((RV18_of m c _ (by decide)).trans ((RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))))))))
theorem at19_arg10 (c : Dev nD) : RV19 m c (Proc.devRef .tc main_arg10) = (m ((c.tc : Thread nD τ).loc main_arg10)) :=
  (RV19_of m c _ (by decide)).trans ((RV18_of m c _ (by decide)).trans ((RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))))))))
theorem at19_arg11 (c : Dev nD) : RV19 m c (Proc.devRef .tc main_arg11) = (m ((c.tc : Thread nD τ).loc main_arg11)) :=
  (RV19_of m c _ (by decide)).trans ((RV18_of m c _ (by decide)).trans ((RV17_of m c _ (by decide)).trans ((RV16_of m c _ (by decide)).trans ((RV15_of m c _ (by decide)).trans ((RV14_of m c _ (by decide)).trans ((RV13_of m c _ (by decide)).trans ((RV12_of m c _ (by decide)).trans ((RV11_of m c _ (by decide)).trans ((RV10_of m c _ (by decide)).trans ((RV9_of m c _ (by decide)).trans ((RV8_of m c _ (by decide)).trans ((RV7_of m c _ (by decide)).trans ((RV6_of m c _ (by decide)).trans ((RV5_of m c _ (by decide)).trans ((RV4_of m c _ (by decide)).trans ((RV3_of m c _ (by decide)).trans ((RV2_of m c _ (by decide)).trans ((RV1_of m c _ (by decide)).trans (rfl)))))))))))))))))))

end Cert.ReferenceIdeal.Hand

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

/-- On every device, at ideal values, from any memory with zero counters: every weakly fair execution of the reference's @main
    terminates with the result buffer at its stage function of the arguments as launched, and the arguments unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v456) = val_main_v456 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run Cert.ReferenceIdeal.defs _ _).mono (fun r h c => ⟨(h c main_v456).trans (rv_v456 (F := Ideal) m c),
      (h c main_arg0).trans (at19_arg0 (F := Ideal) m c),
      (h c main_arg1).trans (at19_arg1 (F := Ideal) m c),
      (h c main_arg2).trans (at19_arg2 (F := Ideal) m c),
      (h c main_arg3).trans (at19_arg3 (F := Ideal) m c),
      (h c main_arg4).trans (at19_arg4 (F := Ideal) m c),
      (h c main_arg5).trans (at19_arg5 (F := Ideal) m c),
      (h c main_arg6).trans (at19_arg6 (F := Ideal) m c),
      (h c main_arg7).trans (at19_arg7 (F := Ideal) m c),
      (h c main_arg8).trans (at19_arg8 (F := Ideal) m c),
      (h c main_arg9).trans (at19_arg9 (F := Ideal) m c),
      (h c main_arg10).trans (at19_arg10 (F := Ideal) m c),
      (h c main_arg11).trans (at19_arg11 (F := Ideal) m c)⟩)
    (run_chain (F := Ideal) m ρ)

end Cert.ReferenceIdeal.Hand

end
-- ==== Proof.lean ====
/-
  The certificate. The kernel program applies four tiled input projections max(x·w + b, 0) and ten tiled graph-convolution
  epilogues (a scaled row-wise by the destination-degree scale)·w + b, launched between host stretches that compute the degree
  histograms, scale, gather along the edges and scatter-add into the destinations, exactly as the reference does with whole-array
  matrix products. Each launch's write-backs tile its output array, and on every tile the body's matrix product is the same sum
  over the contracted axis as the reference's; the bias row and the scale column reach the launch through a reshape where the
  reference broadcasts, which is the same entry. All other host operations are the same operations on the same operands in both
  programs, so the final stacked array is the same function of the arguments. No law of the extended reals beyond reading both
  sides at an index is needed, and the precondition is not used.
  The frames: every launch runs its body on whole staging buffers at every grid point and leaves its input arrays unchanged; the
  host stretches write only their own results; so every weakly fair execution terminates with the arguments as launched, at both
  instances of the kernel program. The reference is a sequence of host operations, read back the same way.
-/
import proofs.«418080_j49366354100286_4_alg».proof.Defs
import proofs.«418080_j49366354100286_4_alg».proof.Proof.Gen.Kernel
import proofs.«418080_j49366354100286_4_alg».proof.Proof.Gen.KernelIdeal
import proofs.«418080_j49366354100286_4_alg».proof.Proof.Gen.ReferenceIdeal
import proofs.«418080_j49366354100286_4_alg».proof.Proof.Gen.Pre_finite_inputs
import proofs.«418080_j49366354100286_4_alg».proof.Proof.Kernel.Run
import proofs.«418080_j49366354100286_4_alg».proof.Proof.KernelIdeal.Run
import proofs.«418080_j49366354100286_4_alg».proof.Proof.KernelIdeal.Value
import proofs.«418080_j49366354100286_4_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- An unscoped TensorCore reference of the idealized kernel is among those the final memory is read at. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

section Ideal
open Cert.KernelIdeal Cert.KernelIdeal.Gen Cert.KernelIdeal.GenP Cert.KernelIdeal.Hand

variable (m : (ℓ : Loc nD τ sig) → Buf (Elt Ideal) ℓ)

/-- Argument 0 ends as launched: no item of the program writes it. -/
theorem end_arg0 (c : Dev nD) : X49 m c main_arg0 = m ((c.tc : Thread nD τ).loc main_arg0) :=
  (congrFun (V49_eq m c).symm _).trans (V49_main_arg0 m (outsX m) c)
/-- Argument 1 ends as launched: no item of the program writes it. -/
theorem end_arg1 (c : Dev nD) : X49 m c main_arg1 = m ((c.tc : Thread nD τ).loc main_arg1) :=
  (congrFun (V49_eq m c).symm _).trans (V49_main_arg1 m (outsX m) c)
/-- Argument 2 ends as launched: no item of the program writes it. -/
theorem end_arg2 (c : Dev nD) : X49 m c main_arg2 = m ((c.tc : Thread nD τ).loc main_arg2) :=
  (congrFun (V49_eq m c).symm _).trans (V49_main_arg2 m (outsX m) c)
/-- Argument 3 ends as launched: no item of the program writes it. -/
theorem end_arg3 (c : Dev nD) : X49 m c main_arg3 = m ((c.tc : Thread nD τ).loc main_arg3) :=
  (congrFun (V49_eq m c).symm _).trans (V49_main_arg3 m (outsX m) c)
/-- Argument 4 ends as launched: no item of the program writes it. -/
theorem end_arg4 (c : Dev nD) : X49 m c main_arg4 = m ((c.tc : Thread nD τ).loc main_arg4) :=
  (congrFun (V49_eq m c).symm _).trans (V49_main_arg4 m (outsX m) c)
/-- Argument 5 ends as launched: no item of the program writes it. -/
theorem end_arg5 (c : Dev nD) : X49 m c main_arg5 = m ((c.tc : Thread nD τ).loc main_arg5) :=
  (congrFun (V49_eq m c).symm _).trans (V49_main_arg5 m (outsX m) c)
/-- Argument 6 ends as launched: no item of the program writes it. -/
theorem end_arg6 (c : Dev nD) : X49 m c main_arg6 = m ((c.tc : Thread nD τ).loc main_arg6) :=
  (congrFun (V49_eq m c).symm _).trans (V49_main_arg6 m (outsX m) c)
/-- Argument 7 ends as launched: no item of the program writes it. -/
theorem end_arg7 (c : Dev nD) : X49 m c main_arg7 = m ((c.tc : Thread nD τ).loc main_arg7) :=
  (congrFun (V49_eq m c).symm _).trans (V49_main_arg7 m (outsX m) c)
/-- Argument 8 ends as launched: no item of the program writes it. -/
theorem end_arg8 (c : Dev nD) : X49 m c main_arg8 = m ((c.tc : Thread nD τ).loc main_arg8) :=
  (congrFun (V49_eq m c).symm _).trans (V49_main_arg8 m (outsX m) c)
/-- Argument 9 ends as launched: no item of the program writes it. -/
theorem end_arg9 (c : Dev nD) : X49 m c main_arg9 = m ((c.tc : Thread nD τ).loc main_arg9) :=
  (congrFun (V49_eq m c).symm _).trans (V49_main_arg9 m (outsX m) c)
/-- Argument 10 ends as launched: no item of the program writes it. -/
theorem end_arg10 (c : Dev nD) : X49 m c main_arg10 = m ((c.tc : Thread nD τ).loc main_arg10) :=
  (congrFun (V49_eq m c).symm _).trans (V49_main_arg10 m (outsX m) c)
/-- Argument 11 ends as launched: no item of the program writes it. -/
theorem end_arg11 (c : Dev nD) : X49 m c main_arg11 = m ((c.tc : Thread nD τ).loc main_arg11) :=
  (congrFun (V49_eq m c).symm _).trans (V49_main_arg11 m (outsX m) c)

/-- The idealized kernel's run with its result named and its arguments unchanged. -/
theorem kernel_run (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v373) = X49 m c main_v373
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (Cert.KernelIdeal.defs (F := Ideal)) _ _).mono (fun r h c =>
    ⟨h c (Proc.devRef .tc main_v373) (mem_uc main_v373 (by decide)),
     (h c (Proc.devRef .tc main_arg0) (mem_uc main_arg0 (by decide))).trans (end_arg0 m c),
     (h c (Proc.devRef .tc main_arg1) (mem_uc main_arg1 (by decide))).trans (end_arg1 m c),
     (h c (Proc.devRef .tc main_arg2) (mem_uc main_arg2 (by decide))).trans (end_arg2 m c),
     (h c (Proc.devRef .tc main_arg3) (mem_uc main_arg3 (by decide))).trans (end_arg3 m c),
     (h c (Proc.devRef .tc main_arg4) (mem_uc main_arg4 (by decide))).trans (end_arg4 m c),
     (h c (Proc.devRef .tc main_arg5) (mem_uc main_arg5 (by decide))).trans (end_arg5 m c),
     (h c (Proc.devRef .tc main_arg6) (mem_uc main_arg6 (by decide))).trans (end_arg6 m c),
     (h c (Proc.devRef .tc main_arg7) (mem_uc main_arg7 (by decide))).trans (end_arg7 m c),
     (h c (Proc.devRef .tc main_arg8) (mem_uc main_arg8 (by decide))).trans (end_arg8 m c),
     (h c (Proc.devRef .tc main_arg9) (mem_uc main_arg9 (by decide))).trans (end_arg9 m c),
     (h c (Proc.devRef .tc main_arg10) (mem_uc main_arg10 (by decide))).trans (end_arg10 m c),
     (h c (Proc.devRef .tc main_arg11) (mem_uc main_arg11 (by decide))).trans (end_arg11 m c)⟩)
    (Cert.KernelIdeal.Hand.run (F := Ideal) m ρ)

end Ideal

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (kernel_run m ρ)

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.Hand.ref_run m ρ)

/-- Both idealized programs end with the same stacked array: the kernel's chain computes the reference's final stage of the
    arguments, and the arguments agree. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Hand.X49 m c Cert.KernelIdeal.main_v373, kernel_run m ρ, ?_⟩
  refine (θ_run (Cert.ReferenceIdeal.defs (F := Ideal)) _ _).mono (fun _ h c => ⟨(h c).1.trans ?_, (h c).2⟩) (Cert.ReferenceIdeal.Hand.ref_run m' ρ')
  rw [(hagree c).1, (hagree c).2.1, (hagree c).2.2.1, (hagree c).2.2.2.1, (hagree c).2.2.2.2.1, (hagree c).2.2.2.2.2.1, (hagree c).2.2.2.2.2.2.1,
    (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.KernelIdeal.Hand.result_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
